-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x1250000 : Shape := ⟨2, ![2, 1250000]⟩
abbrev S1250000 : Shape := ⟨1, ![1250000]⟩
abbrev S12x64 : Shape := ⟨2, ![12, 64]⟩
abbrev S64 : Shape := ⟨1, ![64]⟩
abbrev S3x64x64 : Shape := ⟨3, ![3, 64, 64]⟩
abbrev S3x64 : Shape := ⟨2, ![3, 64]⟩
abbrev S3x128x1 : Shape := ⟨3, ![3, 128, 1]⟩
abbrev S3x1 : Shape := ⟨2, ![3, 1]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x128x1 : S_.BroadcastsInDim S3x128x1 (![] : Fin 0 → Fin S3x128x1.rank)
  reducesTo_S3x128x1_S_d0_1_2 : S3x128x1.ReducesTo [0, 1, 2] S_
  bcast_S_S3x1 : S_.BroadcastsInDim S3x1 (![] : Fin 0 → Fin S3x1.rank)
  reducesTo_S3x1_S_d0_1 : S3x1.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x1250000 : S_.BroadcastsInDim S2x1250000 (![] : Fin 0 → Fin S2x1250000.rank)
  reducesTo_S2x1250000_S_d0_1 : S2x1250000.ReducesTo [0, 1] S_

variable [Facts]

def fn_part4 {F : FTy → Type} [FloatOps F] (main_arg1 : IVec S2x1250000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x1250000 32 := broadcastInDim S2x1250000 ![] bcast_S_S2x1250000 main_c_26
  let main_v70 : IVec S2x1250000 1 := cmpi .sge main_arg1 main_v69
  let main_c_27 : IVec S_ 32 := constantI S_ 32 100000#32
  let main_v71 : IVec S2x1250000 32 := broadcastInDim S2x1250000 ![] bcast_S_S2x1250000 main_c_27
  let main_v72 : IVec S2x1250000 1 := cmpi .slt main_arg1 main_v71
  let main_v73 : IVec S2x1250000 1 := andi main_v70 main_v72
  let main_c_28 : IVec S_ 1 := constantI S_ 1 1#1
  let main_v74 : IVec S_ 1 := (fun x v => Host.reduce IntOp.andi x v reducesTo_S2x1250000_S_d0_1 h_S_) main_v73 main_c_28
  let main_v75 : IVec S_ 1 := andi main_v68 main_v74
  main_v75

def fn_part3 {F : FTy → Type} [FloatOps F] (main_arg1 : IVec S2x1250000 32) (main_arg12 : FVec F S32 .f32) (main_arg13 : FVec F S32x1 .f32) (main_arg14 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg13
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_v63 main_v67

def fn_part2 {F : FTy → Type} [FloatOps F] (main_arg1 : IVec S2x1250000 32) (main_arg8 : FVec F S3x1 .f32) (main_arg9 : FVec F S3x64 .f32) (main_arg10 : FVec F S3x64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S3x1 .f32 := Host.absf main_arg8
  let main_cst_12 : FVec F S_ .f32 := constant S_ .f32 0x7F800000#32
  let main_v35 : FVec F S3x1 .f32 := broadcastInDim S3x1 ![] bcast_S_S3x1 main_cst_12
  let main_v36 : IVec S3x1 1 := cmpf .olt main_v34 main_v35
  let main_c_13 : IVec S_ 1 := constantI S_ 1 1#1
  let main_v37 : IVec S_ 1 := (fun x v => Host.reduce IntOp.andi x v reducesTo_S3x1_S_d0_1 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg1 main_arg12 main_arg13 main_arg14 main_v48 main_v49 main_v50

def fn_part1 {F : FTy → Type} [FloatOps F] (main_arg1 : IVec S2x1250000 32) (main_arg5 : FVec F S3x64x64 .f32) (main_arg6 : FVec F S3x64 .f32) (main_arg7 : FVec F S3x128x1 .f32) (main_arg8 : FVec F S3x1 .f32) (main_arg9 : FVec F S3x64 .f32) (main_arg10 : FVec F S3x64 .f32) (main_arg11 : FVec F S64x32 .f32) (main_arg12 : FVec F S32 .f32) (main_arg13 : FVec F S32x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x128x1 .f32 := Host.absf main_arg7
  let main_cst_10 : FVec F S_ .f32 := constant S_ .f32 0x7F800000#32
  let main_v30 : FVec F S3x128x1 .f32 := broadcastInDim S3x128x1 ![] bcast_S_S3x128x1 main_cst_10
  let main_v31 : IVec S3x128x1 1 := cmpf .olt main_v29 main_v30
  let main_c_11 : IVec S_ 1 := constantI S_ 1 1#1
  let main_v32 : IVec S_ 1 := (fun x v => Host.reduce IntOp.andi x v reducesTo_S3x128x1_S_d0_1_2 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S100000x12 .f32) (main_arg1 : IVec S2x1250000 32) (main_arg2 : FVec F S1250000 .f32) (main_arg3 : FVec F S12x64 .f32) (main_arg4 : FVec F S64 .f32) (main_arg5 : FVec F S3x64x64 .f32) (main_arg6 : FVec F S3x64 .f32) (main_arg7 : FVec F S3x128x1 .f32) (main_arg8 : FVec F S3x1 .f32) (main_arg9 : FVec F S3x64 .f32) (main_arg10 : FVec F S3x64 .f32) (main_arg11 : FVec F S64x32 .f32) (main_arg12 : FVec F S32 .f32) (main_arg13 : FVec F S32x1 .f32) (main_arg14 : FVec F S1 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S12x64 .f32 := Host.absf main_arg3
  let main_cst_2 : FVec F S_ .f32 := constant S_ .f32 0x7F800000#32
  let main_v10 : FVec F S12x64 .f32 := broadcastInDim S12x64 ![] bcast_S_S12x64 main_cst_2
  let main_v11 : IVec S12x64 1 := cmpf .olt main_v9 main_v10
  let main_c_3 : IVec S_ 1 := constantI S_ 1 1#1
  let main_v12 : IVec S_ 1 := (fun x v => Host.reduce IntOp.andi x v reducesTo_S12x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S100000x12 : Shape := ⟨2, ![100000, 12]⟩
abbrev S2x1250000 : Shape := ⟨2, ![2, 1250000]⟩
abbrev S1250000 : Shape := ⟨1, ![1250000]⟩
abbrev S12x64 : Shape := ⟨2, ![12, 64]⟩
abbrev S64 : Shape := ⟨1, ![64]⟩
abbrev S3x64x64 : Shape := ⟨3, ![3, 64, 64]⟩
abbrev S3x64 : Shape := ⟨2, ![3, 64]⟩
abbrev S3x128x1 : Shape := ⟨3, ![3, 128, 1]⟩
abbrev S3x1 : Shape := ⟨2, ![3, 1]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1250000 : Shape := ⟨2, ![1, 1250000]⟩
abbrev S1250000x1 : Shape := ⟨2, ![1250000, 1]⟩
abbrev S1x64 : Shape := ⟨2, ![1, 64]⟩
abbrev S100000x64 : Shape := ⟨2, ![100000, 64]⟩
abbrev S5000x12 : Shape := ⟨2, ![5000, 12]⟩
abbrev S5000x64 : Shape := ⟨2, ![5000, 64]⟩
abbrev S1x64x64 : Shape := ⟨3, ![1, 64, 64]⟩
abbrev S64x64 : Shape := ⟨2, ![64, 64]⟩
abbrev S_ : Shape := ⟨0, ![]⟩
abbrev S1x1 : Shape := ⟨2, ![1, 1]⟩
abbrev S1250000x64 : Shape := ⟨2, ![1250000, 64]⟩
abbrev S1x128x1 : Shape := ⟨3, ![1, 128, 1]⟩
abbrev S128x1 : Shape := ⟨2, ![128, 1]⟩
abbrev S5000x1 : Shape := ⟨2, ![5000, 1]⟩
abbrev S64x1 : Shape := ⟨2, ![64, 1]⟩
abbrev S5000 : Shape := ⟨1, ![5000]⟩
abbrev S1x32 : Shape := ⟨2, ![1, 32]⟩
abbrev S100000x32 : Shape := ⟨2, ![100000, 32]⟩
abbrev S5000x32 : Shape := ⟨2, ![5000, 32]⟩
abbrev S100000x1 : Shape := ⟨2, ![100000, 1]⟩

abbrev nBuf : Space → Nat
  | .hbm => 242
  | .vmem => 132
  | .smem => 0
  | _ => 0

abbrev hbmTy0_0 (i : Nat) : BufTy := match i % 128 with
  | 0 => ⟨S100000x12, .f32⟩
  | 1 => ⟨S2x1250000, .i32⟩
  | 2 => ⟨S1250000, .f32⟩
  | 3 => ⟨S12x64, .f32⟩
  | 4 => ⟨S64, .f32⟩
  | 5 => ⟨S3x64x64, .f32⟩
  | 6 => ⟨S3x64, .f32⟩
  | 7 => ⟨S3x128x1, .f32⟩
  | 8 => ⟨S3x1, .f32⟩
  | 9 => ⟨S3x64, .f32⟩
  | 10 => ⟨S3x64, .f32⟩
  | 11 => ⟨S64x32, .f32⟩
  | 12 => ⟨S32, .f32⟩
  | 13 => ⟨S32x1, .f32⟩
  | 14 => ⟨S1, .f32⟩
  | 15 => ⟨S1x1250000, .i32⟩
  | 16 => ⟨S1250000, .i32⟩
  | 17 => ⟨S1x1250000, .i32⟩
  | 18 => ⟨S1250000, .i32⟩
  | 19 => ⟨S1250000x1, .f32⟩
  | 20 => ⟨S1x64, .f32⟩
  | 21 => ⟨S100000x64, .f32⟩
  | 22 => ⟨S1x64x64, .f32⟩
  | 23 => ⟨S64x64, .f32⟩
  | 24 => ⟨S1x64, .f32⟩
  | 25 => ⟨S64, .f32⟩
  | 26 => ⟨S1x64, .f32⟩
  | 27 => ⟨S100000x64, .f32⟩
  | 28 => ⟨S_, .i32⟩
  | 29 => ⟨S1250000, .i32⟩
  | 30 => ⟨S1250000, .i1⟩
  | 31 => ⟨S_, .i32⟩
  | 32 => ⟨S1250000, .i32⟩
  | 33 => ⟨S1250000, .i32⟩
  | 34 => ⟨S1250000, .i32⟩
  | 35 => ⟨S1250000x1, .i32⟩
  | 36 => ⟨S1, .i32⟩
  | 37 => ⟨S_, .i32⟩
  | 38 => ⟨S1250000x1, .i32⟩
  | 39 => ⟨S1250000x1, .i1⟩
  | 40 => ⟨S1x1, .i32⟩
  | 41 => ⟨S1250000x1, .i32⟩
  | 42 => ⟨S1250000x1, .i1⟩
  | 43 => ⟨S1250000x1, .i1⟩
  | 44 => ⟨S_, .i1⟩
  | 45 => ⟨S1250000, .i1⟩
  | 46 => ⟨S1250000x64, .f32⟩
  | 47 => ⟨S1250000x64, .i1⟩
  | 48 => ⟨S_, .f32⟩
  | 49 => ⟨S1250000x64, .f32⟩
  | 50 => ⟨S1250000x64, .f32⟩
  | 51 => ⟨S_, .i32⟩
  | 52 => ⟨S1250000, .i32⟩
  | 53 => ⟨S1250000, .i1⟩
  | 54 => ⟨S_, .i32⟩
  | 55 => ⟨S1250000, .i32⟩
  | 56 => ⟨S1250000, .i32⟩
  | 57 => ⟨S1250000, .i32⟩
  | 58 => ⟨S1250000x1, .i32⟩
  | 59 => ⟨S1, .i32⟩
  | 60 => ⟨S_, .i32⟩
  | 61 => ⟨S1250000x1, .i32⟩
  | 62 => ⟨S1250000x1, .i1⟩
  | 63 => ⟨S1x1, .i32⟩
  | 64 => ⟨S1250000x1, .i32⟩
  | 65 => ⟨S1250000x1, .i1⟩
  | 66 => ⟨S1250000x1, .i1⟩
  | 67 => ⟨S_, .i1⟩
  | 68 => ⟨S1250000, .i1⟩
  | 69 => ⟨S1250000x64, .f32⟩
  | 70 => ⟨S1250000x64, .i1⟩
  | 71 => ⟨S_, .f32⟩
  | 72 => ⟨S1250000x64, .f32⟩
  | 73 => ⟨S1250000x64, .f32⟩
  | 74 => ⟨S1x128x1, .f32⟩
  | 75 => ⟨S128x1, .f32⟩
  | 76 => ⟨S1x1, .f32⟩
  | 77 => ⟨S1, .f32⟩
  | 78 => ⟨S1x1, .f32⟩
  | 79 => ⟨S1250000x1, .f32⟩
  | 80 => ⟨S1x1, .f32⟩
  | 81 => ⟨S1x1, .f32⟩
  | 82 => ⟨S1250000x64, .f32⟩
  | 83 => ⟨S_, .f32⟩
  | 84 => ⟨S100000x64, .f32⟩
  | 85 => ⟨S1250000x1, .i32⟩
  | 86 => ⟨S100000x64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S1x64, .f32⟩
  | 93 => ⟨S100000x64, .f32⟩
  | 94 => ⟨S1x64x64, .f32⟩
  | 95 => ⟨S64x64, .f32⟩
  | 96 => ⟨S1x64, .f32⟩
  | 97 => ⟨S64, .f32⟩
  | 98 => ⟨S1x64, .f32⟩
  | 99 => ⟨S100000x64, .f32⟩
  | 100 => ⟨S_, .i32⟩
  | 101 => ⟨S1250000, .i32⟩
  | 102 => ⟨S1250000, .i1⟩
  | 103 => ⟨S_, .i32⟩
  | 104 => ⟨S1250000, .i32⟩
  | 105 => ⟨S1250000, .i32⟩
  | 106 => ⟨S1250000, .i32⟩
  | 107 => ⟨S1250000x1, .i32⟩
  | 108 => ⟨S1, .i32⟩
  | 109 => ⟨S_, .i32⟩
  | 110 => ⟨S1250000x1, .i32⟩
  | 111 => ⟨S1250000x1, .i1⟩
  | 112 => ⟨S1x1, .i32⟩
  | 113 => ⟨S1250000x1, .i32⟩
  | 114 => ⟨S1250000x1, .i1⟩
  | 115 => ⟨S1250000x1, .i1⟩
  | 116 => ⟨S_, .i1⟩
  | 117 => ⟨S1250000, .i1⟩
  | 118 => ⟨S1250000x64, .f32⟩
  | 119 => ⟨S1250000x64, .i1⟩
  | 120 => ⟨S_, .f32⟩
  | 121 => ⟨S1250000x64, .f32⟩
  | 122 => ⟨S1250000x64, .f32⟩
  | 123 => ⟨S_, .i32⟩
  | 124 => ⟨S1250000, .i32⟩
  | 125 => ⟨S1250000, .i1⟩
  | 126 => ⟨S_, .i32⟩
  | 127 => ⟨S1250000, .i32⟩
  | _ => ⟨S100000x12, .f32⟩

abbrev hbmTy0_1 (i : Nat) : BufTy := match i % 128 with
  | 0 => ⟨S1250000, .i32⟩
  | 1 => ⟨S1250000, .i32⟩
  | 2 => ⟨S1250000x1, .i32⟩
  | 3 => ⟨S1, .i32⟩
  | 4 => ⟨S_, .i32⟩
  | 5 => ⟨S1250000x1, .i32⟩
  | 6 => ⟨S1250000x1, .i1⟩
  | 7 => ⟨S1x1, .i32⟩
  | 8 => ⟨S1250000x1, .i32⟩
  | 9 => ⟨S1250000x1, .i1⟩
  | 10 => ⟨S1250000x1, .i1⟩
  | 11 => ⟨S_, .i1⟩
  | 12 => ⟨S1250000, .i1⟩
  | 13 => ⟨S1250000x64, .f32⟩
  | 14 => ⟨S1250000x64, .i1⟩
  | 15 => ⟨S_, .f32⟩
  | 16 => ⟨S1250000x64, .f32⟩
  | 17 => ⟨S1250000x64, .f32⟩
  | 18 => ⟨S1x128x1, .f32⟩
  | 19 => ⟨S128x1, .f32⟩
  | 20 => ⟨S1x1, .f32⟩
  | 21 => ⟨S1, .f32⟩
  | 22 => ⟨S1x1, .f32⟩
  | 23 => ⟨S1250000x1, .f32⟩
  | 24 => ⟨S1x1, .f32⟩
  | 25 => ⟨S1x1, .f32⟩
  | 26 => ⟨S1250000x64, .f32⟩
  | 27 => ⟨S_, .f32⟩
  | 28 => ⟨S100000x64, .f32⟩
  | 29 => ⟨S1250000x1, .i32⟩
  | 30 => ⟨S100000x64, .f32⟩
  | 31 => ⟨S1x64, .f32⟩
  | 32 => ⟨S64, .f32⟩
  | 33 => ⟨S1x64, .f32⟩
  | 34 => ⟨S64, .f32⟩
  | 35 => ⟨S1x64, .f32⟩
  | 36 => ⟨S1x64, .f32⟩
  | 37 => ⟨S100000x64, .f32⟩
  | 38 => ⟨S1x64x64, .f32⟩
  | 39 => ⟨S64x64, .f32⟩
  | 40 => ⟨S1x64, .f32⟩
  | 41 => ⟨S64, .f32⟩
  | 42 => ⟨S1x64, .f32⟩
  | 43 => ⟨S100000x64, .f32⟩
  | 44 => ⟨S_, .i32⟩
  | 45 => ⟨S1250000, .i32⟩
  | 46 => ⟨S1250000, .i1⟩
  | 47 => ⟨S_, .i32⟩
  | 48 => ⟨S1250000, .i32⟩
  | 49 => ⟨S1250000, .i32⟩
  | 50 => ⟨S1250000, .i32⟩
  | 51 => ⟨S1250000x1, .i32⟩
  | 52 => ⟨S1, .i32⟩
  | 53 => ⟨S_, .i32⟩
  | 54 => ⟨S1250000x1, .i32⟩
  | 55 => ⟨S1250000x1, .i1⟩
  | 56 => ⟨S1x1, .i32⟩
  | 57 => ⟨S1250000x1, .i32⟩
  | 58 => ⟨S1250000x1, .i1⟩
  | 59 => ⟨S1250000x1, .i1⟩
  | 60 => ⟨S_, .i1⟩
  | 61 => ⟨S1250000, .i1⟩
  | 62 => ⟨S1250000x64, .f32⟩
  | 63 => ⟨S1250000x64, .i1⟩
  | 64 => ⟨S_, .f32⟩
  | 65 => ⟨S1250000x64, .f32⟩
  | 66 => ⟨S1250000x64, .f32⟩
  | 67 => ⟨S_, .i32⟩
  | 68 => ⟨S1250000, .i32⟩
  | 69 => ⟨S1250000, .i1⟩
  | 70 => ⟨S_, .i32⟩
  | 71 => ⟨S1250000, .i32⟩
  | 72 => ⟨S1250000, .i32⟩
  | 73 => ⟨S1250000, .i32⟩
  | 74 => ⟨S1250000x1, .i32⟩
  | 75 => ⟨S1, .i32⟩
  | 76 => ⟨S_, .i32⟩
  | 77 => ⟨S1250000x1, .i32⟩
  | 78 => ⟨S1250000x1, .i1⟩
  | 79 => ⟨S1x1, .i32⟩
  | 80 => ⟨S1250000x1, .i32⟩
  | 81 => ⟨S1250000x1, .i1⟩
  | 82 => ⟨S1250000x1, .i1⟩
  | 83 => ⟨S_, .i1⟩
  | 84 => ⟨S1250000, .i1⟩
  | 85 => ⟨S1250000x64, .f32⟩
  | 86 => ⟨S1250000x64, .i1⟩
  | 87 => ⟨S_, .f32⟩
  | 88 => ⟨S1250000x64, .f32⟩
  | 89 => ⟨S1250000x64, .f32⟩
  | 90 => ⟨S1x128x1, .f32⟩
  | 91 => ⟨S128x1, .f32⟩
  | 92 => ⟨S1x1, .f32⟩
  | 93 => ⟨S1, .f32⟩
  | 94 => ⟨S1x1, .f32⟩
  | 95 => ⟨S1250000x1, .f32⟩
  | 96 => ⟨S1x1, .f32⟩
  | 97 => ⟨S1x1, .f32⟩
  | 98 => ⟨S1250000x64, .f32⟩
  | 99 => ⟨S_, .f32⟩
  | 100 => ⟨S100000x64, .f32⟩
  | 101 => ⟨S1250000x1, .i32⟩
  | 102 => ⟨S100000x64, .f32⟩
  | 103 => ⟨S1x64, .f32⟩
  | 104 => ⟨S64, .f32⟩
  | 105 => ⟨S1x64, .f32⟩
  | 106 => ⟨S64, .f32⟩
  | 107 => ⟨S1x64, .f32⟩
  | 108 => ⟨S1x64, .f32⟩
  | 109 => ⟨S100000x64, .f32⟩
  | 110 => ⟨S1x32, .f32⟩
  | 111 => ⟨S100000x32, .f32⟩
  | 112 => ⟨S1x1, .f32⟩
  | 113 => ⟨S100000x1, .f32⟩
  | _ => ⟨S100000x12, .f32⟩

abbrev hbmTy (i : Nat) : BufTy := match i / 128 with
  | 0 => hbmTy0_0 i
  | 1 => hbmTy0_1 i
  | _ => ⟨S100000x12, .f32⟩

abbrev vmemTy0_0 (i : Nat) : BufTy := match i % 128 with
  | 0 => ⟨S5000x12, .f32⟩
  | 1 => ⟨S5000x12, .f32⟩
  | 2 => ⟨S12x64, .f32⟩
  | 3 => ⟨S1x64, .f32⟩
  | 4 => ⟨S5000x64, .f32⟩
  | 5 => ⟨S5000x64, .f32⟩
  | 6 => ⟨S5000x64, .f32⟩
  | 7 => ⟨S5000x64, .f32⟩
  | 8 => ⟨S64x64, .f32⟩
  | 9 => ⟨S1x64, .f32⟩
  | 10 => ⟨S5000x64, .f32⟩
  | 11 => ⟨S5000x64, .f32⟩
  | 12 => ⟨S5000x64, .f32⟩
  | 13 => ⟨S5000x64, .f32⟩
  | 14 => ⟨S5000x64, .f32⟩
  | 15 => ⟨S5000x64, .f32⟩
  | 16 => ⟨S128x1, .f32⟩
  | 17 => ⟨S1x1, .f32⟩
  | 18 => ⟨S5000x1, .f32⟩
  | 19 => ⟨S5000x1, .f32⟩
  | 20 => ⟨S1x1, .f32⟩
  | 21 => ⟨S1x1, .f32⟩
  | 22 => ⟨S1x1, .f32⟩
  | 23 => ⟨S1x1, .f32⟩
  | 24 => ⟨S5000x1, .f32⟩
  | 25 => ⟨S5000x1, .f32⟩
  | 26 => ⟨S5000x64, .f32⟩
  | 27 => ⟨S5000x64, .f32⟩
  | 28 => ⟨S5000x1, .f32⟩
  | 29 => ⟨S5000x1, .f32⟩
  | 30 => ⟨S1x1, .f32⟩
  | 31 => ⟨S1x1, .f32⟩
  | 32 => ⟨S5000x64, .f32⟩
  | 33 => ⟨S5000x64, .f32⟩
  | 34 => ⟨S5000x64, .f32⟩
  | 35 => ⟨S5000x64, .f32⟩
  | 36 => ⟨S5000x64, .f32⟩
  | 37 => ⟨S5000x64, .f32⟩
  | 38 => ⟨S5000x64, .f32⟩
  | 39 => ⟨S5000x64, .f32⟩
  | 40 => ⟨S1x64, .f32⟩
  | 41 => ⟨S1x64, .f32⟩
  | 42 => ⟨S5000x64, .f32⟩
  | 43 => ⟨S5000x64, .f32⟩
  | 44 => ⟨S5000x64, .f32⟩
  | 45 => ⟨S5000x64, .f32⟩
  | 46 => ⟨S64x64, .f32⟩
  | 47 => ⟨S1x64, .f32⟩
  | 48 => ⟨S5000x64, .f32⟩
  | 49 => ⟨S5000x64, .f32⟩
  | 50 => ⟨S5000x64, .f32⟩
  | 51 => ⟨S5000x64, .f32⟩
  | 52 => ⟨S5000x64, .f32⟩
  | 53 => ⟨S5000x64, .f32⟩
  | 54 => ⟨S128x1, .f32⟩
  | 55 => ⟨S1x1, .f32⟩
  | 56 => ⟨S5000x1, .f32⟩
  | 57 => ⟨S5000x1, .f32⟩
  | 58 => ⟨S1x1, .f32⟩
  | 59 => ⟨S1x1, .f32⟩
  | 60 => ⟨S1x1, .f32⟩
  | 61 => ⟨S1x1, .f32⟩
  | 62 => ⟨S5000x1, .f32⟩
  | 63 => ⟨S5000x1, .f32⟩
  | 64 => ⟨S5000x64, .f32⟩
  | 65 => ⟨S5000x64, .f32⟩
  | 66 => ⟨S5000x1, .f32⟩
  | 67 => ⟨S5000x1, .f32⟩
  | 68 => ⟨S1x1, .f32⟩
  | 69 => ⟨S1x1, .f32⟩
  | 70 => ⟨S5000x64, .f32⟩
  | 71 => ⟨S5000x64, .f32⟩
  | 72 => ⟨S5000x64, .f32⟩
  | 73 => ⟨S5000x64, .f32⟩
  | 74 => ⟨S5000x64, .f32⟩
  | 75 => ⟨S5000x64, .f32⟩
  | 76 => ⟨S5000x64, .f32⟩
  | 77 => ⟨S5000x64, .f32⟩
  | 78 => ⟨S1x64, .f32⟩
  | 79 => ⟨S1x64, .f32⟩
  | 80 => ⟨S5000x64, .f32⟩
  | 81 => ⟨S5000x64, .f32⟩
  | 82 => ⟨S5000x64, .f32⟩
  | 83 => ⟨S5000x64, .f32⟩
  | 84 => ⟨S64x64, .f32⟩
  | 85 => ⟨S1x64, .f32⟩
  | 86 => ⟨S5000x64, .f32⟩
  | 87 => ⟨S5000x64, .f32⟩
  | 88 => ⟨S5000x64, .f32⟩
  | 89 => ⟨S5000x64, .f32⟩
  | 90 => ⟨S5000x64, .f32⟩
  | 91 => ⟨S5000x64, .f32⟩
  | 92 => ⟨S128x1, .f32⟩
  | 93 => ⟨S1x1, .f32⟩
  | 94 => ⟨S5000x1, .f32⟩
  | 95 => ⟨S5000x1, .f32⟩
  | 96 => ⟨S1x1, .f32⟩
  | 97 => ⟨S1x1, .f32⟩
  | 98 => ⟨S1x1, .f32⟩
  | 99 => ⟨S1x1, .f32⟩
  | 100 => ⟨S5000x1, .f32⟩
  | 101 => ⟨S5000x1, .f32⟩
  | 102 => ⟨S5000x64, .f32⟩
  | 103 => ⟨S5000x64, .f32⟩
  | 104 => ⟨S5000x1, .f32⟩
  | 105 => ⟨S5000x1, .f32⟩
  | 106 => ⟨S1x1, .f32⟩
  | 107 => ⟨S1x1, .f32⟩
  | 108 => ⟨S5000x64, .f32⟩
  | 109 => ⟨S5000x64, .f32⟩
  | 110 => ⟨S5000x64, .f32⟩
  | 111 => ⟨S5000x64, .f32⟩
  | 112 => ⟨S5000x64, .f32⟩
  | 113 => ⟨S5000x64, .f32⟩
  | 114 => ⟨S5000x64, .f32⟩
  | 115 => ⟨S5000x64, .f32⟩
  | 116 => ⟨S1x64, .f32⟩
  | 117 => ⟨S1x64, .f32⟩
  | 118 => ⟨S5000x64, .f32⟩
  | 119 => ⟨S5000x64, .f32⟩
  | 120 => ⟨S5000x64, .f32⟩
  | 121 => ⟨S5000x64, .f32⟩
  | 122 => ⟨S64x32, .f32⟩
  | 123 => ⟨S1x32, .f32⟩
  | 124 => ⟨S5000x32, .f32⟩
  | 125 => ⟨S5000x32, .f32⟩
  | 126 => ⟨S5000x32, .f32⟩
  | 127 => ⟨S5000x32, .f32⟩
  | _ => ⟨S100000x12, .f32⟩

abbrev vmemTy0_1 (i : Nat) : BufTy := match i % 128 with
  | 0 => ⟨S32x1, .f32⟩
  | 1 => ⟨S1x1, .f32⟩
  | 2 => ⟨S5000x1, .f32⟩
  | 3 => ⟨S5000x1, .f32⟩
  | _ => ⟨S100000x12, .f32⟩

abbrev vmemTy (i : Nat) : BufTy := match i / 128 with
  | 0 => vmemTy0_0 i
  | 1 => vmemTy0_1 i
  | _ => ⟨S100000x12, .f32⟩

abbrev bufTy : (tb : Table) → Fin (tcTables nBuf tb) → BufTy
  | .hbm, ⟨i, _⟩ => hbmTy i
  | .local _ .vmem, ⟨i, _⟩ => vmemTy i
  | _, _ => ⟨S100000x12, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  ofTc nBuf bufTy 0 126 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v13 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20_0 : Ref sig .tc := ⟨.hbm, 79, rfl⟩
abbrev main_v20_1 : Ref sig .tc := ⟨.hbm, 80, rfl⟩
abbrev main_v20_2 : Ref sig .tc := ⟨.hbm, 81, rfl⟩
abbrev main_v21 : Ref sig .tc := ⟨.hbm, 82, rfl⟩
abbrev main_cst : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v38 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_call3_cst : Ref sig .tc := ⟨.hbm, 143, rfl⟩
abbrev main_call3_v15 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45_0 : Ref sig .tc := ⟨.hbm, 151, rfl⟩
abbrev main_v45_1 : Ref sig .tc := ⟨.hbm, 152, rfl⟩
abbrev main_v45_2 : Ref sig .tc := ⟨.hbm, 153, rfl⟩
abbrev main_v46 : Ref sig .tc := ⟨.hbm, 154, rfl⟩
abbrev main_cst_0 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_call4_c : Ref sig .tc := ⟨.hbm, 172, rfl⟩
abbrev main_call4_v0 : Ref sig .tc := ⟨.hbm, 173, rfl⟩
abbrev main_call4_v1 : Ref sig .tc := ⟨.hbm, 174, rfl⟩
abbrev main_call4_c_0 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_call4_v5 : Ref sig .tc := ⟨.hbm, 179, rfl⟩
abbrev main_call4_c_1 : Ref sig .tc := ⟨.hbm, 180, rfl⟩
abbrev main_call4_c_2 : Ref sig .tc := ⟨.hbm, 181, rfl⟩
abbrev main_call4_v6 : Ref sig .tc := ⟨.hbm, 182, rfl⟩
abbrev main_call4_v7 : Ref sig .tc := ⟨.hbm, 183, rfl⟩
abbrev main_call4_v8 : Ref sig .tc := ⟨.hbm, 184, rfl⟩
abbrev main_call4_v9 : Ref sig .tc := ⟨.hbm, 185, rfl⟩
abbrev main_call4_v10 : Ref sig .tc := ⟨.hbm, 186, rfl⟩
abbrev main_call4_v11 : Ref sig .tc := ⟨.hbm, 187, rfl⟩
abbrev main_call4_c_3 : Ref sig .tc := ⟨.hbm, 188, rfl⟩
abbrev main_call4_v12 : Ref sig .tc := ⟨.hbm, 189, rfl⟩
abbrev main_call4_v13 : Ref sig .tc := ⟨.hbm, 190, rfl⟩
abbrev main_call4_v14 : Ref sig .tc := ⟨.hbm, 191, rfl⟩
abbrev main_call4_cst : Ref sig .tc := ⟨.hbm, 192, rfl⟩
abbrev main_call4_v15 : Ref sig .tc := ⟨.hbm, 193, rfl⟩
abbrev main_v63 : Ref sig .tc := ⟨.hbm, 194, rfl⟩
abbrev main_call5_c : Ref sig .tc := ⟨.hbm, 195, rfl⟩
abbrev main_call5_v0 : Ref sig .tc := ⟨.hbm, 196, rfl⟩
abbrev main_call5_v1 : Ref sig .tc := ⟨.hbm, 197, rfl⟩
abbrev main_call5_c_0 : Ref sig .tc := ⟨.hbm, 198, rfl⟩
abbrev main_call5_v2 : Ref sig .tc := ⟨.hbm, 199, rfl⟩
abbrev main_call5_v3 : Ref sig .tc := ⟨.hbm, 200, rfl⟩
abbrev main_call5_v4 : Ref sig .tc := ⟨.hbm, 201, rfl⟩
abbrev main_call5_v5 : Ref sig .tc := ⟨.hbm, 202, rfl⟩
abbrev main_call5_c_1 : Ref sig .tc := ⟨.hbm, 203, rfl⟩
abbrev main_call5_c_2 : Ref sig .tc := ⟨.hbm, 204, rfl⟩
abbrev main_call5_v6 : Ref sig .tc := ⟨.hbm, 205, rfl⟩
abbrev main_call5_v7 : Ref sig .tc := ⟨.hbm, 206, rfl⟩
abbrev main_call5_v8 : Ref sig .tc := ⟨.hbm, 207, rfl⟩
abbrev main_call5_v9 : Ref sig .tc := ⟨.hbm, 208, rfl⟩
abbrev main_call5_v10 : Ref sig .tc := ⟨.hbm, 209, rfl⟩
abbrev main_call5_v11 : Ref sig .tc := ⟨.hbm, 210, rfl⟩
abbrev main_call5_c_3 : Ref sig .tc := ⟨.hbm, 211, rfl⟩
abbrev main_call5_v12 : Ref sig .tc := ⟨.hbm, 212, rfl⟩
abbrev main_call5_v13 : Ref sig .tc := ⟨.hbm, 213, rfl⟩
abbrev main_call5_v14 : Ref sig .tc := ⟨.hbm, 214, rfl⟩
abbrev main_call5_cst : Ref sig .tc := ⟨.hbm, 215, rfl⟩
abbrev main_call5_v15 : Ref sig .tc := ⟨.hbm, 216, rfl⟩
abbrev main_v64 : Ref sig .tc := ⟨.hbm, 217, rfl⟩
abbrev main_v65 : Ref sig .tc := ⟨.hbm, 218, rfl⟩
abbrev main_v66 : Ref sig .tc := ⟨.hbm, 219, rfl⟩
abbrev main_v67 : Ref sig .tc := ⟨.hbm, 220, rfl⟩
abbrev main_v68 : Ref sig .tc := ⟨.hbm, 221, rfl⟩
abbrev main_v69 : Ref sig .tc := ⟨.hbm, 222, rfl⟩
abbrev main_v70_0 : Ref sig .tc := ⟨.hbm, 223, rfl⟩
abbrev main_v70_1 : Ref sig .tc := ⟨.hbm, 224, rfl⟩
abbrev main_v70_2 : Ref sig .tc := ⟨.hbm, 225, rfl⟩
abbrev main_v71 : Ref sig .tc := ⟨.hbm, 226, rfl⟩
abbrev main_cst_1 : Ref sig .tc := ⟨.hbm, 227, rfl⟩
abbrev main_v72 : Ref sig .tc := ⟨.hbm, 228, rfl⟩
abbrev main_v73 : Ref sig .tc := ⟨.hbm, 229, rfl⟩
abbrev main_v74 : Ref sig .tc := ⟨.hbm, 230, rfl⟩
abbrev main_v75 : Ref sig .tc := ⟨.hbm, 231, rfl⟩
abbrev main_v76 : Ref sig .tc := ⟨.hbm, 232, rfl⟩
abbrev main_v77 : Ref sig .tc := ⟨.hbm, 233, rfl⟩
abbrev main_v78 : Ref sig .tc := ⟨.hbm, 234, rfl⟩
abbrev main_v79 : Ref sig .tc := ⟨.hbm, 235, rfl⟩
abbrev main_v80 : Ref sig .tc := ⟨.hbm, 236, rfl⟩
abbrev main_v81 : Ref sig .tc := ⟨.hbm, 237, rfl⟩
abbrev main_v82 : Ref sig .tc := ⟨.hbm, 238, rfl⟩
abbrev main_v83 : Ref sig .tc := ⟨.hbm, 239, rfl⟩
abbrev main_v84 : Ref sig .tc := ⟨.hbm, 240, rfl⟩
abbrev main_v85 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg4_1 : Ref sig .tc := ⟨.vmem, 57, rfl⟩
abbrev cc6_stg5_0 : Ref sig .tc := ⟨.vmem, 58, rfl⟩
abbrev cc6_stg6_0 : Ref sig .tc := ⟨.vmem, 59, rfl⟩
abbrev cc6_scratch0 : Ref sig .tc := ⟨.vmem, 60, rfl⟩
abbrev cc6_scratch1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg2_1 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg5_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg3_1 : Ref sig .tc := ⟨.vmem, 87, rfl⟩
abbrev cc10_stg0_0 : Ref sig .tc := ⟨.vmem, 88, rfl⟩
abbrev cc10_stg0_1 : Ref sig .tc := ⟨.vmem, 89, rfl⟩
abbrev cc10_stg1_0 : Ref sig .tc := ⟨.vmem, 90, rfl⟩
abbrev cc10_stg1_1 : Ref sig .tc := ⟨.vmem, 91, rfl⟩
abbrev cc10_stg2_0 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg4_1 : Ref sig .tc := ⟨.vmem, 95, rfl⟩
abbrev cc10_stg5_0 : Ref sig .tc := ⟨.vmem, 96, rfl⟩
abbrev cc10_stg6_0 : Ref sig .tc := ⟨.vmem, 97, rfl⟩
abbrev cc10_scratch0 : Ref sig .tc := ⟨.vmem, 98, rfl⟩
abbrev cc10_scratch1 : Ref sig .tc := ⟨.vmem, 99, rfl⟩
abbrev cc11_stg0_0 : Ref sig .tc := ⟨.vmem, 100, rfl⟩
abbrev cc11_stg0_1 : Ref sig .tc := ⟨.vmem, 101, rfl⟩
abbrev cc11_stg1_0 : Ref sig .tc := ⟨.vmem, 102, rfl⟩
abbrev cc11_stg1_1 : Ref sig .tc := ⟨.vmem, 103, rfl⟩
abbrev cc11_stg2_0 : Ref sig .tc := ⟨.vmem, 104, rfl⟩
abbrev cc11_stg2_1 : Ref sig .tc := ⟨.vmem, 105, rfl⟩
abbrev cc11_stg3_0 : Ref sig .tc := ⟨.vmem, 106, rfl⟩
abbrev cc11_stg4_0 : Ref sig .tc := ⟨.vmem, 107, rfl⟩
abbrev cc11_stg5_0 : Ref sig .tc := ⟨.vmem, 108, rfl⟩
abbrev cc11_stg5_1 : Ref sig .tc := ⟨.vmem, 109, rfl⟩
abbrev cc12_stg0_0 : Ref sig .tc := ⟨.vmem, 110, rfl⟩
abbrev cc12_stg0_1 : Ref sig .tc := ⟨.vmem, 111, rfl⟩
abbrev cc12_stg1_0 : Ref sig .tc := ⟨.vmem, 112, rfl⟩
abbrev cc12_stg1_1 : Ref sig .tc := ⟨.vmem, 113, rfl⟩
abbrev cc12_stg2_0 : Ref sig .tc := ⟨.vmem, 114, rfl⟩
abbrev cc12_stg2_1 : Ref sig .tc := ⟨.vmem, 115, rfl⟩
abbrev cc12_stg3_0 : Ref sig .tc := ⟨.vmem, 116, rfl⟩
abbrev cc12_stg4_0 : Ref sig .tc := ⟨.vmem, 117, rfl⟩
abbrev cc12_stg5_0 : Ref sig .tc := ⟨.vmem, 118, rfl⟩
abbrev cc12_stg5_1 : Ref sig .tc := ⟨.vmem, 119, rfl⟩
abbrev cc13_stg0_0 : Ref sig .tc := ⟨.vmem, 120, rfl⟩
abbrev cc13_stg0_1 : Ref sig .tc := ⟨.vmem, 121, rfl⟩
abbrev cc13_stg1_0 : Ref sig .tc := ⟨.vmem, 122, rfl⟩
abbrev cc13_stg2_0 : Ref sig .tc := ⟨.vmem, 123, rfl⟩
abbrev cc13_stg3_0 : Ref sig .tc := ⟨.vmem, 124, rfl⟩
abbrev cc13_stg3_1 : Ref sig .tc := ⟨.vmem, 125, rfl⟩
abbrev cc14_stg0_0 : Ref sig .tc := ⟨.vmem, 126, rfl⟩
abbrev cc14_stg0_1 : Ref sig .tc := ⟨.vmem, 127, rfl⟩
abbrev cc14_stg1_0 : Ref sig .tc := ⟨.vmem, 128, rfl⟩
abbrev cc14_stg2_0 : Ref sig .tc := ⟨.vmem, 129, rfl⟩
abbrev cc14_stg3_0 : Ref sig .tc := ⟨.vmem, 130, rfl⟩
abbrev cc14_stg3_1 : Ref sig .tc := ⟨.vmem, 131, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem6_0 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc6_sem5_0 : DmaSem sig := 56
abbrev cc6_sem6_0 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc7_sem3_0 : DmaSem sig := 64
abbrev cc7_sem4_0 : DmaSem sig := 65
abbrev cc7_sem5_0 : DmaSem sig := 66
abbrev cc7_sem5_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem2_1 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem3_1 : DmaSem sig := 83
abbrev cc10_sem0_0 : DmaSem sig := 84
abbrev cc10_sem0_1 : DmaSem sig := 85
abbrev cc10_sem1_0 : DmaSem sig := 86
abbrev cc10_sem1_1 : DmaSem sig := 87
abbrev cc10_sem2_0 : DmaSem sig := 88
abbrev cc10_sem3_0 : DmaSem sig := 89
abbrev cc10_sem4_0 : DmaSem sig := 90
abbrev cc10_sem4_1 : DmaSem sig := 91
abbrev cc10_sem5_0 : DmaSem sig := 92
abbrev cc10_sem6_0 : DmaSem sig := 93
abbrev cc11_sem0_0 : DmaSem sig := 94
abbrev cc11_sem0_1 : DmaSem sig := 95
abbrev cc11_sem1_0 : DmaSem sig := 96
abbrev cc11_sem1_1 : DmaSem sig := 97
abbrev cc11_sem2_0 : DmaSem sig := 98
abbrev cc11_sem2_1 : DmaSem sig := 99
abbrev cc11_sem3_0 : DmaSem sig := 100
abbrev cc11_sem4_0 : DmaSem sig := 101
abbrev cc11_sem5_0 : DmaSem sig := 102
abbrev cc11_sem5_1 : DmaSem sig := 103
abbrev cc12_sem0_0 : DmaSem sig := 104
abbrev cc12_sem0_1 : DmaSem sig := 105
abbrev cc12_sem1_0 : DmaSem sig := 106
abbrev cc12_sem1_1 : DmaSem sig := 107
abbrev cc12_sem2_0 : DmaSem sig := 108
abbrev cc12_sem2_1 : DmaSem sig := 109
abbrev cc12_sem3_0 : DmaSem sig := 110
abbrev cc12_sem4_0 : DmaSem sig := 111
abbrev cc12_sem5_0 : DmaSem sig := 112
abbrev cc12_sem5_1 : DmaSem sig := 113
abbrev cc13_sem0_0 : DmaSem sig := 114
abbrev cc13_sem0_1 : DmaSem sig := 115
abbrev cc13_sem1_0 : DmaSem sig := 116
abbrev cc13_sem2_0 : DmaSem sig := 117
abbrev cc13_sem3_0 : DmaSem sig := 118
abbrev cc13_sem3_1 : DmaSem sig := 119
abbrev cc14_sem0_0 : DmaSem sig := 120
abbrev cc14_sem0_1 : DmaSem sig := 121
abbrev cc14_sem1_0 : DmaSem sig := 122
abbrev cc14_sem2_0 : DmaSem sig := 123
abbrev cc14_sem3_0 : DmaSem sig := 124
abbrev cc14_sem3_1 : DmaSem sig := 125

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def k2_cond2 (i : grid2.Coords) : BitVec 1 :=
  let arg0 : BitVec 32 := BitVec.ofNat 32 (i 0).val
  let c249_i32 : BitVec 32 := 249#32
  let v49 : BitVec 1 := Scalar.cmpi .eq arg0 c249_i32
  let v50 : BitVec 32 := Scalar.extui v49
  let c0_i32_25 : BitVec 32 := 0#32
  let v51 : BitVec 1 := Scalar.cmpi .ne v50 c0_i32_25
  v51

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![250], ![false]⟩

def k6_cond2 (i : grid6.Coords) : BitVec 1 :=
  let arg0 : BitVec 32 := BitVec.ofNat 32 (i 0).val
  let c249_i32 : BitVec 32 := 249#32
  let v49 : BitVec 1 := Scalar.cmpi .eq arg0 c249_i32
  let v50 : BitVec 32 := Scalar.extui v49
  let c0_i32_25 : BitVec 32 := 0#32
  let v51 : BitVec 1 := Scalar.cmpi .ne v50 c0_i32_25
  v51

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![250], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![250], ![false]⟩

def k10_cond2 (i : grid10.Coords) : BitVec 1 :=
  let arg0 : BitVec 32 := BitVec.ofNat 32 (i 0).val
  let c249_i32 : BitVec 32 := 249#32
  let v49 : BitVec 1 := Scalar.cmpi .eq arg0 c249_i32
  let v50 : BitVec 32 := Scalar.extui v49
  let c0_i32_25 : BitVec 32 := 0#32
  let v51 : BitVec 1 := Scalar.cmpi .ne v50 c0_i32_25
  v51

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x1 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x1 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![250], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x1 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x1 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64x32 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x32 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S5000x32 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S32x1 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S5000x1 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  shapeCasts_S1250000_S1250000x1 : S1250000.ShapeCasts S1250000x1
  shapeCasts_S64_S1x64 : S64.ShapeCasts S1x64
  inb_S5000x12_S5000x12_0_0 : ∀ a, (![0, 0] : Fin 2 → Nat) a + S5000x12.size a ≤ S5000x12.size a
  h_S5000x12 : 0 < S5000x12.numel
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x1 : S_.BroadcastsInDim S1250000x1 (![] : Fin 0 → Fin S1250000x1.rank)
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  reducesTo_S1250000x1_S1250000_d1 : S1250000x1.ReducesTo [1] S1250000
  h_S_ : 0 < S_.numel
  bcast_S1250000_S1250000x64_0 : S1250000.BroadcastsInDim S1250000x64 (![0] : Fin 1 → Fin S1250000x64.rank)
  bcast_S_S1250000x64 : S_.BroadcastsInDim S1250000x64 (![] : Fin 0 → Fin S1250000x64.rank)
  slices_S3x128x1_S1x128x1_0_0_0 : S3x128x1.Slices ![0, 0, 0] S1x128x1
  shapeCasts_S1x128x1_S128x1 : S1x128x1.ShapeCasts S128x1
  slices_S3x1_S1x1_0_0 : S3x1.Slices ![0, 0] S1x1
  shapeCasts_S1x1_S1 : S1x1.ShapeCasts S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  slices_S128x1_o0_0_S64x1 : S128x1.Slices ![0, 0] S64x1
  slices_S128x1_o64_0_S64x1 : S128x1.Slices ![64, 0] S64x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  reduces_S5000x1_S1 : S5000x1.Reduces [0] S1
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  reduces_S5000x64_S5000 : S5000x64.Reduces [1] S5000
  shapeCasts_S5000_S5000x1 : S5000.ShapeCasts S5000x1
  slices_S3x64x64_S1x64x64_1_0_0 : S3x64x64.Slices ![1, 0, 0] S1x64x64
  slices_S3x64_S1x64_1_0 : S3x64.Slices ![1, 0] S1x64
  slices_S3x128x1_S1x128x1_1_0_0 : S3x128x1.Slices ![1, 0, 0] S1x128x1
  slices_S3x1_S1x1_1_0 : S3x1.Slices ![1, 0] S1x1
  slices_S3x64x64_S1x64x64_2_0_0 : S3x64x64.Slices ![2, 0, 0] S1x64x64
  slices_S3x64_S1x64_2_0 : S3x64.Slices ![2, 0] S1x64
  slices_S3x128x1_S1x128x1_2_0_0 : S3x128x1.Slices ![2, 0, 0] S1x128x1
  slices_S3x1_S1x1_2_0 : S3x1.Slices ![2, 0] S1x1
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  dot_S5000x12_S12x64_S5000x64_1_0_0_1_n_n_wf : DotDims.WF S5000x12 S12x64 S5000x64 [1] [0] [0] [1] [] []
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  dot_S5000x64_S64x1_S5000x1_1_0_0_1_n_n_wf : DotDims.WF S5000x64 S64x1 S5000x1 [1] [0] [0] [1] [] []
  scatter_S100000x64_S1250000x1_S1250000x64_1_0_0_1_wf : ScatterDims.WF S100000x64 S1250000x1 S1250000x64 [1] [0] [0] 1
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x12.size a ≤ S100000x12.size a
  hwx0_0 : ∀ i : grid0.Coords, EltTy.bits .f32 = 32 ∨ (Rect.block (s := S100000x12) S5000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S1250000x64.size a
  hwx2_0 : ∀ i : grid2.Coords, EltTy.bits .f32 = 32 ∨ (Rect.block (s := S1250000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S1250000x64.size a
  hwx2_1 : ∀ i : grid2.Coords, EltTy.bits .f32 = 32 ∨ (Rect.block (s := S1250000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S1250000x1.size a
  hwx2_4 : ∀ i : grid2.Coords, EltTy.bits .f32 = 32 ∨ (Rect.block (s := S1250000x1) S5000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S1250000x1.size a
  hwx3_0 : ∀ i : grid3.Coords, EltTy.bits .f32 = 32 ∨ (Rect.block (s := S1250000x1) S5000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S1250000x64.size a
  hwx3_1 : ∀ i : grid3.Coords, EltTy.bits .f32 = 32 ∨ (Rect.block (s := S1250000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S1250000x1.size a
  hwx3_2 : ∀ i : grid3.Coords, EltTy.bits .f32 = 32 ∨ (Rect.block (s := S1250000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S1250000x64.size a
  hwx3_5 : ∀ i : grid3.Coords, EltTy.bits .f32 = 32 ∨ (Rect.block (s := S1250000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S1250000x64.size a
  hwx6_0 : ∀ i : grid6.Coords, EltTy.bits .f32 = 32 ∨ (Rect.block (s := S1250000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S1250000x64.size a
  hwx6_1 : ∀ i : grid6.Coords, EltTy.bits .f32 = 32 ∨ (Rect.block (s := S1250000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .f32 = 32 ∨ (Rect.block (s := S128x1) S128x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x1.size a ≤ S1250000x1.size a
  hwx6_4 : ∀ i : grid6.Coords, EltTy.bits .f32 = 32 ∨ (Rect.block (s := S1250000x1) S5000x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1.size a ≤ S1x1.size a
  hwx6_5 : ∀ i : grid6.Coords, EltTy.bits .f32 = 32 ∨ (Rect.block (s := S1x1) S1x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x1.size a ≤ S1250000x1.size a
  hwx7_0 : ∀ i : grid7.Coords, EltTy.bits .f32 = 32 ∨ (Rect.block (s := S1250000x1) S5000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S1250000x64.size a
  hwx7_1 : ∀ i : grid7.Coords, EltTy.bits .f32 = 32 ∨ (Rect.block (s := S1250000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S1250000x1.size a
  hwx7_2 : ∀ i : grid7.Coords, EltTy.bits .f32 = 32 ∨ (Rect.block (s := S1250000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S1250000x64.size a
  hwx7_5 : ∀ i : grid7.Coords, EltTy.bits .f32 = 32 ∨ (Rect.block (s := S1250000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S100000x64.size a
  hwx9_3 : ∀ i : grid9.Coords, EltTy.bits .f32 = 32 ∨ (Rect.block (s := S100000x64) S5000x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S1250000x64.size a
  hwx10_0 : ∀ i : grid10.Coords, EltTy.bits .f32 = 32 ∨ (Rect.block (s := S1250000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S1250000x64.size a
  hwx10_1 : ∀ i : grid10.Coords, EltTy.bits .f32 = 32 ∨ (Rect.block (s := S1250000x64) S5000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x1.size a ≤ S128x1.size a
  hwx10_2 : ∀ i : grid10.Coords, EltTy.bits .f32 = 32 ∨ (Rect.block (s := S128x1) S128x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x1.size a ≤ S1x1.size a
  hwx10_3 : ∀ i : grid10.Coords, EltTy.bits .f32 = 32 ∨ (Rect.block (s := S1x1) S1x1.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x1.size a ≤ S1250000x1.size a
  hwx10_4 : ∀ i : grid10.Coords, EltTy.bits .f32 = 32 ∨ (Rect.block (s := S1250000x1) S5000x1.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x1.size a ≤ S1x1.size a
  hwx10_5 : ∀ i : grid10.Coords, EltTy.bits .f32 = 32 ∨ (Rect.block (s := S1x1) S1x1.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x1.size a ≤ S1x1.size a
  hwx10_6 : ∀ i : grid10.Coords, EltTy.bits .f32 = 32 ∨ (Rect.block (s := S1x1) S1x1.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x1.size a ≤ S1250000x1.size a
  hwx11_0 : ∀ i : grid11.Coords, EltTy.bits .f32 = 32 ∨ (Rect.block (s := S1250000x1) S5000x1.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S1250000x64.size a
  hwx11_1 : ∀ i : grid11.Coords, EltTy.bits .f32 = 32 ∨ (Rect.block (s := S1250000x64) S5000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x1.size a ≤ S1250000x1.size a
  hwx11_2 : ∀ i : grid11.Coords, EltTy.bits .f32 = 32 ∨ (Rect.block (s := S1250000x1) S5000x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x1.size a ≤ S1x1.size a
  hwx11_3 : ∀ i : grid11.Coords, EltTy.bits .f32 = 32 ∨ (Rect.block (s := S1x1) S1x1.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x1.size a ≤ S1x1.size a
  hwx11_4 : ∀ i : grid11.Coords, EltTy.bits .f32 = 32 ∨ (Rect.block (s := S1x1) S1x1.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S1250000x64.size a
  hwx11_5 : ∀ i : grid11.Coords, EltTy.bits .f32 = 32 ∨ (Rect.block (s := S1250000x64) S5000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S100000x64.size a
  hwx12_0 : ∀ i : grid12.Coords, EltTy.bits .f32 = 32 ∨ (Rect.block (s := S100000x64) S5000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S100000x64.size a
  hwx12_1 : ∀ i : grid12.Coords, EltTy.bits .f32 = 32 ∨ (Rect.block (s := S100000x64) S5000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x64.size a ≤ S100000x64.size a
  hwx12_2 : ∀ i : grid12.Coords, EltTy.bits .f32 = 32 ∨ (Rect.block (s := S100000x64) S5000x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x64.size a ≤ S100000x64.size a
  hwx12_5 : ∀ i : grid12.Coords, EltTy.bits .f32 = 32 ∨ (Rect.block (s := S100000x64) S5000x64.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S100000x64.size a
  hwx13_0 : ∀ i : grid13.Coords, EltTy.bits .f32 = 32 ∨ (Rect.block (s := S100000x64) S5000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x32.size a ≤ S64x32.size a
  hwx13_1 : ∀ i : grid13.Coords, EltTy.bits .f32 = 32 ∨ (Rect.block (s := S64x32) S64x32.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x32.size a ≤ S1x32.size a
  hwx13_2 : ∀ i : grid13.Coords, EltTy.bits .f32 = 32 ∨ (Rect.block (s := S1x32) S1x32.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x32.size a ≤ S100000x32.size a
  hwx13_3 : ∀ i : grid13.Coords, EltTy.bits .f32 = 32 ∨ (Rect.block (s := S100000x32) S5000x32.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x32.size a ≤ S100000x32.size a
  hwx14_0 : ∀ i : grid14.Coords, EltTy.bits .f32 = 32 ∨ (Rect.block (s := S100000x32) S5000x32.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S32x1.size a ≤ S32x1.size a
  hwx14_1 : ∀ i : grid14.Coords, EltTy.bits .f32 = 32 ∨ (Rect.block (s := S32x1) S32x1.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1.size a ≤ S1x1.size a
  hwx14_2 : ∀ i : grid14.Coords, EltTy.bits .f32 = 32 ∨ (Rect.block (s := S1x1) S1x1.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x1.size a ≤ S100000x1.size a
  hwx14_3 : ∀ i : grid14.Coords, EltTy.bits .f32 = 32 ∨ (Rect.block (s := S100000x1) S5000x1.size (cc14_transform_3 i) (hinb14_3 i)).WholeWords (EltTy.packing .f32)

variable [Facts₀]

def dot_S5000x12_S12x64_S5000x64_1_0_0_1_n_n : DotDims S5000x12 S12x64 S5000x64 where
  lhsContracting := [1]
  rhsContracting := [0]
  lhsNonContracting := [0]
  rhsNonContracting := [1]
  lhsBatch := []
  rhsBatch := []
  wf := dot_S5000x12_S12x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20_0) S5000x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v20_1) S1x1.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20_2) S1x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v20_0) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20_1) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20_2) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v21) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v12) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v29) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v30) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v31) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v31) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v36) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v37) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v38) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v41) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v44) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v45_0) S5000x1.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v45_1) S1x1.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v45_2) S1x1.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun i => !(k6_cond2 i == 1#1) | 6 => fun i => !(k6_cond2 i == 1#1) | ⟨_ + 7, h⟩ => absurd h (Nat.not_lt.2 (Nat.le_add_left _ _))

abbrev win7_0 : Pipeline.Window sig grid7 :=
  Pipeline.Window.ofSpec (Memref.whole main_v45_0) S5000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v39) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v4) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v45_1) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v45_2) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v46) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v37) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v49) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v31) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v54) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v55) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v56) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v56) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v58) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v61) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v62) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v63) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v64) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v66) S128x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v69) S1x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v70_0) S5000x1.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v70_1) S1x1.size cc10_transform_5 reads10_5 true true 1 stage10_5 sem10_5
    hrank10 hreads10_5 hinb10_5 nbuf10_5 (Memref.isWhole_whole _) hwx10_5 hstage10_5

abbrev win10_6 : Pipeline.Window sig grid10 :=
  Pipeline.Window.ofSpec (Memref.whole main_v70_2) S1x1.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev idle10 : Fin 7 → grid10.Coords → Bool := fun | 0 => fun _ => false | 1 => fun _ => false | 2 => fun _ => false | 3 => fun _ => false | 4 => fun _ => false | 5 => fun i => !(k10_cond2 i == 1#1) | 6 => fun i => !(k10_cond2 i == 1#1) | ⟨_ + 7, h⟩ => absurd h (Nat.not_lt.2 (Nat.le_add_left _ _))

abbrev win11_0 : Pipeline.Window sig grid11 :=
  Pipeline.Window.ofSpec (Memref.whole main_v70_0) S5000x1.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v64) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v4) S5000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v70_1) S1x1.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v70_2) S1x1.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v71) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v62) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v74) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v56) S5000x64.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v79) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v80) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v81) S5000x64.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v81) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg11) S64x32.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v82) S1x32.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v83) S5000x32.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v83) S5000x32.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg13) S32x1.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v84) S1x1.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v85) S5000x1.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

class Facts : Prop extends Facts₀ where

variable [Facts]
-- ==== ReferenceIdeal.lean ====
abbrev S100000x12 : Shape := ⟨2, ![100000, 12]⟩
abbrev S2x1250000 : Shape := ⟨2, ![2, 1250000]⟩
abbrev S1250000 : Shape := ⟨1, ![1250000]⟩
abbrev S12x64 : Shape := ⟨2, ![12, 64]⟩
abbrev S64 : Shape := ⟨1, ![64]⟩
abbrev S3x64x64 : Shape := ⟨3, ![3, 64, 64]⟩
abbrev S3x64 : Shape := ⟨2, ![3, 64]⟩
abbrev S3x128x1 : Shape := ⟨3, ![3, 128, 1]⟩
abbrev S3x1 : Shape := ⟨2, ![3, 1]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1250000 : Shape := ⟨2, ![1, 1250000]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩
abbrev S1250000x1 : Shape := ⟨2, ![1250000, 1]⟩
abbrev S1250000x64 : Shape := ⟨2, ![1250000, 64]⟩
abbrev S1250000x128 : Shape := ⟨2, ![1250000, 128]⟩
abbrev S1x128x1 : Shape := ⟨3, ![1, 128, 1]⟩
abbrev S128x1 : Shape := ⟨2, ![128, 1]⟩
abbrev S1x1 : Shape := ⟨2, ![1, 1]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩

abbrev nBuf : Space → Nat
  | .hbm => 396
  | .vmem => 0
  | .smem => 0
  | _ => 0

abbrev hbmTy0_0 (i : Nat) : BufTy := match i % 128 with
  | 0 => ⟨S100000x12, .f32⟩
  | 1 => ⟨S2x1250000, .i32⟩
  | 2 => ⟨S1250000, .f32⟩
  | 3 => ⟨S12x64, .f32⟩
  | 4 => ⟨S64, .f32⟩
  | 5 => ⟨S3x64x64, .f32⟩
  | 6 => ⟨S3x64, .f32⟩
  | 7 => ⟨S3x128x1, .f32⟩
  | 8 => ⟨S3x1, .f32⟩
  | 9 => ⟨S3x64, .f32⟩
  | 10 => ⟨S3x64, .f32⟩
  | 11 => ⟨S64x32, .f32⟩
  | 12 => ⟨S32, .f32⟩
  | 13 => ⟨S32x1, .f32⟩
  | 14 => ⟨S1, .f32⟩
  | 15 => ⟨S1x1250000, .i32⟩
  | 16 => ⟨S1250000, .i32⟩
  | 17 => ⟨S1x1250000, .i32⟩
  | 18 => ⟨S1250000, .i32⟩
  | 19 => ⟨S100000x64, .f32⟩
  | 20 => ⟨S1x64, .f32⟩
  | 21 => ⟨S100000x64, .f32⟩
  | 22 => ⟨S100000x64, .f32⟩
  | 23 => ⟨S1x64x64, .f32⟩
  | 24 => ⟨S64x64, .f32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S_, .i32⟩
  | 32 => ⟨S1250000, .i32⟩
  | 33 => ⟨S1250000, .i1⟩
  | 34 => ⟨S_, .i32⟩
  | 35 => ⟨S1250000, .i32⟩
  | 36 => ⟨S1250000, .i32⟩
  | 37 => ⟨S1250000, .i32⟩
  | 38 => ⟨S1250000x1, .i32⟩
  | 39 => ⟨S1250000x64, .f32⟩
  | 40 => ⟨S_, .i32⟩
  | 41 => ⟨S1250000, .i32⟩
  | 42 => ⟨S1250000, .i1⟩
  | 43 => ⟨S_, .i32⟩
  | 44 => ⟨S1250000, .i32⟩
  | 45 => ⟨S1250000, .i32⟩
  | 46 => ⟨S1250000, .i32⟩
  | 47 => ⟨S1250000x1, .i32⟩
  | 48 => ⟨S1250000x64, .f32⟩
  | 49 => ⟨S1250000x128, .f32⟩
  | 50 => ⟨S1x128x1, .f32⟩
  | 51 => ⟨S128x1, .f32⟩
  | 52 => ⟨S1250000x1, .f32⟩
  | 53 => ⟨S1x1, .f32⟩
  | 54 => ⟨S1, .f32⟩
  | 55 => ⟨S1x1, .f32⟩
  | 56 => ⟨S1250000x1, .f32⟩
  | 57 => ⟨S1250000x1, .f32⟩
  | 58 => ⟨S_, .f32⟩
  | 59 => ⟨S_, .f32⟩
  | 60 => ⟨S1250000x1, .f32⟩
  | 61 => ⟨S1250000x1, .i1⟩
  | 62 => ⟨S_, .f32⟩
  | 63 => ⟨S1250000x1, .f32⟩
  | 64 => ⟨S1250000x1, .f32⟩
  | 65 => ⟨S1250000x1, .f32⟩
  | 66 => ⟨S_, .f32⟩
  | 67 => ⟨S1, .f32⟩
  | 68 => ⟨S_, .f32⟩
  | 69 => ⟨S1, .f32⟩
  | 70 => ⟨S1, .f32⟩
  | 71 => ⟨S1x1, .f32⟩
  | 72 => ⟨S1250000x1, .f32⟩
  | 73 => ⟨S1250000x1, .f32⟩
  | 74 => ⟨S1250000x1, .f32⟩
  | 75 => ⟨S_, .f32⟩
  | 76 => ⟨S1, .f32⟩
  | 77 => ⟨S1x1, .f32⟩
  | 78 => ⟨S1250000x1, .f32⟩
  | 79 => ⟨S1250000x1, .f32⟩
  | 80 => ⟨S1250000x1, .f32⟩
  | 81 => ⟨S1250000x1, .f32⟩
  | 82 => ⟨S1250000x64, .f32⟩
  | 83 => ⟨S1250000x64, .f32⟩
  | 84 => ⟨S_, .f32⟩
  | 85 => ⟨S100000x64, .f32⟩
  | 86 => ⟨S1250000x1, .i32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S1x64, .f32⟩
  | 93 => ⟨S64, .f32⟩
  | 94 => ⟨S1x64, .f32⟩
  | 95 => ⟨S64, .f32⟩
  | 96 => ⟨S_, .f32⟩
  | 97 => ⟨S100000, .f32⟩
  | 98 => ⟨S100000x1, .f32⟩
  | 99 => ⟨S_, .f32⟩
  | 100 => ⟨S100000x1, .f32⟩
  | 101 => ⟨S100000x1, .f32⟩
  | 102 => ⟨S_, .i32⟩
  | 103 => ⟨S_, .f32⟩
  | 104 => ⟨S100000, .f32⟩
  | 105 => ⟨S100000x1, .f32⟩
  | 106 => ⟨S_, .f32⟩
  | 107 => ⟨S100000x1, .f32⟩
  | 108 => ⟨S100000x1, .f32⟩
  | 109 => ⟨S100000x64, .f32⟩
  | 110 => ⟨S100000x64, .f32⟩
  | 111 => ⟨S100000x64, .f32⟩
  | 112 => ⟨S_, .f32⟩
  | 113 => ⟨S_, .f32⟩
  | 114 => ⟨S_, .f32⟩
  | 115 => ⟨S_, .f32⟩
  | 116 => ⟨S100000, .f32⟩
  | 117 => ⟨S100000x1, .f32⟩
  | 118 => ⟨S100000x1, .f32⟩
  | 119 => ⟨S100000x1, .f32⟩
  | 120 => ⟨S_, .f32⟩
  | 121 => ⟨S_, .i1⟩
  | 122 => ⟨S_, .f32⟩
  | 123 => ⟨S_, .f32⟩
  | 124 => ⟨S100000x1, .f32⟩
  | 125 => ⟨S100000x1, .f32⟩
  | 126 => ⟨S100000x64, .f32⟩
  | 127 => ⟨S100000x64, .f32⟩
  | _ => ⟨S100000x12, .f32⟩

abbrev hbmTy0_1 (i : Nat) : BufTy := match i % 128 with
  | 0 => ⟨S_, .f32⟩
  | 1 => ⟨S100000x1, .f32⟩
  | 2 => ⟨S100000x1, .f32⟩
  | 3 => ⟨S100000x1, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S100000x64, .f32⟩
  | 13 => ⟨S1x64x64, .f32⟩
  | 14 => ⟨S64x64, .f32⟩
  | 15 => ⟨S100000x64, .f32⟩
  | 16 => ⟨S1x64, .f32⟩
  | 17 => ⟨S64, .f32⟩
  | 18 => ⟨S1x64, .f32⟩
  | 19 => ⟨S100000x64, .f32⟩
  | 20 => ⟨S100000x64, .f32⟩
  | 21 => ⟨S_, .i32⟩
  | 22 => ⟨S1250000, .i32⟩
  | 23 => ⟨S1250000, .i1⟩
  | 24 => ⟨S_, .i32⟩
  | 25 => ⟨S1250000, .i32⟩
  | 26 => ⟨S1250000, .i32⟩
  | 27 => ⟨S1250000, .i32⟩
  | 28 => ⟨S1250000x1, .i32⟩
  | 29 => ⟨S1250000x64, .f32⟩
  | 30 => ⟨S_, .i32⟩
  | 31 => ⟨S1250000, .i32⟩
  | 32 => ⟨S1250000, .i1⟩
  | 33 => ⟨S_, .i32⟩
  | 34 => ⟨S1250000, .i32⟩
  | 35 => ⟨S1250000, .i32⟩
  | 36 => ⟨S1250000, .i32⟩
  | 37 => ⟨S1250000x1, .i32⟩
  | 38 => ⟨S1250000x64, .f32⟩
  | 39 => ⟨S1250000x128, .f32⟩
  | 40 => ⟨S1x128x1, .f32⟩
  | 41 => ⟨S128x1, .f32⟩
  | 42 => ⟨S1250000x1, .f32⟩
  | 43 => ⟨S1x1, .f32⟩
  | 44 => ⟨S1, .f32⟩
  | 45 => ⟨S1x1, .f32⟩
  | 46 => ⟨S1250000x1, .f32⟩
  | 47 => ⟨S1250000x1, .f32⟩
  | 48 => ⟨S_, .f32⟩
  | 49 => ⟨S_, .f32⟩
  | 50 => ⟨S1250000x1, .f32⟩
  | 51 => ⟨S1250000x1, .i1⟩
  | 52 => ⟨S_, .f32⟩
  | 53 => ⟨S1250000x1, .f32⟩
  | 54 => ⟨S1250000x1, .f32⟩
  | 55 => ⟨S1250000x1, .f32⟩
  | 56 => ⟨S_, .f32⟩
  | 57 => ⟨S1, .f32⟩
  | 58 => ⟨S_, .f32⟩
  | 59 => ⟨S1, .f32⟩
  | 60 => ⟨S1, .f32⟩
  | 61 => ⟨S1x1, .f32⟩
  | 62 => ⟨S1250000x1, .f32⟩
  | 63 => ⟨S1250000x1, .f32⟩
  | 64 => ⟨S1250000x1, .f32⟩
  | 65 => ⟨S_, .f32⟩
  | 66 => ⟨S1, .f32⟩
  | 67 => ⟨S1x1, .f32⟩
  | 68 => ⟨S1250000x1, .f32⟩
  | 69 => ⟨S1250000x1, .f32⟩
  | 70 => ⟨S1250000x1, .f32⟩
  | 71 => ⟨S1250000x1, .f32⟩
  | 72 => ⟨S1250000x64, .f32⟩
  | 73 => ⟨S1250000x64, .f32⟩
  | 74 => ⟨S_, .f32⟩
  | 75 => ⟨S100000x64, .f32⟩
  | 76 => ⟨S1250000x1, .i32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S1x64, .f32⟩
  | 83 => ⟨S64, .f32⟩
  | 84 => ⟨S1x64, .f32⟩
  | 85 => ⟨S64, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S_, .i32⟩
  | 93 => ⟨S_, .f32⟩
  | 94 => ⟨S100000, .f32⟩
  | 95 => ⟨S100000x1, .f32⟩
  | 96 => ⟨S_, .f32⟩
  | 97 => ⟨S100000x1, .f32⟩
  | 98 => ⟨S100000x1, .f32⟩
  | 99 => ⟨S100000x64, .f32⟩
  | 100 => ⟨S100000x64, .f32⟩
  | 101 => ⟨S100000x64, .f32⟩
  | 102 => ⟨S_, .f32⟩
  | 103 => ⟨S_, .f32⟩
  | 104 => ⟨S_, .f32⟩
  | 105 => ⟨S_, .f32⟩
  | 106 => ⟨S100000, .f32⟩
  | 107 => ⟨S100000x1, .f32⟩
  | 108 => ⟨S100000x1, .f32⟩
  | 109 => ⟨S100000x1, .f32⟩
  | 110 => ⟨S_, .f32⟩
  | 111 => ⟨S_, .i1⟩
  | 112 => ⟨S_, .f32⟩
  | 113 => ⟨S_, .f32⟩
  | 114 => ⟨S100000x1, .f32⟩
  | 115 => ⟨S100000x1, .f32⟩
  | 116 => ⟨S100000x64, .f32⟩
  | 117 => ⟨S100000x64, .f32⟩
  | 118 => ⟨S_, .f32⟩
  | 119 => ⟨S100000x1, .f32⟩
  | 120 => ⟨S100000x1, .f32⟩
  | 121 => ⟨S100000x1, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S1x64, .f32⟩
  | _ => ⟨S100000x12, .f32⟩

abbrev hbmTy0_2 (i : Nat) : BufTy := match i % 128 with
  | 0 => ⟨S100000x64, .f32⟩
  | 1 => ⟨S100000x64, .f32⟩
  | 2 => ⟨S100000x64, .f32⟩
  | 3 => ⟨S1x64x64, .f32⟩
  | 4 => ⟨S64x64, .f32⟩
  | 5 => ⟨S100000x64, .f32⟩
  | 6 => ⟨S1x64, .f32⟩
  | 7 => ⟨S64, .f32⟩
  | 8 => ⟨S1x64, .f32⟩
  | 9 => ⟨S100000x64, .f32⟩
  | 10 => ⟨S100000x64, .f32⟩
  | 11 => ⟨S_, .i32⟩
  | 12 => ⟨S1250000, .i32⟩
  | 13 => ⟨S1250000, .i1⟩
  | 14 => ⟨S_, .i32⟩
  | 15 => ⟨S1250000, .i32⟩
  | 16 => ⟨S1250000, .i32⟩
  | 17 => ⟨S1250000, .i32⟩
  | 18 => ⟨S1250000x1, .i32⟩
  | 19 => ⟨S1250000x64, .f32⟩
  | 20 => ⟨S_, .i32⟩
  | 21 => ⟨S1250000, .i32⟩
  | 22 => ⟨S1250000, .i1⟩
  | 23 => ⟨S_, .i32⟩
  | 24 => ⟨S1250000, .i32⟩
  | 25 => ⟨S1250000, .i32⟩
  | 26 => ⟨S1250000, .i32⟩
  | 27 => ⟨S1250000x1, .i32⟩
  | 28 => ⟨S1250000x64, .f32⟩
  | 29 => ⟨S1250000x128, .f32⟩
  | 30 => ⟨S1x128x1, .f32⟩
  | 31 => ⟨S128x1, .f32⟩
  | 32 => ⟨S1250000x1, .f32⟩
  | 33 => ⟨S1x1, .f32⟩
  | 34 => ⟨S1, .f32⟩
  | 35 => ⟨S1x1, .f32⟩
  | 36 => ⟨S1250000x1, .f32⟩
  | 37 => ⟨S1250000x1, .f32⟩
  | 38 => ⟨S_, .f32⟩
  | 39 => ⟨S_, .f32⟩
  | 40 => ⟨S1250000x1, .f32⟩
  | 41 => ⟨S1250000x1, .i1⟩
  | 42 => ⟨S_, .f32⟩
  | 43 => ⟨S1250000x1, .f32⟩
  | 44 => ⟨S1250000x1, .f32⟩
  | 45 => ⟨S1250000x1, .f32⟩
  | 46 => ⟨S_, .f32⟩
  | 47 => ⟨S1, .f32⟩
  | 48 => ⟨S_, .f32⟩
  | 49 => ⟨S1, .f32⟩
  | 50 => ⟨S1, .f32⟩
  | 51 => ⟨S1x1, .f32⟩
  | 52 => ⟨S1250000x1, .f32⟩
  | 53 => ⟨S1250000x1, .f32⟩
  | 54 => ⟨S1250000x1, .f32⟩
  | 55 => ⟨S_, .f32⟩
  | 56 => ⟨S1, .f32⟩
  | 57 => ⟨S1x1, .f32⟩
  | 58 => ⟨S1250000x1, .f32⟩
  | 59 => ⟨S1250000x1, .f32⟩
  | 60 => ⟨S1250000x1, .f32⟩
  | 61 => ⟨S1250000x1, .f32⟩
  | 62 => ⟨S1250000x64, .f32⟩
  | 63 => ⟨S1250000x64, .f32⟩
  | 64 => ⟨S_, .f32⟩
  | 65 => ⟨S100000x64, .f32⟩
  | 66 => ⟨S1250000x1, .i32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x64, .f32⟩
  | 73 => ⟨S64, .f32⟩
  | 74 => ⟨S1x64, .f32⟩
  | 75 => ⟨S64, .f32⟩
  | 76 => ⟨S_, .f32⟩
  | 77 => ⟨S100000, .f32⟩
  | 78 => ⟨S100000x1, .f32⟩
  | 79 => ⟨S_, .f32⟩
  | 80 => ⟨S100000x1, .f32⟩
  | 81 => ⟨S100000x1, .f32⟩
  | 82 => ⟨S_, .i32⟩
  | 83 => ⟨S_, .f32⟩
  | 84 => ⟨S100000, .f32⟩
  | 85 => ⟨S100000x1, .f32⟩
  | 86 => ⟨S_, .f32⟩
  | 87 => ⟨S100000x1, .f32⟩
  | 88 => ⟨S100000x1, .f32⟩
  | 89 => ⟨S100000x64, .f32⟩
  | 90 => ⟨S100000x64, .f32⟩
  | 91 => ⟨S100000x64, .f32⟩
  | 92 => ⟨S_, .f32⟩
  | 93 => ⟨S_, .f32⟩
  | 94 => ⟨S_, .f32⟩
  | 95 => ⟨S_, .f32⟩
  | 96 => ⟨S100000, .f32⟩
  | 97 => ⟨S100000x1, .f32⟩
  | 98 => ⟨S100000x1, .f32⟩
  | 99 => ⟨S100000x1, .f32⟩
  | 100 => ⟨S_, .f32⟩
  | 101 => ⟨S_, .i1⟩
  | 102 => ⟨S_, .f32⟩
  | 103 => ⟨S_, .f32⟩
  | 104 => ⟨S100000x1, .f32⟩
  | 105 => ⟨S100000x1, .f32⟩
  | 106 => ⟨S100000x64, .f32⟩
  | 107 => ⟨S100000x64, .f32⟩
  | 108 => ⟨S_, .f32⟩
  | 109 => ⟨S100000x1, .f32⟩
  | 110 => ⟨S100000x1, .f32⟩
  | 111 => ⟨S100000x1, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S100000x64, .f32⟩
  | 121 => ⟨S100000x32, .f32⟩
  | 122 => ⟨S1x32, .f32⟩
  | 123 => ⟨S100000x32, .f32⟩
  | 124 => ⟨S100000x32, .f32⟩
  | 125 => ⟨S_, .f32⟩
  | 126 => ⟨S100000x32, .f32⟩
  | 127 => ⟨S100000x32, .f32⟩
  | _ => ⟨S100000x12, .f32⟩

abbrev hbmTy0_3 (i : Nat) : BufTy := match i % 128 with
  | 0 => ⟨S100000x1, .f32⟩
  | 1 => ⟨S1x1, .f32⟩
  | 2 => ⟨S100000x1, .f32⟩
  | 3 => ⟨S100000x1, .f32⟩
  | 4 => ⟨S100000x1, .f32⟩
  | 5 => ⟨S100000x1, .f32⟩
  | 6 => ⟨S_, .f32⟩
  | 7 => ⟨S100000x1, .f32⟩
  | 8 => ⟨S100000x1, .f32⟩
  | 9 => ⟨S_, .f32⟩
  | 10 => ⟨S100000x1, .f32⟩
  | 11 => ⟨S100000x1, .f32⟩
  | _ => ⟨S100000x12, .f32⟩

abbrev hbmTy (i : Nat) : BufTy := match i / 128 with
  | 0 => hbmTy0_0 i
  | 1 => hbmTy0_1 i
  | 2 => hbmTy0_2 i
  | 3 => hbmTy0_3 i
  | _ => ⟨S100000x12, .f32⟩

abbrev bufTy : (tb : Table) → Fin (tcTables nBuf tb) → BufTy
  | .hbm, ⟨i, _⟩ => hbmTy i
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_1 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v39 : Ref sig .tc := ⟨.hbm, 65, rfl⟩
abbrev main_cst_3 : Ref sig .tc := ⟨.hbm, 66, rfl⟩
abbrev main_v40 : Ref sig .tc := ⟨.hbm, 67, rfl⟩
abbrev main_cst_4 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_7 : Ref sig .tc := ⟨.hbm, 96, rfl⟩
abbrev main_v64 : Ref sig .tc := ⟨.hbm, 97, rfl⟩
abbrev main_v65 : Ref sig .tc := ⟨.hbm, 98, rfl⟩
abbrev main_cst_8 : Ref sig .tc := ⟨.hbm, 99, rfl⟩
abbrev main_v66 : Ref sig .tc := ⟨.hbm, 100, rfl⟩
abbrev main_v67 : Ref sig .tc := ⟨.hbm, 101, rfl⟩
abbrev main_c_9 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_cst_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_cst_1 : Ref sig .tc := ⟨.hbm, 113, rfl⟩
abbrev main_call2_v8 : Ref sig .tc := ⟨.hbm, 114, rfl⟩
abbrev main_call2_cst_2 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_v12 : Ref sig .tc := ⟨.hbm, 119, rfl⟩
abbrev main_call2_cst_3 : Ref sig .tc := ⟨.hbm, 120, rfl⟩
abbrev main_call2_v13 : Ref sig .tc := ⟨.hbm, 121, rfl⟩
abbrev main_call2_cst_4 : Ref sig .tc := ⟨.hbm, 122, rfl⟩
abbrev main_call2_call0_v0 : Ref sig .tc := ⟨.hbm, 123, rfl⟩
abbrev main_call2_call0_v1 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_10 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_c_11 : Ref sig .tc := ⟨.hbm, 149, rfl⟩
abbrev main_v91 : Ref sig .tc := ⟨.hbm, 150, rfl⟩
abbrev main_v92 : Ref sig .tc := ⟨.hbm, 151, rfl⟩
abbrev main_c_12 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_c_13 : Ref sig .tc := ⟨.hbm, 158, rfl⟩
abbrev main_v98 : Ref sig .tc := ⟨.hbm, 159, rfl⟩
abbrev main_v99 : Ref sig .tc := ⟨.hbm, 160, rfl⟩
abbrev main_c_14 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_15 : Ref sig .tc := ⟨.hbm, 176, rfl⟩
abbrev main_call3_cst : Ref sig .tc := ⟨.hbm, 177, rfl⟩
abbrev main_call3_v0 : Ref sig .tc := ⟨.hbm, 178, rfl⟩
abbrev main_call3_v1 : Ref sig .tc := ⟨.hbm, 179, rfl⟩
abbrev main_call3_v2 : Ref sig .tc := ⟨.hbm, 180, rfl⟩
abbrev main_call3_v3 : Ref sig .tc := ⟨.hbm, 181, rfl⟩
abbrev main_call3_v4 : Ref sig .tc := ⟨.hbm, 182, rfl⟩
abbrev main_v114 : Ref sig .tc := ⟨.hbm, 183, rfl⟩
abbrev main_cst_16 : Ref sig .tc := ⟨.hbm, 184, rfl⟩
abbrev main_v115 : Ref sig .tc := ⟨.hbm, 185, rfl⟩
abbrev main_cst_17 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_cst_18 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_cst_19 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_call4_cst : Ref sig .tc := ⟨.hbm, 207, rfl⟩
abbrev main_call4_v0 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_cst_20 : Ref sig .tc := ⟨.hbm, 214, rfl⟩
abbrev main_v139 : Ref sig .tc := ⟨.hbm, 215, rfl⟩
abbrev main_v140 : Ref sig .tc := ⟨.hbm, 216, rfl⟩
abbrev main_cst_21 : Ref sig .tc := ⟨.hbm, 217, rfl⟩
abbrev main_v141 : Ref sig .tc := ⟨.hbm, 218, rfl⟩
abbrev main_v142 : Ref sig .tc := ⟨.hbm, 219, rfl⟩
abbrev main_c_22 : Ref sig .tc := ⟨.hbm, 220, rfl⟩
abbrev main_call5_cst : Ref sig .tc := ⟨.hbm, 221, rfl⟩
abbrev main_call5_v0 : Ref sig .tc := ⟨.hbm, 222, rfl⟩
abbrev main_call5_v1 : Ref sig .tc := ⟨.hbm, 223, rfl⟩
abbrev main_call5_cst_0 : Ref sig .tc := ⟨.hbm, 224, rfl⟩
abbrev main_call5_v2 : Ref sig .tc := ⟨.hbm, 225, rfl⟩
abbrev main_call5_v3 : Ref sig .tc := ⟨.hbm, 226, rfl⟩
abbrev main_call5_v4 : Ref sig .tc := ⟨.hbm, 227, rfl⟩
abbrev main_call5_v5 : Ref sig .tc := ⟨.hbm, 228, rfl⟩
abbrev main_call5_v6 : Ref sig .tc := ⟨.hbm, 229, rfl⟩
abbrev main_call5_v7 : Ref sig .tc := ⟨.hbm, 230, rfl⟩
abbrev main_call5_cst_1 : Ref sig .tc := ⟨.hbm, 231, rfl⟩
abbrev main_call5_v8 : Ref sig .tc := ⟨.hbm, 232, rfl⟩
abbrev main_call5_cst_2 : Ref sig .tc := ⟨.hbm, 233, rfl⟩
abbrev main_call5_v9 : Ref sig .tc := ⟨.hbm, 234, rfl⟩
abbrev main_call5_v10 : Ref sig .tc := ⟨.hbm, 235, rfl⟩
abbrev main_call5_v11 : Ref sig .tc := ⟨.hbm, 236, rfl⟩
abbrev main_call5_v12 : Ref sig .tc := ⟨.hbm, 237, rfl⟩
abbrev main_call5_cst_3 : Ref sig .tc := ⟨.hbm, 238, rfl⟩
abbrev main_call5_v13 : Ref sig .tc := ⟨.hbm, 239, rfl⟩
abbrev main_call5_cst_4 : Ref sig .tc := ⟨.hbm, 240, rfl⟩
abbrev main_call5_call0_v0 : Ref sig .tc := ⟨.hbm, 241, rfl⟩
abbrev main_call5_call0_v1 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_cst_23 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_c_24 : Ref sig .tc := ⟨.hbm, 267, rfl⟩
abbrev main_v166 : Ref sig .tc := ⟨.hbm, 268, rfl⟩
abbrev main_v167 : Ref sig .tc := ⟨.hbm, 269, rfl⟩
abbrev main_c_25 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_c_26 : Ref sig .tc := ⟨.hbm, 276, rfl⟩
abbrev main_v173 : Ref sig .tc := ⟨.hbm, 277, rfl⟩
abbrev main_v174 : Ref sig .tc := ⟨.hbm, 278, rfl⟩
abbrev main_c_27 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_cst_28 : Ref sig .tc := ⟨.hbm, 294, rfl⟩
abbrev main_call6_cst : Ref sig .tc := ⟨.hbm, 295, rfl⟩
abbrev main_call6_v0 : Ref sig .tc := ⟨.hbm, 296, rfl⟩
abbrev main_call6_v1 : Ref sig .tc := ⟨.hbm, 297, rfl⟩
abbrev main_call6_v2 : Ref sig .tc := ⟨.hbm, 298, rfl⟩
abbrev main_call6_v3 : Ref sig .tc := ⟨.hbm, 299, rfl⟩
abbrev main_call6_v4 : Ref sig .tc := ⟨.hbm, 300, rfl⟩
abbrev main_v189 : Ref sig .tc := ⟨.hbm, 301, rfl⟩
abbrev main_cst_29 : Ref sig .tc := ⟨.hbm, 302, rfl⟩
abbrev main_v190 : Ref sig .tc := ⟨.hbm, 303, rfl⟩
abbrev main_cst_30 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_31 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_cst_32 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_call7_cst : Ref sig .tc := ⟨.hbm, 325, rfl⟩
abbrev main_call7_v0 : Ref sig .tc := ⟨.hbm, 326, rfl⟩
abbrev main_v209 : Ref sig .tc := ⟨.hbm, 327, rfl⟩
abbrev main_v210 : Ref sig .tc := ⟨.hbm, 328, rfl⟩
abbrev main_v211 : Ref sig .tc := ⟨.hbm, 329, rfl⟩
abbrev main_v212 : Ref sig .tc := ⟨.hbm, 330, rfl⟩
abbrev main_v213 : Ref sig .tc := ⟨.hbm, 331, rfl⟩
abbrev main_cst_33 : Ref sig .tc := ⟨.hbm, 332, rfl⟩
abbrev main_v214 : Ref sig .tc := ⟨.hbm, 333, rfl⟩
abbrev main_v215 : Ref sig .tc := ⟨.hbm, 334, rfl⟩
abbrev main_cst_34 : Ref sig .tc := ⟨.hbm, 335, rfl⟩
abbrev main_v216 : Ref sig .tc := ⟨.hbm, 336, rfl⟩
abbrev main_v217 : Ref sig .tc := ⟨.hbm, 337, rfl⟩
abbrev main_c_35 : Ref sig .tc := ⟨.hbm, 338, rfl⟩
abbrev main_call8_cst : Ref sig .tc := ⟨.hbm, 339, rfl⟩
abbrev main_call8_v0 : Ref sig .tc := ⟨.hbm, 340, rfl⟩
abbrev main_call8_v1 : Ref sig .tc := ⟨.hbm, 341, rfl⟩
abbrev main_call8_cst_0 : Ref sig .tc := ⟨.hbm, 342, rfl⟩
abbrev main_call8_v2 : Ref sig .tc := ⟨.hbm, 343, rfl⟩
abbrev main_call8_v3 : Ref sig .tc := ⟨.hbm, 344, rfl⟩
abbrev main_call8_v4 : Ref sig .tc := ⟨.hbm, 345, rfl⟩
abbrev main_call8_v5 : Ref sig .tc := ⟨.hbm, 346, rfl⟩
abbrev main_call8_v6 : Ref sig .tc := ⟨.hbm, 347, rfl⟩
abbrev main_call8_v7 : Ref sig .tc := ⟨.hbm, 348, rfl⟩
abbrev main_call8_cst_1 : Ref sig .tc := ⟨.hbm, 349, rfl⟩
abbrev main_call8_v8 : Ref sig .tc := ⟨.hbm, 350, rfl⟩
abbrev main_call8_cst_2 : Ref sig .tc := ⟨.hbm, 351, rfl⟩
abbrev main_call8_v9 : Ref sig .tc := ⟨.hbm, 352, rfl⟩
abbrev main_call8_v10 : Ref sig .tc := ⟨.hbm, 353, rfl⟩
abbrev main_call8_v11 : Ref sig .tc := ⟨.hbm, 354, rfl⟩
abbrev main_call8_v12 : Ref sig .tc := ⟨.hbm, 355, rfl⟩
abbrev main_call8_cst_3 : Ref sig .tc := ⟨.hbm, 356, rfl⟩
abbrev main_call8_v13 : Ref sig .tc := ⟨.hbm, 357, rfl⟩
abbrev main_call8_cst_4 : Ref sig .tc := ⟨.hbm, 358, rfl⟩
abbrev main_call8_call0_v0 : Ref sig .tc := ⟨.hbm, 359, rfl⟩
abbrev main_call8_call0_v1 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_cst_36 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_v226 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_v230 : Ref sig .tc := ⟨.hbm, 374, rfl⟩
abbrev main_v231 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_v235 : Ref sig .tc := ⟨.hbm, 379, rfl⟩
abbrev main_v236 : Ref sig .tc := ⟨.hbm, 380, rfl⟩
abbrev main_call9_cst : Ref sig .tc := ⟨.hbm, 381, rfl⟩
abbrev main_call9_v0 : Ref sig .tc := ⟨.hbm, 382, rfl⟩
abbrev main_v237 : Ref sig .tc := ⟨.hbm, 383, rfl⟩
abbrev main_v238 : Ref sig .tc := ⟨.hbm, 384, rfl⟩
abbrev main_v239 : Ref sig .tc := ⟨.hbm, 385, rfl⟩
abbrev main_v240 : Ref sig .tc := ⟨.hbm, 386, rfl⟩
abbrev main_v241 : Ref sig .tc := ⟨.hbm, 387, rfl⟩
abbrev main_v242 : Ref sig .tc := ⟨.hbm, 388, rfl⟩
abbrev main_v243 : Ref sig .tc := ⟨.hbm, 389, rfl⟩
abbrev main_cst_37 : Ref sig .tc := ⟨.hbm, 390, rfl⟩
abbrev main_v244 : Ref sig .tc := ⟨.hbm, 391, rfl⟩
abbrev main_v245 : Ref sig .tc := ⟨.hbm, 392, rfl⟩
abbrev main_cst_38 : Ref sig .tc := ⟨.hbm, 393, rfl⟩
abbrev main_v246 : Ref sig .tc := ⟨.hbm, 394, rfl⟩
abbrev main_v247 : Ref sig .tc := ⟨.hbm, 395, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x128_d1 : Shape.Concatenates [S1250000x64, S1250000x64] S1250000x128 1
  slices_S3x128x1_S1x128x1_0_0_0 : S3x128x1.Slices ![0, 0, 0] S1x128x1
  shapeCasts_S1x128x1_S128x1 : S1x128x1.ShapeCasts S128x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  bcast_S_S1250000x1 : S_.BroadcastsInDim S1250000x1 (![] : Fin 0 → Fin S1250000x1.rank)
  reducesTo_S1250000x1_S1_d0 : S1250000x1.ReducesTo [0] S1
  h_S_ : 0 < S_.numel
  bcast_S_S1 : S_.BroadcastsInDim S1 (![] : Fin 0 → Fin S1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x128x1_S1x128x1_1_0_0 : S3x128x1.Slices ![1, 0, 0] S1x128x1
  slices_S3x1_S1x1_1_0 : S3x1.Slices ![1, 0] S1x1
  slices_S3x64x64_S1x64x64_2_0_0 : S3x64x64.Slices ![2, 0, 0] S1x64x64
  slices_S3x64_S1x64_2_0 : S3x64.Slices ![2, 0] S1x64
  slices_S3x128x1_S1x128x1_2_0_0 : S3x128x1.Slices ![2, 0, 0] S1x128x1
  slices_S3x1_S1x1_2_0 : S3x1.Slices ![2, 0] S1x1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x1_S100000x1_0_1 : S1x1.BroadcastsInDim S100000x1 (![0, 1] : Fin 2 → Fin S100000x1.rank)
  dot_S100000x12_S12x64_S100000x64_1_0_0_1_n_n_wf : DotDims.WF S100000x12 S12x64 S100000x64 [1] [0] [0] [1] [] []
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  dot_S1250000x128_S128x1_S1250000x1_1_0_0_1_n_n_wf : DotDims.WF S1250000x128 S128x1 S1250000x1 [1] [0] [0] [1] [] []
  scatter_S100000x64_S1250000x1_S1250000x64_1_0_0_1_wf : ScatterDims.WF S100000x64 S1250000x1 S1250000x64 [1] [0] [0] 1
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x128_S128x1_S1250000x1_1_0_0_1_n_n : DotDims S1250000x128 S128x1 S1250000x1 where
  lhsContracting := [1]
  rhsContracting := [0]
  lhsNonContracting := [0]
  rhsNonContracting := [1]
  lhsBatch := []
  rhsBatch := []
  wf := dot_S1250000x128_S128x1_S1250000x1_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.K.R0.lean ====
/- The dense call cc0__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window's staging buffer holds the rows block of the point at every point (it is fetched at each),
    for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is resident: fetched at the first point only, its block index never moves, so its staging
    buffer holds the (one) weight block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window is resident too. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S5000x12 := Rect.unit (s := S5000x12) ![0, 0] S5000x12.size inb_S5000x12_S5000x12_0_0
abbrev r0_1 : Rect S12x64 := Rect.unit (s := S12x64) ![0, 0] S12x64.size inb_S12x64_S12x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-! ## What the body leaves in the output window's buffer -/

/-- Window 3's staging buffer after the body, from the input windows' blocks: its one store, the payload of the
    three loaded blocks, over the whole buffer. -/
def out0_3 (x0 : Vec F S5000x12 .f32) (x1 : Vec F S12x64 .f32) (x2 : Vec F S1x64 .f32) : Vec F S5000x64 .f32 :=
  View.canon [⟨r0_3, k0_pay1 (View.ld x0 r0_0) (View.ld x1 r0_1) (View.ld x2 r0_2)⟩]

/-- The one store is the whole buffer, so it covers it. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The kernel body on whole staging memrefs, the inputs' at read contents and the output's at anything, runs to the
    continuation holding the inputs' as they were and the output's at out0_3 of the inputs'. -/
theorem sound_kernel0 (c : Dev nD) (E : Set ℕ) (i : grid0.Coords)
    (arg0 : Memref sig .tc .vmem S5000x12 .f32) (harg0 : arg0.IsWhole) (arg1 : Memref sig .tc .vmem S12x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x12 .f32) (x1 : Vec F S12x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__dense_kernel i arg0 harg0 arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core c: the arrays as the region finds them (V); after the body at
    point t each input's buffer at its block and the output's at out0_3 of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so sound_kernel0 applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- The dense call cc1__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window's staging buffer holds the rows block of the point at every point (it is fetched at each),
    for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window is resident: fetched at the first point only, its block index never moves, so its staging
    buffer holds the (one) weight block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window is resident too. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S5000x64 := Rect.unit (s := S5000x64) ![0, 0] S5000x64.size inb_S5000x64_S5000x64_0_0

/-! ## What the body leaves in the output window's buffer -/

/-- Window 3's staging buffer after the body, from the input windows' blocks: its one store, the payload of the
    three loaded blocks, over the whole buffer. -/
def out1_3 (x0 : Vec F S5000x64 .f32) (x1 : Vec F S64x64 .f32) (x2 : Vec F S1x64 .f32) : Vec F S5000x64 .f32 :=
  View.canon [⟨r1_3, k1_pay1 (View.ld x0 r1_0) (View.ld x1 r1_1) (View.ld x2 r1_2)⟩]

/-- The one store is the whole buffer, so it covers it. -/
theorem cover1_3 (p0 : Vec F S5000x64 .f32) (y : S5000x64.Idx) :
    ∃ pc ∈ ([⟨r1_3, p0⟩] : List (View.Piece (Elt F) S5000x64 .f32)), y ∈ pc.1.set :=
  View.cover_of_tiled [⟨r1_3, p0⟩] S5000x64.size (by rfl) y

/-! ## The body's triple -/

set_option maxHeartbeats 1000000 in
/-- The kernel body on whole staging memrefs, the inputs' at read contents and the output's at anything, runs to the
    continuation holding the inputs' as they were and the output's at out1_3 of the inputs'. -/
theorem sound_kernel1 (c : Dev nD) (E : Set ℕ) (i : grid1.Coords)
    (arg0 : Memref sig .tc .vmem S5000x64 .f32) (harg0 : arg0.IsWhole) (arg1 : Memref sig .tc .vmem S64x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__dense_kernel i arg0 harg0 arg1 harg1 arg2 harg2 arg3 harg3) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core c: the arrays as the region finds them (V); after the body at
    point t each input's buffer at its block and the output's at out1_3 of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so sound_kernel1 applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Kit.lean ====
/- The attention-score call cc2__attn_score_kernel of @main (per block of 5000 edges: the leaky-relu score of the
   two gathered feature blocks against a resident weight and bias, a running maximum and a running sum of
   exponentials carried in two one-word scratch buffers across the 250 points, copied out at the last point), at a
   parameter V: the TensorCore's buffer contents when the region is entered. This module holds what the three
   control cases share: each window's block at a point, the input windows' staging contents, the two branch
   conditions in closed form over the grid, where the two last-point outputs are idle, and the region invariant
   opened at the two scratch buffers. Generic in the float family. -/
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first feature window's staging buffer holds the point's block at every point (it is fetched at each), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second feature window's staging buffer holds the point's block at every point (it is fetched at each), for any proof data whose array is V's and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight window is resident: fetched at the first point only, its block index never moves, so its staging buffer holds the one weight block at every point, for any proof data whose array is V's and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias window is resident: fetched at the first point only, its staging buffer holds the one bias word at every point, for any proof data whose array is V's and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The condition of the reset branch, from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the copy-out branch, from the grid coordinate. -/
abbrev cond2_1 (i : grid2.Coords) : Prop := k2_cond2 i = 1#1
/-- It holds at the last point only. -/
theorem hcond2_1 : ∀ t : Fin cfg2.N, cond2_1 (grid2.coords t) ↔ t.val = 249 :=
  (by decide +kernel : ∀ t : Fin grid2.N, cond2_1 (grid2.coords t) ↔ t.val = 249)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Away from the last point the maximum's output window is idle and not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
/-- Away from the last point the sum's output window is idle and not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The staging and scratch memrefs -/

/-- One staging buffer of each output window, through which its contents are stated (the choice does not matter). -/
abbrev VO2_4 : View sig .tc .vmem S5000x1 .f32 := (Memref.whole cc2_stg4_0 : Memref sig .tc .vmem S5000x1 .f32).view
abbrev VO2_5 : View sig .tc .vmem S1x1 .f32 := (Memref.whole cc2_stg5_0 : Memref sig .tc .vmem S1x1 .f32).view
abbrev VO2_6 : View sig .tc .vmem S1x1 .f32 := (Memref.whole cc2_stg6_0 : Memref sig .tc .vmem S1x1 .f32).view
/-- Each window's current staging memref at point t, spelled as the pipeline passes it, and its wholeness. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
/-- The two scratch operands: whole scoped buffers of the call's own, passed beside the windows; the running maximum
    and the running sum. -/
abbrev scM2_0 : Memref sig .tc .vmem S1x1 .f32 := Memref.whole cc2_scratch0
abbrev scM2_1 : Memref sig .tc .vmem S1x1 .f32 := Memref.whole cc2_scratch1
abbrev VS2_0 : View sig .tc .vmem S1x1 .f32 := scM2_0.view
abbrev VS2_1 : View sig .tc .vmem S1x1 .f32 := scM2_1.view

/-- Every other scoped buffer of the core, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The launch's invariant with the two scratch operands as memrefs owned at some contents, the other scoped
    buffers unopened: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

end Cert.Kernel.Hand

end
-- ==== Proof.K.R2RunA.lean ====
/- The attention-score call's whole body at the first point (the reset branch taken, the copy-out branch not): what
   its stores leave in the score window's staging buffer and in the two scratch buffers, as pieces the run finds,
   with the body's triple. -/
import proofs.«417395_j71579924955534_2_alg».proof.Proof.K.R2Kit

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: on whole memrefs, the inputs' at their contents, the score output's at anything, the two
    last-point outputs' at contents handed back untouched, the two scratch buffers at anything (the body resets
    them), the body runs to the continuation holding the inputs' as they were, the score buffer and the two scratch
    buffers with their pieces written. -/
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc2__attn_score_kernel_eq_skeleton]; unfold cc2__attn_score_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R2RunB.lean ====
/- The attention-score call's whole body at a middle point (neither branch taken): what its stores leave in the
   score window's staging buffer and in the two scratch buffers, as pieces the run finds, with the body's triple. -/
import proofs.«417395_j71579924955534_2_alg».proof.Proof.K.R2Kit

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: on whole memrefs, the inputs' at their contents, the score output's at anything, the two
    last-point outputs' at contents handed back untouched, the running maximum and sum at what the point before
    left, the body runs to the continuation holding the inputs' as they were, the score buffer and the two scratch
    buffers with their pieces written. -/
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc2__attn_score_kernel_eq_skeleton]; unfold cc2__attn_score_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R2RunC.lean ====
/- The attention-score call's whole body at the last point (the reset branch not taken, the copy-out branch taken):
   what its stores leave in the three output windows' staging buffers and in the two scratch buffers, as pieces the
   run finds, with the body's triple. -/
import proofs.«417395_j71579924955534_2_alg».proof.Proof.K.R2Kit

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point: on whole memrefs, the inputs' at their contents, the three outputs' at anything, the running
    maximum and sum at what the point before left, the body runs to the continuation holding the inputs' as they
    were, the three output buffers and the two scratch buffers with their pieces written. -/
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_score_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc2__attn_score_kernel_eq_skeleton]; unfold cc2__attn_score_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R2.lean ====
/- The attention-score call cc2__attn_score_kernel of @main at a parameter V (the TensorCore's buffer contents when the
   region is entered): what each of the three control cases leaves in the outputs' staging buffers and in the two
   scratch buffers, the trajectory point by point (the running maximum and the running sum of exponentials carried in
   the scratch), the region invariant, the pipeline's proof data and its body obligation. Generic in the float family. -/
import proofs.«417395_j71579924955534_2_alg».proof.Proof.K.R2RunA
import proofs.«417395_j71579924955534_2_alg».proof.Proof.K.R2RunB
import proofs.«417395_j71579924955534_2_alg».proof.Proof.K.R2RunC

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-! ### At the first point -/

/-- The pieces the body leaves in the score window's staging buffer at the first point tile it, so they cover it. -/
theorem cover2_A_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) (y : S5000x1.Idx) :
    ∃ pc ∈ (kernelRun2_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).1 S5000x1.size (by sl_kernel_rfl) y

/-- What the body leaves in the score window's staging buffer at the first point: its pieces read back. -/
def out2_A_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) : Vec F S5000x1 .f32 :=
  VO2_4.read (Elt F) (VO2_4.writes (Elt F) VO2_4.junk (kernelRun2_A c i arg1 harg1 arg2 harg2 arg3 harg3 arg4 harg4 arg5 harg5 arg6 harg6 arg7 harg7 arg8 harg8 arg9 harg9 hc0 hc1 x0 x1 x2 x3).1)

/-- The pieces the body leaves in the running maximum's scratch buffer at the first point tile it, so they cover it. -/
theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) (y : S1x1.Idx) :
    ∃ pc ∈ (kernelRun2_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).2.1 S1x1.size (by sl_kernel_rfl) y

/-- What the body leaves in the running maximum's scratch buffer at the first point: its pieces read back. -/
def sout2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) : Vec F S1x1 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x0 x1 x2 x3).2.1)

/-- The pieces the body leaves in the running sum's scratch buffer at the first point tile it, so they cover it. -/
theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) (y : S1x1.Idx) :
    ∃ pc ∈ (kernelRun2_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).2.2.1 S1x1.size (by sl_kernel_rfl) y

/-- What the body leaves in the running sum's scratch buffer at the first point: its pieces read back. -/
def sout2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) : Vec F S1x1 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x0 x1 x2 x3).2.2.1)

/-! ### At a middle point -/

/-- The pieces the body leaves in the score window's staging buffer at a middle point tile it, so they cover it. -/
theorem cover2_B_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at a middle point: its pieces read back. -/
def out2_B_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO2_4.read (Elt F) (VO2_4.writes (Elt F) VO2_4.junk (kernelRun2_B c i arg1 harg1 arg2 harg2 arg3 harg3 arg4 harg4 arg5 harg5 arg6 harg6 arg7 harg7 arg8 harg8 arg9 harg9 hc0 hc1 x0 x1 x2 x3 xs0 xs1).1)

/-- The pieces the body leaves in the running maximum's scratch buffer at a middle point tile it, so they cover it. -/
theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the running maximum's scratch buffer at a middle point: its pieces read back. -/
def sout2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x0 x1 x2 x3 xs0 xs1).2.1)

/-- The pieces the body leaves in the running sum's scratch buffer at a middle point tile it, so they cover it. -/
theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the running sum's scratch buffer at a middle point: its pieces read back. -/
def sout2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x0 x1 x2 x3 xs0 xs1).2.2.1)

/-! ### At the last point -/

/-- The pieces the body leaves in the score window's staging buffer at the last point tile it, so they cover it. -/
theorem cover2_C_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at the last point: its pieces read back. -/
def out2_C_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO2_4.read (Elt F) (VO2_4.writes (Elt F) VO2_4.junk (kernelRun2_C c i arg1 harg1 arg2 harg2 arg3 harg3 arg4 harg4 arg5 harg5 arg6 harg6 arg7 harg7 arg8 harg8 arg9 harg9 hc0 hc1 x0 x1 x2 x3 xs0 xs1).1)

/-- The pieces the body leaves in the maximum's output window's staging buffer at the last point tile it, so they cover it. -/
theorem cover2_C_5 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the maximum's output window's staging buffer at the last point: its pieces read back. -/
def out2_C_5 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 hc0 hc1 x0 x1 x2 x3 xs0 xs1).2.1)

/-- The pieces the body leaves in the sum's output window's staging buffer at the last point tile it, so they cover it. -/
theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the sum's output window's staging buffer at the last point: its pieces read back. -/
def out2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x0 x1 x2 x3 xs0 xs1).2.2.1)

/-- The pieces the body leaves in the running maximum's scratch buffer at the last point tile it, so they cover it. -/
theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.2.1 S1x1.size (by sl_kernel_rfl) y

/-- What the body leaves in the running maximum's scratch buffer at the last point: its pieces read back. -/
def sout2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x0 x1 x2 x3 xs0 xs1).2.2.2.1)

/-- The pieces the body leaves in the running sum's scratch buffer at the last point tile it, so they cover it. -/
theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.2.2.1 S1x1.size (by sl_kernel_rfl) y

/-- What the body leaves in the running sum's scratch buffer at the last point: its pieces read back. -/
def sout2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the scratch hold after each point -/

/-- What an output window idle at a point is stated to hold there: nothing consults it (the window is neither
    written back there nor read at the next point). -/
def idle2_5 : Vec F S1x1 .f32 := VO2_5.read (Elt F) VO2_5.junk
def idle2_6 : Vec F S1x1 .f32 := VO2_6.read (Elt F) VO2_6.junk

/-- THE ACCUMULATION. What the three outputs' staging buffers and the two scratch buffers hold after the body at
    position n (the score block, the maximum's output, the sum's output, the running maximum, the running sum): the
    first point's case at the point's blocks; afterwards the middle or last point's case at the point's blocks and at
    the running maximum and sum the point before left. -/
def outsAt2 (c : Dev nD) : (n : ℕ) → n < cfg2.N → Vec F S5000x1 .f32 × Vec F S1x1 .f32 × Vec F S1x1 .f32 × Vec F S1x1 .f32 × Vec F S1x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), idle2_5, idle2_6, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : n + 1 = 249 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2)
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, idle2_5, idle2_6, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2)

/-- The trajectory at the first point. -/
theorem outsAt2_A (c : Dev nD) (t : Fin cfg2.N) (h0 : t.val = 0) (h1 : ¬t.val = 249) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), idle2_5, idle2_6, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

/-- The trajectory at a middle point: that case over what the point before left in the scratch. -/
theorem outsAt2_B (c : Dev nD) (t : Fin cfg2.N) (h0 : ¬t.val = 0) (h1 : ¬t.val = 249) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, idle2_5, idle2_6, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- The trajectory at the last point: that case over what the point before left in the scratch. -/
theorem outsAt2_C (c : Dev nD) (t : Fin cfg2.N) (h0 : ¬t.val = 0) (h1 : t.val = 249) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The region invariant before position n: before the first point the launch's (every scoped buffer at anything,
    the generator register at some state); afterwards the two scratch buffers at the running maximum and sum the
    point before left, every other scoped buffer unopened, and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2) ∗ rest2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2) ∗ rest2 (F := F) c) ∗ (∃ r, prngReg c r)) := by
  cases n with
  | zero => exact absurd rfl hz
  | succ n => rfl

/-! ## The pipeline's proof data -/

/-- The proof data of the call's pipeline on core c: the arrays as the region finds them (V); after the body at point
    t each input's buffer at its block and the outputs' at the trajectory's components; the invariant PhiS2; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which case the point is in;
    the invariant hands the body the two scratch buffers at what the point before left (at anything at the first
    point) and takes them back at this point's contents; away from the last point the two last-point outputs are
    handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 250 := lt_of_lt_of_eq t.isLt (show cfg2.N = 250 from N_2)
  rw [show (dat2 V c).leavesExact 0 t = owns (c : Thread nD τ) (ms2_0 t) fullShare ((dat2 V c).after 0 t) from by
    unfold Dat.leavesExact; rw [liveAt2_0 t]]
  rw [show (dat2 V c).leavesExact 1 t = owns (c : Thread nD τ) (ms2_1 t) fullShare ((dat2 V c).after 1 t) from by
    unfold Dat.leavesExact; rw [liveAt2_1 t]]
  rw [show (dat2 V c).leavesExact 2 t = owns (c : Thread nD τ) (ms2_2 t) fullShare ((dat2 V c).after 2 t) from by
    unfold Dat.leavesExact; rw [liveAt2_2 t]]
  rw [show (dat2 V c).leavesExact 3 t = owns (c : Thread nD τ) (ms2_3 t) fullShare ((dat2 V c).after 3 t) from by
    unfold Dat.leavesExact; rw [liveAt2_3 t]]
  rw [show (dat2 V c).leavesExact 4 t = owns (c : Thread nD τ) (ms2_4 t) fullShare ((dat2 V c).after 4 t) from by
    unfold Dat.leavesExact; rw [liveAt2_4 t]]
  rw [after2_0, after2_1, after2_2, after2_3, after2_4]
  by_cases h0 : t.val = 0
  · have h1 : ¬t.val = 249 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1), Dat.leavesExact_idle (dat2 V c) 6 t (idleAt2_6 t hc1) (noFlush2_6 t hc1)]
    rw [outsAt2_A V c t h0 h1]
    unfold out2_A_4 sout2_A_0 sout2_A_1; (try dsimp only)
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ _ _ hc0 hc1 (iblk2 V c 0 t) (iblk2 V c 1 t) (iblk2 V c 2 t) (iblk2 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _ _ _ _ _)
    isplitl [H5]; · iexists _; iexact H5
    iexists _; iexact H6
  · have hz : t.val ≠ 0 := h0
    have hc0 : ¬cond2_0 (grid2.coords t) := fun h => h0 ((hcond2_0 t).mp h)
    by_cases h1 : t.val = 249
    · have hc1 : cond2_1 (grid2.coords t) := (hcond2_1 t).mpr h1
      rw [show (dat2 V c).leavesExact 5 t = owns (c : Thread nD τ) (ms2_5 t) fullShare ((dat2 V c).after 5 t) from by
        unfold Dat.leavesExact; rw [liveAt2_5 t hc1], after2_5]
      rw [show (dat2 V c).leavesExact 6 t = owns (c : Thread nD τ) (ms2_6 t) fullShare ((dat2 V c).after 6 t) from by
        unfold Dat.leavesExact; rw [liveAt2_6 t hc1], after2_6]
      rw [outsAt2_C V c t h0 h1]
      unfold out2_C_4 out2_C_5 out2_C_6 sout2_C_0 sout2_C_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ _ _ hc0 hc1 (iblk2 V c 0 t) (iblk2 V c 1 t) (iblk2 V c 2 t) (iblk2 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _)
      unfold owns; iexists _; isplitr
      swap; · iexact H6
      ipureintro; exact View.read_writes_of_cover _ _ _ _ _ (cover2_C_6 c _ _ _ _ _ _ _ _ _ _ _ _ _ _ _ _ _ _ _ _ _ _ _ _ _ _ _)
    · have hc1 : ¬cond2_1 (grid2.coords t) := fun h => h1 ((hcond2_1 t).mp h)
      rw [Dat.leavesExact_idle (dat2 V c) 5 t (idleAt2_5 t hc1) (noFlush2_5 t hc1), Dat.leavesExact_idle (dat2 V c) 6 t (idleAt2_6 t hc1) (noFlush2_6 t hc1)]
      rw [outsAt2_B V c t h0 h1]
      unfold out2_B_4 sout2_B_0 sout2_B_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ _ _ hc0 hc1 (iblk2 V c 0 t) (iblk2 V c 1 t) (iblk2 V c 2 t) (iblk2 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_B_4 c _ _ _ _ _ _ _ _ _ _ _ _ _ _ _ _ _ _ _ _ _ _ _ _ _ _ _)
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the scratch buffers' named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 250 := N_2; omega)

end Cert.Kernel.Hand

end
-- ==== Proof.K.R3.lean ====
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (the message call): the body's triple and the proof data, at any float family

The call has six windows over 250 points: the score block (window 0), the gathered feature block (window 1) and the
edge-weight block (window 2) move with the point; the global maximum (window 3) and the global sum (window 4) are single
cells that stay; the message block (window 5) is written whole at every point. Everything is stated at a parameter `V`,
the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 is an input, copied in at every point: whatever proof data has `V`'s array and a body that leaves the
    block alone finds the block of point `t` in the current buffer at point `t`. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1, likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2, likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Window 3 is one cell whose block index never moves: it is copied in at the first point only, and at a later point
    the buffer still holds what the previous point left, which is the same block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4, likewise. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's rectangles: each access is a whole buffer -/

abbrev r3_cell : Rect S1x1 := Rect.unit (s := S1x1) ![0, 0] S1x1.size inb_S1x1_S1x1_0_0
abbrev r3_col : Rect S5000x1 := Rect.unit (s := S5000x1) ![0, 0] S5000x1.size inb_S5000x1_S5000x1_0_0
abbrev r3_blk : Rect S5000x64 := Rect.unit (s := S5000x64) ![0, 0] S5000x64.size inb_S5000x64_S5000x64_0_0

/-! ## What the body leaves in the output window's buffer -/

/-- The message block from the five input blocks `x0 … x4` (score, features, edge weight, maximum, sum): the one store
    of the body, whose value is the body's arithmetic on the whole input blocks. -/
def out3_5 (x0 : Vec F S5000x1 .f32) (x1 : Vec F S5000x64 .f32) (x2 : Vec F S5000x1 .f32) (x3 : Vec F S1x1 .f32) (x4 : Vec F S1x1 .f32) :
    Vec F S5000x64 .f32 :=
  View.canon [⟨r3_blk, k3_pay1 (View.ld x3 r3_cell) (View.ld x4 r3_cell) (View.ld x0 r3_col) (View.ld x2 r3_col) (View.ld x1 r3_blk)⟩]

/-- The one store is the whole buffer, so every index of the buffer lies in it. -/
theorem cover3_5 (p0 : Vec F S5000x64 .f32) (y : S5000x64.Idx) :
    ∃ pc ∈ ([⟨r3_blk, p0⟩] : List (View.Piece (Elt F) S5000x64 .f32)), y ∈ pc.1.set :=
  View.cover_of_tiled [⟨r3_blk, p0⟩] S5000x64.size (by rfl) y

/-! ## The body's triple -/

set_option maxHeartbeats 1000000 in
/-- The body on six whole buffers, the inputs' holding `x0 … x4` and the output's anything, ends with the inputs' as they
    were and the output's at `out3_5 x0 … x4`. -/
theorem sound_kernel3 (c : Dev nD) (E : Set ℕ) (i : grid3.Coords)
    (arg0 : Memref sig .tc .vmem S5000x1 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x1 .f32) (harg3 : arg3.IsWhole)
    (arg4 : Memref sig .tc .vmem S1x1 .f32) (harg4 : arg4.IsWhole) (arg5 : Memref sig .tc .vmem S5000x64 .f32) (harg5 : arg5.IsWhole)
    (x0 : Vec F S5000x1 .f32) (x1 : Vec F S5000x64 .f32) (x2 : Vec F S5000x1 .f32) (x3 : Vec F S1x1 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__message_kernel i arg0 harg0 arg1 harg1 arg2 harg2 arg3 harg3 arg4 harg4 arg5 harg5) K := by
  simp only [cc3__message_kernel_eq_skeleton]; unfold cc3__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data -/

/-- The proof data of the region on core `c`: the arrays are `V`'s; after the body at point `t` every input's buffer holds
    its block of point `t` and the output's holds `out3_5` of those blocks; nothing is owed, the shares are whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- What the body is entered with at point `t`: the invariant, the core's debts, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, the triple applies, the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.R4.lean ====
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 (the finalize call): the body's triple and the proof data, at any float family

The call has six windows over 20 points: the projected block (window 0), the aggregated block (window 1) and the
residual block (window 2) move with the point; the scale row (window 3) and the shift row (window 4) are single rows
that stay; the result block (window 5) is written whole at every point. Everything is stated at a parameter `V`,
the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 is an input, copied in at every point: whatever proof data has `V`'s array and a body that leaves the
    block alone finds the block of point `t` in the current buffer at point `t`. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1, likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2, likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 is one row whose block index never moves: it is copied in at the first point only, and at a later point
    the buffer still holds what the previous point left, which is the same block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4, likewise. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's rectangles: each access is a whole buffer -/

abbrev r4_row : Rect S1x64 := Rect.unit (s := S1x64) ![0, 0] S1x64.size inb_S1x64_S1x64_0_0
abbrev r4_blk : Rect S5000x64 := Rect.unit (s := S5000x64) ![0, 0] S5000x64.size inb_S5000x64_S5000x64_0_0

/-! ## What the body leaves in the output window's buffer -/

/-- The result block from the five input blocks `x0 … x4` (projected, aggregated, residual, scale row, shift row): the one
    store of the body, whose value is the body's arithmetic on the whole input blocks. -/
def out4_5 (x0 : Vec F S5000x64 .f32) (x1 : Vec F S5000x64 .f32) (x2 : Vec F S5000x64 .f32) (x3 : Vec F S1x64 .f32) (x4 : Vec F S1x64 .f32) :
    Vec F S5000x64 .f32 :=
  View.canon [⟨r4_blk, k4_pay1 (View.ld x0 r4_blk) (View.ld x1 r4_blk) (View.ld x3 r4_row) (View.ld x4 r4_row) (View.ld x2 r4_blk)⟩]

/-- The one store is the whole buffer, so every index of the buffer lies in it. -/
theorem cover4_5 (p0 : Vec F S5000x64 .f32) (y : S5000x64.Idx) :
    ∃ pc ∈ ([⟨r4_blk, p0⟩] : List (View.Piece (Elt F) S5000x64 .f32)), y ∈ pc.1.set :=
  View.cover_of_tiled [⟨r4_blk, p0⟩] S5000x64.size (by rfl) y

/-! ## The body's triple -/

set_option maxHeartbeats 1000000 in
/-- The body on six whole buffers, the inputs' holding `x0 … x4` and the output's anything, ends with the inputs' as they
    were and the output's at `out4_5 x0 … x4`. -/
theorem sound_kernel4 (c : Dev nD) (E : Set ℕ) (i : grid4.Coords)
    (arg0 : Memref sig .tc .vmem S5000x64 .f32) (harg0 : arg0.IsWhole) (arg1 : Memref sig .tc .vmem S5000x64 .f32) (harg1 : arg1.IsWhole)
    (arg2 : Memref sig .tc .vmem S5000x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (x3 : Vec F S1x64 .f32) (x4 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out4_5 x0 x1 x2 x3 x4)) -∗ K ⟨⟩))
      ⊢ wp frame (wpE (defs₀ (F := F)) Variants.none c none) E (cc4__finalize_kernel i arg0 harg0 arg1 harg1 arg2 harg2 arg3 harg3 arg4 harg4 arg5 harg5) K := by
  simp only [cc4__finalize_kernel_eq_skeleton]; unfold cc4__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The proof data -/

/-- The proof data of the region on core `c`: the arrays are `V`'s; after the body at point `t` every input's buffer holds
    its block of point `t` and the output's holds `out4_5` of those blocks; nothing is owed, the shares are whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation at a generic point -/

/-- What the body is entered with at point `t`: the invariant, the core's debts, and each window's current buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, the triple applies, the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.R5.lean ====
/- The dense call cc5__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows window's staging buffer holds the rows block of the point at every point (it is fetched at each),
    for any proof data whose array is V's and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The weight window is resident: fetched at the first point only, its block index never moves, so its staging
    buffer holds the (one) weight block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The bias window is resident too. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each staging buffer whole -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S5000x64 := Rect.unit (s := S5000x64) ![0, 0] S5000x64.size inb_S5000x64_S5000x64_0_0

/-! ## What the body leaves in the output window's buffer -/

/-- Window 3's staging buffer after the body, from the input windows' blocks: its one store, the payload of the
    three loaded blocks, over the whole buffer. -/
def out5_3 (x0 : Vec F S5000x64 .f32) (x1 : Vec F S64x64 .f32) (x2 : Vec F S1x64 .f32) : Vec F S5000x64 .f32 :=
  View.canon [⟨r5_3, k5_pay1 (View.ld x0 r5_0) (View.ld x1 r5_1) (View.ld x2 r5_2)⟩]

/-- The one store is the whole buffer, so it covers it. -/
theorem cover5_3 (p0 : Vec F S5000x64 .f32) (y : S5000x64.Idx) :
    ∃ pc ∈ ([⟨r5_3, p0⟩] : List (View.Piece (Elt F) S5000x64 .f32)), y ∈ pc.1.set :=
  View.cover_of_tiled [⟨r5_3, p0⟩] S5000x64.size (by rfl) y

/-! ## The body's triple -/

set_option maxHeartbeats 1000000 in
/-- The kernel body on whole staging memrefs, the inputs' at read contents and the output's at anything, runs to the
    continuation holding the inputs' as they were and the output's at out5_3 of the inputs'. -/
theorem sound_kernel5 (c : Dev nD) (E : Set ℕ) (i : grid5.Coords)
    (arg0 : Memref sig .tc .vmem S5000x64 .f32) (harg0 : arg0.IsWhole) (arg1 : Memref sig .tc .vmem S64x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__dense_kernel i arg0 harg0 arg1 harg1 arg2 harg2 arg3 harg3) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of the region's pipeline on core c: the arrays as the region finds them (V); after the body at
    point t each input's buffer at its block and the output's at out5_3 of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so sound_kernel5 applies; the invariant and the
    core's owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6Kit.lean ====
/- The attention-score call cc6__attn_score_kernel of @main (per block of 5000 edges: the leaky-relu score of the
   two gathered feature blocks against a resident weight and bias, a running maximum and a running sum of
   exponentials carried in two one-word scratch buffers across the 250 points, copied out at the last point), at a
   parameter V: the TensorCore's buffer contents when the region is entered. This module holds what the three
   control cases share: each window's block at a point, the input windows' staging contents, the two branch
   conditions in closed form over the grid, where the two last-point outputs are idle, and the region invariant
   opened at the two scratch buffers. Generic in the float family. -/
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The first feature window's staging buffer holds the point's block at every point (it is fetched at each), for any proof data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The second feature window's staging buffer holds the point's block at every point (it is fetched at each), for any proof data whose array is V's and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The weight window is resident: fetched at the first point only, its block index never moves, so its staging buffer holds the one weight block at every point, for any proof data whose array is V's and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The bias window is resident: fetched at the first point only, its staging buffer holds the one bias word at every point, for any proof data whose array is V's and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's two branch conditions, in closed form over the grid -/

/-- The condition of the reset branch, from the grid coordinate. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The condition of the copy-out branch, from the grid coordinate. -/
abbrev cond6_1 (i : grid6.Coords) : Prop := k6_cond2 i = 1#1
/-- It holds at the last point only. -/
theorem hcond6_1 : ∀ t : Fin cfg6.N, cond6_1 (grid6.coords t) ↔ t.val = 249 :=
  (by decide +kernel : ∀ t : Fin grid6.N, cond6_1 (grid6.coords t) ↔ t.val = 249)

/-! ## Where the windows are idle -/

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl
/-- Away from the last point the maximum's output window is idle and not written back. -/
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5 : ∀ t : Fin cfg6.N, cond6_1 (grid6.coords t) → cfg6.idle 5 (grid6.coords t) = false := by decide +kernel
/-- Away from the last point the sum's output window is idle and not written back. -/
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem liveAt6_6 : ∀ t : Fin cfg6.N, cond6_1 (grid6.coords t) → cfg6.idle 6 (grid6.coords t) = false := by decide +kernel

/-! ## The staging and scratch memrefs -/

/-- One staging buffer of each output window, through which its contents are stated (the choice does not matter). -/
abbrev VO6_4 : View sig .tc .vmem S5000x1 .f32 := (Memref.whole cc6_stg4_0 : Memref sig .tc .vmem S5000x1 .f32).view
abbrev VO6_5 : View sig .tc .vmem S1x1 .f32 := (Memref.whole cc6_stg5_0 : Memref sig .tc .vmem S1x1 .f32).view
abbrev VO6_6 : View sig .tc .vmem S1x1 .f32 := (Memref.whole cc6_stg6_0 : Memref sig .tc .vmem S1x1 .f32).view
/-- Each window's current staging memref at point t, spelled as the pipeline passes it, and its wholeness. -/
abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x1 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x1 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S5000x1 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x1 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x1 .f32 := win6_6.stage (cfg6.slots t 6)
abbrev hs6_6 (t : Fin cfg6.N) : (ms6_6 t).IsWhole := hstage6_6 ((cfg6.slots t 6).cast nbuf6_6)
/-- The two scratch operands: whole scoped buffers of the call's own, passed beside the windows; the running maximum
    and the running sum. -/
abbrev scM6_0 : Memref sig .tc .vmem S1x1 .f32 := Memref.whole cc6_scratch0
abbrev scM6_1 : Memref sig .tc .vmem S1x1 .f32 := Memref.whole cc6_scratch1
abbrev VS6_0 : View sig .tc .vmem S1x1 .f32 := scM6_0.view
abbrev VS6_1 : View sig .tc .vmem S1x1 .f32 := scM6_1.view

/-- Every other scoped buffer of the core, unopened. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- The launch's invariant with the two scratch operands as memrefs owned at some contents, the other scoped
    buffers unopened: what the body obligation hands the run and takes back. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

end Cert.Kernel.Hand

end
-- ==== Proof.K.R6RunA.lean ====
/- The attention-score call's whole body at the first point (the reset branch taken, the copy-out branch not): what
   its stores leave in the score window's staging buffer and in the two scratch buffers, as pieces the run finds,
   with the body's triple. -/
import proofs.«417395_j71579924955534_2_alg».proof.Proof.K.R6Kit

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: on whole memrefs, the inputs' at their contents, the score output's at anything, the two
    last-point outputs' at contents handed back untouched, the two scratch buffers at anything (the body resets
    them), the body runs to the continuation holding the inputs' as they were, the score buffer and the two scratch
    buffers with their pieces written. -/
noncomputable def kernelRun6_A (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc6__attn_score_kernel_eq_skeleton]; unfold cc6__attn_score_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R6RunB.lean ====
/- The attention-score call's whole body at a middle point (neither branch taken): what its stores leave in the
   score window's staging buffer and in the two scratch buffers, as pieces the run finds, with the body's triple. -/
import proofs.«417395_j71579924955534_2_alg».proof.Proof.K.R6Kit

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: on whole memrefs, the inputs' at their contents, the score output's at anything, the two
    last-point outputs' at contents handed back untouched, the running maximum and sum at what the point before
    left, the body runs to the continuation holding the inputs' as they were, the score buffer and the two scratch
    buffers with their pieces written. -/
noncomputable def kernelRun6_B (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc6__attn_score_kernel_eq_skeleton]; unfold cc6__attn_score_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R6RunC.lean ====
/- The attention-score call's whole body at the last point (the reset branch not taken, the copy-out branch taken):
   what its stores leave in the three output windows' staging buffers and in the two scratch buffers, as pieces the
   run finds, with the body's triple. -/
import proofs.«417395_j71579924955534_2_alg».proof.Proof.K.R6Kit

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point: on whole memrefs, the inputs' at their contents, the three outputs' at anything, the running
    maximum and sum at what the point before left, the body runs to the continuation holding the inputs' as they
    were, the three output buffers and the two scratch buffers with their pieces written. -/
noncomputable def kernelRun6_C (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_score_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc6__attn_score_kernel_eq_skeleton]; unfold cc6__attn_score_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R6.lean ====
/- The attention-score call cc6__attn_score_kernel of @main at a parameter V (the TensorCore's buffer contents when the
   region is entered): what each of the three control cases leaves in the outputs' staging buffers and in the two
   scratch buffers, the trajectory point by point (the running maximum and the running sum of exponentials carried in
   the scratch), the region invariant, the pipeline's proof data and its body obligation. Generic in the float family. -/
import proofs.«417395_j71579924955534_2_alg».proof.Proof.K.R6RunA
import proofs.«417395_j71579924955534_2_alg».proof.Proof.K.R6RunB
import proofs.«417395_j71579924955534_2_alg».proof.Proof.K.R6RunC

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-! ### At the first point -/

/-- The pieces the body leaves in the score window's staging buffer at the first point tile it, so they cover it. -/
theorem cover6_A_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) (y : S5000x1.Idx) :
    ∃ pc ∈ (kernelRun6_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun6_A c i arg1 harg1 arg2 harg2 arg3 harg3 arg4 harg4 arg5 harg5 arg6 harg6 arg7 harg7 arg8 harg8 arg9 harg9 hc0 hc1 x0 x1 x2 x3).1 S5000x1.size (by sl_kernel_rfl) y

/-- What the body leaves in the score window's staging buffer at the first point: its pieces read back. -/
def out6_A_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) : Vec F S5000x1 .f32 :=
  VO6_4.read (Elt F) (VO6_4.writes (Elt F) VO6_4.junk (kernelRun6_A c i arg1 harg1 arg2 harg2 arg3 harg3 arg4 harg4 arg5 harg5 arg6 harg6 arg7 harg7 arg8 harg8 arg9 harg9 hc0 hc1 x0 x1 x2 x3).1)

/-- The pieces the body leaves in the running maximum's scratch buffer at the first point tile it, so they cover it. -/
theorem scover6_A_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) (y : S1x1.Idx) :
    ∃ pc ∈ (kernelRun6_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun6_A c i arg1 harg1 arg2 harg2 arg3 harg3 arg4 harg4 arg5 harg5 arg6 harg6 arg7 harg7 arg8 harg8 arg9 harg9 hc0 hc1 x0 x1 x2 x3).2.1 S1x1.size (by sl_kernel_rfl) y

/-- What the body leaves in the running maximum's scratch buffer at the first point: its pieces read back. -/
def sout6_A_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) : Vec F S1x1 .f32 :=
  VS6_0.read (Elt F) (VS6_0.writes (Elt F) VS6_0.junk (kernelRun6_A c i arg1 harg1 arg2 harg2 arg3 harg3 arg4 harg4 arg5 harg5 arg6 harg6 arg7 harg7 arg8 harg8 arg9 harg9 hc0 hc1 x0 x1 x2 x3).2.1)

/-- The pieces the body leaves in the running sum's scratch buffer at the first point tile it, so they cover it. -/
theorem scover6_A_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) (y : S1x1.Idx) :
    ∃ pc ∈ (kernelRun6_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun6_A c i arg1 harg1 arg2 harg2 arg3 harg3 arg4 harg4 arg5 harg5 arg6 harg6 arg7 harg7 arg8 harg8 arg9 harg9 hc0 hc1 x0 x1 x2 x3).2.2.1 S1x1.size (by sl_kernel_rfl) y

/-- What the body leaves in the running sum's scratch buffer at the first point: its pieces read back. -/
def sout6_A_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) : Vec F S1x1 .f32 :=
  VS6_1.read (Elt F) (VS6_1.writes (Elt F) VS6_1.junk (kernelRun6_A c i arg1 harg1 arg2 harg2 arg3 harg3 arg4 harg4 arg5 harg5 arg6 harg6 arg7 harg7 arg8 harg8 arg9 harg9 hc0 hc1 x0 x1 x2 x3).2.2.1)

/-! ### At a middle point -/

/-- The pieces the body leaves in the score window's staging buffer at a middle point tile it, so they cover it. -/
theorem cover6_B_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun6_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun6_B c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at a middle point: its pieces read back. -/
def out6_B_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO6_4.read (Elt F) (VO6_4.writes (Elt F) VO6_4.junk (kernelRun6_B c i arg1 harg1 arg2 harg2 arg3 harg3 arg4 harg4 arg5 harg5 arg6 harg6 arg7 harg7 arg8 harg8 arg9 harg9 hc0 hc1 x0 x1 x2 x3 xs0 xs1).1)

/-- The pieces the body leaves in the running maximum's scratch buffer at a middle point tile it, so they cover it. -/
theorem scover6_B_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun6_B c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the running maximum's scratch buffer at a middle point: its pieces read back. -/
def sout6_B_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS6_0.read (Elt F) (VS6_0.writes (Elt F) VS6_0.junk (kernelRun6_B c i arg1 harg1 arg2 harg2 arg3 harg3 arg4 harg4 arg5 harg5 arg6 harg6 arg7 harg7 arg8 harg8 arg9 harg9 hc0 hc1 x0 x1 x2 x3 xs0 xs1).2.1)

/-- The pieces the body leaves in the running sum's scratch buffer at a middle point tile it, so they cover it. -/
theorem scover6_B_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun6_B c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the running sum's scratch buffer at a middle point: its pieces read back. -/
def sout6_B_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS6_1.read (Elt F) (VS6_1.writes (Elt F) VS6_1.junk (kernelRun6_B c i arg1 harg1 arg2 harg2 arg3 harg3 arg4 harg4 arg5 harg5 arg6 harg6 arg7 harg7 arg8 harg8 arg9 harg9 hc0 hc1 x0 x1 x2 x3 xs0 xs1).2.2.1)

/-! ### At the last point -/

/-- The pieces the body leaves in the score window's staging buffer at the last point tile it, so they cover it. -/
theorem cover6_C_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at the last point: its pieces read back. -/
def out6_C_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO6_4.read (Elt F) (VO6_4.writes (Elt F) VO6_4.junk (kernelRun6_C c i arg1 harg1 arg2 harg2 arg3 harg3 arg4 harg4 arg5 harg5 arg6 harg6 arg7 harg7 arg8 harg8 arg9 harg9 hc0 hc1 x0 x1 x2 x3 xs0 xs1).1)

/-- The pieces the body leaves in the maximum's output window's staging buffer at the last point tile it, so they cover it. -/
theorem cover6_C_5 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the maximum's output window's staging buffer at the last point: its pieces read back. -/
def out6_C_5 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO6_5.read (Elt F) (VO6_5.writes (Elt F) VO6_5.junk (kernelRun6_C c i arg1 harg1 arg2 harg2 arg3 harg3 arg4 harg4 arg5 harg5 arg6 harg6 arg7 harg7 arg8 harg8 arg9 harg9 hc0 hc1 x0 x1 x2 x3 xs0 xs1).2.1)

/-- The pieces the body leaves in the sum's output window's staging buffer at the last point tile it, so they cover it. -/
theorem cover6_C_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the sum's output window's staging buffer at the last point: its pieces read back. -/
def out6_C_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO6_6.read (Elt F) (VO6_6.writes (Elt F) VO6_6.junk (kernelRun6_C c i arg1 harg1 arg2 harg2 arg3 harg3 arg4 harg4 arg5 harg5 arg6 harg6 arg7 harg7 arg8 harg8 arg9 harg9 hc0 hc1 x0 x1 x2 x3 xs0 xs1).2.2.1)

/-- The pieces the body leaves in the running maximum's scratch buffer at the last point tile it, so they cover it. -/
theorem scover6_C_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).2.2.2.1 S1x1.size (by sl_kernel_rfl) y

/-- What the body leaves in the running maximum's scratch buffer at the last point: its pieces read back. -/
def sout6_C_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS6_0.read (Elt F) (VS6_0.writes (Elt F) VS6_0.junk (kernelRun6_C c i arg1 harg1 arg2 harg2 arg3 harg3 arg4 harg4 arg5 harg5 arg6 harg6 arg7 harg7 arg8 harg8 arg9 harg9 hc0 hc1 x0 x1 x2 x3 xs0 xs1).2.2.2.1)

/-- The pieces the body leaves in the running sum's scratch buffer at the last point tile it, so they cover it. -/
theorem scover6_C_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).2.2.2.2.1 S1x1.size (by sl_kernel_rfl) y

/-- What the body leaves in the running sum's scratch buffer at the last point: its pieces read back. -/
def sout6_C_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS6_1.read (Elt F) (VS6_1.writes (Elt F) VS6_1.junk (kernelRun6_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the scratch hold after each point -/

/-- What an output window idle at a point is stated to hold there: nothing consults it (the window is neither
    written back there nor read at the next point). -/
def idle6_5 : Vec F S1x1 .f32 := VO6_5.read (Elt F) VO6_5.junk
def idle6_6 : Vec F S1x1 .f32 := VO6_6.read (Elt F) VO6_6.junk

/-- THE ACCUMULATION. What the three outputs' staging buffers and the two scratch buffers hold after the body at
    position n (the score block, the maximum's output, the sum's output, the running maximum, the running sum): the
    first point's case at the point's blocks; afterwards the middle or last point's case at the point's blocks and at
    the running maximum and sum the point before left. -/
def outsAt6 (c : Dev nD) : (n : ℕ) → n < cfg6.N → Vec F S5000x1 .f32 × Vec F S1x1 .f32 × Vec F S1x1 .f32 × Vec F S1x1 .f32 × Vec F S1x1 .f32
  | 0, hn => (out6_A_4 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩), idle6_5, idle6_6, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩))
  | n + 1, hn =>
    if h1 : n + 1 = 249 then
      (out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, out6_C_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2)
    else
      (out6_B_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, idle6_5, idle6_6, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2)

/-- The trajectory at the first point. -/
theorem outsAt6_A (c : Dev nD) (t : Fin cfg6.N) (h0 : t.val = 0) (h1 : ¬t.val = 249) :
    outsAt6 V c t.val t.isLt = (out6_A_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t), idle6_5, idle6_6, sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t)) := by
  obtain ⟨n, hn⟩ := t
  cases n with
  | zero => exact rfl
  | succ n => exact absurd h0 (Nat.succ_ne_zero n)

/-- The trajectory at a middle point: that case over what the point before left in the scratch. -/
theorem outsAt6_B (c : Dev nD) (t : Fin cfg6.N) (h0 : ¬t.val = 0) (h1 : ¬t.val = 249) :
    outsAt6 V c t.val t.isLt = (out6_B_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, idle6_5, idle6_6, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- The trajectory at the last point: that case over what the point before left in the scratch. -/
theorem outsAt6_C (c : Dev nD) (t : Fin cfg6.N) (h0 : ¬t.val = 0) (h1 : t.val = 249) :
    outsAt6 V c t.val t.isLt = (out6_C_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, out6_C_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The region invariant before position n: before the first point the launch's (every scoped buffer at anything,
    the generator register at some state); afterwards the two scratch buffers at the running maximum and sum the
    point before left, every other scoped buffer unopened, and the generator register. -/
def PhiS6 (c : Dev nD) : (n : ℕ) → n ≤ cfg6.N → sProp 𝕄
  | 0, _ => Pipeline.ΦA spec6 c
  | n + 1, hn => iprop(iprop(iprop(owns (c : Thread nD τ) scM6_0 fullShare (outsAt6 V c n hn).2.2.2.1 ∗ owns (c : Thread nD τ) scM6_1 fullShare (outsAt6 V c n hn).2.2.2.2) ∗ rest6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (outsAt6 V c n hn).2.2.2.1 ∗ owns (c : Thread nD τ) scM6_1 fullShare (outsAt6 V c n hn).2.2.2.2) ∗ rest6 (F := F) c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (outsAt6 V c (n - 1) (by omega)).2.2.2.1 ∗ owns (c : Thread nD τ) scM6_1 fullShare (outsAt6 V c (n - 1) (by omega)).2.2.2.2) ∗ rest6 (F := F) c) ∗ (∃ r, prngReg c r)) := by
  cases n with
  | zero => exact absurd rfl hz
  | succ n => rfl

/-! ## The pipeline's proof data -/

/-- The proof data of the call's pipeline on core c: the arrays as the region finds them (V); after the body at point
    t each input's buffer at its block and the outputs' at the trajectory's components; the invariant PhiS6; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
    | ⟨5, _⟩ => (outsAt6 V c t.val t.isLt).2.1
    | ⟨6, _⟩ => (outsAt6 V c t.val t.isLt).2.2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at the point's position. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]
theorem after6_5 (c : Dev nD) (t : Fin cfg6.N) : (dat6 V c).after 5 t = (outsAt6 V c t.val t.isLt).2.1 := by dsimp only [dat6]
theorem after6_6 (c : Dev nD) (t : Fin cfg6.N) : (dat6 V c).after 6 t = (outsAt6 V c t.val t.isLt).2.2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4800000 in
/-- The body at any point: the inputs' memrefs hold their blocks; the closed forms say which case the point is in;
    the invariant hands the body the two scratch buffers at what the point before left (at anything at the first
    point) and takes them back at this point's contents; away from the last point the two last-point outputs are
    handed back as found; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  have hN : t.val < 250 := lt_of_lt_of_eq t.isLt (show cfg6.N = 250 from N_6)
  rw [show (dat6 V c).leavesExact 0 t = owns (c : Thread nD τ) (ms6_0 t) fullShare ((dat6 V c).after 0 t) from by
    unfold Dat.leavesExact; rw [liveAt6_0 t]]
  rw [show (dat6 V c).leavesExact 1 t = owns (c : Thread nD τ) (ms6_1 t) fullShare ((dat6 V c).after 1 t) from by
    unfold Dat.leavesExact; rw [liveAt6_1 t]]
  rw [show (dat6 V c).leavesExact 2 t = owns (c : Thread nD τ) (ms6_2 t) fullShare ((dat6 V c).after 2 t) from by
    unfold Dat.leavesExact; rw [liveAt6_2 t]]
  rw [show (dat6 V c).leavesExact 3 t = owns (c : Thread nD τ) (ms6_3 t) fullShare ((dat6 V c).after 3 t) from by
    unfold Dat.leavesExact; rw [liveAt6_3 t]]
  rw [show (dat6 V c).leavesExact 4 t = owns (c : Thread nD τ) (ms6_4 t) fullShare ((dat6 V c).after 4 t) from by
    unfold Dat.leavesExact; rw [liveAt6_4 t]]
  rw [after6_0, after6_1, after6_2, after6_3, after6_4]
  by_cases h0 : t.val = 0
  · have h1 : ¬t.val = 249 := by omega
    have hc0 : cond6_0 (grid6.coords t) := (hcond6_0 t).mpr h0
    have hc1 : ¬cond6_1 (grid6.coords t) := fun h => h1 ((hcond6_1 t).mp h)
    rw [Dat.leavesExact_idle (dat6 V c) 5 t (idleAt6_5 t hc1) (noFlush6_5 t hc1), Dat.leavesExact_idle (dat6 V c) 6 t (idleAt6_6 t hc1) (noFlush6_6 t hc1)]
    rw [outsAt6_A V c t h0 h1]
    unfold out6_A_4 sout6_A_0 sout6_A_1; (try dsimp only)
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun6_A c (grid6.coords t) _ _ _ _ _ _ _ _ _ _ _ _ _ _ _ _ _ _ hc0 hc1 (iblk6 V c 0 t) (iblk6 V c 1 t) (iblk6 V c 2 t) (iblk6 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _ _ _ _ _)
          · unfold owns; iexists _; isplitr
            swap; · iexact HS1
            ipureintro; exact View.read_writes_of_cover _ _ _ _ _ (scover6_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover6_A_4 c _ _ _ _ _ _ _ _ _ _ _ _ _ _ _ _ _ _ _ _ _ _ _ _ _)
    isplitl [H5]; · iexists _; iexact H5
    iexists _; iexact H6
  · have hz : t.val ≠ 0 := h0
    have hc0 : ¬cond6_0 (grid6.coords t) := fun h => h0 ((hcond6_0 t).mp h)
    by_cases h1 : t.val = 249
    · have hc1 : cond6_1 (grid6.coords t) := (hcond6_1 t).mpr h1
      rw [show (dat6 V c).leavesExact 5 t = owns (c : Thread nD τ) (ms6_5 t) fullShare ((dat6 V c).after 5 t) from by
        unfold Dat.leavesExact; rw [liveAt6_5 t hc1], after6_5]
      rw [show (dat6 V c).leavesExact 6 t = owns (c : Thread nD τ) (ms6_6 t) fullShare ((dat6 V c).after 6 t) from by
        unfold Dat.leavesExact; rw [liveAt6_6 t hc1], after6_6]
      rw [outsAt6_C V c t h0 h1]
      unfold out6_C_4 out6_C_5 out6_C_6 sout6_C_0 sout6_C_1; (try dsimp only)
      rw [PhiS6_castSucc V c t, PhiS6_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun6_C c (grid6.coords t) _ _ _ _ _ _ _ _ _ _ _ _ _ _ _ _ _ _ hc0 hc1 (iblk6 V c 0 t) (iblk6 V c 1 t) (iblk6 V c 2 t) (iblk6 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _ _ _ _)
            · unfold owns; iexists _; isplitr
              swap; · iexact HS1
              ipureintro; exact View.read_writes_of_cover _ _ _ _ _ (scover6_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover6_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover6_C_5 c _ _ _ _ _ _ _ _ _ _ _ _ _ _ _ _ _ _ _ _ _ _ _ _ _ _ _)
      unfold owns; iexists _; isplitr
      swap; · iexact H6
      ipureintro; exact View.read_writes_of_cover _ _ _ _ _ (cover6_C_6 c _ _ _ _ _ _ _ _ _ _ _ _ _ _ _ _ _ _ _ _ _ _ _ _ _ _ _)
    · have hc1 : ¬cond6_1 (grid6.coords t) := fun h => h1 ((hcond6_1 t).mp h)
      rw [Dat.leavesExact_idle (dat6 V c) 5 t (idleAt6_5 t hc1) (noFlush6_5 t hc1), Dat.leavesExact_idle (dat6 V c) 6 t (idleAt6_6 t hc1) (noFlush6_6 t hc1)]
      rw [outsAt6_B V c t h0 h1]
      unfold out6_B_4 sout6_B_0 sout6_B_1; (try dsimp only)
      rw [PhiS6_castSucc V c t, PhiS6_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun6_B c (grid6.coords t) _ _ _ _ _ _ _ _ _ _ _ _ _ _ _ _ _ _ hc0 hc1 (iblk6 V c 0 t) (iblk6 V c 1 t) (iblk6 V c 2 t) (iblk6 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _ _ _ _)
            · unfold owns; iexists _; isplitr
              swap; · iexact HS1
              ipureintro; exact View.read_writes_of_cover _ _ _ _ _ (scover6_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover6_B_4 c _ _ _ _ _ _ _ _ _ _ _ _ _ _ _ _ _ _ _ _ _ _ _ _ _ _ _)
      isplitl [H5]; · iexists _; iexact H5
      iexists _; iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the launch's back: the scratch buffers' named contents are
    forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 250 := N_6; omega)

end Cert.Kernel.Hand

end
-- ==== Proof.K.R7.lean ====
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7 (the message call): the body's triple and the proof data, at any float family

The call has six windows over 250 points: the score block (window 0), the gathered feature block (window 1) and the
edge-weight block (window 2) move with the point; the global maximum (window 3) and the global sum (window 4) are single
cells that stay; the message block (window 5) is written whole at every point. Everything is stated at a parameter `V`,
the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Window 0 is an input, copied in at every point: whatever proof data has `V`'s array and a body that leaves the
    block alone finds the block of point `t` in the current buffer at point `t`. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Window 1, likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Window 2, likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Window 3 is one cell whose block index never moves: it is copied in at the first point only, and at a later point
    the buffer still holds what the previous point left, which is the same block. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Window 4, likewise. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's rectangles: each access is a whole buffer -/

abbrev r7_cell : Rect S1x1 := Rect.unit (s := S1x1) ![0, 0] S1x1.size inb_S1x1_S1x1_0_0
abbrev r7_col : Rect S5000x1 := Rect.unit (s := S5000x1) ![0, 0] S5000x1.size inb_S5000x1_S5000x1_0_0
abbrev r7_blk : Rect S5000x64 := Rect.unit (s := S5000x64) ![0, 0] S5000x64.size inb_S5000x64_S5000x64_0_0

/-! ## What the body leaves in the output window's buffer -/

/-- The message block from the five input blocks `x0 … x4` (score, features, edge weight, maximum, sum): the one store
    of the body, whose value is the body's arithmetic on the whole input blocks. -/
def out7_5 (x0 : Vec F S5000x1 .f32) (x1 : Vec F S5000x64 .f32) (x2 : Vec F S5000x1 .f32) (x3 : Vec F S1x1 .f32) (x4 : Vec F S1x1 .f32) :
    Vec F S5000x64 .f32 :=
  View.canon [⟨r7_blk, k7_pay1 (View.ld x3 r7_cell) (View.ld x4 r7_cell) (View.ld x0 r7_col) (View.ld x2 r7_col) (View.ld x1 r7_blk)⟩]

/-- The one store is the whole buffer, so every index of the buffer lies in it. -/
theorem cover7_5 (p0 : Vec F S5000x64 .f32) (y : S5000x64.Idx) :
    ∃ pc ∈ ([⟨r7_blk, p0⟩] : List (View.Piece (Elt F) S5000x64 .f32)), y ∈ pc.1.set :=
  View.cover_of_tiled [⟨r7_blk, p0⟩] S5000x64.size (by rfl) y

/-! ## The body's triple -/

set_option maxHeartbeats 1000000 in
/-- The body on six whole buffers, the inputs' holding `x0 … x4` and the output's anything, ends with the inputs' as they
    were and the output's at `out7_5 x0 … x4`. -/
theorem sound_kernel7 (c : Dev nD) (E : Set ℕ) (i : grid7.Coords)
    (arg0 : Memref sig .tc .vmem S5000x1 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x1 .f32) (harg3 : arg3.IsWhole)
    (arg4 : Memref sig .tc .vmem S1x1 .f32) (harg4 : arg4.IsWhole) (arg5 : Memref sig .tc .vmem S5000x64 .f32) (harg5 : arg5.IsWhole)
    (x0 : Vec F S5000x1 .f32) (x1 : Vec F S5000x64 .f32) (x2 : Vec F S5000x1 .f32) (x3 : Vec F S1x1 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out7_5 x0 x1 x2 x3 x4)) -∗ K ⟨⟩))
      ⊢ wp frame (wpE (defs₀ (F := F)) Variants.none c none) E (cc7__message_kernel i arg0 harg0 arg1 harg1 arg2 harg2 arg3 harg3 arg4 harg4 arg5 harg5) K := by
  simp only [cc7__message_kernel_eq_skeleton]; unfold cc7__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The proof data -/

/-- The proof data of the region on core `c`: the arrays are `V`'s; after the body at point `t` every input's buffer holds
    its block of point `t` and the output's holds `out7_5` of those blocks; nothing is owed, the shares are whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation at a generic point -/

/-- What the body is entered with at point `t`: the invariant, the core's debts, and each window's current buffer. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- What it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, the triple applies, the rest passes through. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.R8.lean ====
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8 (the finalize call): the body's triple and the proof data, at any float family

The call has six windows over 20 points: the projected block (window 0), the aggregated block (window 1) and the
residual block (window 2) move with the point; the scale row (window 3) and the shift row (window 4) are single rows
that stay; the result block (window 5) is written whole at every point. Everything is stated at a parameter `V`,
the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Window 0 is an input, copied in at every point: whatever proof data has `V`'s array and a body that leaves the
    block alone finds the block of point `t` in the current buffer at point `t`. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Window 1, likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Window 2, likewise. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Window 3 is one row whose block index never moves: it is copied in at the first point only, and at a later point
    the buffer still holds what the previous point left, which is the same block. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Window 4, likewise. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's rectangles: each access is a whole buffer -/

abbrev r8_row : Rect S1x64 := Rect.unit (s := S1x64) ![0, 0] S1x64.size inb_S1x64_S1x64_0_0
abbrev r8_blk : Rect S5000x64 := Rect.unit (s := S5000x64) ![0, 0] S5000x64.size inb_S5000x64_S5000x64_0_0

/-! ## What the body leaves in the output window's buffer -/

/-- The result block from the five input blocks `x0 … x4` (projected, aggregated, residual, scale row, shift row): the one
    store of the body, whose value is the body's arithmetic on the whole input blocks. -/
def out8_5 (x0 : Vec F S5000x64 .f32) (x1 : Vec F S5000x64 .f32) (x2 : Vec F S5000x64 .f32) (x3 : Vec F S1x64 .f32) (x4 : Vec F S1x64 .f32) :
    Vec F S5000x64 .f32 :=
  View.canon [⟨r8_blk, k8_pay1 (View.ld x0 r8_blk) (View.ld x1 r8_blk) (View.ld x3 r8_row) (View.ld x4 r8_row) (View.ld x2 r8_blk)⟩]

/-- The one store is the whole buffer, so every index of the buffer lies in it. -/
theorem cover8_5 (p0 : Vec F S5000x64 .f32) (y : S5000x64.Idx) :
    ∃ pc ∈ ([⟨r8_blk, p0⟩] : List (View.Piece (Elt F) S5000x64 .f32)), y ∈ pc.1.set :=
  View.cover_of_tiled [⟨r8_blk, p0⟩] S5000x64.size (by rfl) y

/-! ## The body's triple -/

set_option maxHeartbeats 1000000 in
/-- The body on six whole buffers, the inputs' holding `x0 … x4` and the output's anything, ends with the inputs' as they
    were and the output's at `out8_5 x0 … x4`. -/
theorem sound_kernel8 (c : Dev nD) (E : Set ℕ) (i : grid8.Coords)
    (arg0 : Memref sig .tc .vmem S5000x64 .f32) (harg0 : arg0.IsWhole) (arg1 : Memref sig .tc .vmem S5000x64 .f32) (harg1 : arg1.IsWhole)
    (arg2 : Memref sig .tc .vmem S5000x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (x3 : Vec F S1x64 .f32) (x4 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out8_5 x0 x1 x2 x3 x4)) -∗ K ⟨⟩))
      ⊢ wp frame (wpE (defs₀ (F := F)) Variants.none c none) E (cc8__finalize_kernel i arg0 harg0 arg1 harg1 arg2 harg2 arg3 harg3 arg4 harg4 arg5 harg5) K := by
  simp only [cc8__finalize_kernel_eq_skeleton]; unfold cc8__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data -/

/-- The proof data of the region on core `c`: the arrays are `V`'s; after the body at point `t` every input's buffer holds
    its block of point `t` and the output's holds `out8_5` of those blocks; nothing is owed, the shares are whole. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation at a generic point -/

/-- What the body is entered with at point `t`: the invariant, the core's debts, and each window's current buffer. -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- What it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, the triple applies, the rest passes through. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.K.R9.lean ====
/- The dense call cc9__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The rows window's staging buffer holds the rows block of the point at every point (it is fetched at each),
    for any proof data whose array is V's and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The weight window is resident: fetched at the first point only, its block index never moves, so its staging
    buffer holds the (one) weight block at every point. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The bias window is resident too. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each staging buffer whole -/

abbrev r9_0 : Rect S5000x64 := Rect.unit (s := S5000x64) ![0, 0] S5000x64.size inb_S5000x64_S5000x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S5000x64 := Rect.unit (s := S5000x64) ![0, 0] S5000x64.size inb_S5000x64_S5000x64_0_0

/-! ## What the body leaves in the output window's buffer -/

/-- Window 3's staging buffer after the body, from the input windows' blocks: its one store, the payload of the
    three loaded blocks, over the whole buffer. -/
def out9_3 (x0 : Vec F S5000x64 .f32) (x1 : Vec F S64x64 .f32) (x2 : Vec F S1x64 .f32) : Vec F S5000x64 .f32 :=
  View.canon [⟨r9_3, k9_pay1 (View.ld x0 r9_0) (View.ld x1 r9_1) (View.ld x2 r9_2)⟩]

/-- The one store is the whole buffer, so it covers it. -/
theorem cover9_3 (p0 : Vec F S5000x64 .f32) (y : S5000x64.Idx) :
    ∃ pc ∈ ([⟨r9_3, p0⟩] : List (View.Piece (Elt F) S5000x64 .f32)), y ∈ pc.1.set :=
  View.cover_of_tiled [⟨r9_3, p0⟩] S5000x64.size (by rfl) y

/-! ## The body's triple -/

set_option maxHeartbeats 1000000 in
/-- The kernel body on whole staging memrefs, the inputs' at read contents and the output's at anything, runs to the
    continuation holding the inputs' as they were and the output's at out9_3 of the inputs'. -/
theorem sound_kernel9 (c : Dev nD) (E : Set ℕ) (i : grid9.Coords)
    (arg0 : Memref sig .tc .vmem S5000x64 .f32) (harg0 : arg0.IsWhole) (arg1 : Memref sig .tc .vmem S64x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out9_3 x0 x1 x2)) -∗ K ⟨⟩))
      ⊢ wp frame (wpE (defs₀ (F := F)) Variants.none c none) E (cc9__dense_kernel i arg0 harg0 arg1 harg1 arg2 harg2 arg3 harg3) K := by
  simp only [cc9__dense_kernel_eq_skeleton]; unfold cc9__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of the region's pipeline on core c: the arrays as the region finds them (V); after the body at
    point t each input's buffer at its block and the output's at out9_3 of the input blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so sound_kernel9 applies; the invariant and the
    core's owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10Kit.lean ====
/- The attention-score call cc10__attn_score_kernel of @main (per block of 5000 edges: the leaky-relu score of the
   two gathered feature blocks against a resident weight and bias, a running maximum and a running sum of
   exponentials carried in two one-word scratch buffers across the 250 points, copied out at the last point), at a
   parameter V: the TensorCore's buffer contents when the region is entered. This module holds what the three
   control cases share: each window's block at a point, the input windows' staging contents, the two branch
   conditions in closed form over the grid, where the two last-point outputs are idle, and the region invariant
   opened at the two scratch buffers. Generic in the float family. -/
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The first feature window's staging buffer holds the point's block at every point (it is fetched at each), for any proof data whose array is V's and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The second feature window's staging buffer holds the point's block at every point (it is fetched at each), for any proof data whose array is V's and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The weight window is resident: fetched at the first point only, its block index never moves, so its staging buffer holds the one weight block at every point, for any proof data whose array is V's and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- The bias window is resident: fetched at the first point only, its staging buffer holds the one bias word at every point, for any proof data whose array is V's and whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## The body's two branch conditions, in closed form over the grid -/

/-- The condition of the reset branch, from the grid coordinate. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val = 0 :=
  (by decide +kernel : ∀ t : Fin grid10.N, cond10_0 (grid10.coords t) ↔ t.val = 0)

/-- The condition of the copy-out branch, from the grid coordinate. -/
abbrev cond10_1 (i : grid10.Coords) : Prop := k10_cond2 i = 1#1
/-- It holds at the last point only. -/
theorem hcond10_1 : ∀ t : Fin cfg10.N, cond10_1 (grid10.coords t) ↔ t.val = 249 :=
  (by decide +kernel : ∀ t : Fin grid10.N, cond10_1 (grid10.coords t) ↔ t.val = 249)

/-! ## Where the windows are idle -/

theorem liveAt10_0 : ∀ t : Fin cfg10.N, cfg10.idle 0 (grid10.coords t) = false := fun _ => rfl
theorem liveAt10_1 : ∀ t : Fin cfg10.N, cfg10.idle 1 (grid10.coords t) = false := fun _ => rfl
theorem liveAt10_2 : ∀ t : Fin cfg10.N, cfg10.idle 2 (grid10.coords t) = false := fun _ => rfl
theorem liveAt10_3 : ∀ t : Fin cfg10.N, cfg10.idle 3 (grid10.coords t) = false := fun _ => rfl
theorem liveAt10_4 : ∀ t : Fin cfg10.N, cfg10.idle 4 (grid10.coords t) = false := fun _ => rfl
/-- Away from the last point the maximum's output window is idle and not written back. -/
theorem idleAt10_5 : ∀ t : Fin cfg10.N, ¬cond10_1 (grid10.coords t) → cfg10.idle 5 (grid10.coords t) = true := by decide +kernel
theorem noFlush10_5 : ∀ t : Fin cfg10.N, ¬cond10_1 (grid10.coords t) → (cfg10.win 5).flush t = false := by decide +kernel
theorem liveAt10_5 : ∀ t : Fin cfg10.N, cond10_1 (grid10.coords t) → cfg10.idle 5 (grid10.coords t) = false := by decide +kernel
/-- Away from the last point the sum's output window is idle and not written back. -/
theorem idleAt10_6 : ∀ t : Fin cfg10.N, ¬cond10_1 (grid10.coords t) → cfg10.idle 6 (grid10.coords t) = true := by decide +kernel
theorem noFlush10_6 : ∀ t : Fin cfg10.N, ¬cond10_1 (grid10.coords t) → (cfg10.win 6).flush t = false := by decide +kernel
theorem liveAt10_6 : ∀ t : Fin cfg10.N, cond10_1 (grid10.coords t) → cfg10.idle 6 (grid10.coords t) = false := by decide +kernel

/-! ## The staging and scratch memrefs -/

/-- One staging buffer of each output window, through which its contents are stated (the choice does not matter). -/
abbrev VO10_4 : View sig .tc .vmem S5000x1 .f32 := (Memref.whole cc10_stg4_0 : Memref sig .tc .vmem S5000x1 .f32).view
abbrev VO10_5 : View sig .tc .vmem S1x1 .f32 := (Memref.whole cc10_stg5_0 : Memref sig .tc .vmem S1x1 .f32).view
abbrev VO10_6 : View sig .tc .vmem S1x1 .f32 := (Memref.whole cc10_stg6_0 : Memref sig .tc .vmem S1x1 .f32).view
/-- Each window's current staging memref at point t, spelled as the pipeline passes it, and its wholeness. -/
abbrev ms10_0 (t : Fin cfg10.N) : Memref sig .tc .vmem S5000x64 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x1 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x1 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S5000x1 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S1x1 .f32 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S1x1 .f32 := win10_6.stage (cfg10.slots t 6)
abbrev hs10_6 (t : Fin cfg10.N) : (ms10_6 t).IsWhole := hstage10_6 ((cfg10.slots t 6).cast nbuf10_6)
/-- The two scratch operands: whole scoped buffers of the call's own, passed beside the windows; the running maximum
    and the running sum. -/
abbrev scM10_0 : Memref sig .tc .vmem S1x1 .f32 := Memref.whole cc10_scratch0
abbrev scM10_1 : Memref sig .tc .vmem S1x1 .f32 := Memref.whole cc10_scratch1
abbrev VS10_0 : View sig .tc .vmem S1x1 .f32 := scM10_0.view
abbrev VS10_1 : View sig .tc .vmem S1x1 .f32 := scM10_1.view

/-- Every other scoped buffer of the core, unopened. -/
abbrev rest10 (c : Dev nD) : sProp 𝕄 :=
  Pipeline.scopedRestBut (Ix := Unit) (Name := ℕ) (U := UR sig nD τ) (Lvl := ℕ) (Val := Elt F) spec10 c [cc10_scratch0, cc10_scratch1]

/-- The launch's invariant with the two scratch operands as memrefs owned at some contents, the other scoped
    buffers unopened: what the body obligation hands the run and takes back. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d)) ∗ rest10 c) ∗ (∃ r, prngReg c r)) := by
  unfold Pipeline.ΦA; rw [scopedRest10_split]; simp only [scM10_0, scM10_1, owns_whole]; try rfl

end Cert.Kernel.Hand

end
-- ==== Proof.K.R10RunA.lean ====
/- The attention-score call's whole body at the first point (the reset branch taken, the copy-out branch not): what
   its stores leave in the score window's staging buffer and in the two scratch buffers, as pieces the run finds,
   with the body's triple. -/
import proofs.«417395_j71579924955534_2_alg».proof.Proof.K.R10Kit

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: on whole memrefs, the inputs' at their contents, the score output's at anything, the two
    last-point outputs' at contents handed back untouched, the two scratch buffers at anything (the body resets
    them), the body runs to the continuation holding the inputs' as they were, the score buffer and the two scratch
    buffers with their pieces written. -/
noncomputable def kernelRun10_A (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc10__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc10__attn_score_kernel_eq_skeleton]; unfold cc10__attn_score_kernel_skel
    simp only [k10_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R10RunB.lean ====
/- The attention-score call's whole body at a middle point (neither branch taken): what its stores leave in the
   score window's staging buffer and in the two scratch buffers, as pieces the run finds, with the body's triple. -/
import proofs.«417395_j71579924955534_2_alg».proof.Proof.K.R10Kit

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: on whole memrefs, the inputs' at their contents, the score output's at anything, the two
    last-point outputs' at contents handed back untouched, the running maximum and sum at what the point before
    left, the body runs to the continuation holding the inputs' as they were, the score buffer and the two scratch
    buffers with their pieces written. -/
noncomputable def kernelRun10_B (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc10__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc10__attn_score_kernel_eq_skeleton]; unfold cc10__attn_score_kernel_skel
    simp only [k10_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R10RunC.lean ====
/- The attention-score call's whole body at the last point (the reset branch not taken, the copy-out branch taken):
   what its stores leave in the three output windows' staging buffers and in the two scratch buffers, as pieces the
   run finds, with the body's triple. -/
import proofs.«417395_j71579924955534_2_alg».proof.Proof.K.R10Kit

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point: on whole memrefs, the inputs' at their contents, the three outputs' at anything, the running
    maximum and sum at what the point before left, the body runs to the continuation holding the inputs' as they
    were, the three output buffers and the two scratch buffers with their pieces written. -/
noncomputable def kernelRun10_C (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc10__attn_score_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc10__attn_score_kernel_eq_skeleton]; unfold cc10__attn_score_kernel_skel
    simp only [k10_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R10.lean ====
/- The attention-score call cc10__attn_score_kernel of @main at a parameter V (the TensorCore's buffer contents when the
   region is entered): what each of the three control cases leaves in the outputs' staging buffers and in the two
   scratch buffers, the trajectory point by point (the running maximum and the running sum of exponentials carried in
   the scratch), the region invariant, the pipeline's proof data and its body obligation. Generic in the float family. -/
import proofs.«417395_j71579924955534_2_alg».proof.Proof.K.R10RunA
import proofs.«417395_j71579924955534_2_alg».proof.Proof.K.R10RunB
import proofs.«417395_j71579924955534_2_alg».proof.Proof.K.R10RunC

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-! ### At the first point -/

/-- The pieces the body leaves in the score window's staging buffer at the first point tile it, so they cover it. -/
theorem cover10_A_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) (y : S5000x1.Idx) :
    ∃ pc ∈ (kernelRun10_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3).1 S5000x1.size (by sl_kernel_rfl) y

/-- What the body leaves in the score window's staging buffer at the first point: its pieces read back. -/
def out10_A_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) : Vec F S5000x1 .f32 :=
  VO10_4.read (Elt F) (VO10_4.writes (Elt F) VO10_4.junk (kernelRun10_A c i arg1 harg1 arg2 harg2 arg3 harg3 arg4 harg4 arg5 harg5 arg6 harg6 arg7 harg7 arg8 harg8 arg9 harg9 hc0 hc1 x0 x1 x2 x3).1)

/-- The pieces the body leaves in the running maximum's scratch buffer at the first point tile it, so they cover it. -/
theorem scover10_A_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) (y : S1x1.Idx) :
    ∃ pc ∈ (kernelRun10_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3).2.1 S1x1.size (by sl_kernel_rfl) y

/-- What the body leaves in the running maximum's scratch buffer at the first point: its pieces read back. -/
def sout10_A_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) : Vec F S1x1 .f32 :=
  VS10_0.read (Elt F) (VS10_0.writes (Elt F) VS10_0.junk (kernelRun10_A c i arg1 harg1 arg2 harg2 arg3 harg3 arg4 harg4 arg5 harg5 arg6 harg6 arg7 harg7 arg8 harg8 arg9 harg9 hc0 hc1 x0 x1 x2 x3).2.1)

/-- The pieces the body leaves in the running sum's scratch buffer at the first point tile it, so they cover it. -/
theorem scover10_A_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) (y : S1x1.Idx) :
    ∃ pc ∈ (kernelRun10_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3).2.2.1 S1x1.size (by sl_kernel_rfl) y

/-- What the body leaves in the running sum's scratch buffer at the first point: its pieces read back. -/
def sout10_A_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) : Vec F S1x1 .f32 :=
  VS10_1.read (Elt F) (VS10_1.writes (Elt F) VS10_1.junk (kernelRun10_A c i arg1 harg1 arg2 harg2 arg3 harg3 arg4 harg4 arg5 harg5 arg6 harg6 arg7 harg7 arg8 harg8 arg9 harg9 hc0 hc1 x0 x1 x2 x3).2.2.1)

/-! ### At a middle point -/

/-- The pieces the body leaves in the score window's staging buffer at a middle point tile it, so they cover it. -/
theorem cover10_B_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun10_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at a middle point: its pieces read back. -/
def out10_B_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO10_4.read (Elt F) (VO10_4.writes (Elt F) VO10_4.junk (kernelRun10_B c i arg1 harg1 arg2 harg2 arg3 harg3 arg4 harg4 arg5 harg5 arg6 harg6 arg7 harg7 arg8 harg8 arg9 harg9 hc0 hc1 x0 x1 x2 x3 xs0 xs1).1)

/-- The pieces the body leaves in the running maximum's scratch buffer at a middle point tile it, so they cover it. -/
theorem scover10_B_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the running maximum's scratch buffer at a middle point: its pieces read back. -/
def sout10_B_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS10_0.read (Elt F) (VS10_0.writes (Elt F) VS10_0.junk (kernelRun10_B c i arg1 harg1 arg2 harg2 arg3 harg3 arg4 harg4 arg5 harg5 arg6 harg6 arg7 harg7 arg8 harg8 arg9 harg9 hc0 hc1 x0 x1 x2 x3 xs0 xs1).2.1)

/-- The pieces the body leaves in the running sum's scratch buffer at a middle point tile it, so they cover it. -/
theorem scover10_B_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the running sum's scratch buffer at a middle point: its pieces read back. -/
def sout10_B_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS10_1.read (Elt F) (VS10_1.writes (Elt F) VS10_1.junk (kernelRun10_B c i arg1 harg1 arg2 harg2 arg3 harg3 arg4 harg4 arg5 harg5 arg6 harg6 arg7 harg7 arg8 harg8 arg9 harg9 hc0 hc1 x0 x1 x2 x3 xs0 xs1).2.2.1)

/-! ### At the last point -/

/-- The pieces the body leaves in the score window's staging buffer at the last point tile it, so they cover it. -/
theorem cover10_C_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at the last point: its pieces read back. -/
def out10_C_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO10_4.read (Elt F) (VO10_4.writes (Elt F) VO10_4.junk (kernelRun10_C c i arg1 harg1 arg2 harg2 arg3 harg3 arg4 harg4 arg5 harg5 arg6 harg6 arg7 harg7 arg8 harg8 arg9 harg9 hc0 hc1 x0 x1 x2 x3 xs0 xs1).1)

/-- The pieces the body leaves in the maximum's output window's staging buffer at the last point tile it, so they cover it. -/
theorem cover10_C_5 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the maximum's output window's staging buffer at the last point: its pieces read back. -/
def out10_C_5 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO10_5.read (Elt F) (VO10_5.writes (Elt F) VO10_5.junk (kernelRun10_C c i arg1 harg1 arg2 harg2 arg3 harg3 arg4 harg4 arg5 harg5 arg6 harg6 arg7 harg7 arg8 harg8 arg9 harg9 hc0 hc1 x0 x1 x2 x3 xs0 xs1).2.1)

/-- The pieces the body leaves in the sum's output window's staging buffer at the last point tile it, so they cover it. -/
theorem cover10_C_6 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the sum's output window's staging buffer at the last point: its pieces read back. -/
def out10_C_6 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO10_6.read (Elt F) (VO10_6.writes (Elt F) VO10_6.junk (kernelRun10_C c i arg1 harg1 arg2 harg2 arg3 harg3 arg4 harg4 arg5 harg5 arg6 harg6 arg7 harg7 arg8 harg8 arg9 harg9 hc0 hc1 x0 x1 x2 x3 xs0 xs1).2.2.1)

/-- The pieces the body leaves in the running maximum's scratch buffer at the last point tile it, so they cover it. -/
theorem scover10_C_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).2.2.2.1 S1x1.size (by sl_kernel_rfl) y

/-- What the body leaves in the running maximum's scratch buffer at the last point: its pieces read back. -/
def sout10_C_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS10_0.read (Elt F) (VS10_0.writes (Elt F) VS10_0.junk (kernelRun10_C c i arg1 harg1 arg2 harg2 arg3 harg3 arg4 harg4 arg5 harg5 arg6 harg6 arg7 harg7 arg8 harg8 arg9 harg9 hc0 hc1 x0 x1 x2 x3 xs0 xs1).2.2.2.1)

/-- The pieces the body leaves in the running sum's scratch buffer at the last point tile it, so they cover it. -/
theorem scover10_C_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).2.2.2.2.1 S1x1.size (by sl_kernel_rfl) y

/-- What the body leaves in the running sum's scratch buffer at the last point: its pieces read back. -/
def sout10_C_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS10_1.read (Elt F) (VS10_1.writes (Elt F) VS10_1.junk (kernelRun10_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the scratch hold after each point -/

/-- What an output window idle at a point is stated to hold there: nothing consults it (the window is neither
    written back there nor read at the next point). -/
def idle10_5 : Vec F S1x1 .f32 := VO10_5.read (Elt F) VO10_5.junk
def idle10_6 : Vec F S1x1 .f32 := VO10_6.read (Elt F) VO10_6.junk

/-- THE ACCUMULATION. What the three outputs' staging buffers and the two scratch buffers hold after the body at
    position n (the score block, the maximum's output, the sum's output, the running maximum, the running sum): the
    first point's case at the point's blocks; afterwards the middle or last point's case at the point's blocks and at
    the running maximum and sum the point before left. -/
def outsAt10 (c : Dev nD) : (n : ℕ) → n < cfg10.N → Vec F S5000x1 .f32 × Vec F S1x1 .f32 × Vec F S1x1 .f32 × Vec F S1x1 .f32 × Vec F S1x1 .f32
  | 0, hn => (out10_A_4 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) scM10_0 (Memref.isWhole_whole _) scM10_1 (Memref.isWhole_whole _) ((hcond10_0 ⟨0, hn⟩).mpr rfl) (fun h => (fun h => by (try dsimp only at h); omega) ((hcond10_1 ⟨0, hn⟩).mp h)) (iblk10 V c 0 ⟨0, hn⟩) (iblk10 V c 1 ⟨0, hn⟩) (iblk10 V c 2 ⟨0, hn⟩) (iblk10 V c 3 ⟨0, hn⟩), idle10_5, idle10_6, sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) scM10_0 (Memref.isWhole_whole _) scM10_1 (Memref.isWhole_whole _) ((hcond10_0 ⟨0, hn⟩).mpr rfl) (fun h => (fun h => by (try dsimp only at h); omega) ((hcond10_1 ⟨0, hn⟩).mp h)) (iblk10 V c 0 ⟨0, hn⟩) (iblk10 V c 1 ⟨0, hn⟩) (iblk10 V c 2 ⟨0, hn⟩) (iblk10 V c 3 ⟨0, hn⟩), sout10_A_1 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) scM10_0 (Memref.isWhole_whole _) scM10_1 (Memref.isWhole_whole _) ((hcond10_0 ⟨0, hn⟩).mpr rfl) (fun h => (fun h => by (try dsimp only at h); omega) ((hcond10_1 ⟨0, hn⟩).mp h)) (iblk10 V c 0 ⟨0, hn⟩) (iblk10 V c 1 ⟨0, hn⟩) (iblk10 V c 2 ⟨0, hn⟩) (iblk10 V c 3 ⟨0, hn⟩))
  | n + 1, hn =>
    if h1 : n + 1 = 249 then
      (out10_C_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, out10_C_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, out10_C_6 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, sout10_C_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2)
    else
      (out10_B_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, idle10_5, idle10_6, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, sout10_B_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2)

/-- The trajectory at the first point. -/
theorem outsAt10_A (c : Dev nD) (t : Fin cfg10.N) (h0 : t.val = 0) (h1 : ¬t.val = 249) :
    outsAt10 V c t.val t.isLt = (out10_A_4 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) ((hcond10_0 t).mpr h0) (fun h => h1 ((hcond10_1 t).mp h)) (iblk10 V c 0 t) (iblk10 V c 1 t) (iblk10 V c 2 t) (iblk10 V c 3 t), idle10_5, idle10_6, sout10_A_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) ((hcond10_0 t).mpr h0) (fun h => h1 ((hcond10_1 t).mp h)) (iblk10 V c 0 t) (iblk10 V c 1 t) (iblk10 V c 2 t) (iblk10 V c 3 t), sout10_A_1 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) ((hcond10_0 t).mpr h0) (fun h => h1 ((hcond10_1 t).mp h)) (iblk10 V c 0 t) (iblk10 V c 1 t) (iblk10 V c 2 t) (iblk10 V c 3 t)) := by
  obtain ⟨n, hn⟩ := t
  cases n with
  | zero => exact rfl
  | succ n => exact absurd h0 (Nat.succ_ne_zero n)

/-- The trajectory at a middle point: that case over what the point before left in the scratch. -/
theorem outsAt10_B (c : Dev nD) (t : Fin cfg10.N) (h0 : ¬t.val = 0) (h1 : ¬t.val = 249) :
    outsAt10 V c t.val t.isLt = (out10_B_4 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) (fun h => h1 ((hcond10_1 t).mp h)) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, idle10_5, idle10_6, sout10_B_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) (fun h => h1 ((hcond10_1 t).mp h)) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_B_1 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) (fun h => h1 ((hcond10_1 t).mp h)) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- The trajectory at the last point: that case over what the point before left in the scratch. -/
theorem outsAt10_C (c : Dev nD) (t : Fin cfg10.N) (h0 : ¬t.val = 0) (h1 : t.val = 249) :
    outsAt10 V c t.val t.isLt = (out10_C_4 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, out10_C_5 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, out10_C_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_C_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_C_1 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The region invariant before position n: before the first point the launch's (every scoped buffer at anything,
    the generator register at some state); afterwards the two scratch buffers at the running maximum and sum the
    point before left, every other scoped buffer unopened, and the generator register. -/
def PhiS10 (c : Dev nD) : (n : ℕ) → n ≤ cfg10.N → sProp 𝕄
  | 0, _ => Pipeline.ΦA spec10 c
  | n + 1, hn => iprop(iprop(iprop(owns (c : Thread nD τ) scM10_0 fullShare (outsAt10 V c n hn).2.2.2.1 ∗ owns (c : Thread nD τ) scM10_1 fullShare (outsAt10 V c n hn).2.2.2.2) ∗ rest10 (F := F) c) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(iprop(owns (c : Thread nD τ) scM10_0 fullShare (outsAt10 V c n hn).2.2.2.1 ∗ owns (c : Thread nD τ) scM10_1 fullShare (outsAt10 V c n hn).2.2.2.2) ∗ rest10 (F := F) c) ∗ (∃ r, prngReg c r)) := rfl

theorem PhiS10_pos (c : Dev nD) (n : ℕ) (h : n ≤ cfg10.N) (hz : n ≠ 0) :
    PhiS10 V c n h = iprop(iprop(iprop(owns (c : Thread nD τ) scM10_0 fullShare (outsAt10 V c (n - 1) (by omega)).2.2.2.1 ∗ owns (c : Thread nD τ) scM10_1 fullShare (outsAt10 V c (n - 1) (by omega)).2.2.2.2) ∗ rest10 (F := F) c) ∗ (∃ r, prngReg c r)) := by
  cases n with
  | zero => exact absurd rfl hz
  | succ n => rfl

/-! ## The pipeline's proof data -/

/-- The proof data of the call's pipeline on core c: the arrays as the region finds them (V); after the body at point
    t each input's buffer at its block and the outputs' at the trajectory's components; the invariant PhiS10; nothing
    owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => (outsAt10 V c t.val t.isLt).1
    | ⟨5, _⟩ => (outsAt10 V c t.val t.isLt).2.1
    | ⟨6, _⟩ => (outsAt10 V c t.val t.isLt).2.2.1
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at the point's position. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = (outsAt10 V c t.val t.isLt).1 := by dsimp only [dat10]
theorem after10_5 (c : Dev nD) (t : Fin cfg10.N) : (dat10 V c).after 5 t = (outsAt10 V c t.val t.isLt).2.1 := by dsimp only [dat10]
theorem after10_6 (c : Dev nD) (t : Fin cfg10.N) : (dat10 V c).after 6 t = (outsAt10 V c t.val t.isLt).2.2.1 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-! ## The body obligation, at a generic point -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t)

set_option maxHeartbeats 4800000 in
/-- The body at any point: the inputs' memrefs hold their blocks; the closed forms say which case the point is in;
    the invariant hands the body the two scratch buffers at what the point before left (at anything at the first
    point) and takes them back at this point's contents; away from the last point the two last-point outputs are
    handed back as found; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl]
  rw [show (dat10 V c).Φ t.succ = PhiS10 V c (t.val + 1) t.isLt from rfl, PhiS10_succ]
  have hN : t.val < 250 := lt_of_lt_of_eq t.isLt (show cfg10.N = 250 from N_10)
  rw [show (dat10 V c).leavesExact 0 t = owns (c : Thread nD τ) (ms10_0 t) fullShare ((dat10 V c).after 0 t) from by
    unfold Dat.leavesExact; rw [liveAt10_0 t]]
  rw [show (dat10 V c).leavesExact 1 t = owns (c : Thread nD τ) (ms10_1 t) fullShare ((dat10 V c).after 1 t) from by
    unfold Dat.leavesExact; rw [liveAt10_1 t]]
  rw [show (dat10 V c).leavesExact 2 t = owns (c : Thread nD τ) (ms10_2 t) fullShare ((dat10 V c).after 2 t) from by
    unfold Dat.leavesExact; rw [liveAt10_2 t]]
  rw [show (dat10 V c).leavesExact 3 t = owns (c : Thread nD τ) (ms10_3 t) fullShare ((dat10 V c).after 3 t) from by
    unfold Dat.leavesExact; rw [liveAt10_3 t]]
  rw [show (dat10 V c).leavesExact 4 t = owns (c : Thread nD τ) (ms10_4 t) fullShare ((dat10 V c).after 4 t) from by
    unfold Dat.leavesExact; rw [liveAt10_4 t]]
  rw [after10_0, after10_1, after10_2, after10_3, after10_4]
  by_cases h0 : t.val = 0
  · have h1 : ¬t.val = 249 := by omega
    have hc0 : cond10_0 (grid10.coords t) := (hcond10_0 t).mpr h0
    have hc1 : ¬cond10_1 (grid10.coords t) := fun h => h1 ((hcond10_1 t).mp h)
    rw [Dat.leavesExact_idle (dat10 V c) 5 t (idleAt10_5 t hc1) (noFlush10_5 t hc1), Dat.leavesExact_idle (dat10 V c) 6 t (idleAt10_6 t hc1) (noFlush10_6 t hc1)]
    rw [outsAt10_A V c t h0 h1]
    unfold out10_A_4 sout10_A_0 sout10_A_1; (try dsimp only)
    rw [PhiS10_castSucc V c t, PhiS10_zero V c _ _ h0, PhiA10_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun10_A c (grid10.coords t) _ _ _ _ _ _ _ _ _ _ _ _ _ _ _ _ _ _ hc0 hc1 (iblk10 V c 0 t) (iblk10 V c 1 t) (iblk10 V c 2 t) (iblk10 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover10_A_0 c _ _ _ _ _ _ _ _ _ _ _ _ _ _ _ _ _ _ _ _ _ _ _ _ _)
          · unfold owns; iexists _; isplitr
            swap; · iexact HS1
            ipureintro; exact View.read_writes_of_cover _ _ _ _ _ (scover10_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover10_A_4 c _ _ _ _ _ _ _ _ _ _ _ _ _ _ _ _ _ _ _ _ _ _ _ _ _)
    isplitl [H5]; · iexists _; iexact H5
    iexists _; iexact H6
  · have hz : t.val ≠ 0 := h0
    have hc0 : ¬cond10_0 (grid10.coords t) := fun h => h0 ((hcond10_0 t).mp h)
    by_cases h1 : t.val = 249
    · have hc1 : cond10_1 (grid10.coords t) := (hcond10_1 t).mpr h1
      rw [show (dat10 V c).leavesExact 5 t = owns (c : Thread nD τ) (ms10_5 t) fullShare ((dat10 V c).after 5 t) from by
        unfold Dat.leavesExact; rw [liveAt10_5 t hc1], after10_5]
      rw [show (dat10 V c).leavesExact 6 t = owns (c : Thread nD τ) (ms10_6 t) fullShare ((dat10 V c).after 6 t) from by
        unfold Dat.leavesExact; rw [liveAt10_6 t hc1], after10_6]
      rw [outsAt10_C V c t h0 h1]
      unfold out10_C_4 out10_C_5 out10_C_6 sout10_C_0 sout10_C_1; (try dsimp only)
      rw [PhiS10_castSucc V c t, PhiS10_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun10_C c (grid10.coords t) _ _ _ _ _ _ _ _ _ _ _ _ _ _ _ _ _ _ hc0 hc1 (iblk10 V c 0 t) (iblk10 V c 1 t) (iblk10 V c 2 t) (iblk10 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover10_C_0 c _ _ _ _ _ _ _ _ _ _ _ _ _ _ _ _ _ _ _ _ _ _ _ _ _ _ _)
            · unfold owns; iexists _; isplitr
              swap; · iexact HS1
              ipureintro; exact View.read_writes_of_cover _ _ _ _ _ (scover10_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover10_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover10_C_5 c _ _ _ _ _ _ _ _ _ _ _ _ _ _ _ _ _ _ _ _ _ _ _ _ _ _ _)
      unfold owns; iexists _; isplitr
      swap; · iexact H6
      ipureintro; exact View.read_writes_of_cover _ _ _ _ _ (cover10_C_6 c _ _ _ _ _ _ _ _ _ _ _ _ _ _ _ _ _ _ _ _ _ _ _ _ _ _ _)
    · have hc1 : ¬cond10_1 (grid10.coords t) := fun h => h1 ((hcond10_1 t).mp h)
      rw [Dat.leavesExact_idle (dat10 V c) 5 t (idleAt10_5 t hc1) (noFlush10_5 t hc1), Dat.leavesExact_idle (dat10 V c) 6 t (idleAt10_6 t hc1) (noFlush10_6 t hc1)]
      rw [outsAt10_B V c t h0 h1]
      unfold out10_B_4 sout10_B_0 sout10_B_1; (try dsimp only)
      rw [PhiS10_castSucc V c t, PhiS10_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun10_B c (grid10.coords t) _ _ _ _ _ _ _ _ _ _ _ _ _ _ _ _ _ _ hc0 hc1 (iblk10 V c 0 t) (iblk10 V c 1 t) (iblk10 V c 2 t) (iblk10 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover10_B_0 c _ _ _ _ _ _ _ _ _ _ _ _ _ _ _ _ _ _ _ _ _ _ _ _ _ _ _)
            · unfold owns; iexists _; isplitr
              swap; · iexact HS1
              ipureintro; exact View.read_writes_of_cover _ _ _ _ _ (scover10_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover10_B_4 c _ _ _ _ _ _ _ _ _ _ _ _ _ _ _ _ _ _ _ _ _ _ _ _ _ _ _)
      isplitl [H5]; · iexists _; iexact H5
      iexists _; iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives the launch's back: the scratch buffers' named contents are
    forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout10 (c : Dev nD) : (dat10 V c).Φ (Fin.last cfg10.N) ⊢ Pipeline.ΦA spec10 c :=
  Phi_out10 V c _ (by rw [Fin.val_last]; have : cfg10.N = 250 := N_10; omega)

end Cert.Kernel.Hand

end
-- ==== Proof.K.R11.lean ====
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 11 (the message call): the body's triple and the proof data, at any float family

The call has six windows over 250 points: the score block (window 0), the gathered feature block (window 1) and the
edge-weight block (window 2) move with the point; the global maximum (window 3) and the global sum (window 4) are single
cells that stay; the message block (window 5) is written whole at every point. Everything is stated at a parameter `V`,
the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Window 0 is an input, copied in at every point: whatever proof data has `V`'s array and a body that leaves the
    block alone finds the block of point `t` in the current buffer at point `t`. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Window 1, likewise. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Window 2, likewise. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Window 3 is one cell whose block index never moves: it is copied in at the first point only, and at a later point
    the buffer still holds what the previous point left, which is the same block. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Window 4, likewise. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's rectangles: each access is a whole buffer -/

abbrev r11_cell : Rect S1x1 := Rect.unit (s := S1x1) ![0, 0] S1x1.size inb_S1x1_S1x1_0_0
abbrev r11_col : Rect S5000x1 := Rect.unit (s := S5000x1) ![0, 0] S5000x1.size inb_S5000x1_S5000x1_0_0
abbrev r11_blk : Rect S5000x64 := Rect.unit (s := S5000x64) ![0, 0] S5000x64.size inb_S5000x64_S5000x64_0_0

/-! ## What the body leaves in the output window's buffer -/

/-- The message block from the five input blocks `x0 … x4` (score, features, edge weight, maximum, sum): the one store
    of the body, whose value is the body's arithmetic on the whole input blocks. -/
def out11_5 (x0 : Vec F S5000x1 .f32) (x1 : Vec F S5000x64 .f32) (x2 : Vec F S5000x1 .f32) (x3 : Vec F S1x1 .f32) (x4 : Vec F S1x1 .f32) :
    Vec F S5000x64 .f32 :=
  View.canon [⟨r11_blk, k11_pay1 (View.ld x3 r11_cell) (View.ld x4 r11_cell) (View.ld x0 r11_col) (View.ld x2 r11_col) (View.ld x1 r11_blk)⟩]

/-- The one store is the whole buffer, so every index of the buffer lies in it. -/
theorem cover11_5 (p0 : Vec F S5000x64 .f32) (y : S5000x64.Idx) :
    ∃ pc ∈ ([⟨r11_blk, p0⟩] : List (View.Piece (Elt F) S5000x64 .f32)), y ∈ pc.1.set :=
  View.cover_of_tiled [⟨r11_blk, p0⟩] S5000x64.size (by rfl) y

/-! ## The body's triple -/

set_option maxHeartbeats 1000000 in
/-- The body on six whole buffers, the inputs' holding `x0 … x4` and the output's anything, ends with the inputs' as they
    were and the output's at `out11_5 x0 … x4`. -/
theorem sound_kernel11 (c : Dev nD) (E : Set ℕ) (i : grid11.Coords)
    (arg0 : Memref sig .tc .vmem S5000x1 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x1 .f32) (harg3 : arg3.IsWhole)
    (arg4 : Memref sig .tc .vmem S1x1 .f32) (harg4 : arg4.IsWhole) (arg5 : Memref sig .tc .vmem S5000x64 .f32) (harg5 : arg5.IsWhole)
    (x0 : Vec F S5000x1 .f32) (x1 : Vec F S5000x64 .f32) (x2 : Vec F S5000x1 .f32) (x3 : Vec F S1x1 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out11_5 x0 x1 x2 x3 x4)) -∗ K ⟨⟩))
      ⊢ wp frame (wpE (defs₀ (F := F)) Variants.none c none) E (cc11__message_kernel i arg0 harg0 arg1 harg1 arg2 harg2 arg3 harg3 arg4 harg4 arg5 harg5) K := by
  simp only [cc11__message_kernel_eq_skeleton]; unfold cc11__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The proof data -/

/-- The proof data of the region on core `c`: the arrays are `V`'s; after the body at point `t` every input's buffer holds
    its block of point `t` and the output's holds `out11_5` of those blocks; nothing is owed, the shares are whole. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation at a generic point -/

/-- What the body is entered with at point `t`: the invariant, the core's debts, and each window's current buffer. -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- What it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, the triple applies, the rest passes through. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation11 (c : Dev nD) : BodyObligation (dat11 (F := F) V c) (defs₀ (F := F)) Variants.none () Set.univ := fun t => by
  rw [bigSep_W11, bigSep_W11]
  exact sound_body11 V c t

end Cert.Kernel.Hand
-- ==== Proof.K.R12.lean ====
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 12 (the finalize call): the body's triple and the proof data, at any float family

The call has six windows over 20 points: the projected block (window 0), the aggregated block (window 1) and the
residual block (window 2) move with the point; the scale row (window 3) and the shift row (window 4) are single rows
that stay; the result block (window 5) is written whole at every point. Everything is stated at a parameter `V`,
the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Window 0 is an input, copied in at every point: whatever proof data has `V`'s array and a body that leaves the
    block alone finds the block of point `t` in the current buffer at point `t`. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Window 1, likewise. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Window 2, likewise. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Window 3 is one row whose block index never moves: it is copied in at the first point only, and at a later point
    the buffer still holds what the previous point left, which is the same block. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Window 4, likewise. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's rectangles: each access is a whole buffer -/

abbrev r12_row : Rect S1x64 := Rect.unit (s := S1x64) ![0, 0] S1x64.size inb_S1x64_S1x64_0_0
abbrev r12_blk : Rect S5000x64 := Rect.unit (s := S5000x64) ![0, 0] S5000x64.size inb_S5000x64_S5000x64_0_0

/-! ## What the body leaves in the output window's buffer -/

/-- The result block from the five input blocks `x0 … x4` (projected, aggregated, residual, scale row, shift row): the one
    store of the body, whose value is the body's arithmetic on the whole input blocks. -/
def out12_5 (x0 : Vec F S5000x64 .f32) (x1 : Vec F S5000x64 .f32) (x2 : Vec F S5000x64 .f32) (x3 : Vec F S1x64 .f32) (x4 : Vec F S1x64 .f32) :
    Vec F S5000x64 .f32 :=
  View.canon [⟨r12_blk, k12_pay1 (View.ld x0 r12_blk) (View.ld x1 r12_blk) (View.ld x3 r12_row) (View.ld x4 r12_row) (View.ld x2 r12_blk)⟩]

/-- The one store is the whole buffer, so every index of the buffer lies in it. -/
theorem cover12_5 (p0 : Vec F S5000x64 .f32) (y : S5000x64.Idx) :
    ∃ pc ∈ ([⟨r12_blk, p0⟩] : List (View.Piece (Elt F) S5000x64 .f32)), y ∈ pc.1.set :=
  View.cover_of_tiled [⟨r12_blk, p0⟩] S5000x64.size (by rfl) y

/-! ## The body's triple -/

set_option maxHeartbeats 1000000 in
/-- The body on six whole buffers, the inputs' holding `x0 … x4` and the output's anything, ends with the inputs' as they
    were and the output's at `out12_5 x0 … x4`. -/
theorem sound_kernel12 (c : Dev nD) (E : Set ℕ) (i : grid12.Coords)
    (arg0 : Memref sig .tc .vmem S5000x64 .f32) (harg0 : arg0.IsWhole) (arg1 : Memref sig .tc .vmem S5000x64 .f32) (harg1 : arg1.IsWhole)
    (arg2 : Memref sig .tc .vmem S5000x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (x3 : Vec F S1x64 .f32) (x4 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out12_5 x0 x1 x2 x3 x4)) -∗ K ⟨⟩))
      ⊢ wp frame (wpE (defs₀ (F := F)) Variants.none c none) E (cc12__finalize_kernel i arg0 harg0 arg1 harg1 arg2 harg2 arg3 harg3 arg4 harg4 arg5 harg5) K := by
  simp only [cc12__finalize_kernel_eq_skeleton]; unfold cc12__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The proof data -/

/-- The proof data of the region on core `c`: the arrays are `V`'s; after the body at point `t` every input's buffer holds
    its block of point `t` and the output's holds `out12_5` of those blocks; nothing is owed, the shares are whole. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12_5 (iblk12 V c 0 t) (iblk12 V c 1 t) (iblk12 V c 2 t) (iblk12 V c 3 t) (iblk12 V c 4 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation at a generic point -/

/-- What the body is entered with at point `t`: the invariant, the core's debts, and each window's current buffer. -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- What it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' buffers hold their blocks, the triple applies, the rest passes through. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.K.R13.lean ====
/- The dense call cc13__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The rows window's staging buffer holds the rows block of the point at every point (it is fetched at each),
    for any proof data whose array is V's and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The weight window is resident: fetched at the first point only, its block index never moves, so its staging
    buffer holds the (one) weight block at every point. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The bias window is resident too. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each staging buffer whole -/

abbrev r13_0 : Rect S5000x64 := Rect.unit (s := S5000x64) ![0, 0] S5000x64.size inb_S5000x64_S5000x64_0_0
abbrev r13_1 : Rect S64x32 := Rect.unit (s := S64x32) ![0, 0] S64x32.size inb_S64x32_S64x32_0_0
abbrev r13_2 : Rect S1x32 := Rect.unit (s := S1x32) ![0, 0] S1x32.size inb_S1x32_S1x32_0_0
abbrev r13_3 : Rect S5000x32 := Rect.unit (s := S5000x32) ![0, 0] S5000x32.size inb_S5000x32_S5000x32_0_0

/-! ## What the body leaves in the output window's buffer -/

/-- Window 3's staging buffer after the body, from the input windows' blocks: its one store, the payload of the
    three loaded blocks, over the whole buffer. -/
def out13_3 (x0 : Vec F S5000x64 .f32) (x1 : Vec F S64x32 .f32) (x2 : Vec F S1x32 .f32) : Vec F S5000x32 .f32 :=
  View.canon [⟨r13_3, k13_pay1 (View.ld x0 r13_0) (View.ld x1 r13_1) (View.ld x2 r13_2)⟩]

/-- The one store is the whole buffer, so it covers it. -/
theorem cover13_3 (p0 : Vec F S5000x32 .f32) (y : S5000x32.Idx) :
    ∃ pc ∈ ([⟨r13_3, p0⟩] : List (View.Piece (Elt F) S5000x32 .f32)), y ∈ pc.1.set :=
  View.cover_of_tiled [⟨r13_3, p0⟩] S5000x32.size (by rfl) y

/-! ## The body's triple -/

set_option maxHeartbeats 1000000 in
/-- The kernel body on whole staging memrefs, the inputs' at read contents and the output's at anything, runs to the
    continuation holding the inputs' as they were and the output's at out13_3 of the inputs'. -/
theorem sound_kernel13 (c : Dev nD) (E : Set ℕ) (i : grid13.Coords)
    (arg0 : Memref sig .tc .vmem S5000x64 .f32) (harg0 : arg0.IsWhole) (arg1 : Memref sig .tc .vmem S64x32 .f32) (harg1 : arg1.IsWhole)
    (arg2 : Memref sig .tc .vmem S1x32 .f32) (harg2 : arg2.IsWhole) (arg3 : Memref sig .tc .vmem S5000x32 .f32) (harg3 : arg3.IsWhole)
    (x0 : Vec F S5000x64 .f32) (x1 : Vec F S64x32 .f32) (x2 : Vec F S1x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out13_3 x0 x1 x2)) -∗ K ⟨⟩))
      ⊢ wp frame (wpE (defs₀ (F := F)) Variants.none c none) E (cc13__dense_kernel i arg0 harg0 arg1 harg1 arg2 harg2 arg3 harg3) K := by
  simp only [cc13__dense_kernel_eq_skeleton]; unfold cc13__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-! ## The pipeline's proof data -/

/-- The proof data of the region's pipeline on core c: the arrays as the region finds them (V); after the body at
    point t each input's buffer at its block and the output's at out13_3 of the input blocks; the invariant the scoped
    rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point t, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks, so sound_kernel13 applies; the invariant and the
    core's owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.R14.lean ====
/- The dense call cc14__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.Kernel.Launch
import proofs.«417395_j71579924955534_2_alg».proof.Proof.Gen.Kernel.Skeleton
import proofs.«417395_j71579924955534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The rows window's staging buffer holds the rows block of the point at every point (it is fetched at each),
    for any proof data whose array is V's and whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The weight window is resident: fetched at the first point only, its block index never moves, so its staging
    buffer holds the (one) weight block at every point. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The bias window is resident too. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each staging buffer whole -/

abbrev r14_0 : Rect S5000x32 := Rect.unit (s := S5000x32) ![0, 0] S5000x32.size inb_S5000x32_S5000x32_0_0
abbrev r14_1 : Rect S32x1 := Rect.unit (s := S32x1) ![0, 0] S32x1.size inb_S32x1_S32x1_0_0
abbrev r14_2 : Rect S1x1 := Rect.unit (s := S1x1) ![0, 0] S1x1.size inb_S1x1_S1x1_0_0
abbrev r14_3 : Rect S5000x1 := Rect.unit (s := S5000x1) ![0, 0] S5000x1.size inb_S5000x1_S5000x1_0_0

/-! ## What the body leaves in the output window's buffer -/

/-- Window 3's staging buffer after the body, from the input windows' blocks: its one store, the payload of the
    three loaded blocks, over the whole buffer. -/
def out14_3 (x0 : Vec F S5000x32 .f32) (x1 : Vec F S32x1 .f32) (x2 : Vec F S1x1 .f32) : Vec F S5000x1 .f32 :=
  View.canon [⟨r14_3, k14_pay1 (View.ld x0 r14_0) (View.ld x1 r14_1) (View.ld x2 r14_2)⟩]

/-- The one store is the whole buffer, so it covers it. -/
theorem cover14_3 (p0 : Vec F S5000x1 .f32) (y : S5000x1.Idx) :
    ∃ pc ∈ ([⟨r14_3, p0⟩] : List (View.Piece (Elt F) S5000x1 .f32)), y ∈ pc.1.set :=
  View.cover_of_tiled [⟨r14_3, p0⟩] S5000x1.size (by rfl) y

/-! ## The body's triple -/

set_option maxHeartbeats 1000000 in
/-- The kernel body on whole staging memrefs, the inputs' at read contents and the output's at anything, runs to the
    continuation holding the inputs' as they were and the output's at out14_3 of the inputs'. -/
theorem sound_kernel14 (c : Dev nD) (E : Set ℕ) (i : grid14.Coords)
    (arg0 : Memref sig .tc .vmem S5000x32 .f32) (harg0 : arg0.IsWhole) (arg1 : Memref sig .tc .vmem S32x1 .f32) (harg1 : arg1.IsWhole)
    (arg2 : Memref sig .tc .vmem S1x1 .f32) (harg2 : arg2.IsWhole) (arg3 : Memref sig .tc .vmem S5000x1 .f32) (harg3 : arg3.IsWhole)
    (x0 : Vec F S5000x32 .f32) (x1 : Vec F S32x1 .f32) (x2 : Vec F S1x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out14_3 x0 x1 x2)) -∗ K ⟨⟩))
      ⊢ wp frame (wpE (defs₀ (F := F)) Variants.none c none) E (cc14__dense_kernel i arg0 harg0 arg1 harg1 arg2 harg2 arg3 harg3) K := by
  simp only [cc14__dense_kernel_eq_skeleton]; unfold cc14__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-! ## The pipeline's proof data -/

/-- The proof data of the region's pipeline on core c: the arrays as the region finds them (V); after the body at
    point t each input's buffer at its block and the output's at out14_3 of the input blocks; the invariant the scoped
    rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) :
    (dat14 V c).after 3 t = out14_3 (iblk14 V c 0 t) (iblk14 V c 1 t) (iblk14 V c 2 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point t, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so sound_kernel14 applies; the invariant and the
    core's owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.Chain.lean ====
/- The contents of every unscoped buffer between the items of @main, concretely: the launch memory, each host
   stretch folded over it, each kernel region's output arrays at what its pipeline's write-backs leave. Then the
   unknown contents of the conditional frame instantiated at these, the proof data of the fifteen pipelines each at
   its region's entry contents, and, per region, the two facts its exit needs: every windowed array holds what the
   pipeline leaves, every other buffer what it held at entry. Generic in the float family. -/
import proofs.«417395_j71579924955534_2_alg».proof.Proof.KernelRegions
import proofs.«417395_j71579924955534_2_alg».proof.Proof.K.R0
import proofs.«417395_j71579924955534_2_alg».proof.Proof.K.R1
import proofs.«417395_j71579924955534_2_alg».proof.Proof.K.R2
import proofs.«417395_j71579924955534_2_alg».proof.Proof.K.R3
import proofs.«417395_j71579924955534_2_alg».proof.Proof.K.R4
import proofs.«417395_j71579924955534_2_alg».proof.Proof.K.R5
import proofs.«417395_j71579924955534_2_alg».proof.Proof.K.R6
import proofs.«417395_j71579924955534_2_alg».proof.Proof.K.R7
import proofs.«417395_j71579924955534_2_alg».proof.Proof.K.R8
import proofs.«417395_j71579924955534_2_alg».proof.Proof.K.R9
import proofs.«417395_j71579924955534_2_alg».proof.Proof.K.R10
import proofs.«417395_j71579924955534_2_alg».proof.Proof.K.R11
import proofs.«417395_j71579924955534_2_alg».proof.Proof.K.R12
import proofs.«417395_j71579924955534_2_alg».proof.Proof.K.R13
import proofs.«417395_j71579924955534_2_alg».proof.Proof.K.R14
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core c's unscoped buffers at launch. -/
abbrev W0 (c : Dev nD) : Valuation τ sig (Elt F) := V0 m c
/-- The same contents read at the TensorCore's references. -/
abbrev Wr0 : (c : Dev nD) → (b : Ref sig .tc) → Buf (Elt F) ((c : Thread nD τ).loc b) := fun c b => W0 m c b
/-- After the host stretch hostOps0. -/
abbrev W1 (c : Dev nD) : Valuation τ sig (Elt F) := StableHlo.after hostOps0 (W0 m c)
/-- The same contents read at the TensorCore's references. -/
abbrev Wr1 : (c : Dev nD) → (b : Ref sig .tc) → Buf (Elt F) ((c : Thread nD τ).loc b) := fun c b => W1 m c b
/-- At region 0's exit: its output array at what the pipeline's write-backs leave, every other buffer as entered. -/
def W2 (c : Dev nD) : Valuation τ sig (Elt F) :=
  Function.update (W1 m c) main_v6 ((dat0 (Wr1 m) c).arrAt 3 cfg0.N)
/-- The same contents read at the TensorCore's references. -/
abbrev Wr2 : (c : Dev nD) → (b : Ref sig .tc) → Buf (Elt F) ((c : Thread nD τ).loc b) := fun c b => W2 m c b
/-- After the host stretch hostOps1. -/
abbrev W3 (c : Dev nD) : Valuation τ sig (Elt F) := StableHlo.after hostOps1 (W2 m c)
/-- The same contents read at the TensorCore's references. -/
abbrev Wr3 : (c : Dev nD) → (b : Ref sig .tc) → Buf (Elt F) ((c : Thread nD τ).loc b) := fun c b => W3 m c b
/-- At region 1's exit: its output array at what the pipeline's write-backs leave, every other buffer as entered. -/
def W4 (c : Dev nD) : Valuation τ sig (Elt F) :=
  Function.update (W3 m c) main_v12 ((dat1 (Wr3 m) c).arrAt 3 cfg1.N)
/-- The same contents read at the TensorCore's references. -/
abbrev Wr4 : (c : Dev nD) → (b : Ref sig .tc) → Buf (Elt F) ((c : Thread nD τ).loc b) := fun c b => W4 m c b
/-- After the host stretch hostOps2. -/
abbrev W5 (c : Dev nD) : Valuation τ sig (Elt F) := StableHlo.after hostOps2 (W4 m c)
/-- The same contents read at the TensorCore's references. -/
abbrev Wr5 : (c : Dev nD) → (b : Ref sig .tc) → Buf (Elt F) ((c : Thread nD τ).loc b) := fun c b => W5 m c b
/-- After the host stretch hostOps2_1. -/
abbrev W6 (c : Dev nD) : Valuation τ sig (Elt F) := StableHlo.after hostOps2_1 (W5 m c)
/-- The same contents read at the TensorCore's references. -/
abbrev Wr6 : (c : Dev nD) → (b : Ref sig .tc) → Buf (Elt F) ((c : Thread nD τ).loc b) := fun c b => W6 m c b
/-- After the host stretch hostOps2_2. -/
abbrev W7 (c : Dev nD) : Valuation τ sig (Elt F) := StableHlo.after hostOps2_2 (W6 m c)
/-- The same contents read at the TensorCore's references. -/
abbrev Wr7 : (c : Dev nD) → (b : Ref sig .tc) → Buf (Elt F) ((c : Thread nD τ).loc b) := fun c b => W7 m c b
/-- At region 2's exit: its output arrays at what the pipeline's write-backs leave, every other buffer as entered. -/
def W8 (c : Dev nD) : Valuation τ sig (Elt F) :=
  Function.update (Function.update (Function.update (W7 m c) main_v20_0 ((dat2 (Wr7 m) c).arrAt 4 cfg2.N)) main_v20_1 ((dat2 (Wr7 m) c).arrAt 5 cfg2.N)) main_v20_2 ((dat2 (Wr7 m) c).arrAt 6 cfg2.N)
/-- The same contents read at the TensorCore's references. -/
abbrev Wr8 : (c : Dev nD) → (b : Ref sig .tc) → Buf (Elt F) ((c : Thread nD τ).loc b) := fun c b => W8 m c b
/-- At region 3's exit: its output array at what the pipeline's write-backs leave, every other buffer as entered. -/
def W9 (c : Dev nD) : Valuation τ sig (Elt F) :=
  Function.update (W8 m c) main_v21 ((dat3 (Wr8 m) c).arrAt 5 cfg3.N)
/-- The same contents read at the TensorCore's references. -/
abbrev Wr9 : (c : Dev nD) → (b : Ref sig .tc) → Buf (Elt F) ((c : Thread nD τ).loc b) := fun c b => W9 m c b
/-- After the host stretch hostOps4. -/
abbrev W10 (c : Dev nD) : Valuation τ sig (Elt F) := StableHlo.after hostOps4 (W9 m c)
/-- The same contents read at the TensorCore's references. -/
abbrev Wr10 : (c : Dev nD) → (b : Ref sig .tc) → Buf (Elt F) ((c : Thread nD τ).loc b) := fun c b => W10 m c b
/-- At region 4's exit: its output array at what the pipeline's write-backs leave, every other buffer as entered. -/
def W11 (c : Dev nD) : Valuation τ sig (Elt F) :=
  Function.update (W10 m c) main_v31 ((dat4 (Wr10 m) c).arrAt 5 cfg4.N)
/-- The same contents read at the TensorCore's references. -/
abbrev Wr11 : (c : Dev nD) → (b : Ref sig .tc) → Buf (Elt F) ((c : Thread nD τ).loc b) := fun c b => W11 m c b
/-- After the host stretch hostOps5. -/
abbrev W12 (c : Dev nD) : Valuation τ sig (Elt F) := StableHlo.after hostOps5 (W11 m c)
/-- The same contents read at the TensorCore's references. -/
abbrev Wr12 : (c : Dev nD) → (b : Ref sig .tc) → Buf (Elt F) ((c : Thread nD τ).loc b) := fun c b => W12 m c b
/-- At region 5's exit: its output array at what the pipeline's write-backs leave, every other buffer as entered. -/
def W13 (c : Dev nD) : Valuation τ sig (Elt F) :=
  Function.update (W12 m c) main_v37 ((dat5 (Wr12 m) c).arrAt 3 cfg5.N)
/-- The same contents read at the TensorCore's references. -/
abbrev Wr13 : (c : Dev nD) → (b : Ref sig .tc) → Buf (Elt F) ((c : Thread nD τ).loc b) := fun c b => W13 m c b
/-- After the host stretch hostOps6. -/
abbrev W14 (c : Dev nD) : Valuation τ sig (Elt F) := StableHlo.after hostOps6 (W13 m c)
/-- The same contents read at the TensorCore's references. -/
abbrev Wr14 : (c : Dev nD) → (b : Ref sig .tc) → Buf (Elt F) ((c : Thread nD τ).loc b) := fun c b => W14 m c b
/-- After the host stretch hostOps6_1. -/
abbrev W15 (c : Dev nD) : Valuation τ sig (Elt F) := StableHlo.after hostOps6_1 (W14 m c)
/-- The same contents read at the TensorCore's references. -/
abbrev Wr15 : (c : Dev nD) → (b : Ref sig .tc) → Buf (Elt F) ((c : Thread nD τ).loc b) := fun c b => W15 m c b
/-- After the host stretch hostOps6_2. -/
abbrev W16 (c : Dev nD) : Valuation τ sig (Elt F) := StableHlo.after hostOps6_2 (W15 m c)
/-- The same contents read at the TensorCore's references. -/
abbrev Wr16 : (c : Dev nD) → (b : Ref sig .tc) → Buf (Elt F) ((c : Thread nD τ).loc b) := fun c b => W16 m c b
/-- At region 6's exit: its output arrays at what the pipeline's write-backs leave, every other buffer as entered. -/
def W17 (c : Dev nD) : Valuation τ sig (Elt F) :=
  Function.update (Function.update (Function.update (W16 m c) main_v45_0 ((dat6 (Wr16 m) c).arrAt 4 cfg6.N)) main_v45_1 ((dat6 (Wr16 m) c).arrAt 5 cfg6.N)) main_v45_2 ((dat6 (Wr16 m) c).arrAt 6 cfg6.N)
/-- The same contents read at the TensorCore's references. -/
abbrev Wr17 : (c : Dev nD) → (b : Ref sig .tc) → Buf (Elt F) ((c : Thread nD τ).loc b) := fun c b => W17 m c b
/-- At region 7's exit: its output array at what the pipeline's write-backs leave, every other buffer as entered. -/
def W18 (c : Dev nD) : Valuation τ sig (Elt F) :=
  Function.update (W17 m c) main_v46 ((dat7 (Wr17 m) c).arrAt 5 cfg7.N)
/-- The same contents read at the TensorCore's references. -/
abbrev Wr18 : (c : Dev nD) → (b : Ref sig .tc) → Buf (Elt F) ((c : Thread nD τ).loc b) := fun c b => W18 m c b
/-- After the host stretch hostOps8. -/
abbrev W19 (c : Dev nD) : Valuation τ sig (Elt F) := StableHlo.after hostOps8 (W18 m c)
/-- The same contents read at the TensorCore's references. -/
abbrev Wr19 : (c : Dev nD) → (b : Ref sig .tc) → Buf (Elt F) ((c : Thread nD τ).loc b) := fun c b => W19 m c b
/-- At region 8's exit: its output array at what the pipeline's write-backs leave, every other buffer as entered. -/
def W20 (c : Dev nD) : Valuation τ sig (Elt F) :=
  Function.update (W19 m c) main_v56 ((dat8 (Wr19 m) c).arrAt 5 cfg8.N)
/-- The same contents read at the TensorCore's references. -/
abbrev Wr20 : (c : Dev nD) → (b : Ref sig .tc) → Buf (Elt F) ((c : Thread nD τ).loc b) := fun c b => W20 m c b
/-- After the host stretch hostOps9. -/
abbrev W21 (c : Dev nD) : Valuation τ sig (Elt F) := StableHlo.after hostOps9 (W20 m c)
/-- The same contents read at the TensorCore's references. -/
abbrev Wr21 : (c : Dev nD) → (b : Ref sig .tc) → Buf (Elt F) ((c : Thread nD τ).loc b) := fun c b => W21 m c b
/-- At region 9's exit: its output array at what the pipeline's write-backs leave, every other buffer as entered. -/
def W22 (c : Dev nD) : Valuation τ sig (Elt F) :=
  Function.update (W21 m c) main_v62 ((dat9 (Wr21 m) c).arrAt 3 cfg9.N)
/-- The same contents read at the TensorCore's references. -/
abbrev Wr22 : (c : Dev nD) → (b : Ref sig .tc) → Buf (Elt F) ((c : Thread nD τ).loc b) := fun c b => W22 m c b
/-- After the host stretch hostOps10. -/
abbrev W23 (c : Dev nD) : Valuation τ sig (Elt F) := StableHlo.after hostOps10 (W22 m c)
/-- The same contents read at the TensorCore's references. -/
abbrev Wr23 : (c : Dev nD) → (b : Ref sig .tc) → Buf (Elt F) ((c : Thread nD τ).loc b) := fun c b => W23 m c b
/-- After the host stretch hostOps10_1. -/
abbrev W24 (c : Dev nD) : Valuation τ sig (Elt F) := StableHlo.after hostOps10_1 (W23 m c)
/-- The same contents read at the TensorCore's references. -/
abbrev Wr24 : (c : Dev nD) → (b : Ref sig .tc) → Buf (Elt F) ((c : Thread nD τ).loc b) := fun c b => W24 m c b
/-- After the host stretch hostOps10_2. -/
abbrev W25 (c : Dev nD) : Valuation τ sig (Elt F) := StableHlo.after hostOps10_2 (W24 m c)
/-- The same contents read at the TensorCore's references. -/
abbrev Wr25 : (c : Dev nD) → (b : Ref sig .tc) → Buf (Elt F) ((c : Thread nD τ).loc b) := fun c b => W25 m c b
/-- At region 10's exit: its output arrays at what the pipeline's write-backs leave, every other buffer as entered. -/
def W26 (c : Dev nD) : Valuation τ sig (Elt F) :=
  Function.update (Function.update (Function.update (W25 m c) main_v70_0 ((dat10 (Wr25 m) c).arrAt 4 cfg10.N)) main_v70_1 ((dat10 (Wr25 m) c).arrAt 5 cfg10.N)) main_v70_2 ((dat10 (Wr25 m) c).arrAt 6 cfg10.N)
/-- The same contents read at the TensorCore's references. -/
abbrev Wr26 : (c : Dev nD) → (b : Ref sig .tc) → Buf (Elt F) ((c : Thread nD τ).loc b) := fun c b => W26 m c b
/-- At region 11's exit: its output array at what the pipeline's write-backs leave, every other buffer as entered. -/
def W27 (c : Dev nD) : Valuation τ sig (Elt F) :=
  Function.update (W26 m c) main_v71 ((dat11 (Wr26 m) c).arrAt 5 cfg11.N)
/-- The same contents read at the TensorCore's references. -/
abbrev Wr27 : (c : Dev nD) → (b : Ref sig .tc) → Buf (Elt F) ((c : Thread nD τ).loc b) := fun c b => W27 m c b
/-- After the host stretch hostOps12. -/
abbrev W28 (c : Dev nD) : Valuation τ sig (Elt F) := StableHlo.after hostOps12 (W27 m c)
/-- The same contents read at the TensorCore's references. -/
abbrev Wr28 : (c : Dev nD) → (b : Ref sig .tc) → Buf (Elt F) ((c : Thread nD τ).loc b) := fun c b => W28 m c b
/-- At region 12's exit: its output array at what the pipeline's write-backs leave, every other buffer as entered. -/
def W29 (c : Dev nD) : Valuation τ sig (Elt F) :=
  Function.update (W28 m c) main_v81 ((dat12 (Wr28 m) c).arrAt 5 cfg12.N)
/-- The same contents read at the TensorCore's references. -/
abbrev Wr29 : (c : Dev nD) → (b : Ref sig .tc) → Buf (Elt F) ((c : Thread nD τ).loc b) := fun c b => W29 m c b
/-- After the host stretch hostOps13. -/
abbrev W30 (c : Dev nD) : Valuation τ sig (Elt F) := StableHlo.after hostOps13 (W29 m c)
/-- The same contents read at the TensorCore's references. -/
abbrev Wr30 : (c : Dev nD) → (b : Ref sig .tc) → Buf (Elt F) ((c : Thread nD τ).loc b) := fun c b => W30 m c b
/-- At region 13's exit: its output array at what the pipeline's write-backs leave, every other buffer as entered. -/
def W31 (c : Dev nD) : Valuation τ sig (Elt F) :=
  Function.update (W30 m c) main_v83 ((dat13 (Wr30 m) c).arrAt 3 cfg13.N)
/-- The same contents read at the TensorCore's references. -/
abbrev Wr31 : (c : Dev nD) → (b : Ref sig .tc) → Buf (Elt F) ((c : Thread nD τ).loc b) := fun c b => W31 m c b
/-- After the host stretch hostOps14. -/
abbrev W32 (c : Dev nD) : Valuation τ sig (Elt F) := StableHlo.after hostOps14 (W31 m c)
/-- The same contents read at the TensorCore's references. -/
abbrev Wr32 : (c : Dev nD) → (b : Ref sig .tc) → Buf (Elt F) ((c : Thread nD τ).loc b) := fun c b => W32 m c b
/-- At region 14's exit: its output array at what the pipeline's write-backs leave, every other buffer as entered. -/
def W33 (c : Dev nD) : Valuation τ sig (Elt F) :=
  Function.update (W32 m c) main_v85 ((dat14 (Wr32 m) c).arrAt 3 cfg14.N)
/-- The same contents read at the TensorCore's references. -/
abbrev Wr33 : (c : Dev nD) → (b : Ref sig .tc) → Buf (Elt F) ((c : Thread nD τ).loc b) := fun c b => W33 m c b

/-! ## The conditional frame's unknown contents, at these -/

/-- What each region leaves, read off the boundary after it. -/
def outsW : Outs (F := F) := fun J r c => match J with
  | 2 => W2 m c r
  | 4 => W4 m c r
  | 8 => W8 m c r
  | 9 => W9 m c r
  | 11 => W11 m c r
  | 13 => W13 m c r
  | 17 => W17 m c r
  | 18 => W18 m c r
  | 20 => W20 m c r
  | 22 => W22 m c r
  | 26 => W26 m c r
  | 27 => W27 m c r
  | 29 => W29 m c r
  | 31 => W31 m c r
  | 33 => W33 m c r
  | _ => V0 m c r
theorem outsW_2 (r : Ref sig .tc) (c : Dev nD) : outsW m 2 r c = W2 m c r := rfl
theorem outsW_4 (r : Ref sig .tc) (c : Dev nD) : outsW m 4 r c = W4 m c r := rfl
theorem outsW_8 (r : Ref sig .tc) (c : Dev nD) : outsW m 8 r c = W8 m c r := rfl
theorem outsW_9 (r : Ref sig .tc) (c : Dev nD) : outsW m 9 r c = W9 m c r := rfl
theorem outsW_11 (r : Ref sig .tc) (c : Dev nD) : outsW m 11 r c = W11 m c r := rfl
theorem outsW_13 (r : Ref sig .tc) (c : Dev nD) : outsW m 13 r c = W13 m c r := rfl
theorem outsW_17 (r : Ref sig .tc) (c : Dev nD) : outsW m 17 r c = W17 m c r := rfl
theorem outsW_18 (r : Ref sig .tc) (c : Dev nD) : outsW m 18 r c = W18 m c r := rfl
theorem outsW_20 (r : Ref sig .tc) (c : Dev nD) : outsW m 20 r c = W20 m c r := rfl
theorem outsW_22 (r : Ref sig .tc) (c : Dev nD) : outsW m 22 r c = W22 m c r := rfl
theorem outsW_26 (r : Ref sig .tc) (c : Dev nD) : outsW m 26 r c = W26 m c r := rfl
theorem outsW_27 (r : Ref sig .tc) (c : Dev nD) : outsW m 27 r c = W27 m c r := rfl
theorem outsW_29 (r : Ref sig .tc) (c : Dev nD) : outsW m 29 r c = W29 m c r := rfl
theorem outsW_31 (r : Ref sig .tc) (c : Dev nD) : outsW m 31 r c = W31 m c r := rfl
theorem outsW_33 (r : Ref sig .tc) (c : Dev nD) : outsW m 33 r c = W33 m c r := rfl

/-! ## Each region's output arrays at its exit, and the conditional frame's contents equal to these -/
theorem V1_eq (c : Dev nD) : V1 m c = W1 m c := rfl
theorem W2_out (c : Dev nD) : W2 m c main_v6 = (dat0 (Wr1 m) c).arrAt 3 cfg0.N := by
  unfold W2; rw [Function.update_self]
theorem V2_eq (c : Dev nD) : V2 m (outsW m) c = W2 m c := by
  unfold V2; rw [outsW_2, W2_out]; rfl
theorem W2_of (c : Dev nD) (r : Ref sig .tc) (h : r ∉ ([main_v6] : List (Ref sig .tc))) : W2 m c r = W1 m c r :=
  (congrFun (V2_eq m c) (Proc.devRef .tc r)).symm.trans ((V2_of m (outsW m) c r h).trans (congrFun (V1_eq m c) (Proc.devRef .tc r)))
theorem V3_eq (c : Dev nD) : V3 m (outsW m) c = W3 m c := congrArg (StableHlo.after hostOps1) (V2_eq m c)
theorem W4_out (c : Dev nD) : W4 m c main_v12 = (dat1 (Wr3 m) c).arrAt 3 cfg1.N := by
  unfold W4; rw [Function.update_self]
theorem V4_eq (c : Dev nD) : V4 m (outsW m) c = W4 m c := by
  unfold V4; rw [V3_eq, outsW_4, W4_out]; rfl
theorem W4_of (c : Dev nD) (r : Ref sig .tc) (h : r ∉ ([main_v12] : List (Ref sig .tc))) : W4 m c r = W3 m c r :=
  (congrFun (V4_eq m c) (Proc.devRef .tc r)).symm.trans ((V4_of m (outsW m) c r h).trans (congrFun (V3_eq m c) (Proc.devRef .tc r)))
theorem V5_eq (c : Dev nD) : V5 m (outsW m) c = W5 m c := congrArg (StableHlo.after hostOps2) (V4_eq m c)
theorem V6_eq (c : Dev nD) : V6 m (outsW m) c = W6 m c := congrArg (StableHlo.after hostOps2_1) (V5_eq m c)
theorem V7_eq (c : Dev nD) : V7 m (outsW m) c = W7 m c := congrArg (StableHlo.after hostOps2_2) (V6_eq m c)
theorem W8_out0 (c : Dev nD) : W8 m c main_v20_0 = (dat2 (Wr7 m) c).arrAt 4 cfg2.N := by
  unfold W8; rw [Function.update_of_ne (StableHlo.devRef_ne_of_ne (by decide) : (Proc.devRef .tc main_v20_0 : DevRef τ sig) ≠ Proc.devRef .tc main_v20_2), Function.update_of_ne (StableHlo.devRef_ne_of_ne (by decide) : (Proc.devRef .tc main_v20_0 : DevRef τ sig) ≠ Proc.devRef .tc main_v20_1), Function.update_self]
theorem W8_out1 (c : Dev nD) : W8 m c main_v20_1 = (dat2 (Wr7 m) c).arrAt 5 cfg2.N := by
  unfold W8; rw [Function.update_of_ne (StableHlo.devRef_ne_of_ne (by decide) : (Proc.devRef .tc main_v20_1 : DevRef τ sig) ≠ Proc.devRef .tc main_v20_2), Function.update_self]
theorem W8_out2 (c : Dev nD) : W8 m c main_v20_2 = (dat2 (Wr7 m) c).arrAt 6 cfg2.N := by
  unfold W8; rw [Function.update_self]
theorem V8_eq (c : Dev nD) : V8 m (outsW m) c = W8 m c := by
  unfold V8; rw [V7_eq, outsW_8, W8_out0, outsW_8, W8_out1, outsW_8, W8_out2]; rfl
theorem W8_of (c : Dev nD) (r : Ref sig .tc) (h : r ∉ ([main_v20_0, main_v20_1, main_v20_2] : List (Ref sig .tc))) : W8 m c r = W7 m c r :=
  (congrFun (V8_eq m c) (Proc.devRef .tc r)).symm.trans ((V8_of m (outsW m) c r h).trans (congrFun (V7_eq m c) (Proc.devRef .tc r)))
theorem W9_out (c : Dev nD) : W9 m c main_v21 = (dat3 (Wr8 m) c).arrAt 5 cfg3.N := by
  unfold W9; rw [Function.update_self]
theorem V9_eq (c : Dev nD) : V9 m (outsW m) c = W9 m c := by
  unfold V9; rw [V8_eq, outsW_9, W9_out]; rfl
theorem W9_of (c : Dev nD) (r : Ref sig .tc) (h : r ∉ ([main_v21] : List (Ref sig .tc))) : W9 m c r = W8 m c r :=
  (congrFun (V9_eq m c) (Proc.devRef .tc r)).symm.trans ((V9_of m (outsW m) c r h).trans (congrFun (V8_eq m c) (Proc.devRef .tc r)))
theorem V10_eq (c : Dev nD) : V10 m (outsW m) c = W10 m c := congrArg (StableHlo.after hostOps4) (V9_eq m c)
theorem W11_out (c : Dev nD) : W11 m c main_v31 = (dat4 (Wr10 m) c).arrAt 5 cfg4.N := by
  unfold W11; rw [Function.update_self]
theorem V11_eq (c : Dev nD) : V11 m (outsW m) c = W11 m c := by
  unfold V11; rw [V10_eq, outsW_11, W11_out]; rfl
theorem W11_of (c : Dev nD) (r : Ref sig .tc) (h : r ∉ ([main_v31] : List (Ref sig .tc))) : W11 m c r = W10 m c r :=
  (congrFun (V11_eq m c) (Proc.devRef .tc r)).symm.trans ((V11_of m (outsW m) c r h).trans (congrFun (V10_eq m c) (Proc.devRef .tc r)))
theorem V12_eq (c : Dev nD) : V12 m (outsW m) c = W12 m c := congrArg (StableHlo.after hostOps5) (V11_eq m c)
theorem W13_out (c : Dev nD) : W13 m c main_v37 = (dat5 (Wr12 m) c).arrAt 3 cfg5.N := by
  unfold W13; rw [Function.update_self]
theorem V13_eq (c : Dev nD) : V13 m (outsW m) c = W13 m c := by
  unfold V13; rw [V12_eq, outsW_13, W13_out]; rfl
theorem W13_of (c : Dev nD) (r : Ref sig .tc) (h : r ∉ ([main_v37] : List (Ref sig .tc))) : W13 m c r = W12 m c r :=
  (congrFun (V13_eq m c) (Proc.devRef .tc r)).symm.trans ((V13_of m (outsW m) c r h).trans (congrFun (V12_eq m c) (Proc.devRef .tc r)))
theorem V14_eq (c : Dev nD) : V14 m (outsW m) c = W14 m c := congrArg (StableHlo.after hostOps6) (V13_eq m c)
theorem V15_eq (c : Dev nD) : V15 m (outsW m) c = W15 m c := congrArg (StableHlo.after hostOps6_1) (V14_eq m c)
theorem V16_eq (c : Dev nD) : V16 m (outsW m) c = W16 m c := congrArg (StableHlo.after hostOps6_2) (V15_eq m c)
theorem W17_out0 (c : Dev nD) : W17 m c main_v45_0 = (dat6 (Wr16 m) c).arrAt 4 cfg6.N := by
  unfold W17; rw [Function.update_of_ne (StableHlo.devRef_ne_of_ne (by decide) : (Proc.devRef .tc main_v45_0 : DevRef τ sig) ≠ Proc.devRef .tc main_v45_2), Function.update_of_ne (StableHlo.devRef_ne_of_ne (by decide) : (Proc.devRef .tc main_v45_0 : DevRef τ sig) ≠ Proc.devRef .tc main_v45_1), Function.update_self]
theorem W17_out1 (c : Dev nD) : W17 m c main_v45_1 = (dat6 (Wr16 m) c).arrAt 5 cfg6.N := by
  unfold W17; rw [Function.update_of_ne (StableHlo.devRef_ne_of_ne (by decide) : (Proc.devRef .tc main_v45_1 : DevRef τ sig) ≠ Proc.devRef .tc main_v45_2), Function.update_self]
theorem W17_out2 (c : Dev nD) : W17 m c main_v45_2 = (dat6 (Wr16 m) c).arrAt 6 cfg6.N := by
  unfold W17; rw [Function.update_self]
theorem V17_eq (c : Dev nD) : V17 m (outsW m) c = W17 m c := by
  unfold V17; rw [V16_eq, outsW_17, W17_out0, outsW_17, W17_out1, outsW_17, W17_out2]; rfl
theorem W17_of (c : Dev nD) (r : Ref sig .tc) (h : r ∉ ([main_v45_0, main_v45_1, main_v45_2] : List (Ref sig .tc))) : W17 m c r = W16 m c r :=
  (congrFun (V17_eq m c) (Proc.devRef .tc r)).symm.trans ((V17_of m (outsW m) c r h).trans (congrFun (V16_eq m c) (Proc.devRef .tc r)))
theorem W18_out (c : Dev nD) : W18 m c main_v46 = (dat7 (Wr17 m) c).arrAt 5 cfg7.N := by
  unfold W18; rw [Function.update_self]
theorem V18_eq (c : Dev nD) : V18 m (outsW m) c = W18 m c := by
  unfold V18; rw [V17_eq, outsW_18, W18_out]; rfl
theorem W18_of (c : Dev nD) (r : Ref sig .tc) (h : r ∉ ([main_v46] : List (Ref sig .tc))) : W18 m c r = W17 m c r :=
  (congrFun (V18_eq m c) (Proc.devRef .tc r)).symm.trans ((V18_of m (outsW m) c r h).trans (congrFun (V17_eq m c) (Proc.devRef .tc r)))
theorem V19_eq (c : Dev nD) : V19 m (outsW m) c = W19 m c := congrArg (StableHlo.after hostOps8) (V18_eq m c)
theorem W20_out (c : Dev nD) : W20 m c main_v56 = (dat8 (Wr19 m) c).arrAt 5 cfg8.N := by
  unfold W20; rw [Function.update_self]
theorem V20_eq (c : Dev nD) : V20 m (outsW m) c = W20 m c := by
  unfold V20; rw [V19_eq, outsW_20, W20_out]; rfl
theorem W20_of (c : Dev nD) (r : Ref sig .tc) (h : r ∉ ([main_v56] : List (Ref sig .tc))) : W20 m c r = W19 m c r :=
  (congrFun (V20_eq m c) (Proc.devRef .tc r)).symm.trans ((V20_of m (outsW m) c r h).trans (congrFun (V19_eq m c) (Proc.devRef .tc r)))
theorem V21_eq (c : Dev nD) : V21 m (outsW m) c = W21 m c := congrArg (StableHlo.after hostOps9) (V20_eq m c)
theorem W22_out (c : Dev nD) : W22 m c main_v62 = (dat9 (Wr21 m) c).arrAt 3 cfg9.N := by
  unfold W22; rw [Function.update_self]
theorem V22_eq (c : Dev nD) : V22 m (outsW m) c = W22 m c := by
  unfold V22; rw [V21_eq, outsW_22, W22_out]; rfl
theorem W22_of (c : Dev nD) (r : Ref sig .tc) (h : r ∉ ([main_v62] : List (Ref sig .tc))) : W22 m c r = W21 m c r :=
  (congrFun (V22_eq m c) (Proc.devRef .tc r)).symm.trans ((V22_of m (outsW m) c r h).trans (congrFun (V21_eq m c) (Proc.devRef .tc r)))
theorem V23_eq (c : Dev nD) : V23 m (outsW m) c = W23 m c := congrArg (StableHlo.after hostOps10) (V22_eq m c)
theorem V24_eq (c : Dev nD) : V24 m (outsW m) c = W24 m c := congrArg (StableHlo.after hostOps10_1) (V23_eq m c)
theorem V25_eq (c : Dev nD) : V25 m (outsW m) c = W25 m c := congrArg (StableHlo.after hostOps10_2) (V24_eq m c)
theorem W26_out0 (c : Dev nD) : W26 m c main_v70_0 = (dat10 (Wr25 m) c).arrAt 4 cfg10.N := by
  unfold W26; rw [Function.update_of_ne (StableHlo.devRef_ne_of_ne (by decide) : (Proc.devRef .tc main_v70_0 : DevRef τ sig) ≠ Proc.devRef .tc main_v70_2), Function.update_of_ne (StableHlo.devRef_ne_of_ne (by decide) : (Proc.devRef .tc main_v70_0 : DevRef τ sig) ≠ Proc.devRef .tc main_v70_1), Function.update_self]
theorem W26_out1 (c : Dev nD) : W26 m c main_v70_1 = (dat10 (Wr25 m) c).arrAt 5 cfg10.N := by
  unfold W26; rw [Function.update_of_ne (StableHlo.devRef_ne_of_ne (by decide) : (Proc.devRef .tc main_v70_1 : DevRef τ sig) ≠ Proc.devRef .tc main_v70_2), Function.update_self]
theorem W26_out2 (c : Dev nD) : W26 m c main_v70_2 = (dat10 (Wr25 m) c).arrAt 6 cfg10.N := by
  unfold W26; rw [Function.update_self]
theorem V26_eq (c : Dev nD) : V26 m (outsW m) c = W26 m c := by
  unfold V26; rw [V25_eq, outsW_26, W26_out0, outsW_26, W26_out1, outsW_26, W26_out2]; rfl
theorem W26_of (c : Dev nD) (r : Ref sig .tc) (h : r ∉ ([main_v70_0, main_v70_1, main_v70_2] : List (Ref sig .tc))) : W26 m c r = W25 m c r :=
  (congrFun (V26_eq m c) (Proc.devRef .tc r)).symm.trans ((V26_of m (outsW m) c r h).trans (congrFun (V25_eq m c) (Proc.devRef .tc r)))
theorem W27_out (c : Dev nD) : W27 m c main_v71 = (dat11 (Wr26 m) c).arrAt 5 cfg11.N := by
  unfold W27; rw [Function.update_self]
theorem V27_eq (c : Dev nD) : V27 m (outsW m) c = W27 m c := by
  unfold V27; rw [V26_eq, outsW_27, W27_out]; rfl
theorem W27_of (c : Dev nD) (r : Ref sig .tc) (h : r ∉ ([main_v71] : List (Ref sig .tc))) : W27 m c r = W26 m c r :=
  (congrFun (V27_eq m c) (Proc.devRef .tc r)).symm.trans ((V27_of m (outsW m) c r h).trans (congrFun (V26_eq m c) (Proc.devRef .tc r)))
theorem V28_eq (c : Dev nD) : V28 m (outsW m) c = W28 m c := congrArg (StableHlo.after hostOps12) (V27_eq m c)
theorem W29_out (c : Dev nD) : W29 m c main_v81 = (dat12 (Wr28 m) c).arrAt 5 cfg12.N := by
  unfold W29; rw [Function.update_self]
theorem V29_eq (c : Dev nD) : V29 m (outsW m) c = W29 m c := by
  unfold V29; rw [V28_eq, outsW_29, W29_out]; rfl
theorem W29_of (c : Dev nD) (r : Ref sig .tc) (h : r ∉ ([main_v81] : List (Ref sig .tc))) : W29 m c r = W28 m c r :=
  (congrFun (V29_eq m c) (Proc.devRef .tc r)).symm.trans ((V29_of m (outsW m) c r h).trans (congrFun (V28_eq m c) (Proc.devRef .tc r)))
theorem V30_eq (c : Dev nD) : V30 m (outsW m) c = W30 m c := congrArg (StableHlo.after hostOps13) (V29_eq m c)
theorem W31_out (c : Dev nD) : W31 m c main_v83 = (dat13 (Wr30 m) c).arrAt 3 cfg13.N := by
  unfold W31; rw [Function.update_self]
theorem V31_eq (c : Dev nD) : V31 m (outsW m) c = W31 m c := by
  unfold V31; rw [V30_eq, outsW_31, W31_out]; rfl
theorem W31_of (c : Dev nD) (r : Ref sig .tc) (h : r ∉ ([main_v83] : List (Ref sig .tc))) : W31 m c r = W30 m c r :=
  (congrFun (V31_eq m c) (Proc.devRef .tc r)).symm.trans ((V31_of m (outsW m) c r h).trans (congrFun (V30_eq m c) (Proc.devRef .tc r)))
theorem V32_eq (c : Dev nD) : V32 m (outsW m) c = W32 m c := congrArg (StableHlo.after hostOps14) (V31_eq m c)
theorem W33_out (c : Dev nD) : W33 m c main_v85 = (dat14 (Wr32 m) c).arrAt 3 cfg14.N := by
  unfold W33; rw [Function.update_self]
theorem V33_eq (c : Dev nD) : V33 m (outsW m) c = W33 m c := by
  unfold V33; rw [V32_eq, outsW_33, W33_out]; rfl
theorem W33_of (c : Dev nD) (r : Ref sig .tc) (h : r ∉ ([main_v85] : List (Ref sig .tc))) : W33 m c r = W32 m c r :=
  (congrFun (V33_eq m c) (Proc.devRef .tc r)).symm.trans ((V33_of m (outsW m) c r h).trans (congrFun (V32_eq m c) (Proc.devRef .tc r)))

/-! ## The proof data family, the levels, and what rides beside the buffers -/

/-- Every pipeline's proof data, each at its region's entry contents. -/
def pdats : (p : Fin 15) → (c : Dev nD) → Dat τ (Elt F) Unit ℕ (UR sig nD τ) ℕ (cfgs p) c
  | ⟨0, _⟩ => fun c => dat0 (Wr1 m) c
  | ⟨1, _⟩ => fun c => dat1 (Wr3 m) c
  | ⟨2, _⟩ => fun c => dat2 (Wr7 m) c
  | ⟨3, _⟩ => fun c => dat3 (Wr8 m) c
  | ⟨4, _⟩ => fun c => dat4 (Wr10 m) c
  | ⟨5, _⟩ => fun c => dat5 (Wr12 m) c
  | ⟨6, _⟩ => fun c => dat6 (Wr16 m) c
  | ⟨7, _⟩ => fun c => dat7 (Wr17 m) c
  | ⟨8, _⟩ => fun c => dat8 (Wr19 m) c
  | ⟨9, _⟩ => fun c => dat9 (Wr21 m) c
  | ⟨10, _⟩ => fun c => dat10 (Wr25 m) c
  | ⟨11, _⟩ => fun c => dat11 (Wr26 m) c
  | ⟨12, _⟩ => fun c => dat12 (Wr28 m) c
  | ⟨13, _⟩ => fun c => dat13 (Wr30 m) c
  | ⟨14, _⟩ => fun c => dat14 (Wr32 m) c
/-- No core owes another anything: no level is assigned. -/
abbrev L : GSem nD τ sig → Finset Unit := fun _ => ∅
abbrev lv : GSem nD τ sig → Unit → ℕ := fun _ _ => 0
/-- Beside the buffers through every item: the core's generator register at some state and its dues, at nothing. -/
abbrev R (c : Dev nD) : sProp 𝕄 := iprop((∃ r, prngReg c r) ∗ ∃ W, owes (c : Thread nD τ) (0 : CellTallies nD τ sig Unit) W)

/-! ## At a region's exit: each windowed array at what the pipeline leaves, every other buffer as entered -/
theorem hF0_0 (c : Dev nD) : (dat0 (Wr1 m) c).arrAt 0 cfg0.N = Wr2 m c (Pipeline.arrRef spec0 0) :=
  (((dat0 (Wr1 m) c).arrAt_in 0 rfl _).trans (A_eq0 (Wr1 m) c 0)).trans (W2_of m c main_arg0 (by decide)).symm
theorem hF0_1 (c : Dev nD) : (dat0 (Wr1 m) c).arrAt 1 cfg0.N = Wr2 m c (Pipeline.arrRef spec0 1) :=
  (((dat0 (Wr1 m) c).arrAt_in 1 rfl _).trans (A_eq0 (Wr1 m) c 1)).trans (W2_of m c main_arg3 (by decide)).symm
theorem hF0_2 (c : Dev nD) : (dat0 (Wr1 m) c).arrAt 2 cfg0.N = Wr2 m c (Pipeline.arrRef spec0 2) :=
  (((dat0 (Wr1 m) c).arrAt_in 2 rfl _).trans (A_eq0 (Wr1 m) c 2)).trans (W2_of m c main_v5 (by decide)).symm
theorem hF0_3 (c : Dev nD) : (dat0 (Wr1 m) c).arrAt 3 cfg0.N = Wr2 m c (Pipeline.arrRef spec0 3) :=
  (W2_out m c).symm
theorem hF0 (c : Dev nD) : ∀ w : Fin 4, (dat0 (Wr1 m) c).arrAt w cfg0.N = Wr2 m c (Pipeline.arrRef spec0 w)
  | ⟨0, _⟩ => hF0_0 m c
  | ⟨1, _⟩ => hF0_1 m c
  | ⟨2, _⟩ => hF0_2 m c
  | ⟨3, _⟩ => hF0_3 m c
  | ⟨_ + 4, h⟩ => absurd h (Nat.not_lt.2 (Nat.le_add_left _ _))
theorem hrest0 (c : Dev nD) : ∀ b, b ∉ Finset.univ.image (Pipeline.arrRef spec0) → Wr2 m c b = Wr1 m c b :=
  fun b hb => W2_of m c b fun hm => hb (Finset.mem_image.mpr (by
    simp only [List.mem_cons, List.not_mem_nil, _root_.or_false] at hm
    exact ⟨3, Finset.mem_univ _, hm.symm⟩))
theorem hF1_0 (c : Dev nD) : (dat1 (Wr3 m) c).arrAt 0 cfg1.N = Wr4 m c (Pipeline.arrRef spec1 0) :=
  (((dat1 (Wr3 m) c).arrAt_in 0 rfl _).trans (A_eq1 (Wr3 m) c 0)).trans (W4_of m c main_v6 (by decide)).symm
theorem hF1_1 (c : Dev nD) : (dat1 (Wr3 m) c).arrAt 1 cfg1.N = Wr4 m c (Pipeline.arrRef spec1 1) :=
  (((dat1 (Wr3 m) c).arrAt_in 1 rfl _).trans (A_eq1 (Wr3 m) c 1)).trans (W4_of m c main_v8 (by decide)).symm
theorem hF1_2 (c : Dev nD) : (dat1 (Wr3 m) c).arrAt 2 cfg1.N = Wr4 m c (Pipeline.arrRef spec1 2) :=
  (((dat1 (Wr3 m) c).arrAt_in 2 rfl _).trans (A_eq1 (Wr3 m) c 2)).trans (W4_of m c main_v11 (by decide)).symm
theorem hF1_3 (c : Dev nD) : (dat1 (Wr3 m) c).arrAt 3 cfg1.N = Wr4 m c (Pipeline.arrRef spec1 3) :=
  (W4_out m c).symm
theorem hF1 (c : Dev nD) : ∀ w : Fin 4, (dat1 (Wr3 m) c).arrAt w cfg1.N = Wr4 m c (Pipeline.arrRef spec1 w)
  | ⟨0, _⟩ => hF1_0 m c
  | ⟨1, _⟩ => hF1_1 m c
  | ⟨2, _⟩ => hF1_2 m c
  | ⟨3, _⟩ => hF1_3 m c
  | ⟨_ + 4, h⟩ => absurd h (Nat.not_lt.2 (Nat.le_add_left _ _))
theorem hrest1 (c : Dev nD) : ∀ b, b ∉ Finset.univ.image (Pipeline.arrRef spec1) → Wr4 m c b = Wr3 m c b :=
  fun b hb => W4_of m c b fun hm => hb (Finset.mem_image.mpr (by
    simp only [List.mem_cons, List.not_mem_nil, _root_.or_false] at hm
    exact ⟨3, Finset.mem_univ _, hm.symm⟩))
theorem hF2_0 (c : Dev nD) : (dat2 (Wr7 m) c).arrAt 0 cfg2.N = Wr8 m c (Pipeline.arrRef spec2 0) :=
  (((dat2 (Wr7 m) c).arrAt_in 0 rfl _).trans (A_eq2 (Wr7 m) c 0)).trans (W8_of m c main_v13 (by decide)).symm
theorem hF2_1 (c : Dev nD) : (dat2 (Wr7 m) c).arrAt 1 cfg2.N = Wr8 m c (Pipeline.arrRef spec2 1) :=
  (((dat2 (Wr7 m) c).arrAt_in 1 rfl _).trans (A_eq2 (Wr7 m) c 1)).trans (W8_of m c main_v14 (by decide)).symm
theorem hF2_2 (c : Dev nD) : (dat2 (Wr7 m) c).arrAt 2 cfg2.N = Wr8 m c (Pipeline.arrRef spec2 2) :=
  (((dat2 (Wr7 m) c).arrAt_in 2 rfl _).trans (A_eq2 (Wr7 m) c 2)).trans (W8_of m c main_v16 (by decide)).symm
theorem hF2_3 (c : Dev nD) : (dat2 (Wr7 m) c).arrAt 3 cfg2.N = Wr8 m c (Pipeline.arrRef spec2 3) :=
  (((dat2 (Wr7 m) c).arrAt_in 3 rfl _).trans (A_eq2 (Wr7 m) c 3)).trans (W8_of m c main_v19 (by decide)).symm
theorem hF2_4 (c : Dev nD) : (dat2 (Wr7 m) c).arrAt 4 cfg2.N = Wr8 m c (Pipeline.arrRef spec2 4) :=
  (W8_out0 m c).symm
theorem hF2_5 (c : Dev nD) : (dat2 (Wr7 m) c).arrAt 5 cfg2.N = Wr8 m c (Pipeline.arrRef spec2 5) :=
  (W8_out1 m c).symm
theorem hF2_6 (c : Dev nD) : (dat2 (Wr7 m) c).arrAt 6 cfg2.N = Wr8 m c (Pipeline.arrRef spec2 6) :=
  (W8_out2 m c).symm
theorem hF2 (c : Dev nD) : ∀ w : Fin 7, (dat2 (Wr7 m) c).arrAt w cfg2.N = Wr8 m c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨_ + 7, h⟩ => absurd h (Nat.not_lt.2 (Nat.le_add_left _ _))
theorem hrest2 (c : Dev nD) : ∀ b, b ∉ Finset.univ.image (Pipeline.arrRef spec2) → Wr8 m c b = Wr7 m c b :=
  fun b hb => W8_of m c b fun hm => hb (Finset.mem_image.mpr (by
    simp only [List.mem_cons, List.mem_cons, List.mem_cons, List.not_mem_nil, _root_.or_false] at hm
    rcases hm with hm | hm | hm
    · exact ⟨4, Finset.mem_univ _, hm.symm⟩
    · exact ⟨5, Finset.mem_univ _, hm.symm⟩
    · exact ⟨6, Finset.mem_univ _, hm.symm⟩))
theorem hF3_0 (c : Dev nD) : (dat3 (Wr8 m) c).arrAt 0 cfg3.N = Wr9 m c (Pipeline.arrRef spec3 0) :=
  (((dat3 (Wr8 m) c).arrAt_in 0 rfl _).trans (A_eq3 (Wr8 m) c 0)).trans (W9_of m c main_v20_0 (by decide)).symm
theorem hF3_1 (c : Dev nD) : (dat3 (Wr8 m) c).arrAt 1 cfg3.N = Wr9 m c (Pipeline.arrRef spec3 1) :=
  (((dat3 (Wr8 m) c).arrAt_in 1 rfl _).trans (A_eq3 (Wr8 m) c 1)).trans (W9_of m c main_v14 (by decide)).symm
theorem hF3_2 (c : Dev nD) : (dat3 (Wr8 m) c).arrAt 2 cfg3.N = Wr9 m c (Pipeline.arrRef spec3 2) :=
  (((dat3 (Wr8 m) c).arrAt_in 2 rfl _).trans (A_eq3 (Wr8 m) c 2)).trans (W9_of m c main_v4 (by decide)).symm
theorem hF3_3 (c : Dev nD) : (dat3 (Wr8 m) c).arrAt 3 cfg3.N = Wr9 m c (Pipeline.arrRef spec3 3) :=
  (((dat3 (Wr8 m) c).arrAt_in 3 rfl _).trans (A_eq3 (Wr8 m) c 3)).trans (W9_of m c main_v20_1 (by decide)).symm
theorem hF3_4 (c : Dev nD) : (dat3 (Wr8 m) c).arrAt 4 cfg3.N = Wr9 m c (Pipeline.arrRef spec3 4) :=
  (((dat3 (Wr8 m) c).arrAt_in 4 rfl _).trans (A_eq3 (Wr8 m) c 4)).trans (W9_of m c main_v20_2 (by decide)).symm
theorem hF3_5 (c : Dev nD) : (dat3 (Wr8 m) c).arrAt 5 cfg3.N = Wr9 m c (Pipeline.arrRef spec3 5) :=
  (W9_out m c).symm
theorem hF3 (c : Dev nD) : ∀ w : Fin 6, (dat3 (Wr8 m) c).arrAt w cfg3.N = Wr9 m c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨_ + 6, h⟩ => absurd h (Nat.not_lt.2 (Nat.le_add_left _ _))
theorem hrest3 (c : Dev nD) : ∀ b, b ∉ Finset.univ.image (Pipeline.arrRef spec3) → Wr9 m c b = Wr8 m c b :=
  fun b hb => W9_of m c b fun hm => hb (Finset.mem_image.mpr (by
    simp only [List.mem_cons, List.not_mem_nil, _root_.or_false] at hm
    exact ⟨5, Finset.mem_univ _, hm.symm⟩))
theorem hF4_0 (c : Dev nD) : (dat4 (Wr10 m) c).arrAt 0 cfg4.N = Wr11 m c (Pipeline.arrRef spec4 0) :=
  (((dat4 (Wr10 m) c).arrAt_in 0 rfl _).trans (A_eq4 (Wr10 m) c 0)).trans (W11_of m c main_v12 (by decide)).symm
theorem hF4_1 (c : Dev nD) : (dat4 (Wr10 m) c).arrAt 1 cfg4.N = Wr11 m c (Pipeline.arrRef spec4 1) :=
  (((dat4 (Wr10 m) c).arrAt_in 1 rfl _).trans (A_eq4 (Wr10 m) c 1)).trans (W11_of m c main_v24 (by decide)).symm
theorem hF4_2 (c : Dev nD) : (dat4 (Wr10 m) c).arrAt 2 cfg4.N = Wr11 m c (Pipeline.arrRef spec4 2) :=
  (((dat4 (Wr10 m) c).arrAt_in 2 rfl _).trans (A_eq4 (Wr10 m) c 2)).trans (W11_of m c main_v6 (by decide)).symm
theorem hF4_3 (c : Dev nD) : (dat4 (Wr10 m) c).arrAt 3 cfg4.N = Wr11 m c (Pipeline.arrRef spec4 3) :=
  (((dat4 (Wr10 m) c).arrAt_in 3 rfl _).trans (A_eq4 (Wr10 m) c 3)).trans (W11_of m c main_v29 (by decide)).symm
theorem hF4_4 (c : Dev nD) : (dat4 (Wr10 m) c).arrAt 4 cfg4.N = Wr11 m c (Pipeline.arrRef spec4 4) :=
  (((dat4 (Wr10 m) c).arrAt_in 4 rfl _).trans (A_eq4 (Wr10 m) c 4)).trans (W11_of m c main_v30 (by decide)).symm
theorem hF4_5 (c : Dev nD) : (dat4 (Wr10 m) c).arrAt 5 cfg4.N = Wr11 m c (Pipeline.arrRef spec4 5) :=
  (W11_out m c).symm
theorem hF4 (c : Dev nD) : ∀ w : Fin 6, (dat4 (Wr10 m) c).arrAt w cfg4.N = Wr11 m c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
  | ⟨_ + 6, h⟩ => absurd h (Nat.not_lt.2 (Nat.le_add_left _ _))
theorem hrest4 (c : Dev nD) : ∀ b, b ∉ Finset.univ.image (Pipeline.arrRef spec4) → Wr11 m c b = Wr10 m c b :=
  fun b hb => W11_of m c b fun hm => hb (Finset.mem_image.mpr (by
    simp only [List.mem_cons, List.not_mem_nil, _root_.or_false] at hm
    exact ⟨5, Finset.mem_univ _, hm.symm⟩))
theorem hF5_0 (c : Dev nD) : (dat5 (Wr12 m) c).arrAt 0 cfg5.N = Wr13 m c (Pipeline.arrRef spec5 0) :=
  (((dat5 (Wr12 m) c).arrAt_in 0 rfl _).trans (A_eq5 (Wr12 m) c 0)).trans (W13_of m c main_v31 (by decide)).symm
theorem hF5_1 (c : Dev nD) : (dat5 (Wr12 m) c).arrAt 1 cfg5.N = Wr13 m c (Pipeline.arrRef spec5 1) :=
  (((dat5 (Wr12 m) c).arrAt_in 1 rfl _).trans (A_eq5 (Wr12 m) c 1)).trans (W13_of m c main_v33 (by decide)).symm
theorem hF5_2 (c : Dev nD) : (dat5 (Wr12 m) c).arrAt 2 cfg5.N = Wr13 m c (Pipeline.arrRef spec5 2) :=
  (((dat5 (Wr12 m) c).arrAt_in 2 rfl _).trans (A_eq5 (Wr12 m) c 2)).trans (W13_of m c main_v36 (by decide)).symm
theorem hF5_3 (c : Dev nD) : (dat5 (Wr12 m) c).arrAt 3 cfg5.N = Wr13 m c (Pipeline.arrRef spec5 3) :=
  (W13_out m c).symm
theorem hF5 (c : Dev nD) : ∀ w : Fin 4, (dat5 (Wr12 m) c).arrAt w cfg5.N = Wr13 m c (Pipeline.arrRef spec5 w)
  | ⟨0, _⟩ => hF5_0 m c
  | ⟨1, _⟩ => hF5_1 m c
  | ⟨2, _⟩ => hF5_2 m c
  | ⟨3, _⟩ => hF5_3 m c
  | ⟨_ + 4, h⟩ => absurd h (Nat.not_lt.2 (Nat.le_add_left _ _))
theorem hrest5 (c : Dev nD) : ∀ b, b ∉ Finset.univ.image (Pipeline.arrRef spec5) → Wr13 m c b = Wr12 m c b :=
  fun b hb => W13_of m c b fun hm => hb (Finset.mem_image.mpr (by
    simp only [List.mem_cons, List.not_mem_nil, _root_.or_false] at hm
    exact ⟨3, Finset.mem_univ _, hm.symm⟩))
theorem hF6_0 (c : Dev nD) : (dat6 (Wr16 m) c).arrAt 0 cfg6.N = Wr17 m c (Pipeline.arrRef spec6 0) :=
  (((dat6 (Wr16 m) c).arrAt_in 0 rfl _).trans (A_eq6 (Wr16 m) c 0)).trans (W17_of m c main_v38 (by decide)).symm
theorem hF6_1 (c : Dev nD) : (dat6 (Wr16 m) c).arrAt 1 cfg6.N = Wr17 m c (Pipeline.arrRef spec6 1) :=
  (((dat6 (Wr16 m) c).arrAt_in 1 rfl _).trans (A_eq6 (Wr16 m) c 1)).trans (W17_of m c main_v39 (by decide)).symm
theorem hF6_2 (c : Dev nD) : (dat6 (Wr16 m) c).arrAt 2 cfg6.N = Wr17 m c (Pipeline.arrRef spec6 2) :=
  (((dat6 (Wr16 m) c).arrAt_in 2 rfl _).trans (A_eq6 (Wr16 m) c 2)).trans (W17_of m c main_v41 (by decide)).symm
theorem hF6_3 (c : Dev nD) : (dat6 (Wr16 m) c).arrAt 3 cfg6.N = Wr17 m c (Pipeline.arrRef spec6 3) :=
  (((dat6 (Wr16 m) c).arrAt_in 3 rfl _).trans (A_eq6 (Wr16 m) c 3)).trans (W17_of m c main_v44 (by decide)).symm
theorem hF6_4 (c : Dev nD) : (dat6 (Wr16 m) c).arrAt 4 cfg6.N = Wr17 m c (Pipeline.arrRef spec6 4) :=
  (W17_out0 m c).symm
theorem hF6_5 (c : Dev nD) : (dat6 (Wr16 m) c).arrAt 5 cfg6.N = Wr17 m c (Pipeline.arrRef spec6 5) :=
  (W17_out1 m c).symm
theorem hF6_6 (c : Dev nD) : (dat6 (Wr16 m) c).arrAt 6 cfg6.N = Wr17 m c (Pipeline.arrRef spec6 6) :=
  (W17_out2 m c).symm
theorem hF6 (c : Dev nD) : ∀ w : Fin 7, (dat6 (Wr16 m) c).arrAt w cfg6.N = Wr17 m c (Pipeline.arrRef spec6 w)
  | ⟨0, _⟩ => hF6_0 m c
  | ⟨1, _⟩ => hF6_1 m c
  | ⟨2, _⟩ => hF6_2 m c
  | ⟨3, _⟩ => hF6_3 m c
  | ⟨4, _⟩ => hF6_4 m c
  | ⟨5, _⟩ => hF6_5 m c
  | ⟨6, _⟩ => hF6_6 m c
  | ⟨_ + 7, h⟩ => absurd h (Nat.not_lt.2 (Nat.le_add_left _ _))
theorem hrest6 (c : Dev nD) : ∀ b, b ∉ Finset.univ.image (Pipeline.arrRef spec6) → Wr17 m c b = Wr16 m c b :=
  fun b hb => W17_of m c b fun hm => hb (Finset.mem_image.mpr (by
    simp only [List.mem_cons, List.mem_cons, List.mem_cons, List.not_mem_nil, _root_.or_false] at hm
    rcases hm with hm | hm | hm
    · exact ⟨4, Finset.mem_univ _, hm.symm⟩
    · exact ⟨5, Finset.mem_univ _, hm.symm⟩
    · exact ⟨6, Finset.mem_univ _, hm.symm⟩))
theorem hF7_0 (c : Dev nD) : (dat7 (Wr17 m) c).arrAt 0 cfg7.N = Wr18 m c (Pipeline.arrRef spec7 0) :=
  (((dat7 (Wr17 m) c).arrAt_in 0 rfl _).trans (A_eq7 (Wr17 m) c 0)).trans (W18_of m c main_v45_0 (by decide)).symm
theorem hF7_1 (c : Dev nD) : (dat7 (Wr17 m) c).arrAt 1 cfg7.N = Wr18 m c (Pipeline.arrRef spec7 1) :=
  (((dat7 (Wr17 m) c).arrAt_in 1 rfl _).trans (A_eq7 (Wr17 m) c 1)).trans (W18_of m c main_v39 (by decide)).symm
theorem hF7_2 (c : Dev nD) : (dat7 (Wr17 m) c).arrAt 2 cfg7.N = Wr18 m c (Pipeline.arrRef spec7 2) :=
  (((dat7 (Wr17 m) c).arrAt_in 2 rfl _).trans (A_eq7 (Wr17 m) c 2)).trans (W18_of m c main_v4 (by decide)).symm
theorem hF7_3 (c : Dev nD) : (dat7 (Wr17 m) c).arrAt 3 cfg7.N = Wr18 m c (Pipeline.arrRef spec7 3) :=
  (((dat7 (Wr17 m) c).arrAt_in 3 rfl _).trans (A_eq7 (Wr17 m) c 3)).trans (W18_of m c main_v45_1 (by decide)).symm
theorem hF7_4 (c : Dev nD) : (dat7 (Wr17 m) c).arrAt 4 cfg7.N = Wr18 m c (Pipeline.arrRef spec7 4) :=
  (((dat7 (Wr17 m) c).arrAt_in 4 rfl _).trans (A_eq7 (Wr17 m) c 4)).trans (W18_of m c main_v45_2 (by decide)).symm
theorem hF7_5 (c : Dev nD) : (dat7 (Wr17 m) c).arrAt 5 cfg7.N = Wr18 m c (Pipeline.arrRef spec7 5) :=
  (W18_out m c).symm
theorem hF7 (c : Dev nD) : ∀ w : Fin 6, (dat7 (Wr17 m) c).arrAt w cfg7.N = Wr18 m c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨5, _⟩ => hF7_5 m c
  | ⟨_ + 6, h⟩ => absurd h (Nat.not_lt.2 (Nat.le_add_left _ _))
theorem hrest7 (c : Dev nD) : ∀ b, b ∉ Finset.univ.image (Pipeline.arrRef spec7) → Wr18 m c b = Wr17 m c b :=
  fun b hb => W18_of m c b fun hm => hb (Finset.mem_image.mpr (by
    simp only [List.mem_cons, List.not_mem_nil, _root_.or_false] at hm
    exact ⟨5, Finset.mem_univ _, hm.symm⟩))
theorem hF8_0 (c : Dev nD) : (dat8 (Wr19 m) c).arrAt 0 cfg8.N = Wr20 m c (Pipeline.arrRef spec8 0) :=
  (((dat8 (Wr19 m) c).arrAt_in 0 rfl _).trans (A_eq8 (Wr19 m) c 0)).trans (W20_of m c main_v37 (by decide)).symm
theorem hF8_1 (c : Dev nD) : (dat8 (Wr19 m) c).arrAt 1 cfg8.N = Wr20 m c (Pipeline.arrRef spec8 1) :=
  (((dat8 (Wr19 m) c).arrAt_in 1 rfl _).trans (A_eq8 (Wr19 m) c 1)).trans (W20_of m c main_v49 (by decide)).symm
theorem hF8_2 (c : Dev nD) : (dat8 (Wr19 m) c).arrAt 2 cfg8.N = Wr20 m c (Pipeline.arrRef spec8 2) :=
  (((dat8 (Wr19 m) c).arrAt_in 2 rfl _).trans (A_eq8 (Wr19 m) c 2)).trans (W20_of m c main_v31 (by decide)).symm
theorem hF8_3 (c : Dev nD) : (dat8 (Wr19 m) c).arrAt 3 cfg8.N = Wr20 m c (Pipeline.arrRef spec8 3) :=
  (((dat8 (Wr19 m) c).arrAt_in 3 rfl _).trans (A_eq8 (Wr19 m) c 3)).trans (W20_of m c main_v54 (by decide)).symm
theorem hF8_4 (c : Dev nD) : (dat8 (Wr19 m) c).arrAt 4 cfg8.N = Wr20 m c (Pipeline.arrRef spec8 4) :=
  (((dat8 (Wr19 m) c).arrAt_in 4 rfl _).trans (A_eq8 (Wr19 m) c 4)).trans (W20_of m c main_v55 (by decide)).symm
theorem hF8_5 (c : Dev nD) : (dat8 (Wr19 m) c).arrAt 5 cfg8.N = Wr20 m c (Pipeline.arrRef spec8 5) :=
  (W20_out m c).symm
theorem hF8 (c : Dev nD) : ∀ w : Fin 6, (dat8 (Wr19 m) c).arrAt w cfg8.N = Wr20 m c (Pipeline.arrRef spec8 w)
  | ⟨0, _⟩ => hF8_0 m c
  | ⟨1, _⟩ => hF8_1 m c
  | ⟨2, _⟩ => hF8_2 m c
  | ⟨3, _⟩ => hF8_3 m c
  | ⟨4, _⟩ => hF8_4 m c
  | ⟨5, _⟩ => hF8_5 m c
  | ⟨_ + 6, h⟩ => absurd h (Nat.not_lt.2 (Nat.le_add_left _ _))
theorem hrest8 (c : Dev nD) : ∀ b, b ∉ Finset.univ.image (Pipeline.arrRef spec8) → Wr20 m c b = Wr19 m c b :=
  fun b hb => W20_of m c b fun hm => hb (Finset.mem_image.mpr (by
    simp only [List.mem_cons, List.not_mem_nil, _root_.or_false] at hm
    exact ⟨5, Finset.mem_univ _, hm.symm⟩))
theorem hF9_0 (c : Dev nD) : (dat9 (Wr21 m) c).arrAt 0 cfg9.N = Wr22 m c (Pipeline.arrRef spec9 0) :=
  (((dat9 (Wr21 m) c).arrAt_in 0 rfl _).trans (A_eq9 (Wr21 m) c 0)).trans (W22_of m c main_v56 (by decide)).symm
theorem hF9_1 (c : Dev nD) : (dat9 (Wr21 m) c).arrAt 1 cfg9.N = Wr22 m c (Pipeline.arrRef spec9 1) :=
  (((dat9 (Wr21 m) c).arrAt_in 1 rfl _).trans (A_eq9 (Wr21 m) c 1)).trans (W22_of m c main_v58 (by decide)).symm
theorem hF9_2 (c : Dev nD) : (dat9 (Wr21 m) c).arrAt 2 cfg9.N = Wr22 m c (Pipeline.arrRef spec9 2) :=
  (((dat9 (Wr21 m) c).arrAt_in 2 rfl _).trans (A_eq9 (Wr21 m) c 2)).trans (W22_of m c main_v61 (by decide)).symm
theorem hF9_3 (c : Dev nD) : (dat9 (Wr21 m) c).arrAt 3 cfg9.N = Wr22 m c (Pipeline.arrRef spec9 3) :=
  (W22_out m c).symm
theorem hF9 (c : Dev nD) : ∀ w : Fin 4, (dat9 (Wr21 m) c).arrAt w cfg9.N = Wr22 m c (Pipeline.arrRef spec9 w)
  | ⟨0, _⟩ => hF9_0 m c
  | ⟨1, _⟩ => hF9_1 m c
  | ⟨2, _⟩ => hF9_2 m c
  | ⟨3, _⟩ => hF9_3 m c
  | ⟨_ + 4, h⟩ => absurd h (Nat.not_lt.2 (Nat.le_add_left _ _))
theorem hrest9 (c : Dev nD) : ∀ b, b ∉ Finset.univ.image (Pipeline.arrRef spec9) → Wr22 m c b = Wr21 m c b :=
  fun b hb => W22_of m c b fun hm => hb (Finset.mem_image.mpr (by
    simp only [List.mem_cons, List.not_mem_nil, _root_.or_false] at hm
    exact ⟨3, Finset.mem_univ _, hm.symm⟩))
theorem hF10_0 (c : Dev nD) : (dat10 (Wr25 m) c).arrAt 0 cfg10.N = Wr26 m c (Pipeline.arrRef spec10 0) :=
  (((dat10 (Wr25 m) c).arrAt_in 0 rfl _).trans (A_eq10 (Wr25 m) c 0)).trans (W26_of m c main_v63 (by decide)).symm
theorem hF10_1 (c : Dev nD) : (dat10 (Wr25 m) c).arrAt 1 cfg10.N = Wr26 m c (Pipeline.arrRef spec10 1) :=
  (((dat10 (Wr25 m) c).arrAt_in 1 rfl _).trans (A_eq10 (Wr25 m) c 1)).trans (W26_of m c main_v64 (by decide)).symm
theorem hF10_2 (c : Dev nD) : (dat10 (Wr25 m) c).arrAt 2 cfg10.N = Wr26 m c (Pipeline.arrRef spec10 2) :=
  (((dat10 (Wr25 m) c).arrAt_in 2 rfl _).trans (A_eq10 (Wr25 m) c 2)).trans (W26_of m c main_v66 (by decide)).symm
theorem hF10_3 (c : Dev nD) : (dat10 (Wr25 m) c).arrAt 3 cfg10.N = Wr26 m c (Pipeline.arrRef spec10 3) :=
  (((dat10 (Wr25 m) c).arrAt_in 3 rfl _).trans (A_eq10 (Wr25 m) c 3)).trans (W26_of m c main_v69 (by decide)).symm
theorem hF10_4 (c : Dev nD) : (dat10 (Wr25 m) c).arrAt 4 cfg10.N = Wr26 m c (Pipeline.arrRef spec10 4) :=
  (W26_out0 m c).symm
theorem hF10_5 (c : Dev nD) : (dat10 (Wr25 m) c).arrAt 5 cfg10.N = Wr26 m c (Pipeline.arrRef spec10 5) :=
  (W26_out1 m c).symm
theorem hF10_6 (c : Dev nD) : (dat10 (Wr25 m) c).arrAt 6 cfg10.N = Wr26 m c (Pipeline.arrRef spec10 6) :=
  (W26_out2 m c).symm
theorem hF10 (c : Dev nD) : ∀ w : Fin 7, (dat10 (Wr25 m) c).arrAt w cfg10.N = Wr26 m c (Pipeline.arrRef spec10 w)
  | ⟨0, _⟩ => hF10_0 m c
  | ⟨1, _⟩ => hF10_1 m c
  | ⟨2, _⟩ => hF10_2 m c
  | ⟨3, _⟩ => hF10_3 m c
  | ⟨4, _⟩ => hF10_4 m c
  | ⟨5, _⟩ => hF10_5 m c
  | ⟨6, _⟩ => hF10_6 m c
  | ⟨_ + 7, h⟩ => absurd h (Nat.not_lt.2 (Nat.le_add_left _ _))
theorem hrest10 (c : Dev nD) : ∀ b, b ∉ Finset.univ.image (Pipeline.arrRef spec10) → Wr26 m c b = Wr25 m c b :=
  fun b hb => W26_of m c b fun hm => hb (Finset.mem_image.mpr (by
    simp only [List.mem_cons, List.mem_cons, List.mem_cons, List.not_mem_nil, _root_.or_false] at hm
    rcases hm with hm | hm | hm
    · exact ⟨4, Finset.mem_univ _, hm.symm⟩
    · exact ⟨5, Finset.mem_univ _, hm.symm⟩
    · exact ⟨6, Finset.mem_univ _, hm.symm⟩))
theorem hF11_0 (c : Dev nD) : (dat11 (Wr26 m) c).arrAt 0 cfg11.N = Wr27 m c (Pipeline.arrRef spec11 0) :=
  (((dat11 (Wr26 m) c).arrAt_in 0 rfl _).trans (A_eq11 (Wr26 m) c 0)).trans (W27_of m c main_v70_0 (by decide)).symm
theorem hF11_1 (c : Dev nD) : (dat11 (Wr26 m) c).arrAt 1 cfg11.N = Wr27 m c (Pipeline.arrRef spec11 1) :=
  (((dat11 (Wr26 m) c).arrAt_in 1 rfl _).trans (A_eq11 (Wr26 m) c 1)).trans (W27_of m c main_v64 (by decide)).symm
theorem hF11_2 (c : Dev nD) : (dat11 (Wr26 m) c).arrAt 2 cfg11.N = Wr27 m c (Pipeline.arrRef spec11 2) :=
  (((dat11 (Wr26 m) c).arrAt_in 2 rfl _).trans (A_eq11 (Wr26 m) c 2)).trans (W27_of m c main_v4 (by decide)).symm
theorem hF11_3 (c : Dev nD) : (dat11 (Wr26 m) c).arrAt 3 cfg11.N = Wr27 m c (Pipeline.arrRef spec11 3) :=
  (((dat11 (Wr26 m) c).arrAt_in 3 rfl _).trans (A_eq11 (Wr26 m) c 3)).trans (W27_of m c main_v70_1 (by decide)).symm
theorem hF11_4 (c : Dev nD) : (dat11 (Wr26 m) c).arrAt 4 cfg11.N = Wr27 m c (Pipeline.arrRef spec11 4) :=
  (((dat11 (Wr26 m) c).arrAt_in 4 rfl _).trans (A_eq11 (Wr26 m) c 4)).trans (W27_of m c main_v70_2 (by decide)).symm
theorem hF11_5 (c : Dev nD) : (dat11 (Wr26 m) c).arrAt 5 cfg11.N = Wr27 m c (Pipeline.arrRef spec11 5) :=
  (W27_out m c).symm
theorem hF11 (c : Dev nD) : ∀ w : Fin 6, (dat11 (Wr26 m) c).arrAt w cfg11.N = Wr27 m c (Pipeline.arrRef spec11 w)
  | ⟨0, _⟩ => hF11_0 m c
  | ⟨1, _⟩ => hF11_1 m c
  | ⟨2, _⟩ => hF11_2 m c
  | ⟨3, _⟩ => hF11_3 m c
  | ⟨4, _⟩ => hF11_4 m c
  | ⟨5, _⟩ => hF11_5 m c
  | ⟨_ + 6, h⟩ => absurd h (Nat.not_lt.2 (Nat.le_add_left _ _))
theorem hrest11 (c : Dev nD) : ∀ b, b ∉ Finset.univ.image (Pipeline.arrRef spec11) → Wr27 m c b = Wr26 m c b :=
  fun b hb => W27_of m c b fun hm => hb (Finset.mem_image.mpr (by
    simp only [List.mem_cons, List.not_mem_nil, _root_.or_false] at hm
    exact ⟨5, Finset.mem_univ _, hm.symm⟩))
theorem hF12_0 (c : Dev nD) : (dat12 (Wr28 m) c).arrAt 0 cfg12.N = Wr29 m c (Pipeline.arrRef spec12 0) :=
  (((dat12 (Wr28 m) c).arrAt_in 0 rfl _).trans (A_eq12 (Wr28 m) c 0)).trans (W29_of m c main_v62 (by decide)).symm
theorem hF12_1 (c : Dev nD) : (dat12 (Wr28 m) c).arrAt 1 cfg12.N = Wr29 m c (Pipeline.arrRef spec12 1) :=
  (((dat12 (Wr28 m) c).arrAt_in 1 rfl _).trans (A_eq12 (Wr28 m) c 1)).trans (W29_of m c main_v74 (by decide)).symm
theorem hF12_2 (c : Dev nD) : (dat12 (Wr28 m) c).arrAt 2 cfg12.N = Wr29 m c (Pipeline.arrRef spec12 2) :=
  (((dat12 (Wr28 m) c).arrAt_in 2 rfl _).trans (A_eq12 (Wr28 m) c 2)).trans (W29_of m c main_v56 (by decide)).symm
theorem hF12_3 (c : Dev nD) : (dat12 (Wr28 m) c).arrAt 3 cfg12.N = Wr29 m c (Pipeline.arrRef spec12 3) :=
  (((dat12 (Wr28 m) c).arrAt_in 3 rfl _).trans (A_eq12 (Wr28 m) c 3)).trans (W29_of m c main_v79 (by decide)).symm
theorem hF12_4 (c : Dev nD) : (dat12 (Wr28 m) c).arrAt 4 cfg12.N = Wr29 m c (Pipeline.arrRef spec12 4) :=
  (((dat12 (Wr28 m) c).arrAt_in 4 rfl _).trans (A_eq12 (Wr28 m) c 4)).trans (W29_of m c main_v80 (by decide)).symm
theorem hF12_5 (c : Dev nD) : (dat12 (Wr28 m) c).arrAt 5 cfg12.N = Wr29 m c (Pipeline.arrRef spec12 5) :=
  (W29_out m c).symm
theorem hF12 (c : Dev nD) : ∀ w : Fin 6, (dat12 (Wr28 m) c).arrAt w cfg12.N = Wr29 m c (Pipeline.arrRef spec12 w)
  | ⟨0, _⟩ => hF12_0 m c
  | ⟨1, _⟩ => hF12_1 m c
  | ⟨2, _⟩ => hF12_2 m c
  | ⟨3, _⟩ => hF12_3 m c
  | ⟨4, _⟩ => hF12_4 m c
  | ⟨5, _⟩ => hF12_5 m c
  | ⟨_ + 6, h⟩ => absurd h (Nat.not_lt.2 (Nat.le_add_left _ _))
theorem hrest12 (c : Dev nD) : ∀ b, b ∉ Finset.univ.image (Pipeline.arrRef spec12) → Wr29 m c b = Wr28 m c b :=
  fun b hb => W29_of m c b fun hm => hb (Finset.mem_image.mpr (by
    simp only [List.mem_cons, List.not_mem_nil, _root_.or_false] at hm
    exact ⟨5, Finset.mem_univ _, hm.symm⟩))
theorem hF13_0 (c : Dev nD) : (dat13 (Wr30 m) c).arrAt 0 cfg13.N = Wr31 m c (Pipeline.arrRef spec13 0) :=
  (((dat13 (Wr30 m) c).arrAt_in 0 rfl _).trans (A_eq13 (Wr30 m) c 0)).trans (W31_of m c main_v81 (by decide)).symm
theorem hF13_1 (c : Dev nD) : (dat13 (Wr30 m) c).arrAt 1 cfg13.N = Wr31 m c (Pipeline.arrRef spec13 1) :=
  (((dat13 (Wr30 m) c).arrAt_in 1 rfl _).trans (A_eq13 (Wr30 m) c 1)).trans (W31_of m c main_arg11 (by decide)).symm
theorem hF13_2 (c : Dev nD) : (dat13 (Wr30 m) c).arrAt 2 cfg13.N = Wr31 m c (Pipeline.arrRef spec13 2) :=
  (((dat13 (Wr30 m) c).arrAt_in 2 rfl _).trans (A_eq13 (Wr30 m) c 2)).trans (W31_of m c main_v82 (by decide)).symm
theorem hF13_3 (c : Dev nD) : (dat13 (Wr30 m) c).arrAt 3 cfg13.N = Wr31 m c (Pipeline.arrRef spec13 3) :=
  (W31_out m c).symm
theorem hF13 (c : Dev nD) : ∀ w : Fin 4, (dat13 (Wr30 m) c).arrAt w cfg13.N = Wr31 m c (Pipeline.arrRef spec13 w)
  | ⟨0, _⟩ => hF13_0 m c
  | ⟨1, _⟩ => hF13_1 m c
  | ⟨2, _⟩ => hF13_2 m c
  | ⟨3, _⟩ => hF13_3 m c
  | ⟨_ + 4, h⟩ => absurd h (Nat.not_lt.2 (Nat.le_add_left _ _))
theorem hrest13 (c : Dev nD) : ∀ b, b ∉ Finset.univ.image (Pipeline.arrRef spec13) → Wr31 m c b = Wr30 m c b :=
  fun b hb => W31_of m c b fun hm => hb (Finset.mem_image.mpr (by
    simp only [List.mem_cons, List.not_mem_nil, _root_.or_false] at hm
    exact ⟨3, Finset.mem_univ _, hm.symm⟩))
theorem hF14_0 (c : Dev nD) : (dat14 (Wr32 m) c).arrAt 0 cfg14.N = Wr33 m c (Pipeline.arrRef spec14 0) :=
  (((dat14 (Wr32 m) c).arrAt_in 0 rfl _).trans (A_eq14 (Wr32 m) c 0)).trans (W33_of m c main_v83 (by decide)).symm
theorem hF14_1 (c : Dev nD) : (dat14 (Wr32 m) c).arrAt 1 cfg14.N = Wr33 m c (Pipeline.arrRef spec14 1) :=
  (((dat14 (Wr32 m) c).arrAt_in 1 rfl _).trans (A_eq14 (Wr32 m) c 1)).trans (W33_of m c main_arg13 (by decide)).symm
theorem hF14_2 (c : Dev nD) : (dat14 (Wr32 m) c).arrAt 2 cfg14.N = Wr33 m c (Pipeline.arrRef spec14 2) :=
  (((dat14 (Wr32 m) c).arrAt_in 2 rfl _).trans (A_eq14 (Wr32 m) c 2)).trans (W33_of m c main_v84 (by decide)).symm
theorem hF14_3 (c : Dev nD) : (dat14 (Wr32 m) c).arrAt 3 cfg14.N = Wr33 m c (Pipeline.arrRef spec14 3) :=
  (W33_out m c).symm
theorem hF14 (c : Dev nD) : ∀ w : Fin 4, (dat14 (Wr32 m) c).arrAt w cfg14.N = Wr33 m c (Pipeline.arrRef spec14 w)
  | ⟨0, _⟩ => hF14_0 m c
  | ⟨1, _⟩ => hF14_1 m c
  | ⟨2, _⟩ => hF14_2 m c
  | ⟨3, _⟩ => hF14_3 m c
  | ⟨_ + 4, h⟩ => absurd h (Nat.not_lt.2 (Nat.le_add_left _ _))
theorem hrest14 (c : Dev nD) : ∀ b, b ∉ Finset.univ.image (Pipeline.arrRef spec14) → Wr33 m c b = Wr32 m c b :=
  fun b hb => W33_of m c b fun hm => hb (Finset.mem_image.mpr (by
    simp only [List.mem_cons, List.not_mem_nil, _root_.or_false] at hm
    exact ⟨3, Finset.mem_univ _, hm.symm⟩))

end Cert.Kernel.Hand

end
-- ==== Proof.K.Seg0.lean ====
/- Region 0 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 as a segment: from every unscoped buffer at W1 beside R, to every unscoped buffer at W2 beside R. -/
def reg0 : Pipeline.RegionSeg (pcfgs (F := F)) GenP.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Wr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Wr1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Wr1 m c) (A_eq0 (Wr1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Wr1 m c) (Wr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/- Region 1 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 as a segment: from every unscoped buffer at W3 beside R, to every unscoped buffer at W4 beside R. -/
def reg1 : Pipeline.RegionSeg (pcfgs (F := F)) GenP.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Wr3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Wr3 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Wr3 m c) (A_eq1 (Wr3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Wr3 m c) (Wr4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/- Region 2 of @main over the thread state: entered from every unscoped buffer at the contents before it, left at the
   contents after it. Its windowed arrays are split out of the unscoped buffers at entry and put back at exit at the
   contents the pipeline's write-backs leave; the generator register and the scoped rest go into the region's own invariant (which carries the running
   maximum and sum across the points) and come back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 as a segment: from every unscoped buffer at W7 beside R, to every unscoped buffer at W8 beside R. -/
def reg2 : Pipeline.RegionSeg (pcfgs (F := F)) GenP.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (Wr7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (Wr7 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (Wr7 m c) (A_eq2 (Wr7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (Wr7 m) c)
    unfold Pipeline.ΦA
    iintro ⟨Hp, -, Hr⟩
    isplitl [Hr]; · iexact Hr
    iexact Hp
  hout c := by
    rw [Pipeline.ownSems0_none]
    refine (hout2 (Wr7 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (Wr7 m c) (Wr8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/- Region 3 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 as a segment: from every unscoped buffer at W8 beside R, to every unscoped buffer at W9 beside R. -/
def reg3 : Pipeline.RegionSeg (pcfgs (F := F)) GenP.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (Wr8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (Wr8 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (Wr8 m c) (A_eq3 (Wr8 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (Wr8 m c) (Wr9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/- Region 4 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 as a segment: from every unscoped buffer at W10 beside R, to every unscoped buffer at W11 beside R. -/
def reg4 : Pipeline.RegionSeg (pcfgs (F := F)) GenP.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (Wr10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (Wr10 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (Wr10 m c) (A_eq4 (Wr10 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (Wr10 m c) (Wr11 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
/- Region 5 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 as a segment: from every unscoped buffer at W12 beside R, to every unscoped buffer at W13 beside R. -/
def reg5 : Pipeline.RegionSeg (pcfgs (F := F)) GenP.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (Wr12 m) c).loose
  hwaits := Pipeline.hwaits_of_owed_zero _ _ _ _ L lv 5 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec5 c (Wr12 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (Wr12 m c) (A_eq5 (Wr12 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (Wr12 m c) (Wr13 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
/- Region 6 of @main over the thread state: entered from every unscoped buffer at the contents before it, left at the
   contents after it. Its windowed arrays are split out of the unscoped buffers at entry and put back at exit at the
   contents the pipeline's write-backs leave; the generator register and the scoped rest go into the region's own invariant (which carries the running
   maximum and sum across the points) and come back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6 as a segment: from every unscoped buffer at W16 beside R, to every unscoped buffer at W17 beside R. -/
def reg6 : Pipeline.RegionSeg (pcfgs (F := F)) GenP.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (Wr16 m) c).loose
  hwaits := Pipeline.hwaits_of_owed_zero _ _ _ _ L lv 6 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec6 c (Wr16 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (Wr16 m c) (A_eq6 (Wr16 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec6 c : sProp 𝕄)).trans (hin6 (Wr16 m) c)
    unfold Pipeline.ΦA
    iintro ⟨Hp, -, Hr⟩
    isplitl [Hr]; · iexact Hr
    iexact Hp
  hout c := by
    rw [Pipeline.ownSems0_none]
    refine (hout6 (Wr16 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (Wr16 m c) (Wr17 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg7.lean ====
/- Region 7 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7 as a segment: from every unscoped buffer at W17 beside R, to every unscoped buffer at W18 beside R. -/
def reg7 : Pipeline.RegionSeg (pcfgs (F := F)) GenP.adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (Wr17 m) c).loose
  hwaits := Pipeline.hwaits_of_owed_zero _ _ _ _ L lv 7 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec7 c (Wr17 m c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (Wr17 m c) (A_eq7 (Wr17 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (Wr17 m c) (Wr18 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg8.lean ====
/- Region 8 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 as a segment: from every unscoped buffer at W19 beside R, to every unscoped buffer at W20 beside R. -/
def reg8 : Pipeline.RegionSeg (pcfgs (F := F)) GenP.adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (Wr19 m) c).loose
  hwaits := Pipeline.hwaits_of_owed_zero _ _ _ _ L lv 8 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec8 c (Wr19 m c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (Wr19 m c) (A_eq8 (Wr19 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (Wr19 m c) (Wr20 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg9.lean ====
/- Region 9 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 9 as a segment: from every unscoped buffer at W21 beside R, to every unscoped buffer at W22 beside R. -/
def reg9 : Pipeline.RegionSeg (pcfgs (F := F)) GenP.adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (Wr21 m) c).loose
  hwaits := Pipeline.hwaits_of_owed_zero _ _ _ _ L lv 9 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec9 c (Wr21 m c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (Wr21 m c) (A_eq9 (Wr21 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (Wr21 m c) (Wr22 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg10.lean ====
/- Region 10 of @main over the thread state: entered from every unscoped buffer at the contents before it, left at the
   contents after it. Its windowed arrays are split out of the unscoped buffers at entry and put back at exit at the
   contents the pipeline's write-backs leave; the generator register and the scoped rest go into the region's own invariant (which carries the running
   maximum and sum across the points) and come back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 10 as a segment: from every unscoped buffer at W25 beside R, to every unscoped buffer at W26 beside R. -/
def reg10 : Pipeline.RegionSeg (pcfgs (F := F)) GenP.adm (pdats m) () defs₀ Variants.none L lv 10 where
  win := launch10.win.to₀
  block_pos := launch10.block_pos
  stage_whole := launch10.stage_whole
  K := PEmpty
  osem k := k.elim
  ho := Pipeline.OwnSemFacts.none _
  hbody c := (body_obligation10 (Wr25 m) c).loose
  hwaits := Pipeline.hwaits_of_owed_zero _ _ _ _ L lv 10 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (Wr25 m c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (Wr25 m c) (A_eq10 (Wr25 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec10 c : sProp 𝕄)).trans (hin10 (Wr25 m) c)
    unfold Pipeline.ΦA
    iintro ⟨Hp, -, Hr⟩
    isplitl [Hr]; · iexact Hr
    iexact Hp
  hout c := by
    rw [Pipeline.ownSems0_none]
    refine (hout10 (Wr25 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (Wr25 m c) (Wr26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg11.lean ====
/- Region 11 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 11 as a segment: from every unscoped buffer at W26 beside R, to every unscoped buffer at W27 beside R. -/
def reg11 : Pipeline.RegionSeg (pcfgs (F := F)) GenP.adm (pdats m) () defs₀ Variants.none L lv 11 where
  win := launch11.win.to₀
  block_pos := launch11.block_pos
  stage_whole := launch11.stage_whole
  K := PEmpty
  osem k := k.elim
  ho := Pipeline.OwnSemFacts.none _
  hbody c := (body_obligation11 (Wr26 m) c).loose
  hwaits := Pipeline.hwaits_of_owed_zero _ _ _ _ L lv 11 fun _ _ => rfl
  pre c := iprop(StableHlo.held (c : Thread nD τ) (Pipeline.ucRefs τ sig) (W26 m c) ∗ R c)
  post c := iprop(StableHlo.held (c : Thread nD τ) (Pipeline.ucRefs τ sig) (W27 m c) ∗ R c)
  X c := iprop(∃ r, prngReg c r)
  Y c := iprop(∃ r, prngReg c r)
  Z c := Pipeline.unscopedRest (Ix := Unit) (Name := ℕ) (U := UR sig nD τ) (Lvl := ℕ) spec11 c (Wr26 m c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (Wr26 m c) (A_eq11 (Wr26 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (Wr26 m c) (Wr27 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg12.lean ====
/- Region 12 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 12 as a segment: from every unscoped buffer at W28 beside R, to every unscoped buffer at W29 beside R. -/
def reg12 : Pipeline.RegionSeg (pcfgs (F := F)) GenP.adm (pdats m) () defs₀ Variants.none L lv 12 where
  win := launch12.win.to₀
  block_pos := launch12.block_pos
  stage_whole := launch12.stage_whole
  K := PEmpty
  osem k := k.elim
  ho := Pipeline.OwnSemFacts.none _
  hbody c := (body_obligation12 (Wr28 m) c).loose
  hwaits := Pipeline.hwaits_of_owed_zero _ _ _ _ L lv 12 fun _ _ => rfl
  pre c := iprop(StableHlo.held (c : Thread nD τ) (Pipeline.ucRefs τ sig) (W28 m c) ∗ R c)
  post c := iprop(StableHlo.held (c : Thread nD τ) (Pipeline.ucRefs τ sig) (W29 m c) ∗ R c)
  X c := iprop(∃ r, prngReg c r)
  Y c := iprop(∃ r, prngReg c r)
  Z c := Pipeline.unscopedRest (Ix := Unit) (Name := ℕ) (U := UR sig nD τ) (Lvl := ℕ) spec12 c (Wr28 m c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (Wr28 m c) (A_eq12 (Wr28 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (Wr28 m c) (Wr29 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg13.lean ====
/- Region 13 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 13 as a segment: from every unscoped buffer at W30 beside R, to every unscoped buffer at W31 beside R. -/
def reg13 : Pipeline.RegionSeg (pcfgs (F := F)) GenP.adm (pdats m) () defs₀ Variants.none L lv 13 where
  win := launch13.win.to₀
  block_pos := launch13.block_pos
  stage_whole := launch13.stage_whole
  K := PEmpty
  osem k := k.elim
  ho := Pipeline.OwnSemFacts.none _
  hbody c := (body_obligation13 (Wr30 m) c).loose
  hwaits := Pipeline.hwaits_of_owed_zero _ _ _ _ L lv 13 fun _ _ => rfl
  pre c := iprop(StableHlo.held (c : Thread nD τ) (Pipeline.ucRefs τ sig) (W30 m c) ∗ R c)
  post c := iprop(StableHlo.held (c : Thread nD τ) (Pipeline.ucRefs τ sig) (W31 m c) ∗ R c)
  X c := iprop(∃ r, prngReg c r)
  Y c := iprop(∃ r, prngReg c r)
  Z c := Pipeline.unscopedRest (Ix := Unit) (Name := ℕ) (U := UR sig nD τ) (Lvl := ℕ) spec13 c (Wr30 m c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (Wr30 m c) (A_eq13 (Wr30 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (Wr30 m c) (Wr31 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg14.lean ====
/- Region 14 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.K.Chain
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 14 as a segment: from every unscoped buffer at W32 beside R, to every unscoped buffer at W33 beside R. -/
def reg14 : Pipeline.RegionSeg (pcfgs (F := F)) GenP.adm (pdats m) () defs₀ Variants.none L lv 14 where
  win := launch14.win.to₀
  block_pos := launch14.block_pos
  stage_whole := launch14.stage_whole
  K := PEmpty
  osem k := k.elim
  ho := Pipeline.OwnSemFacts.none _
  hbody c := (body_obligation14 (Wr32 m) c).loose
  hwaits := Pipeline.hwaits_of_owed_zero _ _ _ _ L lv 14 fun _ _ => rfl
  pre c := iprop(StableHlo.held (c : Thread nD τ) (Pipeline.ucRefs τ sig) (W32 m c) ∗ R c)
  post c := iprop(StableHlo.held (c : Thread nD τ) (Pipeline.ucRefs τ sig) (W33 m c) ∗ R c)
  X c := iprop(∃ r, prngReg c r)
  Y c := iprop(∃ r, prngReg c r)
  Z c := Pipeline.unscopedRest (Ix := Unit) (Name := ℕ) (U := UR sig nD τ) (Lvl := ℕ) spec14 c (Wr32 m c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (Wr32 m c) (A_eq14 (Wr32 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (Wr32 m c) (Wr33 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/- The run of @main: the fifteen regions' segments and the host stretches between them chained from the launch to the
   return. Every weakly fair execution from a memory with zero counters terminates, and every final memory holds
   each unscoped buffer at the last boundary's contents; from that, the result array at what the last pipeline's
   write-backs leave and every argument array as launched. Generic in the float family. -/
import proofs.«417395_j71579924955534_2_alg».proof.Proof.K.Chain
import proofs.«417395_j71579924955534_2_alg».proof.Proof.K.Seg0
import proofs.«417395_j71579924955534_2_alg».proof.Proof.K.Seg1
import proofs.«417395_j71579924955534_2_alg».proof.Proof.K.Seg2
import proofs.«417395_j71579924955534_2_alg».proof.Proof.K.Seg3
import proofs.«417395_j71579924955534_2_alg».proof.Proof.K.Seg4
import proofs.«417395_j71579924955534_2_alg».proof.Proof.K.Seg5
import proofs.«417395_j71579924955534_2_alg».proof.Proof.K.Seg6
import proofs.«417395_j71579924955534_2_alg».proof.Proof.K.Seg7
import proofs.«417395_j71579924955534_2_alg».proof.Proof.K.Seg8
import proofs.«417395_j71579924955534_2_alg».proof.Proof.K.Seg9
import proofs.«417395_j71579924955534_2_alg».proof.Proof.K.Seg10
import proofs.«417395_j71579924955534_2_alg».proof.Proof.K.Seg11
import proofs.«417395_j71579924955534_2_alg».proof.Proof.K.Seg12
import proofs.«417395_j71579924955534_2_alg».proof.Proof.K.Seg13
import proofs.«417395_j71579924955534_2_alg».proof.Proof.K.Seg14
import Idealize.ShloMosaic.Lib.Pipeline.Regions
import Idealize.ShloMosaic.Lib.Pipeline.RegionsLoop
import Idealize.ShloMosaic.Lib.Pipeline.Frame

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-- The rest beside the buffers is the same between any two items. -/
abbrev E : Fin 16 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Equal contents, equal thread states. -/
theorem held_congr {c : Dev nD} {V V' : Valuation τ sig (Elt F)} (h : V = V') (P : sProp 𝕄) :
    iprop(StableHlo.held (c : Thread nD τ) (Pipeline.ucRefs τ sig) V ∗ P) ⊢ iprop(StableHlo.held (c : Thread nD τ) (Pipeline.ucRefs τ sig) V' ∗ P) := by
  subst h; exact .rfl

set_option backward.isDefEq.respectTransparency.types false in
/-- Every weakly fair execution of @main from memory m with zero counters terminates, and every final memory holds each
    unscoped buffer of each core at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W33 m c b) := by
  have hlast : ∀ c : Dev nD, iprop(StableHlo.held (c : Thread nD τ) (Pipeline.ucRefs τ sig) (V33 m (outsW m) c) ∗ R c)
      ⊢ (iprop((StableHlo.held (c : Thread nD τ) (Pipeline.ucRefs τ sig) (W33 m c) ∗ ∃ r, prngReg c r)
          ∗ ∃ W, owes (c : Thread nD τ) (0 : CellTallies nD τ sig Unit) W) : sProp 𝕄) := fun c => by
    rw [V33_eq]
    iintro ⟨Hh, Hp, HO⟩
    isplitl [Hh Hp]
    · isplitl [Hh] <;> iassumption
    iexact HO
  refine Pipeline.θ_run_regions_kit_dev (pcfgs (F := F)) adm (pdats m) () cellOf_inj emb₁ defs₀ Variants.none L lv m ρ main
    (segs m (outsW m) Variants.none L lv (E (F := F)) () (pdats m) (reg0 m) (reg1 m) (reg2 m) (reg3 m) (reg4 m) (reg5 m) (reg6 m) (reg7 m) (reg8 m) (reg9 m) (reg10 m) (reg11 m) (reg12 m) (reg13 m) (reg14 m))
    (fun c Q => by
      rewrite [main_chain c, Seg.run_eq_chain,
        show (segs m (outsW m) Variants.none L lv (E (F := F)) () (pdats m) (reg0 m) (reg1 m) (reg2 m) (reg3 m) (reg4 m) (reg5 m) (reg6 m) (reg7 m) (reg8 m) (reg9 m) (reg10 m) (reg11 m) (reg12 m) (reg13 m) (reg14 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          StableHlo.seq hostOps10_2,
          Prog.lift (.customCall (Pipeline.entry 10) ()),
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()) ] from rfl]
      with_reducible exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W33 m c) ∗ ∃ r, prngReg c r))
    (hch := fun c => ⟨.rfl,
      held_congr (V1_eq m c) (R c),
      held_congr (V2_eq m c).symm (R c),
      held_congr (V3_eq m c) (R c),
      held_congr (V4_eq m c).symm (R c),
      .rfl,
      .rfl,
      held_congr (V7_eq m c) (R c),
      (held_congr (V8_eq m c).symm (R c)).trans (held_congr (V8_eq m c) (R c)),
      held_congr (V9_eq m c).symm (R c),
      held_congr (V10_eq m c) (R c),
      held_congr (V11_eq m c).symm (R c),
      held_congr (V12_eq m c) (R c),
      held_congr (V13_eq m c).symm (R c),
      .rfl,
      .rfl,
      held_congr (V16_eq m c) (R c),
      (held_congr (V17_eq m c).symm (R c)).trans (held_congr (V17_eq m c) (R c)),
      held_congr (V18_eq m c).symm (R c),
      held_congr (V19_eq m c) (R c),
      held_congr (V20_eq m c).symm (R c),
      held_congr (V21_eq m c) (R c),
      held_congr (V22_eq m c).symm (R c),
      .rfl,
      .rfl,
      held_congr (V25_eq m c) (R c),
      (held_congr (V26_eq m c).symm (R c)).trans (held_congr (V26_eq m c) (R c)),
      held_congr (V27_eq m c).symm (R c),
      held_congr (V28_eq m c) (R c),
      held_congr (V29_eq m c).symm (R c),
      held_congr (V30_eq m c) (R c),
      held_congr (V31_eq m c).symm (R c),
      held_congr (V32_eq m c) (R c),
      (held_congr (V33_eq m c).symm (R c)).trans (hlast c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m c b)
    (hfin := fun c s' => by
      iintro ⟨⟨Hh, -⟩, HSI⟩
      unfold StableHlo.held
      imodintro
      iapply (pointsTo_read_all (Pipeline.ucRefs τ sig) (fun b => (((c : Thread nD τ)).1, b)) (W33 m c) s')
      isplitl [Hh] <;> iassumption)
    (hQ := fun _ h => h)

/-- Under the run's post, the result array holds what the last pipeline's write-backs leave. -/
theorem result_eq (r : PUnit × MemSt nD τ sig (Elt F))
    (h : ∀ c : Dev nD, ∀ b ∈ Pipeline.ucRefs τ sig, r.2.mem (((c : Thread nD τ)).1, b) = W33 m c b) (c : Dev nD) :
    r.2.mem ((c.tc : Thread nD τ).loc main_v85) = (dat14 (Wr32 m) c).arrAt 3 cfg14.N :=
  (h c _ (mem_uc main_v85 (by decide))).trans (W33_out m c)

/-- An argument array at the last boundary holds its launch contents: no host stretch writes it, no region may change it. -/
theorem W33_arg (c : Dev nD) (r : Ref sig .tc) (hr : V33 m (outsW m) c r = m ((c : Thread nD τ).loc r)) :
    W33 m c r = m ((c : Thread nD τ).loc r) :=
  (congrFun (V33_eq m c) (Proc.devRef .tc r)).symm.trans hr

/-- The run with the result array and the argument arrays read off: the result at the last boundary's contents, every
    argument as launched. -/
theorem run_value (ρ : Dev nD → PrngReg) :
    θ_run defs (onTc (τ := τ) (main (F := F))) ⟨m, fun _ => 0, ρ⟩ (fun r => ∀ c : Dev nD,
      r.2.mem ((c.tc : Thread nD τ).loc main_v85) = W33 m c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs (onTc (τ := τ) (main (F := F))) ⟨m, fun _ => 0, ρ⟩).monotone
    (fun r h c => ⟨h c _ (mem_uc main_v85 (by decide)),
      (h c _ (mem_uc main_arg0 (by decide))).trans (W33_arg m c main_arg0 (V33_main_arg0 m (outsW m) c)),
      (h c _ (mem_uc main_arg1 (by decide))).trans (W33_arg m c main_arg1 (V33_main_arg1 m (outsW m) c)),
      (h c _ (mem_uc main_arg2 (by decide))).trans (W33_arg m c main_arg2 (V33_main_arg2 m (outsW m) c)),
      (h c _ (mem_uc main_arg3 (by decide))).trans (W33_arg m c main_arg3 (V33_main_arg3 m (outsW m) c)),
      (h c _ (mem_uc main_arg4 (by decide))).trans (W33_arg m c main_arg4 (V33_main_arg4 m (outsW m) c)),
      (h c _ (mem_uc main_arg5 (by decide))).trans (W33_arg m c main_arg5 (V33_main_arg5 m (outsW m) c)),
      (h c _ (mem_uc main_arg6 (by decide))).trans (W33_arg m c main_arg6 (V33_main_arg6 m (outsW m) c)),
      (h c _ (mem_uc main_arg7 (by decide))).trans (W33_arg m c main_arg7 (V33_main_arg7 m (outsW m) c)),
      (h c _ (mem_uc main_arg8 (by decide))).trans (W33_arg m c main_arg8 (V33_main_arg8 m (outsW m) c)),
      (h c _ (mem_uc main_arg9 (by decide))).trans (W33_arg m c main_arg9 (V33_main_arg9 m (outsW m) c)),
      (h c _ (mem_uc main_arg10 (by decide))).trans (W33_arg m c main_arg10 (V33_main_arg10 m (outsW m) c)),
      (h c _ (mem_uc main_arg11 (by decide))).trans (W33_arg m c main_arg11 (V33_main_arg11 m (outsW m) c)),
      (h c _ (mem_uc main_arg12 (by decide))).trans (W33_arg m c main_arg12 (V33_main_arg12 m (outsW m) c)),
      (h c _ (mem_uc main_arg13 (by decide))).trans (W33_arg m c main_arg13 (V33_main_arg13 m (outsW m) c)),
      (h c _ (mem_uc main_arg14 (by decide))).trans (W33_arg m c main_arg14 (V33_main_arg14 m (outsW m) c))⟩)
    (run_all m ρ)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs (onTc (τ := τ) (main (F := F))) ⟨m, fun _ => 0, ρ⟩).monotone (fun r h c => (h c).2) (run_value m ρ)

end Cert.Kernel.Hand

end
-- ==== Proof.KI.R0.lean ====
/- The dense call cc0__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window's staging buffer holds the rows block of the point at every point (it is fetched at each),
    for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is resident: fetched at the first point only, its block index never moves, so its staging
    buffer holds the (one) weight block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window is resident too. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S5000x12 := Rect.unit (s := S5000x12) ![0, 0] S5000x12.size inb_S5000x12_S5000x12_0_0
abbrev r0_1 : Rect S12x64 := Rect.unit (s := S12x64) ![0, 0] S12x64.size inb_S12x64_S12x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-! ## What the body leaves in the output window's buffer -/

/-- Window 3's staging buffer after the body, from the input windows' blocks: its one store, the payload of the
    three loaded blocks, over the whole buffer. -/
def out0_3 (x0 : Vec F S5000x12 .f32) (x1 : Vec F S12x64 .f32) (x2 : Vec F S1x64 .f32) : Vec F S5000x64 .f32 :=
  View.canon [⟨r0_3, k0_pay1 (View.ld x0 r0_0) (View.ld x1 r0_1) (View.ld x2 r0_2)⟩]

/-- The one store is the whole buffer, so it covers it. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The kernel body on whole staging memrefs, the inputs' at read contents and the output's at anything, runs to the
    continuation holding the inputs' as they were and the output's at out0_3 of the inputs'. -/
theorem sound_kernel0 (c : Dev nD) (E : Set ℕ) (i : grid0.Coords)
    (arg0 : Memref sig .tc .vmem S5000x12 .f32) (harg0 : arg0.IsWhole) (arg1 : Memref sig .tc .vmem S12x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x12 .f32) (x1 : Vec F S12x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__dense_kernel i arg0 harg0 arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core c: the arrays as the region finds them (V); after the body at
    point t each input's buffer at its block and the output's at out0_3 of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so sound_kernel0 applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- The dense call cc1__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window's staging buffer holds the rows block of the point at every point (it is fetched at each),
    for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window is resident: fetched at the first point only, its block index never moves, so its staging
    buffer holds the (one) weight block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window is resident too. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S5000x64 := Rect.unit (s := S5000x64) ![0, 0] S5000x64.size inb_S5000x64_S5000x64_0_0

/-! ## What the body leaves in the output window's buffer -/

/-- Window 3's staging buffer after the body, from the input windows' blocks: its one store, the payload of the
    three loaded blocks, over the whole buffer. -/
def out1_3 (x0 : Vec F S5000x64 .f32) (x1 : Vec F S64x64 .f32) (x2 : Vec F S1x64 .f32) : Vec F S5000x64 .f32 :=
  View.canon [⟨r1_3, k1_pay1 (View.ld x0 r1_0) (View.ld x1 r1_1) (View.ld x2 r1_2)⟩]

/-- The one store is the whole buffer, so it covers it. -/
theorem cover1_3 (p0 : Vec F S5000x64 .f32) (y : S5000x64.Idx) :
    ∃ pc ∈ ([⟨r1_3, p0⟩] : List (View.Piece (Elt F) S5000x64 .f32)), y ∈ pc.1.set :=
  View.cover_of_tiled [⟨r1_3, p0⟩] S5000x64.size (by rfl) y

/-! ## The body's triple -/

set_option maxHeartbeats 1000000 in
/-- The kernel body on whole staging memrefs, the inputs' at read contents and the output's at anything, runs to the
    continuation holding the inputs' as they were and the output's at out1_3 of the inputs'. -/
theorem sound_kernel1 (c : Dev nD) (E : Set ℕ) (i : grid1.Coords)
    (arg0 : Memref sig .tc .vmem S5000x64 .f32) (harg0 : arg0.IsWhole) (arg1 : Memref sig .tc .vmem S64x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__dense_kernel i arg0 harg0 arg1 harg1 arg2 harg2 arg3 harg3) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core c: the arrays as the region finds them (V); after the body at
    point t each input's buffer at its block and the output's at out1_3 of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so sound_kernel1 applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Kit.lean ====
/- The attention-score call cc2__attn_score_kernel of @main (per block of 5000 edges: the leaky-relu score of the
   two gathered feature blocks against a resident weight and bias, a running maximum and a running sum of
   exponentials carried in two one-word scratch buffers across the 250 points, copied out at the last point), at a
   parameter V: the TensorCore's buffer contents when the region is entered. This module holds what the three
   control cases share: each window's block at a point, the input windows' staging contents, the two branch
   conditions in closed form over the grid, where the two last-point outputs are idle, and the region invariant
   opened at the two scratch buffers. Generic in the float family. -/
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first feature window's staging buffer holds the point's block at every point (it is fetched at each), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second feature window's staging buffer holds the point's block at every point (it is fetched at each), for any proof data whose array is V's and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight window is resident: fetched at the first point only, its block index never moves, so its staging buffer holds the one weight block at every point, for any proof data whose array is V's and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias window is resident: fetched at the first point only, its staging buffer holds the one bias word at every point, for any proof data whose array is V's and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The condition of the reset branch, from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the copy-out branch, from the grid coordinate. -/
abbrev cond2_1 (i : grid2.Coords) : Prop := k2_cond2 i = 1#1
/-- It holds at the last point only. -/
theorem hcond2_1 : ∀ t : Fin cfg2.N, cond2_1 (grid2.coords t) ↔ t.val = 249 :=
  (by decide +kernel : ∀ t : Fin grid2.N, cond2_1 (grid2.coords t) ↔ t.val = 249)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Away from the last point the maximum's output window is idle and not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
/-- Away from the last point the sum's output window is idle and not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The staging and scratch memrefs -/

/-- One staging buffer of each output window, through which its contents are stated (the choice does not matter). -/
abbrev VO2_4 : View sig .tc .vmem S5000x1 .f32 := (Memref.whole cc2_stg4_0 : Memref sig .tc .vmem S5000x1 .f32).view
abbrev VO2_5 : View sig .tc .vmem S1x1 .f32 := (Memref.whole cc2_stg5_0 : Memref sig .tc .vmem S1x1 .f32).view
abbrev VO2_6 : View sig .tc .vmem S1x1 .f32 := (Memref.whole cc2_stg6_0 : Memref sig .tc .vmem S1x1 .f32).view
/-- Each window's current staging memref at point t, spelled as the pipeline passes it, and its wholeness. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
/-- The two scratch operands: whole scoped buffers of the call's own, passed beside the windows; the running maximum
    and the running sum. -/
abbrev scM2_0 : Memref sig .tc .vmem S1x1 .f32 := Memref.whole cc2_scratch0
abbrev scM2_1 : Memref sig .tc .vmem S1x1 .f32 := Memref.whole cc2_scratch1
abbrev VS2_0 : View sig .tc .vmem S1x1 .f32 := scM2_0.view
abbrev VS2_1 : View sig .tc .vmem S1x1 .f32 := scM2_1.view

/-- Every other scoped buffer of the core, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The launch's invariant with the two scratch operands as memrefs owned at some contents, the other scoped
    buffers unopened: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

end Cert.KernelIdeal.Hand

end
-- ==== Proof.KI.R2RunA.lean ====
/- The attention-score call's whole body at the first point (the reset branch taken, the copy-out branch not): what
   its stores leave in the score window's staging buffer and in the two scratch buffers, as pieces the run finds,
   with the body's triple. -/
import proofs.«417395_j71579924955534_2_alg».proof.Proof.KI.R2Kit

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: on whole memrefs, the inputs' at their contents, the score output's at anything, the two
    last-point outputs' at contents handed back untouched, the two scratch buffers at anything (the body resets
    them), the body runs to the continuation holding the inputs' as they were, the score buffer and the two scratch
    buffers with their pieces written. -/
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc2__attn_score_kernel_eq_skeleton]; unfold cc2__attn_score_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R2RunB.lean ====
/- The attention-score call's whole body at a middle point (neither branch taken): what its stores leave in the
   score window's staging buffer and in the two scratch buffers, as pieces the run finds, with the body's triple. -/
import proofs.«417395_j71579924955534_2_alg».proof.Proof.KI.R2Kit

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: on whole memrefs, the inputs' at their contents, the score output's at anything, the two
    last-point outputs' at contents handed back untouched, the running maximum and sum at what the point before
    left, the body runs to the continuation holding the inputs' as they were, the score buffer and the two scratch
    buffers with their pieces written. -/
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc2__attn_score_kernel_eq_skeleton]; unfold cc2__attn_score_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R2RunC.lean ====
/- The attention-score call's whole body at the last point (the reset branch not taken, the copy-out branch taken):
   what its stores leave in the three output windows' staging buffers and in the two scratch buffers, as pieces the
   run finds, with the body's triple. -/
import proofs.«417395_j71579924955534_2_alg».proof.Proof.KI.R2Kit

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point: on whole memrefs, the inputs' at their contents, the three outputs' at anything, the running
    maximum and sum at what the point before left, the body runs to the continuation holding the inputs' as they
    were, the three output buffers and the two scratch buffers with their pieces written. -/
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_score_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc2__attn_score_kernel_eq_skeleton]; unfold cc2__attn_score_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R2.lean ====
/- The attention-score call cc2__attn_score_kernel of @main at a parameter V (the TensorCore's buffer contents when the
   region is entered): what each of the three control cases leaves in the outputs' staging buffers and in the two
   scratch buffers, the trajectory point by point (the running maximum and the running sum of exponentials carried in
   the scratch), the region invariant, the pipeline's proof data and its body obligation. Generic in the float family. -/
import proofs.«417395_j71579924955534_2_alg».proof.Proof.KI.R2RunA
import proofs.«417395_j71579924955534_2_alg».proof.Proof.KI.R2RunB
import proofs.«417395_j71579924955534_2_alg».proof.Proof.KI.R2RunC

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-! ### At the first point -/

/-- The pieces the body leaves in the score window's staging buffer at the first point tile it, so they cover it. -/
theorem cover2_A_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) (y : S5000x1.Idx) :
    ∃ pc ∈ (kernelRun2_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).1 S5000x1.size (by sl_kernel_rfl) y

/-- What the body leaves in the score window's staging buffer at the first point: its pieces read back. -/
def out2_A_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) : Vec F S5000x1 .f32 :=
  VO2_4.read (Elt F) (VO2_4.writes (Elt F) VO2_4.junk (kernelRun2_A c i arg1 harg1 arg2 harg2 arg3 harg3 arg4 harg4 arg5 harg5 arg6 harg6 arg7 harg7 arg8 harg8 arg9 harg9 hc0 hc1 x0 x1 x2 x3).1)

/-- The pieces the body leaves in the running maximum's scratch buffer at the first point tile it, so they cover it. -/
theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) (y : S1x1.Idx) :
    ∃ pc ∈ (kernelRun2_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).2.1 S1x1.size (by sl_kernel_rfl) y

/-- What the body leaves in the running maximum's scratch buffer at the first point: its pieces read back. -/
def sout2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) : Vec F S1x1 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x0 x1 x2 x3).2.1)

/-- The pieces the body leaves in the running sum's scratch buffer at the first point tile it, so they cover it. -/
theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) (y : S1x1.Idx) :
    ∃ pc ∈ (kernelRun2_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3).2.2.1 S1x1.size (by sl_kernel_rfl) y

/-- What the body leaves in the running sum's scratch buffer at the first point: its pieces read back. -/
def sout2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) : Vec F S1x1 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x0 x1 x2 x3).2.2.1)

/-! ### At a middle point -/

/-- The pieces the body leaves in the score window's staging buffer at a middle point tile it, so they cover it. -/
theorem cover2_B_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at a middle point: its pieces read back. -/
def out2_B_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO2_4.read (Elt F) (VO2_4.writes (Elt F) VO2_4.junk (kernelRun2_B c i arg1 harg1 arg2 harg2 arg3 harg3 arg4 harg4 arg5 harg5 arg6 harg6 arg7 harg7 arg8 harg8 arg9 harg9 hc0 hc1 x0 x1 x2 x3 xs0 xs1).1)

/-- The pieces the body leaves in the running maximum's scratch buffer at a middle point tile it, so they cover it. -/
theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the running maximum's scratch buffer at a middle point: its pieces read back. -/
def sout2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x0 x1 x2 x3 xs0 xs1).2.1)

/-- The pieces the body leaves in the running sum's scratch buffer at a middle point tile it, so they cover it. -/
theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the running sum's scratch buffer at a middle point: its pieces read back. -/
def sout2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x0 x1 x2 x3 xs0 xs1).2.2.1)

/-! ### At the last point -/

/-- The pieces the body leaves in the score window's staging buffer at the last point tile it, so they cover it. -/
theorem cover2_C_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at the last point: its pieces read back. -/
def out2_C_4 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO2_4.read (Elt F) (VO2_4.writes (Elt F) VO2_4.junk (kernelRun2_C c i arg1 harg1 arg2 harg2 arg3 harg3 arg4 harg4 arg5 harg5 arg6 harg6 arg7 harg7 arg8 harg8 arg9 harg9 hc0 hc1 x0 x1 x2 x3 xs0 xs1).1)

/-- The pieces the body leaves in the maximum's output window's staging buffer at the last point tile it, so they cover it. -/
theorem cover2_C_5 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the maximum's output window's staging buffer at the last point: its pieces read back. -/
def out2_C_5 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 hc0 hc1 x0 x1 x2 x3 xs0 xs1).2.1)

/-- The pieces the body leaves in the sum's output window's staging buffer at the last point tile it, so they cover it. -/
theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the sum's output window's staging buffer at the last point: its pieces read back. -/
def out2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x0 x1 x2 x3 xs0 xs1).2.2.1)

/-- The pieces the body leaves in the running maximum's scratch buffer at the last point tile it, so they cover it. -/
theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.2.1 S1x1.size (by sl_kernel_rfl) y

/-- What the body leaves in the running maximum's scratch buffer at the last point: its pieces read back. -/
def sout2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x0 x1 x2 x3 xs0 xs1).2.2.2.1)

/-- The pieces the body leaves in the running sum's scratch buffer at the last point tile it, so they cover it. -/
theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun2_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 xs0 xs1).2.2.2.2.1 S1x1.size (by sl_kernel_rfl) y

/-- What the body leaves in the running sum's scratch buffer at the last point: its pieces read back. -/
def sout2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the scratch hold after each point -/

/-- What an output window idle at a point is stated to hold there: nothing consults it (the window is neither
    written back there nor read at the next point). -/
def idle2_5 : Vec F S1x1 .f32 := VO2_5.read (Elt F) VO2_5.junk
def idle2_6 : Vec F S1x1 .f32 := VO2_6.read (Elt F) VO2_6.junk

/-- THE ACCUMULATION. What the three outputs' staging buffers and the two scratch buffers hold after the body at
    position n (the score block, the maximum's output, the sum's output, the running maximum, the running sum): the
    first point's case at the point's blocks; afterwards the middle or last point's case at the point's blocks and at
    the running maximum and sum the point before left. -/
def outsAt2 (c : Dev nD) : (n : ℕ) → n < cfg2.N → Vec F S5000x1 .f32 × Vec F S1x1 .f32 × Vec F S1x1 .f32 × Vec F S1x1 .f32 × Vec F S1x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), idle2_5, idle2_6, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : n + 1 = 249 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2)
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, idle2_5, idle2_6, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.1 (outsAt2 c n (Nat.lt_of_succ_lt hn)).2.2.2.2)

/-- The trajectory at the first point. -/
theorem outsAt2_A (c : Dev nD) (t : Fin cfg2.N) (h0 : t.val = 0) (h1 : ¬t.val = 249) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), idle2_5, idle2_6, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

/-- The trajectory at a middle point: that case over what the point before left in the scratch. -/
theorem outsAt2_B (c : Dev nD) (t : Fin cfg2.N) (h0 : ¬t.val = 0) (h1 : ¬t.val = 249) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, idle2_5, idle2_6, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- The trajectory at the last point: that case over what the point before left in the scratch. -/
theorem outsAt2_C (c : Dev nD) (t : Fin cfg2.N) (h0 : ¬t.val = 0) (h1 : t.val = 249) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The region invariant before position n: before the first point the launch's (every scoped buffer at anything,
    the generator register at some state); afterwards the two scratch buffers at the running maximum and sum the
    point before left, every other scoped buffer unopened, and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2) ∗ rest2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2) ∗ rest2 (F := F) c) ∗ (∃ r, prngReg c r)) := by
  cases n with
  | zero => exact absurd rfl hz
  | succ n => rfl

/-! ## The pipeline's proof data -/

/-- The proof data of the call's pipeline on core c: the arrays as the region finds them (V); after the body at point
    t each input's buffer at its block and the outputs' at the trajectory's components; the invariant PhiS2; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which case the point is in;
    the invariant hands the body the two scratch buffers at what the point before left (at anything at the first
    point) and takes them back at this point's contents; away from the last point the two last-point outputs are
    handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 250 := lt_of_lt_of_eq t.isLt (show cfg2.N = 250 from N_2)
  rw [show (dat2 V c).leavesExact 0 t = owns (c : Thread nD τ) (ms2_0 t) fullShare ((dat2 V c).after 0 t) from by
    unfold Dat.leavesExact; rw [liveAt2_0 t]]
  rw [show (dat2 V c).leavesExact 1 t = owns (c : Thread nD τ) (ms2_1 t) fullShare ((dat2 V c).after 1 t) from by
    unfold Dat.leavesExact; rw [liveAt2_1 t]]
  rw [show (dat2 V c).leavesExact 2 t = owns (c : Thread nD τ) (ms2_2 t) fullShare ((dat2 V c).after 2 t) from by
    unfold Dat.leavesExact; rw [liveAt2_2 t]]
  rw [show (dat2 V c).leavesExact 3 t = owns (c : Thread nD τ) (ms2_3 t) fullShare ((dat2 V c).after 3 t) from by
    unfold Dat.leavesExact; rw [liveAt2_3 t]]
  rw [show (dat2 V c).leavesExact 4 t = owns (c : Thread nD τ) (ms2_4 t) fullShare ((dat2 V c).after 4 t) from by
    unfold Dat.leavesExact; rw [liveAt2_4 t]]
  rw [after2_0, after2_1, after2_2, after2_3, after2_4]
  by_cases h0 : t.val = 0
  · have h1 : ¬t.val = 249 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1), Dat.leavesExact_idle (dat2 V c) 6 t (idleAt2_6 t hc1) (noFlush2_6 t hc1)]
    rw [outsAt2_A V c t h0 h1]
    unfold out2_A_4 sout2_A_0 sout2_A_1; (try dsimp only)
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ _ _ hc0 hc1 (iblk2 V c 0 t) (iblk2 V c 1 t) (iblk2 V c 2 t) (iblk2 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _ _ _ _ _)
    isplitl [H5]; · iexists _; iexact H5
    iexists _; iexact H6
  · have hz : t.val ≠ 0 := h0
    have hc0 : ¬cond2_0 (grid2.coords t) := fun h => h0 ((hcond2_0 t).mp h)
    by_cases h1 : t.val = 249
    · have hc1 : cond2_1 (grid2.coords t) := (hcond2_1 t).mpr h1
      rw [show (dat2 V c).leavesExact 5 t = owns (c : Thread nD τ) (ms2_5 t) fullShare ((dat2 V c).after 5 t) from by
        unfold Dat.leavesExact; rw [liveAt2_5 t hc1], after2_5]
      rw [show (dat2 V c).leavesExact 6 t = owns (c : Thread nD τ) (ms2_6 t) fullShare ((dat2 V c).after 6 t) from by
        unfold Dat.leavesExact; rw [liveAt2_6 t hc1], after2_6]
      rw [outsAt2_C V c t h0 h1]
      unfold out2_C_4 out2_C_5 out2_C_6 sout2_C_0 sout2_C_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ _ _ hc0 hc1 (iblk2 V c 0 t) (iblk2 V c 1 t) (iblk2 V c 2 t) (iblk2 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _)
      unfold owns; iexists _; isplitr
      swap; · iexact H6
      ipureintro; exact View.read_writes_of_cover _ _ _ _ _ (cover2_C_6 c _ _ _ _ _ _ _ _ _ _ _ _ _ _ _ _ _ _ _ _ _ _ _ _ _ _ _)
    · have hc1 : ¬cond2_1 (grid2.coords t) := fun h => h1 ((hcond2_1 t).mp h)
      rw [Dat.leavesExact_idle (dat2 V c) 5 t (idleAt2_5 t hc1) (noFlush2_5 t hc1), Dat.leavesExact_idle (dat2 V c) 6 t (idleAt2_6 t hc1) (noFlush2_6 t hc1)]
      rw [outsAt2_B V c t h0 h1]
      unfold out2_B_4 sout2_B_0 sout2_B_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ _ _ hc0 hc1 (iblk2 V c 0 t) (iblk2 V c 1 t) (iblk2 V c 2 t) (iblk2 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_B_4 c _ _ _ _ _ _ _ _ _ _ _ _ _ _ _ _ _ _ _ _ _ _ _ _ _ _ _)
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the scratch buffers' named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 250 := N_2; omega)

end Cert.KernelIdeal.Hand

end
-- ==== Proof.KI.R3.lean ====
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (the message call): the body's triple and the proof data, at any float family

The call has six windows over 250 points: the score block (window 0), the gathered feature block (window 1) and the
edge-weight block (window 2) move with the point; the global maximum (window 3) and the global sum (window 4) are single
cells that stay; the message block (window 5) is written whole at every point. Everything is stated at a parameter `V`,
the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 is an input, copied in at every point: whatever proof data has `V`'s array and a body that leaves the
    block alone finds the block of point `t` in the current buffer at point `t`. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1, likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2, likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Window 3 is one cell whose block index never moves: it is copied in at the first point only, and at a later point
    the buffer still holds what the previous point left, which is the same block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4, likewise. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's rectangles: each access is a whole buffer -/

abbrev r3_cell : Rect S1x1 := Rect.unit (s := S1x1) ![0, 0] S1x1.size inb_S1x1_S1x1_0_0
abbrev r3_col : Rect S5000x1 := Rect.unit (s := S5000x1) ![0, 0] S5000x1.size inb_S5000x1_S5000x1_0_0
abbrev r3_blk : Rect S5000x64 := Rect.unit (s := S5000x64) ![0, 0] S5000x64.size inb_S5000x64_S5000x64_0_0

/-! ## What the body leaves in the output window's buffer -/

/-- The message block from the five input blocks `x0 … x4` (score, features, edge weight, maximum, sum): the one store
    of the body, whose value is the body's arithmetic on the whole input blocks. -/
def out3_5 (x0 : Vec F S5000x1 .f32) (x1 : Vec F S5000x64 .f32) (x2 : Vec F S5000x1 .f32) (x3 : Vec F S1x1 .f32) (x4 : Vec F S1x1 .f32) :
    Vec F S5000x64 .f32 :=
  View.canon [⟨r3_blk, k3_pay1 (View.ld x3 r3_cell) (View.ld x4 r3_cell) (View.ld x0 r3_col) (View.ld x2 r3_col) (View.ld x1 r3_blk)⟩]

/-- The one store is the whole buffer, so every index of the buffer lies in it. -/
theorem cover3_5 (p0 : Vec F S5000x64 .f32) (y : S5000x64.Idx) :
    ∃ pc ∈ ([⟨r3_blk, p0⟩] : List (View.Piece (Elt F) S5000x64 .f32)), y ∈ pc.1.set :=
  View.cover_of_tiled [⟨r3_blk, p0⟩] S5000x64.size (by rfl) y

/-! ## The body's triple -/

set_option maxHeartbeats 1000000 in
/-- The body on six whole buffers, the inputs' holding `x0 … x4` and the output's anything, ends with the inputs' as they
    were and the output's at `out3_5 x0 … x4`. -/
theorem sound_kernel3 (c : Dev nD) (E : Set ℕ) (i : grid3.Coords)
    (arg0 : Memref sig .tc .vmem S5000x1 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x1 .f32) (harg3 : arg3.IsWhole)
    (arg4 : Memref sig .tc .vmem S1x1 .f32) (harg4 : arg4.IsWhole) (arg5 : Memref sig .tc .vmem S5000x64 .f32) (harg5 : arg5.IsWhole)
    (x0 : Vec F S5000x1 .f32) (x1 : Vec F S5000x64 .f32) (x2 : Vec F S5000x1 .f32) (x3 : Vec F S1x1 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__message_kernel i arg0 harg0 arg1 harg1 arg2 harg2 arg3 harg3 arg4 harg4 arg5 harg5) K := by
  simp only [cc3__message_kernel_eq_skeleton]; unfold cc3__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data -/

/-- The proof data of the region on core `c`: the arrays are `V`'s; after the body at point `t` every input's buffer holds
    its block of point `t` and the output's holds `out3_5` of those blocks; nothing is owed, the shares are whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a generic point -/

/-- What the body is entered with at point `t`: the invariant, the core's debts, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, the triple applies, the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.R4.lean ====
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4 (the finalize call): the body's triple and the proof data, at any float family

The call has six windows over 20 points: the projected block (window 0), the aggregated block (window 1) and the
residual block (window 2) move with the point; the scale row (window 3) and the shift row (window 4) are single rows
that stay; the result block (window 5) is written whole at every point. Everything is stated at a parameter `V`,
the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 is an input, copied in at every point: whatever proof data has `V`'s array and a body that leaves the
    block alone finds the block of point `t` in the current buffer at point `t`. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1, likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2, likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 is one row whose block index never moves: it is copied in at the first point only, and at a later point
    the buffer still holds what the previous point left, which is the same block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4, likewise. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's rectangles: each access is a whole buffer -/

abbrev r4_row : Rect S1x64 := Rect.unit (s := S1x64) ![0, 0] S1x64.size inb_S1x64_S1x64_0_0
abbrev r4_blk : Rect S5000x64 := Rect.unit (s := S5000x64) ![0, 0] S5000x64.size inb_S5000x64_S5000x64_0_0

/-! ## What the body leaves in the output window's buffer -/

/-- The result block from the five input blocks `x0 … x4` (projected, aggregated, residual, scale row, shift row): the one
    store of the body, whose value is the body's arithmetic on the whole input blocks. -/
def out4_5 (x0 : Vec F S5000x64 .f32) (x1 : Vec F S5000x64 .f32) (x2 : Vec F S5000x64 .f32) (x3 : Vec F S1x64 .f32) (x4 : Vec F S1x64 .f32) :
    Vec F S5000x64 .f32 :=
  View.canon [⟨r4_blk, k4_pay1 (View.ld x0 r4_blk) (View.ld x1 r4_blk) (View.ld x3 r4_row) (View.ld x4 r4_row) (View.ld x2 r4_blk)⟩]

/-- The one store is the whole buffer, so every index of the buffer lies in it. -/
theorem cover4_5 (p0 : Vec F S5000x64 .f32) (y : S5000x64.Idx) :
    ∃ pc ∈ ([⟨r4_blk, p0⟩] : List (View.Piece (Elt F) S5000x64 .f32)), y ∈ pc.1.set :=
  View.cover_of_tiled [⟨r4_blk, p0⟩] S5000x64.size (by rfl) y

/-! ## The body's triple -/

set_option maxHeartbeats 1000000 in
/-- The body on six whole buffers, the inputs' holding `x0 … x4` and the output's anything, ends with the inputs' as they
    were and the output's at `out4_5 x0 … x4`. -/
theorem sound_kernel4 (c : Dev nD) (E : Set ℕ) (i : grid4.Coords)
    (arg0 : Memref sig .tc .vmem S5000x64 .f32) (harg0 : arg0.IsWhole) (arg1 : Memref sig .tc .vmem S5000x64 .f32) (harg1 : arg1.IsWhole)
    (arg2 : Memref sig .tc .vmem S5000x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (x3 : Vec F S1x64 .f32) (x4 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out4_5 x0 x1 x2 x3 x4)) -∗ K ⟨⟩))
      ⊢ wp frame (wpE (defs₀ (F := F)) Variants.none c none) E (cc4__finalize_kernel i arg0 harg0 arg1 harg1 arg2 harg2 arg3 harg3 arg4 harg4 arg5 harg5) K := by
  simp only [cc4__finalize_kernel_eq_skeleton]; unfold cc4__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The proof data -/

/-- The proof data of the region on core `c`: the arrays are `V`'s; after the body at point `t` every input's buffer holds
    its block of point `t` and the output's holds `out4_5` of those blocks; nothing is owed, the shares are whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation at a generic point -/

/-- What the body is entered with at point `t`: the invariant, the core's debts, and each window's current buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, the triple applies, the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.R5.lean ====
/- The dense call cc5__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows window's staging buffer holds the rows block of the point at every point (it is fetched at each),
    for any proof data whose array is V's and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The weight window is resident: fetched at the first point only, its block index never moves, so its staging
    buffer holds the (one) weight block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The bias window is resident too. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each staging buffer whole -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S5000x64 := Rect.unit (s := S5000x64) ![0, 0] S5000x64.size inb_S5000x64_S5000x64_0_0

/-! ## What the body leaves in the output window's buffer -/

/-- Window 3's staging buffer after the body, from the input windows' blocks: its one store, the payload of the
    three loaded blocks, over the whole buffer. -/
def out5_3 (x0 : Vec F S5000x64 .f32) (x1 : Vec F S64x64 .f32) (x2 : Vec F S1x64 .f32) : Vec F S5000x64 .f32 :=
  View.canon [⟨r5_3, k5_pay1 (View.ld x0 r5_0) (View.ld x1 r5_1) (View.ld x2 r5_2)⟩]

/-- The one store is the whole buffer, so it covers it. -/
theorem cover5_3 (p0 : Vec F S5000x64 .f32) (y : S5000x64.Idx) :
    ∃ pc ∈ ([⟨r5_3, p0⟩] : List (View.Piece (Elt F) S5000x64 .f32)), y ∈ pc.1.set :=
  View.cover_of_tiled [⟨r5_3, p0⟩] S5000x64.size (by rfl) y

/-! ## The body's triple -/

set_option maxHeartbeats 1000000 in
/-- The kernel body on whole staging memrefs, the inputs' at read contents and the output's at anything, runs to the
    continuation holding the inputs' as they were and the output's at out5_3 of the inputs'. -/
theorem sound_kernel5 (c : Dev nD) (E : Set ℕ) (i : grid5.Coords)
    (arg0 : Memref sig .tc .vmem S5000x64 .f32) (harg0 : arg0.IsWhole) (arg1 : Memref sig .tc .vmem S64x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__dense_kernel i arg0 harg0 arg1 harg1 arg2 harg2 arg3 harg3) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of the region's pipeline on core c: the arrays as the region finds them (V); after the body at
    point t each input's buffer at its block and the output's at out5_3 of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so sound_kernel5 applies; the invariant and the
    core's owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6Kit.lean ====
/- The attention-score call cc6__attn_score_kernel of @main (per block of 5000 edges: the leaky-relu score of the
   two gathered feature blocks against a resident weight and bias, a running maximum and a running sum of
   exponentials carried in two one-word scratch buffers across the 250 points, copied out at the last point), at a
   parameter V: the TensorCore's buffer contents when the region is entered. This module holds what the three
   control cases share: each window's block at a point, the input windows' staging contents, the two branch
   conditions in closed form over the grid, where the two last-point outputs are idle, and the region invariant
   opened at the two scratch buffers. Generic in the float family. -/
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The first feature window's staging buffer holds the point's block at every point (it is fetched at each), for any proof data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The second feature window's staging buffer holds the point's block at every point (it is fetched at each), for any proof data whose array is V's and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The weight window is resident: fetched at the first point only, its block index never moves, so its staging buffer holds the one weight block at every point, for any proof data whose array is V's and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The bias window is resident: fetched at the first point only, its staging buffer holds the one bias word at every point, for any proof data whose array is V's and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's two branch conditions, in closed form over the grid -/

/-- The condition of the reset branch, from the grid coordinate. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The condition of the copy-out branch, from the grid coordinate. -/
abbrev cond6_1 (i : grid6.Coords) : Prop := k6_cond2 i = 1#1
/-- It holds at the last point only. -/
theorem hcond6_1 : ∀ t : Fin cfg6.N, cond6_1 (grid6.coords t) ↔ t.val = 249 :=
  (by decide +kernel : ∀ t : Fin grid6.N, cond6_1 (grid6.coords t) ↔ t.val = 249)

/-! ## Where the windows are idle -/

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl
/-- Away from the last point the maximum's output window is idle and not written back. -/
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5 : ∀ t : Fin cfg6.N, cond6_1 (grid6.coords t) → cfg6.idle 5 (grid6.coords t) = false := by decide +kernel
/-- Away from the last point the sum's output window is idle and not written back. -/
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
theorem liveAt6_6 : ∀ t : Fin cfg6.N, cond6_1 (grid6.coords t) → cfg6.idle 6 (grid6.coords t) = false := by decide +kernel

/-! ## The staging and scratch memrefs -/

/-- One staging buffer of each output window, through which its contents are stated (the choice does not matter). -/
abbrev VO6_4 : View sig .tc .vmem S5000x1 .f32 := (Memref.whole cc6_stg4_0 : Memref sig .tc .vmem S5000x1 .f32).view
abbrev VO6_5 : View sig .tc .vmem S1x1 .f32 := (Memref.whole cc6_stg5_0 : Memref sig .tc .vmem S1x1 .f32).view
abbrev VO6_6 : View sig .tc .vmem S1x1 .f32 := (Memref.whole cc6_stg6_0 : Memref sig .tc .vmem S1x1 .f32).view
/-- Each window's current staging memref at point t, spelled as the pipeline passes it, and its wholeness. -/
abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x1 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x1 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S5000x1 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x1 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x1 .f32 := win6_6.stage (cfg6.slots t 6)
abbrev hs6_6 (t : Fin cfg6.N) : (ms6_6 t).IsWhole := hstage6_6 ((cfg6.slots t 6).cast nbuf6_6)
/-- The two scratch operands: whole scoped buffers of the call's own, passed beside the windows; the running maximum
    and the running sum. -/
abbrev scM6_0 : Memref sig .tc .vmem S1x1 .f32 := Memref.whole cc6_scratch0
abbrev scM6_1 : Memref sig .tc .vmem S1x1 .f32 := Memref.whole cc6_scratch1
abbrev VS6_0 : View sig .tc .vmem S1x1 .f32 := scM6_0.view
abbrev VS6_1 : View sig .tc .vmem S1x1 .f32 := scM6_1.view

/-- Every other scoped buffer of the core, unopened. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- The launch's invariant with the two scratch operands as memrefs owned at some contents, the other scoped
    buffers unopened: what the body obligation hands the run and takes back. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

end Cert.KernelIdeal.Hand

end
-- ==== Proof.KI.R6RunA.lean ====
/- The attention-score call's whole body at the first point (the reset branch taken, the copy-out branch not): what
   its stores leave in the score window's staging buffer and in the two scratch buffers, as pieces the run finds,
   with the body's triple. -/
import proofs.«417395_j71579924955534_2_alg».proof.Proof.KI.R6Kit

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: on whole memrefs, the inputs' at their contents, the score output's at anything, the two
    last-point outputs' at contents handed back untouched, the two scratch buffers at anything (the body resets
    them), the body runs to the continuation holding the inputs' as they were, the score buffer and the two scratch
    buffers with their pieces written. -/
noncomputable def kernelRun6_A (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc6__attn_score_kernel_eq_skeleton]; unfold cc6__attn_score_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R6RunB.lean ====
/- The attention-score call's whole body at a middle point (neither branch taken): what its stores leave in the
   score window's staging buffer and in the two scratch buffers, as pieces the run finds, with the body's triple. -/
import proofs.«417395_j71579924955534_2_alg».proof.Proof.KI.R6Kit

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: on whole memrefs, the inputs' at their contents, the score output's at anything, the two
    last-point outputs' at contents handed back untouched, the running maximum and sum at what the point before
    left, the body runs to the continuation holding the inputs' as they were, the score buffer and the two scratch
    buffers with their pieces written. -/
noncomputable def kernelRun6_B (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc6__attn_score_kernel_eq_skeleton]; unfold cc6__attn_score_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R6RunC.lean ====
/- The attention-score call's whole body at the last point (the reset branch not taken, the copy-out branch taken):
   what its stores leave in the three output windows' staging buffers and in the two scratch buffers, as pieces the
   run finds, with the body's triple. -/
import proofs.«417395_j71579924955534_2_alg».proof.Proof.KI.R6Kit

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point: on whole memrefs, the inputs' at their contents, the three outputs' at anything, the running
    maximum and sum at what the point before left, the body runs to the continuation holding the inputs' as they
    were, the three output buffers and the two scratch buffers with their pieces written. -/
noncomputable def kernelRun6_C (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc6__attn_score_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc6__attn_score_kernel_eq_skeleton]; unfold cc6__attn_score_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R6.lean ====
/- The attention-score call cc6__attn_score_kernel of @main at a parameter V (the TensorCore's buffer contents when the
   region is entered): what each of the three control cases leaves in the outputs' staging buffers and in the two
   scratch buffers, the trajectory point by point (the running maximum and the running sum of exponentials carried in
   the scratch), the region invariant, the pipeline's proof data and its body obligation. Generic in the float family. -/
import proofs.«417395_j71579924955534_2_alg».proof.Proof.KI.R6RunA
import proofs.«417395_j71579924955534_2_alg».proof.Proof.KI.R6RunB
import proofs.«417395_j71579924955534_2_alg».proof.Proof.KI.R6RunC

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-! ### At the first point -/

/-- The pieces the body leaves in the score window's staging buffer at the first point tile it, so they cover it. -/
theorem cover6_A_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) (y : S5000x1.Idx) :
    ∃ pc ∈ (kernelRun6_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun6_A c i arg1 harg1 arg2 harg2 arg3 harg3 arg4 harg4 arg5 harg5 arg6 harg6 arg7 harg7 arg8 harg8 arg9 harg9 hc0 hc1 x0 x1 x2 x3).1 S5000x1.size (by sl_kernel_rfl) y

/-- What the body leaves in the score window's staging buffer at the first point: its pieces read back. -/
def out6_A_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) : Vec F S5000x1 .f32 :=
  VO6_4.read (Elt F) (VO6_4.writes (Elt F) VO6_4.junk (kernelRun6_A c i arg1 harg1 arg2 harg2 arg3 harg3 arg4 harg4 arg5 harg5 arg6 harg6 arg7 harg7 arg8 harg8 arg9 harg9 hc0 hc1 x0 x1 x2 x3).1)

/-- The pieces the body leaves in the running maximum's scratch buffer at the first point tile it, so they cover it. -/
theorem scover6_A_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) (y : S1x1.Idx) :
    ∃ pc ∈ (kernelRun6_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun6_A c i arg1 harg1 arg2 harg2 arg3 harg3 arg4 harg4 arg5 harg5 arg6 harg6 arg7 harg7 arg8 harg8 arg9 harg9 hc0 hc1 x0 x1 x2 x3).2.1 S1x1.size (by sl_kernel_rfl) y

/-- What the body leaves in the running maximum's scratch buffer at the first point: its pieces read back. -/
def sout6_A_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) : Vec F S1x1 .f32 :=
  VS6_0.read (Elt F) (VS6_0.writes (Elt F) VS6_0.junk (kernelRun6_A c i arg1 harg1 arg2 harg2 arg3 harg3 arg4 harg4 arg5 harg5 arg6 harg6 arg7 harg7 arg8 harg8 arg9 harg9 hc0 hc1 x0 x1 x2 x3).2.1)

/-- The pieces the body leaves in the running sum's scratch buffer at the first point tile it, so they cover it. -/
theorem scover6_A_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) (y : S1x1.Idx) :
    ∃ pc ∈ (kernelRun6_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun6_A c i arg1 harg1 arg2 harg2 arg3 harg3 arg4 harg4 arg5 harg5 arg6 harg6 arg7 harg7 arg8 harg8 arg9 harg9 hc0 hc1 x0 x1 x2 x3).2.2.1 S1x1.size (by sl_kernel_rfl) y

/-- What the body leaves in the running sum's scratch buffer at the first point: its pieces read back. -/
def sout6_A_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) : Vec F S1x1 .f32 :=
  VS6_1.read (Elt F) (VS6_1.writes (Elt F) VS6_1.junk (kernelRun6_A c i arg1 harg1 arg2 harg2 arg3 harg3 arg4 harg4 arg5 harg5 arg6 harg6 arg7 harg7 arg8 harg8 arg9 harg9 hc0 hc1 x0 x1 x2 x3).2.2.1)

/-! ### At a middle point -/

/-- The pieces the body leaves in the score window's staging buffer at a middle point tile it, so they cover it. -/
theorem cover6_B_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun6_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun6_B c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at a middle point: its pieces read back. -/
def out6_B_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO6_4.read (Elt F) (VO6_4.writes (Elt F) VO6_4.junk (kernelRun6_B c i arg1 harg1 arg2 harg2 arg3 harg3 arg4 harg4 arg5 harg5 arg6 harg6 arg7 harg7 arg8 harg8 arg9 harg9 hc0 hc1 x0 x1 x2 x3 xs0 xs1).1)

/-- The pieces the body leaves in the running maximum's scratch buffer at a middle point tile it, so they cover it. -/
theorem scover6_B_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun6_B c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the running maximum's scratch buffer at a middle point: its pieces read back. -/
def sout6_B_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS6_0.read (Elt F) (VS6_0.writes (Elt F) VS6_0.junk (kernelRun6_B c i arg1 harg1 arg2 harg2 arg3 harg3 arg4 harg4 arg5 harg5 arg6 harg6 arg7 harg7 arg8 harg8 arg9 harg9 hc0 hc1 x0 x1 x2 x3 xs0 xs1).2.1)

/-- The pieces the body leaves in the running sum's scratch buffer at a middle point tile it, so they cover it. -/
theorem scover6_B_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun6_B c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the running sum's scratch buffer at a middle point: its pieces read back. -/
def sout6_B_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS6_1.read (Elt F) (VS6_1.writes (Elt F) VS6_1.junk (kernelRun6_B c i arg1 harg1 arg2 harg2 arg3 harg3 arg4 harg4 arg5 harg5 arg6 harg6 arg7 harg7 arg8 harg8 arg9 harg9 hc0 hc1 x0 x1 x2 x3 xs0 xs1).2.2.1)

/-! ### At the last point -/

/-- The pieces the body leaves in the score window's staging buffer at the last point tile it, so they cover it. -/
theorem cover6_C_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at the last point: its pieces read back. -/
def out6_C_4 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO6_4.read (Elt F) (VO6_4.writes (Elt F) VO6_4.junk (kernelRun6_C c i arg1 harg1 arg2 harg2 arg3 harg3 arg4 harg4 arg5 harg5 arg6 harg6 arg7 harg7 arg8 harg8 arg9 harg9 hc0 hc1 x0 x1 x2 x3 xs0 xs1).1)

/-- The pieces the body leaves in the maximum's output window's staging buffer at the last point tile it, so they cover it. -/
theorem cover6_C_5 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the maximum's output window's staging buffer at the last point: its pieces read back. -/
def out6_C_5 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO6_5.read (Elt F) (VO6_5.writes (Elt F) VO6_5.junk (kernelRun6_C c i arg1 harg1 arg2 harg2 arg3 harg3 arg4 harg4 arg5 harg5 arg6 harg6 arg7 harg7 arg8 harg8 arg9 harg9 hc0 hc1 x0 x1 x2 x3 xs0 xs1).2.1)

/-- The pieces the body leaves in the sum's output window's staging buffer at the last point tile it, so they cover it. -/
theorem cover6_C_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the sum's output window's staging buffer at the last point: its pieces read back. -/
def out6_C_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO6_6.read (Elt F) (VO6_6.writes (Elt F) VO6_6.junk (kernelRun6_C c i arg1 harg1 arg2 harg2 arg3 harg3 arg4 harg4 arg5 harg5 arg6 harg6 arg7 harg7 arg8 harg8 arg9 harg9 hc0 hc1 x0 x1 x2 x3 xs0 xs1).2.2.1)

/-- The pieces the body leaves in the running maximum's scratch buffer at the last point tile it, so they cover it. -/
theorem scover6_C_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).2.2.2.1 S1x1.size (by sl_kernel_rfl) y

/-- What the body leaves in the running maximum's scratch buffer at the last point: its pieces read back. -/
def sout6_C_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS6_0.read (Elt F) (VS6_0.writes (Elt F) VS6_0.junk (kernelRun6_C c i arg1 harg1 arg2 harg2 arg3 harg3 arg4 harg4 arg5 harg5 arg6 harg6 arg7 harg7 arg8 harg8 arg9 harg9 hc0 hc1 x0 x1 x2 x3 xs0 xs1).2.2.2.1)

/-- The pieces the body leaves in the running sum's scratch buffer at the last point tile it, so they cover it. -/
theorem scover6_C_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun6_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun6_C c i arg1 harg1 arg2 harg2 arg3 harg3 arg4 harg4 arg5 harg5 arg6 harg6 arg7 harg7 arg8 harg8 arg9 harg9 hc0 hc1 x0 x1 x2 x3 xs0 xs1).2.2.2.2.1 S1x1.size (by sl_kernel_rfl) y

/-- What the body leaves in the running sum's scratch buffer at the last point: its pieces read back. -/
def sout6_C_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS6_1.read (Elt F) (VS6_1.writes (Elt F) VS6_1.junk (kernelRun6_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the scratch hold after each point -/

/-- What an output window idle at a point is stated to hold there: nothing consults it (the window is neither
    written back there nor read at the next point). -/
def idle6_5 : Vec F S1x1 .f32 := VO6_5.read (Elt F) VO6_5.junk
def idle6_6 : Vec F S1x1 .f32 := VO6_6.read (Elt F) VO6_6.junk

/-- THE ACCUMULATION. What the three outputs' staging buffers and the two scratch buffers hold after the body at
    position n (the score block, the maximum's output, the sum's output, the running maximum, the running sum): the
    first point's case at the point's blocks; afterwards the middle or last point's case at the point's blocks and at
    the running maximum and sum the point before left. -/
def outsAt6 (c : Dev nD) : (n : ℕ) → n < cfg6.N → Vec F S5000x1 .f32 × Vec F S1x1 .f32 × Vec F S1x1 .f32 × Vec F S1x1 .f32 × Vec F S1x1 .f32
  | 0, hn => (out6_A_4 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩), idle6_5, idle6_6, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩))
  | n + 1, hn =>
    if h1 : n + 1 = 249 then
      (out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, out6_C_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2)
    else
      (out6_B_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, idle6_5, idle6_6, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2.2.1 (outsAt6 c n (Nat.lt_of_succ_lt hn)).2.2.2.2)

/-- The trajectory at the first point. -/
theorem outsAt6_A (c : Dev nD) (t : Fin cfg6.N) (h0 : t.val = 0) (h1 : ¬t.val = 249) :
    outsAt6 V c t.val t.isLt = (out6_A_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t), idle6_5, idle6_6, sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t)) := by
  obtain ⟨n, hn⟩ := t
  cases n with
  | zero => exact rfl
  | succ n => exact absurd h0 (Nat.succ_ne_zero n)

/-- The trajectory at a middle point: that case over what the point before left in the scratch. -/
theorem outsAt6_B (c : Dev nD) (t : Fin cfg6.N) (h0 : ¬t.val = 0) (h1 : ¬t.val = 249) :
    outsAt6 V c t.val t.isLt = (out6_B_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, idle6_5, idle6_6, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- The trajectory at the last point: that case over what the point before left in the scratch. -/
theorem outsAt6_C (c : Dev nD) (t : Fin cfg6.N) (h0 : ¬t.val = 0) (h1 : t.val = 249) :
    outsAt6 V c t.val t.isLt = (out6_C_4 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, out6_C_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The region invariant before position n: before the first point the launch's (every scoped buffer at anything,
    the generator register at some state); afterwards the two scratch buffers at the running maximum and sum the
    point before left, every other scoped buffer unopened, and the generator register. -/
def PhiS6 (c : Dev nD) : (n : ℕ) → n ≤ cfg6.N → sProp 𝕄
  | 0, _ => Pipeline.ΦA spec6 c
  | n + 1, hn => iprop(iprop(iprop(owns (c : Thread nD τ) scM6_0 fullShare (outsAt6 V c n hn).2.2.2.1 ∗ owns (c : Thread nD τ) scM6_1 fullShare (outsAt6 V c n hn).2.2.2.2) ∗ rest6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (outsAt6 V c n hn).2.2.2.1 ∗ owns (c : Thread nD τ) scM6_1 fullShare (outsAt6 V c n hn).2.2.2.2) ∗ rest6 (F := F) c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (outsAt6 V c (n - 1) (by omega)).2.2.2.1 ∗ owns (c : Thread nD τ) scM6_1 fullShare (outsAt6 V c (n - 1) (by omega)).2.2.2.2) ∗ rest6 (F := F) c) ∗ (∃ r, prngReg c r)) := by
  cases n with
  | zero => exact absurd rfl hz
  | succ n => rfl

/-! ## The pipeline's proof data -/

/-- The proof data of the call's pipeline on core c: the arrays as the region finds them (V); after the body at point
    t each input's buffer at its block and the outputs' at the trajectory's components; the invariant PhiS6; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
    | ⟨5, _⟩ => (outsAt6 V c t.val t.isLt).2.1
    | ⟨6, _⟩ => (outsAt6 V c t.val t.isLt).2.2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at the point's position. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]
theorem after6_5 (c : Dev nD) (t : Fin cfg6.N) : (dat6 V c).after 5 t = (outsAt6 V c t.val t.isLt).2.1 := by dsimp only [dat6]
theorem after6_6 (c : Dev nD) (t : Fin cfg6.N) : (dat6 V c).after 6 t = (outsAt6 V c t.val t.isLt).2.2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4800000 in
/-- The body at any point: the inputs' memrefs hold their blocks; the closed forms say which case the point is in;
    the invariant hands the body the two scratch buffers at what the point before left (at anything at the first
    point) and takes them back at this point's contents; away from the last point the two last-point outputs are
    handed back as found; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  have hN : t.val < 250 := lt_of_lt_of_eq t.isLt (show cfg6.N = 250 from N_6)
  rw [show (dat6 V c).leavesExact 0 t = owns (c : Thread nD τ) (ms6_0 t) fullShare ((dat6 V c).after 0 t) from by
    unfold Dat.leavesExact; rw [liveAt6_0 t]]
  rw [show (dat6 V c).leavesExact 1 t = owns (c : Thread nD τ) (ms6_1 t) fullShare ((dat6 V c).after 1 t) from by
    unfold Dat.leavesExact; rw [liveAt6_1 t]]
  rw [show (dat6 V c).leavesExact 2 t = owns (c : Thread nD τ) (ms6_2 t) fullShare ((dat6 V c).after 2 t) from by
    unfold Dat.leavesExact; rw [liveAt6_2 t]]
  rw [show (dat6 V c).leavesExact 3 t = owns (c : Thread nD τ) (ms6_3 t) fullShare ((dat6 V c).after 3 t) from by
    unfold Dat.leavesExact; rw [liveAt6_3 t]]
  rw [show (dat6 V c).leavesExact 4 t = owns (c : Thread nD τ) (ms6_4 t) fullShare ((dat6 V c).after 4 t) from by
    unfold Dat.leavesExact; rw [liveAt6_4 t]]
  rw [after6_0, after6_1, after6_2, after6_3, after6_4]
  by_cases h0 : t.val = 0
  · have h1 : ¬t.val = 249 := by omega
    have hc0 : cond6_0 (grid6.coords t) := (hcond6_0 t).mpr h0
    have hc1 : ¬cond6_1 (grid6.coords t) := fun h => h1 ((hcond6_1 t).mp h)
    rw [Dat.leavesExact_idle (dat6 V c) 5 t (idleAt6_5 t hc1) (noFlush6_5 t hc1), Dat.leavesExact_idle (dat6 V c) 6 t (idleAt6_6 t hc1) (noFlush6_6 t hc1)]
    rw [outsAt6_A V c t h0 h1]
    unfold out6_A_4 sout6_A_0 sout6_A_1; (try dsimp only)
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun6_A c (grid6.coords t) _ _ _ _ _ _ _ _ _ _ _ _ _ _ _ _ _ _ hc0 hc1 (iblk6 V c 0 t) (iblk6 V c 1 t) (iblk6 V c 2 t) (iblk6 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _ _ _ _ _)
          · unfold owns; iexists _; isplitr
            swap; · iexact HS1
            ipureintro; exact View.read_writes_of_cover _ _ _ _ _ (scover6_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover6_A_4 c _ _ _ _ _ _ _ _ _ _ _ _ _ _ _ _ _ _ _ _ _ _ _ _ _)
    isplitl [H5]; · iexists _; iexact H5
    iexists _; iexact H6
  · have hz : t.val ≠ 0 := h0
    have hc0 : ¬cond6_0 (grid6.coords t) := fun h => h0 ((hcond6_0 t).mp h)
    by_cases h1 : t.val = 249
    · have hc1 : cond6_1 (grid6.coords t) := (hcond6_1 t).mpr h1
      rw [show (dat6 V c).leavesExact 5 t = owns (c : Thread nD τ) (ms6_5 t) fullShare ((dat6 V c).after 5 t) from by
        unfold Dat.leavesExact; rw [liveAt6_5 t hc1], after6_5]
      rw [show (dat6 V c).leavesExact 6 t = owns (c : Thread nD τ) (ms6_6 t) fullShare ((dat6 V c).after 6 t) from by
        unfold Dat.leavesExact; rw [liveAt6_6 t hc1], after6_6]
      rw [outsAt6_C V c t h0 h1]
      unfold out6_C_4 out6_C_5 out6_C_6 sout6_C_0 sout6_C_1; (try dsimp only)
      rw [PhiS6_castSucc V c t, PhiS6_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun6_C c (grid6.coords t) _ _ _ _ _ _ _ _ _ _ _ _ _ _ _ _ _ _ hc0 hc1 (iblk6 V c 0 t) (iblk6 V c 1 t) (iblk6 V c 2 t) (iblk6 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _ _ _ _)
            · unfold owns; iexists _; isplitr
              swap; · iexact HS1
              ipureintro; exact View.read_writes_of_cover _ _ _ _ _ (scover6_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover6_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover6_C_5 c _ _ _ _ _ _ _ _ _ _ _ _ _ _ _ _ _ _ _ _ _ _ _ _ _ _ _)
      unfold owns; iexists _; isplitr
      swap; · iexact H6
      ipureintro; exact View.read_writes_of_cover _ _ _ _ _ (cover6_C_6 c _ _ _ _ _ _ _ _ _ _ _ _ _ _ _ _ _ _ _ _ _ _ _ _ _ _ _)
    · have hc1 : ¬cond6_1 (grid6.coords t) := fun h => h1 ((hcond6_1 t).mp h)
      rw [Dat.leavesExact_idle (dat6 V c) 5 t (idleAt6_5 t hc1) (noFlush6_5 t hc1), Dat.leavesExact_idle (dat6 V c) 6 t (idleAt6_6 t hc1) (noFlush6_6 t hc1)]
      rw [outsAt6_B V c t h0 h1]
      unfold out6_B_4 sout6_B_0 sout6_B_1; (try dsimp only)
      rw [PhiS6_castSucc V c t, PhiS6_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun6_B c (grid6.coords t) _ _ _ _ _ _ _ _ _ _ _ _ _ _ _ _ _ _ hc0 hc1 (iblk6 V c 0 t) (iblk6 V c 1 t) (iblk6 V c 2 t) (iblk6 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _ _ _ _)
            · unfold owns; iexists _; isplitr
              swap; · iexact HS1
              ipureintro; exact View.read_writes_of_cover _ _ _ _ _ (scover6_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover6_B_4 c _ _ _ _ _ _ _ _ _ _ _ _ _ _ _ _ _ _ _ _ _ _ _ _ _ _ _)
      isplitl [H5]; · iexists _; iexact H5
      iexists _; iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the launch's back: the scratch buffers' named contents are
    forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 250 := N_6; omega)

end Cert.KernelIdeal.Hand

end
-- ==== Proof.KI.R7.lean ====
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7 (the message call): the body's triple and the proof data, at any float family

The call has six windows over 250 points: the score block (window 0), the gathered feature block (window 1) and the
edge-weight block (window 2) move with the point; the global maximum (window 3) and the global sum (window 4) are single
cells that stay; the message block (window 5) is written whole at every point. Everything is stated at a parameter `V`,
the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Window 0 is an input, copied in at every point: whatever proof data has `V`'s array and a body that leaves the
    block alone finds the block of point `t` in the current buffer at point `t`. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Window 1, likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Window 2, likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Window 3 is one cell whose block index never moves: it is copied in at the first point only, and at a later point
    the buffer still holds what the previous point left, which is the same block. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Window 4, likewise. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's rectangles: each access is a whole buffer -/

abbrev r7_cell : Rect S1x1 := Rect.unit (s := S1x1) ![0, 0] S1x1.size inb_S1x1_S1x1_0_0
abbrev r7_col : Rect S5000x1 := Rect.unit (s := S5000x1) ![0, 0] S5000x1.size inb_S5000x1_S5000x1_0_0
abbrev r7_blk : Rect S5000x64 := Rect.unit (s := S5000x64) ![0, 0] S5000x64.size inb_S5000x64_S5000x64_0_0

/-! ## What the body leaves in the output window's buffer -/

/-- The message block from the five input blocks `x0 … x4` (score, features, edge weight, maximum, sum): the one store
    of the body, whose value is the body's arithmetic on the whole input blocks. -/
def out7_5 (x0 : Vec F S5000x1 .f32) (x1 : Vec F S5000x64 .f32) (x2 : Vec F S5000x1 .f32) (x3 : Vec F S1x1 .f32) (x4 : Vec F S1x1 .f32) :
    Vec F S5000x64 .f32 :=
  View.canon [⟨r7_blk, k7_pay1 (View.ld x3 r7_cell) (View.ld x4 r7_cell) (View.ld x0 r7_col) (View.ld x2 r7_col) (View.ld x1 r7_blk)⟩]

/-- The one store is the whole buffer, so every index of the buffer lies in it. -/
theorem cover7_5 (p0 : Vec F S5000x64 .f32) (y : S5000x64.Idx) :
    ∃ pc ∈ ([⟨r7_blk, p0⟩] : List (View.Piece (Elt F) S5000x64 .f32)), y ∈ pc.1.set :=
  View.cover_of_tiled [⟨r7_blk, p0⟩] S5000x64.size (by rfl) y

/-! ## The body's triple -/

set_option maxHeartbeats 1000000 in
/-- The body on six whole buffers, the inputs' holding `x0 … x4` and the output's anything, ends with the inputs' as they
    were and the output's at `out7_5 x0 … x4`. -/
theorem sound_kernel7 (c : Dev nD) (E : Set ℕ) (i : grid7.Coords)
    (arg0 : Memref sig .tc .vmem S5000x1 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x1 .f32) (harg3 : arg3.IsWhole)
    (arg4 : Memref sig .tc .vmem S1x1 .f32) (harg4 : arg4.IsWhole) (arg5 : Memref sig .tc .vmem S5000x64 .f32) (harg5 : arg5.IsWhole)
    (x0 : Vec F S5000x1 .f32) (x1 : Vec F S5000x64 .f32) (x2 : Vec F S5000x1 .f32) (x3 : Vec F S1x1 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out7_5 x0 x1 x2 x3 x4)) -∗ K ⟨⟩))
      ⊢ wp frame (wpE (defs₀ (F := F)) Variants.none c none) E (cc7__message_kernel i arg0 harg0 arg1 harg1 arg2 harg2 arg3 harg3 arg4 harg4 arg5 harg5) K := by
  simp only [cc7__message_kernel_eq_skeleton]; unfold cc7__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The proof data -/

/-- The proof data of the region on core `c`: the arrays are `V`'s; after the body at point `t` every input's buffer holds
    its block of point `t` and the output's holds `out7_5` of those blocks; nothing is owed, the shares are whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation at a generic point -/

/-- What the body is entered with at point `t`: the invariant, the core's debts, and each window's current buffer. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- What it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, the triple applies, the rest passes through. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.R8.lean ====
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8 (the finalize call): the body's triple and the proof data, at any float family

The call has six windows over 20 points: the projected block (window 0), the aggregated block (window 1) and the
residual block (window 2) move with the point; the scale row (window 3) and the shift row (window 4) are single rows
that stay; the result block (window 5) is written whole at every point. Everything is stated at a parameter `V`,
the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Window 0 is an input, copied in at every point: whatever proof data has `V`'s array and a body that leaves the
    block alone finds the block of point `t` in the current buffer at point `t`. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Window 1, likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Window 2, likewise. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Window 3 is one row whose block index never moves: it is copied in at the first point only, and at a later point
    the buffer still holds what the previous point left, which is the same block. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Window 4, likewise. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's rectangles: each access is a whole buffer -/

abbrev r8_row : Rect S1x64 := Rect.unit (s := S1x64) ![0, 0] S1x64.size inb_S1x64_S1x64_0_0
abbrev r8_blk : Rect S5000x64 := Rect.unit (s := S5000x64) ![0, 0] S5000x64.size inb_S5000x64_S5000x64_0_0

/-! ## What the body leaves in the output window's buffer -/

/-- The result block from the five input blocks `x0 … x4` (projected, aggregated, residual, scale row, shift row): the one
    store of the body, whose value is the body's arithmetic on the whole input blocks. -/
def out8_5 (x0 : Vec F S5000x64 .f32) (x1 : Vec F S5000x64 .f32) (x2 : Vec F S5000x64 .f32) (x3 : Vec F S1x64 .f32) (x4 : Vec F S1x64 .f32) :
    Vec F S5000x64 .f32 :=
  View.canon [⟨r8_blk, k8_pay1 (View.ld x0 r8_blk) (View.ld x1 r8_blk) (View.ld x3 r8_row) (View.ld x4 r8_row) (View.ld x2 r8_blk)⟩]

/-- The one store is the whole buffer, so every index of the buffer lies in it. -/
theorem cover8_5 (p0 : Vec F S5000x64 .f32) (y : S5000x64.Idx) :
    ∃ pc ∈ ([⟨r8_blk, p0⟩] : List (View.Piece (Elt F) S5000x64 .f32)), y ∈ pc.1.set :=
  View.cover_of_tiled [⟨r8_blk, p0⟩] S5000x64.size (by rfl) y

/-! ## The body's triple -/

set_option maxHeartbeats 1000000 in
/-- The body on six whole buffers, the inputs' holding `x0 … x4` and the output's anything, ends with the inputs' as they
    were and the output's at `out8_5 x0 … x4`. -/
theorem sound_kernel8 (c : Dev nD) (E : Set ℕ) (i : grid8.Coords)
    (arg0 : Memref sig .tc .vmem S5000x64 .f32) (harg0 : arg0.IsWhole) (arg1 : Memref sig .tc .vmem S5000x64 .f32) (harg1 : arg1.IsWhole)
    (arg2 : Memref sig .tc .vmem S5000x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (x3 : Vec F S1x64 .f32) (x4 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out8_5 x0 x1 x2 x3 x4)) -∗ K ⟨⟩))
      ⊢ wp frame (wpE (defs₀ (F := F)) Variants.none c none) E (cc8__finalize_kernel i arg0 harg0 arg1 harg1 arg2 harg2 arg3 harg3 arg4 harg4 arg5 harg5) K := by
  simp only [cc8__finalize_kernel_eq_skeleton]; unfold cc8__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data -/

/-- The proof data of the region on core `c`: the arrays are `V`'s; after the body at point `t` every input's buffer holds
    its block of point `t` and the output's holds `out8_5` of those blocks; nothing is owed, the shares are whole. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation at a generic point -/

/-- What the body is entered with at point `t`: the invariant, the core's debts, and each window's current buffer. -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- What it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, the triple applies, the rest passes through. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.R9.lean ====
/- The dense call cc9__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The rows window's staging buffer holds the rows block of the point at every point (it is fetched at each),
    for any proof data whose array is V's and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The weight window is resident: fetched at the first point only, its block index never moves, so its staging
    buffer holds the (one) weight block at every point. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The bias window is resident too. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each staging buffer whole -/

abbrev r9_0 : Rect S5000x64 := Rect.unit (s := S5000x64) ![0, 0] S5000x64.size inb_S5000x64_S5000x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S5000x64 := Rect.unit (s := S5000x64) ![0, 0] S5000x64.size inb_S5000x64_S5000x64_0_0

/-! ## What the body leaves in the output window's buffer -/

/-- Window 3's staging buffer after the body, from the input windows' blocks: its one store, the payload of the
    three loaded blocks, over the whole buffer. -/
def out9_3 (x0 : Vec F S5000x64 .f32) (x1 : Vec F S64x64 .f32) (x2 : Vec F S1x64 .f32) : Vec F S5000x64 .f32 :=
  View.canon [⟨r9_3, k9_pay1 (View.ld x0 r9_0) (View.ld x1 r9_1) (View.ld x2 r9_2)⟩]

/-- The one store is the whole buffer, so it covers it. -/
theorem cover9_3 (p0 : Vec F S5000x64 .f32) (y : S5000x64.Idx) :
    ∃ pc ∈ ([⟨r9_3, p0⟩] : List (View.Piece (Elt F) S5000x64 .f32)), y ∈ pc.1.set :=
  View.cover_of_tiled [⟨r9_3, p0⟩] S5000x64.size (by rfl) y

/-! ## The body's triple -/

set_option maxHeartbeats 1000000 in
/-- The kernel body on whole staging memrefs, the inputs' at read contents and the output's at anything, runs to the
    continuation holding the inputs' as they were and the output's at out9_3 of the inputs'. -/
theorem sound_kernel9 (c : Dev nD) (E : Set ℕ) (i : grid9.Coords)
    (arg0 : Memref sig .tc .vmem S5000x64 .f32) (harg0 : arg0.IsWhole) (arg1 : Memref sig .tc .vmem S64x64 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out9_3 x0 x1 x2)) -∗ K ⟨⟩))
      ⊢ wp frame (wpE (defs₀ (F := F)) Variants.none c none) E (cc9__dense_kernel i arg0 harg0 arg1 harg1 arg2 harg2 arg3 harg3) K := by
  simp only [cc9__dense_kernel_eq_skeleton]; unfold cc9__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of the region's pipeline on core c: the arrays as the region finds them (V); after the body at
    point t each input's buffer at its block and the output's at out9_3 of the input blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point t, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so sound_kernel9 applies; the invariant and the
    core's owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10Kit.lean ====
/- The attention-score call cc10__attn_score_kernel of @main (per block of 5000 edges: the leaky-relu score of the
   two gathered feature blocks against a resident weight and bias, a running maximum and a running sum of
   exponentials carried in two one-word scratch buffers across the 250 points, copied out at the last point), at a
   parameter V: the TensorCore's buffer contents when the region is entered. This module holds what the three
   control cases share: each window's block at a point, the input windows' staging contents, the two branch
   conditions in closed form over the grid, where the two last-point outputs are idle, and the region invariant
   opened at the two scratch buffers. Generic in the float family. -/
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The first feature window's staging buffer holds the point's block at every point (it is fetched at each), for any proof data whose array is V's and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The second feature window's staging buffer holds the point's block at every point (it is fetched at each), for any proof data whose array is V's and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The weight window is resident: fetched at the first point only, its block index never moves, so its staging buffer holds the one weight block at every point, for any proof data whose array is V's and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- The bias window is resident: fetched at the first point only, its staging buffer holds the one bias word at every point, for any proof data whose array is V's and whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## The body's two branch conditions, in closed form over the grid -/

/-- The condition of the reset branch, from the grid coordinate. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val = 0 :=
  (by decide +kernel : ∀ t : Fin grid10.N, cond10_0 (grid10.coords t) ↔ t.val = 0)

/-- The condition of the copy-out branch, from the grid coordinate. -/
abbrev cond10_1 (i : grid10.Coords) : Prop := k10_cond2 i = 1#1
/-- It holds at the last point only. -/
theorem hcond10_1 : ∀ t : Fin cfg10.N, cond10_1 (grid10.coords t) ↔ t.val = 249 :=
  (by decide +kernel : ∀ t : Fin grid10.N, cond10_1 (grid10.coords t) ↔ t.val = 249)

/-! ## Where the windows are idle -/

theorem liveAt10_0 : ∀ t : Fin cfg10.N, cfg10.idle 0 (grid10.coords t) = false := fun _ => rfl
theorem liveAt10_1 : ∀ t : Fin cfg10.N, cfg10.idle 1 (grid10.coords t) = false := fun _ => rfl
theorem liveAt10_2 : ∀ t : Fin cfg10.N, cfg10.idle 2 (grid10.coords t) = false := fun _ => rfl
theorem liveAt10_3 : ∀ t : Fin cfg10.N, cfg10.idle 3 (grid10.coords t) = false := fun _ => rfl
theorem liveAt10_4 : ∀ t : Fin cfg10.N, cfg10.idle 4 (grid10.coords t) = false := fun _ => rfl
/-- Away from the last point the maximum's output window is idle and not written back. -/
theorem idleAt10_5 : ∀ t : Fin cfg10.N, ¬cond10_1 (grid10.coords t) → cfg10.idle 5 (grid10.coords t) = true := by decide +kernel
theorem noFlush10_5 : ∀ t : Fin cfg10.N, ¬cond10_1 (grid10.coords t) → (cfg10.win 5).flush t = false := by decide +kernel
theorem liveAt10_5 : ∀ t : Fin cfg10.N, cond10_1 (grid10.coords t) → cfg10.idle 5 (grid10.coords t) = false := by decide +kernel
/-- Away from the last point the sum's output window is idle and not written back. -/
theorem idleAt10_6 : ∀ t : Fin cfg10.N, ¬cond10_1 (grid10.coords t) → cfg10.idle 6 (grid10.coords t) = true := by decide +kernel
theorem noFlush10_6 : ∀ t : Fin cfg10.N, ¬cond10_1 (grid10.coords t) → (cfg10.win 6).flush t = false := by decide +kernel
theorem liveAt10_6 : ∀ t : Fin cfg10.N, cond10_1 (grid10.coords t) → cfg10.idle 6 (grid10.coords t) = false := by decide +kernel

/-! ## The staging and scratch memrefs -/

/-- One staging buffer of each output window, through which its contents are stated (the choice does not matter). -/
abbrev VO10_4 : View sig .tc .vmem S5000x1 .f32 := (Memref.whole cc10_stg4_0 : Memref sig .tc .vmem S5000x1 .f32).view
abbrev VO10_5 : View sig .tc .vmem S1x1 .f32 := (Memref.whole cc10_stg5_0 : Memref sig .tc .vmem S1x1 .f32).view
abbrev VO10_6 : View sig .tc .vmem S1x1 .f32 := (Memref.whole cc10_stg6_0 : Memref sig .tc .vmem S1x1 .f32).view
/-- Each window's current staging memref at point t, spelled as the pipeline passes it, and its wholeness. -/
abbrev ms10_0 (t : Fin cfg10.N) : Memref sig .tc .vmem S5000x64 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x1 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x1 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S5000x1 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S1x1 .f32 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S1x1 .f32 := win10_6.stage (cfg10.slots t 6)
abbrev hs10_6 (t : Fin cfg10.N) : (ms10_6 t).IsWhole := hstage10_6 ((cfg10.slots t 6).cast nbuf10_6)
/-- The two scratch operands: whole scoped buffers of the call's own, passed beside the windows; the running maximum
    and the running sum. -/
abbrev scM10_0 : Memref sig .tc .vmem S1x1 .f32 := Memref.whole cc10_scratch0
abbrev scM10_1 : Memref sig .tc .vmem S1x1 .f32 := Memref.whole cc10_scratch1
abbrev VS10_0 : View sig .tc .vmem S1x1 .f32 := scM10_0.view
abbrev VS10_1 : View sig .tc .vmem S1x1 .f32 := scM10_1.view

/-- Every other scoped buffer of the core, unopened. -/
abbrev rest10 (c : Dev nD) : sProp 𝕄 :=
  Pipeline.scopedRestBut (Ix := Unit) (Name := ℕ) (U := UR sig nD τ) (Lvl := ℕ) (Val := Elt F) spec10 c [cc10_scratch0, cc10_scratch1]

/-- The launch's invariant with the two scratch operands as memrefs owned at some contents, the other scoped
    buffers unopened: what the body obligation hands the run and takes back. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d)) ∗ rest10 c) ∗ (∃ r, prngReg c r)) := by
  unfold Pipeline.ΦA; rw [scopedRest10_split]; simp only [scM10_0, scM10_1, owns_whole]; try rfl

end Cert.KernelIdeal.Hand

end
-- ==== Proof.KI.R10RunA.lean ====
/- The attention-score call's whole body at the first point (the reset branch taken, the copy-out branch not): what
   its stores leave in the score window's staging buffer and in the two scratch buffers, as pieces the run finds,
   with the body's triple. -/
import proofs.«417395_j71579924955534_2_alg».proof.Proof.KI.R10Kit

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: on whole memrefs, the inputs' at their contents, the score output's at anything, the two
    last-point outputs' at contents handed back untouched, the two scratch buffers at anything (the body resets
    them), the body runs to the continuation holding the inputs' as they were, the score buffer and the two scratch
    buffers with their pieces written. -/
noncomputable def kernelRun10_A (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc10__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc10__attn_score_kernel_eq_skeleton]; unfold cc10__attn_score_kernel_skel
    simp only [k10_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R10RunB.lean ====
/- The attention-score call's whole body at a middle point (neither branch taken): what its stores leave in the
   score window's staging buffer and in the two scratch buffers, as pieces the run finds, with the body's triple. -/
import proofs.«417395_j71579924955534_2_alg».proof.Proof.KI.R10Kit

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: on whole memrefs, the inputs' at their contents, the score output's at anything, the two
    last-point outputs' at contents handed back untouched, the running maximum and sum at what the point before
    left, the body runs to the continuation holding the inputs' as they were, the score buffer and the two scratch
    buffers with their pieces written. -/
noncomputable def kernelRun10_B (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (LS0 : List (View.Piece (Elt F) S1x1 .f32)), { LS1 : List (View.Piece (Elt F) S1x1 .f32) //
      ∀ (xi5 : Vec F S1x1 .f32) (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc10__attn_score_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc10__attn_score_kernel_eq_skeleton]; unfold cc10__attn_score_kernel_skel
    simp only [k10_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R10RunC.lean ====
/- The attention-score call's whole body at the last point (the reset branch not taken, the copy-out branch taken):
   what its stores leave in the three output windows' staging buffers and in the two scratch buffers, as pieces the
   run finds, with the body's triple. -/
import proofs.«417395_j71579924955534_2_alg».proof.Proof.KI.R10Kit

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point: on whole memrefs, the inputs' at their contents, the three outputs' at anything, the running
    maximum and sum at what the point before left, the body runs to the continuation holding the inputs' as they
    were, the three output buffers and the two scratch buffers with their pieces written. -/
noncomputable def kernelRun10_C (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    Σ' (L4 : List (View.Piece (Elt F) S5000x1 .f32)) (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc10__attn_score_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc10__attn_score_kernel_eq_skeleton]; unfold cc10__attn_score_kernel_skel
    simp only [k10_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R10.lean ====
/- The attention-score call cc10__attn_score_kernel of @main at a parameter V (the TensorCore's buffer contents when the
   region is entered): what each of the three control cases leaves in the outputs' staging buffers and in the two
   scratch buffers, the trajectory point by point (the running maximum and the running sum of exponentials carried in
   the scratch), the region invariant, the pipeline's proof data and its body obligation. Generic in the float family. -/
import proofs.«417395_j71579924955534_2_alg».proof.Proof.KI.R10RunA
import proofs.«417395_j71579924955534_2_alg».proof.Proof.KI.R10RunB
import proofs.«417395_j71579924955534_2_alg».proof.Proof.KI.R10RunC

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-! ### At the first point -/

/-- The pieces the body leaves in the score window's staging buffer at the first point tile it, so they cover it. -/
theorem cover10_A_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) (y : S5000x1.Idx) :
    ∃ pc ∈ (kernelRun10_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3).1 S5000x1.size (by sl_kernel_rfl) y

/-- What the body leaves in the score window's staging buffer at the first point: its pieces read back. -/
def out10_A_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) : Vec F S5000x1 .f32 :=
  VO10_4.read (Elt F) (VO10_4.writes (Elt F) VO10_4.junk (kernelRun10_A c i arg1 harg1 arg2 harg2 arg3 harg3 arg4 harg4 arg5 harg5 arg6 harg6 arg7 harg7 arg8 harg8 arg9 harg9 hc0 hc1 x0 x1 x2 x3).1)

/-- The pieces the body leaves in the running maximum's scratch buffer at the first point tile it, so they cover it. -/
theorem scover10_A_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) (y : S1x1.Idx) :
    ∃ pc ∈ (kernelRun10_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3).2.1 S1x1.size (by sl_kernel_rfl) y

/-- What the body leaves in the running maximum's scratch buffer at the first point: its pieces read back. -/
def sout10_A_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) : Vec F S1x1 .f32 :=
  VS10_0.read (Elt F) (VS10_0.writes (Elt F) VS10_0.junk (kernelRun10_A c i arg1 harg1 arg2 harg2 arg3 harg3 arg4 harg4 arg5 harg5 arg6 harg6 arg7 harg7 arg8 harg8 arg9 harg9 hc0 hc1 x0 x1 x2 x3).2.1)

/-- The pieces the body leaves in the running sum's scratch buffer at the first point tile it, so they cover it. -/
theorem scover10_A_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) (y : S1x1.Idx) :
    ∃ pc ∈ (kernelRun10_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun10_A c i arg1 harg1 arg2 harg2 arg3 harg3 arg4 harg4 arg5 harg5 arg6 harg6 arg7 harg7 arg8 harg8 arg9 harg9 hc0 hc1 x0 x1 x2 x3).2.2.1 S1x1.size (by sl_kernel_rfl) y

/-- What the body leaves in the running sum's scratch buffer at the first point: its pieces read back. -/
def sout10_A_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) : Vec F S1x1 .f32 :=
  VS10_1.read (Elt F) (VS10_1.writes (Elt F) VS10_1.junk (kernelRun10_A c i arg1 harg1 arg2 harg2 arg3 harg3 arg4 harg4 arg5 harg5 arg6 harg6 arg7 harg7 arg8 harg8 arg9 harg9 hc0 hc1 x0 x1 x2 x3).2.2.1)

/-! ### At a middle point -/

/-- The pieces the body leaves in the score window's staging buffer at a middle point tile it, so they cover it. -/
theorem cover10_B_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun10_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at a middle point: its pieces read back. -/
def out10_B_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO10_4.read (Elt F) (VO10_4.writes (Elt F) VO10_4.junk (kernelRun10_B c i arg1 harg1 arg2 harg2 arg3 harg3 arg4 harg4 arg5 harg5 arg6 harg6 arg7 harg7 arg8 harg8 arg9 harg9 hc0 hc1 x0 x1 x2 x3 xs0 xs1).1)

/-- The pieces the body leaves in the running maximum's scratch buffer at a middle point tile it, so they cover it. -/
theorem scover10_B_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the running maximum's scratch buffer at a middle point: its pieces read back. -/
def sout10_B_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS10_0.read (Elt F) (VS10_0.writes (Elt F) VS10_0.junk (kernelRun10_B c i arg1 harg1 arg2 harg2 arg3 harg3 arg4 harg4 arg5 harg5 arg6 harg6 arg7 harg7 arg8 harg8 arg9 harg9 hc0 hc1 x0 x1 x2 x3 xs0 xs1).2.1)

/-- The pieces the body leaves in the running sum's scratch buffer at a middle point tile it, so they cover it. -/
theorem scover10_B_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun10_B c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the running sum's scratch buffer at a middle point: its pieces read back. -/
def sout10_B_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS10_1.read (Elt F) (VS10_1.writes (Elt F) VS10_1.junk (kernelRun10_B c i arg1 harg1 arg2 harg2 arg3 harg3 arg4 harg4 arg5 harg5 arg6 harg6 arg7 harg7 arg8 harg8 arg9 harg9 hc0 hc1 x0 x1 x2 x3 xs0 xs1).2.2.1)

/-! ### At the last point -/

/-- The pieces the body leaves in the score window's staging buffer at the last point tile it, so they cover it. -/
theorem cover10_C_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S5000x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).1 S5000x1.size (by sl_kernel_rfl) y

/-- What the body leaves in the score window's staging buffer at the last point: its pieces read back. -/
def out10_C_4 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S5000x1 .f32 :=
  VO10_4.read (Elt F) (VO10_4.writes (Elt F) VO10_4.junk (kernelRun10_C c i arg1 harg1 arg2 harg2 arg3 harg3 arg4 harg4 arg5 harg5 arg6 harg6 arg7 harg7 arg8 harg8 arg9 harg9 hc0 hc1 x0 x1 x2 x3 xs0 xs1).1)

/-- The pieces the body leaves in the maximum's output window's staging buffer at the last point tile it, so they cover it. -/
theorem cover10_C_5 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).2.1 S1x1.size (by sl_kernel_rfl) y

/-- What the body leaves in the maximum's output window's staging buffer at the last point: its pieces read back. -/
def out10_C_5 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO10_5.read (Elt F) (VO10_5.writes (Elt F) VO10_5.junk (kernelRun10_C c i arg1 harg1 arg2 harg2 arg3 harg3 arg4 harg4 arg5 harg5 arg6 harg6 arg7 harg7 arg8 harg8 arg9 harg9 hc0 hc1 x0 x1 x2 x3 xs0 xs1).2.1)

/-- The pieces the body leaves in the sum's output window's staging buffer at the last point tile it, so they cover it. -/
theorem cover10_C_6 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).2.2.1 S1x1.size (by sl_kernel_rfl) y

/-- What the body leaves in the sum's output window's staging buffer at the last point: its pieces read back. -/
def out10_C_6 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VO10_6.read (Elt F) (VO10_6.writes (Elt F) VO10_6.junk (kernelRun10_C c i arg1 harg1 arg2 harg2 arg3 harg3 arg4 harg4 arg5 harg5 arg6 harg6 arg7 harg7 arg8 harg8 arg9 harg9 hc0 hc1 x0 x1 x2 x3 xs0 xs1).2.2.1)

/-- The pieces the body leaves in the running maximum's scratch buffer at the last point tile it, so they cover it. -/
theorem scover10_C_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).2.2.2.1 S1x1.size (by sl_kernel_rfl) y

/-- What the body leaves in the running maximum's scratch buffer at the last point: its pieces read back. -/
def sout10_C_0 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS10_0.read (Elt F) (VS10_0.writes (Elt F) VS10_0.junk (kernelRun10_C c i arg1 harg1 arg2 harg2 arg3 harg3 arg4 harg4 arg5 harg5 arg6 harg6 arg7 harg7 arg8 harg8 arg9 harg9 hc0 hc1 x0 x1 x2 x3 xs0 xs1).2.2.2.1)

/-- The pieces the body leaves in the running sum's scratch buffer at the last point tile it, so they cover it. -/
theorem scover10_C_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) (y : S1x1.Idx) :
    ∃ pc ∈ (kernelRun10_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun10_C c i arg1 harg1 arg2 harg2 arg3 harg3 arg4 harg4 arg5 harg5 arg6 harg6 arg7 harg7 arg8 harg8 arg9 harg9 hc0 hc1 x0 x1 x2 x3 xs0 xs1).2.2.2.2.1 S1x1.size (by sl_kernel_rfl) y

/-- What the body leaves in the running sum's scratch buffer at the last point: its pieces read back. -/
def sout10_C_1 (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) : Vec F S1x1 .f32 :=
  VS10_1.read (Elt F) (VS10_1.writes (Elt F) VS10_1.junk (kernelRun10_C c i arg1 harg1 arg2 harg2 arg3 harg3 arg4 harg4 arg5 harg5 arg6 harg6 arg7 harg7 arg8 harg8 arg9 harg9 hc0 hc1 x0 x1 x2 x3 xs0 xs1).2.2.2.2.1)

/-! ## What the outputs and the scratch hold after each point -/

/-- What an output window idle at a point is stated to hold there: nothing consults it (the window is neither
    written back there nor read at the next point). -/
def idle10_5 : Vec F S1x1 .f32 := VO10_5.read (Elt F) VO10_5.junk
def idle10_6 : Vec F S1x1 .f32 := VO10_6.read (Elt F) VO10_6.junk

/-- THE ACCUMULATION. What the three outputs' staging buffers and the two scratch buffers hold after the body at
    position n (the score block, the maximum's output, the sum's output, the running maximum, the running sum): the
    first point's case at the point's blocks; afterwards the middle or last point's case at the point's blocks and at
    the running maximum and sum the point before left. -/
def outsAt10 (c : Dev nD) : (n : ℕ) → n < cfg10.N → Vec F S5000x1 .f32 × Vec F S1x1 .f32 × Vec F S1x1 .f32 × Vec F S1x1 .f32 × Vec F S1x1 .f32
  | 0, hn => (out10_A_4 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) scM10_0 (Memref.isWhole_whole _) scM10_1 (Memref.isWhole_whole _) ((hcond10_0 ⟨0, hn⟩).mpr rfl) (fun h => (fun h => by (try dsimp only at h); omega) ((hcond10_1 ⟨0, hn⟩).mp h)) (iblk10 V c 0 ⟨0, hn⟩) (iblk10 V c 1 ⟨0, hn⟩) (iblk10 V c 2 ⟨0, hn⟩) (iblk10 V c 3 ⟨0, hn⟩), idle10_5, idle10_6, sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) scM10_0 (Memref.isWhole_whole _) scM10_1 (Memref.isWhole_whole _) ((hcond10_0 ⟨0, hn⟩).mpr rfl) (fun h => (fun h => by (try dsimp only at h); omega) ((hcond10_1 ⟨0, hn⟩).mp h)) (iblk10 V c 0 ⟨0, hn⟩) (iblk10 V c 1 ⟨0, hn⟩) (iblk10 V c 2 ⟨0, hn⟩) (iblk10 V c 3 ⟨0, hn⟩), sout10_A_1 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) scM10_0 (Memref.isWhole_whole _) scM10_1 (Memref.isWhole_whole _) ((hcond10_0 ⟨0, hn⟩).mpr rfl) (fun h => (fun h => by (try dsimp only at h); omega) ((hcond10_1 ⟨0, hn⟩).mp h)) (iblk10 V c 0 ⟨0, hn⟩) (iblk10 V c 1 ⟨0, hn⟩) (iblk10 V c 2 ⟨0, hn⟩) (iblk10 V c 3 ⟨0, hn⟩))
  | n + 1, hn =>
    if h1 : n + 1 = 249 then
      (out10_C_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, out10_C_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, out10_C_6 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, sout10_C_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2)
    else
      (out10_B_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, idle10_5, idle10_6, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2, sout10_B_1 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) scM10_0 (Memref.isWhole_whole _) scM10_1 (Memref.isWhole_whole _) (fun h => Nat.succ_ne_zero n ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2.2.2.1 (outsAt10 c n (Nat.lt_of_succ_lt hn)).2.2.2.2)

/-- The trajectory at the first point. -/
theorem outsAt10_A (c : Dev nD) (t : Fin cfg10.N) (h0 : t.val = 0) (h1 : ¬t.val = 249) :
    outsAt10 V c t.val t.isLt = (out10_A_4 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) ((hcond10_0 t).mpr h0) (fun h => h1 ((hcond10_1 t).mp h)) (iblk10 V c 0 t) (iblk10 V c 1 t) (iblk10 V c 2 t) (iblk10 V c 3 t), idle10_5, idle10_6, sout10_A_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) ((hcond10_0 t).mpr h0) (fun h => h1 ((hcond10_1 t).mp h)) (iblk10 V c 0 t) (iblk10 V c 1 t) (iblk10 V c 2 t) (iblk10 V c 3 t), sout10_A_1 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) ((hcond10_0 t).mpr h0) (fun h => h1 ((hcond10_1 t).mp h)) (iblk10 V c 0 t) (iblk10 V c 1 t) (iblk10 V c 2 t) (iblk10 V c 3 t)) := by
  obtain ⟨n, hn⟩ := t
  cases n with
  | zero => exact rfl
  | succ n => exact absurd h0 (Nat.succ_ne_zero n)

/-- The trajectory at a middle point: that case over what the point before left in the scratch. -/
theorem outsAt10_B (c : Dev nD) (t : Fin cfg10.N) (h0 : ¬t.val = 0) (h1 : ¬t.val = 249) :
    outsAt10 V c t.val t.isLt = (out10_B_4 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) (fun h => h1 ((hcond10_1 t).mp h)) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, idle10_5, idle10_6, sout10_B_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) (fun h => h1 ((hcond10_1 t).mp h)) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_B_1 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) (fun h => h1 ((hcond10_1 t).mp h)) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- The trajectory at the last point: that case over what the point before left in the scratch. -/
theorem outsAt10_C (c : Dev nD) (t : Fin cfg10.N) (h0 : ¬t.val = 0) (h1 : t.val = 249) :
    outsAt10 V c t.val t.isLt = (out10_C_4 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, out10_C_5 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, out10_C_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_C_0 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_C_1 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The region invariant -/

/-- The region invariant before position n: before the first point the launch's (every scoped buffer at anything,
    the generator register at some state); afterwards the two scratch buffers at the running maximum and sum the
    point before left, every other scoped buffer unopened, and the generator register. -/
def PhiS10 (c : Dev nD) : (n : ℕ) → n ≤ cfg10.N → sProp 𝕄
  | 0, _ => Pipeline.ΦA spec10 c
  | n + 1, hn => iprop(iprop(iprop(owns (c : Thread nD τ) scM10_0 fullShare (outsAt10 V c n hn).2.2.2.1 ∗ owns (c : Thread nD τ) scM10_1 fullShare (outsAt10 V c n hn).2.2.2.2) ∗ rest10 (F := F) c) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(iprop(owns (c : Thread nD τ) scM10_0 fullShare (outsAt10 V c n hn).2.2.2.1 ∗ owns (c : Thread nD τ) scM10_1 fullShare (outsAt10 V c n hn).2.2.2.2) ∗ rest10 (F := F) c) ∗ (∃ r, prngReg c r)) := rfl

theorem PhiS10_pos (c : Dev nD) (n : ℕ) (h : n ≤ cfg10.N) (hz : n ≠ 0) :
    PhiS10 V c n h = iprop(iprop(iprop(owns (c : Thread nD τ) scM10_0 fullShare (outsAt10 V c (n - 1) (by omega)).2.2.2.1 ∗ owns (c : Thread nD τ) scM10_1 fullShare (outsAt10 V c (n - 1) (by omega)).2.2.2.2) ∗ rest10 (F := F) c) ∗ (∃ r, prngReg c r)) := by
  cases n with
  | zero => exact absurd rfl hz
  | succ n => rfl

/-! ## The pipeline's proof data -/

/-- The proof data of the call's pipeline on core c: the arrays as the region finds them (V); after the body at point
    t each input's buffer at its block and the outputs' at the trajectory's components; the invariant PhiS10; nothing
    owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => (outsAt10 V c t.val t.isLt).1
    | ⟨5, _⟩ => (outsAt10 V c t.val t.isLt).2.1
    | ⟨6, _⟩ => (outsAt10 V c t.val t.isLt).2.2.1
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at the point's position. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = (outsAt10 V c t.val t.isLt).1 := by dsimp only [dat10]
theorem after10_5 (c : Dev nD) (t : Fin cfg10.N) : (dat10 V c).after 5 t = (outsAt10 V c t.val t.isLt).2.1 := by dsimp only [dat10]
theorem after10_6 (c : Dev nD) (t : Fin cfg10.N) : (dat10 V c).after 6 t = (outsAt10 V c t.val t.isLt).2.2.1 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-! ## The body obligation, at a generic point -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t)

set_option maxHeartbeats 4800000 in
/-- The body at any point: the inputs' memrefs hold their blocks; the closed forms say which case the point is in;
    the invariant hands the body the two scratch buffers at what the point before left (at anything at the first
    point) and takes them back at this point's contents; away from the last point the two last-point outputs are
    handed back as found; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl]
  rw [show (dat10 V c).Φ t.succ = PhiS10 V c (t.val + 1) t.isLt from rfl, PhiS10_succ]
  have hN : t.val < 250 := lt_of_lt_of_eq t.isLt (show cfg10.N = 250 from N_10)
  rw [show (dat10 V c).leavesExact 0 t = owns (c : Thread nD τ) (ms10_0 t) fullShare ((dat10 V c).after 0 t) from by
    unfold Dat.leavesExact; rw [liveAt10_0 t]]
  rw [show (dat10 V c).leavesExact 1 t = owns (c : Thread nD τ) (ms10_1 t) fullShare ((dat10 V c).after 1 t) from by
    unfold Dat.leavesExact; rw [liveAt10_1 t]]
  rw [show (dat10 V c).leavesExact 2 t = owns (c : Thread nD τ) (ms10_2 t) fullShare ((dat10 V c).after 2 t) from by
    unfold Dat.leavesExact; rw [liveAt10_2 t]]
  rw [show (dat10 V c).leavesExact 3 t = owns (c : Thread nD τ) (ms10_3 t) fullShare ((dat10 V c).after 3 t) from by
    unfold Dat.leavesExact; rw [liveAt10_3 t]]
  rw [show (dat10 V c).leavesExact 4 t = owns (c : Thread nD τ) (ms10_4 t) fullShare ((dat10 V c).after 4 t) from by
    unfold Dat.leavesExact; rw [liveAt10_4 t]]
  rw [after10_0, after10_1, after10_2, after10_3, after10_4]
  by_cases h0 : t.val = 0
  · have h1 : ¬t.val = 249 := by omega
    have hc0 : cond10_0 (grid10.coords t) := (hcond10_0 t).mpr h0
    have hc1 : ¬cond10_1 (grid10.coords t) := fun h => h1 ((hcond10_1 t).mp h)
    rw [Dat.leavesExact_idle (dat10 V c) 5 t (idleAt10_5 t hc1) (noFlush10_5 t hc1), Dat.leavesExact_idle (dat10 V c) 6 t (idleAt10_6 t hc1) (noFlush10_6 t hc1)]
    rw [outsAt10_A V c t h0 h1]
    unfold out10_A_4 sout10_A_0 sout10_A_1; (try dsimp only)
    rw [PhiS10_castSucc V c t, PhiS10_zero V c _ _ h0, PhiA10_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun10_A c (grid10.coords t) _ _ _ _ _ _ _ _ _ _ _ _ _ _ _ _ _ _ hc0 hc1 (iblk10 V c 0 t) (iblk10 V c 1 t) (iblk10 V c 2 t) (iblk10 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover10_A_0 c _ _ _ _ _ _ _ _ _ _ _ _ _ _ _ _ _ _ _ _ _ _ _ _ _)
          · unfold owns; iexists _; isplitr
            swap; · iexact HS1
            ipureintro; exact View.read_writes_of_cover _ _ _ _ _ (scover10_A_1 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover10_A_4 c _ _ _ _ _ _ _ _ _ _ _ _ _ _ _ _ _ _ _ _ _ _ _ _ _)
    isplitl [H5]; · iexists _; iexact H5
    iexists _; iexact H6
  · have hz : t.val ≠ 0 := h0
    have hc0 : ¬cond10_0 (grid10.coords t) := fun h => h0 ((hcond10_0 t).mp h)
    by_cases h1 : t.val = 249
    · have hc1 : cond10_1 (grid10.coords t) := (hcond10_1 t).mpr h1
      rw [show (dat10 V c).leavesExact 5 t = owns (c : Thread nD τ) (ms10_5 t) fullShare ((dat10 V c).after 5 t) from by
        unfold Dat.leavesExact; rw [liveAt10_5 t hc1], after10_5]
      rw [show (dat10 V c).leavesExact 6 t = owns (c : Thread nD τ) (ms10_6 t) fullShare ((dat10 V c).after 6 t) from by
        unfold Dat.leavesExact; rw [liveAt10_6 t hc1], after10_6]
      rw [outsAt10_C V c t h0 h1]
      unfold out10_C_4 out10_C_5 out10_C_6 sout10_C_0 sout10_C_1; (try dsimp only)
      rw [PhiS10_castSucc V c t, PhiS10_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun10_C c (grid10.coords t) _ _ _ _ _ _ _ _ _ _ _ _ _ _ _ _ _ _ hc0 hc1 (iblk10 V c 0 t) (iblk10 V c 1 t) (iblk10 V c 2 t) (iblk10 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover10_C_0 c _ _ _ _ _ _ _ _ _ _ _ _ _ _ _ _ _ _ _ _ _ _ _ _ _ _ _)
            · unfold owns; iexists _; isplitr
              swap; · iexact HS1
              ipureintro; exact View.read_writes_of_cover _ _ _ _ _ (scover10_C_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover10_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover10_C_5 c _ _ _ _ _ _ _ _ _ _ _ _ _ _ _ _ _ _ _ _ _ _ _ _ _ _ _)
      unfold owns; iexists _; isplitr
      swap; · iexact H6
      ipureintro; exact View.read_writes_of_cover _ _ _ _ _ (cover10_C_6 c _ _ _ _ _ _ _ _ _ _ _ _ _ _ _ _ _ _ _ _ _ _ _ _ _ _ _)
    · have hc1 : ¬cond10_1 (grid10.coords t) := fun h => h1 ((hcond10_1 t).mp h)
      rw [Dat.leavesExact_idle (dat10 V c) 5 t (idleAt10_5 t hc1) (noFlush10_5 t hc1), Dat.leavesExact_idle (dat10 V c) 6 t (idleAt10_6 t hc1) (noFlush10_6 t hc1)]
      rw [outsAt10_B V c t h0 h1]
      unfold out10_B_4 sout10_B_0 sout10_B_1; (try dsimp only)
      rw [PhiS10_castSucc V c t, PhiS10_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun10_B c (grid10.coords t) _ _ _ _ _ _ _ _ _ _ _ _ _ _ _ _ _ _ hc0 hc1 (iblk10 V c 0 t) (iblk10 V c 1 t) (iblk10 V c 2 t) (iblk10 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover10_B_0 c _ _ _ _ _ _ _ _ _ _ _ _ _ _ _ _ _ _ _ _ _ _ _ _ _ _ _)
            · unfold owns; iexists _; isplitr
              swap; · iexact HS1
              ipureintro; exact View.read_writes_of_cover _ _ _ _ _ (scover10_B_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover10_B_4 c _ _ _ _ _ _ _ _ _ _ _ _ _ _ _ _ _ _ _ _ _ _ _ _ _ _ _)
      isplitl [H5]; · iexists _; iexact H5
      iexists _; iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives the launch's back: the scratch buffers' named contents are
    forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout10 (c : Dev nD) : (dat10 V c).Φ (Fin.last cfg10.N) ⊢ Pipeline.ΦA spec10 c :=
  Phi_out10 V c _ (by rw [Fin.val_last]; have : cfg10.N = 250 := N_10; omega)

end Cert.KernelIdeal.Hand

end
-- ==== Proof.KI.R11.lean ====
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 11 (the message call): the body's triple and the proof data, at any float family

The call has six windows over 250 points: the score block (window 0), the gathered feature block (window 1) and the
edge-weight block (window 2) move with the point; the global maximum (window 3) and the global sum (window 4) are single
cells that stay; the message block (window 5) is written whole at every point. Everything is stated at a parameter `V`,
the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Window 0 is an input, copied in at every point: whatever proof data has `V`'s array and a body that leaves the
    block alone finds the block of point `t` in the current buffer at point `t`. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Window 1, likewise. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Window 2, likewise. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Window 3 is one cell whose block index never moves: it is copied in at the first point only, and at a later point
    the buffer still holds what the previous point left, which is the same block. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Window 4, likewise. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's rectangles: each access is a whole buffer -/

abbrev r11_cell : Rect S1x1 := Rect.unit (s := S1x1) ![0, 0] S1x1.size inb_S1x1_S1x1_0_0
abbrev r11_col : Rect S5000x1 := Rect.unit (s := S5000x1) ![0, 0] S5000x1.size inb_S5000x1_S5000x1_0_0
abbrev r11_blk : Rect S5000x64 := Rect.unit (s := S5000x64) ![0, 0] S5000x64.size inb_S5000x64_S5000x64_0_0

/-! ## What the body leaves in the output window's buffer -/

/-- The message block from the five input blocks `x0 … x4` (score, features, edge weight, maximum, sum): the one store
    of the body, whose value is the body's arithmetic on the whole input blocks. -/
def out11_5 (x0 : Vec F S5000x1 .f32) (x1 : Vec F S5000x64 .f32) (x2 : Vec F S5000x1 .f32) (x3 : Vec F S1x1 .f32) (x4 : Vec F S1x1 .f32) :
    Vec F S5000x64 .f32 :=
  View.canon [⟨r11_blk, k11_pay1 (View.ld x3 r11_cell) (View.ld x4 r11_cell) (View.ld x0 r11_col) (View.ld x2 r11_col) (View.ld x1 r11_blk)⟩]

/-- The one store is the whole buffer, so every index of the buffer lies in it. -/
theorem cover11_5 (p0 : Vec F S5000x64 .f32) (y : S5000x64.Idx) :
    ∃ pc ∈ ([⟨r11_blk, p0⟩] : List (View.Piece (Elt F) S5000x64 .f32)), y ∈ pc.1.set :=
  View.cover_of_tiled [⟨r11_blk, p0⟩] S5000x64.size (by rfl) y

/-! ## The body's triple -/

set_option maxHeartbeats 1000000 in
/-- The body on six whole buffers, the inputs' holding `x0 … x4` and the output's anything, ends with the inputs' as they
    were and the output's at `out11_5 x0 … x4`. -/
theorem sound_kernel11 (c : Dev nD) (E : Set ℕ) (i : grid11.Coords)
    (arg0 : Memref sig .tc .vmem S5000x1 .f32) (harg0 : arg0.IsWhole) (arg1 : Memref sig .tc .vmem S5000x64 .f32) (harg1 : arg1.IsWhole)
    (arg2 : Memref sig .tc .vmem S5000x1 .f32) (harg2 : arg2.IsWhole) (arg3 : Memref sig .tc .vmem S1x1 .f32) (harg3 : arg3.IsWhole)
    (arg4 : Memref sig .tc .vmem S1x1 .f32) (harg4 : arg4.IsWhole) (arg5 : Memref sig .tc .vmem S5000x64 .f32) (harg5 : arg5.IsWhole)
    (x0 : Vec F S5000x1 .f32) (x1 : Vec F S5000x64 .f32) (x2 : Vec F S5000x1 .f32) (x3 : Vec F S1x1 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out11_5 x0 x1 x2 x3 x4)) -∗ K ⟨⟩))
      ⊢ wp frame (wpE (defs₀ (F := F)) Variants.none c none) E (cc11__message_kernel i arg0 harg0 arg1 harg1 arg2 harg2 arg3 harg3 arg4 harg4 arg5 harg5) K := by
  simp only [cc11__message_kernel_eq_skeleton]; unfold cc11__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The proof data -/

/-- The proof data of the region on core `c`: the arrays are `V`'s; after the body at point `t` every input's buffer holds
    its block of point `t` and the output's holds `out11_5` of those blocks; nothing is owed, the shares are whole. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation at a generic point -/

/-- What the body is entered with at point `t`: the invariant, the core's debts, and each window's current buffer. -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- What it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, the triple applies, the rest passes through. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.KI.R12.lean ====
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 12 (the finalize call): the body's triple and the proof data, at any float family

The call has six windows over 20 points: the projected block (window 0), the aggregated block (window 1) and the
residual block (window 2) move with the point; the scale row (window 3) and the shift row (window 4) are single rows
that stay; the result block (window 5) is written whole at every point. Everything is stated at a parameter `V`,
the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at point `t`, as a function on the block's indices, read off the window's array in `V`. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Window 0 is an input, copied in at every point: whatever proof data has `V`'s array and a body that leaves the
    block alone finds the block of point `t` in the current buffer at point `t`. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Window 1, likewise. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Window 2, likewise. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Window 3 is one row whose block index never moves: it is copied in at the first point only, and at a later point
    the buffer still holds what the previous point left, which is the same block. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Window 4, likewise. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's rectangles: each access is a whole buffer -/

abbrev r12_row : Rect S1x64 := Rect.unit (s := S1x64) ![0, 0] S1x64.size inb_S1x64_S1x64_0_0
abbrev r12_blk : Rect S5000x64 := Rect.unit (s := S5000x64) ![0, 0] S5000x64.size inb_S5000x64_S5000x64_0_0

/-! ## What the body leaves in the output window's buffer -/

/-- The result block from the five input blocks `x0 … x4` (projected, aggregated, residual, scale row, shift row): the one
    store of the body, whose value is the body's arithmetic on the whole input blocks. -/
def out12_5 (x0 : Vec F S5000x64 .f32) (x1 : Vec F S5000x64 .f32) (x2 : Vec F S5000x64 .f32) (x3 : Vec F S1x64 .f32) (x4 : Vec F S1x64 .f32) :
    Vec F S5000x64 .f32 :=
  View.canon [⟨r12_blk, k12_pay1 (View.ld x0 r12_blk) (View.ld x1 r12_blk) (View.ld x3 r12_row) (View.ld x4 r12_row) (View.ld x2 r12_blk)⟩]

/-- The one store is the whole buffer, so every index of the buffer lies in it. -/
theorem cover12_5 (p0 : Vec F S5000x64 .f32) (y : S5000x64.Idx) :
    ∃ pc ∈ ([⟨r12_blk, p0⟩] : List (View.Piece (Elt F) S5000x64 .f32)), y ∈ pc.1.set :=
  View.cover_of_tiled [⟨r12_blk, p0⟩] S5000x64.size (by rfl) y

/-! ## The body's triple -/

set_option maxHeartbeats 1000000 in
/-- The body on six whole buffers, the inputs' holding `x0 … x4` and the output's anything, ends with the inputs' as they
    were and the output's at `out12_5 x0 … x4`. -/
theorem sound_kernel12 (c : Dev nD) (E : Set ℕ) (i : grid12.Coords)
    (arg0 : Memref sig .tc .vmem S5000x64 .f32) (harg0 : arg0.IsWhole) (arg1 : Memref sig .tc .vmem S5000x64 .f32) (harg1 : arg1.IsWhole)
    (arg2 : Memref sig .tc .vmem S5000x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x64 .f32) (x3 : Vec F S1x64 .f32) (x4 : Vec F S1x64 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out12_5 x0 x1 x2 x3 x4)) -∗ K ⟨⟩))
      ⊢ wp frame (wpE (defs₀ (F := F)) Variants.none c none) E (cc12__finalize_kernel i arg0 harg0 arg1 harg1 arg2 harg2 arg3 harg3 arg4 harg4 arg5 harg5) K := by
  simp only [cc12__finalize_kernel_eq_skeleton]; unfold cc12__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The proof data -/

/-- The proof data of the region on core `c`: the arrays are `V`'s; after the body at point `t` every input's buffer holds
    its block of point `t` and the output's holds `out12_5` of those blocks; nothing is owed, the shares are whole. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12_5 (iblk12 V c 0 t) (iblk12 V c 1 t) (iblk12 V c 2 t) (iblk12 V c 3 t) (iblk12 V c 4 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation at a generic point -/

/-- What the body is entered with at point `t`: the invariant, the core's debts, and each window's current buffer. -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- What it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' buffers hold their blocks, the triple applies, the rest passes through. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.KI.R13.lean ====
/- The dense call cc13__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The rows window's staging buffer holds the rows block of the point at every point (it is fetched at each),
    for any proof data whose array is V's and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The weight window is resident: fetched at the first point only, its block index never moves, so its staging
    buffer holds the (one) weight block at every point. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The bias window is resident too. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each staging buffer whole -/

abbrev r13_0 : Rect S5000x64 := Rect.unit (s := S5000x64) ![0, 0] S5000x64.size inb_S5000x64_S5000x64_0_0
abbrev r13_1 : Rect S64x32 := Rect.unit (s := S64x32) ![0, 0] S64x32.size inb_S64x32_S64x32_0_0
abbrev r13_2 : Rect S1x32 := Rect.unit (s := S1x32) ![0, 0] S1x32.size inb_S1x32_S1x32_0_0
abbrev r13_3 : Rect S5000x32 := Rect.unit (s := S5000x32) ![0, 0] S5000x32.size inb_S5000x32_S5000x32_0_0

/-! ## What the body leaves in the output window's buffer -/

/-- Window 3's staging buffer after the body, from the input windows' blocks: its one store, the payload of the
    three loaded blocks, over the whole buffer. -/
def out13_3 (x0 : Vec F S5000x64 .f32) (x1 : Vec F S64x32 .f32) (x2 : Vec F S1x32 .f32) : Vec F S5000x32 .f32 :=
  View.canon [⟨r13_3, k13_pay1 (View.ld x0 r13_0) (View.ld x1 r13_1) (View.ld x2 r13_2)⟩]

/-- The one store is the whole buffer, so it covers it. -/
theorem cover13_3 (p0 : Vec F S5000x32 .f32) (y : S5000x32.Idx) :
    ∃ pc ∈ ([⟨r13_3, p0⟩] : List (View.Piece (Elt F) S5000x32 .f32)), y ∈ pc.1.set :=
  View.cover_of_tiled [⟨r13_3, p0⟩] S5000x32.size (by rfl) y

/-! ## The body's triple -/

set_option maxHeartbeats 1000000 in
/-- The kernel body on whole staging memrefs, the inputs' at read contents and the output's at anything, runs to the
    continuation holding the inputs' as they were and the output's at out13_3 of the inputs'. -/
theorem sound_kernel13 (c : Dev nD) (E : Set ℕ) (i : grid13.Coords)
    (arg0 : Memref sig .tc .vmem S5000x64 .f32) (harg0 : arg0.IsWhole) (arg1 : Memref sig .tc .vmem S64x32 .f32) (harg1 : arg1.IsWhole)
    (arg2 : Memref sig .tc .vmem S1x32 .f32) (harg2 : arg2.IsWhole) (arg3 : Memref sig .tc .vmem S5000x32 .f32) (harg3 : arg3.IsWhole)
    (x0 : Vec F S5000x64 .f32) (x1 : Vec F S64x32 .f32) (x2 : Vec F S1x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out13_3 x0 x1 x2)) -∗ K ⟨⟩))
      ⊢ wp frame (wpE (defs₀ (F := F)) Variants.none c none) E (cc13__dense_kernel i arg0 harg0 arg1 harg1 arg2 harg2 arg3 harg3) K := by
  simp only [cc13__dense_kernel_eq_skeleton]; unfold cc13__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-! ## The pipeline's proof data -/

/-- The proof data of the region's pipeline on core c: the arrays as the region finds them (V); after the body at
    point t each input's buffer at its block and the output's at out13_3 of the input blocks; the invariant the scoped
    rest and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point t, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks, so sound_kernel13 applies; the invariant and the
    core's owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.R14.lean ====
/- The dense call cc14__dense_kernel of @main (a block of rows times a resident weight plus a resident bias row),
   at a parameter V: the TensorCore's buffer contents when the region is entered. Each window's block at a point
   read off its array, what the body leaves in the output window's staging buffer (one whole-block store of the
   payload of the three loaded blocks), the body's triple, the pipeline's proof data and its body obligation.
   Generic in the float family. -/
import proofs.«417395_j71579924955534_2_alg».proof.Proof.Gen.KernelIdeal.Launch
import proofs.«417395_j71579924955534_2_alg».proof.Proof.Gen.KernelIdeal.Skeleton
import proofs.«417395_j71579924955534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The rows window's staging buffer holds the rows block of the point at every point (it is fetched at each),
    for any proof data whose array is V's and whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The weight window is resident: fetched at the first point only, its block index never moves, so its staging
    buffer holds the (one) weight block at every point. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The bias window is resident too. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each staging buffer whole -/

abbrev r14_0 : Rect S5000x32 := Rect.unit (s := S5000x32) ![0, 0] S5000x32.size inb_S5000x32_S5000x32_0_0
abbrev r14_1 : Rect S32x1 := Rect.unit (s := S32x1) ![0, 0] S32x1.size inb_S32x1_S32x1_0_0
abbrev r14_2 : Rect S1x1 := Rect.unit (s := S1x1) ![0, 0] S1x1.size inb_S1x1_S1x1_0_0
abbrev r14_3 : Rect S5000x1 := Rect.unit (s := S5000x1) ![0, 0] S5000x1.size inb_S5000x1_S5000x1_0_0

/-! ## What the body leaves in the output window's buffer -/

/-- Window 3's staging buffer after the body, from the input windows' blocks: its one store, the payload of the
    three loaded blocks, over the whole buffer. -/
def out14_3 (x0 : Vec F S5000x32 .f32) (x1 : Vec F S32x1 .f32) (x2 : Vec F S1x1 .f32) : Vec F S5000x1 .f32 :=
  View.canon [⟨r14_3, k14_pay1 (View.ld x0 r14_0) (View.ld x1 r14_1) (View.ld x2 r14_2)⟩]

/-- The one store is the whole buffer, so it covers it. -/
theorem cover14_3 (p0 : Vec F S5000x1 .f32) (y : S5000x1.Idx) :
    ∃ pc ∈ ([⟨r14_3, p0⟩] : List (View.Piece (Elt F) S5000x1 .f32)), y ∈ pc.1.set :=
  View.cover_of_tiled [⟨r14_3, p0⟩] S5000x1.size (by rfl) y

/-! ## The body's triple -/

set_option maxHeartbeats 1000000 in
/-- The kernel body on whole staging memrefs, the inputs' at read contents and the output's at anything, runs to the
    continuation holding the inputs' as they were and the output's at out14_3 of the inputs'. -/
theorem sound_kernel14 (c : Dev nD) (E : Set ℕ) (i : grid14.Coords)
    (arg0 : Memref sig .tc .vmem S5000x32 .f32) (harg0 : arg0.IsWhole) (arg1 : Memref sig .tc .vmem S32x1 .f32) (harg1 : arg1.IsWhole)
    (arg2 : Memref sig .tc .vmem S1x1 .f32) (harg2 : arg2.IsWhole) (arg3 : Memref sig .tc .vmem S5000x1 .f32) (harg3 : arg3.IsWhole)
    (x0 : Vec F S5000x32 .f32) (x1 : Vec F S32x1 .f32) (x2 : Vec F S1x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out14_3 x0 x1 x2)) -∗ K ⟨⟩))
      ⊢ wp frame (wpE (defs₀ (F := F)) Variants.none c none) E (cc14__dense_kernel i arg0 harg0 arg1 harg1 arg2 harg2 arg3 harg3) K := by
  simp only [cc14__dense_kernel_eq_skeleton]; unfold cc14__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-! ## The pipeline's proof data -/

/-- The proof data of the region's pipeline on core c: the arrays as the region finds them (V); after the body at
    point t each input's buffer at its block and the output's at out14_3 of the input blocks; the invariant the scoped
    rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) :
    (dat14 V c).after 3 t = out14_3 (iblk14 V c 0 t) (iblk14 V c 1 t) (iblk14 V c 2 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point t, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so sound_kernel14 applies; the invariant and the
    core's owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.Chain.lean ====
/- The contents of every unscoped buffer between the items of @main, concretely: the launch memory, each host
   stretch folded over it, each kernel region's output arrays at what its pipeline's write-backs leave. Then the
   unknown contents of the conditional frame instantiated at these, the proof data of the fifteen pipelines each at
   its region's entry contents, and, per region, the two facts its exit needs: every windowed array holds what the
   pipeline leaves, every other buffer what it held at entry. Generic in the float family. -/
import proofs.«417395_j71579924955534_2_alg».proof.Proof.KernelIdealRegions
import proofs.«417395_j71579924955534_2_alg».proof.Proof.KI.R0
import proofs.«417395_j71579924955534_2_alg».proof.Proof.KI.R1
import proofs.«417395_j71579924955534_2_alg».proof.Proof.KI.R2
import proofs.«417395_j71579924955534_2_alg».proof.Proof.KI.R3
import proofs.«417395_j71579924955534_2_alg».proof.Proof.KI.R4
import proofs.«417395_j71579924955534_2_alg».proof.Proof.KI.R5
import proofs.«417395_j71579924955534_2_alg».proof.Proof.KI.R6
import proofs.«417395_j71579924955534_2_alg».proof.Proof.KI.R7
import proofs.«417395_j71579924955534_2_alg».proof.Proof.KI.R8
import proofs.«417395_j71579924955534_2_alg».proof.Proof.KI.R9
import proofs.«417395_j71579924955534_2_alg».proof.Proof.KI.R10
import proofs.«417395_j71579924955534_2_alg».proof.Proof.KI.R11
import proofs.«417395_j71579924955534_2_alg».proof.Proof.KI.R12
import proofs.«417395_j71579924955534_2_alg».proof.Proof.KI.R13
import proofs.«417395_j71579924955534_2_alg».proof.Proof.KI.R14
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core c's unscoped buffers at launch. -/
abbrev W0 (c : Dev nD) : Valuation τ sig (Elt F) := V0 m c
/-- The same contents read at the TensorCore's references. -/
abbrev Wr0 : (c : Dev nD) → (b : Ref sig .tc) → Buf (Elt F) ((c : Thread nD τ).loc b) := fun c b => W0 m c b
/-- After the host stretch hostOps0. -/
abbrev W1 (c : Dev nD) : Valuation τ sig (Elt F) := StableHlo.after hostOps0 (W0 m c)
/-- The same contents read at the TensorCore's references. -/
abbrev Wr1 : (c : Dev nD) → (b : Ref sig .tc) → Buf (Elt F) ((c : Thread nD τ).loc b) := fun c b => W1 m c b
/-- At region 0's exit: its output array at what the pipeline's write-backs leave, every other buffer as entered. -/
def W2 (c : Dev nD) : Valuation τ sig (Elt F) :=
  Function.update (W1 m c) main_v6 ((dat0 (Wr1 m) c).arrAt 3 cfg0.N)
/-- The same contents read at the TensorCore's references. -/
abbrev Wr2 : (c : Dev nD) → (b : Ref sig .tc) → Buf (Elt F) ((c : Thread nD τ).loc b) := fun c b => W2 m c b
/-- After the host stretch hostOps1. -/
abbrev W3 (c : Dev nD) : Valuation τ sig (Elt F) := StableHlo.after hostOps1 (W2 m c)
/-- The same contents read at the TensorCore's references. -/
abbrev Wr3 : (c : Dev nD) → (b : Ref sig .tc) → Buf (Elt F) ((c : Thread nD τ).loc b) := fun c b => W3 m c b
/-- At region 1's exit: its output array at what the pipeline's write-backs leave, every other buffer as entered. -/
def W4 (c : Dev nD) : Valuation τ sig (Elt F) :=
  Function.update (W3 m c) main_v12 ((dat1 (Wr3 m) c).arrAt 3 cfg1.N)
/-- The same contents read at the TensorCore's references. -/
abbrev Wr4 : (c : Dev nD) → (b : Ref sig .tc) → Buf (Elt F) ((c : Thread nD τ).loc b) := fun c b => W4 m c b
/-- After the host stretch hostOps2. -/
abbrev W5 (c : Dev nD) : Valuation τ sig (Elt F) := StableHlo.after hostOps2 (W4 m c)
/-- The same contents read at the TensorCore's references. -/
abbrev Wr5 : (c : Dev nD) → (b : Ref sig .tc) → Buf (Elt F) ((c : Thread nD τ).loc b) := fun c b => W5 m c b
/-- After the host stretch hostOps2_1. -/
abbrev W6 (c : Dev nD) : Valuation τ sig (Elt F) := StableHlo.after hostOps2_1 (W5 m c)
/-- The same contents read at the TensorCore's references. -/
abbrev Wr6 : (c : Dev nD) → (b : Ref sig .tc) → Buf (Elt F) ((c : Thread nD τ).loc b) := fun c b => W6 m c b
/-- After the host stretch hostOps2_2. -/
abbrev W7 (c : Dev nD) : Valuation τ sig (Elt F) := StableHlo.after hostOps2_2 (W6 m c)
/-- The same contents read at the TensorCore's references. -/
abbrev Wr7 : (c : Dev nD) → (b : Ref sig .tc) → Buf (Elt F) ((c : Thread nD τ).loc b) := fun c b => W7 m c b
/-- At region 2's exit: its output arrays at what the pipeline's write-backs leave, every other buffer as entered. -/
def W8 (c : Dev nD) : Valuation τ sig (Elt F) :=
  Function.update (Function.update (Function.update (W7 m c) main_v20_0 ((dat2 (Wr7 m) c).arrAt 4 cfg2.N)) main_v20_1 ((dat2 (Wr7 m) c).arrAt 5 cfg2.N)) main_v20_2 ((dat2 (Wr7 m) c).arrAt 6 cfg2.N)
/-- The same contents read at the TensorCore's references. -/
abbrev Wr8 : (c : Dev nD) → (b : Ref sig .tc) → Buf (Elt F) ((c : Thread nD τ).loc b) := fun c b => W8 m c b
/-- At region 3's exit: its output array at what the pipeline's write-backs leave, every other buffer as entered. -/
def W9 (c : Dev nD) : Valuation τ sig (Elt F) :=
  Function.update (W8 m c) main_v21 ((dat3 (Wr8 m) c).arrAt 5 cfg3.N)
/-- The same contents read at the TensorCore's references. -/
abbrev Wr9 : (c : Dev nD) → (b : Ref sig .tc) → Buf (Elt F) ((c : Thread nD τ).loc b) := fun c b => W9 m c b
/-- After the host stretch hostOps4. -/
abbrev W10 (c : Dev nD) : Valuation τ sig (Elt F) := StableHlo.after hostOps4 (W9 m c)
/-- The same contents read at the TensorCore's references. -/
abbrev Wr10 : (c : Dev nD) → (b : Ref sig .tc) → Buf (Elt F) ((c : Thread nD τ).loc b) := fun c b => W10 m c b
/-- At region 4's exit: its output array at what the pipeline's write-backs leave, every other buffer as entered. -/
def W11 (c : Dev nD) : Valuation τ sig (Elt F) :=
  Function.update (W10 m c) main_v31 ((dat4 (Wr10 m) c).arrAt 5 cfg4.N)
/-- The same contents read at the TensorCore's references. -/
abbrev Wr11 : (c : Dev nD) → (b : Ref sig .tc) → Buf (Elt F) ((c : Thread nD τ).loc b) := fun c b => W11 m c b
/-- After the host stretch hostOps5. -/
abbrev W12 (c : Dev nD) : Valuation τ sig (Elt F) := StableHlo.after hostOps5 (W11 m c)
/-- The same contents read at the TensorCore's references. -/
abbrev Wr12 : (c : Dev nD) → (b : Ref sig .tc) → Buf (Elt F) ((c : Thread nD τ).loc b) := fun c b => W12 m c b
/-- At region 5's exit: its output array at what the pipeline's write-backs leave, every other buffer as entered. -/
def W13 (c : Dev nD) : Valuation τ sig (Elt F) :=
  Function.update (W12 m c) main_v37 ((dat5 (Wr12 m) c).arrAt 3 cfg5.N)
/-- The same contents read at the TensorCore's references. -/
abbrev Wr13 : (c : Dev nD) → (b : Ref sig .tc) → Buf (Elt F) ((c : Thread nD τ).loc b) := fun c b => W13 m c b
/-- After the host stretch hostOps6. -/
abbrev W14 (c : Dev nD) : Valuation τ sig (Elt F) := StableHlo.after hostOps6 (W13 m c)
/-- The same contents read at the TensorCore's references. -/
abbrev Wr14 : (c : Dev nD) → (b : Ref sig .tc) → Buf (Elt F) ((c : Thread nD τ).loc b) := fun c b => W14 m c b
/-- After the host stretch hostOps6_1. -/
abbrev W15 (c : Dev nD) : Valuation τ sig (Elt F) := StableHlo.after hostOps6_1 (W14 m c)
/-- The same contents read at the TensorCore's references. -/
abbrev Wr15 : (c : Dev nD) → (b : Ref sig .tc) → Buf (Elt F) ((c : Thread nD τ).loc b) := fun c b => W15 m c b
/-- After the host stretch hostOps6_2. -/
abbrev W16 (c : Dev nD) : Valuation τ sig (Elt F) := StableHlo.after hostOps6_2 (W15 m c)
/-- The same contents read at the TensorCore's references. -/
abbrev Wr16 : (c : Dev nD) → (b : Ref sig .tc) → Buf (Elt F) ((c : Thread nD τ).loc b) := fun c b => W16 m c b
/-- At region 6's exit: its output arrays at what the pipeline's write-backs leave, every other buffer as entered. -/
def W17 (c : Dev nD) : Valuation τ sig (Elt F) :=
  Function.update (Function.update (Function.update (W16 m c) main_v45_0 ((dat6 (Wr16 m) c).arrAt 4 cfg6.N)) main_v45_1 ((dat6 (Wr16 m) c).arrAt 5 cfg6.N)) main_v45_2 ((dat6 (Wr16 m) c).arrAt 6 cfg6.N)
/-- The same contents read at the TensorCore's references. -/
abbrev Wr17 : (c : Dev nD) → (b : Ref sig .tc) → Buf (Elt F) ((c : Thread nD τ).loc b) := fun c b => W17 m c b
/-- At region 7's exit: its output array at what the pipeline's write-backs leave, every other buffer as entered. -/
def W18 (c : Dev nD) : Valuation τ sig (Elt F) :=
  Function.update (W17 m c) main_v46 ((dat7 (Wr17 m) c).arrAt 5 cfg7.N)
/-- The same contents read at the TensorCore's references. -/
abbrev Wr18 : (c : Dev nD) → (b : Ref sig .tc) → Buf (Elt F) ((c : Thread nD τ).loc b) := fun c b => W18 m c b
/-- After the host stretch hostOps8. -/
abbrev W19 (c : Dev nD) : Valuation τ sig (Elt F) := StableHlo.after hostOps8 (W18 m c)
/-- The same contents read at the TensorCore's references. -/
abbrev Wr19 : (c : Dev nD) → (b : Ref sig .tc) → Buf (Elt F) ((c : Thread nD τ).loc b) := fun c b => W19 m c b
/-- At region 8's exit: its output array at what the pipeline's write-backs leave, every other buffer as entered. -/
def W20 (c : Dev nD) : Valuation τ sig (Elt F) :=
  Function.update (W19 m c) main_v56 ((dat8 (Wr19 m) c).arrAt 5 cfg8.N)
/-- The same contents read at the TensorCore's references. -/
abbrev Wr20 : (c : Dev nD) → (b : Ref sig .tc) → Buf (Elt F) ((c : Thread nD τ).loc b) := fun c b => W20 m c b
/-- After the host stretch hostOps9. -/
abbrev W21 (c : Dev nD) : Valuation τ sig (Elt F) := StableHlo.after hostOps9 (W20 m c)
/-- The same contents read at the TensorCore's references. -/
abbrev Wr21 : (c : Dev nD) → (b : Ref sig .tc) → Buf (Elt F) ((c : Thread nD τ).loc b) := fun c b => W21 m c b
/-- At region 9's exit: its output array at what the pipeline's write-backs leave, every other buffer as entered. -/
def W22 (c : Dev nD) : Valuation τ sig (Elt F) :=
  Function.update (W21 m c) main_v62 ((dat9 (Wr21 m) c).arrAt 3 cfg9.N)
/-- The same contents read at the TensorCore's references. -/
abbrev Wr22 : (c : Dev nD) → (b : Ref sig .tc) → Buf (Elt F) ((c : Thread nD τ).loc b) := fun c b => W22 m c b
/-- After the host stretch hostOps10. -/
abbrev W23 (c : Dev nD) : Valuation τ sig (Elt F) := StableHlo.after hostOps10 (W22 m c)
/-- The same contents read at the TensorCore's references. -/
abbrev Wr23 : (c : Dev nD) → (b : Ref sig .tc) → Buf (Elt F) ((c : Thread nD τ).loc b) := fun c b => W23 m c b
/-- After the host stretch hostOps10_1. -/
abbrev W24 (c : Dev nD) : Valuation τ sig (Elt F) := StableHlo.after hostOps10_1 (W23 m c)
/-- The same contents read at the TensorCore's references. -/
abbrev Wr24 : (c : Dev nD) → (b : Ref sig .tc) → Buf (Elt F) ((c : Thread nD τ).loc b) := fun c b => W24 m c b
/-- After the host stretch hostOps10_2. -/
abbrev W25 (c : Dev nD) : Valuation τ sig (Elt F) := StableHlo.after hostOps10_2 (W24 m c)
/-- The same contents read at the TensorCore's references. -/
abbrev Wr25 : (c : Dev nD) → (b : Ref sig .tc) → Buf (Elt F) ((c : Thread nD τ).loc b) := fun c b => W25 m c b
/-- At region 10's exit: its output arrays at what the pipeline's write-backs leave, every other buffer as entered. -/
def W26 (c : Dev nD) : Valuation τ sig (Elt F) :=
  Function.update (Function.update (Function.update (W25 m c) main_v70_0 ((dat10 (Wr25 m) c).arrAt 4 cfg10.N)) main_v70_1 ((dat10 (Wr25 m) c).arrAt 5 cfg10.N)) main_v70_2 ((dat10 (Wr25 m) c).arrAt 6 cfg10.N)
/-- The same contents read at the TensorCore's references. -/
abbrev Wr26 : (c : Dev nD) → (b : Ref sig .tc) → Buf (Elt F) ((c : Thread nD τ).loc b) := fun c b => W26 m c b
/-- At region 11's exit: its output array at what the pipeline's write-backs leave, every other buffer as entered. -/
def W27 (c : Dev nD) : Valuation τ sig (Elt F) :=
  Function.update (W26 m c) main_v71 ((dat11 (Wr26 m) c).arrAt 5 cfg11.N)
/-- The same contents read at the TensorCore's references. -/
abbrev Wr27 : (c : Dev nD) → (b : Ref sig .tc) → Buf (Elt F) ((c : Thread nD τ).loc b) := fun c b => W27 m c b
/-- After the host stretch hostOps12. -/
abbrev W28 (c : Dev nD) : Valuation τ sig (Elt F) := StableHlo.after hostOps12 (W27 m c)
/-- The same contents read at the TensorCore's references. -/
abbrev Wr28 : (c : Dev nD) → (b : Ref sig .tc) → Buf (Elt F) ((c : Thread nD τ).loc b) := fun c b => W28 m c b
/-- At region 12's exit: its output array at what the pipeline's write-backs leave, every other buffer as entered. -/
def W29 (c : Dev nD) : Valuation τ sig (Elt F) :=
  Function.update (W28 m c) main_v81 ((dat12 (Wr28 m) c).arrAt 5 cfg12.N)
/-- The same contents read at the TensorCore's references. -/
abbrev Wr29 : (c : Dev nD) → (b : Ref sig .tc) → Buf (Elt F) ((c : Thread nD τ).loc b) := fun c b => W29 m c b
/-- After the host stretch hostOps13. -/
abbrev W30 (c : Dev nD) : Valuation τ sig (Elt F) := StableHlo.after hostOps13 (W29 m c)
/-- The same contents read at the TensorCore's references. -/
abbrev Wr30 : (c : Dev nD) → (b : Ref sig .tc) → Buf (Elt F) ((c : Thread nD τ).loc b) := fun c b => W30 m c b
/-- At region 13's exit: its output array at what the pipeline's write-backs leave, every other buffer as entered. -/
def W31 (c : Dev nD) : Valuation τ sig (Elt F) :=
  Function.update (W30 m c) main_v83 ((dat13 (Wr30 m) c).arrAt 3 cfg13.N)
/-- The same contents read at the TensorCore's references. -/
abbrev Wr31 : (c : Dev nD) → (b : Ref sig .tc) → Buf (Elt F) ((c : Thread nD τ).loc b) := fun c b => W31 m c b
/-- After the host stretch hostOps14. -/
abbrev W32 (c : Dev nD) : Valuation τ sig (Elt F) := StableHlo.after hostOps14 (W31 m c)
/-- The same contents read at the TensorCore's references. -/
abbrev Wr32 : (c : Dev nD) → (b : Ref sig .tc) → Buf (Elt F) ((c : Thread nD τ).loc b) := fun c b => W32 m c b
/-- At region 14's exit: its output array at what the pipeline's write-backs leave, every other buffer as entered. -/
def W33 (c : Dev nD) : Valuation τ sig (Elt F) :=
  Function.update (W32 m c) main_v85 ((dat14 (Wr32 m) c).arrAt 3 cfg14.N)
/-- The same contents read at the TensorCore's references. -/
abbrev Wr33 : (c : Dev nD) → (b : Ref sig .tc) → Buf (Elt F) ((c : Thread nD τ).loc b) := fun c b => W33 m c b

/-! ## The conditional frame's unknown contents, at these -/

/-- What each region leaves, read off the boundary after it. -/
def outsW : Outs (F := F) := fun J r c => match J with
  | 2 => W2 m c r
  | 4 => W4 m c r
  | 8 => W8 m c r
  | 9 => W9 m c r
  | 11 => W11 m c r
  | 13 => W13 m c r
  | 17 => W17 m c r
  | 18 => W18 m c r
  | 20 => W20 m c r
  | 22 => W22 m c r
  | 26 => W26 m c r
  | 27 => W27 m c r
  | 29 => W29 m c r
  | 31 => W31 m c r
  | 33 => W33 m c r
  | _ => V0 m c r
theorem outsW_2 (r : Ref sig .tc) (c : Dev nD) : outsW m 2 r c = W2 m c r := rfl
theorem outsW_4 (r : Ref sig .tc) (c : Dev nD) : outsW m 4 r c = W4 m c r := rfl
theorem outsW_8 (r : Ref sig .tc) (c : Dev nD) : outsW m 8 r c = W8 m c r := rfl
theorem outsW_9 (r : Ref sig .tc) (c : Dev nD) : outsW m 9 r c = W9 m c r := rfl
theorem outsW_11 (r : Ref sig .tc) (c : Dev nD) : outsW m 11 r c = W11 m c r := rfl
theorem outsW_13 (r : Ref sig .tc) (c : Dev nD) : outsW m 13 r c = W13 m c r := rfl
theorem outsW_17 (r : Ref sig .tc) (c : Dev nD) : outsW m 17 r c = W17 m c r := rfl
theorem outsW_18 (r : Ref sig .tc) (c : Dev nD) : outsW m 18 r c = W18 m c r := rfl
theorem outsW_20 (r : Ref sig .tc) (c : Dev nD) : outsW m 20 r c = W20 m c r := rfl
theorem outsW_22 (r : Ref sig .tc) (c : Dev nD) : outsW m 22 r c = W22 m c r := rfl
theorem outsW_26 (r : Ref sig .tc) (c : Dev nD) : outsW m 26 r c = W26 m c r := rfl
theorem outsW_27 (r : Ref sig .tc) (c : Dev nD) : outsW m 27 r c = W27 m c r := rfl
theorem outsW_29 (r : Ref sig .tc) (c : Dev nD) : outsW m 29 r c = W29 m c r := rfl
theorem outsW_31 (r : Ref sig .tc) (c : Dev nD) : outsW m 31 r c = W31 m c r := rfl
theorem outsW_33 (r : Ref sig .tc) (c : Dev nD) : outsW m 33 r c = W33 m c r := rfl

/-! ## Each region's output arrays at its exit, and the conditional frame's contents equal to these -/
theorem V1_eq (c : Dev nD) : V1 m c = W1 m c := rfl
theorem W2_out (c : Dev nD) : W2 m c main_v6 = (dat0 (Wr1 m) c).arrAt 3 cfg0.N := by
  unfold W2; rw [Function.update_self]
theorem V2_eq (c : Dev nD) : V2 m (outsW m) c = W2 m c := by
  unfold V2; rw [outsW_2, W2_out]; rfl
theorem W2_of (c : Dev nD) (r : Ref sig .tc) (h : r ∉ ([main_v6] : List (Ref sig .tc))) : W2 m c r = W1 m c r :=
  (congrFun (V2_eq m c) (Proc.devRef .tc r)).symm.trans ((V2_of m (outsW m) c r h).trans (congrFun (V1_eq m c) (Proc.devRef .tc r)))
theorem V3_eq (c : Dev nD) : V3 m (outsW m) c = W3 m c := congrArg (StableHlo.after hostOps1) (V2_eq m c)
theorem W4_out (c : Dev nD) : W4 m c main_v12 = (dat1 (Wr3 m) c).arrAt 3 cfg1.N := by
  unfold W4; rw [Function.update_self]
theorem V4_eq (c : Dev nD) : V4 m (outsW m) c = W4 m c := by
  unfold V4; rw [V3_eq, outsW_4, W4_out]; rfl
theorem W4_of (c : Dev nD) (r : Ref sig .tc) (h : r ∉ ([main_v12] : List (Ref sig .tc))) : W4 m c r = W3 m c r :=
  (congrFun (V4_eq m c) (Proc.devRef .tc r)).symm.trans ((V4_of m (outsW m) c r h).trans (congrFun (V3_eq m c) (Proc.devRef .tc r)))
theorem V5_eq (c : Dev nD) : V5 m (outsW m) c = W5 m c := congrArg (StableHlo.after hostOps2) (V4_eq m c)
theorem V6_eq (c : Dev nD) : V6 m (outsW m) c = W6 m c := congrArg (StableHlo.after hostOps2_1) (V5_eq m c)
theorem V7_eq (c : Dev nD) : V7 m (outsW m) c = W7 m c := congrArg (StableHlo.after hostOps2_2) (V6_eq m c)
theorem W8_out0 (c : Dev nD) : W8 m c main_v20_0 = (dat2 (Wr7 m) c).arrAt 4 cfg2.N := by
  unfold W8; rw [Function.update_of_ne (StableHlo.devRef_ne_of_ne (by decide) : (Proc.devRef .tc main_v20_0 : DevRef τ sig) ≠ Proc.devRef .tc main_v20_2), Function.update_of_ne (StableHlo.devRef_ne_of_ne (by decide) : (Proc.devRef .tc main_v20_0 : DevRef τ sig) ≠ Proc.devRef .tc main_v20_1), Function.update_self]
theorem W8_out1 (c : Dev nD) : W8 m c main_v20_1 = (dat2 (Wr7 m) c).arrAt 5 cfg2.N := by
  unfold W8; rw [Function.update_of_ne (StableHlo.devRef_ne_of_ne (by decide) : (Proc.devRef .tc main_v20_1 : DevRef τ sig) ≠ Proc.devRef .tc main_v20_2), Function.update_self]
theorem W8_out2 (c : Dev nD) : W8 m c main_v20_2 = (dat2 (Wr7 m) c).arrAt 6 cfg2.N := by
  unfold W8; rw [Function.update_self]
theorem V8_eq (c : Dev nD) : V8 m (outsW m) c = W8 m c := by
  unfold V8; rw [V7_eq, outsW_8, W8_out0, outsW_8, W8_out1, outsW_8, W8_out2]; rfl
theorem W8_of (c : Dev nD) (r : Ref sig .tc) (h : r ∉ ([main_v20_0, main_v20_1, main_v20_2] : List (Ref sig .tc))) : W8 m c r = W7 m c r :=
  (congrFun (V8_eq m c) (Proc.devRef .tc r)).symm.trans ((V8_of m (outsW m) c r h).trans (congrFun (V7_eq m c) (Proc.devRef .tc r)))
theorem W9_out (c : Dev nD) : W9 m c main_v21 = (dat3 (Wr8 m) c).arrAt 5 cfg3.N := by
  unfold W9; rw [Function.update_self]
theorem V9_eq (c : Dev nD) : V9 m (outsW m) c = W9 m c := by
  unfold V9; rw [V8_eq, outsW_9, W9_out]; rfl
theorem W9_of (c : Dev nD) (r : Ref sig .tc) (h : r ∉ ([main_v21] : List (Ref sig .tc))) : W9 m c r = W8 m c r :=
  (congrFun (V9_eq m c) (Proc.devRef .tc r)).symm.trans ((V9_of m (outsW m) c r h).trans (congrFun (V8_eq m c) (Proc.devRef .tc r)))
theorem V10_eq (c : Dev nD) : V10 m (outsW m) c = W10 m c := congrArg (StableHlo.after hostOps4) (V9_eq m c)
theorem W11_out (c : Dev nD) : W11 m c main_v31 = (dat4 (Wr10 m) c).arrAt 5 cfg4.N := by
  unfold W11; rw [Function.update_self]
theorem V11_eq (c : Dev nD) : V11 m (outsW m) c = W11 m c := by
  unfold V11; rw [V10_eq, outsW_11, W11_out]; rfl
theorem W11_of (c : Dev nD) (r : Ref sig .tc) (h : r ∉ ([main_v31] : List (Ref sig .tc))) : W11 m c r = W10 m c r :=
  (congrFun (V11_eq m c) (Proc.devRef .tc r)).symm.trans ((V11_of m (outsW m) c r h).trans (congrFun (V10_eq m c) (Proc.devRef .tc r)))
theorem V12_eq (c : Dev nD) : V12 m (outsW m) c = W12 m c := congrArg (StableHlo.after hostOps5) (V11_eq m c)
theorem W13_out (c : Dev nD) : W13 m c main_v37 = (dat5 (Wr12 m) c).arrAt 3 cfg5.N := by
  unfold W13; rw [Function.update_self]
theorem V13_eq (c : Dev nD) : V13 m (outsW m) c = W13 m c := by
  unfold V13; rw [V12_eq, outsW_13, W13_out]; rfl
theorem W13_of (c : Dev nD) (r : Ref sig .tc) (h : r ∉ ([main_v37] : List (Ref sig .tc))) : W13 m c r = W12 m c r :=
  (congrFun (V13_eq m c) (Proc.devRef .tc r)).symm.trans ((V13_of m (outsW m) c r h).trans (congrFun (V12_eq m c) (Proc.devRef .tc r)))
theorem V14_eq (c : Dev nD) : V14 m (outsW m) c = W14 m c := congrArg (StableHlo.after hostOps6) (V13_eq m c)
theorem V15_eq (c : Dev nD) : V15 m (outsW m) c = W15 m c := congrArg (StableHlo.after hostOps6_1) (V14_eq m c)
theorem V16_eq (c : Dev nD) : V16 m (outsW m) c = W16 m c := congrArg (StableHlo.after hostOps6_2) (V15_eq m c)
theorem W17_out0 (c : Dev nD) : W17 m c main_v45_0 = (dat6 (Wr16 m) c).arrAt 4 cfg6.N := by
  unfold W17; rw [Function.update_of_ne (StableHlo.devRef_ne_of_ne (by decide) : (Proc.devRef .tc main_v45_0 : DevRef τ sig) ≠ Proc.devRef .tc main_v45_2), Function.update_of_ne (StableHlo.devRef_ne_of_ne (by decide) : (Proc.devRef .tc main_v45_0 : DevRef τ sig) ≠ Proc.devRef .tc main_v45_1), Function.update_self]
theorem W17_out1 (c : Dev nD) : W17 m c main_v45_1 = (dat6 (Wr16 m) c).arrAt 5 cfg6.N := by
  unfold W17; rw [Function.update_of_ne (StableHlo.devRef_ne_of_ne (by decide) : (Proc.devRef .tc main_v45_1 : DevRef τ sig) ≠ Proc.devRef .tc main_v45_2), Function.update_self]
theorem W17_out2 (c : Dev nD) : W17 m c main_v45_2 = (dat6 (Wr16 m) c).arrAt 6 cfg6.N := by
  unfold W17; rw [Function.update_self]
theorem V17_eq (c : Dev nD) : V17 m (outsW m) c = W17 m c := by
  unfold V17; rw [V16_eq, outsW_17, W17_out0, outsW_17, W17_out1, outsW_17, W17_out2]; rfl
theorem W17_of (c : Dev nD) (r : Ref sig .tc) (h : r ∉ ([main_v45_0, main_v45_1, main_v45_2] : List (Ref sig .tc))) : W17 m c r = W16 m c r :=
  (congrFun (V17_eq m c) (Proc.devRef .tc r)).symm.trans ((V17_of m (outsW m) c r h).trans (congrFun (V16_eq m c) (Proc.devRef .tc r)))
theorem W18_out (c : Dev nD) : W18 m c main_v46 = (dat7 (Wr17 m) c).arrAt 5 cfg7.N := by
  unfold W18; rw [Function.update_self]
theorem V18_eq (c : Dev nD) : V18 m (outsW m) c = W18 m c := by
  unfold V18; rw [V17_eq, outsW_18, W18_out]; rfl
theorem W18_of (c : Dev nD) (r : Ref sig .tc) (h : r ∉ ([main_v46] : List (Ref sig .tc))) : W18 m c r = W17 m c r :=
  (congrFun (V18_eq m c) (Proc.devRef .tc r)).symm.trans ((V18_of m (outsW m) c r h).trans (congrFun (V17_eq m c) (Proc.devRef .tc r)))
theorem V19_eq (c : Dev nD) : V19 m (outsW m) c = W19 m c := congrArg (StableHlo.after hostOps8) (V18_eq m c)
theorem W20_out (c : Dev nD) : W20 m c main_v56 = (dat8 (Wr19 m) c).arrAt 5 cfg8.N := by
  unfold W20; rw [Function.update_self]
theorem V20_eq (c : Dev nD) : V20 m (outsW m) c = W20 m c := by
  unfold V20; rw [V19_eq, outsW_20, W20_out]; rfl
theorem W20_of (c : Dev nD) (r : Ref sig .tc) (h : r ∉ ([main_v56] : List (Ref sig .tc))) : W20 m c r = W19 m c r :=
  (congrFun (V20_eq m c) (Proc.devRef .tc r)).symm.trans ((V20_of m (outsW m) c r h).trans (congrFun (V19_eq m c) (Proc.devRef .tc r)))
theorem V21_eq (c : Dev nD) : V21 m (outsW m) c = W21 m c := congrArg (StableHlo.after hostOps9) (V20_eq m c)
theorem W22_out (c : Dev nD) : W22 m c main_v62 = (dat9 (Wr21 m) c).arrAt 3 cfg9.N := by
  unfold W22; rw [Function.update_self]
theorem V22_eq (c : Dev nD) : V22 m (outsW m) c = W22 m c := by
  unfold V22; rw [V21_eq, outsW_22, W22_out]; rfl
theorem W22_of (c : Dev nD) (r : Ref sig .tc) (h : r ∉ ([main_v62] : List (Ref sig .tc))) : W22 m c r = W21 m c r :=
  (congrFun (V22_eq m c) (Proc.devRef .tc r)).symm.trans ((V22_of m (outsW m) c r h).trans (congrFun (V21_eq m c) (Proc.devRef .tc r)))
theorem V23_eq (c : Dev nD) : V23 m (outsW m) c = W23 m c := congrArg (StableHlo.after hostOps10) (V22_eq m c)
theorem V24_eq (c : Dev nD) : V24 m (outsW m) c = W24 m c := congrArg (StableHlo.after hostOps10_1) (V23_eq m c)
theorem V25_eq (c : Dev nD) : V25 m (outsW m) c = W25 m c := congrArg (StableHlo.after hostOps10_2) (V24_eq m c)
theorem W26_out0 (c : Dev nD) : W26 m c main_v70_0 = (dat10 (Wr25 m) c).arrAt 4 cfg10.N := by
  unfold W26; rw [Function.update_of_ne (StableHlo.devRef_ne_of_ne (by decide) : (Proc.devRef .tc main_v70_0 : DevRef τ sig) ≠ Proc.devRef .tc main_v70_2), Function.update_of_ne (StableHlo.devRef_ne_of_ne (by decide) : (Proc.devRef .tc main_v70_0 : DevRef τ sig) ≠ Proc.devRef .tc main_v70_1), Function.update_self]
theorem W26_out1 (c : Dev nD) : W26 m c main_v70_1 = (dat10 (Wr25 m) c).arrAt 5 cfg10.N := by
  unfold W26; rw [Function.update_of_ne (StableHlo.devRef_ne_of_ne (by decide) : (Proc.devRef .tc main_v70_1 : DevRef τ sig) ≠ Proc.devRef .tc main_v70_2), Function.update_self]
theorem W26_out2 (c : Dev nD) : W26 m c main_v70_2 = (dat10 (Wr25 m) c).arrAt 6 cfg10.N := by
  unfold W26; rw [Function.update_self]
theorem V26_eq (c : Dev nD) : V26 m (outsW m) c = W26 m c := by
  unfold V26; rw [V25_eq, outsW_26, W26_out0, outsW_26, W26_out1, outsW_26, W26_out2]; rfl
theorem W26_of (c : Dev nD) (r : Ref sig .tc) (h : r ∉ ([main_v70_0, main_v70_1, main_v70_2] : List (Ref sig .tc))) : W26 m c r = W25 m c r :=
  (congrFun (V26_eq m c) (Proc.devRef .tc r)).symm.trans ((V26_of m (outsW m) c r h).trans (congrFun (V25_eq m c) (Proc.devRef .tc r)))
theorem W27_out (c : Dev nD) : W27 m c main_v71 = (dat11 (Wr26 m) c).arrAt 5 cfg11.N := by
  unfold W27; rw [Function.update_self]
theorem V27_eq (c : Dev nD) : V27 m (outsW m) c = W27 m c := by
  unfold V27; rw [V26_eq, outsW_27, W27_out]; rfl
theorem W27_of (c : Dev nD) (r : Ref sig .tc) (h : r ∉ ([main_v71] : List (Ref sig .tc))) : W27 m c r = W26 m c r :=
  (congrFun (V27_eq m c) (Proc.devRef .tc r)).symm.trans ((V27_of m (outsW m) c r h).trans (congrFun (V26_eq m c) (Proc.devRef .tc r)))
theorem V28_eq (c : Dev nD) : V28 m (outsW m) c = W28 m c := congrArg (StableHlo.after hostOps12) (V27_eq m c)
theorem W29_out (c : Dev nD) : W29 m c main_v81 = (dat12 (Wr28 m) c).arrAt 5 cfg12.N := by
  unfold W29; rw [Function.update_self]
theorem V29_eq (c : Dev nD) : V29 m (outsW m) c = W29 m c := by
  unfold V29; rw [V28_eq, outsW_29, W29_out]; rfl
theorem W29_of (c : Dev nD) (r : Ref sig .tc) (h : r ∉ ([main_v81] : List (Ref sig .tc))) : W29 m c r = W28 m c r :=
  (congrFun (V29_eq m c) (Proc.devRef .tc r)).symm.trans ((V29_of m (outsW m) c r h).trans (congrFun (V28_eq m c) (Proc.devRef .tc r)))
theorem V30_eq (c : Dev nD) : V30 m (outsW m) c = W30 m c := congrArg (StableHlo.after hostOps13) (V29_eq m c)
theorem W31_out (c : Dev nD) : W31 m c main_v83 = (dat13 (Wr30 m) c).arrAt 3 cfg13.N := by
  unfold W31; rw [Function.update_self]
theorem V31_eq (c : Dev nD) : V31 m (outsW m) c = W31 m c := by
  unfold V31; rw [V30_eq, outsW_31, W31_out]; rfl
theorem W31_of (c : Dev nD) (r : Ref sig .tc) (h : r ∉ ([main_v83] : List (Ref sig .tc))) : W31 m c r = W30 m c r :=
  (congrFun (V31_eq m c) (Proc.devRef .tc r)).symm.trans ((V31_of m (outsW m) c r h).trans (congrFun (V30_eq m c) (Proc.devRef .tc r)))
theorem V32_eq (c : Dev nD) : V32 m (outsW m) c = W32 m c := congrArg (StableHlo.after hostOps14) (V31_eq m c)
theorem W33_out (c : Dev nD) : W33 m c main_v85 = (dat14 (Wr32 m) c).arrAt 3 cfg14.N := by
  unfold W33; rw [Function.update_self]
theorem V33_eq (c : Dev nD) : V33 m (outsW m) c = W33 m c := by
  unfold V33; rw [V32_eq, outsW_33, W33_out]; rfl
theorem W33_of (c : Dev nD) (r : Ref sig .tc) (h : r ∉ ([main_v85] : List (Ref sig .tc))) : W33 m c r = W32 m c r :=
  (congrFun (V33_eq m c) (Proc.devRef .tc r)).symm.trans ((V33_of m (outsW m) c r h).trans (congrFun (V32_eq m c) (Proc.devRef .tc r)))

/-! ## The proof data family, the levels, and what rides beside the buffers -/

/-- Every pipeline's proof data, each at its region's entry contents. -/
def pdats : (p : Fin 15) → (c : Dev nD) → Dat τ (Elt F) Unit ℕ (UR sig nD τ) ℕ (cfgs p) c
  | ⟨0, _⟩ => fun c => dat0 (Wr1 m) c
  | ⟨1, _⟩ => fun c => dat1 (Wr3 m) c
  | ⟨2, _⟩ => fun c => dat2 (Wr7 m) c
  | ⟨3, _⟩ => fun c => dat3 (Wr8 m) c
  | ⟨4, _⟩ => fun c => dat4 (Wr10 m) c
  | ⟨5, _⟩ => fun c => dat5 (Wr12 m) c
  | ⟨6, _⟩ => fun c => dat6 (Wr16 m) c
  | ⟨7, _⟩ => fun c => dat7 (Wr17 m) c
  | ⟨8, _⟩ => fun c => dat8 (Wr19 m) c
  | ⟨9, _⟩ => fun c => dat9 (Wr21 m) c
  | ⟨10, _⟩ => fun c => dat10 (Wr25 m) c
  | ⟨11, _⟩ => fun c => dat11 (Wr26 m) c
  | ⟨12, _⟩ => fun c => dat12 (Wr28 m) c
  | ⟨13, _⟩ => fun c => dat13 (Wr30 m) c
  | ⟨14, _⟩ => fun c => dat14 (Wr32 m) c
/-- No core owes another anything: no level is assigned. -/
abbrev L : GSem nD τ sig → Finset Unit := fun _ => ∅
abbrev lv : GSem nD τ sig → Unit → ℕ := fun _ _ => 0
/-- Beside the buffers through every item: the core's generator register at some state and its dues, at nothing. -/
abbrev R (c : Dev nD) : sProp 𝕄 := iprop((∃ r, prngReg c r) ∗ ∃ W, owes (c : Thread nD τ) (0 : CellTallies nD τ sig Unit) W)

/-! ## At a region's exit: each windowed array at what the pipeline leaves, every other buffer as entered -/
theorem hF0_0 (c : Dev nD) : (dat0 (Wr1 m) c).arrAt 0 cfg0.N = Wr2 m c (Pipeline.arrRef spec0 0) :=
  (((dat0 (Wr1 m) c).arrAt_in 0 rfl _).trans (A_eq0 (Wr1 m) c 0)).trans (W2_of m c main_arg0 (by decide)).symm
theorem hF0_1 (c : Dev nD) : (dat0 (Wr1 m) c).arrAt 1 cfg0.N = Wr2 m c (Pipeline.arrRef spec0 1) :=
  (((dat0 (Wr1 m) c).arrAt_in 1 rfl _).trans (A_eq0 (Wr1 m) c 1)).trans (W2_of m c main_arg3 (by decide)).symm
theorem hF0_2 (c : Dev nD) : (dat0 (Wr1 m) c).arrAt 2 cfg0.N = Wr2 m c (Pipeline.arrRef spec0 2) :=
  (((dat0 (Wr1 m) c).arrAt_in 2 rfl _).trans (A_eq0 (Wr1 m) c 2)).trans (W2_of m c main_v5 (by decide)).symm
theorem hF0_3 (c : Dev nD) : (dat0 (Wr1 m) c).arrAt 3 cfg0.N = Wr2 m c (Pipeline.arrRef spec0 3) :=
  (W2_out m c).symm
theorem hF0 (c : Dev nD) : ∀ w : Fin 4, (dat0 (Wr1 m) c).arrAt w cfg0.N = Wr2 m c (Pipeline.arrRef spec0 w)
  | ⟨0, _⟩ => hF0_0 m c
  | ⟨1, _⟩ => hF0_1 m c
  | ⟨2, _⟩ => hF0_2 m c
  | ⟨3, _⟩ => hF0_3 m c
  | ⟨_ + 4, h⟩ => absurd h (Nat.not_lt.2 (Nat.le_add_left _ _))
theorem hrest0 (c : Dev nD) : ∀ b, b ∉ Finset.univ.image (Pipeline.arrRef spec0) → Wr2 m c b = Wr1 m c b :=
  fun b hb => W2_of m c b fun hm => hb (Finset.mem_image.mpr (by
    simp only [List.mem_cons, List.not_mem_nil, _root_.or_false] at hm
    exact ⟨3, Finset.mem_univ _, hm.symm⟩))
theorem hF1_0 (c : Dev nD) : (dat1 (Wr3 m) c).arrAt 0 cfg1.N = Wr4 m c (Pipeline.arrRef spec1 0) :=
  (((dat1 (Wr3 m) c).arrAt_in 0 rfl _).trans (A_eq1 (Wr3 m) c 0)).trans (W4_of m c main_v6 (by decide)).symm
theorem hF1_1 (c : Dev nD) : (dat1 (Wr3 m) c).arrAt 1 cfg1.N = Wr4 m c (Pipeline.arrRef spec1 1) :=
  (((dat1 (Wr3 m) c).arrAt_in 1 rfl _).trans (A_eq1 (Wr3 m) c 1)).trans (W4_of m c main_v8 (by decide)).symm
theorem hF1_2 (c : Dev nD) : (dat1 (Wr3 m) c).arrAt 2 cfg1.N = Wr4 m c (Pipeline.arrRef spec1 2) :=
  (((dat1 (Wr3 m) c).arrAt_in 2 rfl _).trans (A_eq1 (Wr3 m) c 2)).trans (W4_of m c main_v11 (by decide)).symm
theorem hF1_3 (c : Dev nD) : (dat1 (Wr3 m) c).arrAt 3 cfg1.N = Wr4 m c (Pipeline.arrRef spec1 3) :=
  (W4_out m c).symm
theorem hF1 (c : Dev nD) : ∀ w : Fin 4, (dat1 (Wr3 m) c).arrAt w cfg1.N = Wr4 m c (Pipeline.arrRef spec1 w)
  | ⟨0, _⟩ => hF1_0 m c
  | ⟨1, _⟩ => hF1_1 m c
  | ⟨2, _⟩ => hF1_2 m c
  | ⟨3, _⟩ => hF1_3 m c
  | ⟨_ + 4, h⟩ => absurd h (Nat.not_lt.2 (Nat.le_add_left _ _))
theorem hrest1 (c : Dev nD) : ∀ b, b ∉ Finset.univ.image (Pipeline.arrRef spec1) → Wr4 m c b = Wr3 m c b :=
  fun b hb => W4_of m c b fun hm => hb (Finset.mem_image.mpr (by
    simp only [List.mem_cons, List.not_mem_nil, _root_.or_false] at hm
    exact ⟨3, Finset.mem_univ _, hm.symm⟩))
theorem hF2_0 (c : Dev nD) : (dat2 (Wr7 m) c).arrAt 0 cfg2.N = Wr8 m c (Pipeline.arrRef spec2 0) :=
  (((dat2 (Wr7 m) c).arrAt_in 0 rfl _).trans (A_eq2 (Wr7 m) c 0)).trans (W8_of m c main_v13 (by decide)).symm
theorem hF2_1 (c : Dev nD) : (dat2 (Wr7 m) c).arrAt 1 cfg2.N = Wr8 m c (Pipeline.arrRef spec2 1) :=
  (((dat2 (Wr7 m) c).arrAt_in 1 rfl _).trans (A_eq2 (Wr7 m) c 1)).trans (W8_of m c main_v14 (by decide)).symm
theorem hF2_2 (c : Dev nD) : (dat2 (Wr7 m) c).arrAt 2 cfg2.N = Wr8 m c (Pipeline.arrRef spec2 2) :=
  (((dat2 (Wr7 m) c).arrAt_in 2 rfl _).trans (A_eq2 (Wr7 m) c 2)).trans (W8_of m c main_v16 (by decide)).symm
theorem hF2_3 (c : Dev nD) : (dat2 (Wr7 m) c).arrAt 3 cfg2.N = Wr8 m c (Pipeline.arrRef spec2 3) :=
  (((dat2 (Wr7 m) c).arrAt_in 3 rfl _).trans (A_eq2 (Wr7 m) c 3)).trans (W8_of m c main_v19 (by decide)).symm
theorem hF2_4 (c : Dev nD) : (dat2 (Wr7 m) c).arrAt 4 cfg2.N = Wr8 m c (Pipeline.arrRef spec2 4) :=
  (W8_out0 m c).symm
theorem hF2_5 (c : Dev nD) : (dat2 (Wr7 m) c).arrAt 5 cfg2.N = Wr8 m c (Pipeline.arrRef spec2 5) :=
  (W8_out1 m c).symm
theorem hF2_6 (c : Dev nD) : (dat2 (Wr7 m) c).arrAt 6 cfg2.N = Wr8 m c (Pipeline.arrRef spec2 6) :=
  (W8_out2 m c).symm
theorem hF2 (c : Dev nD) : ∀ w : Fin 7, (dat2 (Wr7 m) c).arrAt w cfg2.N = Wr8 m c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨_ + 7, h⟩ => absurd h (Nat.not_lt.2 (Nat.le_add_left _ _))
theorem hrest2 (c : Dev nD) : ∀ b, b ∉ Finset.univ.image (Pipeline.arrRef spec2) → Wr8 m c b = Wr7 m c b :=
  fun b hb => W8_of m c b fun hm => hb (Finset.mem_image.mpr (by
    simp only [List.mem_cons, List.mem_cons, List.mem_cons, List.not_mem_nil, _root_.or_false] at hm
    rcases hm with hm | hm | hm
    · exact ⟨4, Finset.mem_univ _, hm.symm⟩
    · exact ⟨5, Finset.mem_univ _, hm.symm⟩
    · exact ⟨6, Finset.mem_univ _, hm.symm⟩))
theorem hF3_0 (c : Dev nD) : (dat3 (Wr8 m) c).arrAt 0 cfg3.N = Wr9 m c (Pipeline.arrRef spec3 0) :=
  (((dat3 (Wr8 m) c).arrAt_in 0 rfl _).trans (A_eq3 (Wr8 m) c 0)).trans (W9_of m c main_v20_0 (by decide)).symm
theorem hF3_1 (c : Dev nD) : (dat3 (Wr8 m) c).arrAt 1 cfg3.N = Wr9 m c (Pipeline.arrRef spec3 1) :=
  (((dat3 (Wr8 m) c).arrAt_in 1 rfl _).trans (A_eq3 (Wr8 m) c 1)).trans (W9_of m c main_v14 (by decide)).symm
theorem hF3_2 (c : Dev nD) : (dat3 (Wr8 m) c).arrAt 2 cfg3.N = Wr9 m c (Pipeline.arrRef spec3 2) :=
  (((dat3 (Wr8 m) c).arrAt_in 2 rfl _).trans (A_eq3 (Wr8 m) c 2)).trans (W9_of m c main_v4 (by decide)).symm
theorem hF3_3 (c : Dev nD) : (dat3 (Wr8 m) c).arrAt 3 cfg3.N = Wr9 m c (Pipeline.arrRef spec3 3) :=
  (((dat3 (Wr8 m) c).arrAt_in 3 rfl _).trans (A_eq3 (Wr8 m) c 3)).trans (W9_of m c main_v20_1 (by decide)).symm
theorem hF3_4 (c : Dev nD) : (dat3 (Wr8 m) c).arrAt 4 cfg3.N = Wr9 m c (Pipeline.arrRef spec3 4) :=
  (((dat3 (Wr8 m) c).arrAt_in 4 rfl _).trans (A_eq3 (Wr8 m) c 4)).trans (W9_of m c main_v20_2 (by decide)).symm
theorem hF3_5 (c : Dev nD) : (dat3 (Wr8 m) c).arrAt 5 cfg3.N = Wr9 m c (Pipeline.arrRef spec3 5) :=
  (W9_out m c).symm
theorem hF3 (c : Dev nD) : ∀ w : Fin 6, (dat3 (Wr8 m) c).arrAt w cfg3.N = Wr9 m c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨_ + 6, h⟩ => absurd h (Nat.not_lt.2 (Nat.le_add_left _ _))
theorem hrest3 (c : Dev nD) : ∀ b, b ∉ Finset.univ.image (Pipeline.arrRef spec3) → Wr9 m c b = Wr8 m c b :=
  fun b hb => W9_of m c b fun hm => hb (Finset.mem_image.mpr (by
    simp only [List.mem_cons, List.not_mem_nil, _root_.or_false] at hm
    exact ⟨5, Finset.mem_univ _, hm.symm⟩))
theorem hF4_0 (c : Dev nD) : (dat4 (Wr10 m) c).arrAt 0 cfg4.N = Wr11 m c (Pipeline.arrRef spec4 0) :=
  (((dat4 (Wr10 m) c).arrAt_in 0 rfl _).trans (A_eq4 (Wr10 m) c 0)).trans (W11_of m c main_v12 (by decide)).symm
theorem hF4_1 (c : Dev nD) : (dat4 (Wr10 m) c).arrAt 1 cfg4.N = Wr11 m c (Pipeline.arrRef spec4 1) :=
  (((dat4 (Wr10 m) c).arrAt_in 1 rfl _).trans (A_eq4 (Wr10 m) c 1)).trans (W11_of m c main_v24 (by decide)).symm
theorem hF4_2 (c : Dev nD) : (dat4 (Wr10 m) c).arrAt 2 cfg4.N = Wr11 m c (Pipeline.arrRef spec4 2) :=
  (((dat4 (Wr10 m) c).arrAt_in 2 rfl _).trans (A_eq4 (Wr10 m) c 2)).trans (W11_of m c main_v6 (by decide)).symm
theorem hF4_3 (c : Dev nD) : (dat4 (Wr10 m) c).arrAt 3 cfg4.N = Wr11 m c (Pipeline.arrRef spec4 3) :=
  (((dat4 (Wr10 m) c).arrAt_in 3 rfl _).trans (A_eq4 (Wr10 m) c 3)).trans (W11_of m c main_v29 (by decide)).symm
theorem hF4_4 (c : Dev nD) : (dat4 (Wr10 m) c).arrAt 4 cfg4.N = Wr11 m c (Pipeline.arrRef spec4 4) :=
  (((dat4 (Wr10 m) c).arrAt_in 4 rfl _).trans (A_eq4 (Wr10 m) c 4)).trans (W11_of m c main_v30 (by decide)).symm
theorem hF4_5 (c : Dev nD) : (dat4 (Wr10 m) c).arrAt 5 cfg4.N = Wr11 m c (Pipeline.arrRef spec4 5) :=
  (W11_out m c).symm
theorem hF4 (c : Dev nD) : ∀ w : Fin 6, (dat4 (Wr10 m) c).arrAt w cfg4.N = Wr11 m c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
  | ⟨_ + 6, h⟩ => absurd h (Nat.not_lt.2 (Nat.le_add_left _ _))
theorem hrest4 (c : Dev nD) : ∀ b, b ∉ Finset.univ.image (Pipeline.arrRef spec4) → Wr11 m c b = Wr10 m c b :=
  fun b hb => W11_of m c b fun hm => hb (Finset.mem_image.mpr (by
    simp only [List.mem_cons, List.not_mem_nil, _root_.or_false] at hm
    exact ⟨5, Finset.mem_univ _, hm.symm⟩))
theorem hF5_0 (c : Dev nD) : (dat5 (Wr12 m) c).arrAt 0 cfg5.N = Wr13 m c (Pipeline.arrRef spec5 0) :=
  (((dat5 (Wr12 m) c).arrAt_in 0 rfl _).trans (A_eq5 (Wr12 m) c 0)).trans (W13_of m c main_v31 (by decide)).symm
theorem hF5_1 (c : Dev nD) : (dat5 (Wr12 m) c).arrAt 1 cfg5.N = Wr13 m c (Pipeline.arrRef spec5 1) :=
  (((dat5 (Wr12 m) c).arrAt_in 1 rfl _).trans (A_eq5 (Wr12 m) c 1)).trans (W13_of m c main_v33 (by decide)).symm
theorem hF5_2 (c : Dev nD) : (dat5 (Wr12 m) c).arrAt 2 cfg5.N = Wr13 m c (Pipeline.arrRef spec5 2) :=
  (((dat5 (Wr12 m) c).arrAt_in 2 rfl _).trans (A_eq5 (Wr12 m) c 2)).trans (W13_of m c main_v36 (by decide)).symm
theorem hF5_3 (c : Dev nD) : (dat5 (Wr12 m) c).arrAt 3 cfg5.N = Wr13 m c (Pipeline.arrRef spec5 3) :=
  (W13_out m c).symm
theorem hF5 (c : Dev nD) : ∀ w : Fin 4, (dat5 (Wr12 m) c).arrAt w cfg5.N = Wr13 m c (Pipeline.arrRef spec5 w)
  | ⟨0, _⟩ => hF5_0 m c
  | ⟨1, _⟩ => hF5_1 m c
  | ⟨2, _⟩ => hF5_2 m c
  | ⟨3, _⟩ => hF5_3 m c
  | ⟨_ + 4, h⟩ => absurd h (Nat.not_lt.2 (Nat.le_add_left _ _))
theorem hrest5 (c : Dev nD) : ∀ b, b ∉ Finset.univ.image (Pipeline.arrRef spec5) → Wr13 m c b = Wr12 m c b :=
  fun b hb => W13_of m c b fun hm => hb (Finset.mem_image.mpr (by
    simp only [List.mem_cons, List.not_mem_nil, _root_.or_false] at hm
    exact ⟨3, Finset.mem_univ _, hm.symm⟩))
theorem hF6_0 (c : Dev nD) : (dat6 (Wr16 m) c).arrAt 0 cfg6.N = Wr17 m c (Pipeline.arrRef spec6 0) :=
  (((dat6 (Wr16 m) c).arrAt_in 0 rfl _).trans (A_eq6 (Wr16 m) c 0)).trans (W17_of m c main_v38 (by decide)).symm
theorem hF6_1 (c : Dev nD) : (dat6 (Wr16 m) c).arrAt 1 cfg6.N = Wr17 m c (Pipeline.arrRef spec6 1) :=
  (((dat6 (Wr16 m) c).arrAt_in 1 rfl _).trans (A_eq6 (Wr16 m) c 1)).trans (W17_of m c main_v39 (by decide)).symm
theorem hF6_2 (c : Dev nD) : (dat6 (Wr16 m) c).arrAt 2 cfg6.N = Wr17 m c (Pipeline.arrRef spec6 2) :=
  (((dat6 (Wr16 m) c).arrAt_in 2 rfl _).trans (A_eq6 (Wr16 m) c 2)).trans (W17_of m c main_v41 (by decide)).symm
theorem hF6_3 (c : Dev nD) : (dat6 (Wr16 m) c).arrAt 3 cfg6.N = Wr17 m c (Pipeline.arrRef spec6 3) :=
  (((dat6 (Wr16 m) c).arrAt_in 3 rfl _).trans (A_eq6 (Wr16 m) c 3)).trans (W17_of m c main_v44 (by decide)).symm
theorem hF6_4 (c : Dev nD) : (dat6 (Wr16 m) c).arrAt 4 cfg6.N = Wr17 m c (Pipeline.arrRef spec6 4) :=
  (W17_out0 m c).symm
theorem hF6_5 (c : Dev nD) : (dat6 (Wr16 m) c).arrAt 5 cfg6.N = Wr17 m c (Pipeline.arrRef spec6 5) :=
  (W17_out1 m c).symm
theorem hF6_6 (c : Dev nD) : (dat6 (Wr16 m) c).arrAt 6 cfg6.N = Wr17 m c (Pipeline.arrRef spec6 6) :=
  (W17_out2 m c).symm
theorem hF6 (c : Dev nD) : ∀ w : Fin 7, (dat6 (Wr16 m) c).arrAt w cfg6.N = Wr17 m c (Pipeline.arrRef spec6 w)
  | ⟨0, _⟩ => hF6_0 m c
  | ⟨1, _⟩ => hF6_1 m c
  | ⟨2, _⟩ => hF6_2 m c
  | ⟨3, _⟩ => hF6_3 m c
  | ⟨4, _⟩ => hF6_4 m c
  | ⟨5, _⟩ => hF6_5 m c
  | ⟨6, _⟩ => hF6_6 m c
  | ⟨_ + 7, h⟩ => absurd h (Nat.not_lt.2 (Nat.le_add_left _ _))
theorem hrest6 (c : Dev nD) : ∀ b, b ∉ Finset.univ.image (Pipeline.arrRef spec6) → Wr17 m c b = Wr16 m c b :=
  fun b hb => W17_of m c b fun hm => hb (Finset.mem_image.mpr (by
    simp only [List.mem_cons, List.mem_cons, List.mem_cons, List.not_mem_nil, _root_.or_false] at hm
    rcases hm with hm | hm | hm
    · exact ⟨4, Finset.mem_univ _, hm.symm⟩
    · exact ⟨5, Finset.mem_univ _, hm.symm⟩
    · exact ⟨6, Finset.mem_univ _, hm.symm⟩))
theorem hF7_0 (c : Dev nD) : (dat7 (Wr17 m) c).arrAt 0 cfg7.N = Wr18 m c (Pipeline.arrRef spec7 0) :=
  (((dat7 (Wr17 m) c).arrAt_in 0 rfl _).trans (A_eq7 (Wr17 m) c 0)).trans (W18_of m c main_v45_0 (by decide)).symm
theorem hF7_1 (c : Dev nD) : (dat7 (Wr17 m) c).arrAt 1 cfg7.N = Wr18 m c (Pipeline.arrRef spec7 1) :=
  (((dat7 (Wr17 m) c).arrAt_in 1 rfl _).trans (A_eq7 (Wr17 m) c 1)).trans (W18_of m c main_v39 (by decide)).symm
theorem hF7_2 (c : Dev nD) : (dat7 (Wr17 m) c).arrAt 2 cfg7.N = Wr18 m c (Pipeline.arrRef spec7 2) :=
  (((dat7 (Wr17 m) c).arrAt_in 2 rfl _).trans (A_eq7 (Wr17 m) c 2)).trans (W18_of m c main_v4 (by decide)).symm
theorem hF7_3 (c : Dev nD) : (dat7 (Wr17 m) c).arrAt 3 cfg7.N = Wr18 m c (Pipeline.arrRef spec7 3) :=
  (((dat7 (Wr17 m) c).arrAt_in 3 rfl _).trans (A_eq7 (Wr17 m) c 3)).trans (W18_of m c main_v45_1 (by decide)).symm
theorem hF7_4 (c : Dev nD) : (dat7 (Wr17 m) c).arrAt 4 cfg7.N = Wr18 m c (Pipeline.arrRef spec7 4) :=
  (((dat7 (Wr17 m) c).arrAt_in 4 rfl _).trans (A_eq7 (Wr17 m) c 4)).trans (W18_of m c main_v45_2 (by decide)).symm
theorem hF7_5 (c : Dev nD) : (dat7 (Wr17 m) c).arrAt 5 cfg7.N = Wr18 m c (Pipeline.arrRef spec7 5) :=
  (W18_out m c).symm
theorem hF7 (c : Dev nD) : ∀ w : Fin 6, (dat7 (Wr17 m) c).arrAt w cfg7.N = Wr18 m c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨5, _⟩ => hF7_5 m c
  | ⟨_ + 6, h⟩ => absurd h (Nat.not_lt.2 (Nat.le_add_left _ _))
theorem hrest7 (c : Dev nD) : ∀ b, b ∉ Finset.univ.image (Pipeline.arrRef spec7) → Wr18 m c b = Wr17 m c b :=
  fun b hb => W18_of m c b fun hm => hb (Finset.mem_image.mpr (by
    simp only [List.mem_cons, List.not_mem_nil, _root_.or_false] at hm
    exact ⟨5, Finset.mem_univ _, hm.symm⟩))
theorem hF8_0 (c : Dev nD) : (dat8 (Wr19 m) c).arrAt 0 cfg8.N = Wr20 m c (Pipeline.arrRef spec8 0) :=
  (((dat8 (Wr19 m) c).arrAt_in 0 rfl _).trans (A_eq8 (Wr19 m) c 0)).trans (W20_of m c main_v37 (by decide)).symm
theorem hF8_1 (c : Dev nD) : (dat8 (Wr19 m) c).arrAt 1 cfg8.N = Wr20 m c (Pipeline.arrRef spec8 1) :=
  (((dat8 (Wr19 m) c).arrAt_in 1 rfl _).trans (A_eq8 (Wr19 m) c 1)).trans (W20_of m c main_v49 (by decide)).symm
theorem hF8_2 (c : Dev nD) : (dat8 (Wr19 m) c).arrAt 2 cfg8.N = Wr20 m c (Pipeline.arrRef spec8 2) :=
  (((dat8 (Wr19 m) c).arrAt_in 2 rfl _).trans (A_eq8 (Wr19 m) c 2)).trans (W20_of m c main_v31 (by decide)).symm
theorem hF8_3 (c : Dev nD) : (dat8 (Wr19 m) c).arrAt 3 cfg8.N = Wr20 m c (Pipeline.arrRef spec8 3) :=
  (((dat8 (Wr19 m) c).arrAt_in 3 rfl _).trans (A_eq8 (Wr19 m) c 3)).trans (W20_of m c main_v54 (by decide)).symm
theorem hF8_4 (c : Dev nD) : (dat8 (Wr19 m) c).arrAt 4 cfg8.N = Wr20 m c (Pipeline.arrRef spec8 4) :=
  (((dat8 (Wr19 m) c).arrAt_in 4 rfl _).trans (A_eq8 (Wr19 m) c 4)).trans (W20_of m c main_v55 (by decide)).symm
theorem hF8_5 (c : Dev nD) : (dat8 (Wr19 m) c).arrAt 5 cfg8.N = Wr20 m c (Pipeline.arrRef spec8 5) :=
  (W20_out m c).symm
theorem hF8 (c : Dev nD) : ∀ w : Fin 6, (dat8 (Wr19 m) c).arrAt w cfg8.N = Wr20 m c (Pipeline.arrRef spec8 w)
  | ⟨0, _⟩ => hF8_0 m c
  | ⟨1, _⟩ => hF8_1 m c
  | ⟨2, _⟩ => hF8_2 m c
  | ⟨3, _⟩ => hF8_3 m c
  | ⟨4, _⟩ => hF8_4 m c
  | ⟨5, _⟩ => hF8_5 m c
  | ⟨_ + 6, h⟩ => absurd h (Nat.not_lt.2 (Nat.le_add_left _ _))
theorem hrest8 (c : Dev nD) : ∀ b, b ∉ Finset.univ.image (Pipeline.arrRef spec8) → Wr20 m c b = Wr19 m c b :=
  fun b hb => W20_of m c b fun hm => hb (Finset.mem_image.mpr (by
    simp only [List.mem_cons, List.not_mem_nil, _root_.or_false] at hm
    exact ⟨5, Finset.mem_univ _, hm.symm⟩))
theorem hF9_0 (c : Dev nD) : (dat9 (Wr21 m) c).arrAt 0 cfg9.N = Wr22 m c (Pipeline.arrRef spec9 0) :=
  (((dat9 (Wr21 m) c).arrAt_in 0 rfl _).trans (A_eq9 (Wr21 m) c 0)).trans (W22_of m c main_v56 (by decide)).symm
theorem hF9_1 (c : Dev nD) : (dat9 (Wr21 m) c).arrAt 1 cfg9.N = Wr22 m c (Pipeline.arrRef spec9 1) :=
  (((dat9 (Wr21 m) c).arrAt_in 1 rfl _).trans (A_eq9 (Wr21 m) c 1)).trans (W22_of m c main_v58 (by decide)).symm
theorem hF9_2 (c : Dev nD) : (dat9 (Wr21 m) c).arrAt 2 cfg9.N = Wr22 m c (Pipeline.arrRef spec9 2) :=
  (((dat9 (Wr21 m) c).arrAt_in 2 rfl _).trans (A_eq9 (Wr21 m) c 2)).trans (W22_of m c main_v61 (by decide)).symm
theorem hF9_3 (c : Dev nD) : (dat9 (Wr21 m) c).arrAt 3 cfg9.N = Wr22 m c (Pipeline.arrRef spec9 3) :=
  (W22_out m c).symm
theorem hF9 (c : Dev nD) : ∀ w : Fin 4, (dat9 (Wr21 m) c).arrAt w cfg9.N = Wr22 m c (Pipeline.arrRef spec9 w)
  | ⟨0, _⟩ => hF9_0 m c
  | ⟨1, _⟩ => hF9_1 m c
  | ⟨2, _⟩ => hF9_2 m c
  | ⟨3, _⟩ => hF9_3 m c
  | ⟨_ + 4, h⟩ => absurd h (Nat.not_lt.2 (Nat.le_add_left _ _))
theorem hrest9 (c : Dev nD) : ∀ b, b ∉ Finset.univ.image (Pipeline.arrRef spec9) → Wr22 m c b = Wr21 m c b :=
  fun b hb => W22_of m c b fun hm => hb (Finset.mem_image.mpr (by
    simp only [List.mem_cons, List.not_mem_nil, _root_.or_false] at hm
    exact ⟨3, Finset.mem_univ _, hm.symm⟩))
theorem hF10_0 (c : Dev nD) : (dat10 (Wr25 m) c).arrAt 0 cfg10.N = Wr26 m c (Pipeline.arrRef spec10 0) :=
  (((dat10 (Wr25 m) c).arrAt_in 0 rfl _).trans (A_eq10 (Wr25 m) c 0)).trans (W26_of m c main_v63 (by decide)).symm
theorem hF10_1 (c : Dev nD) : (dat10 (Wr25 m) c).arrAt 1 cfg10.N = Wr26 m c (Pipeline.arrRef spec10 1) :=
  (((dat10 (Wr25 m) c).arrAt_in 1 rfl _).trans (A_eq10 (Wr25 m) c 1)).trans (W26_of m c main_v64 (by decide)).symm
theorem hF10_2 (c : Dev nD) : (dat10 (Wr25 m) c).arrAt 2 cfg10.N = Wr26 m c (Pipeline.arrRef spec10 2) :=
  (((dat10 (Wr25 m) c).arrAt_in 2 rfl _).trans (A_eq10 (Wr25 m) c 2)).trans (W26_of m c main_v66 (by decide)).symm
theorem hF10_3 (c : Dev nD) : (dat10 (Wr25 m) c).arrAt 3 cfg10.N = Wr26 m c (Pipeline.arrRef spec10 3) :=
  (((dat10 (Wr25 m) c).arrAt_in 3 rfl _).trans (A_eq10 (Wr25 m) c 3)).trans (W26_of m c main_v69 (by decide)).symm
theorem hF10_4 (c : Dev nD) : (dat10 (Wr25 m) c).arrAt 4 cfg10.N = Wr26 m c (Pipeline.arrRef spec10 4) :=
  (W26_out0 m c).symm
theorem hF10_5 (c : Dev nD) : (dat10 (Wr25 m) c).arrAt 5 cfg10.N = Wr26 m c (Pipeline.arrRef spec10 5) :=
  (W26_out1 m c).symm
theorem hF10_6 (c : Dev nD) : (dat10 (Wr25 m) c).arrAt 6 cfg10.N = Wr26 m c (Pipeline.arrRef spec10 6) :=
  (W26_out2 m c).symm
theorem hF10 (c : Dev nD) : ∀ w : Fin 7, (dat10 (Wr25 m) c).arrAt w cfg10.N = Wr26 m c (Pipeline.arrRef spec10 w)
  | ⟨0, _⟩ => hF10_0 m c
  | ⟨1, _⟩ => hF10_1 m c
  | ⟨2, _⟩ => hF10_2 m c
  | ⟨3, _⟩ => hF10_3 m c
  | ⟨4, _⟩ => hF10_4 m c
  | ⟨5, _⟩ => hF10_5 m c
  | ⟨6, _⟩ => hF10_6 m c
  | ⟨_ + 7, h⟩ => absurd h (Nat.not_lt.2 (Nat.le_add_left _ _))
theorem hrest10 (c : Dev nD) : ∀ b, b ∉ Finset.univ.image (Pipeline.arrRef spec10) → Wr26 m c b = Wr25 m c b :=
  fun b hb => W26_of m c b fun hm => hb (Finset.mem_image.mpr (by
    simp only [List.mem_cons, List.mem_cons, List.mem_cons, List.not_mem_nil, _root_.or_false] at hm
    rcases hm with hm | hm | hm
    · exact ⟨4, Finset.mem_univ _, hm.symm⟩
    · exact ⟨5, Finset.mem_univ _, hm.symm⟩
    · exact ⟨6, Finset.mem_univ _, hm.symm⟩))
theorem hF11_0 (c : Dev nD) : (dat11 (Wr26 m) c).arrAt 0 cfg11.N = Wr27 m c (Pipeline.arrRef spec11 0) :=
  (((dat11 (Wr26 m) c).arrAt_in 0 rfl _).trans (A_eq11 (Wr26 m) c 0)).trans (W27_of m c main_v70_0 (by decide)).symm
theorem hF11_1 (c : Dev nD) : (dat11 (Wr26 m) c).arrAt 1 cfg11.N = Wr27 m c (Pipeline.arrRef spec11 1) :=
  (((dat11 (Wr26 m) c).arrAt_in 1 rfl _).trans (A_eq11 (Wr26 m) c 1)).trans (W27_of m c main_v64 (by decide)).symm
theorem hF11_2 (c : Dev nD) : (dat11 (Wr26 m) c).arrAt 2 cfg11.N = Wr27 m c (Pipeline.arrRef spec11 2) :=
  (((dat11 (Wr26 m) c).arrAt_in 2 rfl _).trans (A_eq11 (Wr26 m) c 2)).trans (W27_of m c main_v4 (by decide)).symm
theorem hF11_3 (c : Dev nD) : (dat11 (Wr26 m) c).arrAt 3 cfg11.N = Wr27 m c (Pipeline.arrRef spec11 3) :=
  (((dat11 (Wr26 m) c).arrAt_in 3 rfl _).trans (A_eq11 (Wr26 m) c 3)).trans (W27_of m c main_v70_1 (by decide)).symm
theorem hF11_4 (c : Dev nD) : (dat11 (Wr26 m) c).arrAt 4 cfg11.N = Wr27 m c (Pipeline.arrRef spec11 4) :=
  (((dat11 (Wr26 m) c).arrAt_in 4 rfl _).trans (A_eq11 (Wr26 m) c 4)).trans (W27_of m c main_v70_2 (by decide)).symm
theorem hF11_5 (c : Dev nD) : (dat11 (Wr26 m) c).arrAt 5 cfg11.N = Wr27 m c (Pipeline.arrRef spec11 5) :=
  (W27_out m c).symm
theorem hF11 (c : Dev nD) : ∀ w : Fin 6, (dat11 (Wr26 m) c).arrAt w cfg11.N = Wr27 m c (Pipeline.arrRef spec11 w)
  | ⟨0, _⟩ => hF11_0 m c
  | ⟨1, _⟩ => hF11_1 m c
  | ⟨2, _⟩ => hF11_2 m c
  | ⟨3, _⟩ => hF11_3 m c
  | ⟨4, _⟩ => hF11_4 m c
  | ⟨5, _⟩ => hF11_5 m c
  | ⟨_ + 6, h⟩ => absurd h (Nat.not_lt.2 (Nat.le_add_left _ _))
theorem hrest11 (c : Dev nD) : ∀ b, b ∉ Finset.univ.image (Pipeline.arrRef spec11) → Wr27 m c b = Wr26 m c b :=
  fun b hb => W27_of m c b fun hm => hb (Finset.mem_image.mpr (by
    simp only [List.mem_cons, List.not_mem_nil, _root_.or_false] at hm
    exact ⟨5, Finset.mem_univ _, hm.symm⟩))
theorem hF12_0 (c : Dev nD) : (dat12 (Wr28 m) c).arrAt 0 cfg12.N = Wr29 m c (Pipeline.arrRef spec12 0) :=
  (((dat12 (Wr28 m) c).arrAt_in 0 rfl _).trans (A_eq12 (Wr28 m) c 0)).trans (W29_of m c main_v62 (by decide)).symm
theorem hF12_1 (c : Dev nD) : (dat12 (Wr28 m) c).arrAt 1 cfg12.N = Wr29 m c (Pipeline.arrRef spec12 1) :=
  (((dat12 (Wr28 m) c).arrAt_in 1 rfl _).trans (A_eq12 (Wr28 m) c 1)).trans (W29_of m c main_v74 (by decide)).symm
theorem hF12_2 (c : Dev nD) : (dat12 (Wr28 m) c).arrAt 2 cfg12.N = Wr29 m c (Pipeline.arrRef spec12 2) :=
  (((dat12 (Wr28 m) c).arrAt_in 2 rfl _).trans (A_eq12 (Wr28 m) c 2)).trans (W29_of m c main_v56 (by decide)).symm
theorem hF12_3 (c : Dev nD) : (dat12 (Wr28 m) c).arrAt 3 cfg12.N = Wr29 m c (Pipeline.arrRef spec12 3) :=
  (((dat12 (Wr28 m) c).arrAt_in 3 rfl _).trans (A_eq12 (Wr28 m) c 3)).trans (W29_of m c main_v79 (by decide)).symm
theorem hF12_4 (c : Dev nD) : (dat12 (Wr28 m) c).arrAt 4 cfg12.N = Wr29 m c (Pipeline.arrRef spec12 4) :=
  (((dat12 (Wr28 m) c).arrAt_in 4 rfl _).trans (A_eq12 (Wr28 m) c 4)).trans (W29_of m c main_v80 (by decide)).symm
theorem hF12_5 (c : Dev nD) : (dat12 (Wr28 m) c).arrAt 5 cfg12.N = Wr29 m c (Pipeline.arrRef spec12 5) :=
  (W29_out m c).symm
theorem hF12 (c : Dev nD) : ∀ w : Fin 6, (dat12 (Wr28 m) c).arrAt w cfg12.N = Wr29 m c (Pipeline.arrRef spec12 w)
  | ⟨0, _⟩ => hF12_0 m c
  | ⟨1, _⟩ => hF12_1 m c
  | ⟨2, _⟩ => hF12_2 m c
  | ⟨3, _⟩ => hF12_3 m c
  | ⟨4, _⟩ => hF12_4 m c
  | ⟨5, _⟩ => hF12_5 m c
  | ⟨_ + 6, h⟩ => absurd h (Nat.not_lt.2 (Nat.le_add_left _ _))
theorem hrest12 (c : Dev nD) : ∀ b, b ∉ Finset.univ.image (Pipeline.arrRef spec12) → Wr29 m c b = Wr28 m c b :=
  fun b hb => W29_of m c b fun hm => hb (Finset.mem_image.mpr (by
    simp only [List.mem_cons, List.not_mem_nil, _root_.or_false] at hm
    exact ⟨5, Finset.mem_univ _, hm.symm⟩))
theorem hF13_0 (c : Dev nD) : (dat13 (Wr30 m) c).arrAt 0 cfg13.N = Wr31 m c (Pipeline.arrRef spec13 0) :=
  (((dat13 (Wr30 m) c).arrAt_in 0 rfl _).trans (A_eq13 (Wr30 m) c 0)).trans (W31_of m c main_v81 (by decide)).symm
theorem hF13_1 (c : Dev nD) : (dat13 (Wr30 m) c).arrAt 1 cfg13.N = Wr31 m c (Pipeline.arrRef spec13 1) :=
  (((dat13 (Wr30 m) c).arrAt_in 1 rfl _).trans (A_eq13 (Wr30 m) c 1)).trans (W31_of m c main_arg11 (by decide)).symm
theorem hF13_2 (c : Dev nD) : (dat13 (Wr30 m) c).arrAt 2 cfg13.N = Wr31 m c (Pipeline.arrRef spec13 2) :=
  (((dat13 (Wr30 m) c).arrAt_in 2 rfl _).trans (A_eq13 (Wr30 m) c 2)).trans (W31_of m c main_v82 (by decide)).symm
theorem hF13_3 (c : Dev nD) : (dat13 (Wr30 m) c).arrAt 3 cfg13.N = Wr31 m c (Pipeline.arrRef spec13 3) :=
  (W31_out m c).symm
theorem hF13 (c : Dev nD) : ∀ w : Fin 4, (dat13 (Wr30 m) c).arrAt w cfg13.N = Wr31 m c (Pipeline.arrRef spec13 w)
  | ⟨0, _⟩ => hF13_0 m c
  | ⟨1, _⟩ => hF13_1 m c
  | ⟨2, _⟩ => hF13_2 m c
  | ⟨3, _⟩ => hF13_3 m c
  | ⟨_ + 4, h⟩ => absurd h (Nat.not_lt.2 (Nat.le_add_left _ _))
theorem hrest13 (c : Dev nD) : ∀ b, b ∉ Finset.univ.image (Pipeline.arrRef spec13) → Wr31 m c b = Wr30 m c b :=
  fun b hb => W31_of m c b fun hm => hb (Finset.mem_image.mpr (by
    simp only [List.mem_cons, List.not_mem_nil, _root_.or_false] at hm
    exact ⟨3, Finset.mem_univ _, hm.symm⟩))
theorem hF14_0 (c : Dev nD) : (dat14 (Wr32 m) c).arrAt 0 cfg14.N = Wr33 m c (Pipeline.arrRef spec14 0) :=
  (((dat14 (Wr32 m) c).arrAt_in 0 rfl _).trans (A_eq14 (Wr32 m) c 0)).trans (W33_of m c main_v83 (by decide)).symm
theorem hF14_1 (c : Dev nD) : (dat14 (Wr32 m) c).arrAt 1 cfg14.N = Wr33 m c (Pipeline.arrRef spec14 1) :=
  (((dat14 (Wr32 m) c).arrAt_in 1 rfl _).trans (A_eq14 (Wr32 m) c 1)).trans (W33_of m c main_arg13 (by decide)).symm
theorem hF14_2 (c : Dev nD) : (dat14 (Wr32 m) c).arrAt 2 cfg14.N = Wr33 m c (Pipeline.arrRef spec14 2) :=
  (((dat14 (Wr32 m) c).arrAt_in 2 rfl _).trans (A_eq14 (Wr32 m) c 2)).trans (W33_of m c main_v84 (by decide)).symm
theorem hF14_3 (c : Dev nD) : (dat14 (Wr32 m) c).arrAt 3 cfg14.N = Wr33 m c (Pipeline.arrRef spec14 3) :=
  (W33_out m c).symm
theorem hF14 (c : Dev nD) : ∀ w : Fin 4, (dat14 (Wr32 m) c).arrAt w cfg14.N = Wr33 m c (Pipeline.arrRef spec14 w)
  | ⟨0, _⟩ => hF14_0 m c
  | ⟨1, _⟩ => hF14_1 m c
  | ⟨2, _⟩ => hF14_2 m c
  | ⟨3, _⟩ => hF14_3 m c
  | ⟨_ + 4, h⟩ => absurd h (Nat.not_lt.2 (Nat.le_add_left _ _))
theorem hrest14 (c : Dev nD) : ∀ b, b ∉ Finset.univ.image (Pipeline.arrRef spec14) → Wr33 m c b = Wr32 m c b :=
  fun b hb => W33_of m c b fun hm => hb (Finset.mem_image.mpr (by
    simp only [List.mem_cons, List.not_mem_nil, _root_.or_false] at hm
    exact ⟨3, Finset.mem_univ _, hm.symm⟩))

end Cert.KernelIdeal.Hand

end
-- ==== Proof.KI.Seg0.lean ====
/- Region 0 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 as a segment: from every unscoped buffer at W1 beside R, to every unscoped buffer at W2 beside R. -/
def reg0 : Pipeline.RegionSeg (pcfgs (F := F)) GenP.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Wr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Wr1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Wr1 m c) (A_eq0 (Wr1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Wr1 m c) (Wr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/- Region 1 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 as a segment: from every unscoped buffer at W3 beside R, to every unscoped buffer at W4 beside R. -/
def reg1 : Pipeline.RegionSeg (pcfgs (F := F)) GenP.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Wr3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Wr3 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Wr3 m c) (A_eq1 (Wr3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Wr3 m c) (Wr4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/- Region 2 of @main over the thread state: entered from every unscoped buffer at the contents before it, left at the
   contents after it. Its windowed arrays are split out of the unscoped buffers at entry and put back at exit at the
   contents the pipeline's write-backs leave; the generator register and the scoped rest go into the region's own invariant (which carries the running
   maximum and sum across the points) and come back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 as a segment: from every unscoped buffer at W7 beside R, to every unscoped buffer at W8 beside R. -/
def reg2 : Pipeline.RegionSeg (pcfgs (F := F)) GenP.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (Wr7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (Wr7 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (Wr7 m c) (A_eq2 (Wr7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (Wr7 m) c)
    unfold Pipeline.ΦA
    iintro ⟨Hp, -, Hr⟩
    isplitl [Hr]; · iexact Hr
    iexact Hp
  hout c := by
    rw [Pipeline.ownSems0_none]
    refine (hout2 (Wr7 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (Wr7 m c) (Wr8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/- Region 3 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 as a segment: from every unscoped buffer at W8 beside R, to every unscoped buffer at W9 beside R. -/
def reg3 : Pipeline.RegionSeg (pcfgs (F := F)) GenP.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (Wr8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (Wr8 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (Wr8 m c) (A_eq3 (Wr8 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (Wr8 m c) (Wr9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/- Region 4 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 as a segment: from every unscoped buffer at W10 beside R, to every unscoped buffer at W11 beside R. -/
def reg4 : Pipeline.RegionSeg (pcfgs (F := F)) GenP.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (Wr10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (Wr10 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (Wr10 m c) (A_eq4 (Wr10 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (Wr10 m c) (Wr11 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/- Region 5 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 as a segment: from every unscoped buffer at W12 beside R, to every unscoped buffer at W13 beside R. -/
def reg5 : Pipeline.RegionSeg (pcfgs (F := F)) GenP.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (Wr12 m) c).loose
  hwaits := Pipeline.hwaits_of_owed_zero _ _ _ _ L lv 5 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec5 c (Wr12 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (Wr12 m c) (A_eq5 (Wr12 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (Wr12 m c) (Wr13 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/- Region 6 of @main over the thread state: entered from every unscoped buffer at the contents before it, left at the
   contents after it. Its windowed arrays are split out of the unscoped buffers at entry and put back at exit at the
   contents the pipeline's write-backs leave; the generator register and the scoped rest go into the region's own invariant (which carries the running
   maximum and sum across the points) and come back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 6 as a segment: from every unscoped buffer at W16 beside R, to every unscoped buffer at W17 beside R. -/
def reg6 : Pipeline.RegionSeg (pcfgs (F := F)) GenP.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (Wr16 m) c).loose
  hwaits := Pipeline.hwaits_of_owed_zero _ _ _ _ L lv 6 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec6 c (Wr16 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (Wr16 m c) (A_eq6 (Wr16 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec6 c : sProp 𝕄)).trans (hin6 (Wr16 m) c)
    unfold Pipeline.ΦA
    iintro ⟨Hp, -, Hr⟩
    isplitl [Hr]; · iexact Hr
    iexact Hp
  hout c := by
    rw [Pipeline.ownSems0_none]
    refine (hout6 (Wr16 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (Wr16 m c) (Wr17 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
/- Region 7 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 7 as a segment: from every unscoped buffer at W17 beside R, to every unscoped buffer at W18 beside R. -/
def reg7 : Pipeline.RegionSeg (pcfgs (F := F)) GenP.adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (Wr17 m) c).loose
  hwaits := Pipeline.hwaits_of_owed_zero _ _ _ _ L lv 7 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec7 c (Wr17 m c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (Wr17 m c) (A_eq7 (Wr17 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (Wr17 m c) (Wr18 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
/- Region 8 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 as a segment: from every unscoped buffer at W19 beside R, to every unscoped buffer at W20 beside R. -/
def reg8 : Pipeline.RegionSeg (pcfgs (F := F)) GenP.adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (Wr19 m) c).loose
  hwaits := Pipeline.hwaits_of_owed_zero _ _ _ _ L lv 8 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec8 c (Wr19 m c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (Wr19 m c) (A_eq8 (Wr19 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (Wr19 m c) (Wr20 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
/- Region 9 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 9 as a segment: from every unscoped buffer at W21 beside R, to every unscoped buffer at W22 beside R. -/
def reg9 : Pipeline.RegionSeg (pcfgs (F := F)) GenP.adm (pdats m) () defs₀ Variants.none L lv 9 where
  win := launch9.win.to₀
  block_pos := launch9.block_pos
  stage_whole := launch9.stage_whole
  K := PEmpty
  osem k := k.elim
  ho := Pipeline.OwnSemFacts.none _
  hbody c := (body_obligation9 (Wr21 m) c).loose
  hwaits := Pipeline.hwaits_of_owed_zero _ _ _ _ L lv 9 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec9 c (Wr21 m c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (Wr21 m c) (A_eq9 (Wr21 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (Wr21 m c) (Wr22 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg10.lean ====
/- Region 10 of @main over the thread state: entered from every unscoped buffer at the contents before it, left at the
   contents after it. Its windowed arrays are split out of the unscoped buffers at entry and put back at exit at the
   contents the pipeline's write-backs leave; the generator register and the scoped rest go into the region's own invariant (which carries the running
   maximum and sum across the points) and come back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 10 as a segment: from every unscoped buffer at W25 beside R, to every unscoped buffer at W26 beside R. -/
def reg10 : Pipeline.RegionSeg (pcfgs (F := F)) GenP.adm (pdats m) () defs₀ Variants.none L lv 10 where
  win := launch10.win.to₀
  block_pos := launch10.block_pos
  stage_whole := launch10.stage_whole
  K := PEmpty
  osem k := k.elim
  ho := Pipeline.OwnSemFacts.none _
  hbody c := (body_obligation10 (Wr25 m) c).loose
  hwaits := Pipeline.hwaits_of_owed_zero _ _ _ _ L lv 10 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (Wr25 m c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (Wr25 m c) (A_eq10 (Wr25 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec10 c : sProp 𝕄)).trans (hin10 (Wr25 m) c)
    unfold Pipeline.ΦA
    iintro ⟨Hp, -, Hr⟩
    isplitl [Hr]; · iexact Hr
    iexact Hp
  hout c := by
    rw [Pipeline.ownSems0_none]
    refine (hout10 (Wr25 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (Wr25 m c) (Wr26 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg11.lean ====
/- Region 11 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 11 as a segment: from every unscoped buffer at W26 beside R, to every unscoped buffer at W27 beside R. -/
def reg11 : Pipeline.RegionSeg (pcfgs (F := F)) GenP.adm (pdats m) () defs₀ Variants.none L lv 11 where
  win := launch11.win.to₀
  block_pos := launch11.block_pos
  stage_whole := launch11.stage_whole
  K := PEmpty
  osem k := k.elim
  ho := Pipeline.OwnSemFacts.none _
  hbody c := (body_obligation11 (Wr26 m) c).loose
  hwaits := Pipeline.hwaits_of_owed_zero _ _ _ _ L lv 11 fun _ _ => rfl
  pre c := iprop(StableHlo.held (c : Thread nD τ) (Pipeline.ucRefs τ sig) (W26 m c) ∗ R c)
  post c := iprop(StableHlo.held (c : Thread nD τ) (Pipeline.ucRefs τ sig) (W27 m c) ∗ R c)
  X c := iprop(∃ r, prngReg c r)
  Y c := iprop(∃ r, prngReg c r)
  Z c := Pipeline.unscopedRest (Ix := Unit) (Name := ℕ) (U := UR sig nD τ) (Lvl := ℕ) spec11 c (Wr26 m c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (Wr26 m c) (A_eq11 (Wr26 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (Wr26 m c) (Wr27 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg12.lean ====
/- Region 12 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 12 as a segment: from every unscoped buffer at W28 beside R, to every unscoped buffer at W29 beside R. -/
def reg12 : Pipeline.RegionSeg (pcfgs (F := F)) GenP.adm (pdats m) () defs₀ Variants.none L lv 12 where
  win := launch12.win.to₀
  block_pos := launch12.block_pos
  stage_whole := launch12.stage_whole
  K := PEmpty
  osem k := k.elim
  ho := Pipeline.OwnSemFacts.none _
  hbody c := (body_obligation12 (Wr28 m) c).loose
  hwaits := Pipeline.hwaits_of_owed_zero _ _ _ _ L lv 12 fun _ _ => rfl
  pre c := iprop(StableHlo.held (c : Thread nD τ) (Pipeline.ucRefs τ sig) (W28 m c) ∗ R c)
  post c := iprop(StableHlo.held (c : Thread nD τ) (Pipeline.ucRefs τ sig) (W29 m c) ∗ R c)
  X c := iprop(∃ r, prngReg c r)
  Y c := iprop(∃ r, prngReg c r)
  Z c := Pipeline.unscopedRest (Ix := Unit) (Name := ℕ) (U := UR sig nD τ) (Lvl := ℕ) spec12 c (Wr28 m c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (Wr28 m c) (A_eq12 (Wr28 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (Wr28 m c) (Wr29 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg13.lean ====
/- Region 13 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 13 as a segment: from every unscoped buffer at W30 beside R, to every unscoped buffer at W31 beside R. -/
def reg13 : Pipeline.RegionSeg (pcfgs (F := F)) GenP.adm (pdats m) () defs₀ Variants.none L lv 13 where
  win := launch13.win.to₀
  block_pos := launch13.block_pos
  stage_whole := launch13.stage_whole
  K := PEmpty
  osem k := k.elim
  ho := Pipeline.OwnSemFacts.none _
  hbody c := (body_obligation13 (Wr30 m) c).loose
  hwaits := Pipeline.hwaits_of_owed_zero _ _ _ _ L lv 13 fun _ _ => rfl
  pre c := iprop(StableHlo.held (c : Thread nD τ) (Pipeline.ucRefs τ sig) (W30 m c) ∗ R c)
  post c := iprop(StableHlo.held (c : Thread nD τ) (Pipeline.ucRefs τ sig) (W31 m c) ∗ R c)
  X c := iprop(∃ r, prngReg c r)
  Y c := iprop(∃ r, prngReg c r)
  Z c := Pipeline.unscopedRest (Ix := Unit) (Name := ℕ) (U := UR sig nD τ) (Lvl := ℕ) spec13 c (Wr30 m c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (Wr30 m c) (A_eq13 (Wr30 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (Wr30 m c) (Wr31 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg14.lean ====
/- Region 14 of @main over the thread state: entered from every unscoped buffer at the contents before it, left at the
   contents after it. Its windowed arrays are split out of the unscoped buffers at entry and put back at exit at the
   contents the pipeline's write-backs leave; the generator register goes into the region invariant and comes back;
   nothing is owed; the kernel has no semaphore of its own. Generic in the float family. -/
import proofs.«417395_j71579924955534_2_alg».proof.Proof.KI.Chain
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 14 as a segment: from every unscoped buffer at W32 beside R, to every unscoped buffer at W33 beside R. -/
def reg14 : Pipeline.RegionSeg (pcfgs (F := F)) GenP.adm (pdats m) () defs₀ Variants.none L lv 14 where
  win := launch14.win.to₀
  block_pos := launch14.block_pos
  stage_whole := launch14.stage_whole
  K := PEmpty
  osem k := k.elim
  ho := Pipeline.OwnSemFacts.none _
  hbody c := (body_obligation14 (Wr32 m) c).loose
  hwaits := Pipeline.hwaits_of_owed_zero _ _ _ _ L lv 14 fun _ _ => rfl
  pre c := iprop(StableHlo.held (c : Thread nD τ) (Pipeline.ucRefs τ sig) (W32 m c) ∗ R c)
  post c := iprop(StableHlo.held (c : Thread nD τ) (Pipeline.ucRefs τ sig) (W33 m c) ∗ R c)
  X c := iprop(∃ r, prngReg c r)
  Y c := iprop(∃ r, prngReg c r)
  Z c := Pipeline.unscopedRest (Ix := Unit) (Name := ℕ) (U := UR sig nD τ) (Lvl := ℕ) spec14 c (Wr32 m c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (Wr32 m c) (A_eq14 (Wr32 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (Wr32 m c) (Wr33 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/- The run of @main: the fifteen regions' segments and the host stretches between them chained from the launch to the
   return. Every weakly fair execution from a memory with zero counters terminates, and every final memory holds
   each unscoped buffer at the last boundary's contents; from that, the result array at what the last pipeline's
   write-backs leave and every argument array as launched. Generic in the float family. -/
import proofs.«417395_j71579924955534_2_alg».proof.Proof.KI.Chain
import proofs.«417395_j71579924955534_2_alg».proof.Proof.KI.Seg0
import proofs.«417395_j71579924955534_2_alg».proof.Proof.KI.Seg1
import proofs.«417395_j71579924955534_2_alg».proof.Proof.KI.Seg2
import proofs.«417395_j71579924955534_2_alg».proof.Proof.KI.Seg3
import proofs.«417395_j71579924955534_2_alg».proof.Proof.KI.Seg4
import proofs.«417395_j71579924955534_2_alg».proof.Proof.KI.Seg5
import proofs.«417395_j71579924955534_2_alg».proof.Proof.KI.Seg6
import proofs.«417395_j71579924955534_2_alg».proof.Proof.KI.Seg7
import proofs.«417395_j71579924955534_2_alg».proof.Proof.KI.Seg8
import proofs.«417395_j71579924955534_2_alg».proof.Proof.KI.Seg9
import proofs.«417395_j71579924955534_2_alg».proof.Proof.KI.Seg10
import proofs.«417395_j71579924955534_2_alg».proof.Proof.KI.Seg11
import proofs.«417395_j71579924955534_2_alg».proof.Proof.KI.Seg12
import proofs.«417395_j71579924955534_2_alg».proof.Proof.KI.Seg13
import proofs.«417395_j71579924955534_2_alg».proof.Proof.KI.Seg14
import Idealize.ShloMosaic.Lib.Pipeline.Regions
import Idealize.ShloMosaic.Lib.Pipeline.RegionsLoop
import Idealize.ShloMosaic.Lib.Pipeline.Frame

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-- The rest beside the buffers is the same between any two items. -/
abbrev E : Fin 16 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Equal contents, equal thread states. -/
theorem held_congr {c : Dev nD} {V V' : Valuation τ sig (Elt F)} (h : V = V') (P : sProp 𝕄) :
    iprop(StableHlo.held (c : Thread nD τ) (Pipeline.ucRefs τ sig) V ∗ P) ⊢ iprop(StableHlo.held (c : Thread nD τ) (Pipeline.ucRefs τ sig) V' ∗ P) := by
  subst h; exact .rfl

set_option backward.isDefEq.respectTransparency.types false in
/-- Every weakly fair execution of @main from memory m with zero counters terminates, and every final memory holds each
    unscoped buffer of each core at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W33 m c b) := by
  have hlast : ∀ c : Dev nD, iprop(StableHlo.held (c : Thread nD τ) (Pipeline.ucRefs τ sig) (V33 m (outsW m) c) ∗ R c)
      ⊢ (iprop((StableHlo.held (c : Thread nD τ) (Pipeline.ucRefs τ sig) (W33 m c) ∗ ∃ r, prngReg c r)
          ∗ ∃ W, owes (c : Thread nD τ) (0 : CellTallies nD τ sig Unit) W) : sProp 𝕄) := fun c => by
    rw [V33_eq]
    iintro ⟨Hh, Hp, HO⟩
    isplitl [Hh Hp]
    · isplitl [Hh] <;> iassumption
    iexact HO
  refine Pipeline.θ_run_regions_kit_dev (pcfgs (F := F)) adm (pdats m) () cellOf_inj emb₁ defs₀ Variants.none L lv m ρ main
    (segs m (outsW m) Variants.none L lv (E (F := F)) () (pdats m) (reg0 m) (reg1 m) (reg2 m) (reg3 m) (reg4 m) (reg5 m) (reg6 m) (reg7 m) (reg8 m) (reg9 m) (reg10 m) (reg11 m) (reg12 m) (reg13 m) (reg14 m))
    (fun c Q => by
      rewrite [main_chain c, Seg.run_eq_chain,
        show (segs m (outsW m) Variants.none L lv (E (F := F)) () (pdats m) (reg0 m) (reg1 m) (reg2 m) (reg3 m) (reg4 m) (reg5 m) (reg6 m) (reg7 m) (reg8 m) (reg9 m) (reg10 m) (reg11 m) (reg12 m) (reg13 m) (reg14 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          StableHlo.seq hostOps10_2,
          Prog.lift (.customCall (Pipeline.entry 10) ()),
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()) ] from rfl]
      with_reducible exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W33 m c) ∗ ∃ r, prngReg c r))
    (hch := fun c => ⟨.rfl,
      held_congr (V1_eq m c) (R c),
      held_congr (V2_eq m c).symm (R c),
      held_congr (V3_eq m c) (R c),
      held_congr (V4_eq m c).symm (R c),
      .rfl,
      .rfl,
      held_congr (V7_eq m c) (R c),
      (held_congr (V8_eq m c).symm (R c)).trans (held_congr (V8_eq m c) (R c)),
      held_congr (V9_eq m c).symm (R c),
      held_congr (V10_eq m c) (R c),
      held_congr (V11_eq m c).symm (R c),
      held_congr (V12_eq m c) (R c),
      held_congr (V13_eq m c).symm (R c),
      .rfl,
      .rfl,
      held_congr (V16_eq m c) (R c),
      (held_congr (V17_eq m c).symm (R c)).trans (held_congr (V17_eq m c) (R c)),
      held_congr (V18_eq m c).symm (R c),
      held_congr (V19_eq m c) (R c),
      held_congr (V20_eq m c).symm (R c),
      held_congr (V21_eq m c) (R c),
      held_congr (V22_eq m c).symm (R c),
      .rfl,
      .rfl,
      held_congr (V25_eq m c) (R c),
      (held_congr (V26_eq m c).symm (R c)).trans (held_congr (V26_eq m c) (R c)),
      held_congr (V27_eq m c).symm (R c),
      held_congr (V28_eq m c) (R c),
      held_congr (V29_eq m c).symm (R c),
      held_congr (V30_eq m c) (R c),
      held_congr (V31_eq m c).symm (R c),
      held_congr (V32_eq m c) (R c),
      (held_congr (V33_eq m c).symm (R c)).trans (hlast c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m c b)
    (hfin := fun c s' => by
      iintro ⟨⟨Hh, -⟩, HSI⟩
      unfold StableHlo.held
      imodintro
      iapply (pointsTo_read_all (Pipeline.ucRefs τ sig) (fun b => (((c : Thread nD τ)).1, b)) (W33 m c) s')
      isplitl [Hh] <;> iassumption)
    (hQ := fun _ h => h)

/-- Under the run's post, the result array holds what the last pipeline's write-backs leave. -/
theorem result_eq (r : PUnit × MemSt nD τ sig (Elt F))
    (h : ∀ c : Dev nD, ∀ b ∈ Pipeline.ucRefs τ sig, r.2.mem (((c : Thread nD τ)).1, b) = W33 m c b) (c : Dev nD) :
    r.2.mem ((c.tc : Thread nD τ).loc main_v85) = (dat14 (Wr32 m) c).arrAt 3 cfg14.N :=
  (h c _ (mem_uc main_v85 (by decide))).trans (W33_out m c)

/-- An argument array at the last boundary holds its launch contents: no host stretch writes it, no region may change it. -/
theorem W33_arg (c : Dev nD) (r : Ref sig .tc) (hr : V33 m (outsW m) c r = m ((c : Thread nD τ).loc r)) :
    W33 m c r = m ((c : Thread nD τ).loc r) :=
  (congrFun (V33_eq m c) (Proc.devRef .tc r)).symm.trans hr

/-- The run with the result array and the argument arrays read off: the result at the last boundary's contents, every
    argument as launched. -/
theorem run_value (ρ : Dev nD → PrngReg) :
    θ_run defs (onTc (τ := τ) (main (F := F))) ⟨m, fun _ => 0, ρ⟩ (fun r => ∀ c : Dev nD,
      r.2.mem ((c.tc : Thread nD τ).loc main_v85) = W33 m c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs (onTc (τ := τ) (main (F := F))) ⟨m, fun _ => 0, ρ⟩).monotone
    (fun r h c => ⟨h c _ (mem_uc main_v85 (by decide)),
      (h c _ (mem_uc main_arg0 (by decide))).trans (W33_arg m c main_arg0 (V33_main_arg0 m (outsW m) c)),
      (h c _ (mem_uc main_arg1 (by decide))).trans (W33_arg m c main_arg1 (V33_main_arg1 m (outsW m) c)),
      (h c _ (mem_uc main_arg2 (by decide))).trans (W33_arg m c main_arg2 (V33_main_arg2 m (outsW m) c)),
      (h c _ (mem_uc main_arg3 (by decide))).trans (W33_arg m c main_arg3 (V33_main_arg3 m (outsW m) c)),
      (h c _ (mem_uc main_arg4 (by decide))).trans (W33_arg m c main_arg4 (V33_main_arg4 m (outsW m) c)),
      (h c _ (mem_uc main_arg5 (by decide))).trans (W33_arg m c main_arg5 (V33_main_arg5 m (outsW m) c)),
      (h c _ (mem_uc main_arg6 (by decide))).trans (W33_arg m c main_arg6 (V33_main_arg6 m (outsW m) c)),
      (h c _ (mem_uc main_arg7 (by decide))).trans (W33_arg m c main_arg7 (V33_main_arg7 m (outsW m) c)),
      (h c _ (mem_uc main_arg8 (by decide))).trans (W33_arg m c main_arg8 (V33_main_arg8 m (outsW m) c)),
      (h c _ (mem_uc main_arg9 (by decide))).trans (W33_arg m c main_arg9 (V33_main_arg9 m (outsW m) c)),
      (h c _ (mem_uc main_arg10 (by decide))).trans (W33_arg m c main_arg10 (V33_main_arg10 m (outsW m) c)),
      (h c _ (mem_uc main_arg11 (by decide))).trans (W33_arg m c main_arg11 (V33_main_arg11 m (outsW m) c)),
      (h c _ (mem_uc main_arg12 (by decide))).trans (W33_arg m c main_arg12 (V33_main_arg12 m (outsW m) c)),
      (h c _ (mem_uc main_arg13 (by decide))).trans (W33_arg m c main_arg13 (V33_main_arg13 m (outsW m) c)),
      (h c _ (mem_uc main_arg14 (by decide))).trans (W33_arg m c main_arg14 (V33_main_arg14 m (outsW m) c))⟩)
    (run_all m ρ)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs (onTc (τ := τ) (main (F := F))) ⟨m, fun _ => 0, ρ⟩).monotone (fun r h c => (h c).2) (run_value m ρ)

end Cert.KernelIdeal.Hand

end
-- ==== Proof.Spec.lean ====
/-
  The network as index-level functions of extended-real arrays: what both programs compute at the ideal
  instance, stated once, with no program in sight. An array is a function on the index type of a literal
  shape; an edge list is given by the two maps `row`, `col` from edges to nodes.

  One layer: `hl = h·W + b`; per edge `e` the score
  `s e = leaky (hl[row e]·a_top + hl[col e]·a_bot + a_b)`; the GLOBAL softmax over all edges
  `p e = exp (s e − max s) / ∑ exp (s − max s)`; the message `p e · w e · hl[col e]` summed into node `row e`;
  then `h + layernorm (relu (hl + agg))`. The head is two dense maps, a relu between them and a logistic after.
-/
import Idealize.ShloMosaic.PureOps.Ideal
import Idealize.ShloMosaic.Lib.ValueIdx

open scoped BigOperators

noncomputable section

namespace Cert.Spec

open Idealize.ShloMosaic Idealize.ShloMosaic.ValueIdx

/-- Arrays of rank 1, 2, 3 over the extended reals. -/
abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

/-- The two coordinates of a rank-2 index, at their plain types. -/
abbrev c0 {a b : ℕ} (j : (⟨2, ![a, b]⟩ : Shape).Idx) : Fin a := j 0
abbrev c1 {a b : ℕ} (j : (⟨2, ![a, b]⟩ : Shape).Idx) : Fin b := j 1
/-- The coordinate of a rank-1 index. -/
abbrev d0 {a : ℕ} (j : (⟨1, ![a]⟩ : Shape).Idx) : Fin a := j 0

/-- Layer `i` of a stack of matrices / of rows. -/
def sel3 {a b : ℕ} (i : Fin 3) (W : A3 3 a b) : A2 a b := fun j => W (ix3 i (c0 j) (c1 j))
def sel2 {a : ℕ} (i : Fin 3) (B : A2 3 a) : A1 a := fun j => B (ix2 i (d0 j))

/-- `x·w + b`, the bias along the rows. -/
def dense {M K N : ℕ} (x : A2 M K) (w : A2 K N) (b : A1 N) : A2 M N :=
  fun j => (∑ k : Fin K, x (ix2 (c0 j) k) * w (ix2 k (c1 j))) + b (ix1 (c1 j))

/-- `max x 0`, elementwise. -/
def relu {s : Shape} (x : s.Idx → EReal) : s.Idx → EReal := fun j => max (x j) 0

/-- The logistic function, elementwise. -/
def sigm {s : Shape} (x : s.Idx → EReal) : s.Idx → EReal := fun j => Ideal.logistic (x j)

/-- The rows of `h` named by `r`. -/
def rowsOf {N D E : ℕ} (h : A2 N D) (r : Fin E → Fin N) : A2 E D := fun j => h (ix2 (r (c0 j)) (c1 j))

/-- The negative slope of the leaky relu, the f32 nearest 0.01. -/
def slope : EReal := Ideal.ofBits .f32 0x3C23D70A#32
/-- The layernorm's epsilon, the f32 nearest 1e-5, and the row length 64. -/
def eps : EReal := Ideal.ofBits .f32 0x3727C5AC#32
def c64 : EReal := Ideal.ofBits .f32 0x42800000#32

/-- `x` where `0 ≤ x`, else `slope · x`. -/
def leaky (x : EReal) : EReal := if 0 ≤ x then x else slope * x

/-- The attention score of edge `e`: the two halves of the 128-vector `aw` against the two gathered rows. -/
def score {E : ℕ} (hi hj : A2 E 64) (aw : A2 128 1) (ab : A1 1) : Fin E → EReal := fun e =>
  leaky (((∑ k : Fin 64, hi (ix2 e k) * aw (ix2 (Fin.castLE (by omega) k : Fin 128) (0 : Fin 1)))
      + (∑ k : Fin 64, hj (ix2 e k) * aw (ix2 (⟨64 + k.val, by omega⟩ : Fin 128) (0 : Fin 1))))
    + ab (ix1 (0 : Fin 1)))

/-- The largest score (`⊥` over no edge) and the softmax denominator. -/
def smax {E : ℕ} (s : Fin E → EReal) : EReal := Finset.univ.sup s
def ssum {E : ℕ} (s : Fin E → EReal) : EReal := ∑ e : Fin E, Ideal.exp (s e - smax s)

/-- The message of edge `e`, feature `q`: softmax weight times edge weight times the gathered row. -/
def message {E : ℕ} (s : Fin E → EReal) (hj : A2 E 64) (ew : A1 E) : A2 E 64 :=
  fun j => ((Ideal.div (Ideal.exp (s (c0 j) - smax s)) (ssum s)) * ew (ix1 (c0 j))) * hj j

/-- The messages summed into their target nodes. -/
def aggregate {E N : ℕ} (msg : A2 E 64) (r : Fin E → Fin N) : A2 N 64 :=
  fun j => ∑ e ∈ Finset.univ.filter (fun e : Fin E => r e = c0 j), msg (ix2 e (c1 j))

/-- `h + layernorm (relu (hl + agg))`, the norm over the 64 features of a node. -/
def finalize {N : ℕ} (hl agg h : A2 N 64) (g b : A1 64) : A2 N 64 := fun j =>
  let t : Fin 64 → EReal := fun q => max (hl (ix2 (c0 j) q) + agg (ix2 (c0 j) q)) 0
  let mu : EReal := Ideal.div (∑ q : Fin 64, t q) c64
  let var : EReal := Ideal.div (∑ q : Fin 64, (t q - mu) * (t q - mu)) c64
  h j + ((((t (c1 j) - mu) * Ideal.rsqrt (var + eps)) * g (ix1 (c1 j))) + b (ix1 (c1 j)))

/-- One layer. -/
def layer {N E : ℕ} (row col : Fin E → Fin N) (ew : A1 E) (h : A2 N 64)
    (lw : A2 64 64) (lb : A1 64) (aw : A2 128 1) (ab : A1 1) (g b : A1 64) : A2 N 64 :=
  let hl := dense h lw lb
  let hi := rowsOf hl row
  let hj := rowsOf hl col
  let s := score hi hj aw ab
  finalize hl (aggregate (message s hj ew) row) h g b

/-- The whole network. -/
def network {N E : ℕ} (row col : Fin E → Fin N) (x : A2 N 12) (ew : A1 E) (inW : A2 12 64) (inb : A1 64)
    (linW : A3 3 64 64) (linb : A2 3 64) (attW : A3 3 128 1) (attb : A2 3 1) (lng lnb : A2 3 64)
    (o1W : A2 64 32) (o1b : A1 32) (o2W : A2 32 1) (o2b : A1 1) : A2 N 1 :=
  let h0 := dense x inW inb
  let L := fun (i : Fin 3) (h : A2 N 64) =>
    layer row col ew h (sel3 i linW) (sel2 i linb) (sel3 i attW) (sel2 i attb) (sel2 i lng) (sel2 i lnb)
  let h3 := L 2 (L 1 (L 0 h0))
  sigm (dense (relu (dense h3 o1W o1b)) o2W o2b)

/-! ## The kernel's own arrangements (equal to the forms above on real-valued scores) -/

/-- The message with the softmax denominator's RECIPROCAL taken once: `exp (s − m) · (1 / l) · w · hj`, the score,
    the edge weight as `[E, 1]` columns, the maximum and the denominator as `[1, 1]` arrays. -/
def messageK {E : ℕ} (sc : A2 E 1) (hj : A2 E 64) (ew : A2 E 1) (m l : A2 1 1) : A2 E 64 :=
  fun j => (((Ideal.exp (sc (ix2 (c0 j) (0 : Fin 1)) - m (ix2 (0 : Fin 1) (0 : Fin 1))))
      * Ideal.div 1 (l (ix2 (0 : Fin 1) (0 : Fin 1)))) * ew (ix2 (c0 j) (0 : Fin 1))) * hj j

/-- Edge `r` of block `k`, the edges cut into `nb` blocks of `B`. -/
def edgeAt {nb B E : ℕ} (hE : nb * B = E) (k : Fin nb) (r : Fin B) : Fin E :=
  ⟨k.val * B + r.val, by
    subst hE
    exact Nat.lt_of_lt_of_le (Nat.add_lt_add_left r.isLt _)
      (by rw [← Nat.succ_mul]; exact Nat.mul_le_mul_right _ k.isLt)⟩

/-- The running maximum and the running rescaled sum after the first `k` blocks (all of them once `k ≥ nb`):
    `m' = max m (max of block k)`, `l' = exp (m − m') · l + ∑ over block k of exp (s − m')`, from `(⊥, 0)`. -/
def online {nb B E : ℕ} (hE : nb * B = E) (s : Fin E → EReal) : ℕ → EReal × EReal
  | 0 => (⊥, 0)
  | k + 1 =>
    if hk : k < nb then
      let ml := online hE s k
      let m' := max ml.1 (Finset.univ.sup fun r : Fin B => s (edgeAt hE ⟨k, hk⟩ r))
      (m', Ideal.exp (ml.1 - m') * ml.2 + ∑ r : Fin B, Ideal.exp (s (edgeAt hE ⟨k, hk⟩ r) - m'))
    else online hE s k

/-- A vector of per-edge values as an `[E, 1]` column, a rank-1 array as a column, a number as a `[1, 1]` array,
    a `[1, n]` row as a rank-1 array. -/
def col1 {E : ℕ} (v : Fin E → EReal) : A2 E 1 := fun j => v (c0 j)
def colOf {E : ℕ} (a : A1 E) : A2 E 1 := fun j => a (ix1 (c0 j))
def cell (x : EReal) : A2 1 1 := fun _ => x
def rowOf {n : ℕ} (a : A2 1 n) : A1 n := fun j => a (ix2 (0 : Fin 1) (d0 j))

/-- Every entry is a real number (neither infinity). -/
def IsReal {s : Shape} (x : s.Idx → EReal) : Prop := ∀ j, ∃ r : ℝ, x j = (r : EReal)

/-- One layer as the kernel arranges it: the maximum and the denominator by the running recurrence over `nb` blocks
    of `B` edges, the message with the reciprocal taken once. -/
def layerK {N E nb B : ℕ} (hE : nb * B = E) (row col : Fin E → Fin N) (ew : A1 E) (h : A2 N 64)
    (lw : A2 64 64) (lb : A1 64) (aw : A2 128 1) (ab : A1 1) (g b : A1 64) : A2 N 64 :=
  let hl := dense h lw lb
  let hi := rowsOf hl row
  let hj := rowsOf hl col
  let s := score hi hj aw ab
  let ml := online hE s nb
  finalize hl (aggregate (messageK (col1 s) hj (colOf ew) (cell ml.1) (cell ml.2)) row) h g b

/-- The whole network as the kernel arranges it. -/
def networkK {N E nb B : ℕ} (hE : nb * B = E) (row col : Fin E → Fin N) (x : A2 N 12) (ew : A1 E) (inW : A2 12 64) (inb : A1 64)
    (linW : A3 3 64 64) (linb : A2 3 64) (attW : A3 3 128 1) (attb : A2 3 1) (lng lnb : A2 3 64)
    (o1W : A2 64 32) (o1b : A1 32) (o2W : A2 32 1) (o2b : A1 1) : A2 N 1 :=
  let h0 := dense x inW inb
  let L := fun (i : Fin 3) (h : A2 N 64) =>
    layerK hE row col ew h (sel3 i linW) (sel2 i linb) (sel3 i attW) (sel2 i attb) (sel2 i lng) (sel2 i lnb)
  let h3 := L 2 (L 1 (L 0 h0))
  sigm (dense (relu (dense h3 o1W o1b)) o2W o2b)

end Cert.Spec

end
-- ==== Proof.PreDecode.lean ====
/-
  The precondition read back. The printed predicate is the conjunction, over the fourteen float arrays, of
  "every entry's magnitude is below +infinity", and, for the edge list, of "every entry is at least 0 and below
  100000" (signed). At the ideal instance an entry is an extended real, its magnitude is max x (-x), and the
  pattern 0x7F800000 denotes the top element; so max x (-x) < top says x is neither infinity, that is, x is a real
  number. A reduction by "and" into the one-index result that is 1 had a 1 at every entry.
-/
import proofs.«417395_j71579924955534_2_alg».proof.Pre_finite_inputs
import proofs.«417395_j71579924955534_2_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

instance : Subsingleton S_.Idx := ⟨fun a b => funext fun d => d.elim0⟩

/-- The pattern 0x7F800000 denotes the top element. -/
theorem top_eq : Ideal.ofBits .f32 0x7F800000#32 = (⊤ : EReal) := by simp [Ideal.ofBits, Ideal.ieee]

/-- An extended real whose magnitude is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- ONE FLOAT CONJUNCT: "all magnitudes below +infinity" is 1, so every entry is real. -/
theorem finite_of_all {s : Shape} (x : FVec Ideal s .f32) {dims : Fin S_.rank → Fin s.rank}
    (hb : S_.BroadcastsInDim s dims) {axes : List (Fin s.rank)} (hr : s.ReducesTo axes S_) (hS : 0 < S_.numel)
    (h : Host.reduce IntOp.andi (cmpf .olt (Host.absf x) (broadcastInDim s dims hb (constant S_ .f32 0x7F800000#32)))
      (constantI S_ 1 1#1) hr hS ix0 = 1#1) : Cert.Spec.IsReal x := by
  intro j
  have e := Host.reduce_andi_all _ _ hr hS ix0 h j
  have e' : Ideal.cmp .olt (max (x j) (-(x j))) (Ideal.ofBits .f32 0x7F800000#32) = 1#1 := e
  rw [top_eq] at e'
  simp only [Ideal.cmp, StableHlo.Predicate.ofBool_eq_one_iff, decide_eq_true_eq] at e'
  exact real_of_abs_lt_top _ e'

/-- THE INTEGER CONJUNCT: "all entries at least 0 and below n, signed" is 1, so every entry is in [0, n). -/
theorem range_of_all {s : Shape} (a : IVec s 32) {dims : Fin S_.rank → Fin s.rank}
    (hb : S_.BroadcastsInDim s dims) {axes : List (Fin s.rank)} (hr : s.ReducesTo axes S_) (hS : 0 < S_.numel)
    (h : Host.reduce IntOp.andi
      (andi (cmpi .sge a (broadcastInDim s dims hb (constantI S_ 32 0#32)))
        (cmpi .slt a (broadcastInDim s dims hb (constantI S_ 32 100000#32))))
      (constantI S_ 1 1#1) hr hS ix0 = 1#1) : ∀ j, 0 ≤ (a j).toInt ∧ (a j).toInt < 100000 := by
  intro j
  have e := Host.reduce_andi_all _ _ hr hS ix0 h j
  have e' : IntOp.andi (IntOp.cmpi .sge (a j) 0#32) (IntOp.cmpi .slt (a j) 100000#32) = 1#1 := e
  obtain ⟨h0, h1⟩ := IntOp.andi_eq_one.1 e'
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have n : (100000#32 : BitVec 32).toInt = 100000 := StableHlo.Predicate.toInt_ofNat_small 100000 (by norm_num)
  rw [z] at h0; rw [n] at h1
  exact ⟨h0, h1⟩

/-- A conjunction of two one-index truth values that is 1 has both 1. -/
theorem and_split (x y : IVec S_ 1) (h : andi x y ix0 = 1#1) : x ix0 = 1#1 ∧ y ix0 = 1#1 := IntOp.andi_eq_one.1 h

/-- A word in [0, 100000) signed has the same value unsigned. -/
theorem toNat_of_range (w : BitVec 32) (h0 : 0 ≤ w.toInt) (h1 : w.toInt < 100000) :
    w.toNat < 100000 ∧ w.toInt = (w.toNat : Int) := by
  have h32 := w.isLt
  unfold BitVec.toInt at h0 h1 ⊢
  split at h0 <;> simp at h0 h1 ⊢ <;> omega

/-- THE PRECONDITION DECODED: every float input is real at every entry, every edge endpoint is a node number. -/
theorem decode [Cert.Pre_finite_inputs.Facts]
    (a0 : FVec Ideal S100000x12 .f32) (a1 : IVec S2x1250000 32) (a2 : FVec Ideal S1250000 .f32)
    (a3 : FVec Ideal S12x64 .f32) (a4 : FVec Ideal S64 .f32) (a5 : FVec Ideal S3x64x64 .f32)
    (a6 : FVec Ideal S3x64 .f32) (a7 : FVec Ideal S3x128x1 .f32) (a8 : FVec Ideal S3x1 .f32)
    (a9 : FVec Ideal S3x64 .f32) (a10 : FVec Ideal S3x64 .f32) (a11 : FVec Ideal S64x32 .f32)
    (a12 : FVec Ideal S32 .f32) (a13 : FVec Ideal S32x1 .f32) (a14 : FVec Ideal S1 .f32)
    (h : Cert.Pre_finite_inputs.fn (F := Ideal) a0 a1 a2 a3 a4 a5 a6 a7 a8 a9 a10 a11 a12 a13 a14 = fun _ => 1#1) :
    Cert.Spec.IsReal a0 ∧ (∀ j, 0 ≤ (a1 j).toInt ∧ (a1 j).toInt < 100000) ∧ Cert.Spec.IsReal a2
      ∧ Cert.Spec.IsReal a3 ∧ Cert.Spec.IsReal a4 ∧ Cert.Spec.IsReal a5 ∧ Cert.Spec.IsReal a6
      ∧ Cert.Spec.IsReal a7 ∧ Cert.Spec.IsReal a8 ∧ Cert.Spec.IsReal a9 ∧ Cert.Spec.IsReal a10
      ∧ Cert.Spec.IsReal a11 ∧ Cert.Spec.IsReal a12 ∧ Cert.Spec.IsReal a13 ∧ Cert.Spec.IsReal a14 := by
  have e := congrFun h ix0
  dsimp only [fn, fn_part1, fn_part2, fn_part3, fn_part4] at e
  obtain ⟨e, hI⟩ := and_split _ _ e
  obtain ⟨e, h14⟩ := and_split _ _ e
  obtain ⟨e, h13⟩ := and_split _ _ e
  obtain ⟨e, h12⟩ := and_split _ _ e
  obtain ⟨e, h11⟩ := and_split _ _ e
  obtain ⟨e, h10⟩ := and_split _ _ e
  obtain ⟨e, h9⟩ := and_split _ _ e
  obtain ⟨e, h8⟩ := and_split _ _ e
  obtain ⟨e, h7⟩ := and_split _ _ e
  obtain ⟨e, h6⟩ := and_split _ _ e
  obtain ⟨e, h5⟩ := and_split _ _ e
  obtain ⟨e, h4⟩ := and_split _ _ e
  obtain ⟨e, h3⟩ := and_split _ _ e
  obtain ⟨h0, h2⟩ := and_split _ _ e
  exact ⟨finite_of_all _ _ _ _ h0, range_of_all _ _ _ _ hI, finite_of_all _ _ _ _ h2, finite_of_all _ _ _ _ h3,
    finite_of_all _ _ _ _ h4, finite_of_all _ _ _ _ h5, finite_of_all _ _ _ _ h6, finite_of_all _ _ _ _ h7,
    finite_of_all _ _ _ _ h8, finite_of_all _ _ _ _ h9, finite_of_all _ _ _ _ h10, finite_of_all _ _ _ _ h11,
    finite_of_all _ _ _ _ h12, finite_of_all _ _ _ _ h13, finite_of_all _ _ _ _ h14⟩

end Cert.PreDecode

end
-- ==== Proof.Math.Real.lean ====
/-
  Closure of "every entry is a real number" under the operations of the network: products, finite sums, maxima,
  the exponential of a difference, the quotient by a positive real and the reciprocal square root of a positive real
  never leave the reals.
-/
import proofs.«417395_j71579924955534_2_alg».proof.Proof.Spec

open scoped BigOperators

noncomputable section

namespace Cert.Spec

open Idealize.ShloMosaic Idealize.ShloMosaic.ValueIdx

/-! ## The three constants -/

/-- The row length is the real 64. -/
theorem c64_eq : c64 = ((64 : ℝ) : EReal) := by
  unfold c64
  simp [Ideal.ofBits, Ideal.ieee, -EReal.coe_mul]; norm_num

/-- The slope is a real number. -/
theorem slope_real : ∃ r : ℝ, slope = (r : EReal) := by
  unfold slope
  simp [Ideal.ofBits, Ideal.ieee, -EReal.coe_mul]

/-- The epsilon is a positive real number. -/
theorem eps_pos_real : ∃ r : ℝ, 0 < r ∧ eps = (r : EReal) := by
  refine ⟨(10995116 : ℝ) * (2 : ℝ) ^ (-40 : ℤ), by positivity, ?_⟩
  unfold eps
  simp [Ideal.ofBits, Ideal.ieee, -EReal.coe_mul]

/-! ## Sums, products, maxima of reals -/

/-- A finite sum of reals, read in the extended reals, is the sum of their images. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of extended reals each of which is a real is a real. -/
theorem real_sum {ι : Type*} (S : Finset ι) (f : ι → EReal) (hf : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨r, hr⟩ := ih fun i hi => hf i (Finset.mem_insert_of_mem hi)
    obtain ⟨q, hq⟩ := hf a (Finset.mem_insert_self a S)
    exact ⟨q + r, by rw [Finset.sum_insert ha, hq, hr, EReal.coe_add]⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

theorem real_zero : ∃ r : ℝ, (0 : EReal) = (r : EReal) := ⟨0, rfl⟩

/-! ## The layers of the network -/

theorem isReal_dense {M K N : ℕ} {x : A2 M K} {w : A2 K N} {b : A1 N}
    (hx : IsReal x) (hw : IsReal w) (hb : IsReal b) : IsReal (dense x w b) := fun j =>
  real_add (real_sum _ _ fun k _ => real_mul (hx _) (hw _)) (hb _)

theorem isReal_relu {s : Shape} {x : s.Idx → EReal} (hx : IsReal x) : IsReal (relu x) := fun j =>
  real_max (hx j) real_zero

theorem isReal_rowsOf {N D E : ℕ} {h : A2 N D} (r : Fin E → Fin N) (hh : IsReal h) : IsReal (rowsOf h r) :=
  fun _ => hh _

theorem isReal_sel3 {a b : ℕ} (i : Fin 3) {W : A3 3 a b} (hW : IsReal W) : IsReal (sel3 i W) := fun _ => hW _

theorem isReal_sel2 {a : ℕ} (i : Fin 3) {B : A2 3 a} (hB : IsReal B) : IsReal (sel2 i B) := fun _ => hB _

theorem leaky_real {x : EReal} (hx : ∃ r : ℝ, x = (r : EReal)) : ∃ r : ℝ, leaky x = (r : EReal) := by
  unfold leaky
  split
  · exact hx
  · exact real_mul slope_real hx

/-- Every score is a real number. -/
theorem score_real {E : ℕ} {hi hj : A2 E 64} {aw : A2 128 1} {ab : A1 1}
    (hhi : IsReal hi) (hhj : IsReal hj) (haw : IsReal aw) (hab : IsReal ab) :
    ∀ e, ∃ r : ℝ, score hi hj aw ab e = (r : EReal) := fun e =>
  leaky_real (real_add (real_add (real_sum _ _ fun k _ => real_mul (hhi _) (haw _))
    (real_sum _ _ fun k _ => real_mul (hhj _) (haw _))) (hab _))

/-- Over at least one edge with real scores, the largest score is one of them, hence a real. -/
theorem smax_real' {E : ℕ} (hpos : 0 < E) (s : Fin E → EReal) (hs : ∀ e, ∃ r : ℝ, s e = (r : EReal)) :
    ∃ r : ℝ, smax s = (r : EReal) := by
  haveI : Nonempty (Fin E) := ⟨⟨0, hpos⟩⟩
  obtain ⟨i, -, hi⟩ := Finset.exists_mem_eq_sup Finset.univ Finset.univ_nonempty s
  obtain ⟨r, hr⟩ := hs i
  exact ⟨r, by rw [smax, hi, hr]⟩

/-- Over at least one edge with real scores, the softmax denominator is a positive real. -/
theorem ssum_pos_real' {E : ℕ} (hpos : 0 < E) (s : Fin E → EReal) (hs : ∀ e, ∃ r : ℝ, s e = (r : EReal)) :
    ∃ r : ℝ, 0 < r ∧ ssum s = (r : EReal) := by
  obtain ⟨m, hm⟩ := smax_real' hpos s hs
  choose f hf using hs
  haveI : Nonempty (Fin E) := ⟨⟨0, hpos⟩⟩
  refine ⟨∑ e : Fin E, Real.exp (f e - m), Finset.sum_pos (fun e _ => Real.exp_pos _) Finset.univ_nonempty, ?_⟩
  rw [ssum, coe_sum]
  refine Finset.sum_congr rfl fun e _ => ?_
  rw [hm, hf e, ← EReal.coe_sub, Ideal.exp_coe]

theorem isReal_message {E : ℕ} {s : Fin E → EReal} {hj : A2 E 64} {ew : A1 E}
    (hs : ∀ e, ∃ r : ℝ, s e = (r : EReal)) (hhj : IsReal hj) (hew : IsReal ew) : IsReal (message s hj ew) := by
  intro j
  have hpos : 0 < E := Nat.lt_of_le_of_lt (Nat.zero_le _) (c0 j).isLt
  obtain ⟨m, hm⟩ := smax_real' hpos s hs
  obtain ⟨l, hl0, hl⟩ := ssum_pos_real' hpos s hs
  obtain ⟨r, hr⟩ := hs (c0 j)
  show ∃ r : ℝ, ((Ideal.div (Ideal.exp (s (c0 j) - smax s)) (ssum s)) * ew (ix1 (c0 j))) * hj j = (r : EReal)
  refine real_mul (real_mul ?_ (hew _)) (hhj _)
  rw [hl, Ideal.div_coe hl0.ne', hm, hr, ← EReal.coe_sub, Ideal.exp_coe]
  exact real_mul ⟨_, rfl⟩ ⟨_, rfl⟩

theorem isReal_aggregate {E N : ℕ} {msg : A2 E 64} (r : Fin E → Fin N) (hm : IsReal msg) :
    IsReal (aggregate msg r) := fun _ => real_sum _ _ fun _ _ => hm _

theorem isReal_finalize {N : ℕ} {hl agg h : A2 N 64} {g b : A1 64}
    (hhl : IsReal hl) (hagg : IsReal agg) (hh : IsReal h) (hg : IsReal g) (hb : IsReal b) :
    IsReal (finalize hl agg h g b) := by
  intro j
  obtain ⟨e, he0, he⟩ := eps_pos_real
  have ht : ∀ q : Fin 64, ∃ r : ℝ, max (hl (ix2 (c0 j) q) + agg (ix2 (c0 j) q)) 0 = (r : EReal) :=
    fun q => real_max (real_add (hhl _) (hagg _)) real_zero
  choose t htq using ht
  obtain ⟨hr, hhr⟩ := hh j
  obtain ⟨gr, hgr⟩ := hg (ix1 (c1 j))
  obtain ⟨br, hbr⟩ := hb (ix1 (c1 j))
  have h64 : (64 : ℝ) ≠ 0 := by norm_num
  obtain ⟨mu, hmu⟩ : ∃ m : ℝ, m = (∑ q : Fin 64, t q) * (1 / 64) := ⟨_, rfl⟩
  obtain ⟨var, hvar⟩ : ∃ v : ℝ, v = (∑ q : Fin 64, (t q - mu) * (t q - mu)) * (1 / 64) := ⟨_, rfl⟩
  have hvar0 : 0 ≤ var := by
    rw [hvar]
    exact mul_nonneg (Finset.sum_nonneg fun q _ => mul_self_nonneg _) (by norm_num)
  have hmuE : Ideal.div (∑ q : Fin 64, (t q : EReal)) c64 = (mu : EReal) := by
    rw [c64_eq, Ideal.div_coe h64, ← coe_sum, ← EReal.coe_mul, hmu]
  have hvarE : Ideal.div (∑ q : Fin 64, ((t q : EReal) - mu) * ((t q : EReal) - mu)) c64 = (var : EReal) := by
    rw [c64_eq, Ideal.div_coe h64]
    simp only [← EReal.coe_sub, ← EReal.coe_mul]
    rw [← coe_sum, ← EReal.coe_mul, hvar]
  have hrs : Ideal.rsqrt ((var : EReal) + e) = (((Real.sqrt (var + e))⁻¹ : ℝ) : EReal) := by
    rw [← EReal.coe_add, Ideal.rsqrt_coe, if_neg (by linarith), if_neg (by linarith)]
  unfold finalize
  dsimp only
  simp only [htq]
  rw [hmuE, hvarE, he, hrs, hhr, hgr, hbr]
  simp only [← EReal.coe_sub, ← EReal.coe_mul, ← EReal.coe_add]
  exact ⟨_, rfl⟩

theorem isReal_layer {N E : ℕ} (row col : Fin E → Fin N) {ew : A1 E} {h : A2 N 64}
    {lw : A2 64 64} {lb : A1 64} {aw : A2 128 1} {ab : A1 1} {g b : A1 64}
    (hew : IsReal ew) (hh : IsReal h) (hlw : IsReal lw) (hlb : IsReal lb) (haw : IsReal aw) (hab : IsReal ab)
    (hg : IsReal g) (hb : IsReal b) : IsReal (layer row col ew h lw lb aw ab g b) := by
  have hhl := isReal_dense hh hlw hlb
  exact isReal_finalize hhl
    (isReal_aggregate row (isReal_message (score_real (isReal_rowsOf row hhl) (isReal_rowsOf col hhl) haw hab)
      (isReal_rowsOf col hhl) hew)) hh hg hb

end Cert.Spec

end
-- ==== Proof.Math.Online.lean ====
/-
  The running softmax: the maximum and the rescaled sum kept block by block are the global maximum and the
  global softmax denominator, on real-valued scores.

  After the first `k` blocks the pair is `(M, ∑ exp (s e − M))`, the maximum and the sum over the edges below
  `k · B`. One more block `T` replaces `M` by `M' = max M (max over T)` and the sum by
  `exp (M − M') · ∑ exp (s e − M) + ∑ over T of exp (s e − M')`; on reals
  `exp (M − M') · exp (s e − M) = exp (s e − M')`, and before the first block the old sum is `0`.
-/
import proofs.«417395_j71579924955534_2_alg».proof.Proof.Spec

open scoped BigOperators

namespace Cert.Spec

open Idealize.ShloMosaic

/-- The coercion of the reals into the extended reals commutes with finite sums. -/
theorem coe_finset_sum {ι : Type*} (S : Finset ι) (f : ι → ℝ) :
    ((∑ i ∈ S, f i : ℝ) : EReal) = ∑ i ∈ S, (f i : EReal) := by
  classical
  refine Finset.induction_on S ?_ ?_
  · simp
  · intro a S ha ih
    rw [Finset.sum_insert ha, Finset.sum_insert ha, EReal.coe_add, ih]

/-- The supremum of a nonempty finite family of reals is a real: it is attained. -/
theorem sup_coe_real {ι : Type*} (S : Finset ι) (hS : S.Nonempty) (r : ι → ℝ) :
    ∃ μ : ℝ, S.sup (fun i => (r i : EReal)) = (μ : EReal) := by
  obtain ⟨i, _, hi⟩ := Finset.exists_mem_eq_sup S hS (fun i => (r i : EReal))
  exact ⟨r i, hi⟩

/-- Changing the reference point of a sum of exponentials: `exp (μ − μ') · ∑ exp (r − μ) = ∑ exp (r − μ')`. -/
theorem exp_rescale {ι : Type*} (S : Finset ι) (r : ι → ℝ) (μ μ' : ℝ) :
    Ideal.exp ((μ : EReal) - (μ' : EReal)) * ∑ i ∈ S, Ideal.exp ((r i : EReal) - (μ : EReal))
      = ∑ i ∈ S, Ideal.exp ((r i : EReal) - (μ' : EReal)) := by
  simp only [← EReal.coe_sub, Ideal.exp_coe]
  rw [← coe_finset_sum, ← coe_finset_sum, ← EReal.coe_mul, Finset.mul_sum]
  congr 1
  refine Finset.sum_congr rfl fun i _ => ?_
  rw [← Real.exp_add]
  congr 1
  ring

/-- One step of the running recurrence, over any two disjoint finite sets `S` (seen so far) and `T` (the new
    block, not empty). -/
theorem online_step {ι : Type*} [DecidableEq ι] (S T : Finset ι) (hd : Disjoint S T) (hT : T.Nonempty)
    (r : ι → ℝ) :
    Ideal.exp (S.sup (fun i => (r i : EReal)) - (S ∪ T).sup (fun i => (r i : EReal)))
        * (∑ i ∈ S, Ideal.exp ((r i : EReal) - S.sup (fun i => (r i : EReal))))
      + ∑ i ∈ T, Ideal.exp ((r i : EReal) - (S ∪ T).sup (fun i => (r i : EReal)))
      = ∑ i ∈ S ∪ T, Ideal.exp ((r i : EReal) - (S ∪ T).sup (fun i => (r i : EReal))) := by
  obtain ⟨μ', hμ'⟩ := sup_coe_real (S ∪ T) (hT.mono Finset.subset_union_right) r
  rw [Finset.sum_union hd]
  congr 1
  rcases S.eq_empty_or_nonempty with h | h
  · subst h
    simp
  · obtain ⟨μ, hμ⟩ := sup_coe_real S h r
    rw [hμ, hμ']
    exact exp_rescale S r μ μ'

/-- The edges of the first `k` blocks of `B`. -/
def firstBlocks (B E k : ℕ) : Finset (Fin E) := Finset.univ.filter fun e => e.val < k * B

/-- The edges of block `k`. -/
def blockSet {nb B E : ℕ} (hE : nb * B = E) (k : Fin nb) : Finset (Fin E) := Finset.univ.image (edgeAt hE k)

theorem edgeAt_val {nb B E : ℕ} (hE : nb * B = E) (k : Fin nb) (q : Fin B) :
    (edgeAt hE k q).val = k.val * B + q.val := rfl

theorem edgeAt_injective {nb B E : ℕ} (hE : nb * B = E) (k : Fin nb) : Function.Injective (edgeAt hE k) := by
  intro a b h
  have h' := congrArg Fin.val h
  rw [edgeAt_val, edgeAt_val] at h'
  exact Fin.ext (by omega)

theorem firstBlocks_zero (B E : ℕ) : firstBlocks B E 0 = ∅ := by
  refine Finset.filter_false_of_mem fun e _ => ?_
  rw [Nat.zero_mul]
  exact Nat.not_lt_zero _

theorem firstBlocks_all {nb B E : ℕ} (hE : nb * B = E) : firstBlocks B E nb = Finset.univ := by
  refine Finset.filter_true_of_mem fun e _ => ?_
  rw [hE]
  exact e.isLt

theorem firstBlocks_succ {nb B E : ℕ} (hE : nb * B = E) (k : Fin nb) :
    firstBlocks B E (k.val + 1) = firstBlocks B E k.val ∪ blockSet hE k := by
  ext e
  simp only [firstBlocks, blockSet, Finset.mem_union, Finset.mem_filter, Finset.mem_univ, true_and,
    Finset.mem_image]
  have hs : (k.val + 1) * B = k.val * B + B := Nat.succ_mul _ _
  constructor
  · intro he
    by_cases h : e.val < k.val * B
    · exact Or.inl h
    · refine Or.inr ⟨⟨e.val - k.val * B, by omega⟩, Fin.ext ?_⟩
      rw [edgeAt_val]
      show k.val * B + (e.val - k.val * B) = e.val
      omega
  · rintro (h | ⟨q, rfl⟩)
    · omega
    · rw [edgeAt_val]
      have := q.isLt
      omega

theorem firstBlocks_disjoint {nb B E : ℕ} (hE : nb * B = E) (k : Fin nb) :
    Disjoint (firstBlocks B E k.val) (blockSet hE k) := by
  rw [Finset.disjoint_left]
  intro e he hb
  simp only [firstBlocks, Finset.mem_filter, Finset.mem_univ, true_and] at he
  simp only [blockSet, Finset.mem_image, Finset.mem_univ, true_and] at hb
  obtain ⟨q, rfl⟩ := hb
  rw [edgeAt_val] at he
  omega

/-- THE INVARIANT: after the first `k` blocks the running pair is the maximum over those blocks and the sum over
    them of `exp (s e − that maximum)`. -/
theorem online_inv {nb B E : ℕ} (hE : nb * B = E) (hpos : 0 < E) (r : Fin E → ℝ) (k : ℕ) (hk : k ≤ nb) :
    online hE (fun e => (r e : EReal)) k
      = ((firstBlocks B E k).sup (fun e => (r e : EReal)),
         ∑ e ∈ firstBlocks B E k,
           Ideal.exp ((r e : EReal) - (firstBlocks B E k).sup (fun e => (r e : EReal)))) := by
  induction k with
  | zero =>
    rw [firstBlocks_zero]
    rfl
  | succ k ih =>
    have hk' : k < nb := hk
    have hB : 0 < B := by
      rcases Nat.eq_zero_or_pos B with h | h
      · subst h
        rw [Nat.mul_zero] at hE
        omega
      · exact h
    have hU := firstBlocks_succ hE ⟨k, hk'⟩
    have hd := firstBlocks_disjoint hE ⟨k, hk'⟩
    have hT : (blockSet hE ⟨k, hk'⟩).Nonempty :=
      ⟨edgeAt hE ⟨k, hk'⟩ ⟨0, hB⟩, Finset.mem_image_of_mem _ (Finset.mem_univ _)⟩
    have hm : max ((firstBlocks B E k).sup (fun e => (r e : EReal)))
          (Finset.univ.sup fun q : Fin B => ((r (edgeAt hE ⟨k, hk'⟩ q) : ℝ) : EReal))
        = (firstBlocks B E k ∪ blockSet hE ⟨k, hk'⟩).sup (fun e => (r e : EReal)) := by
      rw [Finset.sup_union, blockSet, Finset.sup_image]
      rfl
    have hsum : ∑ q : Fin B, Ideal.exp (((r (edgeAt hE ⟨k, hk'⟩ q) : ℝ) : EReal)
          - (firstBlocks B E k ∪ blockSet hE ⟨k, hk'⟩).sup (fun e => (r e : EReal)))
        = ∑ e ∈ blockSet hE ⟨k, hk'⟩, Ideal.exp ((r e : EReal)
          - (firstBlocks B E k ∪ blockSet hE ⟨k, hk'⟩).sup (fun e => (r e : EReal))) := by
      rw [blockSet, Finset.sum_image fun a _ b _ h => edgeAt_injective hE ⟨k, hk'⟩ h]
    rw [online, dif_pos hk', ih (Nat.le_of_lt hk')]
    dsimp only
    rw [hm, hsum]
    change _ = ((firstBlocks B E ((⟨k, hk'⟩ : Fin nb).val + 1)).sup _, ∑ e ∈ firstBlocks B E ((⟨k, hk'⟩ : Fin nb).val + 1), _)
    rw [hU]
    exact Prod.ext rfl (online_step _ _ hd hT r)

/-- THE RUNNING SOFTMAX IS THE GLOBAL ONE: after all `nb` blocks the pair is the maximum of all the scores and
    the softmax denominator. -/
theorem online_eq {nb B E : ℕ} (hE : nb * B = E) (hpos : 0 < E) (s : Fin E → EReal)
    (hs : ∀ e, ∃ r : ℝ, s e = (r : EReal)) : online hE s nb = (smax s, ssum s) := by
  obtain ⟨r, rfl⟩ : ∃ r : Fin E → ℝ, s = fun e => (r e : EReal) :=
    ⟨fun e => (hs e).choose, funext fun e => (hs e).choose_spec⟩
  rw [online_inv hE hpos r nb (Nat.le_refl _), firstBlocks_all hE]
  rfl

end Cert.Spec
-- ==== Proof.Math.Message.lean ====
/-
  The kernel's message, `exp (s − m) · (1 / l) · w · hj` with the reciprocal of the softmax denominator taken
  once, is the message `(exp (s − m) / l) · w · hj`: on at least one real score the maximum `m` is a real and the
  denominator `l` a positive real, and for such `l`, `x · (1 / l) = x / l` at every extended real `x`.
-/
import proofs.«417395_j71579924955534_2_alg».proof.Proof.Math.Online

open scoped BigOperators

namespace Cert.Spec

open Idealize.ShloMosaic Idealize.ShloMosaic.ValueIdx

/-- Real-valued scores are the coercion of one real-valued function. -/
theorem exists_real_fun {E : ℕ} (s : Fin E → EReal) (hs : ∀ e, ∃ r : ℝ, s e = (r : EReal)) :
    ∃ r : Fin E → ℝ, s = fun e => (r e : EReal) :=
  ⟨fun e => (hs e).choose, funext fun e => (hs e).choose_spec⟩

/-- The largest of at least one real score is a real. -/
theorem smax_real {E : ℕ} (hpos : 0 < E) (s : Fin E → EReal) (hs : ∀ e, ∃ r : ℝ, s e = (r : EReal)) :
    ∃ r : ℝ, smax s = (r : EReal) := by
  obtain ⟨r, rfl⟩ := exists_real_fun s hs
  exact sup_coe_real Finset.univ ⟨⟨0, hpos⟩, Finset.mem_univ _⟩ r

/-- The softmax denominator of at least one real score is a positive real: every term `exp (s e − max s)` is a
    positive real. -/
theorem ssum_pos_real {E : ℕ} (hpos : 0 < E) (s : Fin E → EReal) (hs : ∀ e, ∃ r : ℝ, s e = (r : EReal)) :
    ∃ r : ℝ, 0 < r ∧ ssum s = (r : EReal) := by
  obtain ⟨μ, hμ⟩ := smax_real hpos s hs
  obtain ⟨r, rfl⟩ := exists_real_fun s hs
  refine ⟨∑ e : Fin E, Real.exp (r e - μ),
    Finset.sum_pos (fun e _ => Real.exp_pos _) ⟨⟨0, hpos⟩, Finset.mem_univ _⟩, ?_⟩
  rw [coe_finset_sum, ssum, hμ]
  refine Finset.sum_congr rfl fun e _ => ?_
  rw [← EReal.coe_sub, Ideal.exp_coe]

/-- THE MESSAGE WITH THE RECIPROCAL TAKEN ONCE IS THE MESSAGE: for the positive real denominator `l`,
    `x · (1 / l) = x / l`. -/
theorem messageK_eq {E : ℕ} (hpos : 0 < E) (s : Fin E → EReal) (hs : ∀ e, ∃ r : ℝ, s e = (r : EReal))
    (hj : A2 E 64) (ew : A1 E) :
    messageK (col1 s) hj (colOf ew) (cell (smax s)) (cell (ssum s)) = message s hj ew := by
  obtain ⟨l, hl, hsum⟩ := ssum_pos_real hpos s hs
  funext j
  show ((Ideal.exp (s (c0 j) - smax s) * Ideal.div 1 (ssum s)) * ew (ix1 (c0 j))) * hj j
    = ((Ideal.div (Ideal.exp (s (c0 j) - smax s)) (ssum s)) * ew (ix1 (c0 j))) * hj j
  rw [hsum, Ideal.div_coe (ne_of_gt hl), Ideal.div_coe (ne_of_gt hl), one_mul]

end Cert.Spec
-- ==== Proof.Math.Network.lean ====
/-
  The kernel's arrangement of the network (the maximum and the softmax denominator by the running recurrence over
  blocks of edges, the message with the denominator's reciprocal taken once) computes the same arrays as the plain
  form, on real-valued inputs: every score is then a real, the recurrence ends at the maximum and the denominator,
  and the quotient by a positive real is the product with its reciprocal.
-/
import proofs.«417395_j71579924955534_2_alg».proof.Proof.Math.Real
import proofs.«417395_j71579924955534_2_alg».proof.Proof.Math.Online
import proofs.«417395_j71579924955534_2_alg».proof.Proof.Math.Message

open scoped BigOperators

noncomputable section

namespace Cert.Spec

open Idealize.ShloMosaic Idealize.ShloMosaic.ValueIdx

/-! ## The kernel's arrangement of a layer and of the network computes the same arrays -/

/-- One layer: the running recurrence gives the maximum and the denominator, and the reciprocal taken once gives
    the same message, the scores being reals. -/
theorem layerK_eq_layer {N E nb B : ℕ} (hE : nb * B = E) (hpos : 0 < E) (row col : Fin E → Fin N) (ew : A1 E)
    {h : A2 N 64} {lw : A2 64 64} {lb : A1 64} {aw : A2 128 1} {ab : A1 1} (g b : A1 64)
    (hh : IsReal h) (hlw : IsReal lw) (hlb : IsReal lb) (haw : IsReal aw) (hab : IsReal ab) :
    layerK hE row col ew h lw lb aw ab g b = layer row col ew h lw lb aw ab g b := by
  have hhl := isReal_dense hh hlw hlb
  have hs := score_real (isReal_rowsOf row hhl) (isReal_rowsOf col hhl) haw hab
  unfold layerK layer
  dsimp only
  rw [online_eq hE hpos _ hs]
  dsimp only
  rw [messageK_eq hpos _ hs]

/-- The whole network: layer by layer, each layer's input being real by the closure lemmas. -/
theorem networkK_eq_network {N E nb B : ℕ} (hE : nb * B = E) (hpos : 0 < E) (row col : Fin E → Fin N)
    {x : A2 N 12} {ew : A1 E} {inW : A2 12 64} {inb : A1 64}
    {linW : A3 3 64 64} {linb : A2 3 64} {attW : A3 3 128 1} {attb : A2 3 1} {lng lnb : A2 3 64}
    (o1W : A2 64 32) (o1b : A1 32) (o2W : A2 32 1) (o2b : A1 1)
    (hx : IsReal x) (hew : IsReal ew) (hinW : IsReal inW) (hinb : IsReal inb)
    (hlinW : IsReal linW) (hlinb : IsReal linb) (hattW : IsReal attW) (hattb : IsReal attb)
    (hlng : IsReal lng) (hlnb : IsReal lnb) :
    networkK hE row col x ew inW inb linW linb attW attb lng lnb o1W o1b o2W o2b
      = network row col x ew inW inb linW linb attW attb lng lnb o1W o1b o2W o2b := by
  have h0 := isReal_dense hx hinW hinb
  have hL : ∀ (i : Fin 3) (h : A2 N 64), IsReal h →
      layerK hE row col ew h (sel3 i linW) (sel2 i linb) (sel3 i attW) (sel2 i attb) (sel2 i lng) (sel2 i lnb)
        = layer row col ew h (sel3 i linW) (sel2 i linb) (sel3 i attW) (sel2 i attb) (sel2 i lng) (sel2 i lnb) :=
    fun i h hh => layerK_eq_layer hE hpos row col ew _ _ hh (isReal_sel3 i hlinW) (isReal_sel2 i hlinb)
      (isReal_sel3 i hattW) (isReal_sel2 i hattb)
  have hR : ∀ (i : Fin 3) (h : A2 N 64), IsReal h →
      IsReal (layer row col ew h (sel3 i linW) (sel2 i linb) (sel3 i attW) (sel2 i attb) (sel2 i lng) (sel2 i lnb)) :=
    fun i h hh => isReal_layer row col hew hh (isReal_sel3 i hlinW) (isReal_sel2 i hlinb)
      (isReal_sel3 i hattW) (isReal_sel2 i hattb) (isReal_sel2 i hlng) (isReal_sel2 i hlnb)
  unfold networkK network
  dsimp only
  rw [hL 0 _ h0, hL 1 _ (hR 0 _ h0), hL 2 _ (hR 1 _ (hR 0 _ h0))]

end Cert.Spec

end
-- ==== Proof.Ref.Stages.lean ====
/- The reference network's value as named pure stages: each definition is the composition, in program order,
   of the functions of the operations that compute one intermediate of the reference program, over the
   contents of the buffers it reads. The three layers use the same functions at their own parameter slices. -/
import proofs.«417395_j71579924955534_2_alg».proof.ReferenceIdeal

noncomputable section

namespace Cert.ReferenceIdeal.Hand

open Cert.ReferenceIdeal Idealize.ShloMosaic Idealize.SL.Sem
open Cert.ReferenceIdeal.Facts₀ Cert.ReferenceIdeal.Facts

variable {F : FTy → Type} [FloatOps F] [Facts]

/-! ## The edge list and the input layer -/

/-- Row 0 of the edge index array: the target node of each edge. -/
def rowsR (ei : ((⟨S2x1250000, .i32⟩ : BufTy).Contents (Elt F))) : ((⟨S1250000, .i32⟩ : BufTy).Contents (Elt F)) :=
  shapeCast S1250000 (extractStridedSlice S1x1250000 ![0, 0] ei slices_S2x1250000_S1x1250000_0_0) shapeCasts_S1x1250000_S1250000

/-- Row 1 of the edge index array: the source node of each edge. -/
def colsR (ei : ((⟨S2x1250000, .i32⟩ : BufTy).Contents (Elt F))) : ((⟨S1250000, .i32⟩ : BufTy).Contents (Elt F)) :=
  shapeCast S1250000 (extractStridedSlice S1x1250000 ![1, 0] ei slices_S2x1250000_S1x1250000_1_0) shapeCasts_S1x1250000_S1250000

/-- A length-64 vector as every row of a 100000 x 64 array. -/
def rowBias64 (b : ((⟨S64, .f32⟩ : BufTy).Contents (Elt F))) : ((⟨S100000x64, .f32⟩ : BufTy).Contents (Elt F)) :=
  broadcastInDim S100000x64 ![0, 1] bcast_S1x64_S100000x64_0_1 (broadcastInDim S1x64 ![1] bcast_S64_S1x64_1 b)

/-- The input layer: x · in_W + in_b. -/
def dense0R (x : ((⟨S100000x12, .f32⟩ : BufTy).Contents (Elt F))) (inW : ((⟨S12x64, .f32⟩ : BufTy).Contents (Elt F))) (inb : ((⟨S64, .f32⟩ : BufTy).Contents (Elt F))) : ((⟨S100000x64, .f32⟩ : BufTy).Contents (Elt F)) :=
  addf (Host.dotGeneral dot_S100000x12_S12x64_S100000x64_1_0_0_1_n_n none x inW) (rowBias64 inb)

/-! ## The parameter slices of the three layers -/

def selW0 (W : ((⟨S3x64x64, .f32⟩ : BufTy).Contents (Elt F))) : ((⟨S64x64, .f32⟩ : BufTy).Contents (Elt F)) :=
  shapeCast S64x64 (extractStridedSlice S1x64x64 ![0, 0, 0] W slices_S3x64x64_S1x64x64_0_0_0) shapeCasts_S1x64x64_S64x64
def selW1 (W : ((⟨S3x64x64, .f32⟩ : BufTy).Contents (Elt F))) : ((⟨S64x64, .f32⟩ : BufTy).Contents (Elt F)) :=
  shapeCast S64x64 (extractStridedSlice S1x64x64 ![1, 0, 0] W slices_S3x64x64_S1x64x64_1_0_0) shapeCasts_S1x64x64_S64x64
def selW2 (W : ((⟨S3x64x64, .f32⟩ : BufTy).Contents (Elt F))) : ((⟨S64x64, .f32⟩ : BufTy).Contents (Elt F)) :=
  shapeCast S64x64 (extractStridedSlice S1x64x64 ![2, 0, 0] W slices_S3x64x64_S1x64x64_2_0_0) shapeCasts_S1x64x64_S64x64

def selB0 (B : ((⟨S3x64, .f32⟩ : BufTy).Contents (Elt F))) : ((⟨S64, .f32⟩ : BufTy).Contents (Elt F)) :=
  shapeCast S64 (extractStridedSlice S1x64 ![0, 0] B slices_S3x64_S1x64_0_0) shapeCasts_S1x64_S64
def selB1 (B : ((⟨S3x64, .f32⟩ : BufTy).Contents (Elt F))) : ((⟨S64, .f32⟩ : BufTy).Contents (Elt F)) :=
  shapeCast S64 (extractStridedSlice S1x64 ![1, 0] B slices_S3x64_S1x64_1_0) shapeCasts_S1x64_S64
def selB2 (B : ((⟨S3x64, .f32⟩ : BufTy).Contents (Elt F))) : ((⟨S64, .f32⟩ : BufTy).Contents (Elt F)) :=
  shapeCast S64 (extractStridedSlice S1x64 ![2, 0] B slices_S3x64_S1x64_2_0) shapeCasts_S1x64_S64

def selAW0 (A : ((⟨S3x128x1, .f32⟩ : BufTy).Contents (Elt F))) : ((⟨S128x1, .f32⟩ : BufTy).Contents (Elt F)) :=
  shapeCast S128x1 (extractStridedSlice S1x128x1 ![0, 0, 0] A slices_S3x128x1_S1x128x1_0_0_0) shapeCasts_S1x128x1_S128x1
def selAW1 (A : ((⟨S3x128x1, .f32⟩ : BufTy).Contents (Elt F))) : ((⟨S128x1, .f32⟩ : BufTy).Contents (Elt F)) :=
  shapeCast S128x1 (extractStridedSlice S1x128x1 ![1, 0, 0] A slices_S3x128x1_S1x128x1_1_0_0) shapeCasts_S1x128x1_S128x1
def selAW2 (A : ((⟨S3x128x1, .f32⟩ : BufTy).Contents (Elt F))) : ((⟨S128x1, .f32⟩ : BufTy).Contents (Elt F)) :=
  shapeCast S128x1 (extractStridedSlice S1x128x1 ![2, 0, 0] A slices_S3x128x1_S1x128x1_2_0_0) shapeCasts_S1x128x1_S128x1

def selAb0 (b : ((⟨S3x1, .f32⟩ : BufTy).Contents (Elt F))) : ((⟨S1, .f32⟩ : BufTy).Contents (Elt F)) :=
  shapeCast S1 (extractStridedSlice S1x1 ![0, 0] b slices_S3x1_S1x1_0_0) shapeCasts_S1x1_S1
def selAb1 (b : ((⟨S3x1, .f32⟩ : BufTy).Contents (Elt F))) : ((⟨S1, .f32⟩ : BufTy).Contents (Elt F)) :=
  shapeCast S1 (extractStridedSlice S1x1 ![1, 0] b slices_S3x1_S1x1_1_0) shapeCasts_S1x1_S1
def selAb2 (b : ((⟨S3x1, .f32⟩ : BufTy).Contents (Elt F))) : ((⟨S1, .f32⟩ : BufTy).Contents (Elt F)) :=
  shapeCast S1 (extractStridedSlice S1x1 ![2, 0] b slices_S3x1_S1x1_2_0) shapeCasts_S1x1_S1

/-! ## One layer -/

/-- The layer's linear map: h · W + b. -/
def hlR (h : ((⟨S100000x64, .f32⟩ : BufTy).Contents (Elt F))) (lw : ((⟨S64x64, .f32⟩ : BufTy).Contents (Elt F))) (lb : ((⟨S64, .f32⟩ : BufTy).Contents (Elt F))) : ((⟨S100000x64, .f32⟩ : BufTy).Contents (Elt F)) :=
  addf (Host.dotGeneral dot_S100000x64_S64x64_S100000x64_1_0_0_1_n_n none h lw) (rowBias64 lb)

/-- An index vector with negative entries wrapped by the node count. -/
def normSelR (idx : ((⟨S1250000, .i32⟩ : BufTy).Contents (Elt F))) : ((⟨S1250000, .i32⟩ : BufTy).Contents (Elt F)) :=
  select (cmpi .slt idx (broadcastInDim S1250000 ![] bcast_S_S1250000 (constantI S_ 32 0#32)))
    (addi idx (broadcastInDim S1250000 ![] bcast_S_S1250000 (constantI S_ 32 100000#32))) idx

/-- The wrapped index vector as a one-column array. -/
def normIdxR (idx : ((⟨S1250000, .i32⟩ : BufTy).Contents (Elt F))) : ((⟨S1250000x1, .i32⟩ : BufTy).Contents (Elt F)) :=
  broadcastInDim S1250000x1 ![0] bcast_S1250000_S1250000x1_0 (normSelR idx)

/-- The rows of a node array taken at an index column. -/
def gatherR (hl : ((⟨S100000x64, .f32⟩ : BufTy).Contents (Elt F))) (idxcol : ((⟨S1250000x1, .i32⟩ : BufTy).Contents (Elt F))) : ((⟨S1250000x64, .f32⟩ : BufTy).Contents (Elt F)) :=
  Host.gather gather_S100000x64_S1250000x1_S1250000x64_1_0_n_n_0_1_164 hl idxcol

/-- A one-element vector as every entry of an edge column. -/
def edgeBias (b : ((⟨S1, .f32⟩ : BufTy).Contents (Elt F))) : ((⟨S1250000x1, .f32⟩ : BufTy).Contents (Elt F)) :=
  broadcastInDim S1250000x1 ![0, 1] bcast_S1x1_S1250000x1_0_1 (broadcastInDim S1x1 ![1] bcast_S1_S1x1_1 b)

/-- The attention logit before the activation: [h_i, h_j] · a + b. -/
def preScoreR (hi hj : ((⟨S1250000x64, .f32⟩ : BufTy).Contents (Elt F))) (aw : ((⟨S128x1, .f32⟩ : BufTy).Contents (Elt F))) (ab : ((⟨S1, .f32⟩ : BufTy).Contents (Elt F))) : ((⟨S1250000x1, .f32⟩ : BufTy).Contents (Elt F)) :=
  addf (Host.dotGeneral dot_S1250000x128_S128x1_S1250000x1_1_0_0_1_n_n none
      (concatenate S1250000x128 1 [⟨S1250000x64, hi⟩, ⟨S1250000x64, hj⟩] concatenates_S1250000x64_S1250000x64_S1250000x128_d1) aw)
    (edgeBias ab)

/-- The leaky rectifier with slope 0.01: s where s ≥ 0, slope · s elsewhere. -/
def leakyR (s : ((⟨S1250000x1, .f32⟩ : BufTy).Contents (Elt F))) : ((⟨S1250000x1, .f32⟩ : BufTy).Contents (Elt F)) :=
  select (cmpf (F := F) .oge s (broadcastInDim S1250000x1 ![] bcast_S_S1250000x1 (constant S_ .f32 0x00000000#32))) s
    (mulf (broadcastInDim S1250000x1 ![] bcast_S_S1250000x1 (constant S_ .f32 0x3C23D70A#32)) s)

/-- The attention score of each edge. -/
def scoreR (hi hj : ((⟨S1250000x64, .f32⟩ : BufTy).Contents (Elt F))) (aw : ((⟨S128x1, .f32⟩ : BufTy).Contents (Elt F))) (ab : ((⟨S1, .f32⟩ : BufTy).Contents (Elt F))) : ((⟨S1250000x1, .f32⟩ : BufTy).Contents (Elt F)) :=
  leakyR (preScoreR hi hj aw ab)

/-- The maximum of the scores over all edges (with -∞). -/
def maxR (s : ((⟨S1250000x1, .f32⟩ : BufTy).Contents (Elt F))) : ((⟨S1, .f32⟩ : BufTy).Contents (Elt F)) :=
  maximumf (broadcastInDim S1 ![] bcast_S_S1 (constant S_ .f32 0xFF800000#32))
    (Host.reduce FloatOps.maximumf s (constant S_ .f32 0xFF800000#32) reducesTo_S1250000x1_S1_d0 h_S_)

/-- exp (s - m). -/
def expR (s : ((⟨S1250000x1, .f32⟩ : BufTy).Contents (Elt F))) (m : ((⟨S1, .f32⟩ : BufTy).Contents (Elt F))) : ((⟨S1250000x1, .f32⟩ : BufTy).Contents (Elt F)) :=
  Host.exp (subf s (edgeBias m))

/-- The sum over all edges. -/
def sumR (u : ((⟨S1250000x1, .f32⟩ : BufTy).Contents (Elt F))) : ((⟨S1, .f32⟩ : BufTy).Contents (Elt F)) :=
  Host.reduceAdd u (constant S_ .f32 0x00000000#32) reducesTo_S1250000x1_S1_d0 h_S_

/-- u / l. -/
def probR (u : ((⟨S1250000x1, .f32⟩ : BufTy).Contents (Elt F))) (l : ((⟨S1, .f32⟩ : BufTy).Contents (Elt F))) : ((⟨S1250000x1, .f32⟩ : BufTy).Contents (Elt F)) :=
  Host.divf u (edgeBias l)

/-- The message of each edge: (p · w) · h_j. -/
def msgR (p : ((⟨S1250000x1, .f32⟩ : BufTy).Contents (Elt F))) (ew : ((⟨S1250000, .f32⟩ : BufTy).Contents (Elt F))) (hj : ((⟨S1250000x64, .f32⟩ : BufTy).Contents (Elt F))) : ((⟨S1250000x64, .f32⟩ : BufTy).Contents (Elt F)) :=
  mulf (broadcastInDim S1250000x64 ![0, 1] bcast_S1250000x1_S1250000x64_0_1
      (mulf p (broadcastInDim S1250000x1 ![0] bcast_S1250000_S1250000x1_0 ew))) hj

/-- The messages summed into their target nodes. -/
def aggR (msg : ((⟨S1250000x64, .f32⟩ : BufTy).Contents (Elt F))) (rows : ((⟨S1250000, .i32⟩ : BufTy).Contents (Elt F))) : ((⟨S100000x64, .f32⟩ : BufTy).Contents (Elt F)) :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 rows) msg

/-- max (hl + agg, 0). -/
def actR (hl agg : ((⟨S100000x64, .f32⟩ : BufTy).Contents (Elt F))) : ((⟨S100000x64, .f32⟩ : BufTy).Contents (Elt F)) :=
  maximumf (addf hl agg) (broadcastInDim S100000x64 ![] bcast_S_S100000x64 (constant S_ .f32 0x00000000#32))

/-- The sum of each row, as a column. -/
def rowSumR (t : ((⟨S100000x64, .f32⟩ : BufTy).Contents (Elt F))) : ((⟨S100000x1, .f32⟩ : BufTy).Contents (Elt F)) :=
  broadcastInDim S100000x1 ![0] bcast_S100000_S100000x1_0
    (Host.reduceAdd t (constant S_ .f32 0x00000000#32) reducesTo_S100000x64_S100000_d1 h_S_)

/-- The mean of each row. -/
def muR (t : ((⟨S100000x64, .f32⟩ : BufTy).Contents (Elt F))) : ((⟨S100000x1, .f32⟩ : BufTy).Contents (Elt F)) :=
  Host.divf (rowSumR t) (broadcastInDim S100000x1 ![] bcast_S_S100000x1 (constant S_ .f32 0x42800000#32))

/-- t minus a column, row by row. -/
def centR (t : ((⟨S100000x64, .f32⟩ : BufTy).Contents (Elt F))) (m : ((⟨S100000x1, .f32⟩ : BufTy).Contents (Elt F))) : ((⟨S100000x64, .f32⟩ : BufTy).Contents (Elt F)) :=
  subf t (broadcastInDim S100000x64 ![0, 1] bcast_S100000x1_S100000x64_0_1 m)

/-- The variance's divisor: 64 minus the (zero) correction, as a float. -/
def ddofR : ((⟨S_, .f32⟩ : BufTy).Contents (Elt F)) :=
  subf (constant S_ .f32 0x42800000#32) (sitofp (F := F) .f32 (constantI S_ 32 0#32))

/-- The variance of each row: the mean square deviation where the divisor is positive, NaN elsewhere. -/
def varR (t : ((⟨S100000x64, .f32⟩ : BufTy).Contents (Elt F))) : ((⟨S100000x1, .f32⟩ : BufTy).Contents (Elt F)) :=
  select (broadcastInDim S100000x1 ![] bcast_S_S100000x1 (cmpf (F := F) .ogt (ddofR (F := F)) (constant S_ .f32 0x00000000#32)))
    (Host.divf (rowSumR (mulf (centR t (muR t)) (centR t (muR t))))
      (broadcastInDim S100000x1 ![] bcast_S_S100000x1 (ddofR (F := F))))
    (broadcastInDim S100000x1 ![] bcast_S_S100000x1 (constant S_ .f32 0x7FC00000#32))

/-- The normalised and scaled rows: (t - mu) · rsqrt (var + ε) · g. -/
def lnScaleR (t : ((⟨S100000x64, .f32⟩ : BufTy).Contents (Elt F))) (mu var : ((⟨S100000x1, .f32⟩ : BufTy).Contents (Elt F)))
    (g : ((⟨S64, .f32⟩ : BufTy).Contents (Elt F))) : ((⟨S100000x64, .f32⟩ : BufTy).Contents (Elt F)) :=
  mulf (mulf (centR t mu)
      (broadcastInDim S100000x64 ![0, 1] bcast_S100000x1_S100000x64_0_1
        (Host.rsqrt (addf var (broadcastInDim S100000x1 ![] bcast_S_S100000x1 (constant S_ .f32 0x3727C5AC#32))))))
    (rowBias64 g)

/-- The layer normalisation: (t - mu) · rsqrt (var + ε) · g + b. -/
def lnR (t : ((⟨S100000x64, .f32⟩ : BufTy).Contents (Elt F))) (mu var : ((⟨S100000x1, .f32⟩ : BufTy).Contents (Elt F)))
    (g b : ((⟨S64, .f32⟩ : BufTy).Contents (Elt F))) : ((⟨S100000x64, .f32⟩ : BufTy).Contents (Elt F)) :=
  addf (lnScaleR t mu var g) (rowBias64 b)

/-- The scores of the edges from the layer's linear image. -/
def edgeScoreR (hl : ((⟨S100000x64, .f32⟩ : BufTy).Contents (Elt F))) (rows cols : ((⟨S1250000, .i32⟩ : BufTy).Contents (Elt F))) (aw : ((⟨S128x1, .f32⟩ : BufTy).Contents (Elt F))) (ab : ((⟨S1, .f32⟩ : BufTy).Contents (Elt F))) :
    ((⟨S1250000x1, .f32⟩ : BufTy).Contents (Elt F)) :=
  scoreR (gatherR hl (normIdxR rows)) (gatherR hl (normIdxR cols)) aw ab

/-- The softmax over ALL edges. -/
def softR (s : ((⟨S1250000x1, .f32⟩ : BufTy).Contents (Elt F))) : ((⟨S1250000x1, .f32⟩ : BufTy).Contents (Elt F)) :=
  probR (expR s (maxR s)) (sumR (expR s (maxR s)))

/-- The layer's activation before normalisation. -/
def newR (hl : ((⟨S100000x64, .f32⟩ : BufTy).Contents (Elt F))) (rows cols : ((⟨S1250000, .i32⟩ : BufTy).Contents (Elt F))) (ew : ((⟨S1250000, .f32⟩ : BufTy).Contents (Elt F)))
    (aw : ((⟨S128x1, .f32⟩ : BufTy).Contents (Elt F))) (ab : ((⟨S1, .f32⟩ : BufTy).Contents (Elt F))) : ((⟨S100000x64, .f32⟩ : BufTy).Contents (Elt F)) :=
  actR hl (aggR (msgR (softR (edgeScoreR hl rows cols aw ab)) ew (gatherR hl (normIdxR cols))) rows)

/-- Layer normalisation with the row's own mean and variance. -/
def normR (t : ((⟨S100000x64, .f32⟩ : BufTy).Contents (Elt F))) (g b : ((⟨S64, .f32⟩ : BufTy).Contents (Elt F))) : ((⟨S100000x64, .f32⟩ : BufTy).Contents (Elt F)) :=
  lnR t (muR t) (varR t) g b

/-- One layer with its residual: h + norm (new (h · W + b)). -/
def layerR (h : ((⟨S100000x64, .f32⟩ : BufTy).Contents (Elt F))) (rows cols : ((⟨S1250000, .i32⟩ : BufTy).Contents (Elt F))) (ew : ((⟨S1250000, .f32⟩ : BufTy).Contents (Elt F)))
    (lw : ((⟨S64x64, .f32⟩ : BufTy).Contents (Elt F))) (lb : ((⟨S64, .f32⟩ : BufTy).Contents (Elt F))) (aw : ((⟨S128x1, .f32⟩ : BufTy).Contents (Elt F))) (ab : ((⟨S1, .f32⟩ : BufTy).Contents (Elt F))) (g b : ((⟨S64, .f32⟩ : BufTy).Contents (Elt F))) :
    ((⟨S100000x64, .f32⟩ : BufTy).Contents (Elt F)) :=
  addf h (normR (newR (hlR h lw lb) rows cols ew aw ab) g b)

/-! ## The output head -/

/-- max (h · W1 + b1, 0). -/
def zR (h : ((⟨S100000x64, .f32⟩ : BufTy).Contents (Elt F))) (o1W : ((⟨S64x32, .f32⟩ : BufTy).Contents (Elt F))) (o1b : ((⟨S32, .f32⟩ : BufTy).Contents (Elt F))) : ((⟨S100000x32, .f32⟩ : BufTy).Contents (Elt F)) :=
  maximumf (addf (Host.dotGeneral dot_S100000x64_S64x32_S100000x32_1_0_0_1_n_n none h o1W)
      (broadcastInDim S100000x32 ![0, 1] bcast_S1x32_S100000x32_0_1 (broadcastInDim S1x32 ![1] bcast_S32_S1x32_1 o1b)))
    (broadcastInDim S100000x32 ![] bcast_S_S100000x32 (constant S_ .f32 0x00000000#32))

/-- z · W2 + b2. -/
def logitR (z : ((⟨S100000x32, .f32⟩ : BufTy).Contents (Elt F))) (o2W : ((⟨S32x1, .f32⟩ : BufTy).Contents (Elt F))) (o2b : ((⟨S1, .f32⟩ : BufTy).Contents (Elt F))) : ((⟨S100000x1, .f32⟩ : BufTy).Contents (Elt F)) :=
  addf (Host.dotGeneral dot_S100000x32_S32x1_S100000x1_1_0_0_1_n_n none z o2W)
    (broadcastInDim S100000x1 ![0, 1] bcast_S1x1_S100000x1_0_1 (broadcastInDim S1x1 ![1] bcast_S1_S1x1_1 o2b))

/-- The logistic function: 1 / (1 + exp (-x)). -/
def sigR (x : ((⟨S100000x1, .f32⟩ : BufTy).Contents (Elt F))) : ((⟨S100000x1, .f32⟩ : BufTy).Contents (Elt F)) :=
  Host.divf (broadcastInDim S100000x1 ![] bcast_S_S100000x1 (constant S_ .f32 0x3F800000#32))
    (addf (broadcastInDim S100000x1 ![] bcast_S_S100000x1 (constant S_ .f32 0x3F800000#32)) (Host.exp (Host.negf x)))

/-- The output head on the last layer's output. -/
def headR (h : ((⟨S100000x64, .f32⟩ : BufTy).Contents (Elt F))) (o1W : ((⟨S64x32, .f32⟩ : BufTy).Contents (Elt F))) (o1b : ((⟨S32, .f32⟩ : BufTy).Contents (Elt F))) (o2W : ((⟨S32x1, .f32⟩ : BufTy).Contents (Elt F))) (o2b : ((⟨S1, .f32⟩ : BufTy).Contents (Elt F))) :
    ((⟨S100000x1, .f32⟩ : BufTy).Contents (Elt F)) :=
  sigR (logitR (zR h o1W o1b) o2W o2b)

/-! ## The whole network -/

/-- The reference program's result as a function of its fifteen arguments, in the program's argument order. -/
def refVal (x : ((⟨S100000x12, .f32⟩ : BufTy).Contents (Elt F))) (ei : ((⟨S2x1250000, .i32⟩ : BufTy).Contents (Elt F))) (ew : ((⟨S1250000, .f32⟩ : BufTy).Contents (Elt F))) (inW : ((⟨S12x64, .f32⟩ : BufTy).Contents (Elt F)))
    (inb : ((⟨S64, .f32⟩ : BufTy).Contents (Elt F))) (linW : ((⟨S3x64x64, .f32⟩ : BufTy).Contents (Elt F))) (linb : ((⟨S3x64, .f32⟩ : BufTy).Contents (Elt F))) (attW : ((⟨S3x128x1, .f32⟩ : BufTy).Contents (Elt F)))
    (attb : ((⟨S3x1, .f32⟩ : BufTy).Contents (Elt F))) (lng lnb : ((⟨S3x64, .f32⟩ : BufTy).Contents (Elt F))) (o1W : ((⟨S64x32, .f32⟩ : BufTy).Contents (Elt F))) (o1b : ((⟨S32, .f32⟩ : BufTy).Contents (Elt F)))
    (o2W : ((⟨S32x1, .f32⟩ : BufTy).Contents (Elt F))) (o2b : ((⟨S1, .f32⟩ : BufTy).Contents (Elt F))) : ((⟨S100000x1, .f32⟩ : BufTy).Contents (Elt F)) :=
  headR
    (layerR
      (layerR
        (layerR (dense0R x inW inb) (rowsR ei) (colsR ei) ew (selW0 linW) (selB0 linb) (selAW0 attW) (selAb0 attb) (selB0 lng) (selB0 lnb))
        (rowsR ei) (colsR ei) ew (selW1 linW) (selB1 linb) (selAW1 attW) (selAb1 attb) (selB1 lng) (selB1 lnb))
      (rowsR ei) (colsR ei) ew (selW2 linW) (selB2 linb) (selAW2 attW) (selAb2 attb) (selB2 lng) (selB2 lnb))
    o1W o1b o2W o2b

end Cert.ReferenceIdeal.Hand

end
-- ==== Proof.Ref.Base.lean ====
/- Shared by the modules that run the reference program's operation lists: reading a valuation at a reference, and the
   tactic that evaluates a literal list of operations at one buffer. -/
import proofs.«417395_j71579924955534_2_alg».proof.Proof.Gen.ReferenceIdeal
import proofs.«417395_j71579924955534_2_alg».proof.Proof.Ref.Stages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F]

/-- The contents a valuation gives the buffer of a TensorCore reference. -/
abbrev rd (V : Valuation τ sig (Elt F)) (r : Ref sig .tc) : (Proc.devRef .tc r : DevRef τ sig).ty.Contents (Elt F) :=
  V (Proc.devRef .tc r)

/-- What a literal list of operations leaves at one buffer: the fold over the list unrolled, each operation's result taken
    at its own buffer and passed over at every other, a typed reference's transport the identity at a literal reference;
    the composed term that remains is the stated stage by unfolding the stages' names. -/
macro "chunk_run " l:ident : tactic =>
  `(tactic| (simp only [$l:ident]
             after_results_simp
             all_goals try simp only [TRef.ofBuf, TRef.toBuf, cast_eq]
             all_goals rfl))

end Cert.ReferenceIdeal.Hand

end
-- ==== Proof.Ref.Ops0.lean ====
/- OPERATION TABLES of statements 1 … 60 of the reference program (window main_part0): the operations in order as lists,
   a called function's operations in place of its call, and per list the per-operation tables. -/
import proofs.«417395_j71579924955534_2_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list of written buffers. -/
local macro "writes_mem" : tactic =>
  `(tactic| (simp only [nullary_writes, unary_writes, binary_writes, ternary_writes, quaternary_writes, reshape_writes, Finset.singleton_subset_iff, List.mem_toFinset]; exact List.mem_map_of_mem (by decide)))

/-- Statements 1 … 34, in order. -/
abbrev opsC0 : List (HloOp τ sig (Elt F)) :=
  [ unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    binary main_arg0 main_arg3 main_v4 ((fun l r => Host.dotGeneral dot_S100000x12_S12x64_S100000x64_1_0_0_1_n_n none l r) : (⟨S100000x12, .f32⟩ : BufTy).Contents (Elt F) → (⟨S12x64, .f32⟩ : BufTy).Contents (Elt F) → (⟨S100000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    unary main_arg5 main_v8 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v8 main_v9 rfl shapeCasts_S1x64x64_S64x64,
    binary main_v7 main_v9 main_v10 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v11 ((extractStridedSlice S1x64 ![0, 0] · slices_S3x64_S1x64_0_0) : (⟨S3x64, .f32⟩ : BufTy).Contents (Elt F) → (⟨S1x64, .f32⟩ : BufTy).Contents (Elt F)),
    reshape main_v11 main_v12 rfl shapeCasts_S1x64_S64,
    unary main_v12 main_v13 (broadcastInDim S1x64 ![1] bcast_S64_S1x64_1 : (⟨S64, .f32⟩ : BufTy).Contents (Elt F) → (⟨S1x64, .f32⟩ : BufTy).Contents (Elt F)),
    unary main_v13 main_v14 (broadcastInDim S100000x64 ![0, 1] bcast_S1x64_S100000x64_0_1 : (⟨S1x64, .f32⟩ : BufTy).Contents (Elt F) → (⟨S100000x64, .f32⟩ : BufTy).Contents (Elt F)),
    binary main_v10 main_v14 main_v15 (addf : (⟨S100000x64, .f32⟩ : BufTy).Contents (Elt F) → (⟨S100000x64, .f32⟩ : BufTy).Contents (Elt F) → (⟨S100000x64, .f32⟩ : BufTy).Contents (Elt F)),
    nullary main_c (constantI S_ 32 0#32),
    unary main_c main_v16 (broadcastInDim S1250000 ![] bcast_S_S1250000 : (⟨S_, .i32⟩ : BufTy).Contents (Elt F) → (⟨S1250000, .i32⟩ : BufTy).Contents (Elt F)),
    binary main_v1 main_v16 main_v17 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 100000#32),
    unary main_c_0 main_v18 (broadcastInDim S1250000 ![] bcast_S_S1250000 : (⟨S_, .i32⟩ : BufTy).Contents (Elt F) → (⟨S1250000, .i32⟩ : BufTy).Contents (Elt F)),
    binary main_v1 main_v18 main_v19 (addi : (⟨S1250000, .i32⟩ : BufTy).Contents (Elt F) → (⟨S1250000, .i32⟩ : BufTy).Contents (Elt F) → (⟨S1250000, .i32⟩ : BufTy).Contents (Elt F)),
    ternary main_v17 main_v19 main_v1 main_v20 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v20 main_v21 (broadcastInDim S1250000x1 ![0] bcast_S1250000_S1250000x1_0 : (⟨S1250000, .i32⟩ : BufTy).Contents (Elt F) → (⟨S1250000x1, .i32⟩ : BufTy).Contents (Elt F)),
    binary main_v15 main_v21 main_v22 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_c_1 (constantI S_ 32 0#32),
    unary main_c_1 main_v23 (broadcastInDim S1250000 ![] bcast_S_S1250000 : (⟨S_, .i32⟩ : BufTy).Contents (Elt F) → (⟨S1250000, .i32⟩ : BufTy).Contents (Elt F)),
    binary main_v3 main_v23 main_v24 (cmpi .slt : (⟨S1250000, .i32⟩ : BufTy).Contents (Elt F) → (⟨S1250000, .i32⟩ : BufTy).Contents (Elt F) → (⟨S1250000, .i1⟩ : BufTy).Contents (Elt F)),
    nullary main_c_2 (constantI S_ 32 100000#32),
    unary main_c_2 main_v25 (broadcastInDim S1250000 ![] bcast_S_S1250000 : (⟨S_, .i32⟩ : BufTy).Contents (Elt F) → (⟨S1250000, .i32⟩ : BufTy).Contents (Elt F)),
    binary main_v3 main_v25 main_v26 (addi : (⟨S1250000, .i32⟩ : BufTy).Contents (Elt F) → (⟨S1250000, .i32⟩ : BufTy).Contents (Elt F) → (⟨S1250000, .i32⟩ : BufTy).Contents (Elt F)),
    ternary main_v24 main_v26 main_v3 main_v27 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v27 main_v28 (broadcastInDim S1250000x1 ![0] bcast_S1250000_S1250000x1_0 : (⟨S1250000, .i32⟩ : BufTy).Contents (Elt F) → (⟨S1250000x1, .i32⟩ : BufTy).Contents (Elt F)),
    binary main_v15 main_v28 main_v29 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)) ]

/-- Statements 35 … 60, in order. -/
abbrev opsC1 : List (HloOp τ sig (Elt F)) :=
  [ binary main_v22 main_v29 main_v30 ((fun a b => concatenate S1250000x128 1 [⟨S1250000x64, a⟩, ⟨S1250000x64, b⟩] concatenates_S1250000x64_S1250000x64_S1250000x128_d1) : (⟨S1250000x64, .f32⟩ : BufTy).Contents (Elt F) → (⟨S1250000x64, .f32⟩ : BufTy).Contents (Elt F) → (⟨S1250000x128, .f32⟩ : BufTy).Contents (Elt F)),
    unary main_arg7 main_v31 ((extractStridedSlice S1x128x1 ![0, 0, 0] · slices_S3x128x1_S1x128x1_0_0_0) : (⟨S3x128x1, .f32⟩ : BufTy).Contents (Elt F) → (⟨S1x128x1, .f32⟩ : BufTy).Contents (Elt F)),
    reshape main_v31 main_v32 rfl shapeCasts_S1x128x1_S128x1,
    binary main_v30 main_v32 main_v33 ((fun l r => Host.dotGeneral dot_S1250000x128_S128x1_S1250000x1_1_0_0_1_n_n none l r) : (⟨S1250000x128, .f32⟩ : BufTy).Contents (Elt F) → (⟨S128x1, .f32⟩ : BufTy).Contents (Elt F) → (⟨S1250000x1, .f32⟩ : BufTy).Contents (Elt F)),
    unary main_arg8 main_v34 ((extractStridedSlice S1x1 ![0, 0] · slices_S3x1_S1x1_0_0) : (⟨S3x1, .f32⟩ : BufTy).Contents (Elt F) → (⟨S1x1, .f32⟩ : BufTy).Contents (Elt F)),
    reshape main_v34 main_v35 rfl shapeCasts_S1x1_S1,
    unary main_v35 main_v36 (broadcastInDim S1x1 ![1] bcast_S1_S1x1_1 : (⟨S1, .f32⟩ : BufTy).Contents (Elt F) → (⟨S1x1, .f32⟩ : BufTy).Contents (Elt F)),
    unary main_v36 main_v37 (broadcastInDim S1250000x1 ![0, 1] bcast_S1x1_S1250000x1_0_1 : (⟨S1x1, .f32⟩ : BufTy).Contents (Elt F) → (⟨S1250000x1, .f32⟩ : BufTy).Contents (Elt F)),
    binary main_v33 main_v37 main_v38 (addf : (⟨S1250000x1, .f32⟩ : BufTy).Contents (Elt F) → (⟨S1250000x1, .f32⟩ : BufTy).Contents (Elt F) → (⟨S1250000x1, .f32⟩ : BufTy).Contents (Elt F)),
    nullary main_cst (constant S_ .f32 0x3C23D70A#32),
    TRef.nullary main_call0.cst (constant S_ .f32 0x00000000#32),
    TRef.unary main_call0.cst main_call0.v0 (broadcastInDim S1250000x1 ![] bcast_S_S1250000x1),
    TRef.binary (.of main_v38) main_call0.v0 main_call0.v1 (cmpf (F := F) .oge),
    TRef.unary (.of main_cst) main_call0.v2 id,
    TRef.unary main_call0.v2 main_call0.v3 (broadcastInDim S1250000x1 ![] bcast_S_S1250000x1),
    TRef.binary main_call0.v3 (.of main_v38) main_call0.v4 mulf,
    TRef.ternary main_call0.v1 (.of main_v38) main_call0.v4 main_call0_call0.v0 select,
    nullary main_cst_3 (constant S_ .f32 0xFF800000#32),
    binary main_v39 main_cst_3 main_v40 ((fun x v => Host.reduce FloatOps.maximumf x v reducesTo_S1250000x1_S1_d0 h_S_) : (⟨S1250000x1, .f32⟩ : BufTy).Contents (Elt F) → (⟨S_, .f32⟩ : BufTy).Contents (Elt F) → (⟨S1, .f32⟩ : BufTy).Contents (Elt F)),
    nullary main_cst_4 (constant S_ .f32 0xFF800000#32),
    unary main_cst_4 main_v41 (broadcastInDim S1 ![] bcast_S_S1 : (⟨S_, .f32⟩ : BufTy).Contents (Elt F) → (⟨S1, .f32⟩ : BufTy).Contents (Elt F)),
    binary main_v41 main_v40 main_v42 (maximumf : (⟨S1, .f32⟩ : BufTy).Contents (Elt F) → (⟨S1, .f32⟩ : BufTy).Contents (Elt F) → (⟨S1, .f32⟩ : BufTy).Contents (Elt F)),
    unary main_v42 main_v43 (broadcastInDim S1x1 ![1] bcast_S1_S1x1_1 : (⟨S1, .f32⟩ : BufTy).Contents (Elt F) → (⟨S1x1, .f32⟩ : BufTy).Contents (Elt F)),
    unary main_v43 main_v44 (broadcastInDim S1250000x1 ![0, 1] bcast_S1x1_S1250000x1_0_1 : (⟨S1x1, .f32⟩ : BufTy).Contents (Elt F) → (⟨S1250000x1, .f32⟩ : BufTy).Contents (Elt F)),
    binary main_v39 main_v44 main_v45 (subf : (⟨S1250000x1, .f32⟩ : BufTy).Contents (Elt F) → (⟨S1250000x1, .f32⟩ : BufTy).Contents (Elt F) → (⟨S1250000x1, .f32⟩ : BufTy).Contents (Elt F)),
    unary main_v45 main_v46 (Host.exp : (⟨S1250000x1, .f32⟩ : BufTy).Contents (Elt F) → (⟨S1250000x1, .f32⟩ : BufTy).Contents (Elt F)),
    nullary main_cst_5 (constant S_ .f32 0x00000000#32),
    binary main_v46 main_cst_5 main_v47 ((fun x v => Host.reduceAdd x v reducesTo_S1250000x1_S1_d0 h_S_) : (⟨S1250000x1, .f32⟩ : BufTy).Contents (Elt F) → (⟨S_, .f32⟩ : BufTy).Contents (Elt F) → (⟨S1, .f32⟩ : BufTy).Contents (Elt F)),
    unary main_v47 main_v48 (broadcastInDim S1x1 ![1] bcast_S1_S1x1_1 : (⟨S1, .f32⟩ : BufTy).Contents (Elt F) → (⟨S1x1, .f32⟩ : BufTy).Contents (Elt F)),
    unary main_v48 main_v49 (broadcastInDim S1250000x1 ![0, 1] bcast_S1x1_S1250000x1_0_1 : (⟨S1x1, .f32⟩ : BufTy).Contents (Elt F) → (⟨S1250000x1, .f32⟩ : BufTy).Contents (Elt F)),
    binary main_v46 main_v49 main_v50 (Host.divf : (⟨S1250000x1, .f32⟩ : BufTy).Contents (Elt F) → (⟨S1250000x1, .f32⟩ : BufTy).Contents (Elt F) → (⟨S1250000x1, .f32⟩ : BufTy).Contents (Elt F)),
    unary main_arg2 main_v51 (broadcastInDim S1250000x1 ![0] bcast_S1250000_S1250000x1_0 : (⟨S1250000, .f32⟩ : BufTy).Contents (Elt F) → (⟨S1250000x1, .f32⟩ : BufTy).Contents (Elt F)) ]

/-- The window's operations: these lists in order. -/
abbrev ops_part0 : List (HloOp τ sig (Elt F)) := opsC0 ++ opsC1

theorem opsC0_sub : (opsC0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsC0_fresh : (opsC0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes. -/
abbrev opsC0_W : List (Ref sig .tc) := [main_v0, main_v1, main_v2, main_v3, main_v4, main_v5, main_v6, main_v7, main_v8, main_v9, main_v10, main_v11, main_v12, main_v13, main_v14, main_v15, main_c, main_v16, main_v17, main_c_0, main_v18, main_v19, main_v20, main_v21, main_v22, main_c_1, main_v23, main_v24, main_c_2, main_v25, main_v26, main_v27, main_v28, main_v29]

theorem opsC0_writes : (opsC0 : List (HloOp τ sig (Elt F))).Forall fun op => op.writes ⊆ (opsC0_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

theorem opsC1_sub : (opsC1 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩

theorem opsC1_fresh : (opsC1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes. -/
abbrev opsC1_W : List (Ref sig .tc) := [main_v30, main_v31, main_v32, main_v33, main_v34, main_v35, main_v36, main_v37, main_v38, main_cst, main_call0_cst, main_call0_v0, main_call0_v1, main_call0_v2, main_call0_v3, main_call0_v4, main_v39, main_cst_3, main_v40, main_cst_4, main_v41, main_v42, main_v43, main_v44, main_v45, main_v46, main_cst_5, main_v47, main_v48, main_v49, main_v50, main_v51]

theorem opsC1_writes : (opsC1 : List (HloOp τ sig (Elt F))).Forall fun op => op.writes ⊆ (opsC1_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

end Cert.ReferenceIdeal.Hand

end
-- ==== Proof.Ref.Lem0.lean ====
/- Statements 1 … 60 of the reference program: the window is its operation lists run in order, and what each list
   leaves in the buffers read later, as the named stages of the contents it starts from. Statements 1 … 34 compute the
   two index rows, the input layer, the first layer's linear image and its rows gathered at the edges' two ends;
   statements 35 … 60 the first layer's attention probabilities. -/
import proofs.«417395_j71579924955534_2_alg».proof.Proof.Ref.Base
import proofs.«417395_j71579924955534_2_alg».proof.Proof.Ref.Ops0

set_option Elab.async false
set_option maxRecDepth 8192
set_option maxHeartbeats 2000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 0 of the program is its operation lists run in order. -/
theorem main_part0_eq (c : Dev nD) : main_part0 (F := F) c = seq ops_part0 := rfl

/-- A buffer statements 1 … 34 do not write keeps its contents through them. -/
theorem c0_keep (V : Valuation τ sig (Elt F)) (r : Ref sig .tc) (h : r ∉ opsC0_W) :
    after opsC0 V (no_index (Proc.devRef .tc r)) = V (Proc.devRef .tc r) :=
  after_of_writes_sub opsC0 V opsC0_writes h

/-- A buffer statements 35 … 60 do not write keeps its contents through them. -/
theorem c1_keep (V : Valuation τ sig (Elt F)) (r : Ref sig .tc) (h : r ∉ opsC1_W) :
    after opsC1 V (no_index (Proc.devRef .tc r)) = V (Proc.devRef .tc r) :=
  after_of_writes_sub opsC1 V opsC1_writes h

/-! ## Statements 1 … 34 -/

theorem c0_main_v1 (V : Valuation τ sig (Elt F)) :
    after opsC0 V (no_index (Proc.devRef .tc main_v1)) = rowsR (rd V main_arg1) := by
  chunk_run opsC0

theorem c0_main_v3 (V : Valuation τ sig (Elt F)) :
    after opsC0 V (no_index (Proc.devRef .tc main_v3)) = colsR (rd V main_arg1) := by
  chunk_run opsC0

theorem c0_main_v7 (V : Valuation τ sig (Elt F)) :
    after opsC0 V (no_index (Proc.devRef .tc main_v7)) = dense0R (rd V main_arg0) (rd V main_arg3) (rd V main_arg4) := by
  chunk_run opsC0

theorem c0_main_v15 (V : Valuation τ sig (Elt F)) :
    after opsC0 V (no_index (Proc.devRef .tc main_v15))
      = hlR (dense0R (rd V main_arg0) (rd V main_arg3) (rd V main_arg4)) (selW0 (rd V main_arg5)) (selB0 (rd V main_arg6)) := by
  chunk_run opsC0

theorem c0_main_v22 (V : Valuation τ sig (Elt F)) :
    after opsC0 V (no_index (Proc.devRef .tc main_v22))
      = gatherR (hlR (dense0R (rd V main_arg0) (rd V main_arg3) (rd V main_arg4)) (selW0 (rd V main_arg5)) (selB0 (rd V main_arg6)))
          (normIdxR (rowsR (rd V main_arg1))) := by
  chunk_run opsC0

theorem c0_main_v29 (V : Valuation τ sig (Elt F)) :
    after opsC0 V (no_index (Proc.devRef .tc main_v29))
      = gatherR (hlR (dense0R (rd V main_arg0) (rd V main_arg3) (rd V main_arg4)) (selW0 (rd V main_arg5)) (selB0 (rd V main_arg6)))
          (normIdxR (colsR (rd V main_arg1))) := by
  chunk_run opsC0

/-! ## Statements 35 … 60 -/

theorem c1_main_v50 (V : Valuation τ sig (Elt F)) :
    after opsC1 V (no_index (Proc.devRef .tc main_v50))
      = softR (scoreR (rd V main_v22) (rd V main_v29) (selAW0 (rd V main_arg7)) (selAb0 (rd V main_arg8))) := by
  chunk_run opsC1

theorem c1_main_v51 (V : Valuation τ sig (Elt F)) :
    after opsC1 V (no_index (Proc.devRef .tc main_v51))
      = broadcastInDim S1250000x1 ![0] bcast_S1250000_S1250000x1_0 (rd V main_arg2) := by
  chunk_run opsC1

end Cert.ReferenceIdeal.Hand

end
-- ==== Proof.Ref.Ops1.lean ====
/- OPERATION TABLES of statements 61 … 120 of the reference program (window main_part1): the operations in order as lists,
   a called function's operations in place of its call, and per list the per-operation tables. -/
import proofs.«417395_j71579924955534_2_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list of written buffers. -/
local macro "writes_mem" : tactic =>
  `(tactic| (simp only [nullary_writes, unary_writes, binary_writes, ternary_writes, quaternary_writes, reshape_writes, Finset.singleton_subset_iff, List.mem_toFinset]; exact List.mem_map_of_mem (by decide)))

/-- Statements 61 … 79, in order. -/
abbrev opsC2 : List (HloOp τ sig (Elt F)) :=
  [ binary main_v50 main_v51 main_v52 (mulf : (⟨S1250000x1, .f32⟩ : BufTy).Contents (Elt F) → (⟨S1250000x1, .f32⟩ : BufTy).Contents (Elt F) → (⟨S1250000x1, .f32⟩ : BufTy).Contents (Elt F)),
    unary main_v52 main_v53 (broadcastInDim S1250000x64 ![0, 1] bcast_S1250000x1_S1250000x64_0_1 : (⟨S1250000x1, .f32⟩ : BufTy).Contents (Elt F) → (⟨S1250000x64, .f32⟩ : BufTy).Contents (Elt F)),
    binary main_v53 main_v29 main_v54 (mulf : (⟨S1250000x64, .f32⟩ : BufTy).Contents (Elt F) → (⟨S1250000x64, .f32⟩ : BufTy).Contents (Elt F) → (⟨S1250000x64, .f32⟩ : BufTy).Contents (Elt F)),
    nullary main_cst_6 (constant S_ .f32 0x00000000#32),
    unary main_cst_6 main_v55 (broadcastInDim S100000x64 ![] bcast_S_S100000x64 : (⟨S_, .f32⟩ : BufTy).Contents (Elt F) → (⟨S100000x64, .f32⟩ : BufTy).Contents (Elt F)),
    unary main_v1 main_v56 (broadcastInDim S1250000x1 ![0] bcast_S1250000_S1250000x1_0 : (⟨S1250000, .i32⟩ : BufTy).Contents (Elt F) → (⟨S1250000x1, .i32⟩ : BufTy).Contents (Elt F)),
    ternary main_v55 main_v56 main_v54 main_v57 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    binary main_v15 main_v57 main_v58 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v58) main_call1.v0 main_call1.v1 maximumf,
    unary main_arg9 main_v60 ((extractStridedSlice S1x64 ![0, 0] · slices_S3x64_S1x64_0_0) : (⟨S3x64, .f32⟩ : BufTy).Contents (Elt F) → (⟨S1x64, .f32⟩ : BufTy).Contents (Elt F)),
    reshape main_v60 main_v61 rfl shapeCasts_S1x64_S64,
    unary main_arg10 main_v62 ((extractStridedSlice S1x64 ![0, 0] · slices_S3x64_S1x64_0_0) : (⟨S3x64, .f32⟩ : BufTy).Contents (Elt F) → (⟨S1x64, .f32⟩ : BufTy).Contents (Elt F)),
    reshape main_v62 main_v63 rfl shapeCasts_S1x64_S64,
    nullary main_cst_7 (constant S_ .f32 0x00000000#32),
    binary main_v59 main_cst_7 main_v64 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v64 main_v65 (broadcastInDim S100000x1 ![0] bcast_S100000_S100000x1_0 : (⟨S100000, .f32⟩ : BufTy).Contents (Elt F) → (⟨S100000x1, .f32⟩ : BufTy).Contents (Elt F)),
    nullary main_cst_8 (constant S_ .f32 0x42800000#32),
    unary main_cst_8 main_v66 (broadcastInDim S100000x1 ![] bcast_S_S100000x1 : (⟨S_, .f32⟩ : BufTy).Contents (Elt F) → (⟨S100000x1, .f32⟩ : BufTy).Contents (Elt F)),
    binary main_v65 main_v66 main_v67 (Host.divf : (⟨S100000x1, .f32⟩ : BufTy).Contents (Elt F) → (⟨S100000x1, .f32⟩ : BufTy).Contents (Elt F) → (⟨S100000x1, .f32⟩ : BufTy).Contents (Elt F)) ]

/-- Statements 80 … 96, in order. -/
abbrev opsC3 : List (HloOp τ sig (Elt F)) :=
  [ nullary main_c_9 (constantI S_ 32 0#32),
    TRef.nullary main_call2.cst (constant S_ .f32 0x00000000#32),
    TRef.binary (.of main_v59) main_call2.cst main_call2.v0 (fun x v => Host.reduceAdd x v reducesTo_S100000x64_S100000_d1 h_S_),
    TRef.unary main_call2.v0 main_call2.v1 (broadcastInDim S100000x1 ![0] bcast_S100000_S100000x1_0),
    TRef.nullary main_call2.cst_0 (constant S_ .f32 0x42800000#32),
    TRef.unary main_call2.cst_0 main_call2.v2 (broadcastInDim S100000x1 ![] bcast_S_S100000x1),
    TRef.binary main_call2.v1 main_call2.v2 main_call2.v3 Host.divf,
    TRef.unary main_call2.v3 main_call2.v4 (broadcastInDim S100000x64 ![0, 1] bcast_S100000x1_S100000x64_0_1),
    TRef.binary (.of main_v59) main_call2.v4 main_call2.v5 subf,
    TRef.binary main_call2.v5 main_call2.v5 main_call2.v6 mulf,
    TRef.unary (.of main_c_9) main_call2.v7 (sitofp (F := F) .f32),
    TRef.nullary main_call2.cst_1 (constant S_ .f32 0x42800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S100000_d1 h_S_),
    TRef.unary main_call2.v9 main_call2.v10 (broadcastInDim S100000x1 ![0] bcast_S100000_S100000x1_0),
    TRef.unary main_call2.v8 main_call2.v11 (broadcastInDim S100000x1 ![] bcast_S_S100000x1),
    TRef.binary main_call2.v10 main_call2.v11 main_call2.v12 Host.divf,
    TRef.nullary main_call2.cst_3 (constant S_ .f32 0x00000000#32),
    TRef.binary main_call2.v8 main_call2.cst_3 main_call2.v13 (cmpf (F := F) .ogt),
    TRef.nullary main_call2.cst_4 (constant S_ .f32 0x7FC00000#32),
    TRef.unary main_call2.cst_4 main_call2_call0.v0 id,
    TRef.unary main_call2_call0.v0 main_call2_call0.v1 (broadcastInDim S100000x1 ![] bcast_S_S100000x1),
    TRef.ternary main_call2.v13 main_call2.v12 main_call2_call0.v1 main_call2_call0.v2 (fun p a b => select (broadcastInDim S100000x1 ![] bcast_S_S100000x1 p) a b),
    unary main_v67 main_v69 (broadcastInDim S100000x64 ![0, 1] bcast_S100000x1_S100000x64_0_1 : (⟨S100000x1, .f32⟩ : BufTy).Contents (Elt F) → (⟨S100000x64, .f32⟩ : BufTy).Contents (Elt F)),
    binary main_v59 main_v69 main_v70 (subf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3727C5AC#32),
    unary main_cst_10 main_v71 (broadcastInDim S100000x1 ![] bcast_S_S100000x1 : (⟨S_, .f32⟩ : BufTy).Contents (Elt F) → (⟨S100000x1, .f32⟩ : BufTy).Contents (Elt F)),
    binary main_v68 main_v71 main_v72 (addf : (⟨S100000x1, .f32⟩ : BufTy).Contents (Elt F) → (⟨S100000x1, .f32⟩ : BufTy).Contents (Elt F) → (⟨S100000x1, .f32⟩ : BufTy).Contents (Elt F)),
    unary main_v72 main_v73 (Host.rsqrt : (⟨S100000x1, .f32⟩ : BufTy).Contents (Elt F) → (⟨S100000x1, .f32⟩ : BufTy).Contents (Elt F)),
    unary main_v73 main_v74 (broadcastInDim S100000x64 ![0, 1] bcast_S100000x1_S100000x64_0_1 : (⟨S100000x1, .f32⟩ : BufTy).Contents (Elt F) → (⟨S100000x64, .f32⟩ : BufTy).Contents (Elt F)),
    binary main_v70 main_v74 main_v75 (mulf : (⟨S100000x64, .f32⟩ : BufTy).Contents (Elt F) → (⟨S100000x64, .f32⟩ : BufTy).Contents (Elt F) → (⟨S100000x64, .f32⟩ : BufTy).Contents (Elt F)),
    unary main_v61 main_v76 (broadcastInDim S1x64 ![1] bcast_S64_S1x64_1 : (⟨S64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v75 main_v77 main_v78 (mulf : (⟨S100000x64, .f32⟩ : BufTy).Contents (Elt F) → (⟨S100000x64, .f32⟩ : BufTy).Contents (Elt F) → (⟨S100000x64, .f32⟩ : BufTy).Contents (Elt F)),
    unary main_v63 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (addf : (⟨S100000x64, .f32⟩ : BufTy).Contents (Elt F) → (⟨S100000x64, .f32⟩ : BufTy).Contents (Elt F) → (⟨S100000x64, .f32⟩ : BufTy).Contents (Elt F)),
    binary main_v7 main_v81 main_v82 (addf : (⟨S100000x64, .f32⟩ : BufTy).Contents (Elt F) → (⟨S100000x64, .f32⟩ : BufTy).Contents (Elt F) → (⟨S100000x64, .f32⟩ : BufTy).Contents (Elt F)) ]

/-- Statements 97 … 120, in order. -/
abbrev opsC4 : List (HloOp τ sig (Elt F)) :=
  [ unary main_arg5 main_v83 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v83 main_v84 rfl shapeCasts_S1x64x64_S64x64,
    binary main_v82 main_v84 main_v85 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v86 ((extractStridedSlice S1x64 ![1, 0] · slices_S3x64_S1x64_1_0) : (⟨S3x64, .f32⟩ : BufTy).Contents (Elt F) → (⟨S1x64, .f32⟩ : BufTy).Contents (Elt F)),
    reshape main_v86 main_v87 rfl shapeCasts_S1x64_S64,
    unary main_v87 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v85 main_v89 main_v90 (addf : (⟨S100000x64, .f32⟩ : BufTy).Contents (Elt F) → (⟨S100000x64, .f32⟩ : BufTy).Contents (Elt F) → (⟨S100000x64, .f32⟩ : BufTy).Contents (Elt F)),
    nullary main_c_11 (constantI S_ 32 0#32),
    unary main_c_11 main_v91 (broadcastInDim S1250000 ![] bcast_S_S1250000 : (⟨S_, .i32⟩ : BufTy).Contents (Elt F) → (⟨S1250000, .i32⟩ : BufTy).Contents (Elt F)),
    binary main_v1 main_v91 main_v92 (cmpi .slt : (⟨S1250000, .i32⟩ : BufTy).Contents (Elt F) → (⟨S1250000, .i32⟩ : BufTy).Contents (Elt F) → (⟨S1250000, .i1⟩ : BufTy).Contents (Elt F)),
    nullary main_c_12 (constantI S_ 32 100000#32),
    unary main_c_12 main_v93 (broadcastInDim S1250000 ![] bcast_S_S1250000 : (⟨S_, .i32⟩ : BufTy).Contents (Elt F) → (⟨S1250000, .i32⟩ : BufTy).Contents (Elt F)),
    binary main_v1 main_v93 main_v94 (addi : (⟨S1250000, .i32⟩ : BufTy).Contents (Elt F) → (⟨S1250000, .i32⟩ : BufTy).Contents (Elt F) → (⟨S1250000, .i32⟩ : BufTy).Contents (Elt F)),
    ternary main_v92 main_v94 main_v1 main_v95 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v95 main_v96 (broadcastInDim S1250000x1 ![0] bcast_S1250000_S1250000x1_0 : (⟨S1250000, .i32⟩ : BufTy).Contents (Elt F) → (⟨S1250000x1, .i32⟩ : BufTy).Contents (Elt F)),
    binary main_v90 main_v96 main_v97 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_c_13 (constantI S_ 32 0#32),
    unary main_c_13 main_v98 (broadcastInDim S1250000 ![] bcast_S_S1250000 : (⟨S_, .i32⟩ : BufTy).Contents (Elt F) → (⟨S1250000, .i32⟩ : BufTy).Contents (Elt F)),
    binary main_v3 main_v98 main_v99 (cmpi .slt : (⟨S1250000, .i32⟩ : BufTy).Contents (Elt F) → (⟨S1250000, .i32⟩ : BufTy).Contents (Elt F) → (⟨S1250000, .i1⟩ : BufTy).Contents (Elt F)),
    nullary main_c_14 (constantI S_ 32 100000#32),
    unary main_c_14 main_v100 (broadcastInDim S1250000 ![] bcast_S_S1250000 : (⟨S_, .i32⟩ : BufTy).Contents (Elt F) → (⟨S1250000, .i32⟩ : BufTy).Contents (Elt F)),
    binary main_v3 main_v100 main_v101 (addi : (⟨S1250000, .i32⟩ : BufTy).Contents (Elt F) → (⟨S1250000, .i32⟩ : BufTy).Contents (Elt F) → (⟨S1250000, .i32⟩ : BufTy).Contents (Elt F)),
    ternary main_v99 main_v101 main_v3 main_v102 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)) ]

/-- The window's operations: these lists in order. -/
abbrev ops_part1 : List (HloOp τ sig (Elt F)) := opsC2 ++ opsC3 ++ opsC4

theorem opsC2_sub : (opsC2 : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub ..⟩

theorem opsC2_fresh : (opsC2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers the list writes. -/
abbrev opsC2_W : List (Ref sig .tc) := [main_v52, main_v53, main_v54, main_cst_6, main_v55, main_v56, main_v57, main_v58, main_call1_cst, main_call1_v0, main_v59, main_v60, main_v61, main_v62, main_v63, main_cst_7, main_v64, main_v65, main_cst_8, main_v66, main_v67]

theorem opsC2_writes : (opsC2 : List (HloOp τ sig (Elt F))).Forall fun op => op.writes ⊆ (opsC2_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

theorem opsC3_sub : (opsC3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

theorem opsC3_fresh : (opsC3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes. -/
abbrev opsC3_W : List (Ref sig .tc) := [main_c_9, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v68, main_v69, main_v70, main_cst_10, main_v71, main_v72, main_v73, main_v74, main_v75, main_v76, main_v77, main_v78, main_v79, main_v80, main_v81, main_v82]

theorem opsC3_writes : (opsC3 : List (HloOp τ sig (Elt F))).Forall fun op => op.writes ⊆ (opsC3_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

theorem opsC4_sub : (opsC4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩

theorem opsC4_fresh : (opsC4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers the list writes. -/
abbrev opsC4_W : List (Ref sig .tc) := [main_v83, main_v84, main_v85, main_v86, main_v87, main_v88, main_v89, main_v90, main_c_11, main_v91, main_v92, main_c_12, main_v93, main_v94, main_v95, main_v96, main_v97, main_c_13, main_v98, main_v99, main_c_14, main_v100, main_v101, main_v102]

theorem opsC4_writes : (opsC4 : List (HloOp τ sig (Elt F))).Forall fun op => op.writes ⊆ (opsC4_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

end Cert.ReferenceIdeal.Hand

end
-- ==== Proof.Ref.Lem1.lean ====
/- Statements 61 … 120 of the reference program: the window is its operation lists run in order, and what each list
   leaves in the buffers read later, as the named stages of the contents it starts from. Statements 61 … 79 compute the
   first layer's aggregated and rectified rows, their mean and the two normalisation parameters; statements 80 … 96
   the variance, the normalisation and the residual sum; statements 97 … 120 the second layer's linear image, its rows
   gathered at the edges' targets and the wrapped source indices. -/
import proofs.«417395_j71579924955534_2_alg».proof.Proof.Ref.Base
import proofs.«417395_j71579924955534_2_alg».proof.Proof.Ref.Ops1

set_option Elab.async false
set_option maxRecDepth 8192
set_option maxHeartbeats 2000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 1 of the program is its operation lists run in order. -/
theorem main_part1_eq (c : Dev nD) : main_part1 (F := F) c = seq ops_part1 := rfl

/-- A buffer statements 61 … 79 do not write keeps its contents through them. -/
theorem c2_keep (V : Valuation τ sig (Elt F)) (r : Ref sig .tc) (h : r ∉ opsC2_W) :
    after opsC2 V (no_index (Proc.devRef .tc r)) = V (Proc.devRef .tc r) :=
  after_of_writes_sub opsC2 V opsC2_writes h

/-- A buffer statements 80 … 96 do not write keeps its contents through them. -/
theorem c3_keep (V : Valuation τ sig (Elt F)) (r : Ref sig .tc) (h : r ∉ opsC3_W) :
    after opsC3 V (no_index (Proc.devRef .tc r)) = V (Proc.devRef .tc r) :=
  after_of_writes_sub opsC3 V opsC3_writes h

/-- A buffer statements 97 … 120 do not write keeps its contents through them. -/
theorem c4_keep (V : Valuation τ sig (Elt F)) (r : Ref sig .tc) (h : r ∉ opsC4_W) :
    after opsC4 V (no_index (Proc.devRef .tc r)) = V (Proc.devRef .tc r) :=
  after_of_writes_sub opsC4 V opsC4_writes h

/-! ## Statements 61 … 79 -/

theorem c2_main_v59 (V : Valuation τ sig (Elt F)) :
    after opsC2 V (no_index (Proc.devRef .tc main_v59))
      = actR (rd V main_v15)
          (aggR (mulf (broadcastInDim S1250000x64 ![0, 1] bcast_S1250000x1_S1250000x64_0_1 (mulf (rd V main_v50) (rd V main_v51)))
            (rd V main_v29)) (rd V main_v1)) := by
  chunk_run opsC2

theorem c2_main_v61 (V : Valuation τ sig (Elt F)) :
    after opsC2 V (no_index (Proc.devRef .tc main_v61)) = selB0 (rd V main_arg9) := by
  chunk_run opsC2

theorem c2_main_v63 (V : Valuation τ sig (Elt F)) :
    after opsC2 V (no_index (Proc.devRef .tc main_v63)) = selB0 (rd V main_arg10) := by
  chunk_run opsC2

theorem c2_main_v67 (V : Valuation τ sig (Elt F)) :
    after opsC2 V (no_index (Proc.devRef .tc main_v67))
      = muR (actR (rd V main_v15)
          (aggR (mulf (broadcastInDim S1250000x64 ![0, 1] bcast_S1250000x1_S1250000x64_0_1 (mulf (rd V main_v50) (rd V main_v51)))
            (rd V main_v29)) (rd V main_v1))) := by
  chunk_run opsC2

/-! ## Statements 80 … 96 -/

theorem c3_main_v82 (V : Valuation τ sig (Elt F)) :
    after opsC3 V (no_index (Proc.devRef .tc main_v82))
      = addf (rd V main_v7) (lnR (rd V main_v59) (rd V main_v67) (varR (rd V main_v59)) (rd V main_v61) (rd V main_v63)) := by
  chunk_run opsC3

/-! ## Statements 97 … 120 -/

theorem c4_main_v90 (V : Valuation τ sig (Elt F)) :
    after opsC4 V (no_index (Proc.devRef .tc main_v90))
      = hlR (rd V main_v82) (selW1 (rd V main_arg5)) (selB1 (rd V main_arg6)) := by
  chunk_run opsC4

theorem c4_main_v97 (V : Valuation τ sig (Elt F)) :
    after opsC4 V (no_index (Proc.devRef .tc main_v97))
      = gatherR (hlR (rd V main_v82) (selW1 (rd V main_arg5)) (selB1 (rd V main_arg6))) (normIdxR (rd V main_v1)) := by
  chunk_run opsC4

theorem c4_main_v102 (V : Valuation τ sig (Elt F)) :
    after opsC4 V (no_index (Proc.devRef .tc main_v102)) = normSelR (rd V main_v3) := by
  chunk_run opsC4

end Cert.ReferenceIdeal.Hand

end
-- ==== Proof.Ref.Ops2.lean ====
/- OPERATION TABLES of statements 121 … 180 of the reference program (window main_part2): the operations in order as lists,
   a called function's operations in place of its call, and per list the per-operation tables. -/
import proofs.«417395_j71579924955534_2_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list of written buffers. -/
local macro "writes_mem" : tactic =>
  `(tactic| (simp only [nullary_writes, unary_writes, binary_writes, ternary_writes, quaternary_writes, reshape_writes, Finset.singleton_subset_iff, List.mem_toFinset]; exact List.mem_map_of_mem (by decide)))

/-- Statements 121 … 122, in order. -/
abbrev opsC5 : List (HloOp τ sig (Elt F)) :=
  [ unary main_v102 main_v103 (broadcastInDim S1250000x1 ![0] bcast_S1250000_S1250000x1_0 : (⟨S1250000, .i32⟩ : BufTy).Contents (Elt F) → (⟨S1250000x1, .i32⟩ : BufTy).Contents (Elt F)),
    binary main_v90 main_v103 main_v104 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)) ]

/-- Statements 123 … 148, in order. -/
abbrev opsC6 : List (HloOp τ sig (Elt F)) :=
  [ binary main_v97 main_v104 main_v105 ((fun a b => concatenate S1250000x128 1 [⟨S1250000x64, a⟩, ⟨S1250000x64, b⟩] concatenates_S1250000x64_S1250000x64_S1250000x128_d1) : (⟨S1250000x64, .f32⟩ : BufTy).Contents (Elt F) → (⟨S1250000x64, .f32⟩ : BufTy).Contents (Elt F) → (⟨S1250000x128, .f32⟩ : BufTy).Contents (Elt F)),
    unary main_arg7 main_v106 ((extractStridedSlice S1x128x1 ![1, 0, 0] · slices_S3x128x1_S1x128x1_1_0_0) : (⟨S3x128x1, .f32⟩ : BufTy).Contents (Elt F) → (⟨S1x128x1, .f32⟩ : BufTy).Contents (Elt F)),
    reshape main_v106 main_v107 rfl shapeCasts_S1x128x1_S128x1,
    binary main_v105 main_v107 main_v108 ((fun l r => Host.dotGeneral dot_S1250000x128_S128x1_S1250000x1_1_0_0_1_n_n none l r) : (⟨S1250000x128, .f32⟩ : BufTy).Contents (Elt F) → (⟨S128x1, .f32⟩ : BufTy).Contents (Elt F) → (⟨S1250000x1, .f32⟩ : BufTy).Contents (Elt F)),
    unary main_arg8 main_v109 ((extractStridedSlice S1x1 ![1, 0] · slices_S3x1_S1x1_1_0) : (⟨S3x1, .f32⟩ : BufTy).Contents (Elt F) → (⟨S1x1, .f32⟩ : BufTy).Contents (Elt F)),
    reshape main_v109 main_v110 rfl shapeCasts_S1x1_S1,
    unary main_v110 main_v111 (broadcastInDim S1x1 ![1] bcast_S1_S1x1_1 : (⟨S1, .f32⟩ : BufTy).Contents (Elt F) → (⟨S1x1, .f32⟩ : BufTy).Contents (Elt F)),
    unary main_v111 main_v112 (broadcastInDim S1250000x1 ![0, 1] bcast_S1x1_S1250000x1_0_1 : (⟨S1x1, .f32⟩ : BufTy).Contents (Elt F) → (⟨S1250000x1, .f32⟩ : BufTy).Contents (Elt F)),
    binary main_v108 main_v112 main_v113 (addf : (⟨S1250000x1, .f32⟩ : BufTy).Contents (Elt F) → (⟨S1250000x1, .f32⟩ : BufTy).Contents (Elt F) → (⟨S1250000x1, .f32⟩ : BufTy).Contents (Elt F)),
    nullary main_cst_15 (constant S_ .f32 0x3C23D70A#32),
    TRef.nullary main_call3.cst (constant S_ .f32 0x00000000#32),
    TRef.unary main_call3.cst main_call3.v0 (broadcastInDim S1250000x1 ![] bcast_S_S1250000x1),
    TRef.binary (.of main_v113) main_call3.v0 main_call3.v1 (cmpf (F := F) .oge),
    TRef.unary (.of main_cst_15) main_call3.v2 id,
    TRef.unary main_call3.v2 main_call3.v3 (broadcastInDim S1250000x1 ![] bcast_S_S1250000x1),
    TRef.binary main_call3.v3 (.of main_v113) main_call3.v4 mulf,
    TRef.ternary main_call3.v1 (.of main_v113) main_call3.v4 main_call3_call0.v0 select,
    nullary main_cst_16 (constant S_ .f32 0xFF800000#32),
    binary main_v114 main_cst_16 main_v115 ((fun x v => Host.reduce FloatOps.maximumf x v reducesTo_S1250000x1_S1_d0 h_S_) : (⟨S1250000x1, .f32⟩ : BufTy).Contents (Elt F) → (⟨S_, .f32⟩ : BufTy).Contents (Elt F) → (⟨S1, .f32⟩ : BufTy).Contents (Elt F)),
    nullary main_cst_17 (constant S_ .f32 0xFF800000#32),
    unary main_cst_17 main_v116 (broadcastInDim S1 ![] bcast_S_S1 : (⟨S_, .f32⟩ : BufTy).Contents (Elt F) → (⟨S1, .f32⟩ : BufTy).Contents (Elt F)),
    binary main_v116 main_v115 main_v117 (maximumf : (⟨S1, .f32⟩ : BufTy).Contents (Elt F) → (⟨S1, .f32⟩ : BufTy).Contents (Elt F) → (⟨S1, .f32⟩ : BufTy).Contents (Elt F)),
    unary main_v117 main_v118 (broadcastInDim S1x1 ![1] bcast_S1_S1x1_1 : (⟨S1, .f32⟩ : BufTy).Contents (Elt F) → (⟨S1x1, .f32⟩ : BufTy).Contents (Elt F)),
    unary main_v118 main_v119 (broadcastInDim S1250000x1 ![0, 1] bcast_S1x1_S1250000x1_0_1 : (⟨S1x1, .f32⟩ : BufTy).Contents (Elt F) → (⟨S1250000x1, .f32⟩ : BufTy).Contents (Elt F)),
    binary main_v114 main_v119 main_v120 (subf : (⟨S1250000x1, .f32⟩ : BufTy).Contents (Elt F) → (⟨S1250000x1, .f32⟩ : BufTy).Contents (Elt F) → (⟨S1250000x1, .f32⟩ : BufTy).Contents (Elt F)),
    unary main_v120 main_v121 (Host.exp : (⟨S1250000x1, .f32⟩ : BufTy).Contents (Elt F) → (⟨S1250000x1, .f32⟩ : BufTy).Contents (Elt F)),
    nullary main_cst_18 (constant S_ .f32 0x00000000#32),
    binary main_v121 main_cst_18 main_v122 ((fun x v => Host.reduceAdd x v reducesTo_S1250000x1_S1_d0 h_S_) : (⟨S1250000x1, .f32⟩ : BufTy).Contents (Elt F) → (⟨S_, .f32⟩ : BufTy).Contents (Elt F) → (⟨S1, .f32⟩ : BufTy).Contents (Elt F)),
    unary main_v122 main_v123 (broadcastInDim S1x1 ![1] bcast_S1_S1x1_1 : (⟨S1, .f32⟩ : BufTy).Contents (Elt F) → (⟨S1x1, .f32⟩ : BufTy).Contents (Elt F)),
    unary main_v123 main_v124 (broadcastInDim S1250000x1 ![0, 1] bcast_S1x1_S1250000x1_0_1 : (⟨S1x1, .f32⟩ : BufTy).Contents (Elt F) → (⟨S1250000x1, .f32⟩ : BufTy).Contents (Elt F)),
    binary main_v121 main_v124 main_v125 (Host.divf : (⟨S1250000x1, .f32⟩ : BufTy).Contents (Elt F) → (⟨S1250000x1, .f32⟩ : BufTy).Contents (Elt F) → (⟨S1250000x1, .f32⟩ : BufTy).Contents (Elt F)),
    unary main_arg2 main_v126 (broadcastInDim S1250000x1 ![0] bcast_S1250000_S1250000x1_0 : (⟨S1250000, .f32⟩ : BufTy).Contents (Elt F) → (⟨S1250000x1, .f32⟩ : BufTy).Contents (Elt F)) ]

/-- Statements 149 … 167, in order. -/
abbrev opsC7 : List (HloOp τ sig (Elt F)) :=
  [ binary main_v125 main_v126 main_v127 (mulf : (⟨S1250000x1, .f32⟩ : BufTy).Contents (Elt F) → (⟨S1250000x1, .f32⟩ : BufTy).Contents (Elt F) → (⟨S1250000x1, .f32⟩ : BufTy).Contents (Elt F)),
    unary main_v127 main_v128 (broadcastInDim S1250000x64 ![0, 1] bcast_S1250000x1_S1250000x64_0_1 : (⟨S1250000x1, .f32⟩ : BufTy).Contents (Elt F) → (⟨S1250000x64, .f32⟩ : BufTy).Contents (Elt F)),
    binary main_v128 main_v104 main_v129 (mulf : (⟨S1250000x64, .f32⟩ : BufTy).Contents (Elt F) → (⟨S1250000x64, .f32⟩ : BufTy).Contents (Elt F) → (⟨S1250000x64, .f32⟩ : BufTy).Contents (Elt F)),
    nullary main_cst_19 (constant S_ .f32 0x00000000#32),
    unary main_cst_19 main_v130 (broadcastInDim S100000x64 ![] bcast_S_S100000x64 : (⟨S_, .f32⟩ : BufTy).Contents (Elt F) → (⟨S100000x64, .f32⟩ : BufTy).Contents (Elt F)),
    unary main_v1 main_v131 (broadcastInDim S1250000x1 ![0] bcast_S1250000_S1250000x1_0 : (⟨S1250000, .i32⟩ : BufTy).Contents (Elt F) → (⟨S1250000x1, .i32⟩ : BufTy).Contents (Elt F)),
    ternary main_v130 main_v131 main_v129 main_v132 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    binary main_v90 main_v132 main_v133 (addf : (⟨S100000x64, .f32⟩ : BufTy).Contents (Elt F) → (⟨S100000x64, .f32⟩ : BufTy).Contents (Elt F) → (⟨S100000x64, .f32⟩ : BufTy).Contents (Elt F)),
    TRef.nullary main_call4.cst (constant S_ .f32 0x00000000#32),
    TRef.unary main_call4.cst main_call4.v0 (broadcastInDim S100000x64 ![] bcast_S_S100000x64),
    TRef.binary (.of main_v133) main_call4.v0 main_call4.v1 maximumf,
    unary main_arg9 main_v135 ((extractStridedSlice S1x64 ![1, 0] · slices_S3x64_S1x64_1_0) : (⟨S3x64, .f32⟩ : BufTy).Contents (Elt F) → (⟨S1x64, .f32⟩ : BufTy).Contents (Elt F)),
    reshape main_v135 main_v136 rfl shapeCasts_S1x64_S64,
    unary main_arg10 main_v137 ((extractStridedSlice S1x64 ![1, 0] · slices_S3x64_S1x64_1_0) : (⟨S3x64, .f32⟩ : BufTy).Contents (Elt F) → (⟨S1x64, .f32⟩ : BufTy).Contents (Elt F)),
    reshape main_v137 main_v138 rfl shapeCasts_S1x64_S64,
    nullary main_cst_20 (constant S_ .f32 0x00000000#32),
    binary main_v134 main_cst_20 main_v139 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v139 main_v140 (broadcastInDim S100000x1 ![0] bcast_S100000_S100000x1_0 : (⟨S100000, .f32⟩ : BufTy).Contents (Elt F) → (⟨S100000x1, .f32⟩ : BufTy).Contents (Elt F)),
    nullary main_cst_21 (constant S_ .f32 0x42800000#32),
    unary main_cst_21 main_v141 (broadcastInDim S100000x1 ![] bcast_S_S100000x1 : (⟨S_, .f32⟩ : BufTy).Contents (Elt F) → (⟨S100000x1, .f32⟩ : BufTy).Contents (Elt F)),
    binary main_v140 main_v141 main_v142 (Host.divf : (⟨S100000x1, .f32⟩ : BufTy).Contents (Elt F) → (⟨S100000x1, .f32⟩ : BufTy).Contents (Elt F) → (⟨S100000x1, .f32⟩ : BufTy).Contents (Elt F)) ]

/-- Statements 168 … 180, in order. -/
abbrev opsC8 : List (HloOp τ sig (Elt F)) :=
  [ nullary main_c_22 (constantI S_ 32 0#32),
    TRef.nullary main_call5.cst (constant S_ .f32 0x00000000#32),
    TRef.binary (.of main_v134) main_call5.cst main_call5.v0 (fun x v => Host.reduceAdd x v reducesTo_S100000x64_S100000_d1 h_S_),
    TRef.unary main_call5.v0 main_call5.v1 (broadcastInDim S100000x1 ![0] bcast_S100000_S100000x1_0),
    TRef.nullary main_call5.cst_0 (constant S_ .f32 0x42800000#32),
    TRef.unary main_call5.cst_0 main_call5.v2 (broadcastInDim S100000x1 ![] bcast_S_S100000x1),
    TRef.binary main_call5.v1 main_call5.v2 main_call5.v3 Host.divf,
    TRef.unary main_call5.v3 main_call5.v4 (broadcastInDim S100000x64 ![0, 1] bcast_S100000x1_S100000x64_0_1),
    TRef.binary (.of main_v134) main_call5.v4 main_call5.v5 subf,
    TRef.binary main_call5.v5 main_call5.v5 main_call5.v6 mulf,
    TRef.unary (.of main_c_22) main_call5.v7 (sitofp (F := F) .f32),
    TRef.nullary main_call5.cst_1 (constant S_ .f32 0x42800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x64_S100000_d1 h_S_),
    TRef.unary main_call5.v9 main_call5.v10 (broadcastInDim S100000x1 ![0] bcast_S100000_S100000x1_0),
    TRef.unary main_call5.v8 main_call5.v11 (broadcastInDim S100000x1 ![] bcast_S_S100000x1),
    TRef.binary main_call5.v10 main_call5.v11 main_call5.v12 Host.divf,
    TRef.nullary main_call5.cst_3 (constant S_ .f32 0x00000000#32),
    TRef.binary main_call5.v8 main_call5.cst_3 main_call5.v13 (cmpf (F := F) .ogt),
    TRef.nullary main_call5.cst_4 (constant S_ .f32 0x7FC00000#32),
    TRef.unary main_call5.cst_4 main_call5_call0.v0 id,
    TRef.unary main_call5_call0.v0 main_call5_call0.v1 (broadcastInDim S100000x1 ![] bcast_S_S100000x1),
    TRef.ternary main_call5.v13 main_call5.v12 main_call5_call0.v1 main_call5_call0.v2 (fun p a b => select (broadcastInDim S100000x1 ![] bcast_S_S100000x1 p) a b),
    unary main_v142 main_v144 (broadcastInDim S100000x64 ![0, 1] bcast_S100000x1_S100000x64_0_1 : (⟨S100000x1, .f32⟩ : BufTy).Contents (Elt F) → (⟨S100000x64, .f32⟩ : BufTy).Contents (Elt F)),
    binary main_v134 main_v144 main_v145 (subf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x3727C5AC#32),
    unary main_cst_23 main_v146 (broadcastInDim S100000x1 ![] bcast_S_S100000x1 : (⟨S_, .f32⟩ : BufTy).Contents (Elt F) → (⟨S100000x1, .f32⟩ : BufTy).Contents (Elt F)),
    binary main_v143 main_v146 main_v147 (addf : (⟨S100000x1, .f32⟩ : BufTy).Contents (Elt F) → (⟨S100000x1, .f32⟩ : BufTy).Contents (Elt F) → (⟨S100000x1, .f32⟩ : BufTy).Contents (Elt F)),
    unary main_v147 main_v148 (Host.rsqrt : (⟨S100000x1, .f32⟩ : BufTy).Contents (Elt F) → (⟨S100000x1, .f32⟩ : BufTy).Contents (Elt F)),
    unary main_v148 main_v149 (broadcastInDim S100000x64 ![0, 1] bcast_S100000x1_S100000x64_0_1 : (⟨S100000x1, .f32⟩ : BufTy).Contents (Elt F) → (⟨S100000x64, .f32⟩ : BufTy).Contents (Elt F)),
    binary main_v145 main_v149 main_v150 (mulf : (⟨S100000x64, .f32⟩ : BufTy).Contents (Elt F) → (⟨S100000x64, .f32⟩ : BufTy).Contents (Elt F) → (⟨S100000x64, .f32⟩ : BufTy).Contents (Elt F)),
    unary main_v136 main_v151 (broadcastInDim S1x64 ![1] bcast_S64_S1x64_1 : (⟨S64, .f32⟩ : BufTy).Contents (Elt F) → (⟨S1x64, .f32⟩ : BufTy).Contents (Elt F)),
    unary main_v151 main_v152 (broadcastInDim S100000x64 ![0, 1] bcast_S1x64_S100000x64_0_1 : (⟨S1x64, .f32⟩ : BufTy).Contents (Elt F) → (⟨S100000x64, .f32⟩ : BufTy).Contents (Elt F)),
    binary main_v150 main_v152 main_v153 (mulf : (⟨S100000x64, .f32⟩ : BufTy).Contents (Elt F) → (⟨S100000x64, .f32⟩ : BufTy).Contents (Elt F) → (⟨S100000x64, .f32⟩ : BufTy).Contents (Elt F)) ]

/-- The window's operations: these lists in order. -/
abbrev ops_part2 : List (HloOp τ sig (Elt F)) := opsC5 ++ opsC6 ++ opsC7 ++ opsC8

theorem opsC5_sub : (opsC5 : List (HloOp τ sig (Elt F))).Forall fun op => op.bufs ⊆ tcRefs τ sig :=
  ⟨unary_bufs_sub .., binary_bufs_sub ..⟩

theorem opsC5_fresh : (opsC5 : List (HloOp τ sig (Elt F))).Forall fun op => op.fresh = ∅ :=
  ⟨rfl, rfl⟩

/-- The buffers the list writes. -/
abbrev opsC5_W : List (Ref sig .tc) := [main_v103, main_v104]

theorem opsC5_writes : (opsC5 : List (HloOp τ sig (Elt F))).Forall fun op => op.writes ⊆ (opsC5_W.map (Proc.devRef (τ := τ) .tc)).toFinset := by
  simp only [List.Forall]
  exact ⟨by writes_mem, by writes_mem⟩

theorem opsC6_sub : (opsC6 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩

theorem opsC6_fresh : (opsC6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes. -/
abbrev opsC6_W : List (Ref sig .tc) := [main_v105, main_v106, main_v107, main_v108, main_v109, main_v110, main_v111, main_v112, main_v113, main_cst_15, main_call3_cst, main_call3_v0, main_call3_v1, main_call3_v2, main_call3_v3, main_call3_v4, main_v114, main_cst_16, main_v115, main_cst_17, main_v116, main_v117, main_v118, main_v119, main_v120, main_v121, main_cst_18, main_v122, main_v123, main_v124, main_v125, main_v126]

theorem opsC6_writes : (opsC6 : List (HloOp τ sig (Elt F))).Forall fun op => op.writes ⊆ (opsC6_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

theorem opsC7_sub : (opsC7 : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub ..⟩

theorem opsC7_fresh : (opsC7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers the list writes. -/
abbrev opsC7_W : List (Ref sig .tc) := [main_v127, main_v128, main_v129, main_cst_19, main_v130, main_v131, main_v132, main_v133, main_call4_cst, main_call4_v0, main_v134, main_v135, main_v136, main_v137, main_v138, main_cst_20, main_v139, main_v140, main_cst_21, main_v141, main_v142]

theorem opsC7_writes : (opsC7 : List (HloOp τ sig (Elt F))).Forall fun op => op.writes ⊆ (opsC7_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

theorem opsC8_sub : (opsC8 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem opsC8_fresh : (opsC8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes. -/
abbrev opsC8_W : List (Ref sig .tc) := [main_c_22, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v143, main_v144, main_v145, main_cst_23, main_v146, main_v147, main_v148, main_v149, main_v150, main_v151, main_v152, main_v153]

theorem opsC8_writes : (opsC8 : List (HloOp τ sig (Elt F))).Forall fun op => op.writes ⊆ (opsC8_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

end Cert.ReferenceIdeal.Hand

end
-- ==== Proof.Ref.Lem2.lean ====
/- Statements 121 … 180 of the reference program: the window is its operation lists run in order, and what each list
   leaves in the buffers read later, as the named stages of the contents it starts from. Statements 121 … 122 gather the
   second layer's rows at the edges' sources; statements 123 … 148 compute its attention probabilities; statements
   149 … 167 its aggregated and rectified rows, their mean and the two normalisation parameters; statements 168 … 180
   the variance and the normalised rows scaled by the gain. -/
import proofs.«417395_j71579924955534_2_alg».proof.Proof.Ref.Base
import proofs.«417395_j71579924955534_2_alg».proof.Proof.Ref.Ops2

set_option Elab.async false
set_option maxRecDepth 8192
set_option maxHeartbeats 2000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 2 of the program is its operation lists run in order. -/
theorem main_part2_eq (c : Dev nD) : main_part2 (F := F) c = seq ops_part2 := rfl

/-- A buffer statements 121 … 122 do not write keeps its contents through them. -/
theorem c5_keep (V : Valuation τ sig (Elt F)) (r : Ref sig .tc) (h : r ∉ opsC5_W) :
    after opsC5 V (no_index (Proc.devRef .tc r)) = V (Proc.devRef .tc r) :=
  after_of_writes_sub opsC5 V opsC5_writes h

/-- A buffer statements 123 … 148 do not write keeps its contents through them. -/
theorem c6_keep (V : Valuation τ sig (Elt F)) (r : Ref sig .tc) (h : r ∉ opsC6_W) :
    after opsC6 V (no_index (Proc.devRef .tc r)) = V (Proc.devRef .tc r) :=
  after_of_writes_sub opsC6 V opsC6_writes h

/-- A buffer statements 149 … 167 do not write keeps its contents through them. -/
theorem c7_keep (V : Valuation τ sig (Elt F)) (r : Ref sig .tc) (h : r ∉ opsC7_W) :
    after opsC7 V (no_index (Proc.devRef .tc r)) = V (Proc.devRef .tc r) :=
  after_of_writes_sub opsC7 V opsC7_writes h

/-- A buffer statements 168 … 180 do not write keeps its contents through them. -/
theorem c8_keep (V : Valuation τ sig (Elt F)) (r : Ref sig .tc) (h : r ∉ opsC8_W) :
    after opsC8 V (no_index (Proc.devRef .tc r)) = V (Proc.devRef .tc r) :=
  after_of_writes_sub opsC8 V opsC8_writes h

/-! ## Statements 121 … 122 -/

theorem c5_main_v104 (V : Valuation τ sig (Elt F)) :
    after opsC5 V (no_index (Proc.devRef .tc main_v104))
      = gatherR (rd V main_v90) (broadcastInDim S1250000x1 ![0] bcast_S1250000_S1250000x1_0 (rd V main_v102)) := by
  chunk_run opsC5

/-! ## Statements 123 … 148 -/

theorem c6_main_v125 (V : Valuation τ sig (Elt F)) :
    after opsC6 V (no_index (Proc.devRef .tc main_v125))
      = softR (scoreR (rd V main_v97) (rd V main_v104) (selAW1 (rd V main_arg7)) (selAb1 (rd V main_arg8))) := by
  chunk_run opsC6

theorem c6_main_v126 (V : Valuation τ sig (Elt F)) :
    after opsC6 V (no_index (Proc.devRef .tc main_v126))
      = broadcastInDim S1250000x1 ![0] bcast_S1250000_S1250000x1_0 (rd V main_arg2) := by
  chunk_run opsC6

/-! ## Statements 149 … 167 -/

theorem c7_main_v134 (V : Valuation τ sig (Elt F)) :
    after opsC7 V (no_index (Proc.devRef .tc main_v134))
      = actR (rd V main_v90)
          (aggR (mulf (broadcastInDim S1250000x64 ![0, 1] bcast_S1250000x1_S1250000x64_0_1 (mulf (rd V main_v125) (rd V main_v126)))
            (rd V main_v104)) (rd V main_v1)) := by
  chunk_run opsC7

theorem c7_main_v136 (V : Valuation τ sig (Elt F)) :
    after opsC7 V (no_index (Proc.devRef .tc main_v136)) = selB1 (rd V main_arg9) := by
  chunk_run opsC7

theorem c7_main_v138 (V : Valuation τ sig (Elt F)) :
    after opsC7 V (no_index (Proc.devRef .tc main_v138)) = selB1 (rd V main_arg10) := by
  chunk_run opsC7

theorem c7_main_v142 (V : Valuation τ sig (Elt F)) :
    after opsC7 V (no_index (Proc.devRef .tc main_v142))
      = muR (actR (rd V main_v90)
          (aggR (mulf (broadcastInDim S1250000x64 ![0, 1] bcast_S1250000x1_S1250000x64_0_1 (mulf (rd V main_v125) (rd V main_v126)))
            (rd V main_v104)) (rd V main_v1))) := by
  chunk_run opsC7

/-! ## Statements 168 … 180 -/

theorem c8_main_v153 (V : Valuation τ sig (Elt F)) :
    after opsC8 V (no_index (Proc.devRef .tc main_v153))
      = lnScaleR (rd V main_v134) (rd V main_v142) (varR (rd V main_v134)) (rd V main_v136) := by
  chunk_run opsC8

end Cert.ReferenceIdeal.Hand

end
-- ==== Proof.Ref.Ops3.lean ====
/- OPERATION TABLES of statements 181 … 240 of the reference program (window main_part3): the operations in order as lists,
   a called function's operations in place of its call, and per list the per-operation tables. -/
import proofs.«417395_j71579924955534_2_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list of written buffers. -/
local macro "writes_mem" : tactic =>
  `(tactic| (simp only [nullary_writes, unary_writes, binary_writes, ternary_writes, quaternary_writes, reshape_writes, Finset.singleton_subset_iff, List.mem_toFinset]; exact List.mem_map_of_mem (by decide)))

/-- Statements 181 … 184, in order. -/
abbrev opsC9 : List (HloOp τ sig (Elt F)) :=
  [ unary main_v138 main_v154 (broadcastInDim S1x64 ![1] bcast_S64_S1x64_1 : (⟨S64, .f32⟩ : BufTy).Contents (Elt F) → (⟨S1x64, .f32⟩ : BufTy).Contents (Elt F)),
    unary main_v154 main_v155 (broadcastInDim S100000x64 ![0, 1] bcast_S1x64_S100000x64_0_1 : (⟨S1x64, .f32⟩ : BufTy).Contents (Elt F) → (⟨S100000x64, .f32⟩ : BufTy).Contents (Elt F)),
    binary main_v153 main_v155 main_v156 (addf : (⟨S100000x64, .f32⟩ : BufTy).Contents (Elt F) → (⟨S100000x64, .f32⟩ : BufTy).Contents (Elt F) → (⟨S100000x64, .f32⟩ : BufTy).Contents (Elt F)),
    binary main_v82 main_v156 main_v157 (addf : (⟨S100000x64, .f32⟩ : BufTy).Contents (Elt F) → (⟨S100000x64, .f32⟩ : BufTy).Contents (Elt F) → (⟨S100000x64, .f32⟩ : BufTy).Contents (Elt F)) ]

/-- Statements 185 … 210, in order. -/
abbrev opsC10 : List (HloOp τ sig (Elt F)) :=
  [ unary main_arg5 main_v158 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v158 main_v159 rfl shapeCasts_S1x64x64_S64x64,
    binary main_v157 main_v159 main_v160 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v161 ((extractStridedSlice S1x64 ![2, 0] · slices_S3x64_S1x64_2_0) : (⟨S3x64, .f32⟩ : BufTy).Contents (Elt F) → (⟨S1x64, .f32⟩ : BufTy).Contents (Elt F)),
    reshape main_v161 main_v162 rfl shapeCasts_S1x64_S64,
    unary main_v162 main_v163 (broadcastInDim S1x64 ![1] bcast_S64_S1x64_1 : (⟨S64, .f32⟩ : BufTy).Contents (Elt F) → (⟨S1x64, .f32⟩ : BufTy).Contents (Elt F)),
    unary main_v163 main_v164 (broadcastInDim S100000x64 ![0, 1] bcast_S1x64_S100000x64_0_1 : (⟨S1x64, .f32⟩ : BufTy).Contents (Elt F) → (⟨S100000x64, .f32⟩ : BufTy).Contents (Elt F)),
    binary main_v160 main_v164 main_v165 (addf : (⟨S100000x64, .f32⟩ : BufTy).Contents (Elt F) → (⟨S100000x64, .f32⟩ : BufTy).Contents (Elt F) → (⟨S100000x64, .f32⟩ : BufTy).Contents (Elt F)),
    nullary main_c_24 (constantI S_ 32 0#32),
    unary main_c_24 main_v166 (broadcastInDim S1250000 ![] bcast_S_S1250000 : (⟨S_, .i32⟩ : BufTy).Contents (Elt F) → (⟨S1250000, .i32⟩ : BufTy).Contents (Elt F)),
    binary main_v1 main_v166 main_v167 (cmpi .slt : (⟨S1250000, .i32⟩ : BufTy).Contents (Elt F) → (⟨S1250000, .i32⟩ : BufTy).Contents (Elt F) → (⟨S1250000, .i1⟩ : BufTy).Contents (Elt F)),
    nullary main_c_25 (constantI S_ 32 100000#32),
    unary main_c_25 main_v168 (broadcastInDim S1250000 ![] bcast_S_S1250000 : (⟨S_, .i32⟩ : BufTy).Contents (Elt F) → (⟨S1250000, .i32⟩ : BufTy).Contents (Elt F)),
    binary main_v1 main_v168 main_v169 (addi : (⟨S1250000, .i32⟩ : BufTy).Contents (Elt F) → (⟨S1250000, .i32⟩ : BufTy).Contents (Elt F) → (⟨S1250000, .i32⟩ : BufTy).Contents (Elt F)),
    ternary main_v167 main_v169 main_v1 main_v170 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v170 main_v171 (broadcastInDim S1250000x1 ![0] bcast_S1250000_S1250000x1_0 : (⟨S1250000, .i32⟩ : BufTy).Contents (Elt F) → (⟨S1250000x1, .i32⟩ : BufTy).Contents (Elt F)),
    binary main_v165 main_v171 main_v172 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_c_26 (constantI S_ 32 0#32),
    unary main_c_26 main_v173 (broadcastInDim S1250000 ![] bcast_S_S1250000 : (⟨S_, .i32⟩ : BufTy).Contents (Elt F) → (⟨S1250000, .i32⟩ : BufTy).Contents (Elt F)),
    binary main_v3 main_v173 main_v174 (cmpi .slt : (⟨S1250000, .i32⟩ : BufTy).Contents (Elt F) → (⟨S1250000, .i32⟩ : BufTy).Contents (Elt F) → (⟨S1250000, .i1⟩ : BufTy).Contents (Elt F)),
    nullary main_c_27 (constantI S_ 32 100000#32),
    unary main_c_27 main_v175 (broadcastInDim S1250000 ![] bcast_S_S1250000 : (⟨S_, .i32⟩ : BufTy).Contents (Elt F) → (⟨S1250000, .i32⟩ : BufTy).Contents (Elt F)),
    binary main_v3 main_v175 main_v176 (addi : (⟨S1250000, .i32⟩ : BufTy).Contents (Elt F) → (⟨S1250000, .i32⟩ : BufTy).Contents (Elt F) → (⟨S1250000, .i32⟩ : BufTy).Contents (Elt F)),
    ternary main_v174 main_v176 main_v3 main_v177 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v177 main_v178 (broadcastInDim S1250000x1 ![0] bcast_S1250000_S1250000x1_0 : (⟨S1250000, .i32⟩ : BufTy).Contents (Elt F) → (⟨S1250000x1, .i32⟩ : BufTy).Contents (Elt F)),
    binary main_v165 main_v178 main_v179 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)) ]

/-- Statements 211 … 236, in order. -/
abbrev opsC11 : List (HloOp τ sig (Elt F)) :=
  [ binary main_v172 main_v179 main_v180 ((fun a b => concatenate S1250000x128 1 [⟨S1250000x64, a⟩, ⟨S1250000x64, b⟩] concatenates_S1250000x64_S1250000x64_S1250000x128_d1) : (⟨S1250000x64, .f32⟩ : BufTy).Contents (Elt F) → (⟨S1250000x64, .f32⟩ : BufTy).Contents (Elt F) → (⟨S1250000x128, .f32⟩ : BufTy).Contents (Elt F)),
    unary main_arg7 main_v181 ((extractStridedSlice S1x128x1 ![2, 0, 0] · slices_S3x128x1_S1x128x1_2_0_0) : (⟨S3x128x1, .f32⟩ : BufTy).Contents (Elt F) → (⟨S1x128x1, .f32⟩ : BufTy).Contents (Elt F)),
    reshape main_v181 main_v182 rfl shapeCasts_S1x128x1_S128x1,
    binary main_v180 main_v182 main_v183 ((fun l r => Host.dotGeneral dot_S1250000x128_S128x1_S1250000x1_1_0_0_1_n_n none l r) : (⟨S1250000x128, .f32⟩ : BufTy).Contents (Elt F) → (⟨S128x1, .f32⟩ : BufTy).Contents (Elt F) → (⟨S1250000x1, .f32⟩ : BufTy).Contents (Elt F)),
    unary main_arg8 main_v184 ((extractStridedSlice S1x1 ![2, 0] · slices_S3x1_S1x1_2_0) : (⟨S3x1, .f32⟩ : BufTy).Contents (Elt F) → (⟨S1x1, .f32⟩ : BufTy).Contents (Elt F)),
    reshape main_v184 main_v185 rfl shapeCasts_S1x1_S1,
    unary main_v185 main_v186 (broadcastInDim S1x1 ![1] bcast_S1_S1x1_1 : (⟨S1, .f32⟩ : BufTy).Contents (Elt F) → (⟨S1x1, .f32⟩ : BufTy).Contents (Elt F)),
    unary main_v186 main_v187 (broadcastInDim S1250000x1 ![0, 1] bcast_S1x1_S1250000x1_0_1 : (⟨S1x1, .f32⟩ : BufTy).Contents (Elt F) → (⟨S1250000x1, .f32⟩ : BufTy).Contents (Elt F)),
    binary main_v183 main_v187 main_v188 (addf : (⟨S1250000x1, .f32⟩ : BufTy).Contents (Elt F) → (⟨S1250000x1, .f32⟩ : BufTy).Contents (Elt F) → (⟨S1250000x1, .f32⟩ : BufTy).Contents (Elt F)),
    nullary main_cst_28 (constant S_ .f32 0x3C23D70A#32),
    TRef.nullary main_call6.cst (constant S_ .f32 0x00000000#32),
    TRef.unary main_call6.cst main_call6.v0 (broadcastInDim S1250000x1 ![] bcast_S_S1250000x1),
    TRef.binary (.of main_v188) main_call6.v0 main_call6.v1 (cmpf (F := F) .oge),
    TRef.unary (.of main_cst_28) main_call6.v2 id,
    TRef.unary main_call6.v2 main_call6.v3 (broadcastInDim S1250000x1 ![] bcast_S_S1250000x1),
    TRef.binary main_call6.v3 (.of main_v188) main_call6.v4 mulf,
    TRef.ternary main_call6.v1 (.of main_v188) main_call6.v4 main_call6_call0.v0 select,
    nullary main_cst_29 (constant S_ .f32 0xFF800000#32),
    binary main_v189 main_cst_29 main_v190 ((fun x v => Host.reduce FloatOps.maximumf x v reducesTo_S1250000x1_S1_d0 h_S_) : (⟨S1250000x1, .f32⟩ : BufTy).Contents (Elt F) → (⟨S_, .f32⟩ : BufTy).Contents (Elt F) → (⟨S1, .f32⟩ : BufTy).Contents (Elt F)),
    nullary main_cst_30 (constant S_ .f32 0xFF800000#32),
    unary main_cst_30 main_v191 (broadcastInDim S1 ![] bcast_S_S1 : (⟨S_, .f32⟩ : BufTy).Contents (Elt F) → (⟨S1, .f32⟩ : BufTy).Contents (Elt F)),
    binary main_v191 main_v190 main_v192 (maximumf : (⟨S1, .f32⟩ : BufTy).Contents (Elt F) → (⟨S1, .f32⟩ : BufTy).Contents (Elt F) → (⟨S1, .f32⟩ : BufTy).Contents (Elt F)),
    unary main_v192 main_v193 (broadcastInDim S1x1 ![1] bcast_S1_S1x1_1 : (⟨S1, .f32⟩ : BufTy).Contents (Elt F) → (⟨S1x1, .f32⟩ : BufTy).Contents (Elt F)),
    unary main_v193 main_v194 (broadcastInDim S1250000x1 ![0, 1] bcast_S1x1_S1250000x1_0_1 : (⟨S1x1, .f32⟩ : BufTy).Contents (Elt F) → (⟨S1250000x1, .f32⟩ : BufTy).Contents (Elt F)),
    binary main_v189 main_v194 main_v195 (subf : (⟨S1250000x1, .f32⟩ : BufTy).Contents (Elt F) → (⟨S1250000x1, .f32⟩ : BufTy).Contents (Elt F) → (⟨S1250000x1, .f32⟩ : BufTy).Contents (Elt F)),
    unary main_v195 main_v196 (Host.exp : (⟨S1250000x1, .f32⟩ : BufTy).Contents (Elt F) → (⟨S1250000x1, .f32⟩ : BufTy).Contents (Elt F)),
    nullary main_cst_31 (constant S_ .f32 0x00000000#32),
    binary main_v196 main_cst_31 main_v197 ((fun x v => Host.reduceAdd x v reducesTo_S1250000x1_S1_d0 h_S_) : (⟨S1250000x1, .f32⟩ : BufTy).Contents (Elt F) → (⟨S_, .f32⟩ : BufTy).Contents (Elt F) → (⟨S1, .f32⟩ : BufTy).Contents (Elt F)),
    unary main_v197 main_v198 (broadcastInDim S1x1 ![1] bcast_S1_S1x1_1 : (⟨S1, .f32⟩ : BufTy).Contents (Elt F) → (⟨S1x1, .f32⟩ : BufTy).Contents (Elt F)),
    unary main_v198 main_v199 (broadcastInDim S1250000x1 ![0, 1] bcast_S1x1_S1250000x1_0_1 : (⟨S1x1, .f32⟩ : BufTy).Contents (Elt F) → (⟨S1250000x1, .f32⟩ : BufTy).Contents (Elt F)),
    binary main_v196 main_v199 main_v200 (Host.divf : (⟨S1250000x1, .f32⟩ : BufTy).Contents (Elt F) → (⟨S1250000x1, .f32⟩ : BufTy).Contents (Elt F) → (⟨S1250000x1, .f32⟩ : BufTy).Contents (Elt F)),
    unary main_arg2 main_v201 (broadcastInDim S1250000x1 ![0] bcast_S1250000_S1250000x1_0 : (⟨S1250000, .f32⟩ : BufTy).Contents (Elt F) → (⟨S1250000x1, .f32⟩ : BufTy).Contents (Elt F)) ]

/-- Statements 237 … 240, in order. -/
abbrev opsC12 : List (HloOp τ sig (Elt F)) :=
  [ binary main_v200 main_v201 main_v202 (mulf : (⟨S1250000x1, .f32⟩ : BufTy).Contents (Elt F) → (⟨S1250000x1, .f32⟩ : BufTy).Contents (Elt F) → (⟨S1250000x1, .f32⟩ : BufTy).Contents (Elt F)),
    unary main_v202 main_v203 (broadcastInDim S1250000x64 ![0, 1] bcast_S1250000x1_S1250000x64_0_1 : (⟨S1250000x1, .f32⟩ : BufTy).Contents (Elt F) → (⟨S1250000x64, .f32⟩ : BufTy).Contents (Elt F)),
    binary main_v203 main_v179 main_v204 (mulf : (⟨S1250000x64, .f32⟩ : BufTy).Contents (Elt F) → (⟨S1250000x64, .f32⟩ : BufTy).Contents (Elt F) → (⟨S1250000x64, .f32⟩ : BufTy).Contents (Elt F)),
    nullary main_cst_32 (constant S_ .f32 0x00000000#32) ]

/-- The window's operations: these lists in order. -/
abbrev ops_part3 : List (HloOp τ sig (Elt F)) := opsC9 ++ opsC10 ++ opsC11 ++ opsC12

theorem opsC9_sub : (opsC9 : List (HloOp τ sig (Elt F))).Forall fun op => op.bufs ⊆ tcRefs τ sig :=
  ⟨unary_bufs_sub .., unary_bufs_sub .., binary_bufs_sub .., binary_bufs_sub ..⟩

theorem opsC9_fresh : (opsC9 : List (HloOp τ sig (Elt F))).Forall fun op => op.fresh = ∅ :=
  ⟨rfl, rfl, rfl, rfl⟩

/-- The buffers the list writes. -/
abbrev opsC9_W : List (Ref sig .tc) := [main_v154, main_v155, main_v156, main_v157]

theorem opsC9_writes : (opsC9 : List (HloOp τ sig (Elt F))).Forall fun op => op.writes ⊆ (opsC9_W.map (Proc.devRef (τ := τ) .tc)).toFinset := by
  simp only [List.Forall]
  exact ⟨by writes_mem, by writes_mem, by writes_mem, by writes_mem⟩

theorem opsC10_sub : (opsC10 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem opsC10_fresh : (opsC10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers the list writes. -/
abbrev opsC10_W : List (Ref sig .tc) := [main_v158, main_v159, main_v160, main_v161, main_v162, main_v163, main_v164, main_v165, main_c_24, main_v166, main_v167, main_c_25, main_v168, main_v169, main_v170, main_v171, main_v172, main_c_26, main_v173, main_v174, main_c_27, main_v175, main_v176, main_v177, main_v178, main_v179]

theorem opsC10_writes : (opsC10 : List (HloOp τ sig (Elt F))).Forall fun op => op.writes ⊆ (opsC10_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

theorem opsC11_sub : (opsC11 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩

theorem opsC11_fresh : (opsC11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes. -/
abbrev opsC11_W : List (Ref sig .tc) := [main_v180, main_v181, main_v182, main_v183, main_v184, main_v185, main_v186, main_v187, main_v188, main_cst_28, main_call6_cst, main_call6_v0, main_call6_v1, main_call6_v2, main_call6_v3, main_call6_v4, main_v189, main_cst_29, main_v190, main_cst_30, main_v191, main_v192, main_v193, main_v194, main_v195, main_v196, main_cst_31, main_v197, main_v198, main_v199, main_v200, main_v201]

theorem opsC11_writes : (opsC11 : List (HloOp τ sig (Elt F))).Forall fun op => op.writes ⊆ (opsC11_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

theorem opsC12_sub : (opsC12 : List (HloOp τ sig (Elt F))).Forall fun op => op.bufs ⊆ tcRefs τ sig :=
  ⟨binary_bufs_sub .., unary_bufs_sub .., binary_bufs_sub .., nullary_bufs_sub ..⟩

theorem opsC12_fresh : (opsC12 : List (HloOp τ sig (Elt F))).Forall fun op => op.fresh = ∅ :=
  ⟨rfl, rfl, rfl, rfl⟩

/-- The buffers the list writes. -/
abbrev opsC12_W : List (Ref sig .tc) := [main_v202, main_v203, main_v204, main_cst_32]

theorem opsC12_writes : (opsC12 : List (HloOp τ sig (Elt F))).Forall fun op => op.writes ⊆ (opsC12_W.map (Proc.devRef (τ := τ) .tc)).toFinset := by
  simp only [List.Forall]
  exact ⟨by writes_mem, by writes_mem, by writes_mem, by writes_mem⟩

end Cert.ReferenceIdeal.Hand

end
-- ==== Proof.Ref.Lem3.lean ====
/- Statements 181 … 240 of the reference program: the window is its operation lists run in order, and what each list
   leaves in the buffers read later, as the named stages of the contents it starts from. Statements 181 … 184 finish the
   second layer (the normalisation's offset and the residual sum); statements 185 … 210 compute the third layer's linear
   image and its rows gathered at the edges' two ends; statements 211 … 236 its attention probabilities; statements
   237 … 240 the edges' messages and the zero the aggregation starts from. -/
import proofs.«417395_j71579924955534_2_alg».proof.Proof.Ref.Base
import proofs.«417395_j71579924955534_2_alg».proof.Proof.Ref.Ops3

set_option Elab.async false
set_option maxRecDepth 8192
set_option maxHeartbeats 2000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 3 of the program is its operation lists run in order. -/
theorem main_part3_eq (c : Dev nD) : main_part3 (F := F) c = seq ops_part3 := rfl

/-- A buffer statements 181 … 184 do not write keeps its contents through them. -/
theorem c9_keep (V : Valuation τ sig (Elt F)) (r : Ref sig .tc) (h : r ∉ opsC9_W) :
    after opsC9 V (no_index (Proc.devRef .tc r)) = V (Proc.devRef .tc r) :=
  after_of_writes_sub opsC9 V opsC9_writes h

/-- A buffer statements 185 … 210 do not write keeps its contents through them. -/
theorem c10_keep (V : Valuation τ sig (Elt F)) (r : Ref sig .tc) (h : r ∉ opsC10_W) :
    after opsC10 V (no_index (Proc.devRef .tc r)) = V (Proc.devRef .tc r) :=
  after_of_writes_sub opsC10 V opsC10_writes h

/-- A buffer statements 211 … 236 do not write keeps its contents through them. -/
theorem c11_keep (V : Valuation τ sig (Elt F)) (r : Ref sig .tc) (h : r ∉ opsC11_W) :
    after opsC11 V (no_index (Proc.devRef .tc r)) = V (Proc.devRef .tc r) :=
  after_of_writes_sub opsC11 V opsC11_writes h

/-- A buffer statements 237 … 240 do not write keeps its contents through them. -/
theorem c12_keep (V : Valuation τ sig (Elt F)) (r : Ref sig .tc) (h : r ∉ opsC12_W) :
    after opsC12 V (no_index (Proc.devRef .tc r)) = V (Proc.devRef .tc r) :=
  after_of_writes_sub opsC12 V opsC12_writes h

/-! ## Statements 181 … 184 -/

theorem c9_main_v157 (V : Valuation τ sig (Elt F)) :
    after opsC9 V (no_index (Proc.devRef .tc main_v157))
      = addf (rd V main_v82) (addf (rd V main_v153) (rowBias64 (rd V main_v138))) := by
  chunk_run opsC9

/-! ## Statements 185 … 210 -/

theorem c10_main_v165 (V : Valuation τ sig (Elt F)) :
    after opsC10 V (no_index (Proc.devRef .tc main_v165))
      = hlR (rd V main_v157) (selW2 (rd V main_arg5)) (selB2 (rd V main_arg6)) := by
  chunk_run opsC10

theorem c10_main_v172 (V : Valuation τ sig (Elt F)) :
    after opsC10 V (no_index (Proc.devRef .tc main_v172))
      = gatherR (hlR (rd V main_v157) (selW2 (rd V main_arg5)) (selB2 (rd V main_arg6))) (normIdxR (rd V main_v1)) := by
  chunk_run opsC10

theorem c10_main_v179 (V : Valuation τ sig (Elt F)) :
    after opsC10 V (no_index (Proc.devRef .tc main_v179))
      = gatherR (hlR (rd V main_v157) (selW2 (rd V main_arg5)) (selB2 (rd V main_arg6))) (normIdxR (rd V main_v3)) := by
  chunk_run opsC10

/-! ## Statements 211 … 236 -/

theorem c11_main_v200 (V : Valuation τ sig (Elt F)) :
    after opsC11 V (no_index (Proc.devRef .tc main_v200))
      = softR (scoreR (rd V main_v172) (rd V main_v179) (selAW2 (rd V main_arg7)) (selAb2 (rd V main_arg8))) := by
  chunk_run opsC11

theorem c11_main_v201 (V : Valuation τ sig (Elt F)) :
    after opsC11 V (no_index (Proc.devRef .tc main_v201))
      = broadcastInDim S1250000x1 ![0] bcast_S1250000_S1250000x1_0 (rd V main_arg2) := by
  chunk_run opsC11

/-! ## Statements 237 … 240 -/

theorem c12_main_v204 (V : Valuation τ sig (Elt F)) :
    after opsC12 V (no_index (Proc.devRef .tc main_v204))
      = mulf (broadcastInDim S1250000x64 ![0, 1] bcast_S1250000x1_S1250000x64_0_1 (mulf (rd V main_v200) (rd V main_v201)))
          (rd V main_v179) := by
  chunk_run opsC12

theorem c12_main_cst_32 (V : Valuation τ sig (Elt F)) :
    after opsC12 V (no_index (Proc.devRef .tc main_cst_32)) = constant S_ .f32 0x00000000#32 := by
  chunk_run opsC12

end Cert.ReferenceIdeal.Hand

end
-- ==== Proof.Ref.Ops4.lean ====
/- OPERATION TABLES of statements 241 … 290 of the reference program (window main_part4): the operations in order as lists,
   a called function's operations in place of its call, and per list the per-operation tables. -/
import proofs.«417395_j71579924955534_2_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list of written buffers. -/
local macro "writes_mem" : tactic =>
  `(tactic| (simp only [nullary_writes, unary_writes, binary_writes, ternary_writes, quaternary_writes, reshape_writes, Finset.singleton_subset_iff, List.mem_toFinset]; exact List.mem_map_of_mem (by decide)))

/-- Statements 241 … 255, in order. -/
abbrev opsC13 : List (HloOp τ sig (Elt F)) :=
  [ unary main_cst_32 main_v205 (broadcastInDim S100000x64 ![] bcast_S_S100000x64 : (⟨S_, .f32⟩ : BufTy).Contents (Elt F) → (⟨S100000x64, .f32⟩ : BufTy).Contents (Elt F)),
    unary main_v1 main_v206 (broadcastInDim S1250000x1 ![0] bcast_S1250000_S1250000x1_0 : (⟨S1250000, .i32⟩ : BufTy).Contents (Elt F) → (⟨S1250000x1, .i32⟩ : BufTy).Contents (Elt F)),
    ternary main_v205 main_v206 main_v204 main_v207 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    binary main_v165 main_v207 main_v208 (addf : (⟨S100000x64, .f32⟩ : BufTy).Contents (Elt F) → (⟨S100000x64, .f32⟩ : BufTy).Contents (Elt F) → (⟨S100000x64, .f32⟩ : BufTy).Contents (Elt F)),
    TRef.nullary main_call7.cst (constant S_ .f32 0x00000000#32),
    TRef.unary main_call7.cst main_call7.v0 (broadcastInDim S100000x64 ![] bcast_S_S100000x64),
    TRef.binary (.of main_v208) main_call7.v0 main_call7.v1 maximumf,
    unary main_arg9 main_v210 ((extractStridedSlice S1x64 ![2, 0] · slices_S3x64_S1x64_2_0) : (⟨S3x64, .f32⟩ : BufTy).Contents (Elt F) → (⟨S1x64, .f32⟩ : BufTy).Contents (Elt F)),
    reshape main_v210 main_v211 rfl shapeCasts_S1x64_S64,
    unary main_arg10 main_v212 ((extractStridedSlice S1x64 ![2, 0] · slices_S3x64_S1x64_2_0) : (⟨S3x64, .f32⟩ : BufTy).Contents (Elt F) → (⟨S1x64, .f32⟩ : BufTy).Contents (Elt F)),
    reshape main_v212 main_v213 rfl shapeCasts_S1x64_S64,
    nullary main_cst_33 (constant S_ .f32 0x00000000#32),
    binary main_v209 main_cst_33 main_v214 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v214 main_v215 (broadcastInDim S100000x1 ![0] bcast_S100000_S100000x1_0 : (⟨S100000, .f32⟩ : BufTy).Contents (Elt F) → (⟨S100000x1, .f32⟩ : BufTy).Contents (Elt F)),
    nullary main_cst_34 (constant S_ .f32 0x42800000#32),
    unary main_cst_34 main_v216 (broadcastInDim S100000x1 ![] bcast_S_S100000x1 : (⟨S_, .f32⟩ : BufTy).Contents (Elt F) → (⟨S100000x1, .f32⟩ : BufTy).Contents (Elt F)),
    binary main_v215 main_v216 main_v217 (Host.divf : (⟨S100000x1, .f32⟩ : BufTy).Contents (Elt F) → (⟨S100000x1, .f32⟩ : BufTy).Contents (Elt F) → (⟨S100000x1, .f32⟩ : BufTy).Contents (Elt F)) ]

/-- Statements 256 … 272, in order. -/
abbrev opsC14 : List (HloOp τ sig (Elt F)) :=
  [ nullary main_c_35 (constantI S_ 32 0#32),
    TRef.nullary main_call8.cst (constant S_ .f32 0x00000000#32),
    TRef.binary (.of main_v209) main_call8.cst main_call8.v0 (fun x v => Host.reduceAdd x v reducesTo_S100000x64_S100000_d1 h_S_),
    TRef.unary main_call8.v0 main_call8.v1 (broadcastInDim S100000x1 ![0] bcast_S100000_S100000x1_0),
    TRef.nullary main_call8.cst_0 (constant S_ .f32 0x42800000#32),
    TRef.unary main_call8.cst_0 main_call8.v2 (broadcastInDim S100000x1 ![] bcast_S_S100000x1),
    TRef.binary main_call8.v1 main_call8.v2 main_call8.v3 Host.divf,
    TRef.unary main_call8.v3 main_call8.v4 (broadcastInDim S100000x64 ![0, 1] bcast_S100000x1_S100000x64_0_1),
    TRef.binary (.of main_v209) main_call8.v4 main_call8.v5 subf,
    TRef.binary main_call8.v5 main_call8.v5 main_call8.v6 mulf,
    TRef.unary (.of main_c_35) main_call8.v7 (sitofp (F := F) .f32),
    TRef.nullary main_call8.cst_1 (constant S_ .f32 0x42800000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100000x64_S100000_d1 h_S_),
    TRef.unary main_call8.v9 main_call8.v10 (broadcastInDim S100000x1 ![0] bcast_S100000_S100000x1_0),
    TRef.unary main_call8.v8 main_call8.v11 (broadcastInDim S100000x1 ![] bcast_S_S100000x1),
    TRef.binary main_call8.v10 main_call8.v11 main_call8.v12 Host.divf,
    TRef.nullary main_call8.cst_3 (constant S_ .f32 0x00000000#32),
    TRef.binary main_call8.v8 main_call8.cst_3 main_call8.v13 (cmpf (F := F) .ogt),
    TRef.nullary main_call8.cst_4 (constant S_ .f32 0x7FC00000#32),
    TRef.unary main_call8.cst_4 main_call8_call0.v0 id,
    TRef.unary main_call8_call0.v0 main_call8_call0.v1 (broadcastInDim S100000x1 ![] bcast_S_S100000x1),
    TRef.ternary main_call8.v13 main_call8.v12 main_call8_call0.v1 main_call8_call0.v2 (fun p a b => select (broadcastInDim S100000x1 ![] bcast_S_S100000x1 p) a b),
    unary main_v217 main_v219 (broadcastInDim S100000x64 ![0, 1] bcast_S100000x1_S100000x64_0_1 : (⟨S100000x1, .f32⟩ : BufTy).Contents (Elt F) → (⟨S100000x64, .f32⟩ : BufTy).Contents (Elt F)),
    binary main_v209 main_v219 main_v220 (subf : (⟨S100000x64, .f32⟩ : BufTy).Contents (Elt F) → (⟨S100000x64, .f32⟩ : BufTy).Contents (Elt F) → (⟨S100000x64, .f32⟩ : BufTy).Contents (Elt F)),
    nullary main_cst_36 (constant S_ .f32 0x3727C5AC#32),
    unary main_cst_36 main_v221 (broadcastInDim S100000x1 ![] bcast_S_S100000x1 : (⟨S_, .f32⟩ : BufTy).Contents (Elt F) → (⟨S100000x1, .f32⟩ : BufTy).Contents (Elt F)),
    binary main_v218 main_v221 main_v222 (addf : (⟨S100000x1, .f32⟩ : BufTy).Contents (Elt F) → (⟨S100000x1, .f32⟩ : BufTy).Contents (Elt F) → (⟨S100000x1, .f32⟩ : BufTy).Contents (Elt F)),
    unary main_v222 main_v223 (Host.rsqrt : (⟨S100000x1, .f32⟩ : BufTy).Contents (Elt F) → (⟨S100000x1, .f32⟩ : BufTy).Contents (Elt F)),
    unary main_v223 main_v224 (broadcastInDim S100000x64 ![0, 1] bcast_S100000x1_S100000x64_0_1 : (⟨S100000x1, .f32⟩ : BufTy).Contents (Elt F) → (⟨S100000x64, .f32⟩ : BufTy).Contents (Elt F)),
    binary main_v220 main_v224 main_v225 (mulf : (⟨S100000x64, .f32⟩ : BufTy).Contents (Elt F) → (⟨S100000x64, .f32⟩ : BufTy).Contents (Elt F) → (⟨S100000x64, .f32⟩ : BufTy).Contents (Elt F)),
    unary main_v211 main_v226 (broadcastInDim S1x64 ![1] bcast_S64_S1x64_1 : (⟨S64, .f32⟩ : BufTy).Contents (Elt F) → (⟨S1x64, .f32⟩ : BufTy).Contents (Elt F)),
    unary main_v226 main_v227 (broadcastInDim S100000x64 ![0, 1] bcast_S1x64_S100000x64_0_1 : (⟨S1x64, .f32⟩ : BufTy).Contents (Elt F) → (⟨S100000x64, .f32⟩ : BufTy).Contents (Elt F)),
    binary main_v225 main_v227 main_v228 (mulf : (⟨S100000x64, .f32⟩ : BufTy).Contents (Elt F) → (⟨S100000x64, .f32⟩ : BufTy).Contents (Elt F) → (⟨S100000x64, .f32⟩ : BufTy).Contents (Elt F)),
    unary main_v213 main_v229 (broadcastInDim S1x64 ![1] bcast_S64_S1x64_1 : (⟨S64, .f32⟩ : BufTy).Contents (Elt F) → (⟨S1x64, .f32⟩ : BufTy).Contents (Elt F)),
    unary main_v229 main_v230 (broadcastInDim S100000x64 ![0, 1] bcast_S1x64_S100000x64_0_1 : (⟨S1x64, .f32⟩ : BufTy).Contents (Elt F) → (⟨S100000x64, .f32⟩ : BufTy).Contents (Elt F)),
    binary main_v228 main_v230 main_v231 (addf : (⟨S100000x64, .f32⟩ : BufTy).Contents (Elt F) → (⟨S100000x64, .f32⟩ : BufTy).Contents (Elt F) → (⟨S100000x64, .f32⟩ : BufTy).Contents (Elt F)),
    binary main_v157 main_v231 main_v232 (addf : (⟨S100000x64, .f32⟩ : BufTy).Contents (Elt F) → (⟨S100000x64, .f32⟩ : BufTy).Contents (Elt F) → (⟨S100000x64, .f32⟩ : BufTy).Contents (Elt F)) ]

/-- Statements 273 … 290, in order. -/
abbrev opsC15 : List (HloOp τ sig (Elt F)) :=
  [ binary main_v232 main_arg11 main_v233 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg12 main_v234 (broadcastInDim S1x32 ![1] bcast_S32_S1x32_1 : (⟨S32, .f32⟩ : BufTy).Contents (Elt F) → (⟨S1x32, .f32⟩ : BufTy).Contents (Elt F)),
    unary main_v234 main_v235 (broadcastInDim S100000x32 ![0, 1] bcast_S1x32_S100000x32_0_1 : (⟨S1x32, .f32⟩ : BufTy).Contents (Elt F) → (⟨S100000x32, .f32⟩ : BufTy).Contents (Elt F)),
    binary main_v233 main_v235 main_v236 (addf : (⟨S100000x32, .f32⟩ : BufTy).Contents (Elt F) → (⟨S100000x32, .f32⟩ : BufTy).Contents (Elt F) → (⟨S100000x32, .f32⟩ : BufTy).Contents (Elt F)),
    TRef.nullary main_call9.cst (constant S_ .f32 0x00000000#32),
    TRef.unary main_call9.cst main_call9.v0 (broadcastInDim S100000x32 ![] bcast_S_S100000x32),
    TRef.binary (.of main_v236) main_call9.v0 main_call9.v1 maximumf,
    binary main_v237 main_arg13 main_v238 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    unary main_arg14 main_v239 (broadcastInDim S1x1 ![1] bcast_S1_S1x1_1 : (⟨S1, .f32⟩ : BufTy).Contents (Elt F) → (⟨S1x1, .f32⟩ : BufTy).Contents (Elt F)),
    unary main_v239 main_v240 (broadcastInDim S100000x1 ![0, 1] bcast_S1x1_S100000x1_0_1 : (⟨S1x1, .f32⟩ : BufTy).Contents (Elt F) → (⟨S100000x1, .f32⟩ : BufTy).Contents (Elt F)),
    binary main_v238 main_v240 main_v241 (addf : (⟨S100000x1, .f32⟩ : BufTy).Contents (Elt F) → (⟨S100000x1, .f32⟩ : BufTy).Contents (Elt F) → (⟨S100000x1, .f32⟩ : BufTy).Contents (Elt F)),
    unary main_v241 main_v242 (Host.negf : (⟨S100000x1, .f32⟩ : BufTy).Contents (Elt F) → (⟨S100000x1, .f32⟩ : BufTy).Contents (Elt F)),
    unary main_v242 main_v243 (Host.exp : (⟨S100000x1, .f32⟩ : BufTy).Contents (Elt F) → (⟨S100000x1, .f32⟩ : BufTy).Contents (Elt F)),
    nullary main_cst_37 (constant S_ .f32 0x3F800000#32),
    unary main_cst_37 main_v244 (broadcastInDim S100000x1 ![] bcast_S_S100000x1 : (⟨S_, .f32⟩ : BufTy).Contents (Elt F) → (⟨S100000x1, .f32⟩ : BufTy).Contents (Elt F)),
    binary main_v244 main_v243 main_v245 (addf : (⟨S100000x1, .f32⟩ : BufTy).Contents (Elt F) → (⟨S100000x1, .f32⟩ : BufTy).Contents (Elt F) → (⟨S100000x1, .f32⟩ : BufTy).Contents (Elt F)),
    nullary main_cst_38 (constant S_ .f32 0x3F800000#32),
    unary main_cst_38 main_v246 (broadcastInDim S100000x1 ![] bcast_S_S100000x1 : (⟨S_, .f32⟩ : BufTy).Contents (Elt F) → (⟨S100000x1, .f32⟩ : BufTy).Contents (Elt F)),
    binary main_v246 main_v245 main_v247 (Host.divf : (⟨S100000x1, .f32⟩ : BufTy).Contents (Elt F) → (⟨S100000x1, .f32⟩ : BufTy).Contents (Elt F) → (⟨S100000x1, .f32⟩ : BufTy).Contents (Elt F)) ]

/-- The window's operations: these lists in order. -/
abbrev ops_part4 : List (HloOp τ sig (Elt F)) := opsC13 ++ opsC14 ++ opsC15

theorem opsC13_sub : (opsC13 : List (HloOp τ sig (Elt F))).Forall fun op => op.bufs ⊆ tcRefs τ sig :=
  ⟨unary_bufs_sub .., unary_bufs_sub .., ternary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub ..⟩

theorem opsC13_fresh : (opsC13 : List (HloOp τ sig (Elt F))).Forall fun op => op.fresh = ∅ :=
  ⟨rfl, rfl, rfl, rfl, rfl, rfl, rfl, rfl, rfl, rfl, rfl, rfl, rfl, rfl, rfl, rfl, rfl⟩

/-- The buffers the list writes. -/
abbrev opsC13_W : List (Ref sig .tc) := [main_v205, main_v206, main_v207, main_v208, main_call7_cst, main_call7_v0, main_v209, main_v210, main_v211, main_v212, main_v213, main_cst_33, main_v214, main_v215, main_cst_34, main_v216, main_v217]

theorem opsC13_writes : (opsC13 : List (HloOp τ sig (Elt F))).Forall fun op => op.writes ⊆ (opsC13_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem⟩

theorem opsC14_sub : (opsC14 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

theorem opsC14_fresh : (opsC14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes. -/
abbrev opsC14_W : List (Ref sig .tc) := [main_c_35, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v218, main_v219, main_v220, main_cst_36, main_v221, main_v222, main_v223, main_v224, main_v225, main_v226, main_v227, main_v228, main_v229, main_v230, main_v231, main_v232]

theorem opsC14_writes : (opsC14 : List (HloOp τ sig (Elt F))).Forall fun op => op.writes ⊆ (opsC14_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

theorem opsC15_sub : (opsC15 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem opsC15_fresh : (opsC15 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers the list writes. -/
abbrev opsC15_W : List (Ref sig .tc) := [main_v233, main_v234, main_v235, main_v236, main_call9_cst, main_call9_v0, main_v237, main_v238, main_v239, main_v240, main_v241, main_v242, main_v243, main_cst_37, main_v244, main_v245, main_cst_38, main_v246, main_v247]

theorem opsC15_writes : (opsC15 : List (HloOp τ sig (Elt F))).Forall fun op => op.writes ⊆ (opsC15_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

end Cert.ReferenceIdeal.Hand

end
-- ==== Proof.Ref.Lem4.lean ====
/- Statements 241 … 290 of the reference program: the window is its operation lists run in order, and what each list
   leaves in the buffers read later, as the named stages of the contents it starts from. Statements 241 … 255 compute the
   third layer's aggregated and rectified rows, their mean and the two normalisation parameters; statements 256 … 272 the
   variance, the normalisation and the residual sum; statements 273 … 289 the output head. -/
import proofs.«417395_j71579924955534_2_alg».proof.Proof.Ref.Base
import proofs.«417395_j71579924955534_2_alg».proof.Proof.Ref.Ops4

set_option Elab.async false
set_option maxRecDepth 8192
set_option maxHeartbeats 2000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 4 of the program is its operation lists run in order. -/
theorem main_part4_eq (c : Dev nD) : main_part4 (F := F) c = seq ops_part4 := rfl

/-- A buffer statements 241 … 255 do not write keeps its contents through them. -/
theorem c13_keep (V : Valuation τ sig (Elt F)) (r : Ref sig .tc) (h : r ∉ opsC13_W) :
    after opsC13 V (no_index (Proc.devRef .tc r)) = V (Proc.devRef .tc r) :=
  after_of_writes_sub opsC13 V opsC13_writes h

/-- A buffer statements 256 … 272 do not write keeps its contents through them. -/
theorem c14_keep (V : Valuation τ sig (Elt F)) (r : Ref sig .tc) (h : r ∉ opsC14_W) :
    after opsC14 V (no_index (Proc.devRef .tc r)) = V (Proc.devRef .tc r) :=
  after_of_writes_sub opsC14 V opsC14_writes h

/-- A buffer statements 273 … 289 do not write keeps its contents through them. -/
theorem c15_keep (V : Valuation τ sig (Elt F)) (r : Ref sig .tc) (h : r ∉ opsC15_W) :
    after opsC15 V (no_index (Proc.devRef .tc r)) = V (Proc.devRef .tc r) :=
  after_of_writes_sub opsC15 V opsC15_writes h

/-! ## Statements 241 … 255 -/

theorem c13_main_v209 (V : Valuation τ sig (Elt F)) :
    after opsC13 V (no_index (Proc.devRef .tc main_v209))
      = actR (rd V main_v165)
          (Host.scatterAdd scatter_S100000x64_S1250000x1_S1250000x64_1_0_0_1
            (broadcastInDim S100000x64 ![] bcast_S_S100000x64 (rd V main_cst_32))
            (broadcastInDim S1250000x1 ![0] bcast_S1250000_S1250000x1_0 (rd V main_v1)) (rd V main_v204)) := by
  chunk_run opsC13

theorem c13_main_v211 (V : Valuation τ sig (Elt F)) :
    after opsC13 V (no_index (Proc.devRef .tc main_v211)) = selB2 (rd V main_arg9) := by
  chunk_run opsC13

theorem c13_main_v213 (V : Valuation τ sig (Elt F)) :
    after opsC13 V (no_index (Proc.devRef .tc main_v213)) = selB2 (rd V main_arg10) := by
  chunk_run opsC13

theorem c13_main_v217 (V : Valuation τ sig (Elt F)) :
    after opsC13 V (no_index (Proc.devRef .tc main_v217))
      = muR (actR (rd V main_v165)
          (Host.scatterAdd scatter_S100000x64_S1250000x1_S1250000x64_1_0_0_1
            (broadcastInDim S100000x64 ![] bcast_S_S100000x64 (rd V main_cst_32))
            (broadcastInDim S1250000x1 ![0] bcast_S1250000_S1250000x1_0 (rd V main_v1)) (rd V main_v204))) := by
  chunk_run opsC13

/-! ## Statements 256 … 272 -/

theorem c14_main_v232 (V : Valuation τ sig (Elt F)) :
    after opsC14 V (no_index (Proc.devRef .tc main_v232))
      = addf (rd V main_v157) (lnR (rd V main_v209) (rd V main_v217) (varR (rd V main_v209)) (rd V main_v211) (rd V main_v213)) := by
  chunk_run opsC14

/-! ## Statements 273 … 289 -/

theorem c15_main_v247 (V : Valuation τ sig (Elt F)) :
    after opsC15 V (no_index (Proc.devRef .tc main_v247))
      = headR (rd V main_v232) (rd V main_arg11) (rd V main_arg12) (rd V main_arg13) (rd V main_arg14) := by
  chunk_run opsC15

end Cert.ReferenceIdeal.Hand

end
-- ==== Proof.Ref.Run.lean ====
/- The reference program's run: its operations are the five windows' lists in order; run from any launch contents the
   result buffer ends at `refVal` of the fifteen argument arrays and the arguments are unchanged. The lists are grouped as
   the three layers and the output head; each group is one application of `layerR` (of `headR`) to what it starts from. -/
import proofs.«417395_j71579924955534_2_alg».proof.Proof.Ref.Lem0
import proofs.«417395_j71579924955534_2_alg».proof.Proof.Ref.Lem1
import proofs.«417395_j71579924955534_2_alg».proof.Proof.Ref.Lem2
import proofs.«417395_j71579924955534_2_alg».proof.Proof.Ref.Lem3
import proofs.«417395_j71579924955534_2_alg».proof.Proof.Ref.Lem4
import Idealize.ShloMosaic.Lib.Pipeline.Frame

set_option Elab.async false
set_option maxRecDepth 8192
set_option maxHeartbeats 2000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program as one list of operations -/

/-- The program's operations, in order. -/
abbrev ops : List (HloOp τ sig (Elt F)) := ops_part0 ++ (ops_part1 ++ (ops_part2 ++ (ops_part3 ++ ops_part4)))

/-- Five lines run one after the other are their concatenation run as one. -/
theorem seq_append5 (a b c d e : List (HloOp τ sig (Elt F))) :
    (seq (a ++ (b ++ (c ++ (d ++ e)))) : Prog (TpuEff nD τ sig (Elt F) (Pipeline.Sig Λ₀ (Fin 0) fun p => (pcfgs (F := F) p).Adm) .tc) PUnit)
      = (seq a >>= fun _ => seq b >>= fun _ => seq c >>= fun _ => seq d >>= fun _ => seq e) := by
  simp only [seq_append]

theorem main_eq (c : Dev nD) : main (F := F) c = seq ops := by
  unfold main
  rw [main_part0_eq c, main_part1_eq c, main_part2_eq c, main_part3_eq c, main_part4_eq c]
  exact (seq_append5 _ _ _ _ _).symm

theorem scopedRefs_eq : (Finset.univ.filter fun b : Ref sig .tc => b.isScoped) = ∅ := by decide
theorem scopedSems_eq : (Finset.univ.filter fun sm : SemLoc sig => sm.isScoped .tc) = ∅ := by decide

/-- Membership in the program's operations is membership in one of the sixteen lists. -/
theorem mem_ops {op : HloOp τ sig (Elt F)} (h : op ∈ (ops : List (HloOp τ sig (Elt F)))) :
    (op ∈ (opsC0 : List (HloOp τ sig (Elt F))) ∨ op ∈ (opsC1 : List (HloOp τ sig (Elt F))))
      ∨ ((op ∈ (opsC2 : List (HloOp τ sig (Elt F))) ∨ op ∈ (opsC3 : List (HloOp τ sig (Elt F)))) ∨ op ∈ (opsC4 : List (HloOp τ sig (Elt F))))
      ∨ (((op ∈ (opsC5 : List (HloOp τ sig (Elt F))) ∨ op ∈ (opsC6 : List (HloOp τ sig (Elt F)))) ∨ op ∈ (opsC7 : List (HloOp τ sig (Elt F)))) ∨ op ∈ (opsC8 : List (HloOp τ sig (Elt F))))
      ∨ (((op ∈ (opsC9 : List (HloOp τ sig (Elt F))) ∨ op ∈ (opsC10 : List (HloOp τ sig (Elt F)))) ∨ op ∈ (opsC11 : List (HloOp τ sig (Elt F)))) ∨ op ∈ (opsC12 : List (HloOp τ sig (Elt F))))
      ∨ ((op ∈ (opsC13 : List (HloOp τ sig (Elt F))) ∨ op ∈ (opsC14 : List (HloOp τ sig (Elt F)))) ∨ op ∈ (opsC15 : List (HloOp τ sig (Elt F)))) := by
  rcases List.mem_append.mp h with h | h
  · exact Or.inl (List.mem_append.mp h)
  rcases List.mem_append.mp h with h | h
  · refine Or.inr (Or.inl ?_)
    rcases List.mem_append.mp h with h | h
    · exact Or.inl (List.mem_append.mp h)
    · exact Or.inr h
  rcases List.mem_append.mp h with h | h
  · refine Or.inr (Or.inr (Or.inl ?_))
    rcases List.mem_append.mp h with h | h
    · refine Or.inl ?_
      rcases List.mem_append.mp h with h | h
      · exact Or.inl (List.mem_append.mp h)
      · exact Or.inr h
    · exact Or.inr h
  rcases List.mem_append.mp h with h | h
  · refine Or.inr (Or.inr (Or.inr (Or.inl ?_)))
    rcases List.mem_append.mp h with h | h
    · refine Or.inl ?_
      rcases List.mem_append.mp h with h | h
      · exact Or.inl (List.mem_append.mp h)
      · exact Or.inr h
    · exact Or.inr h
  · refine Or.inr (Or.inr (Or.inr (Or.inr ?_)))
    rcases List.mem_append.mp h with h | h
    · exact Or.inl (List.mem_append.mp h)
    · exact Or.inr h

theorem ops_sub : (ops : List (HloOp τ sig (Elt F))).Forall fun op => op.bufs ⊆ tcRefs τ sig :=
  List.forall_iff_forall_mem.mpr fun op h => by
    rcases mem_ops h with (h | h) | ((h | h) | h) | (((h | h) | h) | h) | (((h | h) | h) | h) | ((h | h) | h)
    exacts [List.forall_iff_forall_mem.mp opsC0_sub op h, List.forall_iff_forall_mem.mp opsC1_sub op h,
      List.forall_iff_forall_mem.mp opsC2_sub op h, List.forall_iff_forall_mem.mp opsC3_sub op h,
      List.forall_iff_forall_mem.mp opsC4_sub op h, List.forall_iff_forall_mem.mp opsC5_sub op h,
      List.forall_iff_forall_mem.mp opsC6_sub op h, List.forall_iff_forall_mem.mp opsC7_sub op h,
      List.forall_iff_forall_mem.mp opsC8_sub op h, List.forall_iff_forall_mem.mp opsC9_sub op h,
      List.forall_iff_forall_mem.mp opsC10_sub op h, List.forall_iff_forall_mem.mp opsC11_sub op h,
      List.forall_iff_forall_mem.mp opsC12_sub op h, List.forall_iff_forall_mem.mp opsC13_sub op h,
      List.forall_iff_forall_mem.mp opsC14_sub op h, List.forall_iff_forall_mem.mp opsC15_sub op h]

/-- Every operation determines all it writes. -/
theorem ops_fresh : ∀ op ∈ (ops : List (HloOp τ sig (Elt F))), op.fresh = ∅ := fun op h => by
  rcases mem_ops h with (h | h) | ((h | h) | h) | (((h | h) | h) | h) | (((h | h) | h) | h) | ((h | h) | h)
  exacts [List.forall_iff_forall_mem.mp opsC0_fresh op h, List.forall_iff_forall_mem.mp opsC1_fresh op h,
    List.forall_iff_forall_mem.mp opsC2_fresh op h, List.forall_iff_forall_mem.mp opsC3_fresh op h,
    List.forall_iff_forall_mem.mp opsC4_fresh op h, List.forall_iff_forall_mem.mp opsC5_fresh op h,
    List.forall_iff_forall_mem.mp opsC6_fresh op h, List.forall_iff_forall_mem.mp opsC7_fresh op h,
    List.forall_iff_forall_mem.mp opsC8_fresh op h, List.forall_iff_forall_mem.mp opsC9_fresh op h,
    List.forall_iff_forall_mem.mp opsC10_fresh op h, List.forall_iff_forall_mem.mp opsC11_fresh op h,
    List.forall_iff_forall_mem.mp opsC12_fresh op h, List.forall_iff_forall_mem.mp opsC13_fresh op h,
    List.forall_iff_forall_mem.mp opsC14_fresh op h, List.forall_iff_forall_mem.mp opsC15_fresh op h]

/-! ## The four groups of lists -/

/-- The contents after statements 1 … 96: the input layer and the first layer. -/
def run1 (V : Valuation τ sig (Elt F)) : Valuation τ sig (Elt F) :=
  after opsC3 (after opsC2 (after opsC1 (after opsC0 V)))

/-- The contents after statements 97 … 184, from those after statement 96: the second layer. -/
def run2 (V : Valuation τ sig (Elt F)) : Valuation τ sig (Elt F) :=
  after opsC9 (after opsC8 (after opsC7 (after opsC6 (after opsC5 (after opsC4 V)))))

/-- The contents after statements 185 … 272, from those after statement 184: the third layer. -/
def run3 (V : Valuation τ sig (Elt F)) : Valuation τ sig (Elt F) :=
  after opsC14 (after opsC13 (after opsC12 (after opsC11 (after opsC10 V))))

theorem after_ops (V : Valuation τ sig (Elt F)) : after ops V = after opsC15 (run3 (run2 (run1 V))) := by
  simp only [ops, ops_part0, ops_part1, ops_part2, ops_part3, ops_part4, StableHlo.after_append]
  rfl

theorem run1_keep (V : Valuation τ sig (Elt F)) (r : Ref sig .tc) (h0 : r ∉ opsC0_W) (h1 : r ∉ opsC1_W) (h2 : r ∉ opsC2_W)
    (h3 : r ∉ opsC3_W) : run1 V (no_index (Proc.devRef .tc r)) = V (Proc.devRef .tc r) := by
  unfold run1
  rw [c3_keep _ r h3, c2_keep _ r h2, c1_keep _ r h1, c0_keep _ r h0]

theorem run2_keep (V : Valuation τ sig (Elt F)) (r : Ref sig .tc) (h4 : r ∉ opsC4_W) (h5 : r ∉ opsC5_W) (h6 : r ∉ opsC6_W)
    (h7 : r ∉ opsC7_W) (h8 : r ∉ opsC8_W) (h9 : r ∉ opsC9_W) :
    run2 V (no_index (Proc.devRef .tc r)) = V (Proc.devRef .tc r) := by
  unfold run2
  rw [c9_keep _ r h9, c8_keep _ r h8, c7_keep _ r h7, c6_keep _ r h6, c5_keep _ r h5, c4_keep _ r h4]

theorem run3_keep (V : Valuation τ sig (Elt F)) (r : Ref sig .tc) (h10 : r ∉ opsC10_W) (h11 : r ∉ opsC11_W) (h12 : r ∉ opsC12_W)
    (h13 : r ∉ opsC13_W) (h14 : r ∉ opsC14_W) :
    run3 V (no_index (Proc.devRef .tc r)) = V (Proc.devRef .tc r) := by
  unfold run3
  rw [c14_keep _ r h14, c13_keep _ r h13, c12_keep _ r h12, c11_keep _ r h11, c10_keep _ r h10]

/-! ### The input layer and the first layer -/

theorem run1_main_v1 (V : Valuation τ sig (Elt F)) :
    run1 V (no_index (Proc.devRef .tc main_v1)) = rowsR (rd V main_arg1) := by
  unfold run1
  simp (disch := decide) only [rd, c3_keep, c2_keep, c1_keep, c0_main_v1]

theorem run1_main_v3 (V : Valuation τ sig (Elt F)) :
    run1 V (no_index (Proc.devRef .tc main_v3)) = colsR (rd V main_arg1) := by
  unfold run1
  simp (disch := decide) only [rd, c3_keep, c2_keep, c1_keep, c0_main_v3]

theorem run1_main_v82 (V : Valuation τ sig (Elt F)) :
    run1 V (no_index (Proc.devRef .tc main_v82))
      = layerR (dense0R (rd V main_arg0) (rd V main_arg3) (rd V main_arg4)) (rowsR (rd V main_arg1)) (colsR (rd V main_arg1))
          (rd V main_arg2) (selW0 (rd V main_arg5)) (selB0 (rd V main_arg6)) (selAW0 (rd V main_arg7)) (selAb0 (rd V main_arg8))
          (selB0 (rd V main_arg9)) (selB0 (rd V main_arg10)) := by
  unfold run1
  simp (disch := decide) only [rd, c3_main_v82, c3_keep, c2_main_v59, c2_main_v61, c2_main_v63, c2_main_v67, c2_keep,
    c1_main_v50, c1_main_v51, c1_keep, c0_main_v1, c0_main_v3, c0_main_v7, c0_main_v15, c0_main_v22, c0_main_v29, c0_keep]
  rfl

/-! ### The second layer -/

theorem run2_main_v157 (V : Valuation τ sig (Elt F)) :
    run2 V (no_index (Proc.devRef .tc main_v157))
      = layerR (rd V main_v82) (rd V main_v1) (rd V main_v3)
          (rd V main_arg2) (selW1 (rd V main_arg5)) (selB1 (rd V main_arg6)) (selAW1 (rd V main_arg7)) (selAb1 (rd V main_arg8))
          (selB1 (rd V main_arg9)) (selB1 (rd V main_arg10)) := by
  unfold run2
  simp (disch := decide) only [rd, c9_main_v157, c9_keep, c8_main_v153, c8_keep, c7_main_v134, c7_main_v136, c7_main_v138,
    c7_main_v142, c7_keep, c6_main_v125, c6_main_v126, c6_keep, c5_main_v104, c5_keep, c4_main_v90, c4_main_v97, c4_main_v102,
    c4_keep]
  rfl

/-! ### The third layer -/

theorem run3_main_v232 (V : Valuation τ sig (Elt F)) :
    run3 V (no_index (Proc.devRef .tc main_v232))
      = layerR (rd V main_v157) (rd V main_v1) (rd V main_v3)
          (rd V main_arg2) (selW2 (rd V main_arg5)) (selB2 (rd V main_arg6)) (selAW2 (rd V main_arg7)) (selAb2 (rd V main_arg8))
          (selB2 (rd V main_arg9)) (selB2 (rd V main_arg10)) := by
  unfold run3
  simp (disch := decide) only [rd, c14_main_v232, c14_keep, c13_main_v209, c13_main_v211, c13_main_v213, c13_main_v217, c13_keep,
    c12_main_v204, c12_main_cst_32, c12_keep, c11_main_v200, c11_main_v201, c11_keep, c10_main_v165, c10_main_v172,
    c10_main_v179, c10_keep]
  rfl

/-! ## The whole program -/

/-- The result buffer after the program, from any contents: `refVal` of the argument buffers' contents. -/
theorem out_eq (V : Valuation τ sig (Elt F)) :
    after ops V (Proc.devRef .tc main_v247)
      = refVal (rd V main_arg0) (rd V main_arg1) (rd V main_arg2) (rd V main_arg3) (rd V main_arg4) (rd V main_arg5)
          (rd V main_arg6) (rd V main_arg7) (rd V main_arg8) (rd V main_arg9) (rd V main_arg10) (rd V main_arg11)
          (rd V main_arg12) (rd V main_arg13) (rd V main_arg14) := by
  rw [after_ops]
  simp (disch := decide) only [rd, c15_main_v247, c15_keep, run3_main_v232, run3_keep, run2_main_v157, run2_keep, run1_main_v82,
    run1_main_v1, run1_main_v3, run1_keep]
  rfl

/-- A buffer no list writes keeps its contents through the program. -/
theorem ops_keep (V : Valuation τ sig (Elt F)) (r : Ref sig .tc) (h0 : r ∉ opsC0_W) (h1 : r ∉ opsC1_W) (h2 : r ∉ opsC2_W)
    (h3 : r ∉ opsC3_W) (h4 : r ∉ opsC4_W) (h5 : r ∉ opsC5_W) (h6 : r ∉ opsC6_W) (h7 : r ∉ opsC7_W) (h8 : r ∉ opsC8_W)
    (h9 : r ∉ opsC9_W) (h10 : r ∉ opsC10_W) (h11 : r ∉ opsC11_W) (h12 : r ∉ opsC12_W) (h13 : r ∉ opsC13_W)
    (h14 : r ∉ opsC14_W) (h15 : r ∉ opsC15_W) :
    after ops V (Proc.devRef .tc r) = V (Proc.devRef .tc r) := by
  rw [after_ops, c15_keep _ r h15, run3_keep _ r h10 h11 h12 h13 h14, run2_keep _ r h4 h5 h6 h7 h8 h9, run1_keep _ r h0 h1 h2 h3]

/-- An argument buffer keeps its contents through the program: no list writes it. -/
local macro "arg_kept" : tactic =>
  `(tactic| exact ops_keep _ _ (by decide) (by decide) (by decide) (by decide) (by decide) (by decide) (by decide) (by decide)
      (by decide) (by decide) (by decide) (by decide) (by decide) (by decide) (by decide) (by decide))

/-- On every device, for any float values, from any memory with zero counters: every weakly fair execution of the
    reference program terminates with the result buffer at `refVal` of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v247)
        = refVal (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
      ⟨(h c main_v247).trans (out_eq (launchContents m c)),
        (h c main_arg0).trans (by arg_kept), (h c main_arg1).trans (by arg_kept), (h c main_arg2).trans (by arg_kept),
        (h c main_arg3).trans (by arg_kept), (h c main_arg4).trans (by arg_kept), (h c main_arg5).trans (by arg_kept),
        (h c main_arg6).trans (by arg_kept), (h c main_arg7).trans (by arg_kept), (h c main_arg8).trans (by arg_kept),
        (h c main_arg9).trans (by arg_kept), (h c main_arg10).trans (by arg_kept), (h c main_arg11).trans (by arg_kept),
        (h c main_arg12).trans (by arg_kept), (h c main_arg13).trans (by arg_kept), (h c main_arg14).trans (by arg_kept)⟩)
    (run_seq scopedRefs_eq scopedSems_eq defs main (fun _ => ops) main_eq (fun _ => ops_sub) m ρ (fun _ => ops_fresh))

end Cert.ReferenceIdeal.Hand

end
-- ==== Proof.Ref.ReadDense.lean ====
/-
  The reference's dense stages, parameter slices and output head, read index by index: a product of an M x K by a
  K x N array at (p, q) is the sum over k of the products of the entries; a vector broadcast along the rows is the
  vector's entry at the column; slice i of a stack, reshaped, is the stack's entry at (i, ., .).
-/
import proofs.«417395_j71579924955534_2_alg».proof.Proof.Ref.Stages
import proofs.«417395_j71579924955534_2_alg».proof.Proof.Spec
import Idealize.ShloMosaic.PureOps.Ideal.Laws
import Idealize.ShloMosaic.Lib.ValueIdx
import Idealize.ShloMosaic.Lib.Pipeline.Value
import Idealize.ShloMosaic.Lib.StackMember
import Idealize.ShloMosaic.Lib.StableHlo.Predicate

noncomputable section

namespace Cert.ReferenceIdeal.HandV

open Cert.ReferenceIdeal Cert.ReferenceIdeal.Hand Cert.Spec
open Idealize.ShloMosaic Idealize.ShloMosaic.ValueIdx
open Cert.ReferenceIdeal.Facts₀ Cert.ReferenceIdeal.Facts

variable [Facts]

/-! ## Indices -/

theorem ij_eq_ix2 {n m : ℕ} (p : Fin n) (q : Fin m) : StableHlo.Predicate.ij p q = ix2 p q := by
  funext a; match a with | ⟨0, _⟩ => rfl | ⟨1, _⟩ => rfl
theorem ofFin_eq_ix1 {n : ℕ} (p : Fin n) : (Shape.Idx.ofFin p : (⟨1, ![n]⟩ : Shape).Idx) = ix1 p := by
  funext a; match a with | ⟨0, _⟩ => rfl
theorem ixP_eq_ix2 {n : ℕ} (p : Fin n) : StableHlo.Predicate.ixP p = ix2 p (0 : Fin 1) := by
  funext a; match a with | ⟨0, _⟩ => rfl | ⟨1, _⟩ => rfl

/-! ## Broadcasts at an index -/

/-- A vector as every row of an array, read at (p, q): the vector at q. -/
theorem rowBias_at {α : Type} {M N : ℕ} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h2 (broadcastInDim ⟨2, ![1, N]⟩ ![1] h1 b) (ix2 p q) = b (ix1 q) := by
  rw [← ij_eq_ix2, StableHlo.Predicate.bcast_cols, ofFin_eq_ix1]

/-- A column as every column of an array, read at (p, q): the column at p. -/
theorem colBcast_at {α : Type} {M N : ℕ} (h2 : (⟨2, ![M, 1]⟩ : Shape).BroadcastsInDim ⟨2, ![M, N]⟩ ![0, 1])
    (v : (⟨2, ![M, 1]⟩ : Shape).Idx → α) (p : Fin M) (q : Fin N) :
    broadcastInDim ⟨2, ![M, N]⟩ ![0, 1] h2 v (ix2 p q) = v (ix2 p (0 : Fin 1)) := by
  rw [← ij_eq_ix2, StableHlo.Predicate.bcast_of_col, ixP_eq_ix2]

/-- A vector as a one-column array, read at (p, 0): the vector at p. -/
theorem asCol_at {α : Type} {M : ℕ} (h1 : (⟨1, ![M]⟩ : Shape).BroadcastsInDim ⟨2, ![M, 1]⟩ ![0])
    (v : (⟨1, ![M]⟩ : Shape).Idx → α) (p : Fin M) :
    broadcastInDim ⟨2, ![M, 1]⟩ ![0] h1 v (ix2 p (0 : Fin 1)) = v (ix1 p) := by
  rw [← ixP_eq_ix2, StableHlo.Predicate.bcast_col1, ofFin_eq_ix1]

/-- A constant broadcast from the scalar shape reads the constant's value everywhere. -/
theorem scalarConst_at {t : Shape} (h : S_.BroadcastsInDim t ![]) (w : BitVec 32) (j : t.Idx) :
    broadcastInDim t ![] h (constant (F := Ideal) S_ .f32 w) j = Ideal.ofBits .f32 w := rfl

/-- Every index of an n x 1 array is (p, 0). -/
theorem eq_ix2_col {n : ℕ} (j : (⟨2, ![n, 1]⟩ : Shape).Idx) : j = ix2 (j 0) (0 : Fin 1) := by
  have h1 : (j 1).val < 1 := (j 1).isLt
  have e : j 1 = (0 : Fin 1) := Fin.ext (by show (j 1).val = 0; omega)
  have h := eq_ix2 j
  rw [e] at h
  exact h

/-! ## Parameter slices at an index -/

/-- Slice o of a stack of arrays, reshaped to an array, read at (a, b): the stack at (o, a, b). -/
theorem sel3_at {α : Type} {K A B : ℕ} (o : ℕ) (ho : o < K) (W : (⟨3, ![K, A, B]⟩ : Shape).Idx → α)
    (hs : (⟨3, ![K, A, B]⟩ : Shape).Slices ![o, 0, 0] ⟨3, ![1, A, B]⟩)
    (hc : (⟨3, ![1, A, B]⟩ : Shape).ShapeCasts ⟨2, ![A, B]⟩) (a : Fin A) (b : Fin B) :
    shapeCast ⟨2, ![A, B]⟩ (extractStridedSlice ⟨3, ![1, A, B]⟩ ![o, 0, 0] W hs) hc (ix2 a b) = W (ix3 ⟨o, ho⟩ a b) := by
  refine (shapeCast_dropUnit_apply ![A, B] _ hc (ix2 a b)).trans ?_
  refine extractStridedSlice_apply _ W hs _ _ (fun c => ?_)
  match c with
  | ⟨0, _⟩ => rfl
  | ⟨1, _⟩ => exact (Nat.zero_add _).symm
  | ⟨2, _⟩ => exact (Nat.zero_add _).symm

/-- Slice o of a stack of vectors, reshaped to a vector, read at a: the stack at (o, a). -/
theorem sel2_at {α : Type} {K A : ℕ} (o : ℕ) (ho : o < K) (W : (⟨2, ![K, A]⟩ : Shape).Idx → α)
    (hs : (⟨2, ![K, A]⟩ : Shape).Slices ![o, 0] ⟨2, ![1, A]⟩)
    (hc : (⟨2, ![1, A]⟩ : Shape).ShapeCasts ⟨1, ![A]⟩) (a : Fin A) :
    shapeCast ⟨1, ![A]⟩ (extractStridedSlice ⟨2, ![1, A]⟩ ![o, 0] W hs) hc (ix1 a) = W (ix2 ⟨o, ho⟩ a) := by
  refine (shapeCast_dropUnit_apply ![A] _ hc (ix1 a)).trans ?_
  refine extractStridedSlice_apply _ W hs _ _ (fun c => ?_)
  match c with
  | ⟨0, _⟩ => rfl
  | ⟨1, _⟩ => exact (Nat.zero_add _).symm

theorem selW0_eq (W : ((⟨S3x64x64, .f32⟩ : BufTy).Contents (Elt Ideal))) : selW0 (F := Ideal) W = sel3 0 W := by
  funext j; obtain ⟨a, b, rfl⟩ : ∃ a b, j = ix2 a b := ⟨j 0, j 1, eq_ix2 j⟩
  exact sel3_at 0 (by decide) W _ _ a b
theorem selW1_eq (W : ((⟨S3x64x64, .f32⟩ : BufTy).Contents (Elt Ideal))) : selW1 (F := Ideal) W = sel3 1 W := by
  funext j; obtain ⟨a, b, rfl⟩ : ∃ a b, j = ix2 a b := ⟨j 0, j 1, eq_ix2 j⟩
  exact sel3_at 1 (by decide) W _ _ a b
theorem selW2_eq (W : ((⟨S3x64x64, .f32⟩ : BufTy).Contents (Elt Ideal))) : selW2 (F := Ideal) W = sel3 2 W := by
  funext j; obtain ⟨a, b, rfl⟩ : ∃ a b, j = ix2 a b := ⟨j 0, j 1, eq_ix2 j⟩
  exact sel3_at 2 (by decide) W _ _ a b

theorem selAW0_eq (W : ((⟨S3x128x1, .f32⟩ : BufTy).Contents (Elt Ideal))) : selAW0 (F := Ideal) W = sel3 0 W := by
  funext j; obtain ⟨a, b, rfl⟩ : ∃ a b, j = ix2 a b := ⟨j 0, j 1, eq_ix2 j⟩
  exact sel3_at 0 (by decide) W _ _ a b
theorem selAW1_eq (W : ((⟨S3x128x1, .f32⟩ : BufTy).Contents (Elt Ideal))) : selAW1 (F := Ideal) W = sel3 1 W := by
  funext j; obtain ⟨a, b, rfl⟩ : ∃ a b, j = ix2 a b := ⟨j 0, j 1, eq_ix2 j⟩
  exact sel3_at 1 (by decide) W _ _ a b
theorem selAW2_eq (W : ((⟨S3x128x1, .f32⟩ : BufTy).Contents (Elt Ideal))) : selAW2 (F := Ideal) W = sel3 2 W := by
  funext j; obtain ⟨a, b, rfl⟩ : ∃ a b, j = ix2 a b := ⟨j 0, j 1, eq_ix2 j⟩
  exact sel3_at 2 (by decide) W _ _ a b

theorem selB0_eq (B : ((⟨S3x64, .f32⟩ : BufTy).Contents (Elt Ideal))) : selB0 (F := Ideal) B = sel2 0 B := by
  funext j; obtain ⟨a, rfl⟩ : ∃ a, j = ix1 a := ⟨j 0, eq_ix1 j⟩
  exact sel2_at 0 (by decide) B _ _ a
theorem selB1_eq (B : ((⟨S3x64, .f32⟩ : BufTy).Contents (Elt Ideal))) : selB1 (F := Ideal) B = sel2 1 B := by
  funext j; obtain ⟨a, rfl⟩ : ∃ a, j = ix1 a := ⟨j 0, eq_ix1 j⟩
  exact sel2_at 1 (by decide) B _ _ a
theorem selB2_eq (B : ((⟨S3x64, .f32⟩ : BufTy).Contents (Elt Ideal))) : selB2 (F := Ideal) B = sel2 2 B := by
  funext j; obtain ⟨a, rfl⟩ : ∃ a, j = ix1 a := ⟨j 0, eq_ix1 j⟩
  exact sel2_at 2 (by decide) B _ _ a

theorem selAb0_eq (B : ((⟨S3x1, .f32⟩ : BufTy).Contents (Elt Ideal))) : selAb0 (F := Ideal) B = sel2 0 B := by
  funext j; obtain ⟨a, rfl⟩ : ∃ a, j = ix1 a := ⟨j 0, eq_ix1 j⟩
  exact sel2_at 0 (by decide) B _ _ a
theorem selAb1_eq (B : ((⟨S3x1, .f32⟩ : BufTy).Contents (Elt Ideal))) : selAb1 (F := Ideal) B = sel2 1 B := by
  funext j; obtain ⟨a, rfl⟩ : ∃ a, j = ix1 a := ⟨j 0, eq_ix1 j⟩
  exact sel2_at 1 (by decide) B _ _ a
theorem selAb2_eq (B : ((⟨S3x1, .f32⟩ : BufTy).Contents (Elt Ideal))) : selAb2 (F := Ideal) B = sel2 2 B := by
  funext j; obtain ⟨a, rfl⟩ : ∃ a, j = ix1 a := ⟨j 0, eq_ix1 j⟩
  exact sel2_at 2 (by decide) B _ _ a

/-! ## The dense map -/

/-- A plain product of an M x K by a K x N array, read at (p, q). -/
theorem dot_at {M K N : ℕ} (D : DotDims ⟨2, ![M, K]⟩ ⟨2, ![K, N]⟩ ⟨2, ![M, N]⟩) (hD : D = DotDims.plain M K N)
    (x : A2 M K) (w : A2 K N) (p : Fin M) (q : Fin N) :
    Host.dotGeneral (F := Ideal) (φ₁ := .f32) (φ₂ := .f32) D none x w (ix2 p q) = ∑ k : Fin K, x (ix2 p k) * w (ix2 k q) := by
  subst hD
  exact StackMember.dotGeneral_plain_apply none x w p q

/-- x · w + b with the bias broadcast along the rows is the dense map. -/
theorem dense_gen {M K N : ℕ} (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1]) (h2 : (⟨2, ![1, N]⟩ : Shape).BroadcastsInDim ⟨2, ![M, N]⟩ ![0, 1])
    (x : A2 M K) (w : A2 K N) (b : A1 N) :
    addf (F := Ideal) (φ := .f32) (Host.dotGeneral (F := Ideal) (φ₁ := .f32) (φ₂ := .f32) D none x w)
      (broadcastInDim ⟨2, ![M, N]⟩ ![0, 1] h2 (broadcastInDim ⟨2, ![1, N]⟩ ![1] h1 b)) = dense x w b := by
  funext j
  obtain ⟨p, q, rfl⟩ : ∃ p q, j = ix2 p q := ⟨j 0, j 1, eq_ix2 j⟩
  rw [addf_apply, dot_at D hD, rowBias_at]
  rfl

theorem dense0R_eq (x : ((⟨S100000x12, .f32⟩ : BufTy).Contents (Elt Ideal))) (inW : ((⟨S12x64, .f32⟩ : BufTy).Contents (Elt Ideal)))
    (inb : ((⟨S64, .f32⟩ : BufTy).Contents (Elt Ideal))) : dense0R (F := Ideal) x inW inb = dense x inW inb :=
  dense_gen _ rfl _ _ x inW inb

theorem hlR_eq (h : ((⟨S100000x64, .f32⟩ : BufTy).Contents (Elt Ideal))) (lw : ((⟨S64x64, .f32⟩ : BufTy).Contents (Elt Ideal)))
    (lb : ((⟨S64, .f32⟩ : BufTy).Contents (Elt Ideal))) : hlR (F := Ideal) h lw lb = dense h lw lb :=
  dense_gen _ rfl _ _ h lw lb

/-! ## The output head -/

/-- The maximum with the zero constant is the rectifier. -/
theorem relu_gen {t : Shape} (h : S_.BroadcastsInDim t ![]) (x : t.Idx → EReal) :
    maximumf (F := Ideal) (φ := .f32) x (broadcastInDim t ![] h (constant (F := Ideal) S_ .f32 0x00000000#32)) = relu x := by
  funext j
  show max (x j) (Ideal.ofBits .f32 0x00000000#32) = max (x j) 0
  rw [Ideal.ofBits_zero_f32]

theorem one_eq : Ideal.ofBits .f32 0x3F800000#32 = 1 := by simp [Ideal.ofBits, Ideal.ieee, -EReal.coe_mul]; norm_num

theorem zR_eq (h : ((⟨S100000x64, .f32⟩ : BufTy).Contents (Elt Ideal))) (o1W : ((⟨S64x32, .f32⟩ : BufTy).Contents (Elt Ideal)))
    (o1b : ((⟨S32, .f32⟩ : BufTy).Contents (Elt Ideal))) : zR (F := Ideal) h o1W o1b = relu (dense h o1W o1b) := by
  exact (congrArg (fun t => maximumf (F := Ideal) (φ := .f32) t
    (broadcastInDim S100000x32 ![] bcast_S_S100000x32 (constant (F := Ideal) S_ .f32 0x00000000#32)))
    (dense_gen dot_S100000x64_S64x32_S100000x32_1_0_0_1_n_n rfl bcast_S32_S1x32_1 bcast_S1x32_S100000x32_0_1 h o1W o1b)).trans
    (relu_gen bcast_S_S100000x32 _)

theorem logitR_eq (z : ((⟨S100000x32, .f32⟩ : BufTy).Contents (Elt Ideal))) (o2W : ((⟨S32x1, .f32⟩ : BufTy).Contents (Elt Ideal)))
    (o2b : ((⟨S1, .f32⟩ : BufTy).Contents (Elt Ideal))) : logitR (F := Ideal) z o2W o2b = dense z o2W o2b :=
  dense_gen _ rfl _ _ z o2W o2b

theorem sigR_eq (x : ((⟨S100000x1, .f32⟩ : BufTy).Contents (Elt Ideal))) : sigR (F := Ideal) x = sigm x := by
  funext j
  show Ideal.div (Ideal.ofBits .f32 0x3F800000#32) (Ideal.ofBits .f32 0x3F800000#32 + Ideal.exp (-(x j))) = Ideal.logistic (x j)
  rw [one_eq]; rfl

theorem headR_eq (h : ((⟨S100000x64, .f32⟩ : BufTy).Contents (Elt Ideal))) (o1W : ((⟨S64x32, .f32⟩ : BufTy).Contents (Elt Ideal)))
    (o1b : ((⟨S32, .f32⟩ : BufTy).Contents (Elt Ideal))) (o2W : ((⟨S32x1, .f32⟩ : BufTy).Contents (Elt Ideal)))
    (o2b : ((⟨S1, .f32⟩ : BufTy).Contents (Elt Ideal))) :
    headR (F := Ideal) h o1W o1b o2W o2b = sigm (dense (relu (dense h o1W o1b)) o2W o2b) := by
  unfold headR
  rw [zR_eq, logitR_eq, sigR_eq]

end Cert.ReferenceIdeal.HandV

end
-- ==== Proof.Ref.ReadAttn.lean ====
/- The attention stages of the reference network at the extended reals: the score of every edge, the largest
   score, and the message of every edge, each equal to the specification's function index by index. -/
import proofs.«417395_j71579924955534_2_alg».proof.Proof.Ref.Stages
import proofs.«417395_j71579924955534_2_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember
import Idealize.ShloMosaic.Lib.StableHlo.Predicate

noncomputable section

namespace Cert.ReferenceIdeal.HandV

open Cert.ReferenceIdeal Cert.ReferenceIdeal.Hand Cert.Spec
open Idealize.ShloMosaic Idealize.ShloMosaic.ValueIdx
open Cert.ReferenceIdeal.Facts₀ Cert.ReferenceIdeal.Facts
open scoped BigOperators

variable [Facts]

/-! ## Indices and broadcasts at an index -/

theorem att_ij {n m : ℕ} (p : Fin n) (q : Fin m) : StableHlo.Predicate.ij p q = ix2 p q := by
  funext a; match a with | ⟨0, _⟩ => rfl | ⟨1, _⟩ => rfl
theorem att_ofFin {n : ℕ} (p : Fin n) : (Shape.Idx.ofFin p : (⟨1, ![n]⟩ : Shape).Idx) = ix1 p := by
  funext a; match a with | ⟨0, _⟩ => rfl
theorem att_ixP {n : ℕ} (p : Fin n) : StableHlo.Predicate.ixP p = ix2 p (0 : Fin 1) := by
  funext a; match a with | ⟨0, _⟩ => rfl | ⟨1, _⟩ => rfl

/-- Every index of an n x 1 array is (e, 0). -/
theorem att_eq_col {n : ℕ} (j : (⟨2, ![n, 1]⟩ : Shape).Idx) : j = ix2 (j 0) (0 : Fin 1) := by
  have h1 : (j 1).val < 1 := (j 1).isLt
  have e : j 1 = (0 : Fin 1) := Fin.ext (by show (j 1).val = 0; omega)
  have h := eq_ix2 j
  rw [e] at h
  exact h

/-- A one-element vector spread over an edge column reads its element. -/
theorem att_edgeBias_at (b : ((⟨S1, .f32⟩ : BufTy).Contents (Elt Ideal))) (e : Fin 1250000) :
    edgeBias (F := Ideal) b (ix2 e (0 : Fin 1)) = b (ix1 (0 : Fin 1)) := by
  unfold edgeBias
  rw [← att_ij, StableHlo.Predicate.bcast_cols, att_ofFin]

/-! ## The score -/

/-- The 128-term product of the concatenated rows against the attention vector, read at edge e. -/
theorem att_dot_at (x : A2 1250000 128) (w : A2 128 1) (e : Fin 1250000) :
    Host.dotGeneral (F := Ideal) (φ₁ := .f32) (φ₂ := .f32) dot_S1250000x128_S128x1_S1250000x1_1_0_0_1_n_n none x w (ix2 e (0 : Fin 1))
      = ∑ k : Fin 128, x (ix2 e k) * w (ix2 k (0 : Fin 1)) :=
  StackMember.dotGeneral_plain_apply none x w e 0

/-- The two gathered rows side by side: the first 64 columns are the first array's. -/
theorem att_cat_left (hi hj : ((⟨S1250000x64, .f32⟩ : BufTy).Contents (Elt Ideal))) (e : Fin 1250000) (k : Fin 64) :
    concatenate S1250000x128 1 [⟨S1250000x64, hi⟩, ⟨S1250000x64, hj⟩] concatenates_S1250000x64_S1250000x64_S1250000x128_d1
      (ix2 e (Fin.castLE (by omega) k : Fin 128)) = hi (ix2 e k) :=
  concatenate_pair_apply_left (t := S1250000x128) (s₁ := S1250000x64) (s₂ := S1250000x64) 1 hi hj
    concatenates_S1250000x64_S1250000x64_S1250000x128_d1 (ix2 e (Fin.castLE (by omega) k : Fin 128)) rfl (ix2 e k) (fun b => by
    match b with
    | ⟨0, _⟩ => rfl
    | ⟨1, _⟩ => rfl)

/-- … and the last 64 columns are the second array's. -/
theorem att_cat_right (hi hj : ((⟨S1250000x64, .f32⟩ : BufTy).Contents (Elt Ideal))) (e : Fin 1250000) (k : Fin 64) :
    concatenate S1250000x128 1 [⟨S1250000x64, hi⟩, ⟨S1250000x64, hj⟩] concatenates_S1250000x64_S1250000x64_S1250000x128_d1
      (ix2 e (⟨64 + k.val, by omega⟩ : Fin 128)) = hj (ix2 e k) :=
  concatenate_pair_apply_right (t := S1250000x128) (s₁ := S1250000x64) (s₂ := S1250000x64) 1 hi hj
    concatenates_S1250000x64_S1250000x64_S1250000x128_d1 (ix2 e (⟨64 + k.val, by omega⟩ : Fin 128)) rfl rfl (ix2 e k) (fun b hb => by
    match b with
    | ⟨0, _⟩ => rfl
    | ⟨1, _⟩ => exact absurd rfl hb) (by show k.val + 64 = 64 + k.val; omega)

/-- The logit before the activation at edge e: the two 64-term halves and the bias. -/
theorem att_preScore_at (hi hj : ((⟨S1250000x64, .f32⟩ : BufTy).Contents (Elt Ideal))) (aw : ((⟨S128x1, .f32⟩ : BufTy).Contents (Elt Ideal)))
    (ab : ((⟨S1, .f32⟩ : BufTy).Contents (Elt Ideal))) (e : Fin 1250000) :
    preScoreR (F := Ideal) hi hj aw ab (ix2 e (0 : Fin 1))
      = ((∑ k : Fin 64, hi (ix2 e k) * aw (ix2 (Fin.castLE (by omega) k : Fin 128) (0 : Fin 1)))
          + (∑ k : Fin 64, hj (ix2 e k) * aw (ix2 (⟨64 + k.val, by omega⟩ : Fin 128) (0 : Fin 1))))
        + ab (ix1 (0 : Fin 1)) := by
  unfold preScoreR
  rw [addf_apply, att_dot_at, att_edgeBias_at]
  refine congrArg (· + ab (ix1 (0 : Fin 1))) ?_
  refine (Fin.sum_univ_add (a := 64) (b := 64) _).trans ?_
  refine congrArg₂ (· + ·) (Finset.sum_congr rfl fun k _ => ?_) (Finset.sum_congr rfl fun k _ => ?_)
  · exact congrArg (· * aw (ix2 (Fin.castLE (by omega) k : Fin 128) (0 : Fin 1))) (att_cat_left hi hj e k)
  · exact congrArg (· * aw (ix2 (⟨64 + k.val, by omega⟩ : Fin 128) (0 : Fin 1))) (att_cat_right hi hj e k)

/-- The leaky rectifier at one number. -/
theorem att_leaky (x : EReal) :
    Scalar.select (Ideal.cmp .oge x (Ideal.ofBits .f32 0x00000000#32)) x (Ideal.ofBits .f32 0x3C23D70A#32 * x) = Spec.leaky x := by
  rw [Ideal.ofBits_zero_f32]
  unfold Spec.leaky Spec.slope
  by_cases h : 0 ≤ x
  · rw [if_pos h, show Ideal.cmp .oge x 0 = 1#1 by simp [Ideal.cmp, h], select_one]
  · rw [if_neg h, show Ideal.cmp .oge x 0 = 0#1 by simp [Ideal.cmp, h], select_zero]

/-- The leaky rectifier of a column at an index. -/
theorem att_leakyR_at (s : ((⟨S1250000x1, .f32⟩ : BufTy).Contents (Elt Ideal))) (j : S1250000x1.Idx) :
    leakyR (F := Ideal) s j = Spec.leaky (s j) :=
  att_leaky (s j)

/-- The score of every edge is the specification's, as a column. -/
theorem scoreR_eq (hi hj : ((⟨S1250000x64, .f32⟩ : BufTy).Contents (Elt Ideal))) (aw : ((⟨S128x1, .f32⟩ : BufTy).Contents (Elt Ideal)))
    (ab : ((⟨S1, .f32⟩ : BufTy).Contents (Elt Ideal))) :
    scoreR (F := Ideal) hi hj aw ab = Spec.col1 (Spec.score hi hj aw ab) := by
  funext j
  obtain ⟨e, rfl⟩ : ∃ e : Fin 1250000, j = ix2 e (0 : Fin 1) := ⟨j 0, att_eq_col j⟩
  show leakyR (F := Ideal) (preScoreR hi hj aw ab) (ix2 e (0 : Fin 1)) = Spec.score hi hj aw ab e
  rw [att_leakyR_at, att_preScore_at]
  rfl

/-! ## The largest score -/

/-- The f32 word of minus infinity is the least extended real. -/
theorem att_negInf : Ideal.ofBits .f32 0xFF800000#32 = ⊥ := by simp [Ideal.ofBits, Ideal.ieee]

instance att_maxComm : Std.Commutative (FloatOps.maximumf (F := Ideal) (φ := .f32)) := ⟨fun a b => max_comm a b⟩
instance att_maxAssoc : Std.Associative (FloatOps.maximumf (F := Ideal) (φ := .f32)) := ⟨fun a b c => max_assoc a b c⟩

/-- A fold of the larger-of-two from the least element is the supremum. -/
theorem att_fold_max {ι : Type} [DecidableEq ι] (S : Finset ι) (f : ι → EReal) :
    S.fold (FloatOps.maximumf (F := Ideal) (φ := .f32)) ⊥ f = S.sup f := by
  induction S using Finset.induction_on with
  | empty => rw [Finset.fold_empty, Finset.sup_empty]
  | insert a S ha ih => rw [Finset.fold_insert ha, Finset.sup_insert, ih]; rfl

/-- The edge axis of a column reduces to the one-element vector. -/
theorem att_hR : S1250000x1.Reduces [0] S1 := by decide

/-- The largest score over all edges. -/
theorem maxR_eq (s : Fin 1250000 → EReal) : maxR (F := Ideal) (Spec.col1 s) = fun _ => Spec.smax s := by
  funext j
  unfold maxR
  rw [maximumf_apply, Host.reduce_eq_fold_single (FloatOps.maximumf (F := Ideal) (φ := .f32)) (Spec.col1 s) _ reducesTo_S1250000x1_S1_d0 att_hR h_S_ j]
  have h0 : constant (F := Ideal) S_ .f32 0xFF800000#32 (Shape.Idx.first h_S_) = ⊥ := att_negInf
  have hb : broadcastInDim S1 ![] bcast_S_S1 (constant (F := Ideal) S_ .f32 0xFF800000#32) j = ⊥ := att_negInf
  rw [h0, hb, max_bot_left]
  have hs : (Spec.col1 s ∘ att_hR.lift j) = s := funext fun k => congrArg s (Fin.ext rfl)
  rw [hs]
  unfold Spec.smax
  exact att_fold_max Finset.univ s

/-! ## The message -/

/-- A column spread over 64 columns reads the column at the row. -/
theorem att_colBcast_at (v : (⟨2, ![1250000, 1]⟩ : Shape).Idx → EReal) (e : Fin 1250000) (q : Fin 64) :
    broadcastInDim S1250000x64 ![0, 1] bcast_S1250000x1_S1250000x64_0_1 v (ix2 e q) = v (ix2 e (0 : Fin 1)) := by
  rw [← att_ij, StableHlo.Predicate.bcast_of_col, att_ixP]

/-- A vector as a one-column array reads the vector at the row. -/
theorem att_asCol_at (v : (⟨1, ![1250000]⟩ : Shape).Idx → EReal) (e : Fin 1250000) :
    broadcastInDim S1250000x1 ![0] bcast_S1250000_S1250000x1_0 v (ix2 e (0 : Fin 1)) = v (ix1 e) := by
  rw [← att_ixP, StableHlo.Predicate.bcast_col1, att_ofFin]

/-- exp (s − max s), as a column. -/
def att_U (s : Fin 1250000 → EReal) : A2 1250000 1 := fun j => Ideal.exp (s (c0 j) - Spec.smax s)

/-- The exponentials of the scores less their maximum. -/
theorem att_expR (s : Fin 1250000 → EReal) :
    expR (F := Ideal) (Spec.col1 s) (maxR (F := Ideal) (Spec.col1 s)) = att_U s := by
  rw [maxR_eq]
  funext j
  obtain ⟨e, rfl⟩ : ∃ e : Fin 1250000, j = ix2 e (0 : Fin 1) := ⟨j 0, att_eq_col j⟩
  unfold expR
  show Ideal.exp (s e - edgeBias (F := Ideal) (fun _ => Spec.smax s) (ix2 e (0 : Fin 1))) = _
  rw [att_edgeBias_at]
  rfl

/-- Their sum over all edges is the softmax denominator. -/
theorem att_sumR (s : Fin 1250000 → EReal) : sumR (F := Ideal) (att_U s) = fun _ => Spec.ssum s := by
  funext j
  unfold sumR
  rw [hostReduceAdd_apply, Ideal.hostReduceAdd_single reducesTo_S1250000x1_S1_d0 att_hR]
  have h0 : constant (F := Ideal) S_ .f32 0x00000000#32 (Shape.Idx.first h_S_) = 0 := Ideal.ofBits_zero_f32
  rw [h0, zero_add]
  unfold Spec.ssum
  exact Finset.sum_congr rfl fun k _ => congrArg (fun i => Ideal.exp (s i - Spec.smax s)) (Fin.ext rfl)

/-- A quotient by a one-element vector spread over the edges, at edge e. -/
theorem att_probR_at (u : ((⟨S1250000x1, .f32⟩ : BufTy).Contents (Elt Ideal))) (l : ((⟨S1, .f32⟩ : BufTy).Contents (Elt Ideal))) (e : Fin 1250000) :
    probR (F := Ideal) u l (ix2 e (0 : Fin 1)) = Ideal.div (u (ix2 e (0 : Fin 1))) (l (ix1 (0 : Fin 1))) := by
  unfold probR
  rw [hostDivf_apply, att_edgeBias_at]

/-- The message at edge e, feature q: the weight of the edge, its edge weight, the gathered row. -/
theorem att_msgR_at (p : ((⟨S1250000x1, .f32⟩ : BufTy).Contents (Elt Ideal))) (ew : ((⟨S1250000, .f32⟩ : BufTy).Contents (Elt Ideal)))
    (hj : ((⟨S1250000x64, .f32⟩ : BufTy).Contents (Elt Ideal))) (e : Fin 1250000) (q : Fin 64) :
    msgR (F := Ideal) p ew hj (ix2 e q) = (p (ix2 e (0 : Fin 1)) * ew (ix1 e)) * hj (ix2 e q) := by
  unfold msgR
  rw [mulf_apply, att_colBcast_at, mulf_apply, att_asCol_at]

/-- The message of every edge. -/
theorem msg_eq (s : Fin 1250000 → EReal) (ew : ((⟨S1250000, .f32⟩ : BufTy).Contents (Elt Ideal)))
    (hj : ((⟨S1250000x64, .f32⟩ : BufTy).Contents (Elt Ideal))) :
    msgR (F := Ideal) (softR (Spec.col1 s)) ew hj = Spec.message s hj ew := by
  funext j
  obtain ⟨e, q, rfl⟩ : ∃ (e : Fin 1250000) (q : Fin 64), j = ix2 e q := ⟨j 0, j 1, eq_ix2 j⟩
  rw [att_msgR_at]
  unfold softR
  rw [att_expR, att_sumR, att_probR_at]
  rfl

end Cert.ReferenceIdeal.HandV

end
-- ==== Proof.Ref.ReadNorm.lean ====
/- The reference's layer normalisation with its residual, read index by index at the ideal values: it is the
   specification's `finalize`. -/
import proofs.«417395_j71579924955534_2_alg».proof.Proof.Ref.Stages
import proofs.«417395_j71579924955534_2_alg».proof.Proof.Spec
import Idealize.ShloMosaic.Lib.ValueIdx
import Idealize.ShloMosaic.Lib.Pipeline.Value
import Idealize.ShloMosaic.Lib.StableHlo.Predicate
import Idealize.ShloMosaic.PureOps.Ideal.Laws

open scoped BigOperators

noncomputable section

namespace Cert.ReferenceIdeal.HandV

open Cert.ReferenceIdeal Cert.ReferenceIdeal.Hand Cert.Spec Idealize.ShloMosaic Idealize.ShloMosaic.ValueIdx
open Cert.ReferenceIdeal.Facts₀ Cert.ReferenceIdeal.Facts

variable [Facts]

/-! ## The constants -/

/-- The pattern 0x42800000 is the number 64. -/
theorem ln_c64_eq : Cert.Spec.c64 = ((64 : ℝ) : EReal) := by
  unfold Cert.Spec.c64
  simp [Ideal.ofBits, Ideal.ieee]
  rw [← EReal.coe_mul]
  congr 1
  norm_num

theorem ln_c64_pos : (0 : EReal) < Cert.Spec.c64 := by
  rw [ln_c64_eq]; exact_mod_cast (by norm_num : (0 : ℝ) < 64)

/-! ## The layout operations at an index -/

/-- A scalar constant broadcast to a column reads the constant's value. -/
theorem ln_bc_col_const (w : BitVec 32) (j : S100000x1.Idx) :
    broadcastInDim S100000x1 ![] bcast_S_S100000x1 (constant (F := Ideal) S_ .f32 w) j = Ideal.ofBits .f32 w :=
  StableHlo.Predicate.bcast_scalar bcast_S_S100000x1 h_S_ _ j

/-- A scalar broadcast to a column reads the scalar. -/
theorem ln_bc_col_scalar {α : Type} (x : S_.Idx → α) (j : S100000x1.Idx) :
    broadcastInDim S100000x1 ![] bcast_S_S100000x1 x j = x ix0 :=
  (StableHlo.Predicate.bcast_scalar bcast_S_S100000x1 h_S_ x j).trans (congrArg x (eq_ix0 _))

/-- A scalar constant broadcast to the full array reads the constant's value. -/
theorem ln_bc_full_const (w : BitVec 32) (j : S100000x64.Idx) :
    broadcastInDim S100000x64 ![] bcast_S_S100000x64 (constant (F := Ideal) S_ .f32 w) j = Ideal.ofBits .f32 w :=
  StableHlo.Predicate.bcast_scalar bcast_S_S100000x64 h_S_ _ j

/-- A vector as a column reads, at row p, the vector at p. -/
theorem ln_col_apply {α : Type} (v : S100000.Idx → α) (p : Fin 100000) (z : Fin 1) :
    broadcastInDim S100000x1 ![0] bcast_S100000_S100000x1_0 v (ix2 p z) = v (ix1 p) :=
  broadcastInDim_apply _ _ v _ (ix1 p) fun a => by
    match a with
    | ⟨0, _⟩ => exact (if_neg (show ¬ ((100000 : ℕ) = 1) by decide)).symm

/-- A column laid along the rows reads, at (p, q), the column at row p. -/
theorem ln_row_of_col {α : Type} (m : S100000x1.Idx → α) (p : Fin 100000) (q : Fin 64) :
    broadcastInDim S100000x64 ![0, 1] bcast_S100000x1_S100000x64_0_1 m (ix2 p q) = m (ix2 p 0) :=
  broadcastInDim_apply _ _ m _ (ix2 p 0) fun a => by
    match a with
    | ⟨0, _⟩ => exact (if_neg (show ¬ ((100000 : ℕ) = 1) by decide)).symm
    | ⟨1, _⟩ => exact (if_pos rfl).symm

/-- A length-64 vector laid along the columns reads, at (p, q), the vector at q. -/
theorem ln_rowBias64_apply (b : (⟨S64, .f32⟩ : BufTy).Contents (Elt Ideal)) (p : Fin 100000) (q : Fin 64) :
    rowBias64 (F := Ideal) b (ix2 p q) = b (ix1 q) := by
  unfold rowBias64
  refine (broadcastInDim_apply _ _ _ _ (ix2 (0 : Fin 1) q) fun a => ?_).trans
    (broadcastInDim_apply _ _ b _ (ix1 q) fun a => ?_)
  · match a with
    | ⟨0, _⟩ => exact (if_pos rfl).symm
    | ⟨1, _⟩ => exact (if_neg (show ¬ ((64 : ℕ) = 1) by decide)).symm
  · match a with
    | ⟨0, _⟩ => exact (if_neg (show ¬ ((64 : ℕ) = 1) by decide)).symm

/-! ## The row sum -/

/-- The sum along a row, at row p: the sum of the row's 64 entries. -/
theorem ln_rowReduce_apply (t : (⟨S100000x64, .f32⟩ : BufTy).Contents (Elt Ideal)) (p : Fin 100000) :
    Host.reduceAdd (F := Ideal) t (constant (F := Ideal) S_ .f32 0x00000000#32) reducesTo_S100000x64_S100000_d1 h_S_ (ix1 p)
      = ∑ q : Fin 64, t (ix2 p q) := by
  have hR : S100000x64.Reduces [1] S100000 := by decide
  refine (Ideal.hostReduceAdd_single reducesTo_S100000x64_S100000_d1 hR t _ (ix1 p)).trans ?_
  show Ideal.ofBits .f32 0x00000000#32 + _ = _
  rw [Ideal.ofBits_zero_f32, zero_add]
  refine Finset.sum_congr rfl fun q _ => congrArg t ?_
  funext a
  match a with
  | ⟨0, _⟩ => exact Fin.ext rfl
  | ⟨1, _⟩ => exact Fin.ext rfl

theorem ln_rowSumR_apply (t : (⟨S100000x64, .f32⟩ : BufTy).Contents (Elt Ideal)) (p : Fin 100000) (z : Fin 1) :
    rowSumR (F := Ideal) t (ix2 p z) = ∑ q : Fin 64, t (ix2 p q) := by
  unfold rowSumR
  exact (ln_col_apply _ p z).trans (ln_rowReduce_apply t p)

/-- The mean of row p. -/
theorem ln_muR_apply (t : (⟨S100000x64, .f32⟩ : BufTy).Contents (Elt Ideal)) (p : Fin 100000) (z : Fin 1) :
    muR (F := Ideal) t (ix2 p z) = Ideal.div (∑ q : Fin 64, t (ix2 p q)) Cert.Spec.c64 := by
  unfold muR
  show Ideal.div (rowSumR (F := Ideal) t (ix2 p z)) (broadcastInDim S100000x1 ![] bcast_S_S100000x1 (constant (F := Ideal) S_ .f32 0x42800000#32) (ix2 p z)) = _
  rw [ln_rowSumR_apply, ln_bc_col_const]
  rfl

/-- A row minus a column entry. -/
theorem ln_centR_apply (t : (⟨S100000x64, .f32⟩ : BufTy).Contents (Elt Ideal)) (m : (⟨S100000x1, .f32⟩ : BufTy).Contents (Elt Ideal))
    (p : Fin 100000) (q : Fin 64) :
    centR (F := Ideal) t m (ix2 p q) = t (ix2 p q) - m (ix2 p 0) := by
  unfold centR
  show t (ix2 p q) - broadcastInDim S100000x64 ![0, 1] bcast_S100000x1_S100000x64_0_1 m (ix2 p q) = _
  rw [ln_row_of_col]

/-- The variance's divisor is 64. -/
theorem ln_ddofR_apply (j : S_.Idx) : ddofR (F := Ideal) j = Cert.Spec.c64 := by
  unfold ddofR
  show Ideal.ofBits .f32 0x42800000#32 - (((0#32 : BitVec 32).toInt : ℝ) : EReal) = _
  simp [Cert.Spec.c64]

/-! ## The variance -/

/-- The quotient read at an index. -/
theorem ln_hostDivf_apply {s : Shape} (a b : FVec Ideal s .f32) (i : s.Idx) : Host.divf a b i = Ideal.div (a i) (b i) := rfl

/-- The divisor is positive, so the variance's guard holds. -/
theorem ln_ddof_guard :
    cmpf (F := Ideal) .ogt (ddofR (F := Ideal)) (constant (F := Ideal) S_ .f32 0x00000000#32) ix0 = 1#1 := by
  show Ideal.cmp .ogt (ddofR (F := Ideal) ix0) (Ideal.ofBits .f32 0x00000000#32) = 1#1
  rw [ln_ddofR_apply, Ideal.ofBits_zero_f32]
  simp [Ideal.cmp, ln_c64_pos]

/-- The variance of row p: the mean square deviation from the row's mean. -/
theorem ln_varR_apply (t : (⟨S100000x64, .f32⟩ : BufTy).Contents (Elt Ideal)) (p : Fin 100000) (z : Fin 1) :
    varR (F := Ideal) t (ix2 p z)
      = Ideal.div (∑ q : Fin 64, (t (ix2 p q) - muR (F := Ideal) t (ix2 p 0)) * (t (ix2 p q) - muR (F := Ideal) t (ix2 p 0)))
          Cert.Spec.c64 := by
  unfold varR
  rw [select_apply, ln_bc_col_scalar, ln_ddof_guard, select_one, ln_hostDivf_apply, ln_bc_col_scalar, ln_ddofR_apply, ln_rowSumR_apply]
  refine congrArg (fun s => Ideal.div s Cert.Spec.c64) (Finset.sum_congr rfl fun q _ => ?_)
  show centR (F := Ideal) t (muR (F := Ideal) t) (ix2 p q) * centR (F := Ideal) t (muR (F := Ideal) t) (ix2 p q) = _
  rw [ln_centR_apply]

/-! ## The normalisation -/

/-- The layer normalisation at (p, q). -/
theorem ln_lnR_apply (t : (⟨S100000x64, .f32⟩ : BufTy).Contents (Elt Ideal)) (mu var : (⟨S100000x1, .f32⟩ : BufTy).Contents (Elt Ideal))
    (g b : (⟨S64, .f32⟩ : BufTy).Contents (Elt Ideal)) (p : Fin 100000) (q : Fin 64) :
    lnR (F := Ideal) t mu var g b (ix2 p q)
      = ((t (ix2 p q) - mu (ix2 p 0)) * Ideal.rsqrt (var (ix2 p 0) + Cert.Spec.eps)) * g (ix1 q) + b (ix1 q) := by
  unfold lnR lnScaleR
  show (centR (F := Ideal) t mu (ix2 p q)
        * broadcastInDim S100000x64 ![0, 1] bcast_S100000x1_S100000x64_0_1
            (Host.rsqrt (F := Ideal) (addf var (broadcastInDim S100000x1 ![] bcast_S_S100000x1 (constant (F := Ideal) S_ .f32 0x3727C5AC#32))))
            (ix2 p q))
      * rowBias64 (F := Ideal) g (ix2 p q) + rowBias64 (F := Ideal) b (ix2 p q) = _
  rw [ln_centR_apply, ln_row_of_col, ln_rowBias64_apply, ln_rowBias64_apply]
  show (_ * Ideal.rsqrt (var (ix2 p 0)
        + broadcastInDim S100000x1 ![] bcast_S_S100000x1 (constant (F := Ideal) S_ .f32 0x3727C5AC#32) (ix2 p 0))) * _ + _ = _
  rw [ln_bc_col_const]
  rfl

/-- The rectified sum at (p, q). -/
theorem ln_actR_apply (hl agg : (⟨S100000x64, .f32⟩ : BufTy).Contents (Elt Ideal)) (p : Fin 100000) (q : Fin 64) :
    actR (F := Ideal) hl agg (ix2 p q) = max (hl (ix2 p q) + agg (ix2 p q)) 0 := by
  unfold actR
  show max (hl (ix2 p q) + agg (ix2 p q))
      (broadcastInDim S100000x64 ![] bcast_S_S100000x64 (constant (F := Ideal) S_ .f32 0x00000000#32) (ix2 p q)) = _
  rw [ln_bc_full_const, Ideal.ofBits_zero_f32]

/-! ## The layer's last stage -/

theorem finalize_eq (hl agg h : (⟨S100000x64, .f32⟩ : BufTy).Contents (Elt Ideal)) (g b : (⟨S64, .f32⟩ : BufTy).Contents (Elt Ideal)) :
    addf (F := Ideal) (s := S100000x64) (φ := .f32) h (normR (F := Ideal) (actR hl agg) g b) = Cert.Spec.finalize hl agg h g b := by
  funext j
  obtain ⟨p, q, rfl⟩ : ∃ (p : Fin 100000) (q : Fin 64), j = ix2 p q := ⟨j 0, j 1, eq_ix2 j⟩
  show h (ix2 p q) + normR (F := Ideal) (actR (F := Ideal) hl agg) g b (ix2 p q) = _
  unfold normR
  rw [ln_lnR_apply, ln_varR_apply, ln_muR_apply]
  simp only [ln_actR_apply]
  rfl

end Cert.ReferenceIdeal.HandV

end
-- ==== Proof.EdgeIdx.lean ====
/-
  The edge list as two maps from edges to nodes: row `i` of the `[2, E]` integer array, read signed, when every
  entry lies in `[0, N)`.
-/
import Idealize.ShloMosaic.PureOps.Ideal
import Idealize.ShloMosaic.Lib.ValueIdx

namespace Cert.Spec

open Idealize.ShloMosaic Idealize.ShloMosaic.ValueIdx

/-- Every entry of the edge array, read signed, is a node number. -/
def InRange {E : ℕ} (N : ℕ) (ei : IVec ⟨2, ![2, E]⟩ 32) : Prop := ∀ j, 0 ≤ (ei j).toInt ∧ (ei j).toInt < (N : ℤ)

/-- The node that entry `(i, e)` of the edge array names. -/
def endF {E N : ℕ} (ei : IVec ⟨2, ![2, E]⟩ 32) (hin : InRange N ei) (i : Fin 2) : Fin E → Fin N :=
  fun e => ⟨(ei (ix2 i e)).toInt.toNat, by have := hin (ix2 i e); omega⟩

theorem endF_spec {E N : ℕ} (ei : IVec ⟨2, ![2, E]⟩ 32) (hin : InRange N ei) (i : Fin 2) (e : Fin E) :
    (ei (ix2 i e)).toInt = ((endF ei hin i e).val : ℤ) := by
  have := hin (ix2 i e)
  show _ = (((ei (ix2 i e)).toInt.toNat : ℕ) : ℤ)
  omega

end Cert.Spec
-- ==== Proof.LibGatherScatter.lean ====
/-
  Decoding lemmas for StableHLO gather / scatter dimension numbers read at an index: the row gather
  of a rank-2 table, the landing index of a row scatter (rank-2 and rank-1 operands) and the
  accumulating scatter at the ideal instance as a sum over the update rows whose index is the row read,
  with the two small facts about a start-index column that go with them. Every lemma is generic in the
  record of dimension numbers and in the extents; the record's fields are hypotheses, each an `rfl` at a literal record.
-/
import Idealize.ShloMosaic.PureOps.Ideal
import Idealize.ShloMosaic.Lib.ValueIdx
import Idealize.ShloMosaic.Lib.StableHlo.Predicate

open scoped BigOperators

namespace Cert.LibGatherScatter

open Idealize.ShloMosaic
open Idealize.ShloMosaic.ValueIdx
open Idealize.ShloMosaic.StableHlo.Predicate

/-! ## Lists of axes: an entry of a one-element list is that element -/

/-- Every entry of a list that equals the one-element list `[a]` is `a`. -/
theorem getElem_of_eq_singleton {β : Type} {l : List β} {a : β} (h : l = [a]) (k : Nat) (hk : k < l.length) :
    l[k] = a := by
  subst h
  have : k = 0 := by simpa using hk
  subst this
  rfl

/-! ## The row gather of a rank-2 table -/

/-- THE ROW GATHER. A `stablehlo.gather` of a rank-2 table `[N × C]` at an `[n × 1]` column of start indices, whose
    row axis is collapsed and start-indexed, whose column axis is the one offset axis with the whole row as the slice,
    without batching axes and with the index vector on axis 1: result element `(e, q)` is the table at row
    `idx[e, 0]` read SIGNED and CLAMPED into `[0, N − 1]`, column `q`. -/
theorem rowGather_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (_hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (q : Fin C) :
    Host.gather d x idx (ix2 e q) = x (ix2 ⟨min (idx (ixP e)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e q) idx 0 + d.batchCoord (ix2 e q) 0 + d.offCoord (ix2 e q) 0 = min (idx (ixP e)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      have key : ∀ X : Fin 2, X = 0 → ((ix2 e q : (⟨2, ![n, C]⟩ : Shape).Idx) X).val = e.val := by
        rintro _ rfl; rfl
      exact key _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [Nat.add_zero, GatherDims.start, dif_neg hm, GatherDims.offCoord, dif_pos hk, Nat.zero_add]
    have key : ∀ X : Fin 2, X = 1 → ((ix2 e q : (⟨2, ![n, C]⟩ : Shape).Idx) X).val = q.val := by
      rintro _ rfl; rfl
    exact key _ (getElem_of_eq_singleton hoff _ _)

/-! ## The row scatter of a rank-2 operand: where an update element lands -/

section RowScatter
variable {N C n w : Nat} (d : ScatterDims ⟨2, ![N, C]⟩ ⟨2, ![n, 1]⟩ ⟨2, ![n, C]⟩)

/-- On the operand's row axis the window of update element `(e, q)` starts at the scatter index `idx[e, 0]`, read signed
    and not clamped. -/
theorem rowScatter_start_row (huw : d.updateWindowDims = [1]) (hsd : d.scatterDimsToOperandDims = [0])
    (hivd : d.indexVectorDim = 1) (idx : IVec ⟨2, ![n, 1]⟩ w) (e : Fin n) (q : Fin C) :
    d.start (ix2 e q) idx 0 = (idx (ixP e)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    have key : ∀ X : Fin 2, X = 0 → ((ix2 e q : (⟨2, ![n, C]⟩ : Shape).Idx) X).val = e.val := by
      rintro _ rfl; rfl
    exact key _ (getElem_of_eq_singleton hus _ _)
  | ⟨1, _⟩ =>
    unfold ScatterDims.siIdx
    rw [dif_pos (by rw [hivd])]
    apply Fin.ext
    show List.idxOf (0 : Fin 2) d.scatterDimsToOperandDims = 0
    rw [hsd]; simp

/-- On the operand's column axis, which the scatter index does not name, every window starts at 0. -/
theorem rowScatter_start_col (hsd : d.scatterDimsToOperandDims = [0]) (idx : IVec ⟨2, ![n, 1]⟩ w)
    (j : (⟨2, ![n, C]⟩ : Shape).Idx) : d.start j idx 1 = 0 := by
  have hm : (1 : Fin 2) ∉ d.scatterDimsToOperandDims := by rw [hsd]; simp
  unfold ScatterDims.start
  rw [dif_neg hm]

/-- The row axis is inserted: the window coordinate on it is 0. -/
theorem rowScatter_window_row (hiw : d.insertedWindowDims = [0]) (j : (⟨2, ![n, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- The column axis is the one window axis: the window coordinate on it is the update element's column. -/
theorem rowScatter_window_col (huw : d.updateWindowDims = [1]) (hiw : d.insertedWindowDims = [0]) (e : Fin n) (q : Fin C) :
    d.window (ix2 e q) 1 = q.val := by
  have hk : (1 : Fin 2) ∈ d.sKept := by
    show (1 : Fin 2) ∈ Shape.kept _ d.insertedWindowDims
    rw [hiw]; simp [Shape.kept]
  unfold ScatterDims.window
  rw [dif_pos hk]
  have key : ∀ X : Fin 2, X = 1 → ((ix2 e q : (⟨2, ![n, C]⟩ : Shape).Idx) X).val = q.val := by
    rintro _ rfl; rfl
  exact key _ (getElem_of_eq_singleton huw _ _)

/-- WHERE A ROW UPDATE LANDS. A `stablehlo.scatter` into a rank-2 operand `[N × C]` of `[n × C]` updates at an `[n × 1]`
    column of scatter indices, whose row axis is inserted and scatter-indexed, whose column axis is the one window axis,
    with the index vector on axis 1: update element `(e, q)` lands on operand element `i` exactly when its scatter index
    `idx[e, 0]`, read SIGNED and NOT clamped, is `i`'s row, and `q` is `i`'s column. An index outside `[0, N)` lands
    nowhere. -/
theorem rowScatter_resultIdx?_eq_some_iff (huw : d.updateWindowDims = [1]) (hiw : d.insertedWindowDims = [0])
    (hsd : d.scatterDimsToOperandDims = [0]) (hivd : d.indexVectorDim = 1) (idx : IVec ⟨2, ![n, 1]⟩ w)
    (e : Fin n) (q : Fin C) (i : (⟨2, ![N, C]⟩ : Shape).Idx) :
    d.resultIdx? (ix2 e q) idx = some i ↔ (idx (ixP e)).toInt = ((i 0).val : ℤ) ∧ q = i 1 := by
  have h0 : d.start (ix2 e q) idx 0 + d.window (ix2 e q) 0 = (idx (ixP e)).toInt := by
    rw [rowScatter_start_row d huw hsd hivd, rowScatter_window_row d hiw]; simp
  have h1 : d.start (ix2 e q) idx 1 + d.window (ix2 e q) 1 = (q.val : ℤ) := by
    rw [rowScatter_start_col d hsd, rowScatter_window_col d huw hiw]; simp
  unfold ScatterDims.resultIdx?
  split
  · next h =>
    rw [Option.some.injEq]
    constructor
    · intro hi
      have e0 : (d.start (ix2 e q) idx 0 + d.window (ix2 e q) 0).toNat = (i 0).val := congrArg Fin.val (congrFun hi 0)
      have e1 : (d.start (ix2 e q) idx 1 + d.window (ix2 e q) 1).toNat = (i 1).val := congrArg Fin.val (congrFun hi 1)
      have p0 := (h 0).1
      rw [h0] at e0 p0
      rw [h1] at e1
      refine ⟨by omega, Fin.ext (by simpa using e1)⟩
    · rintro ⟨hi0, hq⟩
      funext a
      apply Fin.ext
      match a with
      | ⟨0, _⟩ =>
        show (d.start (ix2 e q) idx 0 + d.window (ix2 e q) 0).toNat = (i 0).val
        rw [h0, hi0]; simp
      | ⟨1, _⟩ =>
        show (d.start (ix2 e q) idx 1 + d.window (ix2 e q) 1).toNat = (i 1).val
        rw [h1, hq]; simp
  · next h =>
    constructor
    · intro hi; exact absurd hi (by simp)
    · rintro ⟨hi0, hq⟩
      exfalso
      apply h
      intro a
      match a with
      | ⟨0, _⟩ =>
        show 0 ≤ d.start (ix2 e q) idx 0 + d.window (ix2 e q) 0 ∧ d.start (ix2 e q) idx 0 + d.window (ix2 e q) 0 < (N : ℤ)
        rw [h0, hi0]
        exact ⟨by positivity, by exact_mod_cast idx2_lt0 i⟩
      | ⟨1, _⟩ =>
        show 0 ≤ d.start (ix2 e q) idx 1 + d.window (ix2 e q) 1 ∧ d.start (ix2 e q) idx 1 + d.window (ix2 e q) 1 < (C : ℤ)
        rw [h1]
        exact ⟨by positivity, by exact_mod_cast q.isLt⟩

/-- THE ACCUMULATING ROW SCATTER AT THE IDEAL INSTANCE. With those dimension numbers, element `(r, q)` of
    `x.at[idx].add(upd)` is `x[r, q]` plus the exact sum of `upd[e, q]` over the update rows `e` whose scatter index
    `idx[e, 0]`, read signed and not clamped, is `r`. -/
theorem rowScatterAdd_apply {φ : FTy} (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd (F := Ideal) d x idx upd (ix2 r q)
      = x (ix2 r q) + ∑ e ∈ Finset.univ.filter (fun e : Fin n => (idx (ixP e)).toInt = (r.val : ℤ)), upd (ix2 e q) := by
  have key : ∀ j : (⟨2, ![n, C]⟩ : Shape).Idx,
      d.resultIdx? j idx = some (ix2 r q) ↔ (idx (ixP (j 0))).toInt = (r.val : ℤ) ∧ j 1 = q := by
    intro j
    obtain ⟨a, b, rfl⟩ : ∃ a b, j = ix2 a b := ⟨j 0, j 1, eq_ix2 j⟩
    exact rowScatter_resultIdx?_eq_some_iff d huw hiw hsd hivd idx a b (ix2 r q)
  have hback : ∀ j : (⟨2, ![n, C]⟩ : Shape).Idx, j 1 = q → ix2 (j 0) q = j := fun j hq => by
    funext a
    match a with
    | ⟨0, _⟩ => rfl
    | ⟨1, _⟩ => exact hq.symm
  simp only [Host.scatterAdd, Ideal.hostScatterAdd_def, Ideal.hostScatterAdd]
  congr 1
  refine Finset.sum_bij' (fun j _ => j 0) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    exact hback j ((key j).1 (Finset.mem_filter.1 hj).2).2
  · intro e _
    rfl
  · intro j hj
    exact congrArg upd (hback j ((key j).1 (Finset.mem_filter.1 hj).2).2).symm

end RowScatter

/-! ## The scatter into a rank-1 operand -/

section VecScatter
variable {N n w : Nat} (d : ScatterDims ⟨1, ![N]⟩ ⟨2, ![n, 1]⟩ ⟨1, ![n]⟩)

/-- On the operand's one axis the window of update element `e` starts at the scatter index `idx[e, 0]`, read signed and
    not clamped. -/
theorem vecScatter_start (hsd : d.scatterDimsToOperandDims = [0]) (hivd : d.indexVectorDim = 1)
    (idx : IVec ⟨2, ![n, 1]⟩ w) (e : Fin n) : d.start (ix1 e) idx 0 = (idx (ixP e)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := fun X => by
      have hX : X = 0 := Subsingleton.elim _ _
      subst hX; rfl
    exact key _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: the window coordinate on it is 0. -/
theorem vecScatter_window (hiw : d.insertedWindowDims = [0]) (j : (⟨1, ![n]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- WHERE AN UPDATE LANDS, RANK 1. A `stablehlo.scatter` into a rank-1 operand `[N]` of `[n]` updates at an `[n × 1]`
    column of scatter indices, the operand's axis inserted and scatter-indexed, no window axes, the index vector on
    axis 1: update element `e` lands on operand element `i` exactly when its scatter index `idx[e, 0]`, read SIGNED and
    NOT clamped, is `i`'s position. An index outside `[0, N)` lands nowhere. -/
theorem vecScatter_resultIdx?_eq_some_iff (_huw : d.updateWindowDims = []) (hiw : d.insertedWindowDims = [0])
    (hsd : d.scatterDimsToOperandDims = [0]) (hivd : d.indexVectorDim = 1) (idx : IVec ⟨2, ![n, 1]⟩ w)
    (e : Fin n) (i : (⟨1, ![N]⟩ : Shape).Idx) :
    d.resultIdx? (ix1 e) idx = some i ↔ (idx (ixP e)).toInt = ((i 0).val : ℤ) := by
  have h0 : d.start (ix1 e) idx 0 + d.window (ix1 e) 0 = (idx (ixP e)).toInt := by
    rw [vecScatter_start d hsd hivd, vecScatter_window d hiw]; simp
  unfold ScatterDims.resultIdx?
  split
  · next h =>
    rw [Option.some.injEq]
    constructor
    · intro hi
      have e0 : (d.start (ix1 e) idx 0 + d.window (ix1 e) 0).toNat = (i 0).val := congrArg Fin.val (congrFun hi 0)
      have p0 := (h 0).1
      rw [h0] at e0 p0
      omega
    · intro hi0
      funext a
      apply Fin.ext
      match a with
      | ⟨0, _⟩ =>
        show (d.start (ix1 e) idx 0 + d.window (ix1 e) 0).toNat = (i 0).val
        rw [h0, hi0]; simp
  · next h =>
    constructor
    · intro hi; exact absurd hi (by simp)
    · intro hi0
      exfalso
      apply h
      intro a
      match a with
      | ⟨0, _⟩ =>
        show 0 ≤ d.start (ix1 e) idx 0 + d.window (ix1 e) 0 ∧ d.start (ix1 e) idx 0 + d.window (ix1 e) 0 < (N : ℤ)
        rw [h0, hi0]
        exact ⟨by positivity, by exact_mod_cast (i 0).isLt⟩

/-- THE ACCUMULATING SCATTER INTO A RANK-1 OPERAND AT THE IDEAL INSTANCE. With those dimension numbers, element `r` of
    `x.at[idx].add(upd)` is `x[r]` plus the exact sum of `upd[e]` over the update positions `e` whose scatter index
    `idx[e, 0]`, read signed and not clamped, is `r`. -/
theorem vecScatterAdd_apply {φ : FTy} (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (r : Fin N) :
    Host.scatterAdd (F := Ideal) d x idx upd (ix1 r)
      = x (ix1 r) + ∑ e ∈ Finset.univ.filter (fun e : Fin n => (idx (ixP e)).toInt = (r.val : ℤ)), upd (ix1 e) := by
  have key : ∀ j : (⟨1, ![n]⟩ : Shape).Idx,
      d.resultIdx? j idx = some (ix1 r) ↔ (idx (ixP (j 0))).toInt = (r.val : ℤ) := by
    intro j
    obtain ⟨a, rfl⟩ : ∃ a, j = ix1 a := ⟨j 0, eq_ix1 j⟩
    exact vecScatter_resultIdx?_eq_some_iff d huw hiw hsd hivd idx a (ix1 r)
  simp only [Host.scatterAdd, Ideal.hostScatterAdd_def, Ideal.hostScatterAdd]
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end VecScatter

/-! ## A start-index column: the vector it is broadcast from, and jnp's index normalisation -/

/-- The rank-1 index built from a coordinate is the library's `Shape.Idx.ofFin` of it (the form `gather_take` and the
    broadcast lemmas are stated with). -/
theorem ix1_eq_ofFin {n : Nat} (e : Fin n) : ix1 e = Shape.Idx.ofFin e := by
  funext a
  have ha : a = 0 := Subsingleton.elim _ _
  subst ha
  exact Fin.ext rfl

/-- A vector kept as an `[n × 1]` column reads, at row `e`, the vector at `e`. -/
theorem bcast_col1_ix1 {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ixP e) = v (ix1 e) := by
  rw [ix1_eq_ofFin]
  exact bcast_col1 h₁ v e

/-- jnp's index normalisation `where(v < 0, v + c, v)` read at one element: the select of the elements. The comparand and
    the addend are any vectors (in a program, broadcast scalar constants, which read their word everywhere). -/
theorem normIndex_apply {s : Shape} (V Z A : IVec s 32) (i : s.Idx) :
    select (cmpi .slt V Z) (addi V A) V i = Scalar.select (IntOp.cmpi .slt (V i) (Z i)) (IntOp.addi (V i) (A i)) (V i) := rfl

/-- A broadcast scalar constant reads its word at every index. -/
theorem bcast_constantI_apply {s₀ t : Shape} (dims : Fin s₀.rank → Fin t.rank) (h : s₀.BroadcastsInDim t dims)
    (b : BitVec 32) (j : t.Idx) : broadcastInDim t dims h (constantI s₀ 32 b) j = b := rfl

/-- A word whose signed value is a natural number is not below zero: the signed comparison with the zero word is the
    bit 0. -/
theorem cmpi_slt_zero_of_toInt_eq_natCast {v : BitVec 32} {r : Nat} (hv : v.toInt = (r : ℤ)) :
    IntOp.cmpi .slt v 0#32 = 0#1 := by
  have h0 : (0#32 : BitVec 32).toInt = 0 := by decide
  have hlt : v.slt 0#32 = false := by
    simp only [BitVec.slt, hv, h0, decide_eq_false_iff_not]; omega
  show BitVec.ofBool (v.slt 0#32) = 0#1
  rw [hlt]; rfl

/-- AN INDEX ALREADY IN RANGE IS NEITHER WRAPPED NOR CLAMPED. For a 32-bit index word `v` whose signed value is `r` with
    `r < N`: jnp's normalisation `select (v < 0) (v + c) v` (whatever the addend `c`; a program's is the extent) followed
    by the gather's signed read and clamp into `[0, N − 1]` gives `r`. -/
theorem normIndex_clamp_of_inRange (v c : BitVec 32) {N r : Nat} (hr : r < N) (hv : v.toInt = (r : ℤ)) :
    min (Scalar.select (IntOp.cmpi .slt v 0#32) (IntOp.addi v c) v).toInt.toNat (N - 1) = r := by
  rw [cmpi_slt_zero_of_toInt_eq_natCast hv, select_zero, hv]
  simp only [Int.toNat_natCast]
  omega

/-- The same at row `e` of the start-index column a gather reads: the column is the normalised index vector kept as
    `[n × 1]`; when the comparand reads the zero word at `e` and the index at `e` has signed value `r < N`, the start index
    read signed and clamped into `[0, N − 1]` is `r`. -/
theorem normIndexCol_clamp_of_inRange {n N r : Nat} (h₁ : (⟨1, ![n]⟩ : Shape).BroadcastsInDim ⟨2, ![n, 1]⟩ ![0])
    (V Z A : IVec ⟨1, ![n]⟩ 32) (e : Fin n) (hZ : Z (ix1 e) = 0#32) (hr : r < N) (hv : (V (ix1 e)).toInt = (r : ℤ)) :
    min (broadcastInDim ⟨2, ![n, 1]⟩ ![0] h₁ (select (cmpi .slt V Z) (addi V A) V) (ixP e)).toInt.toNat (N - 1) = r := by
  rw [bcast_col1_ix1, normIndex_apply, hZ]
  exact normIndex_clamp_of_inRange _ _ hr hv

end Cert.LibGatherScatter
-- ==== Proof.Math.Gather.lean ====
/-
  The host's row gathers and its accumulating row scatter read as the specification's `rowsOf` and `aggregate`,
  for an index vector whose entries are in range: entry `e` has the signed value `r e`, for a map `r` from the
  `n` edges to the `N` nodes.

  * the gather `table[idx]` after the index normalisation `where (v < 0, v + c, v)`: an entry in range is neither
    wrapped nor clamped, so row `e` of the result is row `r e` of the table;
  * the same gather under the fill mask `0 ≤ idx ≤ N − 1` reduced by `and` over the column's one entry: the mask
    reads 1 at every edge, so the select keeps the gathered row and never reads the fill array;
  * the accumulating scatter of the update rows into a table of zeros: node `a`'s row is the sum of the update
    rows `e` with `r e = a`.

  Every statement is generic in the extents and in the record of dimension numbers, whose fields are hypotheses.
-/
import proofs.«417395_j71579924955534_2_alg».proof.Proof.LibGatherScatter
import proofs.«417395_j71579924955534_2_alg».proof.Proof.Spec
import Idealize.ShloMosaic.Lib.StableHlo.Predicate
import Idealize.ShloMosaic.Lib.ValueIdx
import Idealize.ShloMosaic.PureOps.Ideal
import Idealize.ShloMosaic.PureOps.Ideal.Laws
import Idealize.ShloMosaic.PureOps.Reduce

open scoped BigOperators

namespace Cert.Spec

open Idealize.ShloMosaic Idealize.ShloMosaic.ValueIdx Idealize.ShloMosaic.StableHlo.Predicate Cert.LibGatherScatter

/-! ## Words and masks -/

/-- Every index of an `[n × 1]` column is `(e, 0)`. -/
theorem eq_ixP {n : ℕ} (j : (⟨2, ![n, 1]⟩ : Shape).Idx) : j = ixP (j 0) := by
  funext a
  match a with
  | ⟨0, _⟩ => rfl
  | ⟨1, _⟩ =>
    apply Fin.ext
    have h := idx2_lt1 j
    show (j 1).val = 0
    omega

/-- A word whose signed value is a natural number is at least zero: the signed comparison is the bit 1. -/
theorem cmpi_sge_zero_of_toInt_eq_natCast {v : BitVec 32} {r : ℕ} (hv : v.toInt = (r : ℤ)) :
    IntOp.cmpi .sge v 0#32 = 1#1 := by
  have h0 : (0#32 : BitVec 32).toInt = 0 := by decide
  have hle : (0#32 : BitVec 32).sle v = true :=
    BitVec.sle_iff_toInt_le.2 (by rw [h0, hv]; exact Int.natCast_nonneg r)
  show BitVec.ofBool ((0#32 : BitVec 32).sle v) = 1#1
  rw [hle]
  rfl

/-- A word whose signed value is at most another's: the signed comparison is the bit 1. -/
theorem cmpi_sle_of_toInt_le {v m : BitVec 32} (h : v.toInt ≤ m.toInt) : IntOp.cmpi .sle v m = 1#1 := by
  have hle : v.sle m = true := BitVec.sle_iff_toInt_le.2 h
  show BitVec.ofBool (v.sle m) = 1#1
  rw [hle]
  rfl

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) (f a) = 1#1 := by rw [hf a]; decide
    rw [List.foldl_cons, h11]
    exact foldl_andi_ones f hf l

/-- A reduction by `and`, from 1, of an array of 1s is 1 at every result index, whatever the reduced axes. -/
theorem reduce_andi_ones {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-! ## The index column -/

/-- THE NORMALISED INDEX COLUMN IN RANGE. The index vector after `where (v < 0, v + c, v)`, kept as an `[n × 1]`
    column, has at row `e` the signed value of the vector's entry `e` when that is a natural number. -/
theorem normIndexCol_toInt {n r : ℕ} (h₁ : (⟨1, ![n]⟩ : Shape).BroadcastsInDim ⟨2, ![n, 1]⟩ ![0])
    (V Z A : IVec ⟨1, ![n]⟩ 32) (e : Fin n) (hZ : Z (ix1 e) = 0#32) (hv : (V (ix1 e)).toInt = (r : ℤ)) :
    (broadcastInDim ⟨2, ![n, 1]⟩ ![0] h₁ (select (cmpi .slt V Z) (addi V A) V) (ixP e)).toInt = (r : ℤ) := by
  rw [bcast_col1_ix1, normIndex_apply, hZ, cmpi_slt_zero_of_toInt_eq_natCast hv, select_zero, hv]

/-- The index vector itself kept as an `[n × 1]` column. -/
theorem indexCol_toInt {n r : ℕ} (h₁ : (⟨1, ![n]⟩ : Shape).BroadcastsInDim ⟨2, ![n, 1]⟩ ![0])
    (V : IVec ⟨1, ![n]⟩ 32) (e : Fin n) (hv : (V (ix1 e)).toInt = (r : ℤ)) :
    (broadcastInDim ⟨2, ![n, 1]⟩ ![0] h₁ V (ixP e)).toInt = (r : ℤ) := by
  rw [bcast_col1_ix1, hv]

/-! ## The gather -/

/-- THE ROW GATHER AT INDICES IN RANGE: with a start-index column whose row `e` has the signed value `r e`, the
    gather is the rows of the table named by `r`. -/
theorem gather_eq_rowsOf {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : A2 N C) (I : IVec ⟨2, ![n, 1]⟩ w) (r : Fin n → Fin N)
    (hI : ∀ e, (I (ixP e)).toInt = ((r e).val : ℤ)) :
    Host.gather d x I = rowsOf x r := by
  funext j
  obtain ⟨e, q, rfl⟩ : ∃ e q, j = ix2 e q := ⟨j 0, j 1, eq_ix2 j⟩
  have hlt := (r e).isLt
  have hN : 0 < N := by omega
  rw [rowGather_apply d hoff hcoll hob hsb hsim hivd hss hN]
  refine congrArg (fun a => x (ix2 a q)) (Fin.ext ?_)
  show min (I (ixP e)).toInt.toNat (N - 1) = (r e).val
  rw [hI e, Int.toNat_natCast]
  omega

/-- THE REFERENCE'S GATHER `table[idx]`: the gather at the normalised index column. -/
theorem refGather_eq_rowsOf {N C n : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (h₁ : (⟨1, ![n]⟩ : Shape).BroadcastsInDim ⟨2, ![n, 1]⟩ ![0])
    (x : A2 N C) (V Z A : IVec ⟨1, ![n]⟩ 32) (r : Fin n → Fin N)
    (hZ : ∀ e, Z (ix1 e) = 0#32) (hV : ∀ e, (V (ix1 e)).toInt = ((r e).val : ℤ)) :
    Host.gather d x (broadcastInDim ⟨2, ![n, 1]⟩ ![0] h₁ (select (cmpi .slt V Z) (addi V A) V)) = rowsOf x r :=
  gather_eq_rowsOf d hoff hcoll hob hsb hsim hivd hss x _ r
    fun e => normIndexCol_toInt h₁ V Z A e (hZ e) (hV e)

/-! ## The fill mask -/

/-- THE FILL MASK IS 1 AT EVERY EDGE: `0 ≤ idx ≤ N − 1` at an index column in range, reduced by `and` from 1. -/
theorem takeMask_eq_one {N n : ℕ} {u : Shape} {axes : List (Fin 2)}
    (hr : (⟨2, ![n, 1]⟩ : Shape).ReducesTo axes ⟨1, ![n]⟩) (hS : 0 < u.numel)
    (I Z2 M2 : IVec ⟨2, ![n, 1]⟩ 32) (T : IVec u 1) (r : Fin n → Fin N)
    (hI : ∀ e, (I (ixP e)).toInt = ((r e).val : ℤ))
    (hZ2 : ∀ j, Z2 j = 0#32) (hM : ∀ j, (M2 j).toInt = (N : ℤ) - 1) (hT : ∀ j, T j = 1#1)
    (j : (⟨1, ![n]⟩ : Shape).Idx) :
    Host.reduce IntOp.andi (andi (cmpi .sge I Z2) (cmpi .sle I M2)) T hr hS j = 1#1 := by
  refine reduce_andi_ones _ _ hr hS (fun i => ?_) hT j
  obtain ⟨e, rfl⟩ : ∃ e, i = ixP e := ⟨i 0, eq_ixP i⟩
  have hlt := (r e).isLt
  have h1 : IntOp.cmpi .sge (I (ixP e)) (Z2 (ixP e)) = 1#1 := by
    rw [hZ2]
    exact cmpi_sge_zero_of_toInt_eq_natCast (hI e)
  have h2 : IntOp.cmpi .sle (I (ixP e)) (M2 (ixP e)) = 1#1 :=
    cmpi_sle_of_toInt_le (by rw [hI e, hM]; omega)
  show IntOp.andi (IntOp.cmpi .sge (I (ixP e)) (Z2 (ixP e))) (IntOp.cmpi .sle (I (ixP e)) (M2 (ixP e))) = 1#1
  rw [h1, h2]
  decide

/-- THE GATHER UNDER ITS FILL MASK: at an index column in range the select keeps the gathered rows. -/
theorem takeFillOf_eq_rowsOf {N C n : ℕ} {u : Shape} {axes : List (Fin 2)}
    (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (h₂ : (⟨1, ![n]⟩ : Shape).BroadcastsInDim ⟨2, ![n, C]⟩ ![0])
    (hr : (⟨2, ![n, 1]⟩ : Shape).ReducesTo axes ⟨1, ![n]⟩) (hS : 0 < u.numel)
    (x : A2 N C) (I Z2 M2 : IVec ⟨2, ![n, 1]⟩ 32) (T : IVec u 1) (NaNs : A2 n C) (r : Fin n → Fin N)
    (hI : ∀ e, (I (ixP e)).toInt = ((r e).val : ℤ))
    (hZ2 : ∀ j, Z2 j = 0#32) (hM : ∀ j, (M2 j).toInt = (N : ℤ) - 1) (hT : ∀ j, T j = 1#1) :
    select (broadcastInDim ⟨2, ![n, C]⟩ ![0] h₂
        (Host.reduce IntOp.andi (andi (cmpi .sge I Z2) (cmpi .sle I M2)) T hr hS))
      (Host.gather d x I) NaNs = rowsOf x r := by
  rw [← gather_eq_rowsOf d hoff hcoll hob hsb hsim hivd hss x I r hI]
  funext j
  have hm : broadcastInDim ⟨2, ![n, C]⟩ ![0] h₂
      (Host.reduce IntOp.andi (andi (cmpi .sge I Z2) (cmpi .sle I M2)) T hr hS) j = 1#1 :=
    takeMask_eq_one hr hS I Z2 M2 T r hI hZ2 hM hT _
  show Scalar.select (broadcastInDim ⟨2, ![n, C]⟩ ![0] h₂
      (Host.reduce IntOp.andi (andi (cmpi .sge I Z2) (cmpi .sle I M2)) T hr hS) j) (Host.gather d x I j) (NaNs j)
    = Host.gather d x I j
  rw [hm, select_one]

/-- THE KERNEL'S `jnp.take` IN FILL MODE: the gather at the normalised index column under its fill mask. -/
theorem takeFill_eq_rowsOf {N C n : ℕ} {u : Shape} {axes : List (Fin 2)}
    (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (h₁ : (⟨1, ![n]⟩ : Shape).BroadcastsInDim ⟨2, ![n, 1]⟩ ![0])
    (h₂ : (⟨1, ![n]⟩ : Shape).BroadcastsInDim ⟨2, ![n, C]⟩ ![0])
    (hr : (⟨2, ![n, 1]⟩ : Shape).ReducesTo axes ⟨1, ![n]⟩) (hS : 0 < u.numel)
    (x : A2 N C) (V Z A : IVec ⟨1, ![n]⟩ 32) (Z2 M2 : IVec ⟨2, ![n, 1]⟩ 32) (T : IVec u 1) (NaNs : A2 n C)
    (r : Fin n → Fin N)
    (hZ : ∀ e, Z (ix1 e) = 0#32) (hV : ∀ e, (V (ix1 e)).toInt = ((r e).val : ℤ))
    (hZ2 : ∀ j, Z2 j = 0#32) (hM : ∀ j, (M2 j).toInt = (N : ℤ) - 1) (hT : ∀ j, T j = 1#1) :
    select (broadcastInDim ⟨2, ![n, C]⟩ ![0] h₂
        (Host.reduce IntOp.andi
          (andi (cmpi .sge (broadcastInDim ⟨2, ![n, 1]⟩ ![0] h₁ (select (cmpi .slt V Z) (addi V A) V)) Z2)
            (cmpi .sle (broadcastInDim ⟨2, ![n, 1]⟩ ![0] h₁ (select (cmpi .slt V Z) (addi V A) V)) M2)) T hr hS))
      (Host.gather d x (broadcastInDim ⟨2, ![n, 1]⟩ ![0] h₁ (select (cmpi .slt V Z) (addi V A) V))) NaNs
      = rowsOf x r :=
  takeFillOf_eq_rowsOf d hoff hcoll hob hsb hsim hivd hss h₂ hr hS x _ Z2 M2 T NaNs r
    (fun e => normIndexCol_toInt h₁ V Z A e (hZ e) (hV e)) hZ2 hM hT

/-! ## The scatter-add -/

/-- THE SEGMENT SUM: the accumulating row scatter of the update rows into a table of zeros, at the index vector
    kept as a column, is the specification's `aggregate`. -/
theorem scatterAdd_eq_aggregate {N n : ℕ} (d : ScatterDims ⟨2, ![N, 64]⟩ ⟨2, ![n, 1]⟩ ⟨2, ![n, 64]⟩)
    (huw : d.updateWindowDims = [1]) (hiw : d.insertedWindowDims = [0])
    (hsd : d.scatterDimsToOperandDims = [0]) (hivd : d.indexVectorDim = 1)
    (hb : (⟨0, ![]⟩ : Shape).BroadcastsInDim ⟨2, ![N, 64]⟩ ![])
    (h₁ : (⟨1, ![n]⟩ : Shape).BroadcastsInDim ⟨2, ![n, 1]⟩ ![0])
    (V : IVec ⟨1, ![n]⟩ 32) (upd : A2 n 64) (r : Fin n → Fin N)
    (hV : ∀ e, (V (ix1 e)).toInt = ((r e).val : ℤ)) :
    Host.scatterAdd (F := Ideal) (φ := .f32) d
        (broadcastInDim ⟨2, ![N, 64]⟩ ![] hb (constant (F := Ideal) ⟨0, ![]⟩ .f32 0x00000000#32))
        (broadcastInDim ⟨2, ![n, 1]⟩ ![0] h₁ V) upd
      = aggregate upd r := by
  funext j
  obtain ⟨a, q, rfl⟩ : ∃ a q, j = ix2 a q := ⟨j 0, j 1, eq_ix2 j⟩
  rw [rowScatterAdd_apply d huw hiw hsd hivd]
  show Ideal.ofBits .f32 0x00000000#32
      + ∑ e ∈ Finset.univ.filter (fun e : Fin n =>
          (broadcastInDim ⟨2, ![n, 1]⟩ ![0] h₁ V (ixP e)).toInt = (a.val : ℤ)), upd (ix2 e q)
    = ∑ e ∈ Finset.univ.filter (fun e : Fin n => r e = a), upd (ix2 e q)
  rw [Ideal.ofBits_zero_f32, zero_add]
  refine Finset.sum_congr (Finset.filter_congr fun e _ => ?_) fun _ _ => rfl
  rw [indexCol_toInt h₁ V e (hV e)]
  constructor
  · intro h
    exact Fin.ext (by exact_mod_cast h)
  · rintro rfl
    rfl

end Cert.Spec
-- ==== Proof.Ref.ReadNet.lean ====
/-
  The reference's value is the specified network: each layer's stages composed are the specification's layer, the
  three layers at their parameter slices and the output head composed are the specification's network.
-/
import proofs.«417395_j71579924955534_2_alg».proof.Proof.Ref.ReadDense
import proofs.«417395_j71579924955534_2_alg».proof.Proof.Ref.ReadAttn
import proofs.«417395_j71579924955534_2_alg».proof.Proof.Ref.ReadNorm
import proofs.«417395_j71579924955534_2_alg».proof.Proof.EdgeIdx
import proofs.«417395_j71579924955534_2_alg».proof.Proof.Math.Gather

noncomputable section

namespace Cert.ReferenceIdeal.HandV

open Cert.ReferenceIdeal Cert.ReferenceIdeal.Hand Cert.Spec
open Idealize.ShloMosaic Idealize.ShloMosaic.ValueIdx
open Cert.ReferenceIdeal.Facts₀ Cert.ReferenceIdeal.Facts

variable [Facts]

/-! ## The edge list -/

/-- Rows 0 and 1 of the edge array at edge e. -/
theorem rowsR_at (ei : ((⟨S2x1250000, .i32⟩ : BufTy).Contents (Elt Ideal))) (e : Fin 1250000) : rowsR (F := Ideal) ei (ix1 e) = ei (ix2 (0 : Fin 2) e) :=
  sel2_at 0 (by decide) ei _ _ e
theorem colsR_at (ei : ((⟨S2x1250000, .i32⟩ : BufTy).Contents (Elt Ideal))) (e : Fin 1250000) : colsR (F := Ideal) ei (ix1 e) = ei (ix2 (1 : Fin 2) e) :=
  sel2_at 1 (by decide) ei _ _ e

/-- The rows of a node array gathered at the edges' targets / sources are the rows the edge maps name. -/
theorem gather_rows (ei : ((⟨S2x1250000, .i32⟩ : BufTy).Contents (Elt Ideal))) (hin : InRange 100000 ei) (hl : ((⟨S100000x64, .f32⟩ : BufTy).Contents (Elt Ideal))) :
    gatherR (F := Ideal) hl (normIdxR (rowsR ei)) = rowsOf hl (endF ei hin 0) :=
  refGather_eq_rowsOf gather_S100000x64_S1250000x1_S1250000x64_1_0_n_n_0_1_164 rfl rfl rfl rfl rfl rfl rfl
    bcast_S1250000_S1250000x1_0 hl (rowsR ei) _ _ (endF ei hin 0) (fun _ => rfl)
    (fun e => by rw [rowsR_at]; exact endF_spec ei hin 0 e)
theorem gather_cols (ei : ((⟨S2x1250000, .i32⟩ : BufTy).Contents (Elt Ideal))) (hin : InRange 100000 ei) (hl : ((⟨S100000x64, .f32⟩ : BufTy).Contents (Elt Ideal))) :
    gatherR (F := Ideal) hl (normIdxR (colsR ei)) = rowsOf hl (endF ei hin 1) :=
  refGather_eq_rowsOf gather_S100000x64_S1250000x1_S1250000x64_1_0_n_n_0_1_164 rfl rfl rfl rfl rfl rfl rfl
    bcast_S1250000_S1250000x1_0 hl (colsR ei) _ _ (endF ei hin 1) (fun _ => rfl)
    (fun e => by rw [colsR_at]; exact endF_spec ei hin 1 e)

/-- The messages scattered into their target nodes are the specification's aggregate. -/
theorem agg_rows (ei : ((⟨S2x1250000, .i32⟩ : BufTy).Contents (Elt Ideal))) (hin : InRange 100000 ei) (msg : ((⟨S1250000x64, .f32⟩ : BufTy).Contents (Elt Ideal))) :
    aggR (F := Ideal) msg (rowsR ei) = aggregate msg (endF ei hin 0) :=
  scatterAdd_eq_aggregate scatter_S100000x64_S1250000x1_S1250000x64_1_0_0_1 rfl rfl rfl rfl
    bcast_S_S100000x64 bcast_S1250000_S1250000x1_0 (rowsR ei) msg (endF ei hin 0)
    (fun e => by rw [rowsR_at]; exact endF_spec ei hin 0 e)

/-- ONE LAYER: the stages composed are the specification's layer at the two edge maps. -/
theorem layerR_eq (ei : ((⟨S2x1250000, .i32⟩ : BufTy).Contents (Elt Ideal))) (hin : InRange 100000 ei)
    (h : ((⟨S100000x64, .f32⟩ : BufTy).Contents (Elt Ideal))) (ew : ((⟨S1250000, .f32⟩ : BufTy).Contents (Elt Ideal))) (lw : ((⟨S64x64, .f32⟩ : BufTy).Contents (Elt Ideal))) (lb : ((⟨S64, .f32⟩ : BufTy).Contents (Elt Ideal)))
    (aw : ((⟨S128x1, .f32⟩ : BufTy).Contents (Elt Ideal))) (ab : ((⟨S1, .f32⟩ : BufTy).Contents (Elt Ideal))) (g b : ((⟨S64, .f32⟩ : BufTy).Contents (Elt Ideal))) :
    layerR (F := Ideal) h (rowsR ei) (colsR ei) ew lw lb aw ab g b
      = layer (endF ei hin 0) (endF ei hin 1) ew h lw lb aw ab g b := by
  unfold layerR newR edgeScoreR
  rw [hlR_eq, gather_rows ei hin, gather_cols ei hin, scoreR_eq, msg_eq, agg_rows ei hin, finalize_eq]
  rfl

/-- THE REFERENCE'S VALUE IS THE SPECIFIED NETWORK at the two edge maps. -/
theorem refVal_eq (x : ((⟨S100000x12, .f32⟩ : BufTy).Contents (Elt Ideal))) (ei : ((⟨S2x1250000, .i32⟩ : BufTy).Contents (Elt Ideal))) (ew : ((⟨S1250000, .f32⟩ : BufTy).Contents (Elt Ideal))) (inW : ((⟨S12x64, .f32⟩ : BufTy).Contents (Elt Ideal))) (inb : ((⟨S64, .f32⟩ : BufTy).Contents (Elt Ideal)))
    (linW : ((⟨S3x64x64, .f32⟩ : BufTy).Contents (Elt Ideal))) (linb : ((⟨S3x64, .f32⟩ : BufTy).Contents (Elt Ideal))) (attW : ((⟨S3x128x1, .f32⟩ : BufTy).Contents (Elt Ideal))) (attb : ((⟨S3x1, .f32⟩ : BufTy).Contents (Elt Ideal)))
    (lng lnb : ((⟨S3x64, .f32⟩ : BufTy).Contents (Elt Ideal))) (o1W : ((⟨S64x32, .f32⟩ : BufTy).Contents (Elt Ideal))) (o1b : ((⟨S32, .f32⟩ : BufTy).Contents (Elt Ideal))) (o2W : ((⟨S32x1, .f32⟩ : BufTy).Contents (Elt Ideal))) (o2b : ((⟨S1, .f32⟩ : BufTy).Contents (Elt Ideal)))
    (hin : InRange 100000 ei) :
    refVal (F := Ideal) x ei ew inW inb linW linb attW attb lng lnb o1W o1b o2W o2b
      = network (endF ei hin 0) (endF ei hin 1) x ew inW inb linW linb attW attb lng lnb o1W o1b o2W o2b := by
  unfold refVal
  rw [headR_eq, layerR_eq ei hin, layerR_eq ei hin, layerR_eq ei hin, dense0R_eq,
    selW0_eq, selW1_eq, selW2_eq, selAW0_eq, selAW1_eq, selAW2_eq, selAb0_eq, selAb1_eq, selAb2_eq]
  simp only [selB0_eq, selB1_eq, selB2_eq]
  rfl

end Cert.ReferenceIdeal.HandV

end
-- ==== Proof.KI.V0.lean ====
/- The value of the dense call cc0__dense_kernel at the extended reals: the array its pipeline leaves is, index by
   index, the rows array times the weight plus the bias row. The payload at an index (the product's operand indices
   axis by axis, the contraction re-indexed by its one coordinate, the bias row broadcast along the rows), each
   window's block as a part of its array, what a point writes back, the cover (row r lies in block r / 5000). -/
import proofs.«417395_j71579924955534_2_alg».proof.Proof.KI.R0
import proofs.«417395_j71579924955534_2_alg».proof.Proof.Spec
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The product's operand indices, axis by axis -/

theorem lhs0_0 (i : S5000x64.Idx) (q : dot_S5000x12_S12x64_S5000x64_1_0_0_1_n_n.contr.Idx) :
    (dot_S5000x12_S12x64_S5000x64_1_0_0_1_n_n.lhsIdx i q 0).val = (i 0).val := by
  unfold DotDims.lhsIdx
  rw [dif_neg (show ¬(0 : Fin S5000x12.rank) ∈ dot_S5000x12_S12x64_S5000x64_1_0_0_1_n_n.lhsBatch by decide),
    dif_pos (show (0 : Fin S5000x12.rank) ∈ dot_S5000x12_S12x64_S5000x64_1_0_0_1_n_n.lhsNonContracting by decide)]
  rfl
theorem lhs0_1 (i : S5000x64.Idx) (q : dot_S5000x12_S12x64_S5000x64_1_0_0_1_n_n.contr.Idx) :
    (dot_S5000x12_S12x64_S5000x64_1_0_0_1_n_n.lhsIdx i q 1).val = (q ⟨0, by decide⟩).val :=
  dot_S5000x12_S12x64_S5000x64_1_0_0_1_n_n.lhsIdx_val_of_single rfl i q
theorem rhs0_0 (i : S5000x64.Idx) (q : dot_S5000x12_S12x64_S5000x64_1_0_0_1_n_n.contr.Idx) :
    (dot_S5000x12_S12x64_S5000x64_1_0_0_1_n_n.rhsIdx i q 0).val = (q ⟨0, by decide⟩).val :=
  dot_S5000x12_S12x64_S5000x64_1_0_0_1_n_n.rhsIdx_val_of_single rfl i q
theorem rhs0_1 (i : S5000x64.Idx) (q : dot_S5000x12_S12x64_S5000x64_1_0_0_1_n_n.contr.Idx) :
    (dot_S5000x12_S12x64_S5000x64_1_0_0_1_n_n.rhsIdx i q 1).val = (i 1).val := by
  unfold DotDims.rhsIdx
  rw [dif_neg (show ¬(1 : Fin S12x64.rank) ∈ dot_S5000x12_S12x64_S5000x64_1_0_0_1_n_n.rhsBatch by decide),
    dif_pos (show (1 : Fin S12x64.rank) ∈ dot_S5000x12_S12x64_S5000x64_1_0_0_1_n_n.rhsNonContracting by decide)]
  rfl

/-! ## The payload at an index -/

/-- The body's payload at row p, column q of the block: the row of the first block against the column of the
    weight, plus the bias at the column. -/
theorem pay0_apply (x0 : Vec Ideal S5000x12 .f32) (x1 : Vec Ideal S12x64 .f32) (x2 : Vec Ideal S1x64 .f32) (p : Fin 5000) (q : Fin 64) :
    k0_pay1 x0 x1 x2 (ix2 p q) = (∑ k : Fin 12, x0 (ix2 p k) * x1 (ix2 k q)) + x2 (ix2 (0 : Fin 1) q) := by
  unfold k0_pay1
  simp only [shapeCast_self]
  rw [addf_apply]
  refine congrArg₂ (· + ·) ((Ideal.matmul_constant_zero_apply _ none _ _ _).trans ?_) ?_
  · rw [← Equiv.sum_comp (contrEquiv1 dot_S5000x12_S12x64_S5000x64_1_0_0_1_n_n 12 rfl rfl).symm]
    refine Finset.sum_congr rfl fun k _ => ?_
    have hk := contrEquiv1_symm_val dot_S5000x12_S12x64_S5000x64_1_0_0_1_n_n 12 rfl rfl k
    have el : dot_S5000x12_S12x64_S5000x64_1_0_0_1_n_n.lhsIdx (ix2 p q) ((contrEquiv1 dot_S5000x12_S12x64_S5000x64_1_0_0_1_n_n 12 rfl rfl).symm k) = ix2 p k :=
      funext fun a => Fin.ext (by
        match a with
        | ⟨0, _⟩ => exact lhs0_0 _ _
        | ⟨1, _⟩ => exact (lhs0_1 _ _).trans hk)
    have er : dot_S5000x12_S12x64_S5000x64_1_0_0_1_n_n.rhsIdx (ix2 p q) ((contrEquiv1 dot_S5000x12_S12x64_S5000x64_1_0_0_1_n_n 12 rfl rfl).symm k) = ix2 k q :=
      funext fun a => Fin.ext (by
        match a with
        | ⟨0, _⟩ => exact (rhs0_0 _ _).trans hk
        | ⟨1, _⟩ => exact rhs0_1 _ _)
    rw [el, er]
    rfl
  · exact broadcastTo_apply x2 _ (ix2 p q) (ix2 (0 : Fin 1) q) (fun a => by
      match a with
      | ⟨0, _⟩ => rfl
      | ⟨1, _⟩ => rfl)

/-! ## From the blocks to the array -/

theorem hz0 : (![0, 0] : Fin 2 → Nat) = fun _ => 0 := funext fun a => by fin_cases a <;> rfl

theorem N0 : cfg0.N = 20 := N_0

/-- The printed index maps over the grid: the rows window and the output window sit at block (t, 0); the weight and
    the bias stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arrays the region reads, at their literal shapes. -/
abbrev arr0_0 (c : Dev nD) : S100000x12.Idx → EReal := V c (Pipeline.arrRef spec0 0)
abbrev arr0_1 (c : Dev nD) : S12x64.Idx → EReal := V c (Pipeline.arrRef spec0 1)
abbrev arr0_2 (c : Dev nD) : S1x64.Idx → EReal := V c (Pipeline.arrRef spec0 2)

/-- Row p of block t, as a row of the whole array. -/
def rowAt0 (t : Fin cfg0.N) (p : Fin 5000) : Fin 100000 :=
  ⟨t.val * 5000 + p.val, by have h : t.val < 20 := lt_of_lt_of_eq t.isLt N0; have := p.isLt; omega⟩

/-- The rows block at point t is rows 5000 t … 5000 t + 4999 of the rows array. -/
theorem iblk0_0_apply (c : Dev nD) (t : Fin cfg0.N) (p : Fin 5000) (k : Fin 12) :
    (iblk0 V c 0 t : Vec Ideal S5000x12 .f32) (ix2 p k) = arr0_0 V c (ix2 (rowAt0 t p) k) := by
  obtain ⟨e00, e01, -⟩ := idx_facts0 t
  unfold iblk0
  rw [View.read_apply]
  have h : ((cfg0.win 0).blk t).view.emb (ix2 p k) = (ix2 (rowAt0 t p) k : S100000x12.Idx) := by
    funext a; apply Fin.ext
    match a with
    | ⟨0, _⟩ => show win0_0.index t (0 : Fin 2) * 5000 + 1 * p.val = t.val * 5000 + p.val; rw [e00]; omega
    | ⟨1, _⟩ => show win0_0.index t (1 : Fin 2) * 12 + 1 * k.val = k.val; rw [e01]; omega
  rw [h]
  rfl

/-- The weight block is the weight array. -/
theorem iblk0_1_apply (c : Dev nD) (t : Fin cfg0.N) (k : Fin 12) (q : Fin 64) :
    (iblk0 V c 1 t : Vec Ideal S12x64 .f32) (ix2 k q) = arr0_1 V c (ix2 k q) := by
  obtain ⟨-, -, e10, e11, -⟩ := idx_facts0 t
  unfold iblk0
  rw [View.read_apply]
  have h : ((cfg0.win 1).blk t).view.emb (ix2 k q) = (ix2 k q : S12x64.Idx) := by
    funext a; apply Fin.ext
    match a with
    | ⟨0, _⟩ => show win0_1.index t (0 : Fin 2) * 12 + 1 * k.val = k.val; rw [e10]; omega
    | ⟨1, _⟩ => show win0_1.index t (1 : Fin 2) * 64 + 1 * q.val = q.val; rw [e11]; omega
  rw [h]
  rfl

/-- The bias block is the bias row. -/
theorem iblk0_2_apply (c : Dev nD) (t : Fin cfg0.N) (q : Fin 64) :
    (iblk0 V c 2 t : Vec Ideal S1x64 .f32) (ix2 (0 : Fin 1) q) = arr0_2 V c (ix2 (0 : Fin 1) q) := by
  obtain ⟨-, -, -, -, e20, e21, -⟩ := idx_facts0 t
  unfold iblk0
  rw [View.read_apply]
  have h : ((cfg0.win 2).blk t).view.emb (ix2 (0 : Fin 1) q) = (ix2 (0 : Fin 1) q : S1x64.Idx) := by
    funext a; apply Fin.ext
    match a with
    | ⟨0, _⟩ => show win0_2.index t (0 : Fin 2) * 1 + 1 * (0 : Fin 1).val = (0 : Fin 1).val; rw [e20]; rfl
    | ⟨1, _⟩ => show win0_2.index t (1 : Fin 2) * 64 + 1 * q.val = q.val; rw [e21]; omega
  rw [h]
  rfl

/-- Where the output window's block at point t puts its row p, column q. -/
theorem emb0_3 (t : Fin cfg0.N) (p : Fin 5000) (q : Fin 64) :
    ((cfg0.win 3).blk t).view.emb (ix2 p q) = (ix2 (rowAt0 t p) q : S100000x64.Idx) := by
  obtain ⟨-, -, -, -, -, -, e30, e31⟩ := idx_facts0 t
  funext a; apply Fin.ext
  match a with
  | ⟨0, _⟩ => show win0_3.index t (0 : Fin 2) * 5000 + 1 * p.val = t.val * 5000 + p.val; rw [e30]; omega
  | ⟨1, _⟩ => show win0_3.index t (1 : Fin 2) * 64 + 1 * q.val = q.val; rw [e31]; omega

/-- The array the region leaves, as one function of the three arrays it reads. -/
abbrev G0 (c : Dev nD) : S100000x64.Idx → EReal :=
  Spec.dense (arr0_0 V c) (arr0_1 V c) (fun j => arr0_2 V c (ix2 (0 : Fin 1) (Spec.d0 j)))

/-- What point t writes back is block t of G0. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S5000x12) hz0, View.ld_unit_zero (S := S12x64) hz0, View.ld_unit_zero (S := S1x64) hz0]
  funext y
  obtain ⟨p, q, rfl⟩ : ∃ (p : Fin 5000) (q : Fin 64), y = ix2 p q := ⟨y 0, y 1, eq_ix2 y⟩
  refine (pay0_apply _ _ _ p q).trans ?_
  rw [View.read_apply, emb0_3]
  show _ = (∑ k : Fin 12, arr0_0 V c (ix2 (rowAt0 t p) k) * arr0_1 V c (ix2 k q)) + arr0_2 V c (ix2 (0 : Fin 1) q)
  exact congrArg₂ (· + ·) (Finset.sum_congr rfl fun k _ => congrArg₂ (· * ·) (iblk0_0_apply V c t p k) (iblk0_1_apply V c t k q)) (iblk0_2_apply V c t q)

/-- An index of the array is in point t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v6).slice (win0_3.rect t)).set ↔ _
  rw [View.set_slice_whole, Rect.mem_set_unit]
  exact Iff.rfl

/-- Row r of the array lies in the block of point r / 5000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := by rw [N0]; omega
  obtain ⟨-, -, -, -, -, -, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e31]; omega

/-- The array the pipeline leaves is the dense map of the three arrays it reads. -/
theorem value0 (c : Dev nD) : (dat0 (F := Ideal) V c).arrAt 3 cfg0.N
    = Spec.dense (V c (Pipeline.arrRef spec0 0)) (V c (Pipeline.arrRef spec0 1)) (fun j => V c (Pipeline.arrRef spec0 2) (ix2 (0 : Fin 1) (Spec.d0 j))) :=
  (dat0 V c).arrAt_eq_of_cover 3 (G0 V c) (fun t _ => flushed0_eq V c t) (cover0)

end Cert.KernelIdeal.HandV

end
-- ==== Proof.KI.V13.lean ====
/- The value of the dense call cc13__dense_kernel at the extended reals: the array its pipeline leaves is, index by
   index, the rows array times the weight plus the bias row, then the larger of that and zero. The payload at an index (the product's operand indices
   axis by axis, the contraction re-indexed by its one coordinate, the bias row broadcast along the rows), each
   window's block as a part of its array, what a point writes back, the cover (row r lies in block r / 5000). -/
import proofs.«417395_j71579924955534_2_alg».proof.Proof.KI.R13
import proofs.«417395_j71579924955534_2_alg».proof.Proof.Spec
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The product's operand indices, axis by axis -/

theorem lhs13_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
theorem lhs13_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs13_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs13_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-! ## The payload at an index -/

/-- The body's payload at row p, column q of the block: the row of the first block against the column of the
    weight, plus the bias at the column, the larger of that and zero. -/
theorem pay13_apply (x0 : Vec Ideal S5000x64 .f32) (x1 : Vec Ideal S64x32 .f32) (x2 : Vec Ideal S1x32 .f32) (p : Fin 5000) (q : Fin 32) :
    k13_pay1 x0 x1 x2 (ix2 p q) = max ((∑ k : Fin 64, x0 (ix2 p k) * x1 (ix2 k q)) + x2 (ix2 (0 : Fin 1) q)) 0 := by
  unfold k13_pay1
  simp only [shapeCast_self]
  rw [maximumf_apply, broadcast_apply]
  refine congrArg₂ max ?_ Ideal.ofBits_zero_f32
  rw [addf_apply]
  refine congrArg₂ (· + ·) ((Ideal.matmul_constant_zero_apply _ none _ _ _).trans ?_) ?_
  · rw [← Equiv.sum_comp (contrEquiv1 dot_S5000x64_S64x32_S5000x32_1_0_0_1_n_n 64 rfl rfl).symm]
    refine Finset.sum_congr rfl fun k _ => ?_
    have hk := contrEquiv1_symm_val dot_S5000x64_S64x32_S5000x32_1_0_0_1_n_n 64 rfl rfl k
    have el : dot_S5000x64_S64x32_S5000x32_1_0_0_1_n_n.lhsIdx (ix2 p q) ((contrEquiv1 dot_S5000x64_S64x32_S5000x32_1_0_0_1_n_n 64 rfl rfl).symm k) = ix2 p k :=
      funext fun a => Fin.ext (by
        match a with
        | ⟨0, _⟩ => exact lhs13_0 _ _
        | ⟨1, _⟩ => exact (lhs13_1 _ _).trans hk)
    have er : dot_S5000x64_S64x32_S5000x32_1_0_0_1_n_n.rhsIdx (ix2 p q) ((contrEquiv1 dot_S5000x64_S64x32_S5000x32_1_0_0_1_n_n 64 rfl rfl).symm k) = ix2 k q :=
      funext fun a => Fin.ext (by
        match a with
        | ⟨0, _⟩ => exact (rhs13_0 _ _).trans hk
        | ⟨1, _⟩ => exact rhs13_1 _ _)
    rw [el, er]
    rfl
  · exact broadcastTo_apply x2 _ (ix2 p q) (ix2 (0 : Fin 1) q) (fun a => by
      match a with
      | ⟨0, _⟩ => rfl
      | ⟨1, _⟩ => rfl)

/-! ## From the blocks to the array -/

theorem hz13 : (![0, 0] : Fin 2 → Nat) = fun _ => 0 := funext fun a => by fin_cases a <;> rfl

theorem N13 : cfg13.N = 20 := N_13

/-- The printed index maps over the grid: the rows window and the output window sit at block (t, 0); the weight and
    the bias stay at block (0, 0). -/
theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- The three arrays the region reads, at their literal shapes. -/
abbrev arr13_0 (c : Dev nD) : S100000x64.Idx → EReal := V c (Pipeline.arrRef spec13 0)
abbrev arr13_1 (c : Dev nD) : S64x32.Idx → EReal := V c (Pipeline.arrRef spec13 1)
abbrev arr13_2 (c : Dev nD) : S1x32.Idx → EReal := V c (Pipeline.arrRef spec13 2)

/-- Row p of block t, as a row of the whole array. -/
def rowAt13 (t : Fin cfg13.N) (p : Fin 5000) : Fin 100000 :=
  ⟨t.val * 5000 + p.val, by have h : t.val < 20 := lt_of_lt_of_eq t.isLt N13; have := p.isLt; omega⟩

/-- The rows block at point t is rows 5000 t … 5000 t + 4999 of the rows array. -/
theorem iblk13_0_apply (c : Dev nD) (t : Fin cfg13.N) (p : Fin 5000) (k : Fin 64) :
    (iblk13 V c 0 t : Vec Ideal S5000x64 .f32) (ix2 p k) = arr13_0 V c (ix2 (rowAt13 t p) k) := by
  obtain ⟨e00, e01, -⟩ := idx_facts13 t
  unfold iblk13
  rw [View.read_apply]
  have h : ((cfg13.win 0).blk t).view.emb (ix2 p k) = (ix2 (rowAt13 t p) k : S100000x64.Idx) := by
    funext a; apply Fin.ext
    match a with
    | ⟨0, _⟩ => show win13_0.index t (0 : Fin 2) * 5000 + 1 * p.val = t.val * 5000 + p.val; rw [e00]; omega
    | ⟨1, _⟩ => show win13_0.index t (1 : Fin 2) * 64 + 1 * k.val = k.val; rw [e01]; omega
  rw [h]
  rfl

/-- The weight block is the weight array. -/
theorem iblk13_1_apply (c : Dev nD) (t : Fin cfg13.N) (k : Fin 64) (q : Fin 32) :
    (iblk13 V c 1 t : Vec Ideal S64x32 .f32) (ix2 k q) = arr13_1 V c (ix2 k q) := by
  obtain ⟨-, -, e10, e11, -⟩ := idx_facts13 t
  unfold iblk13
  rw [View.read_apply]
  have h : ((cfg13.win 1).blk t).view.emb (ix2 k q) = (ix2 k q : S64x32.Idx) := by
    funext a; apply Fin.ext
    match a with
    | ⟨0, _⟩ => show win13_1.index t (0 : Fin 2) * 64 + 1 * k.val = k.val; rw [e10]; omega
    | ⟨1, _⟩ => show win13_1.index t (1 : Fin 2) * 32 + 1 * q.val = q.val; rw [e11]; omega
  rw [h]
  rfl

/-- The bias block is the bias row. -/
theorem iblk13_2_apply (c : Dev nD) (t : Fin cfg13.N) (q : Fin 32) :
    (iblk13 V c 2 t : Vec Ideal S1x32 .f32) (ix2 (0 : Fin 1) q) = arr13_2 V c (ix2 (0 : Fin 1) q) := by
  obtain ⟨-, -, -, -, e20, e21, -⟩ := idx_facts13 t
  unfold iblk13
  rw [View.read_apply]
  have h : ((cfg13.win 2).blk t).view.emb (ix2 (0 : Fin 1) q) = (ix2 (0 : Fin 1) q : S1x32.Idx) := by
    funext a; apply Fin.ext
    match a with
    | ⟨0, _⟩ => show win13_2.index t (0 : Fin 2) * 1 + 1 * (0 : Fin 1).val = (0 : Fin 1).val; rw [e20]; rfl
    | ⟨1, _⟩ => show win13_2.index t (1 : Fin 2) * 32 + 1 * q.val = q.val; rw [e21]; omega
  rw [h]
  rfl

/-- Where the output window's block at point t puts its row p, column q. -/
theorem emb13_3 (t : Fin cfg13.N) (p : Fin 5000) (q : Fin 32) :
    ((cfg13.win 3).blk t).view.emb (ix2 p q) = (ix2 (rowAt13 t p) q : S100000x32.Idx) := by
  obtain ⟨-, -, -, -, -, -, e30, e31⟩ := idx_facts13 t
  funext a; apply Fin.ext
  match a with
  | ⟨0, _⟩ => show win13_3.index t (0 : Fin 2) * 5000 + 1 * p.val = t.val * 5000 + p.val; rw [e30]; omega
  | ⟨1, _⟩ => show win13_3.index t (1 : Fin 2) * 32 + 1 * q.val = q.val; rw [e31]; omega

/-- The array the region leaves, as one function of the three arrays it reads. -/
abbrev G13 (c : Dev nD) : S100000x32.Idx → EReal :=
  Spec.relu (Spec.dense (arr13_0 V c) (arr13_1 V c) (fun j => arr13_2 V c (ix2 (0 : Fin 1) (Spec.d0 j))))

/-- What point t writes back is block t of G13. -/
theorem flushed13_eq (c : Dev nD) (t : Fin cfg13.N) :
    (dat13 (F := Ideal) V c).flushed 3 t = ((cfg13.win 3).blk t).view.read (Elt Ideal) (G13 V c) := by
  show (cfg13.win 3).cut (grid13.coords t) ((dat13 V c).after 3 t) = _
  rw [after13_3]
  unfold out13_3
  rw [View.canon_unit_zero hz13]
  simp only [View.ld_unit_zero (S := S5000x64) hz13, View.ld_unit_zero (S := S64x32) hz13, View.ld_unit_zero (S := S1x32) hz13]
  funext y
  obtain ⟨p, q, rfl⟩ : ∃ (p : Fin 5000) (q : Fin 32), y = ix2 p q := ⟨y 0, y 1, eq_ix2 y⟩
  refine (pay13_apply _ _ _ p q).trans ?_
  rw [View.read_apply, emb13_3]
  show _ = max ((∑ k : Fin 64, arr13_0 V c (ix2 (rowAt13 t p) k) * arr13_1 V c (ix2 k q)) + arr13_2 V c (ix2 (0 : Fin 1) q)) 0
  exact congrArg (fun z : EReal => max z 0) (congrArg₂ (· + ·) (Finset.sum_congr rfl fun k _ => congrArg₂ (· * ·) (iblk13_0_apply V c t p k) (iblk13_1_apply V c t k q)) (iblk13_2_apply V c t q))

/-- An index of the array is in point t's block iff each coordinate is in the block's range on its axis. -/
theorem mem_blk13 (t : Fin cfg13.N) (i : S100000x32.Idx) :
    i ∈ ((cfg13.win 3).blk t).view.set ↔ ∀ a : Fin 2, win13_3.index t a * S5000x32.size a ≤ (i a).val ∧ (i a).val < win13_3.index t a * S5000x32.size a + S5000x32.size a := by
  show i ∈ ((View.whole main_v83).slice (win13_3.rect t)).set ↔ _
  rw [View.set_slice_whole, Rect.mem_set_unit]
  exact Iff.rfl

/-- Row r of the array lies in the block of point r / 5000. -/
theorem cover13 (i : S100000x32.Idx) : ∃ t : Fin cfg13.N, (cfg13.win 3).flush t = true ∧ i ∈ ((cfg13.win 3).blk t).view.set := by
  have hi0 : (i 0).val < 100000 := (i 0).isLt
  have hi1 : (i 1).val < 32 := (i 1).isLt
  have ht : (i 0).val / 5000 < cfg13.N := by rw [N13]; omega
  obtain ⟨-, -, -, -, -, -, e30, e31⟩ := idx_facts13 ⟨(i 0).val / 5000, ht⟩
  refine ⟨⟨(i 0).val / 5000, ht⟩, flush13_3 _, ?_⟩
  rw [mem_blk13]
  intro a
  match a with
  | ⟨0, _⟩ =>
    show win13_3.index ⟨(i 0).val / 5000, ht⟩ (0 : Fin 2) * 5000 ≤ (i 0).val ∧ (i 0).val < win13_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win13_3.index ⟨(i 0).val / 5000, ht⟩ (1 : Fin 2) * 32 ≤ (i 1).val ∧ (i 1).val < win13_3.index ⟨(i 0).val / 5000, ht⟩ (1 : Fin 2) * 32 + 32
    rw [e31]; omega

/-- The array the pipeline leaves is the dense map of the three arrays it reads. -/
theorem value13 (c : Dev nD) : (dat13 (F := Ideal) V c).arrAt 3 cfg13.N
    = Spec.relu (Spec.dense (V c (Pipeline.arrRef spec13 0)) (V c (Pipeline.arrRef spec13 1)) (fun j => V c (Pipeline.arrRef spec13 2) (ix2 (0 : Fin 1) (Spec.d0 j)))) :=
  (dat13 V c).arrAt_eq_of_cover 3 (G13 V c) (fun t _ => flushed13_eq V c t) (cover13)

end Cert.KernelIdeal.HandV

end
-- ==== Proof.KI.V14.lean ====
/- The value of the dense call cc14__dense_kernel at the extended reals: the array its pipeline leaves is, index by
   index, the logistic function of the rows array times the weight plus the bias row. The payload at an index (the product's operand indices
   axis by axis, the contraction re-indexed by its one coordinate, the bias row broadcast along the rows), each
   window's block as a part of its array, what a point writes back, the cover (row r lies in block r / 5000). -/
import proofs.«417395_j71579924955534_2_alg».proof.Proof.KI.R14
import proofs.«417395_j71579924955534_2_alg».proof.Proof.Spec
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The product's operand indices, axis by axis -/

theorem lhs14_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide),
    dif_pos (show (0 : Fin S5000x32.rank) ∈ dot_S5000x32_S32x1_S5000x1_1_0_0_1_n_n.lhsNonContracting by decide)]
  rfl
theorem lhs14_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem rhs14_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem rhs14_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide),
    dif_pos (show (1 : Fin S32x1.rank) ∈ dot_S5000x32_S32x1_S5000x1_1_0_0_1_n_n.rhsNonContracting by decide)]
  rfl

/-! ## The payload at an index -/

/-- The body's payload at row p, column q of the block: the row of the first block against the column of the
    weight, plus the bias at the column, the logistic function of that. -/
theorem pay14_apply (x0 : Vec Ideal S5000x32 .f32) (x1 : Vec Ideal S32x1 .f32) (x2 : Vec Ideal S1x1 .f32) (p : Fin 5000) (q : Fin 1) :
    k14_pay1 x0 x1 x2 (ix2 p q) = Ideal.logistic ((∑ k : Fin 32, x0 (ix2 p k) * x1 (ix2 k q)) + x2 (ix2 (0 : Fin 1) q)) := by
  unfold k14_pay1
  simp only [shapeCast_self]
  show Ideal.logistic _ = Ideal.logistic _
  refine congrArg Ideal.logistic ?_
  rw [addf_apply]
  refine congrArg₂ (· + ·) ((Ideal.matmul_constant_zero_apply _ none _ _ _).trans ?_) ?_
  · rw [← Equiv.sum_comp (contrEquiv1 dot_S5000x32_S32x1_S5000x1_1_0_0_1_n_n 32 rfl rfl).symm]
    refine Finset.sum_congr rfl fun k _ => ?_
    have hk := contrEquiv1_symm_val dot_S5000x32_S32x1_S5000x1_1_0_0_1_n_n 32 rfl rfl k
    have el : dot_S5000x32_S32x1_S5000x1_1_0_0_1_n_n.lhsIdx (ix2 p q) ((contrEquiv1 dot_S5000x32_S32x1_S5000x1_1_0_0_1_n_n 32 rfl rfl).symm k) = ix2 p k :=
      funext fun a => Fin.ext (by
        match a with
        | ⟨0, _⟩ => exact lhs14_0 _ _
        | ⟨1, _⟩ => exact (lhs14_1 _ _).trans hk)
    have er : dot_S5000x32_S32x1_S5000x1_1_0_0_1_n_n.rhsIdx (ix2 p q) ((contrEquiv1 dot_S5000x32_S32x1_S5000x1_1_0_0_1_n_n 32 rfl rfl).symm k) = ix2 k q :=
      funext fun a => Fin.ext (by
        match a with
        | ⟨0, _⟩ => exact (rhs14_0 _ _).trans hk
        | ⟨1, _⟩ => exact rhs14_1 _ _)
    rw [el, er]
    rfl
  · exact broadcastTo_apply x2 _ (ix2 p q) (ix2 (0 : Fin 1) q) (fun a => by
      match a with
      | ⟨0, _⟩ => rfl
      | ⟨1, _⟩ => show q.val = 0; omega)

/-! ## From the blocks to the array -/

theorem hz14 : (![0, 0] : Fin 2 → Nat) = fun _ => 0 := funext fun a => by fin_cases a <;> rfl

theorem N14 : cfg14.N = 20 := N_14

/-- The printed index maps over the grid: the rows window and the output window sit at block (t, 0); the weight and
    the bias stay at block (0, 0). -/
theorem idx_facts14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- The three arrays the region reads, at their literal shapes. -/
abbrev arr14_0 (c : Dev nD) : S100000x32.Idx → EReal := V c (Pipeline.arrRef spec14 0)
abbrev arr14_1 (c : Dev nD) : S32x1.Idx → EReal := V c (Pipeline.arrRef spec14 1)
abbrev arr14_2 (c : Dev nD) : S1x1.Idx → EReal := V c (Pipeline.arrRef spec14 2)

/-- Row p of block t, as a row of the whole array. -/
def rowAt14 (t : Fin cfg14.N) (p : Fin 5000) : Fin 100000 :=
  ⟨t.val * 5000 + p.val, by have h : t.val < 20 := lt_of_lt_of_eq t.isLt N14; have := p.isLt; omega⟩

/-- The rows block at point t is rows 5000 t … 5000 t + 4999 of the rows array. -/
theorem iblk14_0_apply (c : Dev nD) (t : Fin cfg14.N) (p : Fin 5000) (k : Fin 32) :
    (iblk14 V c 0 t : Vec Ideal S5000x32 .f32) (ix2 p k) = arr14_0 V c (ix2 (rowAt14 t p) k) := by
  obtain ⟨e00, e01, -⟩ := idx_facts14 t
  unfold iblk14
  rw [View.read_apply]
  have h : ((cfg14.win 0).blk t).view.emb (ix2 p k) = (ix2 (rowAt14 t p) k : S100000x32.Idx) := by
    funext a; apply Fin.ext
    match a with
    | ⟨0, _⟩ => show win14_0.index t (0 : Fin 2) * 5000 + 1 * p.val = t.val * 5000 + p.val; rw [e00]; omega
    | ⟨1, _⟩ => show win14_0.index t (1 : Fin 2) * 32 + 1 * k.val = k.val; rw [e01]; omega
  rw [h]
  rfl

/-- The weight block is the weight array. -/
theorem iblk14_1_apply (c : Dev nD) (t : Fin cfg14.N) (k : Fin 32) (q : Fin 1) :
    (iblk14 V c 1 t : Vec Ideal S32x1 .f32) (ix2 k q) = arr14_1 V c (ix2 k q) := by
  obtain ⟨-, -, e10, e11, -⟩ := idx_facts14 t
  unfold iblk14
  rw [View.read_apply]
  have h : ((cfg14.win 1).blk t).view.emb (ix2 k q) = (ix2 k q : S32x1.Idx) := by
    funext a; apply Fin.ext
    match a with
    | ⟨0, _⟩ => show win14_1.index t (0 : Fin 2) * 32 + 1 * k.val = k.val; rw [e10]; omega
    | ⟨1, _⟩ => show win14_1.index t (1 : Fin 2) * 1 + 1 * q.val = q.val; rw [e11]; omega
  rw [h]
  rfl

/-- The bias block is the bias row. -/
theorem iblk14_2_apply (c : Dev nD) (t : Fin cfg14.N) (q : Fin 1) :
    (iblk14 V c 2 t : Vec Ideal S1x1 .f32) (ix2 (0 : Fin 1) q) = arr14_2 V c (ix2 (0 : Fin 1) q) := by
  obtain ⟨-, -, -, -, e20, e21, -⟩ := idx_facts14 t
  unfold iblk14
  rw [View.read_apply]
  have h : ((cfg14.win 2).blk t).view.emb (ix2 (0 : Fin 1) q) = (ix2 (0 : Fin 1) q : S1x1.Idx) := by
    funext a; apply Fin.ext
    match a with
    | ⟨0, _⟩ => show win14_2.index t (0 : Fin 2) * 1 + 1 * (0 : Fin 1).val = (0 : Fin 1).val; rw [e20]; rfl
    | ⟨1, _⟩ => show win14_2.index t (1 : Fin 2) * 1 + 1 * q.val = q.val; rw [e21]; omega
  rw [h]
  rfl

/-- Where the output window's block at point t puts its row p, column q. -/
theorem emb14_3 (t : Fin cfg14.N) (p : Fin 5000) (q : Fin 1) :
    ((cfg14.win 3).blk t).view.emb (ix2 p q) = (ix2 (rowAt14 t p) q : S100000x1.Idx) := by
  obtain ⟨-, -, -, -, -, -, e30, e31⟩ := idx_facts14 t
  funext a; apply Fin.ext
  match a with
  | ⟨0, _⟩ => show win14_3.index t (0 : Fin 2) * 5000 + 1 * p.val = t.val * 5000 + p.val; rw [e30]; omega
  | ⟨1, _⟩ => show win14_3.index t (1 : Fin 2) * 1 + 1 * q.val = q.val; rw [e31]; omega

/-- The array the region leaves, as one function of the three arrays it reads. -/
abbrev G14 (c : Dev nD) : S100000x1.Idx → EReal :=
  Spec.sigm (Spec.dense (arr14_0 V c) (arr14_1 V c) (fun j => arr14_2 V c (ix2 (0 : Fin 1) (Spec.d0 j))))

/-- What point t writes back is block t of G14. -/
theorem flushed14_eq (c : Dev nD) (t : Fin cfg14.N) :
    (dat14 (F := Ideal) V c).flushed 3 t = ((cfg14.win 3).blk t).view.read (Elt Ideal) (G14 V c) := by
  show (cfg14.win 3).cut (grid14.coords t) ((dat14 V c).after 3 t) = _
  rw [after14_3]
  unfold out14_3
  rw [View.canon_unit_zero hz14]
  simp only [View.ld_unit_zero (S := S5000x32) hz14, View.ld_unit_zero (S := S32x1) hz14, View.ld_unit_zero (S := S1x1) hz14]
  funext y
  obtain ⟨p, q, rfl⟩ : ∃ (p : Fin 5000) (q : Fin 1), y = ix2 p q := ⟨y 0, y 1, eq_ix2 y⟩
  refine (pay14_apply _ _ _ p q).trans ?_
  rw [View.read_apply, emb14_3]
  show _ = Ideal.logistic ((∑ k : Fin 32, arr14_0 V c (ix2 (rowAt14 t p) k) * arr14_1 V c (ix2 k q)) + arr14_2 V c (ix2 (0 : Fin 1) q))
  exact congrArg Ideal.logistic (congrArg₂ (· + ·) (Finset.sum_congr rfl fun k _ => congrArg₂ (· * ·) (iblk14_0_apply V c t p k) (iblk14_1_apply V c t k q)) (iblk14_2_apply V c t q))

/-- An index of the array is in point t's block iff each coordinate is in the block's range on its axis. -/
theorem mem_blk14 (t : Fin cfg14.N) (i : S100000x1.Idx) :
    i ∈ ((cfg14.win 3).blk t).view.set ↔ ∀ a : Fin 2, win14_3.index t a * S5000x1.size a ≤ (i a).val ∧ (i a).val < win14_3.index t a * S5000x1.size a + S5000x1.size a := by
  show i ∈ ((View.whole main_v85).slice (win14_3.rect t)).set ↔ _
  rw [View.set_slice_whole, Rect.mem_set_unit]
  exact Iff.rfl

/-- Row r of the array lies in the block of point r / 5000. -/
theorem cover14 (i : S100000x1.Idx) : ∃ t : Fin cfg14.N, (cfg14.win 3).flush t = true ∧ i ∈ ((cfg14.win 3).blk t).view.set := by
  have hi0 : (i 0).val < 100000 := (i 0).isLt
  have hi1 : (i 1).val < 1 := (i 1).isLt
  have ht : (i 0).val / 5000 < cfg14.N := by rw [N14]; omega
  obtain ⟨-, -, -, -, -, -, e30, e31⟩ := idx_facts14 ⟨(i 0).val / 5000, ht⟩
  refine ⟨⟨(i 0).val / 5000, ht⟩, flush14_3 _, ?_⟩
  rw [mem_blk14]
  intro a
  match a with
  | ⟨0, _⟩ =>
    show win14_3.index ⟨(i 0).val / 5000, ht⟩ (0 : Fin 2) * 5000 ≤ (i 0).val ∧ (i 0).val < win14_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win14_3.index ⟨(i 0).val / 5000, ht⟩ (1 : Fin 2) * 1 ≤ (i 1).val ∧ (i 1).val < win14_3.index ⟨(i 0).val / 5000, ht⟩ (1 : Fin 2) * 1 + 1
    rw [e31]; omega

/-- The array the pipeline leaves is the dense map of the three arrays it reads. -/
theorem value14 (c : Dev nD) : (dat14 (F := Ideal) V c).arrAt 3 cfg14.N
    = Spec.sigm (Spec.dense (V c (Pipeline.arrRef spec14 0)) (V c (Pipeline.arrRef spec14 1)) (fun j => V c (Pipeline.arrRef spec14 2) (ix2 (0 : Fin 1) (Spec.d0 j)))) :=
  (dat14 V c).arrAt_eq_of_cover 3 (G14 V c) (fun t _ => flushed14_eq V c t) (cover14)

end Cert.KernelIdeal.HandV

end
-- ==== Proof.KI.GlueEnds.lean ====
/-
  The two ends of the network as the kernel program computes them at the extended reals: the input layer's array
  is the dense map of the features, the input weight and the input bias; the output array is the logistic of the
  second head map of the relu of the first head map of the last layer's array. A bias vector reaches its dense
  map as a one-row array; read back along that row it is the vector. Every argument array holds, wherever it is
  read, what it held at launch.
-/
import proofs.«417395_j71579924955534_2_alg».proof.Proof.KI.Chain
import proofs.«417395_j71579924955534_2_alg».proof.Proof.KI.V0
import proofs.«417395_j71579924955534_2_alg».proof.Proof.KI.V13
import proofs.«417395_j71579924955534_2_alg».proof.Proof.KI.V14
import proofs.«417395_j71579924955534_2_alg».proof.Proof.Spec
import Idealize.ShloMosaic.Lib.ValueLayout
import Idealize.ShloMosaic.Lib.ValueIdx
import Idealize.ShloMosaic.Lib.StableHlo.Run

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## A vector kept as a one-row array, read back as the vector -/

theorem rowOf_shapeCast {a : ℕ} (x : (⟨1, ![a]⟩ : Shape).Idx → EReal) (h : (⟨1, ![a]⟩ : Shape).ShapeCasts ⟨2, ![1, a]⟩) :
    (fun j : (⟨1, ![a]⟩ : Shape).Idx => shapeCast ⟨2, ![1, a]⟩ x h (ix2 (0 : Fin 1) (Spec.d0 j))) = x := by
  funext j
  rw [shapeCast_a_1a_apply]
  exact congrArg x (eq_ix1 j).symm

/-! ## The host reshapes, over any previous contents -/

theorem hostOps0_v5 (X : Valuation τ sig (Elt Ideal)) :
    (StableHlo.after hostOps0 X (Proc.devRef .tc main_v5) : S1x64.Idx → EReal)
      = shapeCast S1x64 (X (Proc.devRef .tc main_arg4) : S64.Idx → EReal) shapeCasts_S64_S1x64 := by
  after_results
  rfl

theorem hostOps13_v82 (X : Valuation τ sig (Elt Ideal)) :
    (StableHlo.after hostOps13 X (Proc.devRef .tc main_v82) : S1x32.Idx → EReal)
      = shapeCast S1x32 (X (Proc.devRef .tc main_arg12) : S32.Idx → EReal) shapeCasts_S32_S1x32 := by
  after_results
  rfl

theorem hostOps14_v84 (X : Valuation τ sig (Elt Ideal)) :
    (StableHlo.after hostOps14 X (Proc.devRef .tc main_v84) : S1x1.Idx → EReal)
      = shapeCast S1x1 (X (Proc.devRef .tc main_arg14) : S1.Idx → EReal) shapeCasts_S1_S1x1 := by
  after_results
  rfl

/-! ## The input layer -/

theorem dense0_value (c : Dev nD) :
    W2 m c main_v6 = Spec.dense (m ((c.tc : Thread nD τ).loc main_arg0)) (m ((c.tc : Thread nD τ).loc main_arg3))
      (m ((c.tc : Thread nD τ).loc main_arg4)) := by
  have e0 : Wr1 m c (Pipeline.arrRef spec0 0) = m ((c.tc : Thread nD τ).loc main_arg0) := V1_of m c main_arg0 (by decide)
  have e1 : Wr1 m c (Pipeline.arrRef spec0 1) = m ((c.tc : Thread nD τ).loc main_arg3) := V1_of m c main_arg3 (by decide)
  have e2 : (fun j : S64.Idx => Wr1 m c (Pipeline.arrRef spec0 2) (ix2 (0 : Fin 1) (Spec.d0 j)))
      = m ((c.tc : Thread nD τ).loc main_arg4) := by
    have h5 : Wr1 m c (Pipeline.arrRef spec0 2)
        = shapeCast S1x64 (m ((c.tc : Thread nD τ).loc main_arg4) : S64.Idx → EReal) shapeCasts_S64_S1x64 :=
      hostOps0_v5 (W0 m c)
    rw [h5]
    exact rowOf_shapeCast _ _
  rw [W2_out, value0 (Wr1 m) c, e0, e1, e2]

/-! ## An argument array read before the end: as launched -/

theorem W32_arg (c : Dev nD) (r : Ref sig .tc) (h33 : r ∉ ([main_v85] : List (Ref sig .tc)))
    (hend : V33 m (outsW m) c r = m ((c.tc : Thread nD τ).loc r)) : W32 m c r = m ((c.tc : Thread nD τ).loc r) :=
  ((congrFun (V32_eq m c) (Proc.devRef .tc r)).symm.trans (V33_of m (outsW m) c r h33).symm).trans hend

theorem W31_arg (c : Dev nD) (r : Ref sig .tc) (h32 : r ∉ hostOps14_W) (h33 : r ∉ ([main_v85] : List (Ref sig .tc)))
    (hend : V33 m (outsW m) c r = m ((c.tc : Thread nD τ).loc r)) : W31 m c r = m ((c.tc : Thread nD τ).loc r) :=
  (((congrFun (V31_eq m c) (Proc.devRef .tc r)).symm.trans (V32_of m (outsW m) c r h32).symm).trans
    (congrFun (V32_eq m c) (Proc.devRef .tc r))).trans (W32_arg m c r h33 hend)

theorem W30_arg (c : Dev nD) (r : Ref sig .tc) (h31 : r ∉ ([main_v83] : List (Ref sig .tc))) (h32 : r ∉ hostOps14_W)
    (h33 : r ∉ ([main_v85] : List (Ref sig .tc)))
    (hend : V33 m (outsW m) c r = m ((c.tc : Thread nD τ).loc r)) : W30 m c r = m ((c.tc : Thread nD τ).loc r) :=
  (((congrFun (V30_eq m c) (Proc.devRef .tc r)).symm.trans (V31_of m (outsW m) c r h31).symm).trans
    (congrFun (V31_eq m c) (Proc.devRef .tc r))).trans (W31_arg m c r h32 h33 hend)

theorem W29_arg (c : Dev nD) (r : Ref sig .tc) (h30 : r ∉ hostOps13_W) (h31 : r ∉ ([main_v83] : List (Ref sig .tc)))
    (h32 : r ∉ hostOps14_W) (h33 : r ∉ ([main_v85] : List (Ref sig .tc)))
    (hend : V33 m (outsW m) c r = m ((c.tc : Thread nD τ).loc r)) : W29 m c r = m ((c.tc : Thread nD τ).loc r) :=
  (((congrFun (V29_eq m c) (Proc.devRef .tc r)).symm.trans (V30_of m (outsW m) c r h30).symm).trans
    (congrFun (V30_eq m c) (Proc.devRef .tc r))).trans (W30_arg m c r h31 h32 h33 hend)

/-! ## The output head -/

theorem head_value (c : Dev nD) :
    W33 m c main_v85 = Spec.sigm (Spec.dense (Spec.relu (Spec.dense (W29 m c main_v81)
      (m ((c.tc : Thread nD τ).loc main_arg11)) (m ((c.tc : Thread nD τ).loc main_arg12))))
      (m ((c.tc : Thread nD τ).loc main_arg13)) (m ((c.tc : Thread nD τ).loc main_arg14))) := by
  have x13 : Wr30 m c (Pipeline.arrRef spec13 0) = W29 m c main_v81 :=
    StableHlo.after_of_writes_sub hostOps13 _ hostOps13_writes (by decide)
  have a11 : Wr30 m c (Pipeline.arrRef spec13 1) = m ((c.tc : Thread nD τ).loc main_arg11) :=
    W30_arg m c main_arg11 (by decide) (by decide) (by decide) (V33_main_arg11 m (outsW m) c)
  have a12 : (fun j : S32.Idx => Wr30 m c (Pipeline.arrRef spec13 2) (ix2 (0 : Fin 1) (Spec.d0 j)))
      = m ((c.tc : Thread nD τ).loc main_arg12) := by
    have h82 : Wr30 m c (Pipeline.arrRef spec13 2)
        = shapeCast S1x32 (W29 m c main_arg12 : S32.Idx → EReal) shapeCasts_S32_S1x32 := hostOps13_v82 (W29 m c)
    rw [h82, W29_arg m c main_arg12 (by decide) (by decide) (by decide) (by decide) (V33_main_arg12 m (outsW m) c)]
    exact rowOf_shapeCast _ _
  have x14 : Wr32 m c (Pipeline.arrRef spec14 0) = W31 m c main_v83 :=
    StableHlo.after_of_writes_sub hostOps14 _ hostOps14_writes (by decide)
  have a13 : Wr32 m c (Pipeline.arrRef spec14 1) = m ((c.tc : Thread nD τ).loc main_arg13) :=
    W32_arg m c main_arg13 (by decide) (V33_main_arg13 m (outsW m) c)
  have a14 : (fun j : S1.Idx => Wr32 m c (Pipeline.arrRef spec14 2) (ix2 (0 : Fin 1) (Spec.d0 j)))
      = m ((c.tc : Thread nD τ).loc main_arg14) := by
    have h84 : Wr32 m c (Pipeline.arrRef spec14 2)
        = shapeCast S1x1 (W31 m c main_arg14 : S1.Idx → EReal) shapeCasts_S1_S1x1 := hostOps14_v84 (W31 m c)
    rw [h84, W31_arg m c main_arg14 (by decide) (by decide) (V33_main_arg14 m (outsW m) c)]
    exact rowOf_shapeCast _ _
  rw [W33_out, value14 (Wr32 m) c, x14, a13, a14, W31_out, value13 (Wr30 m) c, x13, a11, a12]

end Cert.KernelIdeal.HandV

end
-- ==== Proof.KI.GlueCarry.lean ====
import proofs.«417395_j71579924955534_2_alg».proof.Proof.KI.Chain
import proofs.«417395_j71579924955534_2_alg».proof.Proof.Spec
import proofs.«417395_j71579924955534_2_alg».proof.Proof.EdgeIdx
import Idealize.ShloMosaic.Lib.ValueLayout
import Idealize.ShloMosaic.Lib.ValueIdx
import Idealize.ShloMosaic.Lib.StableHlo.Run

/-! # What a buffer holds across one layer's items when none of them writes it

One layer of the network is nine items of the program: a host stretch and the dense call, three host stretches and the
attention call, the message call, a host stretch, the finalize call. A buffer that none of them writes holds at every
boundary inside the layer what it held at the layer's entry. Read through these carries: the edge weights as a column
are the weight argument; the first row of the edge array, kept as a vector, has at edge `e` the signed value of the
node the edge points to; the two layernorm arguments are as launched. -/

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The first host stretch -/

/-- A buffer the first host stretch does not write is as launched after it. -/
theorem bk_first (c : Dev nD) (r : Ref sig .tc) (h : r ∉ hostOps0_W) : W1 m c r = m ((c.tc : Thread nD τ).loc r) :=
  StableHlo.after_of_writes_sub hostOps0 _ hostOps0_writes h

/-- The first row of the edge array, kept as a vector, over any previous contents. -/
theorem bk_v1_read (X : Valuation τ sig (Elt Ideal)) :
    (StableHlo.after hostOps0 X (Proc.devRef .tc main_v1) : S1250000.Idx → BitVec 32)
      = shapeCast S1250000 (extractStridedSlice S1x1250000 ![0, 0] (X (Proc.devRef .tc main_arg1) : S2x1250000.Idx → BitVec 32)
          slices_S2x1250000_S1x1250000_0_0) shapeCasts_S1x1250000_S1250000 := by
  after_results
  rfl

/-- The edge weights kept as a column, over any previous contents. -/
theorem bk_v4_read (X : Valuation τ sig (Elt Ideal)) :
    (StableHlo.after hostOps0 X (Proc.devRef .tc main_v4) : S1250000x1.Idx → EReal)
      = shapeCast S1250000x1 (X (Proc.devRef .tc main_arg2) : S1250000.Idx → EReal) shapeCasts_S1250000_S1250000x1 := by
  after_results
  rfl

/-- A vector kept as a column is the specification's column of it. -/
theorem bk_colOf {a : ℕ} (x : (⟨1, ![a]⟩ : Shape).Idx → EReal) (h : (⟨1, ![a]⟩ : Shape).ShapeCasts ⟨2, ![a, 1]⟩) :
    shapeCast ⟨2, ![a, 1]⟩ x h = Spec.colOf x := by
  funext j
  obtain ⟨p, u, rfl⟩ : ∃ (p : Fin a) (u : Fin 1), j = ix2 p u := ⟨j 0, j 1, eq_ix2 j⟩
  refine shapeCast_apply x h (ix2 p u) (ix1 p) ?_
  rw [Shape.rowMajor_val_one, Shape.rowMajor_val_two]
  show p.val = p.val * 1 + u.val
  omega

/-- After the first host stretch the weight column is the column of the weight argument. -/
theorem bk_v4_W1 (c : Dev nD) : W1 m c main_v4 = Spec.colOf (m ((c.tc : Thread nD τ).loc main_arg2)) :=
  (bk_v4_read (W0 m c)).trans (bk_colOf _ _)

/-- After the first host stretch the target vector has at edge `e` the signed value of the edge's target node. -/
theorem bk_v1_W1 (c : Dev nD) (hin : Spec.InRange 100000 (m ((c.tc : Thread nD τ).loc main_arg1))) (e : Fin 1250000) :
    ((W1 m c main_v1 : S1250000.Idx → BitVec 32) (ix1 e)).toInt
      = ((Spec.endF (m ((c.tc : Thread nD τ).loc main_arg1)) hin 0 e).val : ℤ) := by
  rw [show (W1 m c main_v1 : S1250000.Idx → BitVec 32) = _ from bk_v1_read (W0 m c)]
  rw [shapeCast_1a_a_apply, slice2_axis0_apply 0 _ _ (0 : Fin 1) e (0 : Fin 2) rfl]
  exact Spec.endF_spec _ hin 0 e

/-! ## Layer 0: the boundaries 2 to 11 -/

/-- Across the first host stretch and the dense call. -/
theorem bk_lo_L0 (c : Dev nD) (r : Ref sig .tc) (h1 : r ∉ hostOps1_W) (h2 : r ∉ ([main_v12] : List (Ref sig .tc))) :
    W4 m c r = W2 m c r :=
  (W4_of m c r h2).trans (StableHlo.after_of_writes_sub hostOps1 _ hostOps1_writes h1 : W3 m c r = W2 m c r)

/-- Across the three host stretches and the attention call. -/
theorem bk_mid_L0 (c : Dev nD) (r : Ref sig .tc) (h3 : r ∉ hostOps2_W) (h4 : r ∉ hostOps2_1_W) (h5 : r ∉ hostOps2_2_W)
    (h6 : r ∉ ([main_v20_0, main_v20_1, main_v20_2] : List (Ref sig .tc))) : W8 m c r = W4 m c r :=
  (W8_of m c r h6).trans ((StableHlo.after_of_writes_sub hostOps2_2 _ hostOps2_2_writes h5 : W7 m c r = W6 m c r).trans
    ((StableHlo.after_of_writes_sub hostOps2_1 _ hostOps2_1_writes h4 : W6 m c r = W5 m c r).trans (StableHlo.after_of_writes_sub hostOps2 _ hostOps2_writes h3 : W5 m c r = W4 m c r)))

/-- Across the message call. -/
theorem bk_msg_L0 (c : Dev nD) (r : Ref sig .tc) (h7 : r ∉ ([main_v21] : List (Ref sig .tc))) : W9 m c r = W8 m c r :=
  W9_of m c r h7

/-- Across the last host stretch. -/
theorem bk_host_L0 (c : Dev nD) (r : Ref sig .tc) (h8 : r ∉ hostOps4_W) : W10 m c r = W9 m c r :=
  StableHlo.after_of_writes_sub hostOps4 _ hostOps4_writes h8

/-- Across the whole layer. -/
theorem bk_all_L0 (c : Dev nD) (r : Ref sig .tc) (h1 : r ∉ hostOps1_W) (h2 : r ∉ ([main_v12] : List (Ref sig .tc)))
    (h3 : r ∉ hostOps2_W) (h4 : r ∉ hostOps2_1_W) (h5 : r ∉ hostOps2_2_W) (h6 : r ∉ ([main_v20_0, main_v20_1, main_v20_2] : List (Ref sig .tc)))
    (h7 : r ∉ ([main_v21] : List (Ref sig .tc))) (h8 : r ∉ hostOps4_W) (h9 : r ∉ ([main_v31] : List (Ref sig .tc))) :
    W11 m c r = W2 m c r :=
  (W11_of m c r h9).trans ((bk_host_L0 m c r h8).trans ((bk_msg_L0 m c r h7).trans
    ((bk_mid_L0 m c r h3 h4 h5 h6).trans (bk_lo_L0 m c r h1 h2))))

/-- Up to the message call's exit. -/
theorem bk_to7_L0 (c : Dev nD) (r : Ref sig .tc) (h1 : r ∉ hostOps1_W) (h2 : r ∉ ([main_v12] : List (Ref sig .tc)))
    (h3 : r ∉ hostOps2_W) (h4 : r ∉ hostOps2_1_W) (h5 : r ∉ hostOps2_2_W) (h6 : r ∉ ([main_v20_0, main_v20_1, main_v20_2] : List (Ref sig .tc)))
    (h7 : r ∉ ([main_v21] : List (Ref sig .tc))) : W9 m c r = W2 m c r :=
  (bk_msg_L0 m c r h7).trans ((bk_mid_L0 m c r h3 h4 h5 h6).trans (bk_lo_L0 m c r h1 h2))

/-- The dense call's result reaches the finalize call as the dense call left it. -/
theorem bk_hl_L0 (c : Dev nD) : W10 m c main_v12 = W4 m c main_v12 :=
  (bk_host_L0 m c main_v12 (by decide)).trans ((bk_msg_L0 m c main_v12 (by decide)).trans
    (bk_mid_L0 m c main_v12 (by decide) (by decide) (by decide) (by decide)))

/-- The layer's input array reaches the finalize call as the layer found it. -/
theorem bk_h_L0 (c : Dev nD) : W10 m c main_v6 = W2 m c main_v6 :=
  (bk_host_L0 m c main_v6 (by decide)).trans
    (bk_to7_L0 m c main_v6 (by decide) (by decide) (by decide) (by decide) (by decide) (by decide) (by decide))

/-- The gathered source rows reach the message call as the gather left them. -/
theorem bk_hj_L0 (c : Dev nD) : W8 m c main_v14 = W7 m c main_v14 :=
  W8_of m c main_v14 (by decide)

/-- At the layer's entry: the weight column, the target vector, the two layernorm arguments. -/
theorem bk_v4_in_L0 (c : Dev nD) : W2 m c main_v4 = Spec.colOf (m ((c.tc : Thread nD τ).loc main_arg2)) :=
  (W2_of m c main_v4 (by decide)).trans (bk_v4_W1 m c)
theorem bk_v1_in_L0 (c : Dev nD) : W2 m c main_v1 = W1 m c main_v1 := W2_of m c main_v1 (by decide)
theorem bk_arg9_in_L0 (c : Dev nD) : W2 m c main_arg9 = m ((c.tc : Thread nD τ).loc main_arg9) :=
  (W2_of m c main_arg9 (by decide)).trans (bk_first m c main_arg9 (by decide))
theorem bk_arg10_in_L0 (c : Dev nD) : W2 m c main_arg10 = m ((c.tc : Thread nD τ).loc main_arg10) :=
  (W2_of m c main_arg10 (by decide)).trans (bk_first m c main_arg10 (by decide))

/-- At the message call's entry the weight column is the column of the weight argument. -/
theorem bk_v4_L0 (c : Dev nD) : W8 m c main_v4 = Spec.colOf (m ((c.tc : Thread nD τ).loc main_arg2)) :=
  ((bk_mid_L0 m c main_v4 (by decide) (by decide) (by decide) (by decide)).trans
    (bk_lo_L0 m c main_v4 (by decide) (by decide))).trans (bk_v4_in_L0 m c)

/-- At the last host stretch's entry the target vector has at edge `e` the signed value of the edge's target node. -/
theorem bk_v1_L0 (c : Dev nD) (hin : Spec.InRange 100000 (m ((c.tc : Thread nD τ).loc main_arg1))) (e : Fin 1250000) :
    ((W9 m c main_v1 : S1250000.Idx → BitVec 32) (ix1 e)).toInt
      = ((Spec.endF (m ((c.tc : Thread nD τ).loc main_arg1)) hin 0 e).val : ℤ) := by
  rw [show W9 m c main_v1 = W1 m c main_v1 from (bk_to7_L0 m c main_v1 (by decide) (by decide) (by decide) (by decide) (by decide) (by decide) (by decide)).trans (bk_v1_in_L0 m c)]
  exact bk_v1_W1 m c hin e

/-- At the last host stretch's entry the two layernorm arguments are as launched. -/
theorem bk_arg9_L0 (c : Dev nD) : W9 m c main_arg9 = m ((c.tc : Thread nD τ).loc main_arg9) :=
  (bk_to7_L0 m c main_arg9 (by decide) (by decide) (by decide) (by decide) (by decide) (by decide) (by decide)).trans (bk_arg9_in_L0 m c)
theorem bk_arg10_L0 (c : Dev nD) : W9 m c main_arg10 = m ((c.tc : Thread nD τ).loc main_arg10) :=
  (bk_to7_L0 m c main_arg10 (by decide) (by decide) (by decide) (by decide) (by decide) (by decide) (by decide)).trans (bk_arg10_in_L0 m c)

/-! ## Layer 1: the boundaries 11 to 20 -/

/-- Across the first host stretch and the dense call. -/
theorem bk_lo_L1 (c : Dev nD) (r : Ref sig .tc) (h1 : r ∉ hostOps5_W) (h2 : r ∉ ([main_v37] : List (Ref sig .tc))) :
    W13 m c r = W11 m c r :=
  (W13_of m c r h2).trans (StableHlo.after_of_writes_sub hostOps5 _ hostOps5_writes h1 : W12 m c r = W11 m c r)

/-- Across the three host stretches and the attention call. -/
theorem bk_mid_L1 (c : Dev nD) (r : Ref sig .tc) (h3 : r ∉ hostOps6_W) (h4 : r ∉ hostOps6_1_W) (h5 : r ∉ hostOps6_2_W)
    (h6 : r ∉ ([main_v45_0, main_v45_1, main_v45_2] : List (Ref sig .tc))) : W17 m c r = W13 m c r :=
  (W17_of m c r h6).trans ((StableHlo.after_of_writes_sub hostOps6_2 _ hostOps6_2_writes h5 : W16 m c r = W15 m c r).trans
    ((StableHlo.after_of_writes_sub hostOps6_1 _ hostOps6_1_writes h4 : W15 m c r = W14 m c r).trans (StableHlo.after_of_writes_sub hostOps6 _ hostOps6_writes h3 : W14 m c r = W13 m c r)))

/-- Across the message call. -/
theorem bk_msg_L1 (c : Dev nD) (r : Ref sig .tc) (h7 : r ∉ ([main_v46] : List (Ref sig .tc))) : W18 m c r = W17 m c r :=
  W18_of m c r h7

/-- Across the last host stretch. -/
theorem bk_host_L1 (c : Dev nD) (r : Ref sig .tc) (h8 : r ∉ hostOps8_W) : W19 m c r = W18 m c r :=
  StableHlo.after_of_writes_sub hostOps8 _ hostOps8_writes h8

/-- Across the whole layer. -/
theorem bk_all_L1 (c : Dev nD) (r : Ref sig .tc) (h1 : r ∉ hostOps5_W) (h2 : r ∉ ([main_v37] : List (Ref sig .tc)))
    (h3 : r ∉ hostOps6_W) (h4 : r ∉ hostOps6_1_W) (h5 : r ∉ hostOps6_2_W) (h6 : r ∉ ([main_v45_0, main_v45_1, main_v45_2] : List (Ref sig .tc)))
    (h7 : r ∉ ([main_v46] : List (Ref sig .tc))) (h8 : r ∉ hostOps8_W) (h9 : r ∉ ([main_v56] : List (Ref sig .tc))) :
    W20 m c r = W11 m c r :=
  (W20_of m c r h9).trans ((bk_host_L1 m c r h8).trans ((bk_msg_L1 m c r h7).trans
    ((bk_mid_L1 m c r h3 h4 h5 h6).trans (bk_lo_L1 m c r h1 h2))))

/-- Up to the message call's exit. -/
theorem bk_to7_L1 (c : Dev nD) (r : Ref sig .tc) (h1 : r ∉ hostOps5_W) (h2 : r ∉ ([main_v37] : List (Ref sig .tc)))
    (h3 : r ∉ hostOps6_W) (h4 : r ∉ hostOps6_1_W) (h5 : r ∉ hostOps6_2_W) (h6 : r ∉ ([main_v45_0, main_v45_1, main_v45_2] : List (Ref sig .tc)))
    (h7 : r ∉ ([main_v46] : List (Ref sig .tc))) : W18 m c r = W11 m c r :=
  (bk_msg_L1 m c r h7).trans ((bk_mid_L1 m c r h3 h4 h5 h6).trans (bk_lo_L1 m c r h1 h2))

/-- The dense call's result reaches the finalize call as the dense call left it. -/
theorem bk_hl_L1 (c : Dev nD) : W19 m c main_v37 = W13 m c main_v37 :=
  (bk_host_L1 m c main_v37 (by decide)).trans ((bk_msg_L1 m c main_v37 (by decide)).trans
    (bk_mid_L1 m c main_v37 (by decide) (by decide) (by decide) (by decide)))

/-- The layer's input array reaches the finalize call as the layer found it. -/
theorem bk_h_L1 (c : Dev nD) : W19 m c main_v31 = W11 m c main_v31 :=
  (bk_host_L1 m c main_v31 (by decide)).trans
    (bk_to7_L1 m c main_v31 (by decide) (by decide) (by decide) (by decide) (by decide) (by decide) (by decide))

/-- The gathered source rows reach the message call as the gather left them. -/
theorem bk_hj_L1 (c : Dev nD) : W17 m c main_v39 = W16 m c main_v39 :=
  W17_of m c main_v39 (by decide)

/-- At the layer's entry: the weight column, the target vector, the two layernorm arguments. -/
theorem bk_v4_in_L1 (c : Dev nD) : W11 m c main_v4 = Spec.colOf (m ((c.tc : Thread nD τ).loc main_arg2)) :=
  (bk_all_L0 m c main_v4 (by decide) (by decide) (by decide) (by decide) (by decide) (by decide) (by decide) (by decide) (by decide)).trans (bk_v4_in_L0 m c)
theorem bk_v1_in_L1 (c : Dev nD) : W11 m c main_v1 = W1 m c main_v1 :=
  (bk_all_L0 m c main_v1 (by decide) (by decide) (by decide) (by decide) (by decide) (by decide) (by decide) (by decide) (by decide)).trans (bk_v1_in_L0 m c)
theorem bk_arg9_in_L1 (c : Dev nD) : W11 m c main_arg9 = m ((c.tc : Thread nD τ).loc main_arg9) :=
  (bk_all_L0 m c main_arg9 (by decide) (by decide) (by decide) (by decide) (by decide) (by decide) (by decide) (by decide) (by decide)).trans (bk_arg9_in_L0 m c)
theorem bk_arg10_in_L1 (c : Dev nD) : W11 m c main_arg10 = m ((c.tc : Thread nD τ).loc main_arg10) :=
  (bk_all_L0 m c main_arg10 (by decide) (by decide) (by decide) (by decide) (by decide) (by decide) (by decide) (by decide) (by decide)).trans (bk_arg10_in_L0 m c)

/-- At the message call's entry the weight column is the column of the weight argument. -/
theorem bk_v4_L1 (c : Dev nD) : W17 m c main_v4 = Spec.colOf (m ((c.tc : Thread nD τ).loc main_arg2)) :=
  ((bk_mid_L1 m c main_v4 (by decide) (by decide) (by decide) (by decide)).trans
    (bk_lo_L1 m c main_v4 (by decide) (by decide))).trans (bk_v4_in_L1 m c)

/-- At the last host stretch's entry the target vector has at edge `e` the signed value of the edge's target node. -/
theorem bk_v1_L1 (c : Dev nD) (hin : Spec.InRange 100000 (m ((c.tc : Thread nD τ).loc main_arg1))) (e : Fin 1250000) :
    ((W18 m c main_v1 : S1250000.Idx → BitVec 32) (ix1 e)).toInt
      = ((Spec.endF (m ((c.tc : Thread nD τ).loc main_arg1)) hin 0 e).val : ℤ) := by
  rw [show W18 m c main_v1 = W1 m c main_v1 from (bk_to7_L1 m c main_v1 (by decide) (by decide) (by decide) (by decide) (by decide) (by decide) (by decide)).trans (bk_v1_in_L1 m c)]
  exact bk_v1_W1 m c hin e

/-- At the last host stretch's entry the two layernorm arguments are as launched. -/
theorem bk_arg9_L1 (c : Dev nD) : W18 m c main_arg9 = m ((c.tc : Thread nD τ).loc main_arg9) :=
  (bk_to7_L1 m c main_arg9 (by decide) (by decide) (by decide) (by decide) (by decide) (by decide) (by decide)).trans (bk_arg9_in_L1 m c)
theorem bk_arg10_L1 (c : Dev nD) : W18 m c main_arg10 = m ((c.tc : Thread nD τ).loc main_arg10) :=
  (bk_to7_L1 m c main_arg10 (by decide) (by decide) (by decide) (by decide) (by decide) (by decide) (by decide)).trans (bk_arg10_in_L1 m c)

/-! ## Layer 2: the boundaries 20 to 29 -/

/-- Across the first host stretch and the dense call. -/
theorem bk_lo_L2 (c : Dev nD) (r : Ref sig .tc) (h1 : r ∉ hostOps9_W) (h2 : r ∉ ([main_v62] : List (Ref sig .tc))) :
    W22 m c r = W20 m c r :=
  (W22_of m c r h2).trans (StableHlo.after_of_writes_sub hostOps9 _ hostOps9_writes h1 : W21 m c r = W20 m c r)

/-- Across the three host stretches and the attention call. -/
theorem bk_mid_L2 (c : Dev nD) (r : Ref sig .tc) (h3 : r ∉ hostOps10_W) (h4 : r ∉ hostOps10_1_W) (h5 : r ∉ hostOps10_2_W)
    (h6 : r ∉ ([main_v70_0, main_v70_1, main_v70_2] : List (Ref sig .tc))) : W26 m c r = W22 m c r :=
  (W26_of m c r h6).trans ((StableHlo.after_of_writes_sub hostOps10_2 _ hostOps10_2_writes h5 : W25 m c r = W24 m c r).trans
    ((StableHlo.after_of_writes_sub hostOps10_1 _ hostOps10_1_writes h4 : W24 m c r = W23 m c r).trans (StableHlo.after_of_writes_sub hostOps10 _ hostOps10_writes h3 : W23 m c r = W22 m c r)))

/-- Across the message call. -/
theorem bk_msg_L2 (c : Dev nD) (r : Ref sig .tc) (h7 : r ∉ ([main_v71] : List (Ref sig .tc))) : W27 m c r = W26 m c r :=
  W27_of m c r h7

/-- Across the last host stretch. -/
theorem bk_host_L2 (c : Dev nD) (r : Ref sig .tc) (h8 : r ∉ hostOps12_W) : W28 m c r = W27 m c r :=
  StableHlo.after_of_writes_sub hostOps12 _ hostOps12_writes h8

/-- Across the whole layer. -/
theorem bk_all_L2 (c : Dev nD) (r : Ref sig .tc) (h1 : r ∉ hostOps9_W) (h2 : r ∉ ([main_v62] : List (Ref sig .tc)))
    (h3 : r ∉ hostOps10_W) (h4 : r ∉ hostOps10_1_W) (h5 : r ∉ hostOps10_2_W) (h6 : r ∉ ([main_v70_0, main_v70_1, main_v70_2] : List (Ref sig .tc)))
    (h7 : r ∉ ([main_v71] : List (Ref sig .tc))) (h8 : r ∉ hostOps12_W) (h9 : r ∉ ([main_v81] : List (Ref sig .tc))) :
    W29 m c r = W20 m c r :=
  (W29_of m c r h9).trans ((bk_host_L2 m c r h8).trans ((bk_msg_L2 m c r h7).trans
    ((bk_mid_L2 m c r h3 h4 h5 h6).trans (bk_lo_L2 m c r h1 h2))))

/-- Up to the message call's exit. -/
theorem bk_to7_L2 (c : Dev nD) (r : Ref sig .tc) (h1 : r ∉ hostOps9_W) (h2 : r ∉ ([main_v62] : List (Ref sig .tc)))
    (h3 : r ∉ hostOps10_W) (h4 : r ∉ hostOps10_1_W) (h5 : r ∉ hostOps10_2_W) (h6 : r ∉ ([main_v70_0, main_v70_1, main_v70_2] : List (Ref sig .tc)))
    (h7 : r ∉ ([main_v71] : List (Ref sig .tc))) : W27 m c r = W20 m c r :=
  (bk_msg_L2 m c r h7).trans ((bk_mid_L2 m c r h3 h4 h5 h6).trans (bk_lo_L2 m c r h1 h2))

/-- The dense call's result reaches the finalize call as the dense call left it. -/
theorem bk_hl_L2 (c : Dev nD) : W28 m c main_v62 = W22 m c main_v62 :=
  (bk_host_L2 m c main_v62 (by decide)).trans ((bk_msg_L2 m c main_v62 (by decide)).trans
    (bk_mid_L2 m c main_v62 (by decide) (by decide) (by decide) (by decide)))

/-- The layer's input array reaches the finalize call as the layer found it. -/
theorem bk_h_L2 (c : Dev nD) : W28 m c main_v56 = W20 m c main_v56 :=
  (bk_host_L2 m c main_v56 (by decide)).trans
    (bk_to7_L2 m c main_v56 (by decide) (by decide) (by decide) (by decide) (by decide) (by decide) (by decide))

/-- The gathered source rows reach the message call as the gather left them. -/
theorem bk_hj_L2 (c : Dev nD) : W26 m c main_v64 = W25 m c main_v64 :=
  W26_of m c main_v64 (by decide)

/-- At the layer's entry: the weight column, the target vector, the two layernorm arguments. -/
theorem bk_v4_in_L2 (c : Dev nD) : W20 m c main_v4 = Spec.colOf (m ((c.tc : Thread nD τ).loc main_arg2)) :=
  (bk_all_L1 m c main_v4 (by decide) (by decide) (by decide) (by decide) (by decide) (by decide) (by decide) (by decide) (by decide)).trans (bk_v4_in_L1 m c)
theorem bk_v1_in_L2 (c : Dev nD) : W20 m c main_v1 = W1 m c main_v1 :=
  (bk_all_L1 m c main_v1 (by decide) (by decide) (by decide) (by decide) (by decide) (by decide) (by decide) (by decide) (by decide)).trans (bk_v1_in_L1 m c)
theorem bk_arg9_in_L2 (c : Dev nD) : W20 m c main_arg9 = m ((c.tc : Thread nD τ).loc main_arg9) :=
  (bk_all_L1 m c main_arg9 (by decide) (by decide) (by decide) (by decide) (by decide) (by decide) (by decide) (by decide) (by decide)).trans (bk_arg9_in_L1 m c)
theorem bk_arg10_in_L2 (c : Dev nD) : W20 m c main_arg10 = m ((c.tc : Thread nD τ).loc main_arg10) :=
  (bk_all_L1 m c main_arg10 (by decide) (by decide) (by decide) (by decide) (by decide) (by decide) (by decide) (by decide) (by decide)).trans (bk_arg10_in_L1 m c)

/-- At the message call's entry the weight column is the column of the weight argument. -/
theorem bk_v4_L2 (c : Dev nD) : W26 m c main_v4 = Spec.colOf (m ((c.tc : Thread nD τ).loc main_arg2)) :=
  ((bk_mid_L2 m c main_v4 (by decide) (by decide) (by decide) (by decide)).trans
    (bk_lo_L2 m c main_v4 (by decide) (by decide))).trans (bk_v4_in_L2 m c)

/-- At the last host stretch's entry the target vector has at edge `e` the signed value of the edge's target node. -/
theorem bk_v1_L2 (c : Dev nD) (hin : Spec.InRange 100000 (m ((c.tc : Thread nD τ).loc main_arg1))) (e : Fin 1250000) :
    ((W27 m c main_v1 : S1250000.Idx → BitVec 32) (ix1 e)).toInt
      = ((Spec.endF (m ((c.tc : Thread nD τ).loc main_arg1)) hin 0 e).val : ℤ) := by
  rw [show W27 m c main_v1 = W1 m c main_v1 from (bk_to7_L2 m c main_v1 (by decide) (by decide) (by decide) (by decide) (by decide) (by decide) (by decide)).trans (bk_v1_in_L2 m c)]
  exact bk_v1_W1 m c hin e

/-- At the last host stretch's entry the two layernorm arguments are as launched. -/
theorem bk_arg9_L2 (c : Dev nD) : W27 m c main_arg9 = m ((c.tc : Thread nD τ).loc main_arg9) :=
  (bk_to7_L2 m c main_arg9 (by decide) (by decide) (by decide) (by decide) (by decide) (by decide) (by decide)).trans (bk_arg9_in_L2 m c)
theorem bk_arg10_L2 (c : Dev nD) : W27 m c main_arg10 = m ((c.tc : Thread nD τ).loc main_arg10) :=
  (bk_to7_L2 m c main_arg10 (by decide) (by decide) (by decide) (by decide) (by decide) (by decide) (by decide)).trans (bk_arg10_in_L2 m c)

end Cert.KernelIdeal.HandV
-- ==== Proof.KI.GlueArgs.lean ====
/-
  The stacked weight arguments and the edges' source vector at the entry of each of the three layers: no item of the
  program before that boundary writes them.
-/
import proofs.«417395_j71579924955534_2_alg».proof.Proof.KI.Chain
import proofs.«417395_j71579924955534_2_alg».proof.Proof.KI.GlueCarry

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx

variable (m : (ℓ : Loc nD τ sig) → Buf (Elt Ideal) ℓ)

/-- `main_arg5` at the entry of each layer is as launched. -/
theorem fr_arg5_in_L0 (c : Dev nD) : W2 m c main_arg5 = m ((c.tc : Thread nD τ).loc main_arg5) :=
  (W2_of m c main_arg5 (by decide)).trans (bk_first m c main_arg5 (by decide))
theorem fr_arg5_in_L1 (c : Dev nD) : W11 m c main_arg5 = m ((c.tc : Thread nD τ).loc main_arg5) :=
  (bk_all_L0 m c main_arg5 (by decide) (by decide) (by decide) (by decide) (by decide) (by decide) (by decide) (by decide) (by decide)).trans (fr_arg5_in_L0 m c)
theorem fr_arg5_in_L2 (c : Dev nD) : W20 m c main_arg5 = m ((c.tc : Thread nD τ).loc main_arg5) :=
  (bk_all_L1 m c main_arg5 (by decide) (by decide) (by decide) (by decide) (by decide) (by decide) (by decide) (by decide) (by decide)).trans (fr_arg5_in_L1 m c)

/-- `main_arg6` at the entry of each layer is as launched. -/
theorem fr_arg6_in_L0 (c : Dev nD) : W2 m c main_arg6 = m ((c.tc : Thread nD τ).loc main_arg6) :=
  (W2_of m c main_arg6 (by decide)).trans (bk_first m c main_arg6 (by decide))
theorem fr_arg6_in_L1 (c : Dev nD) : W11 m c main_arg6 = m ((c.tc : Thread nD τ).loc main_arg6) :=
  (bk_all_L0 m c main_arg6 (by decide) (by decide) (by decide) (by decide) (by decide) (by decide) (by decide) (by decide) (by decide)).trans (fr_arg6_in_L0 m c)
theorem fr_arg6_in_L2 (c : Dev nD) : W20 m c main_arg6 = m ((c.tc : Thread nD τ).loc main_arg6) :=
  (bk_all_L1 m c main_arg6 (by decide) (by decide) (by decide) (by decide) (by decide) (by decide) (by decide) (by decide) (by decide)).trans (fr_arg6_in_L1 m c)

/-- `main_arg7` at the entry of each layer is as launched. -/
theorem fr_arg7_in_L0 (c : Dev nD) : W2 m c main_arg7 = m ((c.tc : Thread nD τ).loc main_arg7) :=
  (W2_of m c main_arg7 (by decide)).trans (bk_first m c main_arg7 (by decide))
theorem fr_arg7_in_L1 (c : Dev nD) : W11 m c main_arg7 = m ((c.tc : Thread nD τ).loc main_arg7) :=
  (bk_all_L0 m c main_arg7 (by decide) (by decide) (by decide) (by decide) (by decide) (by decide) (by decide) (by decide) (by decide)).trans (fr_arg7_in_L0 m c)
theorem fr_arg7_in_L2 (c : Dev nD) : W20 m c main_arg7 = m ((c.tc : Thread nD τ).loc main_arg7) :=
  (bk_all_L1 m c main_arg7 (by decide) (by decide) (by decide) (by decide) (by decide) (by decide) (by decide) (by decide) (by decide)).trans (fr_arg7_in_L1 m c)

/-- `main_arg8` at the entry of each layer is as launched. -/
theorem fr_arg8_in_L0 (c : Dev nD) : W2 m c main_arg8 = m ((c.tc : Thread nD τ).loc main_arg8) :=
  (W2_of m c main_arg8 (by decide)).trans (bk_first m c main_arg8 (by decide))
theorem fr_arg8_in_L1 (c : Dev nD) : W11 m c main_arg8 = m ((c.tc : Thread nD τ).loc main_arg8) :=
  (bk_all_L0 m c main_arg8 (by decide) (by decide) (by decide) (by decide) (by decide) (by decide) (by decide) (by decide) (by decide)).trans (fr_arg8_in_L0 m c)
theorem fr_arg8_in_L2 (c : Dev nD) : W20 m c main_arg8 = m ((c.tc : Thread nD τ).loc main_arg8) :=
  (bk_all_L1 m c main_arg8 (by decide) (by decide) (by decide) (by decide) (by decide) (by decide) (by decide) (by decide) (by decide)).trans (fr_arg8_in_L1 m c)

/-- The source vector at the entry of each layer is as the first host stretch left it. -/
theorem fr_v3_in_L0 (c : Dev nD) : W2 m c main_v3 = W1 m c main_v3 := W2_of m c main_v3 (by decide)
theorem fr_v3_in_L1 (c : Dev nD) : W11 m c main_v3 = W1 m c main_v3 :=
  (bk_all_L0 m c main_v3 (by decide) (by decide) (by decide) (by decide) (by decide) (by decide) (by decide) (by decide) (by decide)).trans (fr_v3_in_L0 m c)
theorem fr_v3_in_L2 (c : Dev nD) : W20 m c main_v3 = W1 m c main_v3 :=
  (bk_all_L1 m c main_v3 (by decide) (by decide) (by decide) (by decide) (by decide) (by decide) (by decide) (by decide) (by decide)).trans (fr_v3_in_L1 m c)

end Cert.KernelIdeal.HandV

end
-- ==== Proof.KI.GlueLayout.lean ====
/-
  Two layout operations read at an index: a vector kept as a column, and the first layer of a stack of three
  matrices cut out as a band.
-/
import Idealize.ShloMosaic.Lib.ValueLayout

namespace Cert.KernelIdeal.HandV

open Idealize.ShloMosaic Idealize.ShloMosaic.ValueIdx

/-- A vector kept as a column, read at row `e`. -/
theorem glue_shapeCast_col_apply {α : Type} {a : ℕ} (x : (⟨1, ![a]⟩ : Shape).Idx → α)
    (h : (⟨1, ![a]⟩ : Shape).ShapeCasts ⟨2, ![a, 1]⟩) (e : Fin a) (u : Fin 1) :
    shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- Layer `i` of a stack of three matrices, cut out as the `[1, a, b]` band that starts at offset `o = i`. -/
theorem glue_slice3_layer_apply {α : Type} {a b : ℕ} (o : ℕ) (i : Fin 3) (ho : i.val = o)
    (x : (⟨3, ![3, a, b]⟩ : Shape).Idx → α)
    (h : (⟨3, ![3, a, b]⟩ : Shape).Slices ![o, 0, 0] ⟨3, ![1, a, b]⟩) (u : Fin 1) (p : Fin a) (q : Fin b) :
    extractStridedSlice ⟨3, ![1, a, b]⟩ ![o, 0, 0] x h (ix3 u p q) = x (ix3 i p q) :=
  extractStridedSlice_apply _ _ _ _ _ (fun ax => by
    match ax with
    | ⟨0, _⟩ => have hu : u.val = 0 := by omega
                show i.val = o + u.val
                rw [hu, Nat.add_zero, ho]
    | ⟨1, _⟩ => exact (Nat.zero_add _).symm
    | ⟨2, _⟩ => exact (Nat.zero_add _).symm)

end Cert.KernelIdeal.HandV
-- ==== Proof.KI.GlueEdge.lean ====
/-
  The first host stretch read at the buffers every layer takes, over ANY contents on entry: the edge array's two rows
  kept as vectors, and the edge weights kept as a column.
-/
import proofs.«417395_j71579924955534_2_alg».proof.Proof.Gen.KernelIdeal.Launch
import proofs.«417395_j71579924955534_2_alg».proof.Proof.Spec
import proofs.«417395_j71579924955534_2_alg».proof.Proof.KI.GlueLayout
import Idealize.ShloMosaic.Lib.ValueLayout

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.ShloMosaic.StableHlo

variable (X : Valuation τ sig (Elt Ideal))

/-- Row 0 of the edge array as a vector. -/
theorem ops0_v1 (e : Fin 1250000) :
    (StableHlo.after hostOps0 X (Proc.devRef .tc main_v1) : S1250000.Idx → BitVec 32) (ix1 e)
      = (X (Proc.devRef .tc main_arg1) : S2x1250000.Idx → BitVec 32) (ix2 (0 : Fin 2) e) := by
  after_results
  show shapeCast S1250000 (extractStridedSlice S1x1250000 ![0, 0] (X (Proc.devRef .tc main_arg1)) slices_S2x1250000_S1x1250000_0_0)
      shapeCasts_S1x1250000_S1250000 (ix1 e) = _
  rw [shapeCast_1a_a_apply]
  exact slice2_axis0_apply 0 _ _ (0 : Fin 1) e (0 : Fin 2) rfl

/-- Row 1 of the edge array as a vector. -/
theorem ops0_v3 (e : Fin 1250000) :
    (StableHlo.after hostOps0 X (Proc.devRef .tc main_v3) : S1250000.Idx → BitVec 32) (ix1 e)
      = (X (Proc.devRef .tc main_arg1) : S2x1250000.Idx → BitVec 32) (ix2 (1 : Fin 2) e) := by
  after_results
  show shapeCast S1250000 (extractStridedSlice S1x1250000 ![1, 0] (X (Proc.devRef .tc main_arg1)) slices_S2x1250000_S1x1250000_1_0)
      shapeCasts_S1x1250000_S1250000 (ix1 e) = _
  rw [shapeCast_1a_a_apply]
  exact slice2_axis0_apply 1 _ _ (0 : Fin 1) e (1 : Fin 2) rfl

/-- The edge weights as a column. -/
theorem ops0_v4 :
    (StableHlo.after hostOps0 X (Proc.devRef .tc main_v4) : S1250000x1.Idx → EReal)
      = Spec.colOf (X (Proc.devRef .tc main_arg2) : S1250000.Idx → EReal) := by
  after_results
  funext j
  obtain ⟨e, u, rfl⟩ : ∃ (e : Fin 1250000) (u : Fin 1), j = ix2 e u := ⟨j 0, j 1, eq_ix2 j⟩
  show shapeCast S1250000x1 (X (Proc.devRef .tc main_arg2)) shapeCasts_S1250000_S1250000x1 (ix2 e u) = _
  rw [glue_shapeCast_col_apply]
  rfl

end Cert.KernelIdeal.HandV

end
-- ==== Proof.KI.GlueL0Host.lean ====
/-
  The host stretches of layer 0 read at the buffers the kernel regions take, over ANY contents on entry: slices of the
  stacked weight arrays as the specification's layer selections, one per window of the dense call and of the attention call.
-/
import proofs.«417395_j71579924955534_2_alg».proof.Proof.Gen.KernelIdeal.Launch
import proofs.«417395_j71579924955534_2_alg».proof.Proof.Spec
import proofs.«417395_j71579924955534_2_alg».proof.Proof.KI.GlueLayout
import Idealize.ShloMosaic.Lib.ValueLayout

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.ShloMosaic.StableHlo

variable (X : Valuation τ sig (Elt Ideal))

/-- The layer's weight matrix. -/
theorem ops1_v8 :
    (StableHlo.after hostOps1 X (Proc.devRef .tc main_v8) : S64x64.Idx → EReal)
      = Spec.sel3 0 (X (Proc.devRef .tc main_arg5) : S3x64x64.Idx → EReal) := by
  after_results
  funext j
  obtain ⟨p, q, rfl⟩ : ∃ (p : Fin 64) (q : Fin 64), j = ix2 p q := ⟨j 0, j 1, eq_ix2 j⟩
  show shapeCast S64x64 (extractStridedSlice S1x64x64 ![0, 0, 0] (X (Proc.devRef .tc main_arg5)) slices_S3x64x64_S1x64x64_0_0_0)
      shapeCasts_S1x64x64_S64x64 (ix2 p q) = _
  rw [shapeCast_1ab_ab_apply, glue_slice3_layer_apply 0 (0 : Fin 3) rfl]
  rfl

/-- The layer's bias, kept as a one-row matrix. -/
theorem ops1_v11 :
    (fun j : S64.Idx => (StableHlo.after hostOps1 X (Proc.devRef .tc main_v11) : S1x64.Idx → EReal) (ix2 (0 : Fin 1) (Spec.d0 j)))
      = Spec.sel2 0 (X (Proc.devRef .tc main_arg6) : S3x64.Idx → EReal) := by
  after_results
  funext j
  show shapeCast S1x64 (shapeCast S64 (extractStridedSlice S1x64 ![0, 0] (X (Proc.devRef .tc main_arg6)) slices_S3x64_S1x64_0_0)
      shapeCasts_S1x64_S64) shapeCasts_S64_S1x64 (ix2 (0 : Fin 1) (Spec.d0 j)) = _
  rw [shapeCast_a_1a_apply, shapeCast_1a_a_apply]
  exact slice2_axis0_apply 0 _ _ (0 : Fin 1) _ (0 : Fin 3) rfl

/-- Layer 0's attention vector. -/
theorem ops2_2_v16 :
    (StableHlo.after hostOps2_2 X (Proc.devRef .tc main_v16) : S128x1.Idx → EReal)
      = Spec.sel3 0 (X (Proc.devRef .tc main_arg7) : S3x128x1.Idx → EReal) := by
  after_results
  funext j
  obtain ⟨p, q, rfl⟩ : ∃ (p : Fin 128) (q : Fin 1), j = ix2 p q := ⟨j 0, j 1, eq_ix2 j⟩
  show shapeCast S128x1 (extractStridedSlice S1x128x1 ![0, 0, 0] (X (Proc.devRef .tc main_arg7)) slices_S3x128x1_S1x128x1_0_0_0)
      shapeCasts_S1x128x1_S128x1 (ix2 p q) = _
  rw [shapeCast_1ab_ab_apply, glue_slice3_layer_apply 0 (0 : Fin 3) rfl]
  rfl

/-- Layer 0's attention bias, kept as a one-entry matrix. -/
theorem ops2_2_v19 :
    Spec.rowOf (StableHlo.after hostOps2_2 X (Proc.devRef .tc main_v19) : S1x1.Idx → EReal)
      = Spec.sel2 0 (X (Proc.devRef .tc main_arg8) : S3x1.Idx → EReal) := by
  after_results
  funext j
  show shapeCast S1x1 (shapeCast S1 (extractStridedSlice S1x1 ![0, 0] (X (Proc.devRef .tc main_arg8)) slices_S3x1_S1x1_0_0)
      shapeCasts_S1x1_S1) shapeCasts_S1_S1x1 (ix2 (0 : Fin 1) (Spec.d0 j)) = _
  rw [shapeCast_a_1a_apply, shapeCast_1a_a_apply]
  exact slice2_axis0_apply 0 _ _ (0 : Fin 1) _ (0 : Fin 3) rfl

end Cert.KernelIdeal.HandV

end
-- ==== Proof.KI.GlueTake.lean ====
/-
  The kernel program's two row gathers per layer, `jnp.take` in fill mode, read as the specification's `rowsOf`:
  for an index vector whose entries are node numbers, the gathered array is the rows of the table the entries name.
  The stretch of host operations is cut in three — the index normalised and kept as a column; the fill mask
  `0 ≤ idx ≤ N − 1` reduced by `and`; the gather, the mask along the rows, the select — each piece read over any
  previous contents.
-/
import proofs.«417395_j71579924955534_2_alg».proof.Proof.KernelIdealRegions
import proofs.«417395_j71579924955534_2_alg».proof.Proof.Math.Gather
import proofs.«417395_j71579924955534_2_alg».proof.Proof.Spec
import Idealize.ShloMosaic.Lib.StableHlo.Run
import Idealize.ShloMosaic.Lib.ValueIdx

set_option maxRecDepth 16384

noncomputable section

namespace Cert.KernelIdeal.HandV

open Cert.KernelIdeal Cert.KernelIdeal.Gen Cert.KernelIdeal.GenP
open Idealize.ShloMosaic Idealize.ShloMosaic.TcCoe Idealize.SL.Sem Idealize.ShloMosaic.ValueIdx

/-! ## Layer 0, the rows gather: the stretch in three pieces -/

/-- The index normalised and kept as a column. -/
abbrev take2A : List (HloOp τ sig (Elt Ideal)) := (hostOps2 (F := Ideal)).take 8
/-- The fill mask. -/
abbrev take2B : List (HloOp τ sig (Elt Ideal)) := ((hostOps2 (F := Ideal)).drop 8).take 10
/-- The gather, the mask along the rows, the fill value, the select. -/
abbrev take2C : List (HloOp τ sig (Elt Ideal)) := (hostOps2 (F := Ideal)).drop 18

theorem take2_split : (hostOps2 (F := Ideal)) = take2A ++ (take2B ++ take2C) := rfl

theorem take2A_v5 (X : Valuation τ sig (Elt Ideal)) :
    (StableHlo.after take2A X (Proc.devRef .tc main_call0_v5) : IVec S1250000x1 32)
      = broadcastInDim S1250000x1 ![0] Facts₀.bcast_S1250000_S1250000x1_0
          (select (cmpi .slt (X (Proc.devRef .tc main_v1) : IVec S1250000 32)
              (broadcastInDim S1250000 ![] Facts₀.bcast_S_S1250000 (constantI S_ 32 0#32)))
            (addi (X (Proc.devRef .tc main_v1) : IVec S1250000 32)
              (broadcastInDim S1250000 ![] Facts₀.bcast_S_S1250000 (constantI S_ 32 100000#32)))
            (X (Proc.devRef .tc main_v1) : IVec S1250000 32)) := by
  dsimp only [take2A, hostOps2, List.take]
  after_results
  rfl

theorem take2A_m12 (X : Valuation τ sig (Elt Ideal)) :
    StableHlo.after take2A X (Proc.devRef .tc main_v12) = X (Proc.devRef .tc main_v12) := by
  dsimp only [take2A, hostOps2, List.take]
  after_results

section
attribute [local irreducible] Host.reduce
theorem take2B_v12 (Y : Valuation τ sig (Elt Ideal)) :
    (StableHlo.after take2B Y (Proc.devRef .tc main_call0_v12) : IVec S1250000 1)
      = Host.reduce IntOp.andi
          (andi (cmpi .sge (Y (Proc.devRef .tc main_call0_v5) : IVec S1250000x1 32)
              (broadcastInDim S1250000x1 ![] Facts₀.bcast_S_S1250000x1 (constantI S_ 32 0#32)))
            (cmpi .sle (Y (Proc.devRef .tc main_call0_v5) : IVec S1250000x1 32)
              (broadcastInDim S1250000x1 ![0, 1] Facts₀.bcast_S1x1_S1250000x1_0_1
                (broadcastInDim S1x1 ![1] Facts₀.bcast_S1_S1x1_1 (constantI S1 32 99999#32)))))
          (constantI S_ 1 1#1) Facts₀.reducesTo_S1250000x1_S1250000_d1 Facts₀.h_S_ := by
  dsimp only [take2B, hostOps2, List.take, List.drop]
  after_results
  rfl
end

theorem take2B_v5 (Y : Valuation τ sig (Elt Ideal)) :
    StableHlo.after take2B Y (Proc.devRef .tc main_call0_v5) = Y (Proc.devRef .tc main_call0_v5) := by
  dsimp only [take2B, hostOps2, List.take, List.drop]
  after_results

theorem take2B_m12 (Y : Valuation τ sig (Elt Ideal)) :
    StableHlo.after take2B Y (Proc.devRef .tc main_v12) = Y (Proc.devRef .tc main_v12) := by
  dsimp only [take2B, hostOps2, List.take, List.drop]
  after_results

theorem take2C_v13 (W : Valuation τ sig (Elt Ideal)) :
    (StableHlo.after take2C W (Proc.devRef .tc main_v13) : S1250000x64.Idx → EReal)
      = select (broadcastInDim S1250000x64 ![0] Facts₀.bcast_S1250000_S1250000x64_0
            (W (Proc.devRef .tc main_call0_v12) : IVec S1250000 1))
          (Host.gather gather_S100000x64_S1250000x1_S1250000x64_1_0_n_n_0_1_164
            (W (Proc.devRef .tc main_v12) : S100000x64.Idx → EReal)
            (W (Proc.devRef .tc main_call0_v5) : IVec S1250000x1 32))
          (broadcastInDim S1250000x64 ![] Facts₀.bcast_S_S1250000x64 (constant (F := Ideal) S_ .f32 0x7FC00000#32)) := by
  dsimp only [take2C, hostOps2, List.drop]
  after_results
  rfl

/-- THE ROWS GATHER OF LAYER 0: over any previous contents whose index vector names nodes. -/
theorem take_rows (X : Valuation τ sig (Elt Ideal)) (r : Fin 1250000 → Fin 100000)
    (hV : ∀ e, ((X (Proc.devRef .tc main_v1) : IVec S1250000 32) (ix1 e)).toInt = ((r e).val : ℤ)) :
    (StableHlo.after hostOps2 X (Proc.devRef .tc main_v13) : S1250000x64.Idx → EReal)
      = Spec.rowsOf (X (Proc.devRef .tc main_v12) : S100000x64.Idx → EReal) r := by
  rw [take2_split, StableHlo.after_append, StableHlo.after_append, take2C_v13, take2B_v12, take2B_m12, take2B_v5,
    take2A_m12, take2A_v5]
  exact Spec.takeFill_eq_rowsOf _ rfl rfl rfl rfl rfl rfl rfl _ _ _ _ _ _ _ _ _ _ _ _ r (fun _ => rfl) hV (fun _ => rfl)
    (fun _ => by show (99999#32 : BitVec 32).toInt = ((100000 : ℕ) : ℤ) - 1; decide) (fun _ => rfl)

/-! ## Layer 0, the columns gather: the stretch in three pieces -/

/-- The index normalised and kept as a column. -/
abbrev take2_1A : List (HloOp τ sig (Elt Ideal)) := (hostOps2_1 (F := Ideal)).take 8
/-- The fill mask. -/
abbrev take2_1B : List (HloOp τ sig (Elt Ideal)) := ((hostOps2_1 (F := Ideal)).drop 8).take 10
/-- The gather, the mask along the rows, the fill value, the select. -/
abbrev take2_1C : List (HloOp τ sig (Elt Ideal)) := (hostOps2_1 (F := Ideal)).drop 18

theorem take2_1_split : (hostOps2_1 (F := Ideal)) = take2_1A ++ (take2_1B ++ take2_1C) := rfl

theorem take2_1A_v5 (X : Valuation τ sig (Elt Ideal)) :
    (StableHlo.after take2_1A X (Proc.devRef .tc main_call1_v5) : IVec S1250000x1 32)
      = broadcastInDim S1250000x1 ![0] Facts₀.bcast_S1250000_S1250000x1_0
          (select (cmpi .slt (X (Proc.devRef .tc main_v3) : IVec S1250000 32)
              (broadcastInDim S1250000 ![] Facts₀.bcast_S_S1250000 (constantI S_ 32 0#32)))
            (addi (X (Proc.devRef .tc main_v3) : IVec S1250000 32)
              (broadcastInDim S1250000 ![] Facts₀.bcast_S_S1250000 (constantI S_ 32 100000#32)))
            (X (Proc.devRef .tc main_v3) : IVec S1250000 32)) := by
  dsimp only [take2_1A, hostOps2_1, List.take]
  after_results
  rfl

theorem take2_1A_m12 (X : Valuation τ sig (Elt Ideal)) :
    StableHlo.after take2_1A X (Proc.devRef .tc main_v12) = X (Proc.devRef .tc main_v12) := by
  dsimp only [take2_1A, hostOps2_1, List.take]
  after_results

section
attribute [local irreducible] Host.reduce
theorem take2_1B_v12 (Y : Valuation τ sig (Elt Ideal)) :
    (StableHlo.after take2_1B Y (Proc.devRef .tc main_call1_v12) : IVec S1250000 1)
      = Host.reduce IntOp.andi
          (andi (cmpi .sge (Y (Proc.devRef .tc main_call1_v5) : IVec S1250000x1 32)
              (broadcastInDim S1250000x1 ![] Facts₀.bcast_S_S1250000x1 (constantI S_ 32 0#32)))
            (cmpi .sle (Y (Proc.devRef .tc main_call1_v5) : IVec S1250000x1 32)
              (broadcastInDim S1250000x1 ![0, 1] Facts₀.bcast_S1x1_S1250000x1_0_1
                (broadcastInDim S1x1 ![1] Facts₀.bcast_S1_S1x1_1 (constantI S1 32 99999#32)))))
          (constantI S_ 1 1#1) Facts₀.reducesTo_S1250000x1_S1250000_d1 Facts₀.h_S_ := by
  dsimp only [take2_1B, hostOps2_1, List.take, List.drop]
  after_results
  rfl
end

theorem take2_1B_v5 (Y : Valuation τ sig (Elt Ideal)) :
    StableHlo.after take2_1B Y (Proc.devRef .tc main_call1_v5) = Y (Proc.devRef .tc main_call1_v5) := by
  dsimp only [take2_1B, hostOps2_1, List.take, List.drop]
  after_results

theorem take2_1B_m12 (Y : Valuation τ sig (Elt Ideal)) :
    StableHlo.after take2_1B Y (Proc.devRef .tc main_v12) = Y (Proc.devRef .tc main_v12) := by
  dsimp only [take2_1B, hostOps2_1, List.take, List.drop]
  after_results

theorem take2_1C_v13 (W : Valuation τ sig (Elt Ideal)) :
    (StableHlo.after take2_1C W (Proc.devRef .tc main_v14) : S1250000x64.Idx → EReal)
      = select (broadcastInDim S1250000x64 ![0] Facts₀.bcast_S1250000_S1250000x64_0
            (W (Proc.devRef .tc main_call1_v12) : IVec S1250000 1))
          (Host.gather gather_S100000x64_S1250000x1_S1250000x64_1_0_n_n_0_1_164
            (W (Proc.devRef .tc main_v12) : S100000x64.Idx → EReal)
            (W (Proc.devRef .tc main_call1_v5) : IVec S1250000x1 32))
          (broadcastInDim S1250000x64 ![] Facts₀.bcast_S_S1250000x64 (constant (F := Ideal) S_ .f32 0x7FC00000#32)) := by
  dsimp only [take2_1C, hostOps2_1, List.drop]
  after_results
  rfl

/-- THE COLUMNS GATHER OF LAYER 0: over any previous contents whose index vector names nodes. -/
theorem take_cols (X : Valuation τ sig (Elt Ideal)) (r : Fin 1250000 → Fin 100000)
    (hV : ∀ e, ((X (Proc.devRef .tc main_v3) : IVec S1250000 32) (ix1 e)).toInt = ((r e).val : ℤ)) :
    (StableHlo.after hostOps2_1 X (Proc.devRef .tc main_v14) : S1250000x64.Idx → EReal)
      = Spec.rowsOf (X (Proc.devRef .tc main_v12) : S100000x64.Idx → EReal) r := by
  rw [take2_1_split, StableHlo.after_append, StableHlo.after_append, take2_1C_v13, take2_1B_v12, take2_1B_m12, take2_1B_v5,
    take2_1A_m12, take2_1A_v5]
  exact Spec.takeFill_eq_rowsOf _ rfl rfl rfl rfl rfl rfl rfl _ _ _ _ _ _ _ _ _ _ _ _ r (fun _ => rfl) hV (fun _ => rfl)
    (fun _ => by show (99999#32 : BitVec 32).toInt = ((100000 : ℕ) : ℤ) - 1; decide) (fun _ => rfl)

/-! ## Layer 1, the rows gather: the stretch in three pieces -/

/-- The index normalised and kept as a column. -/
abbrev take6A : List (HloOp τ sig (Elt Ideal)) := (hostOps6 (F := Ideal)).take 8
/-- The fill mask. -/
abbrev take6B : List (HloOp τ sig (Elt Ideal)) := ((hostOps6 (F := Ideal)).drop 8).take 10
/-- The gather, the mask along the rows, the fill value, the select. -/
abbrev take6C : List (HloOp τ sig (Elt Ideal)) := (hostOps6 (F := Ideal)).drop 18

theorem take6_split : (hostOps6 (F := Ideal)) = take6A ++ (take6B ++ take6C) := rfl

theorem take6A_v5 (X : Valuation τ sig (Elt Ideal)) :
    (StableHlo.after take6A X (Proc.devRef .tc main_call2_v5) : IVec S1250000x1 32)
      = broadcastInDim S1250000x1 ![0] Facts₀.bcast_S1250000_S1250000x1_0
          (select (cmpi .slt (X (Proc.devRef .tc main_v1) : IVec S1250000 32)
              (broadcastInDim S1250000 ![] Facts₀.bcast_S_S1250000 (constantI S_ 32 0#32)))
            (addi (X (Proc.devRef .tc main_v1) : IVec S1250000 32)
              (broadcastInDim S1250000 ![] Facts₀.bcast_S_S1250000 (constantI S_ 32 100000#32)))
            (X (Proc.devRef .tc main_v1) : IVec S1250000 32)) := by
  dsimp only [take6A, hostOps6, List.take]
  after_results
  rfl

theorem take6A_m12 (X : Valuation τ sig (Elt Ideal)) :
    StableHlo.after take6A X (Proc.devRef .tc main_v37) = X (Proc.devRef .tc main_v37) := by
  dsimp only [take6A, hostOps6, List.take]
  after_results

section
attribute [local irreducible] Host.reduce
theorem take6B_v12 (Y : Valuation τ sig (Elt Ideal)) :
    (StableHlo.after take6B Y (Proc.devRef .tc main_call2_v12) : IVec S1250000 1)
      = Host.reduce IntOp.andi
          (andi (cmpi .sge (Y (Proc.devRef .tc main_call2_v5) : IVec S1250000x1 32)
              (broadcastInDim S1250000x1 ![] Facts₀.bcast_S_S1250000x1 (constantI S_ 32 0#32)))
            (cmpi .sle (Y (Proc.devRef .tc main_call2_v5) : IVec S1250000x1 32)
              (broadcastInDim S1250000x1 ![0, 1] Facts₀.bcast_S1x1_S1250000x1_0_1
                (broadcastInDim S1x1 ![1] Facts₀.bcast_S1_S1x1_1 (constantI S1 32 99999#32)))))
          (constantI S_ 1 1#1) Facts₀.reducesTo_S1250000x1_S1250000_d1 Facts₀.h_S_ := by
  dsimp only [take6B, hostOps6, List.take, List.drop]
  after_results
  rfl
end

theorem take6B_v5 (Y : Valuation τ sig (Elt Ideal)) :
    StableHlo.after take6B Y (Proc.devRef .tc main_call2_v5) = Y (Proc.devRef .tc main_call2_v5) := by
  dsimp only [take6B, hostOps6, List.take, List.drop]
  after_results

theorem take6B_m12 (Y : Valuation τ sig (Elt Ideal)) :
    StableHlo.after take6B Y (Proc.devRef .tc main_v37) = Y (Proc.devRef .tc main_v37) := by
  dsimp only [take6B, hostOps6, List.take, List.drop]
  after_results

theorem take6C_v13 (W : Valuation τ sig (Elt Ideal)) :
    (StableHlo.after take6C W (Proc.devRef .tc main_v38) : S1250000x64.Idx → EReal)
      = select (broadcastInDim S1250000x64 ![0] Facts₀.bcast_S1250000_S1250000x64_0
            (W (Proc.devRef .tc main_call2_v12) : IVec S1250000 1))
          (Host.gather gather_S100000x64_S1250000x1_S1250000x64_1_0_n_n_0_1_164
            (W (Proc.devRef .tc main_v37) : S100000x64.Idx → EReal)
            (W (Proc.devRef .tc main_call2_v5) : IVec S1250000x1 32))
          (broadcastInDim S1250000x64 ![] Facts₀.bcast_S_S1250000x64 (constant (F := Ideal) S_ .f32 0x7FC00000#32)) := by
  dsimp only [take6C, hostOps6, List.drop]
  after_results
  rfl

/-- THE ROWS GATHER OF LAYER 1: over any previous contents whose index vector names nodes. -/
theorem take_rows1 (X : Valuation τ sig (Elt Ideal)) (r : Fin 1250000 → Fin 100000)
    (hV : ∀ e, ((X (Proc.devRef .tc main_v1) : IVec S1250000 32) (ix1 e)).toInt = ((r e).val : ℤ)) :
    (StableHlo.after hostOps6 X (Proc.devRef .tc main_v38) : S1250000x64.Idx → EReal)
      = Spec.rowsOf (X (Proc.devRef .tc main_v37) : S100000x64.Idx → EReal) r := by
  rw [take6_split, StableHlo.after_append, StableHlo.after_append, take6C_v13, take6B_v12, take6B_m12, take6B_v5,
    take6A_m12, take6A_v5]
  exact Spec.takeFill_eq_rowsOf _ rfl rfl rfl rfl rfl rfl rfl _ _ _ _ _ _ _ _ _ _ _ _ r (fun _ => rfl) hV (fun _ => rfl)
    (fun _ => by show (99999#32 : BitVec 32).toInt = ((100000 : ℕ) : ℤ) - 1; decide) (fun _ => rfl)

/-! ## Layer 1, the columns gather: the stretch in three pieces -/

/-- The index normalised and kept as a column. -/
abbrev take6_1A : List (HloOp τ sig (Elt Ideal)) := (hostOps6_1 (F := Ideal)).take 8
/-- The fill mask. -/
abbrev take6_1B : List (HloOp τ sig (Elt Ideal)) := ((hostOps6_1 (F := Ideal)).drop 8).take 10
/-- The gather, the mask along the rows, the fill value, the select. -/
abbrev take6_1C : List (HloOp τ sig (Elt Ideal)) := (hostOps6_1 (F := Ideal)).drop 18

theorem take6_1_split : (hostOps6_1 (F := Ideal)) = take6_1A ++ (take6_1B ++ take6_1C) := rfl

theorem take6_1A_v5 (X : Valuation τ sig (Elt Ideal)) :
    (StableHlo.after take6_1A X (Proc.devRef .tc main_call3_v5) : IVec S1250000x1 32)
      = broadcastInDim S1250000x1 ![0] Facts₀.bcast_S1250000_S1250000x1_0
          (select (cmpi .slt (X (Proc.devRef .tc main_v3) : IVec S1250000 32)
              (broadcastInDim S1250000 ![] Facts₀.bcast_S_S1250000 (constantI S_ 32 0#32)))
            (addi (X (Proc.devRef .tc main_v3) : IVec S1250000 32)
              (broadcastInDim S1250000 ![] Facts₀.bcast_S_S1250000 (constantI S_ 32 100000#32)))
            (X (Proc.devRef .tc main_v3) : IVec S1250000 32)) := by
  dsimp only [take6_1A, hostOps6_1, List.take]
  after_results
  rfl

theorem take6_1A_m12 (X : Valuation τ sig (Elt Ideal)) :
    StableHlo.after take6_1A X (Proc.devRef .tc main_v37) = X (Proc.devRef .tc main_v37) := by
  dsimp only [take6_1A, hostOps6_1, List.take]
  after_results

section
attribute [local irreducible] Host.reduce
theorem take6_1B_v12 (Y : Valuation τ sig (Elt Ideal)) :
    (StableHlo.after take6_1B Y (Proc.devRef .tc main_call3_v12) : IVec S1250000 1)
      = Host.reduce IntOp.andi
          (andi (cmpi .sge (Y (Proc.devRef .tc main_call3_v5) : IVec S1250000x1 32)
              (broadcastInDim S1250000x1 ![] Facts₀.bcast_S_S1250000x1 (constantI S_ 32 0#32)))
            (cmpi .sle (Y (Proc.devRef .tc main_call3_v5) : IVec S1250000x1 32)
              (broadcastInDim S1250000x1 ![0, 1] Facts₀.bcast_S1x1_S1250000x1_0_1
                (broadcastInDim S1x1 ![1] Facts₀.bcast_S1_S1x1_1 (constantI S1 32 99999#32)))))
          (constantI S_ 1 1#1) Facts₀.reducesTo_S1250000x1_S1250000_d1 Facts₀.h_S_ := by
  dsimp only [take6_1B, hostOps6_1, List.take, List.drop]
  after_results
  rfl
end

theorem take6_1B_v5 (Y : Valuation τ sig (Elt Ideal)) :
    StableHlo.after take6_1B Y (Proc.devRef .tc main_call3_v5) = Y (Proc.devRef .tc main_call3_v5) := by
  dsimp only [take6_1B, hostOps6_1, List.take, List.drop]
  after_results

theorem take6_1B_m12 (Y : Valuation τ sig (Elt Ideal)) :
    StableHlo.after take6_1B Y (Proc.devRef .tc main_v37) = Y (Proc.devRef .tc main_v37) := by
  dsimp only [take6_1B, hostOps6_1, List.take, List.drop]
  after_results

theorem take6_1C_v13 (W : Valuation τ sig (Elt Ideal)) :
    (StableHlo.after take6_1C W (Proc.devRef .tc main_v39) : S1250000x64.Idx → EReal)
      = select (broadcastInDim S1250000x64 ![0] Facts₀.bcast_S1250000_S1250000x64_0
            (W (Proc.devRef .tc main_call3_v12) : IVec S1250000 1))
          (Host.gather gather_S100000x64_S1250000x1_S1250000x64_1_0_n_n_0_1_164
            (W (Proc.devRef .tc main_v37) : S100000x64.Idx → EReal)
            (W (Proc.devRef .tc main_call3_v5) : IVec S1250000x1 32))
          (broadcastInDim S1250000x64 ![] Facts₀.bcast_S_S1250000x64 (constant (F := Ideal) S_ .f32 0x7FC00000#32)) := by
  dsimp only [take6_1C, hostOps6_1, List.drop]
  after_results
  rfl

/-- THE COLUMNS GATHER OF LAYER 1: over any previous contents whose index vector names nodes. -/
theorem take_cols1 (X : Valuation τ sig (Elt Ideal)) (r : Fin 1250000 → Fin 100000)
    (hV : ∀ e, ((X (Proc.devRef .tc main_v3) : IVec S1250000 32) (ix1 e)).toInt = ((r e).val : ℤ)) :
    (StableHlo.after hostOps6_1 X (Proc.devRef .tc main_v39) : S1250000x64.Idx → EReal)
      = Spec.rowsOf (X (Proc.devRef .tc main_v37) : S100000x64.Idx → EReal) r := by
  rw [take6_1_split, StableHlo.after_append, StableHlo.after_append, take6_1C_v13, take6_1B_v12, take6_1B_m12, take6_1B_v5,
    take6_1A_m12, take6_1A_v5]
  exact Spec.takeFill_eq_rowsOf _ rfl rfl rfl rfl rfl rfl rfl _ _ _ _ _ _ _ _ _ _ _ _ r (fun _ => rfl) hV (fun _ => rfl)
    (fun _ => by show (99999#32 : BitVec 32).toInt = ((100000 : ℕ) : ℤ) - 1; decide) (fun _ => rfl)

/-! ## Layer 2, the rows gather: the stretch in three pieces -/

/-- The index normalised and kept as a column. -/
abbrev take10A : List (HloOp τ sig (Elt Ideal)) := (hostOps10 (F := Ideal)).take 8
/-- The fill mask. -/
abbrev take10B : List (HloOp τ sig (Elt Ideal)) := ((hostOps10 (F := Ideal)).drop 8).take 10
/-- The gather, the mask along the rows, the fill value, the select. -/
abbrev take10C : List (HloOp τ sig (Elt Ideal)) := (hostOps10 (F := Ideal)).drop 18

theorem take10_split : (hostOps10 (F := Ideal)) = take10A ++ (take10B ++ take10C) := rfl

theorem take10A_v5 (X : Valuation τ sig (Elt Ideal)) :
    (StableHlo.after take10A X (Proc.devRef .tc main_call4_v5) : IVec S1250000x1 32)
      = broadcastInDim S1250000x1 ![0] Facts₀.bcast_S1250000_S1250000x1_0
          (select (cmpi .slt (X (Proc.devRef .tc main_v1) : IVec S1250000 32)
              (broadcastInDim S1250000 ![] Facts₀.bcast_S_S1250000 (constantI S_ 32 0#32)))
            (addi (X (Proc.devRef .tc main_v1) : IVec S1250000 32)
              (broadcastInDim S1250000 ![] Facts₀.bcast_S_S1250000 (constantI S_ 32 100000#32)))
            (X (Proc.devRef .tc main_v1) : IVec S1250000 32)) := by
  dsimp only [take10A, hostOps10, List.take]
  after_results
  rfl

theorem take10A_m12 (X : Valuation τ sig (Elt Ideal)) :
    StableHlo.after take10A X (Proc.devRef .tc main_v62) = X (Proc.devRef .tc main_v62) := by
  dsimp only [take10A, hostOps10, List.take]
  after_results

section
attribute [local irreducible] Host.reduce
theorem take10B_v12 (Y : Valuation τ sig (Elt Ideal)) :
    (StableHlo.after take10B Y (Proc.devRef .tc main_call4_v12) : IVec S1250000 1)
      = Host.reduce IntOp.andi
          (andi (cmpi .sge (Y (Proc.devRef .tc main_call4_v5) : IVec S1250000x1 32)
              (broadcastInDim S1250000x1 ![] Facts₀.bcast_S_S1250000x1 (constantI S_ 32 0#32)))
            (cmpi .sle (Y (Proc.devRef .tc main_call4_v5) : IVec S1250000x1 32)
              (broadcastInDim S1250000x1 ![0, 1] Facts₀.bcast_S1x1_S1250000x1_0_1
                (broadcastInDim S1x1 ![1] Facts₀.bcast_S1_S1x1_1 (constantI S1 32 99999#32)))))
          (constantI S_ 1 1#1) Facts₀.reducesTo_S1250000x1_S1250000_d1 Facts₀.h_S_ := by
  dsimp only [take10B, hostOps10, List.take, List.drop]
  after_results
  rfl
end

theorem take10B_v5 (Y : Valuation τ sig (Elt Ideal)) :
    StableHlo.after take10B Y (Proc.devRef .tc main_call4_v5) = Y (Proc.devRef .tc main_call4_v5) := by
  dsimp only [take10B, hostOps10, List.take, List.drop]
  after_results

theorem take10B_m12 (Y : Valuation τ sig (Elt Ideal)) :
    StableHlo.after take10B Y (Proc.devRef .tc main_v62) = Y (Proc.devRef .tc main_v62) := by
  dsimp only [take10B, hostOps10, List.take, List.drop]
  after_results

theorem take10C_v13 (W : Valuation τ sig (Elt Ideal)) :
    (StableHlo.after take10C W (Proc.devRef .tc main_v63) : S1250000x64.Idx → EReal)
      = select (broadcastInDim S1250000x64 ![0] Facts₀.bcast_S1250000_S1250000x64_0
            (W (Proc.devRef .tc main_call4_v12) : IVec S1250000 1))
          (Host.gather gather_S100000x64_S1250000x1_S1250000x64_1_0_n_n_0_1_164
            (W (Proc.devRef .tc main_v62) : S100000x64.Idx → EReal)
            (W (Proc.devRef .tc main_call4_v5) : IVec S1250000x1 32))
          (broadcastInDim S1250000x64 ![] Facts₀.bcast_S_S1250000x64 (constant (F := Ideal) S_ .f32 0x7FC00000#32)) := by
  dsimp only [take10C, hostOps10, List.drop]
  after_results
  rfl

/-- THE ROWS GATHER OF LAYER 2: over any previous contents whose index vector names nodes. -/
theorem take_rows2 (X : Valuation τ sig (Elt Ideal)) (r : Fin 1250000 → Fin 100000)
    (hV : ∀ e, ((X (Proc.devRef .tc main_v1) : IVec S1250000 32) (ix1 e)).toInt = ((r e).val : ℤ)) :
    (StableHlo.after hostOps10 X (Proc.devRef .tc main_v63) : S1250000x64.Idx → EReal)
      = Spec.rowsOf (X (Proc.devRef .tc main_v62) : S100000x64.Idx → EReal) r := by
  rw [take10_split, StableHlo.after_append, StableHlo.after_append, take10C_v13, take10B_v12, take10B_m12, take10B_v5,
    take10A_m12, take10A_v5]
  exact Spec.takeFill_eq_rowsOf _ rfl rfl rfl rfl rfl rfl rfl _ _ _ _ _ _ _ _ _ _ _ _ r (fun _ => rfl) hV (fun _ => rfl)
    (fun _ => by show (99999#32 : BitVec 32).toInt = ((100000 : ℕ) : ℤ) - 1; decide) (fun _ => rfl)

/-! ## Layer 2, the columns gather: the stretch in three pieces -/

/-- The index normalised and kept as a column. -/
abbrev take10_1A : List (HloOp τ sig (Elt Ideal)) := (hostOps10_1 (F := Ideal)).take 8
/-- The fill mask. -/
abbrev take10_1B : List (HloOp τ sig (Elt Ideal)) := ((hostOps10_1 (F := Ideal)).drop 8).take 10
/-- The gather, the mask along the rows, the fill value, the select. -/
abbrev take10_1C : List (HloOp τ sig (Elt Ideal)) := (hostOps10_1 (F := Ideal)).drop 18

theorem take10_1_split : (hostOps10_1 (F := Ideal)) = take10_1A ++ (take10_1B ++ take10_1C) := rfl

theorem take10_1A_v5 (X : Valuation τ sig (Elt Ideal)) :
    (StableHlo.after take10_1A X (Proc.devRef .tc main_call5_v5) : IVec S1250000x1 32)
      = broadcastInDim S1250000x1 ![0] Facts₀.bcast_S1250000_S1250000x1_0
          (select (cmpi .slt (X (Proc.devRef .tc main_v3) : IVec S1250000 32)
              (broadcastInDim S1250000 ![] Facts₀.bcast_S_S1250000 (constantI S_ 32 0#32)))
            (addi (X (Proc.devRef .tc main_v3) : IVec S1250000 32)
              (broadcastInDim S1250000 ![] Facts₀.bcast_S_S1250000 (constantI S_ 32 100000#32)))
            (X (Proc.devRef .tc main_v3) : IVec S1250000 32)) := by
  dsimp only [take10_1A, hostOps10_1, List.take]
  after_results
  rfl

theorem take10_1A_m12 (X : Valuation τ sig (Elt Ideal)) :
    StableHlo.after take10_1A X (Proc.devRef .tc main_v62) = X (Proc.devRef .tc main_v62) := by
  dsimp only [take10_1A, hostOps10_1, List.take]
  after_results

section
attribute [local irreducible] Host.reduce
theorem take10_1B_v12 (Y : Valuation τ sig (Elt Ideal)) :
    (StableHlo.after take10_1B Y (Proc.devRef .tc main_call5_v12) : IVec S1250000 1)
      = Host.reduce IntOp.andi
          (andi (cmpi .sge (Y (Proc.devRef .tc main_call5_v5) : IVec S1250000x1 32)
              (broadcastInDim S1250000x1 ![] Facts₀.bcast_S_S1250000x1 (constantI S_ 32 0#32)))
            (cmpi .sle (Y (Proc.devRef .tc main_call5_v5) : IVec S1250000x1 32)
              (broadcastInDim S1250000x1 ![0, 1] Facts₀.bcast_S1x1_S1250000x1_0_1
                (broadcastInDim S1x1 ![1] Facts₀.bcast_S1_S1x1_1 (constantI S1 32 99999#32)))))
          (constantI S_ 1 1#1) Facts₀.reducesTo_S1250000x1_S1250000_d1 Facts₀.h_S_ := by
  dsimp only [take10_1B, hostOps10_1, List.take, List.drop]
  after_results
  rfl
end

theorem take10_1B_v5 (Y : Valuation τ sig (Elt Ideal)) :
    StableHlo.after take10_1B Y (Proc.devRef .tc main_call5_v5) = Y (Proc.devRef .tc main_call5_v5) := by
  dsimp only [take10_1B, hostOps10_1, List.take, List.drop]
  after_results

theorem take10_1B_m12 (Y : Valuation τ sig (Elt Ideal)) :
    StableHlo.after take10_1B Y (Proc.devRef .tc main_v62) = Y (Proc.devRef .tc main_v62) := by
  dsimp only [take10_1B, hostOps10_1, List.take, List.drop]
  after_results

theorem take10_1C_v13 (W : Valuation τ sig (Elt Ideal)) :
    (StableHlo.after take10_1C W (Proc.devRef .tc main_v64) : S1250000x64.Idx → EReal)
      = select (broadcastInDim S1250000x64 ![0] Facts₀.bcast_S1250000_S1250000x64_0
            (W (Proc.devRef .tc main_call5_v12) : IVec S1250000 1))
          (Host.gather gather_S100000x64_S1250000x1_S1250000x64_1_0_n_n_0_1_164
            (W (Proc.devRef .tc main_v62) : S100000x64.Idx → EReal)
            (W (Proc.devRef .tc main_call5_v5) : IVec S1250000x1 32))
          (broadcastInDim S1250000x64 ![] Facts₀.bcast_S_S1250000x64 (constant (F := Ideal) S_ .f32 0x7FC00000#32)) := by
  dsimp only [take10_1C, hostOps10_1, List.drop]
  after_results
  rfl

/-- THE COLUMNS GATHER OF LAYER 2: over any previous contents whose index vector names nodes. -/
theorem take_cols2 (X : Valuation τ sig (Elt Ideal)) (r : Fin 1250000 → Fin 100000)
    (hV : ∀ e, ((X (Proc.devRef .tc main_v3) : IVec S1250000 32) (ix1 e)).toInt = ((r e).val : ℤ)) :
    (StableHlo.after hostOps10_1 X (Proc.devRef .tc main_v64) : S1250000x64.Idx → EReal)
      = Spec.rowsOf (X (Proc.devRef .tc main_v62) : S100000x64.Idx → EReal) r := by
  rw [take10_1_split, StableHlo.after_append, StableHlo.after_append, take10_1C_v13, take10_1B_v12, take10_1B_m12, take10_1B_v5,
    take10_1A_m12, take10_1A_v5]
  exact Spec.takeFill_eq_rowsOf _ rfl rfl rfl rfl rfl rfl rfl _ _ _ _ _ _ _ _ _ _ _ _ r (fun _ => rfl) hV (fun _ => rfl)
    (fun _ => by show (99999#32 : BitVec 32).toInt = ((100000 : ℕ) : ℤ) - 1; decide) (fun _ => rfl)

end Cert.KernelIdeal.HandV

end
-- ==== Proof.KI.P2.lean ====
/- The attention-score call's pieces named: what each control case leaves in the score window's buffer, in the two
   scratch buffers and (at the last point) in the two one-word output windows, as the body's payloads of the loaded
   blocks and of what the scratch held. Generic in the float family. -/
import proofs.«417395_j71579924955534_2_alg».proof.Proof.KI.R2
import Idealize.ShloMosaic.Lib.Pipeline.Value

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- At the first point the score window's buffer is left at the block's scores. -/
theorem out2_A_4_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) :
    out2_A_4 c i arg1 harg1 arg2 harg2 arg3 harg3 arg4 harg4 arg5 harg5 arg6 harg6 arg7 harg7 arg8 harg8 arg9 harg9 hc0 hc1 x0 x1 x2 x3 = k2_pay5 x0 x1 x2 x3 := by
  unfold out2_A_4
  rw [View.read_writes_eq_canon _ _ _ (cover2_A_4 c i arg1 harg1 arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S5000x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At the first point the running maximum's scratch is left at the new maximum (over the reset value). -/
theorem sout2_A_0_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) :
    sout2_A_0 c i arg1 harg1 arg2 harg2 arg3 harg3 arg4 harg4 arg5 harg5 arg6 harg6 arg7 harg7 arg8 harg8 arg9 harg9 hc0 hc1 x0 x1 x2 x3 = k2_pay2 (k2_pay6 x0 x1 x2 x3 (k2_pay3 (F := F))) := by
  unfold sout2_A_0
  rw [View.read_writes_eq_canon _ _ _ (scover2_A_0 c i arg1 harg1 arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S1x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At the first point the running sum's scratch is left at the new rescaled sum (over the reset values). -/
theorem sout2_A_1_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond2_0 i) (hc1 : ¬cond2_1 i)
    (x0 : Vec F S5000x64 .f32) (x1 : Vec F S5000x64 .f32) (x2 : Vec F S128x1 .f32) (x3 : Vec F S1x1 .f32) :
    sout2_A_1 c i arg1 harg1 arg2 harg2 arg3 harg3 arg4 harg4 arg5 harg5 arg6 harg6 arg7 harg7 arg8 harg8 arg9 harg9 hc0 hc1 x0 x1 x2 x3 = k2_pay1 (k2_pay5 x0 x1 x2 x3) (k2_pay7 x0 x1 x2 x3 (k2_pay3 (F := F)) (k2_pay3 (F := F))) (k2_pay8 x0 x1 x2 x3 (k2_pay3 (F := F))) (k2_pay4 (F := F)) := by
  unfold sout2_A_1
  rw [View.read_writes_eq_canon _ _ _ (scover2_A_1 c i arg1 harg1 arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S1x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At a middle point the score window's buffer is left at the block's scores. -/
theorem out2_B_4_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    out2_B_4 c i arg1 harg1 arg2 harg2 arg3 harg3 arg4 harg4 arg5 harg5 arg6 harg6 arg7 harg7 arg8 harg8 arg9 harg9 hc0 hc1 x0 x1 x2 x3 xs0 xs1 = k2_pay5 x0 x1 x2 x3 := by
  unfold out2_B_4
  rw [View.read_writes_eq_canon _ _ _ (cover2_B_4 c i arg1 harg1 arg2 harg2 arg3 harg3 arg4 harg4 arg5 harg5 arg6 harg6 arg7 harg7 arg8 harg8 arg9 harg9 hc0 hc1 x0 x1 x2 x3 xs0 xs1)]
  unfold kernelRun2_B
  dsimp only
  sl_unfold_words
  rw [View.canon_cons_unit_zero (S := S5000x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At a middle point the running maximum's scratch is left at the new maximum (over what the point before left). -/
theorem sout2_B_0_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    sout2_B_0 c i arg1 harg1 arg2 harg2 arg3 harg3 arg4 harg4 arg5 harg5 arg6 harg6 arg7 harg7 arg8 harg8 arg9 harg9 hc0 hc1 x0 x1 x2 x3 xs0 xs1 = k2_pay2 (k2_pay6 x0 x1 x2 x3 xs0) := by
  unfold sout2_B_0
  rw [View.read_writes_eq_canon _ _ _ (scover2_B_0 c i arg1 harg1 arg2 harg2 arg3 harg3 arg4 harg4 arg5 harg5 arg6 harg6 arg7 harg7 arg8 harg8 arg9 harg9 hc0 hc1 x0 x1 x2 x3 xs0 xs1)]
  unfold kernelRun2_B
  dsimp only
  sl_unfold_words
  rw [View.canon_cons_unit_zero (S := S1x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At a middle point the running sum's scratch is left at the new rescaled sum (over what the point before left). -/
theorem sout2_B_1_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : ¬cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    sout2_B_1 c i arg1 harg1 arg2 harg2 arg3 harg3 arg4 harg4 arg5 harg5 arg6 harg6 arg7 harg7 arg8 harg8 arg9 harg9 hc0 hc1 x0 x1 x2 x3 xs0 xs1 = k2_pay1 (k2_pay5 x0 x1 x2 x3) (k2_pay7 x0 x1 x2 x3 xs0 xs0) (k2_pay8 x0 x1 x2 x3 xs0) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 hc0 hc1 x0 x1 x2 x3 xs0 xs1)]
  unfold kernelRun2_B
  dsimp only
  sl_unfold_words
  rw [View.canon_cons_unit_zero (S := S1x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At the last point the score window's buffer is left at the block's scores. -/
theorem out2_C_4_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    out2_C_4 c i arg1 harg1 arg2 harg2 arg3 harg3 arg4 harg4 arg5 harg5 arg6 harg6 arg7 harg7 arg8 harg8 arg9 harg9 hc0 hc1 x0 x1 x2 x3 xs0 xs1 = k2_pay5 x0 x1 x2 x3 := by
  unfold out2_C_4
  rw [View.read_writes_eq_canon _ _ _ (cover2_C_4 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_cons_unit_zero (S := S5000x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At the last point the running maximum's scratch is left at the new maximum (over what the point before left). -/
theorem sout2_C_0_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    sout2_C_0 c i arg1 harg1 arg2 harg2 arg3 harg3 arg4 harg4 arg5 harg5 arg6 harg6 arg7 harg7 arg8 harg8 arg9 harg9 hc0 hc1 x0 x1 x2 x3 xs0 xs1 = k2_pay2 (k2_pay6 x0 x1 x2 x3 xs0) := by
  unfold sout2_C_0
  rw [View.read_writes_eq_canon _ _ _ (scover2_C_0 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_cons_unit_zero (S := S1x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At the last point the running sum's scratch is left at the new rescaled sum (over what the point before left). -/
theorem sout2_C_1_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    sout2_C_1 c i arg1 harg1 arg2 harg2 arg3 harg3 arg4 harg4 arg5 harg5 arg6 harg6 arg7 harg7 arg8 harg8 arg9 harg9 hc0 hc1 x0 x1 x2 x3 xs0 xs1 = k2_pay1 (k2_pay5 x0 x1 x2 x3) (k2_pay7 x0 x1 x2 x3 xs0 xs0) (k2_pay8 x0 x1 x2 x3 xs0) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_cons_unit_zero (S := S1x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At the last point the maximum's output window is left at the new running maximum. -/
theorem out2_C_5_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    out2_C_5 c i arg1 harg1 arg2 harg2 arg3 harg3 arg4 harg4 arg5 harg5 arg6 harg6 arg7 harg7 arg8 harg8 arg9 harg9 hc0 hc1 x0 x1 x2 x3 xs0 xs1 = k2_pay2 (k2_pay6 x0 x1 x2 x3 xs0) := by
  unfold out2_C_5
  rw [View.read_writes_eq_canon _ _ _ (cover2_C_5 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_cons_unit_zero (S := S1x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

/-- At the last point the sum's output window is left at the new running sum. -/
theorem out2_C_6_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond2_0 i) (hc1 : cond2_1 i)
    (x0 : Vec F S5000x64 .f32) (x1 : Vec F S5000x64 .f32) (x2 : Vec F S128x1 .f32) (x3 : Vec F S1x1 .f32) (xs0 : Vec F S1x1 .f32) (xs1 : Vec F S1x1 .f32) :
    out2_C_6 c i arg1 harg1 arg2 harg2 arg3 harg3 arg4 harg4 arg5 harg5 arg6 harg6 arg7 harg7 arg8 harg8 arg9 harg9 hc0 hc1 x0 x1 x2 x3 xs0 xs1 = k2_pay1 (k2_pay5 x0 x1 x2 x3) (k2_pay7 x0 x1 x2 x3 xs0 xs0) (k2_pay8 x0 x1 x2 x3 xs0) xs1 := by
  unfold out2_C_6
  rw [View.read_writes_eq_canon _ _ _ (cover2_C_6 c i arg1 harg1 arg2 harg2 arg3 harg3 arg4 harg4 arg5 harg5 arg6 harg6 arg7 harg7 arg8 harg8 arg9 harg9 hc0 hc1 x0 x1 x2 x3 xs0 xs1)]
  unfold kernelRun2_C
  dsimp only
  sl_unfold_words
  rw [View.canon_cons_unit_zero (S := S1x1) hz2]
  simp only [View.readAt_eq_ld, harg1.read_unread, harg2.read_unread, harg3.read_unread, harg4.read_unread, harg8.read_unread, harg9.read_unread, View.ld_unit_zero (S := S5000x64) hz2, View.ld_unit_zero (S := S128x1) hz2, View.ld_unit_zero (S := S1x1) hz2, View.readCov_unit_zero (S := S1x1) _ hz2]

end Cert.KernelIdeal.Hand

end
-- ==== Proof.KI.V2Pay.lean ====
/- The attention-score body's payloads at the extended reals, at an index: the block's 5000 leaky-relu scores, the new
   running maximum, the rescaling factor, and the new running sum; the reset values. Pure functions of the loaded
   blocks, no memory in sight. -/
import proofs.«417395_j71579924955534_2_alg».proof.Proof.Gen.KernelIdeal.Skeleton
import proofs.«417395_j71579924955534_2_alg».proof.Proof.Spec
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## Maxima -/

/-- The fold of max from b over a finite set is the maximum of b and the set's supremum. -/
theorem fold_max_eq2 {ι : Type} (S : Finset ι) (b : EReal) (f : ι → EReal) :
    S.fold max b f = max b (S.sup f) := by
  classical
  induction S using Finset.induction_on with
  | empty => simp
  | insert a S ha ih =>
    rw [Finset.fold_insert ha, ih, Finset.sup_insert]
    show max (f a) (max b (S.sup f)) = max b (max (f a) (S.sup f))
    exact max_left_comm _ _ _

/-- The pattern of minus infinity reads as the bottom, the slope's pattern is the spec's slope. -/
theorem ofBits_ninf2 : Ideal.ofBits .f32 0xFF800000#32 = ⊥ := by simp [Ideal.ofBits, Ideal.ieee]

/-! ## The product's operand indices, axis by axis -/

theorem lhs2_0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl
theorem lhs2_1 (i : S5000x1.Idx) (q : dot_S5000x64_S64x1_S5000x1_1_0_0_1_n_n.contr.Idx) : (dot_S5000x64_S64x1_S5000x1_1_0_0_1_n_n.lhsIdx i q 1).val = (q ⟨0, by decide⟩).val :=
  dot_S5000x64_S64x1_S5000x1_1_0_0_1_n_n.lhsIdx_val_of_single rfl i q
theorem rhs2_0 (i : S5000x1.Idx) (q : dot_S5000x64_S64x1_S5000x1_1_0_0_1_n_n.contr.Idx) : (dot_S5000x64_S64x1_S5000x1_1_0_0_1_n_n.rhsIdx i q 0).val = (q ⟨0, by decide⟩).val :=
  dot_S5000x64_S64x1_S5000x1_1_0_0_1_n_n.rhsIdx_val_of_single rfl i q
theorem rhs2_1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- One of the body's two products at row p: the row of the feature block against a 64-row slice of the weight. -/
theorem half2 (x : Vec Ideal S5000x64 .f32) (w : FVec Ideal S64x1 .bf16) (p : Fin 5000) :
    matmul dot_S5000x64_S64x1_S5000x1_1_0_0_1_n_n none (truncf .bf16 x bitsLt_bf16_f32) w (constant S5000x1 .f32 0x00000000#32) (ix2 p (0 : Fin 1))
      = ∑ k : Fin 64, x (ix2 p k) * w (ix2 k (0 : Fin 1)) := by
  refine (Ideal.matmul_constant_zero_apply _ none _ _ _).trans ?_
  rw [← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p (0 : Fin 1)) ((contrEquiv1 dot_S5000x64_S64x1_S5000x1_1_0_0_1_n_n 64 rfl rfl).symm k) = ix2 p k :=
    funext fun a => Fin.ext (by
      match a with
      | ⟨0, _⟩ => exact lhs2_0 _ _
      | ⟨1, _⟩ => exact (lhs2_1 _ _).trans hk)
  have er : dot_S5000x64_S64x1_S5000x1_1_0_0_1_n_n.rhsIdx (ix2 p (0 : Fin 1)) ((contrEquiv1 dot_S5000x64_S64x1_S5000x1_1_0_0_1_n_n 64 rfl rfl).symm k) = ix2 k (0 : Fin 1) :=
    funext fun a => Fin.ext (by
      match a with
      | ⟨0, _⟩ => exact (rhs2_0 _ _).trans hk
      | ⟨1, _⟩ => exact rhs2_1 _ _)
  rw [el, er]
  rfl

/-! ## The payloads at an index -/

/-- The leaky relu as the body computes it (a comparison against the zero word, a select). -/
theorem leaky2 (x : EReal) :
    Scalar.select (FloatOps.cmpf (F := Ideal) (φ := .f32) .oge x (Ideal.ofBits .f32 0x00000000#32)) x (Ideal.ofBits .f32 0x3C23D70A#32 * x) = Spec.leaky x := by
  rw [Ideal.cmpf_def, Ideal.ofBits_zero_f32]
  unfold Ideal.cmp Scalar.select Spec.leaky Spec.slope
  by_cases h : (0 : EReal) ≤ x
  · simp [h]
  · simp [h]

/-- The block's score at row p: the two halves of the weight against the two feature rows, plus the bias, through the
    leaky relu. -/
theorem pay5_apply2 (x0 x1 : Vec Ideal S5000x64 .f32) (x2 : Vec Ideal S128x1 .f32) (x3 : Vec Ideal S1x1 .f32) (p : Fin 5000) :
    k2_pay5 x0 x1 x2 x3 (ix2 p (0 : Fin 1))
      = Spec.leaky (((∑ k : Fin 64, x0 (ix2 p k) * x2 (ix2 (Fin.castLE (by omega) k : Fin 128) (0 : Fin 1)))
          + (∑ k : Fin 64, x1 (ix2 p k) * x2 (ix2 (⟨64 + k.val, by omega⟩ : Fin 128) (0 : Fin 1))))
        + x3 (ix2 (0 : Fin 1) (0 : Fin 1))) := by
  unfold k2_pay5
  simp only [shapeCast_self]
  rw [select_apply, cmpf_apply, mulf_apply, broadcast_apply, broadcast_apply]
  refine (leaky2 _).trans (congrArg Spec.leaky ?_)
  rw [addf_apply, addf_apply]
  refine congrArg₂ (· + ·) (congrArg₂ (· + ·) ((half2 _ _ p).trans ?_) ((half2 _ _ p).trans ?_)) ?_
  · refine Finset.sum_congr rfl fun k _ => congrArg (x0 (ix2 p k) * ·) ?_
    rw [truncf_apply]
    exact extractStridedSlice_apply _ x2 _ (ix2 k (0 : Fin 1)) (ix2 (Fin.castLE (by omega) k : Fin 128) (0 : Fin 1)) (fun a => by
      match a with
      | ⟨0, _⟩ => show k.val = 0 + k.val; omega
      | ⟨1, _⟩ => rfl)
  · refine Finset.sum_congr rfl fun k _ => congrArg (x1 (ix2 p k) * ·) ?_
    rw [truncf_apply]
    exact extractStridedSlice_apply _ x2 _ (ix2 k (0 : Fin 1)) (ix2 (⟨64 + k.val, by omega⟩ : Fin 128) (0 : Fin 1)) (fun a => by
      match a with
      | ⟨0, _⟩ => rfl
      | ⟨1, _⟩ => rfl)
  · exact broadcastTo_apply x3 _ (ix2 p (0 : Fin 1)) (ix2 (0 : Fin 1) (0 : Fin 1)) (fun a => by
      match a with
      | ⟨0, _⟩ => rfl
      | ⟨1, _⟩ => rfl)

/-- Every index of a one-word array is its one index. -/
theorem oneIdx2 (j : S1x1.Idx) : j = ix2 (0 : Fin 1) (0 : Fin 1) :=
  funext fun a => Fin.ext (by
    match a with
    | ⟨0, _⟩ => have h : (j 0).val < 1 := (j 0).isLt; show (j 0).val = 0; omega
    | ⟨1, _⟩ => have h : (j 1).val < 1 := (j 1).isLt; show (j 1).val = 0; omega)

/-- The reduced index with the block's row put back. -/
theorem lift2 (r : Fin 5000) : (reduces_S5000x1_S1.lift (ix1 (0 : Fin 1)) r : S5000x1.Idx) = ix2 r (0 : Fin 1) :=
  funext fun a => Fin.ext (by
    match a with
    | ⟨0, _⟩ => rfl
    | ⟨1, _⟩ => rfl)

/-- The one word of a rank-1 array of one word, as a [1, 1] array. -/
theorem castWord2 (x : FVec Ideal S1 .f32) (j : S1x1.Idx) : shapeCast S1x1 x shapeCasts_S1_S1x1 j = x (ix1 (0 : Fin 1)) :=
  shapeCast_apply x _ j (ix1 (0 : Fin 1)) (by
    have h1 : (S1.rowMajor (ix1 (0 : Fin 1))).val < 1 := (S1.rowMajor (ix1 (0 : Fin 1))).isLt
    have h2 : (S1x1.rowMajor j).val < 1 := (S1x1.rowMajor j).isLt
    omega)

/-- The new running maximum: the old one against the block's largest score. -/
theorem pay6_apply2 (x0 x1 : Vec Ideal S5000x64 .f32) (x2 : Vec Ideal S128x1 .f32) (x3 : Vec Ideal S1x1 .f32) (m : Vec Ideal S1x1 .f32) (j : S1x1.Idx) :
    k2_pay6 x0 x1 x2 x3 m j = max (m j) (Finset.univ.sup fun r : Fin 5000 => k2_pay5 x0 x1 x2 x3 (ix2 r (0 : Fin 1))) := by
  unfold k2_pay6
  rw [maximumf_apply]
  refine congrArg (max (m j)) ?_
  rw [castWord2]
  refine (Ideal.multiReduction_maximumf_single _ _ reduces_S5000x1_S1 _ _ (ix1 (0 : Fin 1))).trans ?_
  refine (fold_max_eq2 _ _ _).trans ?_
  rw [show (FloatOps.ofBits (F := Ideal) .f32 0xFF800000#32 : EReal) = ⊥ from ofBits_ninf2, bot_sup_eq]
  exact Finset.sup_congr rfl fun r _ => congrArg (k2_pay5 x0 x1 x2 x3) (lift2 r)

/-- The rescaling factor: the exponential of the old maximum less the new. -/
theorem pay7_apply2 (x0 x1 : Vec Ideal S5000x64 .f32) (x2 : Vec Ideal S128x1 .f32) (x3 : Vec Ideal S1x1 .f32) (m m' : Vec Ideal S1x1 .f32) (j : S1x1.Idx) :
    k2_pay7 x0 x1 x2 x3 m m' j = Ideal.exp (m' j - k2_pay6 x0 x1 x2 x3 m j) := rfl

/-- The new maximum along the block's rows. -/
theorem pay8_apply2 (x0 x1 : Vec Ideal S5000x64 .f32) (x2 : Vec Ideal S128x1 .f32) (x3 : Vec Ideal S1x1 .f32) (m : Vec Ideal S1x1 .f32) (r : Fin 5000) :
    k2_pay8 x0 x1 x2 x3 m (ix2 r (0 : Fin 1)) = k2_pay6 x0 x1 x2 x3 m (ix2 (0 : Fin 1) (0 : Fin 1)) := by
  unfold k2_pay8
  exact broadcastTo_apply _ _ (ix2 r (0 : Fin 1)) (ix2 (0 : Fin 1) (0 : Fin 1)) (fun a => by
    match a with
    | ⟨0, _⟩ => rfl
    | ⟨1, _⟩ => rfl)

/-- The new running sum: the old one rescaled plus the block's exponentials against the new maximum. -/
theorem pay1_apply2 (v26 : FVec Ideal S5000x1 .f32) (v34 : FVec Ideal S1x1 .f32) (v35 : FVec Ideal S5000x1 .f32) (v40 : Vec Ideal S1x1 .f32) (j : S1x1.Idx) :
    k2_pay1 v26 v34 v35 v40 j = v34 j * v40 j + ∑ r : Fin 5000, Ideal.exp (v26 (ix2 r (0 : Fin 1)) - v35 (ix2 r (0 : Fin 1))) := by
  unfold k2_pay1
  simp only [shapeCast_self]
  rw [addf_apply, mulf_apply]
  refine congrArg (v34 j * v40 j + ·) ?_
  rw [castWord2]
  refine (Ideal.multiReduction_add_single _ _ reduces_S5000x1_S1 _ _ (ix1 (0 : Fin 1))).trans ?_
  refine Finset.sum_congr rfl fun r _ => ?_
  exact (congrArg (exp (subf v26 v35)) (lift2 r)).trans rfl

/-- The reset values: minus infinity and zero. -/
theorem pay3_apply2 (j : S1x1.Idx) : k2_pay3 (F := Ideal) j = ⊥ := by
  unfold k2_pay3
  simp only [shapeCast_self]
  exact ofBits_ninf2
theorem pay4_apply2 (j : S1x1.Idx) : k2_pay4 (F := Ideal) j = 0 := by
  unfold k2_pay4
  simp only [shapeCast_self]
  exact Ideal.ofBits_zero_f32
theorem pay2_eq2 (v : FVec Ideal S1x1 .f32) : k2_pay2 v = v := by
  unfold k2_pay2
  exact shapeCast_self _ _

/-! ## One step of the running pair -/

/-- The step on the running maximum. -/
theorem stepM2 (x0 x1 : Vec Ideal S5000x64 .f32) (x2 : Vec Ideal S128x1 .f32) (x3 : Vec Ideal S1x1 .f32) (m : Vec Ideal S1x1 .f32) (j : S1x1.Idx) :
    k2_pay2 (k2_pay6 x0 x1 x2 x3 m) j = max (m j) (Finset.univ.sup fun r : Fin 5000 => k2_pay5 x0 x1 x2 x3 (ix2 r (0 : Fin 1))) := by
  rw [pay2_eq2]; exact pay6_apply2 x0 x1 x2 x3 m j

/-- The step on the running sum, the new maximum named M. -/
theorem stepL2 (x0 x1 : Vec Ideal S5000x64 .f32) (x2 : Vec Ideal S128x1 .f32) (x3 : Vec Ideal S1x1 .f32) (m l : Vec Ideal S1x1 .f32) (j : S1x1.Idx)
    (M : EReal) (hM : M = max (m j) (Finset.univ.sup fun r : Fin 5000 => k2_pay5 x0 x1 x2 x3 (ix2 r (0 : Fin 1)))) :
    k2_pay1 (k2_pay5 x0 x1 x2 x3) (k2_pay7 x0 x1 x2 x3 m m) (k2_pay8 x0 x1 x2 x3 m) l j
      = Ideal.exp (m j - M) * l j + ∑ r : Fin 5000, Ideal.exp (k2_pay5 x0 x1 x2 x3 (ix2 r (0 : Fin 1)) - M) := by
  have e6 : k2_pay6 x0 x1 x2 x3 m j = M := (pay6_apply2 x0 x1 x2 x3 m j).trans hM.symm
  have e6' : k2_pay6 x0 x1 x2 x3 m (ix2 (0 : Fin 1) (0 : Fin 1)) = M := by rw [← oneIdx2 j]; exact e6
  rw [pay1_apply2, pay7_apply2, e6]
  refine congrArg (Ideal.exp (m j - M) * l j + ·) (Finset.sum_congr rfl fun r _ => ?_)
  rw [pay8_apply2, e6']

end Cert.KernelIdeal.HandV

end
-- ==== Proof.KI.V2.lean ====
/- The value of the attention-score call cc2__attn_score_kernel at the extended reals: the score array its pipeline
   leaves is the column of the edges' leaky-relu scores, and the two one-word arrays are the running maximum and the
   running rescaled sum of exponentials after all 250 blocks. Each window's block as a part of its array; the block's
   scores; the scratch pair after each point by induction on the point; what the points write back; the covers. -/
import proofs.«417395_j71579924955534_2_alg».proof.Proof.KI.P2
import proofs.«417395_j71579924955534_2_alg».proof.Proof.KI.V2Pay

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hE2 : 250 * 5000 = 1250000 := rfl

theorem nPts2 : cfg2.N = 250 := N_2

/-- The edges' scores, from the arrays the region reads. -/
abbrev scores2 (c : Dev nD) : Fin 1250000 → EReal :=
  Spec.score (V c (Pipeline.arrRef spec2 0)) (V c (Pipeline.arrRef spec2 1)) (V c (Pipeline.arrRef spec2 2)) (Spec.rowOf (V c (Pipeline.arrRef spec2 3)))

/-! ## The windows' blocks as parts of their arrays -/

/-- The printed index maps over the grid: the two feature windows and the score window sit at block (t, 0); the
    weight, the bias and the two one-word outputs stay at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The four arrays the region reads, at their literal shapes. -/
abbrev arr2_0 (c : Dev nD) : S1250000x64.Idx → EReal := V c (Pipeline.arrRef spec2 0)
abbrev arr2_1 (c : Dev nD) : S1250000x64.Idx → EReal := V c (Pipeline.arrRef spec2 1)
abbrev arr2_2 (c : Dev nD) : S128x1.Idx → EReal := V c (Pipeline.arrRef spec2 2)
abbrev arr2_3 (c : Dev nD) : S1x1.Idx → EReal := V c (Pipeline.arrRef spec2 3)

/-- The four input blocks at point t, at their literal shapes. -/
abbrev b2_0 (c : Dev nD) (t : Fin cfg2.N) : Vec Ideal S5000x64 .f32 := iblk2 V c 0 t
abbrev b2_1 (c : Dev nD) (t : Fin cfg2.N) : Vec Ideal S5000x64 .f32 := iblk2 V c 1 t
abbrev b2_2 (c : Dev nD) (t : Fin cfg2.N) : Vec Ideal S128x1 .f32 := iblk2 V c 2 t
abbrev b2_3 (c : Dev nD) (t : Fin cfg2.N) : Vec Ideal S1x1 .f32 := iblk2 V c 3 t

/-- Row p of block t, as an edge. -/
def rowAt2 (t : Fin cfg2.N) (p : Fin 5000) : Fin 1250000 :=
  ⟨t.val * 5000 + p.val, by have h : t.val < 250 := lt_of_lt_of_eq t.isLt nPts2; have := p.isLt; omega⟩

theorem rowAt2_eq (t : Fin cfg2.N) (p : Fin 5000) :
    rowAt2 t p = Spec.edgeAt hE2 ⟨t.val, lt_of_lt_of_eq t.isLt nPts2⟩ p := Fin.ext rfl

/-- The first feature block at point t is rows 5000 t … 5000 t + 4999 of its array. -/
theorem b2_0_apply (c : Dev nD) (t : Fin cfg2.N) (p : Fin 5000) (k : Fin 64) :
    b2_0 V c t (ix2 p k) = arr2_0 V c (ix2 (rowAt2 t p) k) := by
  obtain ⟨e0, e1, -⟩ := idx_facts2 t
  unfold b2_0 iblk2
  rw [View.read_apply]
  have h : ((cfg2.win 0).blk t).view.emb (ix2 p k) = (ix2 (rowAt2 t p) k : S1250000x64.Idx) := by
    funext a; apply Fin.ext
    match a with
    | ⟨0, _⟩ => show win2_0.index t (0 : Fin 2) * 5000 + 1 * p.val = t.val * 5000 + p.val; rw [e0]; omega
    | ⟨1, _⟩ => show win2_0.index t (1 : Fin 2) * 64 + 1 * k.val = k.val; rw [e1]; omega
  rw [h]
  rfl

/-- The second feature block likewise. -/
theorem b2_1_apply (c : Dev nD) (t : Fin cfg2.N) (p : Fin 5000) (k : Fin 64) :
    b2_1 V c t (ix2 p k) = arr2_1 V c (ix2 (rowAt2 t p) k) := by
  obtain ⟨-, -, e0, e1, -⟩ := idx_facts2 t
  unfold b2_1 iblk2
  rw [View.read_apply]
  have h : ((cfg2.win 1).blk t).view.emb (ix2 p k) = (ix2 (rowAt2 t p) k : S1250000x64.Idx) := by
    funext a; apply Fin.ext
    match a with
    | ⟨0, _⟩ => show win2_1.index t (0 : Fin 2) * 5000 + 1 * p.val = t.val * 5000 + p.val; rw [e0]; omega
    | ⟨1, _⟩ => show win2_1.index t (1 : Fin 2) * 64 + 1 * k.val = k.val; rw [e1]; omega
  rw [h]
  rfl

/-- The weight block is the weight array. -/
theorem b2_2_apply (c : Dev nD) (t : Fin cfg2.N) (k : Fin 128) :
    b2_2 V c t (ix2 k (0 : Fin 1)) = arr2_2 V c (ix2 k (0 : Fin 1)) := by
  obtain ⟨-, -, -, -, e0, e1, -⟩ := idx_facts2 t
  unfold b2_2 iblk2
  rw [View.read_apply]
  have h : ((cfg2.win 2).blk t).view.emb (ix2 k (0 : Fin 1)) = (ix2 k (0 : Fin 1) : S128x1.Idx) := by
    funext a; apply Fin.ext
    match a with
    | ⟨0, _⟩ => show win2_2.index t (0 : Fin 2) * 128 + 1 * k.val = k.val; rw [e0]; omega
    | ⟨1, _⟩ => show win2_2.index t (1 : Fin 2) * 1 + 1 * (0 : Fin 1).val = (0 : Fin 1).val; rw [e1]; rfl
  rw [h]
  rfl

/-- The bias block is the bias word. -/
theorem b2_3_apply (c : Dev nD) (t : Fin cfg2.N) :
    b2_3 V c t (ix2 (0 : Fin 1) (0 : Fin 1)) = arr2_3 V c (ix2 (0 : Fin 1) (0 : Fin 1)) := by
  obtain ⟨-, -, -, -, -, -, e0, e1, -⟩ := idx_facts2 t
  unfold b2_3 iblk2
  rw [View.read_apply]
  have h : ((cfg2.win 3).blk t).view.emb (ix2 (0 : Fin 1) (0 : Fin 1)) = (ix2 (0 : Fin 1) (0 : Fin 1) : S1x1.Idx) := by
    funext a; apply Fin.ext
    match a with
    | ⟨0, _⟩ => show win2_3.index t (0 : Fin 2) * 1 + 1 * (0 : Fin 1).val = (0 : Fin 1).val; rw [e0]; rfl
    | ⟨1, _⟩ => show win2_3.index t (1 : Fin 2) * 1 + 1 * (0 : Fin 1).val = (0 : Fin 1).val; rw [e1]; rfl
  rw [h]
  rfl

/-! ## The block's scores -/

/-- Row p of block t scores as edge 5000 t + p. -/
theorem score_blk2 (c : Dev nD) (t : Fin cfg2.N) (p : Fin 5000) :
    k2_pay5 (b2_0 V c t) (b2_1 V c t) (b2_2 V c t) (b2_3 V c t) (ix2 p (0 : Fin 1)) = scores2 V c (rowAt2 t p) := by
  refine (pay5_apply2 _ _ _ _ p).trans ?_
  show _ = Spec.leaky (((∑ k : Fin 64, arr2_0 V c (ix2 (rowAt2 t p) k) * arr2_2 V c (ix2 (Fin.castLE (by omega) k : Fin 128) (0 : Fin 1)))
      + (∑ k : Fin 64, arr2_1 V c (ix2 (rowAt2 t p) k) * arr2_2 V c (ix2 (⟨64 + k.val, by omega⟩ : Fin 128) (0 : Fin 1))))
    + arr2_3 V c (ix2 (0 : Fin 1) (0 : Fin 1)))
  exact congrArg Spec.leaky (congrArg₂ (· + ·) (congrArg₂ (· + ·)
    (Finset.sum_congr rfl fun k _ => congrArg₂ (· * ·) (b2_0_apply V c t p k) (b2_2_apply V c t _))
    (Finset.sum_congr rfl fun k _ => congrArg₂ (· * ·) (b2_1_apply V c t p k) (b2_2_apply V c t _)))
    (b2_3_apply V c t))

/-- The block's largest score is the largest over the block's edges. -/
theorem sup_blk2 (c : Dev nD) (t : Fin cfg2.N) :
    (Finset.univ.sup fun r : Fin 5000 => k2_pay5 (b2_0 V c t) (b2_1 V c t) (b2_2 V c t) (b2_3 V c t) (ix2 r (0 : Fin 1)))
      = Finset.univ.sup fun r : Fin 5000 => scores2 V c (Spec.edgeAt hE2 ⟨t.val, lt_of_lt_of_eq t.isLt nPts2⟩ r) :=
  Finset.sup_congr rfl fun r _ => (score_blk2 V c t r).trans (congrArg (scores2 V c) (rowAt2_eq t r))

/-! ## The running pair, one step -/

theorem online_succ2 (s : Fin 1250000 → EReal) (k : ℕ) (hk : k < 250) :
    Spec.online hE2 s (k + 1)
      = (max (Spec.online hE2 s k).1 (Finset.univ.sup fun r : Fin 5000 => s (Spec.edgeAt hE2 ⟨k, hk⟩ r)),
        Ideal.exp ((Spec.online hE2 s k).1 - max (Spec.online hE2 s k).1 (Finset.univ.sup fun r : Fin 5000 => s (Spec.edgeAt hE2 ⟨k, hk⟩ r))) * (Spec.online hE2 s k).2
          + ∑ r : Fin 5000, Ideal.exp (s (Spec.edgeAt hE2 ⟨k, hk⟩ r) - max (Spec.online hE2 s k).1 (Finset.univ.sup fun r : Fin 5000 => s (Spec.edgeAt hE2 ⟨k, hk⟩ r)))) := by
  rw [Spec.online, dif_pos hk]

/-- From the running pair before point t to the pair after it, as the body's payloads compute it. -/
theorem online_step2 (c : Dev nD) (t : Fin cfg2.N) (m l : Vec Ideal S1x1 .f32)
    (hm : ∀ j, m j = (Spec.online hE2 (scores2 V c) t.val).1) (hl : ∀ j, l j = (Spec.online hE2 (scores2 V c) t.val).2) :
    k2_pay2 (k2_pay6 (b2_0 V c t) (b2_1 V c t) (b2_2 V c t) (b2_3 V c t) m) = Spec.cell (Spec.online hE2 (scores2 V c) (t.val + 1)).1
    ∧ k2_pay1 (k2_pay5 (b2_0 V c t) (b2_1 V c t) (b2_2 V c t) (b2_3 V c t)) (k2_pay7 (b2_0 V c t) (b2_1 V c t) (b2_2 V c t) (b2_3 V c t) m m) (k2_pay8 (b2_0 V c t) (b2_1 V c t) (b2_2 V c t) (b2_3 V c t) m) l
        = Spec.cell (Spec.online hE2 (scores2 V c) (t.val + 1)).2 := by
  have ht : t.val < 250 := lt_of_lt_of_eq t.isLt nPts2
  rw [online_succ2 (scores2 V c) t.val ht]
  constructor
  · funext j
    rw [stepM2, hm, sup_blk2]
    rfl
  · funext j
    have hM : max (Spec.online hE2 (scores2 V c) t.val).1 (Finset.univ.sup fun r : Fin 5000 => scores2 V c (Spec.edgeAt hE2 ⟨t.val, ht⟩ r))
        = max (m j) (Finset.univ.sup fun r : Fin 5000 => k2_pay5 (b2_0 V c t) (b2_1 V c t) (b2_2 V c t) (b2_3 V c t) (ix2 r (0 : Fin 1))) := by
      rw [hm, sup_blk2]
    rw [stepL2 _ _ _ _ m l j _ hM, hm, hl]
    exact congrArg₂ (· + ·) rfl (Finset.sum_congr rfl fun r _ => by rw [score_blk2, rowAt2_eq])

/-! ## The trajectory named -/

/-- After the first point the scratch pair is one step from the reset values. -/
theorem scratchA2 (c : Dev nD) (t : Fin cfg2.N) (h0 : t.val = 0) (h1 : ¬t.val = 249) :
    (outsAt2 V c t.val t.isLt).2.2.2.1 = k2_pay2 (k2_pay6 (b2_0 V c t) (b2_1 V c t) (b2_2 V c t) (b2_3 V c t) (k2_pay3 (F := Ideal)))
    ∧ (outsAt2 V c t.val t.isLt).2.2.2.2 = k2_pay1 (k2_pay5 (b2_0 V c t) (b2_1 V c t) (b2_2 V c t) (b2_3 V c t)) (k2_pay7 (b2_0 V c t) (b2_1 V c t) (b2_2 V c t) (b2_3 V c t) (k2_pay3 (F := Ideal)) (k2_pay3 (F := Ideal))) (k2_pay8 (b2_0 V c t) (b2_1 V c t) (b2_2 V c t) (b2_3 V c t) (k2_pay3 (F := Ideal))) (k2_pay4 (F := Ideal)) := by
  rw [outsAt2_A V c t h0 h1]; dsimp only
  exact ⟨sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t), sout2_A_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)⟩

/-- After any later point the scratch pair is one step from what the point before left. -/
theorem scratchBC2 (c : Dev nD) (t : Fin cfg2.N) (h0 : ¬t.val = 0) :
    (outsAt2 V c t.val t.isLt).2.2.2.1 = k2_pay2 (k2_pay6 (b2_0 V c t) (b2_1 V c t) (b2_2 V c t) (b2_3 V c t) (outsAt2 V c (t.val - 1) (Nat.lt_of_le_of_lt (Nat.sub_le _ _) t.isLt)).2.2.2.1)
    ∧ (outsAt2 V c t.val t.isLt).2.2.2.2 = k2_pay1 (k2_pay5 (b2_0 V c t) (b2_1 V c t) (b2_2 V c t) (b2_3 V c t)) (k2_pay7 (b2_0 V c t) (b2_1 V c t) (b2_2 V c t) (b2_3 V c t) (outsAt2 V c (t.val - 1) (Nat.lt_of_le_of_lt (Nat.sub_le _ _) t.isLt)).2.2.2.1 (outsAt2 V c (t.val - 1) (Nat.lt_of_le_of_lt (Nat.sub_le _ _) t.isLt)).2.2.2.1) (k2_pay8 (b2_0 V c t) (b2_1 V c t) (b2_2 V c t) (b2_3 V c t) (outsAt2 V c (t.val - 1) (Nat.lt_of_le_of_lt (Nat.sub_le _ _) t.isLt)).2.2.2.1) (outsAt2 V c (t.val - 1) (Nat.lt_of_le_of_lt (Nat.sub_le _ _) t.isLt)).2.2.2.2 := by
  by_cases h1 : t.val = 249
  · rw [outsAt2_C V c t h0 h1]; dsimp only
    exact ⟨sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2⟩
  · rw [outsAt2_B V c t h0 h1]; dsimp only
    exact ⟨sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2⟩

/-- At every point the score window's buffer is left at the block's scores. -/
theorem scoreOut2 (c : Dev nD) (t : Fin cfg2.N) : (outsAt2 V c t.val t.isLt).1 = k2_pay5 (b2_0 V c t) (b2_1 V c t) (b2_2 V c t) (b2_3 V c t) := by
  by_cases h0 : t.val = 0
  · have h1 : ¬t.val = 249 := by omega
    rw [outsAt2_A V c t h0 h1]; dsimp only
    exact out2_A_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t)
  · by_cases h1 : t.val = 249
    · rw [outsAt2_C V c t h0 h1]; dsimp only
      exact out2_C_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
    · rw [outsAt2_B V c t h0 h1]; dsimp only
      exact out2_B_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-- At the last point the two one-word output windows are left at the scratch pair. -/
theorem lastOut2 (c : Dev nD) (t : Fin cfg2.N) (h1 : t.val = 249) :
    (outsAt2 V c t.val t.isLt).2.1 = (outsAt2 V c t.val t.isLt).2.2.2.1
    ∧ (outsAt2 V c t.val t.isLt).2.2.1 = (outsAt2 V c t.val t.isLt).2.2.2.2 := by
  have h0 : ¬t.val = 0 := by omega
  rw [outsAt2_C V c t h0 h1]; dsimp only
  exact ⟨(out2_C_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm,
    (out2_C_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans (sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm⟩

/-! ## The scratch pair after each point -/

/-- After point n the two scratch buffers hold the running maximum and the running rescaled sum over the first
    n + 1 blocks. -/
theorem traj2 (c : Dev nD) : ∀ (n : ℕ) (hn : n < cfg2.N),
    (outsAt2 (F := Ideal) V c n hn).2.2.2.1 = Spec.cell (Spec.online hE2 (scores2 V c) (n + 1)).1
    ∧ (outsAt2 (F := Ideal) V c n hn).2.2.2.2 = Spec.cell (Spec.online hE2 (scores2 V c) (n + 1)).2
  | 0, hn => by
    obtain ⟨em, el⟩ := scratchA2 V c ⟨0, hn⟩ rfl (show ¬(0 : ℕ) = 249 by decide)
    obtain ⟨sm, sl⟩ := online_step2 V c ⟨0, hn⟩ (k2_pay3 (F := Ideal)) (k2_pay4 (F := Ideal)) (fun j => pay3_apply2 j) (fun j => pay4_apply2 j)
    exact ⟨em.trans sm, el.trans sl⟩
  | n + 1, hn => by
    obtain ⟨im, il⟩ := traj2 c n (Nat.lt_of_succ_lt hn)
    obtain ⟨em, el⟩ := scratchBC2 V c ⟨n + 1, hn⟩ (Nat.succ_ne_zero n)
    obtain ⟨sm, sl⟩ := online_step2 V c ⟨n + 1, hn⟩ (outsAt2 V c n (Nat.lt_of_succ_lt hn)).2.2.2.1 (outsAt2 V c n (Nat.lt_of_succ_lt hn)).2.2.2.2
      (fun j => congrFun im j) (fun j => congrFun il j)
    exact ⟨em.trans sm, el.trans sl⟩

/-! ## From the blocks to the arrays -/

/-- Where the score window's block at point t puts its row p. -/
theorem emb2_4 (t : Fin cfg2.N) (p : Fin 5000) :
    ((cfg2.win 4).blk t).view.emb (ix2 p (0 : Fin 1)) = (ix2 (rowAt2 t p) (0 : Fin 1) : S1250000x1.Idx) := by
  obtain ⟨-, -, -, -, -, -, -, -, e0, e1, -⟩ := idx_facts2 t
  funext a; apply Fin.ext
  match a with
  | ⟨0, _⟩ => show win2_4.index t (0 : Fin 2) * 5000 + 1 * p.val = t.val * 5000 + p.val; rw [e0]; omega
  | ⟨1, _⟩ => show win2_4.index t (1 : Fin 2) * 1 + 1 * (0 : Fin 1).val = (0 : Fin 1).val; rw [e1]; rfl

/-- An index of a block of one column is its row and column zero. -/
theorem eq_ixP2 (y : S5000x1.Idx) : y = ix2 (y 0) (0 : Fin 1) :=
  funext fun a => Fin.ext (by
    match a with
    | ⟨0, _⟩ => rfl
    | ⟨1, _⟩ => have h : (y 1).val < 1 := (y 1).isLt; show (y 1).val = 0; omega)

/-- The score array the region leaves, as one function of the arrays it reads. -/
abbrev G2_4 (c : Dev nD) : S1250000x1.Idx → EReal := Spec.col1 (scores2 V c)

/-- What point t writes back to the score array is block t of the edges' scores. -/
theorem flushed2_4_eq (c : Dev nD) (t : Fin cfg2.N) :
    (dat2 (F := Ideal) V c).flushed 4 t = ((cfg2.win 4).blk t).view.read (Elt Ideal) (G2_4 V c) := by
  show (cfg2.win 4).cut (grid2.coords t) ((dat2 V c).after 4 t) = _
  rw [after2_4, scoreOut2]
  funext y
  obtain ⟨p, rfl⟩ : ∃ p : Fin 5000, y = ix2 p (0 : Fin 1) := ⟨y 0, eq_ixP2 y⟩
  refine (score_blk2 V c t p).trans ?_
  rw [View.read_apply, emb2_4]
  rfl

/-- An index of the score array is in point t's block iff each coordinate is in the block's range on its axis. -/
theorem mem_blk2_4 (t : Fin cfg2.N) (i : S1250000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v20_0).slice (win2_4.rect t)).set ↔ _
  rw [View.set_slice_whole, Rect.mem_set_unit]
  exact Iff.rfl

/-- Edge e lies in the block of point e / 5000. -/
theorem cover2_4 (i : S1250000x1.Idx) : ∃ t : Fin cfg2.N, (cfg2.win 4).flush t = true ∧ i ∈ ((cfg2.win 4).blk t).view.set := by
  have hi0 : (i 0).val < 1250000 := (i 0).isLt
  have hi1 : (i 1).val < 1 := (i 1).isLt
  have ht : (i 0).val / 5000 < cfg2.N := by rw [nPts2]; omega
  obtain ⟨-, -, -, -, -, -, -, -, e0, e1, -⟩ := idx_facts2 ⟨(i 0).val / 5000, ht⟩
  refine ⟨⟨(i 0).val / 5000, ht⟩, flush2_4 _, ?_⟩
  rw [mem_blk2_4]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 1 ≤ (i 1).val ∧ (i 1).val < win2_4.index ⟨(i 0).val / 5000, ht⟩ (1 : Fin 2) * 1 + 1
    rw [e1]; omega

/-- The score array the pipeline leaves is the column of the edges' scores. -/
theorem value2_4 (c : Dev nD) : (dat2 (F := Ideal) V c).arrAt 4 cfg2.N = Spec.col1 (scores2 V c) :=
  (dat2 V c).arrAt_eq_of_cover 4 (G2_4 V c) (fun t _ => flushed2_4_eq V c t) cover2_4

/-- The last point. -/
theorem last2 : (249 : ℕ) < cfg2.N := by rw [nPts2]; decide

/-- The scratch pair after the last point is the running pair over all 250 blocks. -/
theorem trajLast2 (c : Dev nD) (t : Fin cfg2.N) (h1 : t.val = 249) :
    (outsAt2 (F := Ideal) V c t.val t.isLt).2.2.2.1 = Spec.cell (Spec.online hE2 (scores2 V c) 250).1
    ∧ (outsAt2 (F := Ideal) V c t.val t.isLt).2.2.2.2 = Spec.cell (Spec.online hE2 (scores2 V c) 250).2 := by
  have e : t.val + 1 = 250 := by omega
  have h := traj2 V c t.val t.isLt
  rw [e] at h
  exact h

/-- An index of a one-word array is in the (one) block of the maximum's window at any point. -/
theorem mem_blk2_5 (t : Fin cfg2.N) (i : S1x1.Idx) : i ∈ ((cfg2.win 5).blk t).view.set := by
  obtain ⟨-, -, -, -, -, -, -, -, -, -, e0, e1, -⟩ := idx_facts2 t
  show i ∈ ((View.whole main_v20_1).slice (win2_5.rect t)).set
  rw [View.set_slice_whole, Rect.mem_set_unit]
  intro a
  match a with
  | ⟨0, _⟩ =>
    have h : (i 0).val < 1 := (i 0).isLt
    show win2_5.index t (0 : Fin 2) * 1 ≤ (i 0).val ∧ (i 0).val < win2_5.index t (0 : Fin 2) * 1 + 1
    rw [e0]; omega
  | ⟨1, _⟩ =>
    have h : (i 1).val < 1 := (i 1).isLt
    show win2_5.index t (1 : Fin 2) * 1 ≤ (i 1).val ∧ (i 1).val < win2_5.index t (1 : Fin 2) * 1 + 1
    rw [e1]; omega

/-- And of the sum's window. -/
theorem mem_blk2_6 (t : Fin cfg2.N) (i : S1x1.Idx) : i ∈ ((cfg2.win 6).blk t).view.set := by
  obtain ⟨-, -, -, -, -, -, -, -, -, -, -, -, e0, e1⟩ := idx_facts2 t
  show i ∈ ((View.whole main_v20_2).slice (win2_6.rect t)).set
  rw [View.set_slice_whole, Rect.mem_set_unit]
  intro a
  match a with
  | ⟨0, _⟩ =>
    have h : (i 0).val < 1 := (i 0).isLt
    show win2_6.index t (0 : Fin 2) * 1 ≤ (i 0).val ∧ (i 0).val < win2_6.index t (0 : Fin 2) * 1 + 1
    rw [e0]; omega
  | ⟨1, _⟩ =>
    have h : (i 1).val < 1 := (i 1).isLt
    show win2_6.index t (1 : Fin 2) * 1 ≤ (i 1).val ∧ (i 1).val < win2_6.index t (1 : Fin 2) * 1 + 1
    rw [e1]; omega

/-- The maximum's array is written back at the last point only, with the running maximum over all blocks. -/
theorem value2_5 (c : Dev nD) : (dat2 (F := Ideal) V c).arrAt 5 cfg2.N = Spec.cell (Spec.online hE2 (scores2 V c) 250).1 :=
  (dat2 V c).arrAt_eq_of_cover 5 (Spec.cell (Spec.online hE2 (scores2 V c) 250).1 : S1x1.Idx → EReal)
    (fun t hf => by
      have hN : t.val < 250 := lt_of_lt_of_eq t.isLt nPts2
      have h1 : t.val = 249 := by have := (flush2_5 t).mp hf; omega
      show (cfg2.win 5).cut (grid2.coords t) ((dat2 V c).after 5 t) = _
      rw [after2_5, (lastOut2 V c t h1).1, (trajLast2 V c t h1).1]
      rfl)
    (fun i => ⟨⟨249, last2⟩, (flush2_5 _).mpr rfl, mem_blk2_5 _ i⟩)

/-- The sum's array likewise, with the running rescaled sum over all blocks. -/
theorem value2_6 (c : Dev nD) : (dat2 (F := Ideal) V c).arrAt 6 cfg2.N = Spec.cell (Spec.online hE2 (scores2 V c) 250).2 :=
  (dat2 V c).arrAt_eq_of_cover 6 (Spec.cell (Spec.online hE2 (scores2 V c) 250).2 : S1x1.Idx → EReal)
    (fun t hf => by
      have hN : t.val < 250 := lt_of_lt_of_eq t.isLt nPts2
      have h1 : t.val = 249 := by have := (flush2_6 t).mp hf; omega
      show (cfg2.win 6).cut (grid2.coords t) ((dat2 V c).after 6 t) = _
      rw [after2_6, (lastOut2 V c t h1).2, (trajLast2 V c t h1).2]
      rfl)
    (fun i => ⟨⟨249, last2⟩, (flush2_6 _).mpr rfl, mem_blk2_6 _ i⟩)

end Cert.KernelIdeal.HandV

end
-- ==== Proof.KI.GlueAttn.lean ====
/- The attention-score region in the chain of contents between @main's items: at the region's exit its three output
   arrays hold the column of the edges' scores and the running pair over all 250 blocks, the scores those of the four
   arrays the region reads as the chain has them at its entry. -/
import proofs.«417395_j71579924955534_2_alg».proof.Proof.KI.Chain
import proofs.«417395_j71579924955534_2_alg».proof.Proof.KI.V2
import proofs.«417395_j71579924955534_2_alg».proof.Proof.Spec

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The score array at the region's exit. -/
theorem attn2_out0 (c : Dev nD) : W8 m c main_v20_0 = Spec.col1 (scores2 (Wr7 m) c) :=
  (W8_out0 m c).trans (value2_4 (Wr7 m) c)

/-- The maximum's array at the region's exit. -/
theorem attn2_out1 (c : Dev nD) : W8 m c main_v20_1 = Spec.cell (Spec.online hE2 (scores2 (Wr7 m) c) 250).1 :=
  (W8_out1 m c).trans (value2_5 (Wr7 m) c)

/-- The sum's array at the region's exit. -/
theorem attn2_out2 (c : Dev nD) : W8 m c main_v20_2 = Spec.cell (Spec.online hE2 (scores2 (Wr7 m) c) 250).2 :=
  (W8_out2 m c).trans (value2_6 (Wr7 m) c)

/-- The scores are those of the four arrays the region reads, as the chain has them at its entry. -/
theorem scores2_W7 (c : Dev nD) :
    scores2 (Wr7 m) c = Spec.score (W7 m c main_v13) (W7 m c main_v14) (W7 m c main_v16) (Spec.rowOf (W7 m c main_v19)) := rfl

end Cert.KernelIdeal.HandV

end
-- ==== Proof.KI.V3.lean ====
import proofs.«417395_j71579924955534_2_alg».proof.Proof.KI.R3
import proofs.«417395_j71579924955534_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # Region 3 (the message call) on the extended reals: the message array as one function of the five input arrays

Row `e` of the result, feature `q`, is `exp (score e − m) · (1 / l) · weight e · feature (e, q)`: the body's arithmetic
on a block is that formula on the block; a block's rows are the array's rows `5000 · t + p`; the 250 blocks fill the
array. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz3 : (![0, 0] : Fin 2 → Nat) = fun _ => 0 := funext fun a => by fin_cases a <;> rfl

/-- The exponential of a vector, read at an index. -/
theorem exp_at3 {s : Shape} {φ : FTy} (a : FVec Ideal s φ) (i : s.Idx) : exp a i = Ideal.exp (a i) := rfl

/-- One cell spread down a column reads the cell everywhere. -/
theorem spread_cell3 (v : FVec Ideal S1x1 .f32) (p : Fin 5000) (u : Fin 1) :
    broadcastTo S5000x1 v broadcasts_S1x1_S5000x1 (ix2 p u) = v (ix2 (0 : Fin 1) (0 : Fin 1)) :=
  broadcastTo_apply v broadcasts_S1x1_S5000x1 (ix2 p u) (ix2 (0 : Fin 1) (0 : Fin 1))
    (fun a => by match a with | ⟨0, _⟩ => rfl | ⟨1, _⟩ => rfl)

/-- A column spread over 64 lanes reads, at `(p, k)`, the column at `p`. -/
theorem spread_col3 (v : FVec Ideal S5000x1 .f32) (p : Fin 5000) (k : Fin 64) :
    broadcastTo S5000x64 v broadcasts_S5000x1_S5000x64 (ix2 p k) = v (ix2 p (0 : Fin 1)) :=
  broadcastTo_apply v broadcasts_S5000x1_S5000x64 (ix2 p k) (ix2 p (0 : Fin 1))
    (fun a => by match a with | ⟨0, _⟩ => rfl | ⟨1, _⟩ => rfl)

/-- The body's arithmetic on whole blocks is the message formula on the blocks. -/
theorem pay3_eq (x3 x4 : Vec Ideal S1x1 .f32) (x0 x2 : Vec Ideal S5000x1 .f32) (x1 : Vec Ideal S5000x64 .f32) :
    k3_pay1 (F := Ideal) x3 x4 x0 x2 x1 = Spec.messageK (E := 5000) x0 x1 x2 x3 x4 := by
  funext j
  obtain ⟨p, q, rfl⟩ : ∃ (p : Fin 5000) (q : Fin 64), j = ix2 p q := ⟨j 0, j 1, eq_ix2 j⟩
  unfold k3_pay1 Spec.messageK
  simp only [shapeCast_self, mulf_apply, subf_apply, divf_apply, broadcast_apply, exp_at3, spread_col3, spread_cell3,
    Ideal.ofBits_def, Ideal.ofBits_one_f32]

/-- The block indices at point `t`: the three moving inputs and the output sit at block row `t`, the two cells at `0`. -/
theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx3_1 : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
theorem idx3_2 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)
theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx3_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
theorem idx3_5 : ∀ t : Fin cfg3.N, win3_5.index t (0 : Fin 2) = t.val ∧ win3_5.index t (1 : Fin 2) = 0 :=
  (by decide +kernel : ∀ t : Fin grid3.N, win3_5.index t (0 : Fin 2) = t.val ∧ win3_5.index t (1 : Fin 2) = 0)

set_option maxHeartbeats 4000000 in
/-- What point `t` writes back is block `t` of the message formula on the whole arrays. -/
theorem flushed3_eq (c : Dev nD) (t : Fin cfg3.N) :
    (dat3 V c).flushed 5 t = ((cfg3.win 5).blk t).view.read (Elt Ideal)
      (Spec.messageK (E := 1250000) (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz3]
  simp only [View.ld_unit_zero (S := S5000x64) hz3, View.ld_unit_zero (S := S5000x1) hz3, View.ld_unit_zero (S := S1x1) hz3]
  rw [pay3_eq]
  obtain ⟨a0, b0⟩ := idx3_0 t
  obtain ⟨a1, b1⟩ := idx3_1 t
  obtain ⟨a2, b2⟩ := idx3_2 t
  obtain ⟨a3, b3⟩ := idx3_3 t
  obtain ⟨a4, b4⟩ := idx3_4 t
  obtain ⟨a5, b5⟩ := idx3_5 t
  funext j
  obtain ⟨p, q, rfl⟩ : ∃ (p : Fin 5000) (q : Fin 64), j = ix2 p q := ⟨j 0, j 1, eq_ix2 j⟩
  have e0 : ((cfg3.win 0).blk t).view.emb (ix2 p (0 : Fin 1))
      = ix2 (Spec.c0 (((cfg3.win 5).blk t).view.emb (ix2 p q))) (0 : Fin 1) := by
    funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 1 + 1 * 0 = 0; omega
  have e1 : ((cfg3.win 1).blk t).view.emb (ix2 p q) = ((cfg3.win 5).blk t).view.emb (ix2 p q) := by
    funext a; apply Fin.ext
    match a with
    | ⟨0, _⟩ => show win3_1.index t (0 : Fin 2) * 5000 + 1 * p.val = win3_5.index t (0 : Fin 2) * 5000 + 1 * p.val; omega
    | ⟨1, _⟩ => show win3_1.index t (1 : Fin 2) * 64 + 1 * q.val = win3_5.index t (1 : Fin 2) * 64 + 1 * q.val; omega
  have e2 : ((cfg3.win 2).blk t).view.emb (ix2 p (0 : Fin 1))
      = ix2 (Spec.c0 (((cfg3.win 5).blk t).view.emb (ix2 p q))) (0 : Fin 1) := by
    funext a; apply Fin.ext
    match a with
    | ⟨0, _⟩ => show win3_2.index t (0 : Fin 2) * 5000 + 1 * p.val = win3_5.index t (0 : Fin 2) * 5000 + 1 * p.val; omega
    | ⟨1, _⟩ => show win3_2.index t (1 : Fin 2) * 1 + 1 * 0 = 0; omega
  have e3 : ((cfg3.win 3).blk t).view.emb (ix2 (0 : Fin 1) (0 : Fin 1)) = ix2 (0 : Fin 1) (0 : Fin 1) := by
    funext a; apply Fin.ext
    match a with
    | ⟨0, _⟩ => show win3_3.index t (0 : Fin 2) * 1 + 1 * 0 = 0; omega
    | ⟨1, _⟩ => show win3_3.index t (1 : Fin 2) * 1 + 1 * 0 = 0; omega
  have e4 : ((cfg3.win 4).blk t).view.emb (ix2 (0 : Fin 1) (0 : Fin 1)) = ix2 (0 : Fin 1) (0 : Fin 1) := by
    funext a; apply Fin.ext
    match a with
    | ⟨0, _⟩ => show win3_4.index t (0 : Fin 2) * 1 + 1 * 0 = 0; omega
    | ⟨1, _⟩ => show win3_4.index t (1 : Fin 2) * 1 + 1 * 0 = 0; omega
  show Spec.messageK (E := 5000) (iblk3 V c 0 t) (iblk3 V c 1 t) (iblk3 V c 2 t) (iblk3 V c 3 t) (iblk3 V c 4 t) (ix2 p q)
    = Spec.messageK (E := 1250000) (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  unfold Spec.messageK
  have r0 : iblk3 V c 0 t (ix2 (Spec.c0 (ix2 p q)) (0 : Fin 1))
      = V c (Pipeline.arrRef spec3 0) (((cfg3.win 0).blk t).view.emb (ix2 p (0 : Fin 1))) := rfl
  have r1 : iblk3 V c 1 t (ix2 p q) = V c (Pipeline.arrRef spec3 1) (((cfg3.win 1).blk t).view.emb (ix2 p q)) := rfl
  have r2 : iblk3 V c 2 t (ix2 (Spec.c0 (ix2 p q)) (0 : Fin 1))
      = V c (Pipeline.arrRef spec3 2) (((cfg3.win 2).blk t).view.emb (ix2 p (0 : Fin 1))) := rfl
  have r3 : iblk3 V c 3 t (ix2 (0 : Fin 1) (0 : Fin 1))
      = V c (Pipeline.arrRef spec3 3) (((cfg3.win 3).blk t).view.emb (ix2 (0 : Fin 1) (0 : Fin 1))) := rfl
  have r4 : iblk3 V c 4 t (ix2 (0 : Fin 1) (0 : Fin 1))
      = V c (Pipeline.arrRef spec3 4) (((cfg3.win 4).blk t).view.emb (ix2 (0 : Fin 1) (0 : Fin 1))) := rfl
  rw [r0, r1, r2, r3, r4, e0, e1, e2, e3, e4]

/-- An index of the array is in point `t`'s block iff each coordinate is in the block's range on its axis. -/
theorem mem_blk3 (t : Fin cfg3.N) (i : S1250000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v21).slice (win3_5.rect t)).set ↔ _
  rw [View.set_slice_whole, Rect.mem_set_unit]
  exact Iff.rfl

/-- Row `r` of the array lies in the block of point `r / 5000`. -/
theorem cover3 (i : S1250000x64.Idx) :
    ∃ t : Fin cfg3.N, (cfg3.win 5).flush t = true ∧ i ∈ ((cfg3.win 5).blk t).view.set := by
  have hi0 : (i 0).val < 1250000 := (i 0).isLt
  have hi1 : (i 1).val < 64 := (i 1).isLt
  have hN : cfg3.N = 250 := N_3
  have ht : (i 0).val / 5000 < cfg3.N := by rw [hN]; omega
  obtain ⟨a5, b5⟩ := idx3_5 ⟨(i 0).val / 5000, ht⟩
  refine ⟨⟨(i 0).val / 5000, ht⟩, flush3_5 _, ?_⟩
  rw [mem_blk3]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [a5]
    show (i 0).val / 5000 * 5000 ≤ (i 0).val ∧ (i 0).val < (i 0).val / 5000 * 5000 + 5000
    omega
  | ⟨1, _⟩ =>
    show win3_5.index ⟨(i 0).val / 5000, ht⟩ (1 : Fin 2) * 64 ≤ (i 1).val
      ∧ (i 1).val < win3_5.index ⟨(i 0).val / 5000, ht⟩ (1 : Fin 2) * 64 + 64
    rw [b5]
    omega

/-- THE VALUE of the region: after its 250 points the message array is the message formula of the five input arrays as
    the region found them. -/
theorem value3 (c : Dev nD) :
    (dat3 (F := Ideal) V c).arrAt 5 cfg3.N
      = Spec.messageK (E := 1250000) (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed3_eq V c t) cover3

end Cert.KernelIdeal.HandV
-- ==== Proof.KI.V4.lean ====
import proofs.«417395_j71579924955534_2_alg».proof.Proof.KI.R4
import proofs.«417395_j71579924955534_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # Region 4 (the finalize call) on the extended reals: the result array as one function of the five input arrays

Row `r` of the result is `h r + layernorm (relu (hl r + agg r))`, the norm over the 64 features of the row with the
scale row and the shift row: the body's arithmetic on a block is that formula on the block; the formula reads one row
of each array, a block's rows are the array's rows `5000 · t + p`, and the 20 blocks fill the array. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz4 : (![0, 0] : Fin 2 → Nat) = fun _ => 0 := funext fun a => by fin_cases a <;> rfl

/-- The reciprocal square root of a vector, read at an index. -/
theorem rsqrt_at4 {s : Shape} {φ : FTy} (a : FVec Ideal s φ) (i : s.Idx) : rsqrt a i = Ideal.rsqrt (a i) := rfl

/-- A column spread over 64 lanes reads, at `(p, k)`, the column at `p`. -/
theorem spread_col4 (v : FVec Ideal S5000x1 .f32) (p : Fin 5000) (k : Fin 64) :
    broadcastTo S5000x64 v broadcasts_S5000x1_S5000x64 (ix2 p k) = v (ix2 p (0 : Fin 1)) :=
  broadcastTo_apply v broadcasts_S5000x1_S5000x64 (ix2 p k) (ix2 p (0 : Fin 1))
    (fun a => by match a with | ⟨0, _⟩ => rfl | ⟨1, _⟩ => rfl)

/-- A row spread over 5000 rows reads, at `(p, k)`, the row at `k`. -/
theorem spread_row4 (v : FVec Ideal S1x64 .f32) (p : Fin 5000) (k : Fin 64) :
    broadcastTo S5000x64 v broadcasts_S1x64_S5000x64 (ix2 p k) = v (ix2 (0 : Fin 1) k) :=
  broadcastTo_apply v broadcasts_S1x64_S5000x64 (ix2 p k) (ix2 (0 : Fin 1) k)
    (fun a => by match a with | ⟨0, _⟩ => rfl | ⟨1, _⟩ => rfl)

/-- The sum over the 64 lanes, kept as a column, reads at `(p, u)` the sum of row `p`. -/
theorem lane_sum4 (src : FVec Ideal S5000x64 .f32) (hφ : FTy.f32 = FTy.f32 ∨ FTy.f32 = FTy.bf16)
    (hacc : (0x00000000#32 : BitVec 32) = 0x00000000#32) (p : Fin 5000) (u : Fin 1) :
    shapeCast S5000x1 (multiReduction (F := Ideal) .add [1] S5000 src 0x00000000#32 reduces_S5000x64_S5000 hφ hacc)
      shapeCasts_S5000_S5000x1 (ix2 p u) = ∑ k : Fin 64, src (ix2 p k) := by
  refine (shapeCast_apply _ shapeCasts_S5000_S5000x1 (ix2 p u) (ix1 p) ?_).trans ?_
  · rw [Shape.rowMajor_val_one, Shape.rowMajor_val_two]
    show p.val = p.val * 1 + u.val
    omega
  · refine (Ideal.multiReduction_add_single src 0x00000000#32 reduces_S5000x64_S5000 hφ hacc (ix1 p)).trans ?_
    exact Finset.sum_congr rfl fun k _ => congrArg src (funext fun a => by match a with | ⟨0, _⟩ => rfl | ⟨1, _⟩ => rfl)

/-- The body's arithmetic on whole blocks is the finalize formula on the blocks. -/
theorem pay4_eq (x0 x1 x2 : Vec Ideal S5000x64 .f32) (x3 x4 : Vec Ideal S1x64 .f32) :
    k4_pay1 (F := Ideal) x0 x1 x3 x4 x2 = Spec.finalize (N := 5000) x0 x1 x2 (Spec.rowOf x3) (Spec.rowOf x4) := by
  funext j
  obtain ⟨p, q, rfl⟩ : ∃ (p : Fin 5000) (q : Fin 64), j = ix2 p q := ⟨j 0, j 1, eq_ix2 j⟩
  unfold k4_pay1 Spec.finalize Spec.rowOf
  simp only [shapeCast_self, addf_apply, mulf_apply, subf_apply, divf_apply, maximumf_apply, broadcast_apply, rsqrt_at4,
    spread_col4, spread_row4]
  rw [lane_sum4, lane_sum4]
  simp only [addf_apply, mulf_apply, subf_apply, divf_apply, maximumf_apply, broadcast_apply, spread_col4]
  rw [lane_sum4]
  simp only [maximumf_apply, addf_apply, broadcast_apply, Ideal.ofBits_def, Ideal.ofBits_zero_f32]
  rfl

/-- The finalize formula at row `r` reads row `r` of its three arrays and the two rows `g`, `b`: two sets of arrays
    that agree there give the same value. -/
theorem finalize_rows4 {N M : ℕ} (hl agg h : Spec.A2 N 64) (hl' agg' h' : Spec.A2 M 64) (g b g' b' : Spec.A1 64)
    (r : Fin N) (r' : Fin M)
    (h0 : ∀ k : Fin 64, hl (ix2 r k) = hl' (ix2 r' k)) (h1 : ∀ k : Fin 64, agg (ix2 r k) = agg' (ix2 r' k))
    (h2 : ∀ k : Fin 64, h (ix2 r k) = h' (ix2 r' k))
    (hg : ∀ k : Fin 64, g (ix1 k) = g' (ix1 k)) (hb : ∀ k : Fin 64, b (ix1 k) = b' (ix1 k)) (q : Fin 64) :
    Spec.finalize hl agg h g b (ix2 r q) = Spec.finalize hl' agg' h' g' b' (ix2 r' q) := by
  unfold Spec.finalize
  show h (ix2 r q) + ((((max (hl (ix2 r q) + agg (ix2 r q)) 0
        - Ideal.div (∑ k : Fin 64, max (hl (ix2 r k) + agg (ix2 r k)) 0) Spec.c64)
        * Ideal.rsqrt (Ideal.div (∑ k : Fin 64, (max (hl (ix2 r k) + agg (ix2 r k)) 0
            - Ideal.div (∑ k : Fin 64, max (hl (ix2 r k) + agg (ix2 r k)) 0) Spec.c64)
          * (max (hl (ix2 r k) + agg (ix2 r k)) 0
            - Ideal.div (∑ k : Fin 64, max (hl (ix2 r k) + agg (ix2 r k)) 0) Spec.c64)) Spec.c64 + Spec.eps))
        * g (ix1 q)) + b (ix1 q))
    = h' (ix2 r' q) + ((((max (hl' (ix2 r' q) + agg' (ix2 r' q)) 0
        - Ideal.div (∑ k : Fin 64, max (hl' (ix2 r' k) + agg' (ix2 r' k)) 0) Spec.c64)
        * Ideal.rsqrt (Ideal.div (∑ k : Fin 64, (max (hl' (ix2 r' k) + agg' (ix2 r' k)) 0
            - Ideal.div (∑ k : Fin 64, max (hl' (ix2 r' k) + agg' (ix2 r' k)) 0) Spec.c64)
          * (max (hl' (ix2 r' k) + agg' (ix2 r' k)) 0
            - Ideal.div (∑ k : Fin 64, max (hl' (ix2 r' k) + agg' (ix2 r' k)) 0) Spec.c64)) Spec.c64 + Spec.eps))
        * g' (ix1 q)) + b' (ix1 q))
  simp only [h0, h1, h2, hg, hb]

/-- The block indices at point `t`: the three moving inputs and the output sit at block row `t`, the two rows at `0`. -/
theorem idx4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx4_1 : ∀ t : Fin cfg4.N, win4_1.index t (0 : Fin 2) = t.val ∧ win4_1.index t (1 : Fin 2) = 0 :=
  (by decide +kernel : ∀ t : Fin grid4.N, win4_1.index t (0 : Fin 2) = t.val ∧ win4_1.index t (1 : Fin 2) = 0)
theorem idx4_2 : ∀ t : Fin cfg4.N, win4_2.index t (0 : Fin 2) = t.val ∧ win4_2.index t (1 : Fin 2) = 0 :=
  (by decide +kernel : ∀ t : Fin grid4.N, win4_2.index t (0 : Fin 2) = t.val ∧ win4_2.index t (1 : Fin 2) = 0)
theorem idx4_3 : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
theorem idx4_4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
theorem idx4_5 : ∀ t : Fin cfg4.N, win4_5.index t (0 : Fin 2) = t.val ∧ win4_5.index t (1 : Fin 2) = 0 :=
  (by decide +kernel : ∀ t : Fin grid4.N, win4_5.index t (0 : Fin 2) = t.val ∧ win4_5.index t (1 : Fin 2) = 0)

set_option maxHeartbeats 4000000 in
/-- What point `t` writes back is block `t` of the finalize formula on the whole arrays. -/
theorem flushed4_eq (c : Dev nD) (t : Fin cfg4.N) :
    (dat4 V c).flushed 5 t = ((cfg4.win 5).blk t).view.read (Elt Ideal)
      (Spec.finalize (N := 100000) (V c (Pipeline.arrRef spec4 0)) (V c (Pipeline.arrRef spec4 1)) (V c (Pipeline.arrRef spec4 2))
        (fun j => V c (Pipeline.arrRef spec4 3) (ix2 (0 : Fin 1) (Spec.d0 j)))
        (fun j => V c (Pipeline.arrRef spec4 4) (ix2 (0 : Fin 1) (Spec.d0 j)))) := by
  show (cfg4.win 5).cut (grid4.coords t) ((dat4 V c).after 5 t) = _
  rw [after4_5]
  unfold out4_5
  rw [View.canon_unit_zero hz4]
  simp only [View.ld_unit_zero (S := S5000x64) hz4, View.ld_unit_zero (S := S1x64) hz4]
  rw [pay4_eq]
  obtain ⟨a0, b0⟩ := idx4_0 t
  obtain ⟨a1, b1⟩ := idx4_1 t
  obtain ⟨a2, b2⟩ := idx4_2 t
  obtain ⟨a3, b3⟩ := idx4_3 t
  obtain ⟨a4, b4⟩ := idx4_4 t
  obtain ⟨a5, b5⟩ := idx4_5 t
  funext j
  obtain ⟨p, q, rfl⟩ : ∃ (p : Fin 5000) (q : Fin 64), j = ix2 p q := ⟨j 0, j 1, eq_ix2 j⟩
  have hi : ((cfg4.win 5).blk t).view.emb (ix2 p q)
      = ix2 ((((cfg4.win 5).blk t).view.emb (ix2 p q)) 0 : Fin 100000) q := by
    funext a
    match a with
    | ⟨0, _⟩ => rfl
    | ⟨1, _⟩ => exact Fin.ext (show win4_5.index t (1 : Fin 2) * 64 + 1 * q.val = q.val by omega)
  show Spec.finalize (N := 5000) (iblk4 V c 0 t) (iblk4 V c 1 t) (iblk4 V c 2 t) (Spec.rowOf (iblk4 V c 3 t))
      (Spec.rowOf (iblk4 V c 4 t)) (ix2 p q)
    = Spec.finalize (N := 100000) (V c (Pipeline.arrRef spec4 0)) (V c (Pipeline.arrRef spec4 1)) (V c (Pipeline.arrRef spec4 2))
        (fun j => V c (Pipeline.arrRef spec4 3) (ix2 (0 : Fin 1) (Spec.d0 j)))
        (fun j => V c (Pipeline.arrRef spec4 4) (ix2 (0 : Fin 1) (Spec.d0 j))) (((cfg4.win 5).blk t).view.emb (ix2 p q))
  rw [hi]
  refine finalize_rows4 _ _ _ _ _ _ _ _ _ _ p _ ?_ ?_ ?_ ?_ ?_ q
  · intro k
    show V c (Pipeline.arrRef spec4 0) (((cfg4.win 0).blk t).view.emb (ix2 p k)) = V c (Pipeline.arrRef spec4 0) _
    refine congrArg _ (funext fun a => Fin.ext ?_)
    match a with
    | ⟨0, _⟩ => show win4_0.index t (0 : Fin 2) * 5000 + 1 * p.val = win4_5.index t (0 : Fin 2) * 5000 + 1 * p.val; omega
    | ⟨1, _⟩ => show win4_0.index t (1 : Fin 2) * 64 + 1 * k.val = k.val; omega
  · intro k
    show V c (Pipeline.arrRef spec4 1) (((cfg4.win 1).blk t).view.emb (ix2 p k)) = V c (Pipeline.arrRef spec4 1) _
    refine congrArg _ (funext fun a => Fin.ext ?_)
    match a with
    | ⟨0, _⟩ => show win4_1.index t (0 : Fin 2) * 5000 + 1 * p.val = win4_5.index t (0 : Fin 2) * 5000 + 1 * p.val; omega
    | ⟨1, _⟩ => show win4_1.index t (1 : Fin 2) * 64 + 1 * k.val = k.val; omega
  · intro k
    show V c (Pipeline.arrRef spec4 2) (((cfg4.win 2).blk t).view.emb (ix2 p k)) = V c (Pipeline.arrRef spec4 2) _
    refine congrArg _ (funext fun a => Fin.ext ?_)
    match a with
    | ⟨0, _⟩ => show win4_2.index t (0 : Fin 2) * 5000 + 1 * p.val = win4_5.index t (0 : Fin 2) * 5000 + 1 * p.val; omega
    | ⟨1, _⟩ => show win4_2.index t (1 : Fin 2) * 64 + 1 * k.val = k.val; omega
  · intro k
    show V c (Pipeline.arrRef spec4 3) (((cfg4.win 3).blk t).view.emb (ix2 (0 : Fin 1) k)) = V c (Pipeline.arrRef spec4 3) _
    refine congrArg _ (funext fun a => Fin.ext ?_)
    match a with
    | ⟨0, _⟩ => show win4_3.index t (0 : Fin 2) * 1 + 1 * 0 = 0; omega
    | ⟨1, _⟩ => show win4_3.index t (1 : Fin 2) * 64 + 1 * k.val = k.val; omega
  · intro k
    show V c (Pipeline.arrRef spec4 4) (((cfg4.win 4).blk t).view.emb (ix2 (0 : Fin 1) k)) = V c (Pipeline.arrRef spec4 4) _
    refine congrArg _ (funext fun a => Fin.ext ?_)
    match a with
    | ⟨0, _⟩ => show win4_4.index t (0 : Fin 2) * 1 + 1 * 0 = 0; omega
    | ⟨1, _⟩ => show win4_4.index t (1 : Fin 2) * 64 + 1 * k.val = k.val; omega

/-- An index of the array is in point `t`'s block iff each coordinate is in the block's range on its axis. -/
theorem mem_blk4 (t : Fin cfg4.N) (i : S100000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_v31).slice (win4_5.rect t)).set ↔ _
  rw [View.set_slice_whole, Rect.mem_set_unit]
  exact Iff.rfl

/-- Row `r` of the array lies in the block of point `r / 5000`. -/
theorem cover4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 20 := N_4
  have ht : (i 0).val / 5000 < cfg4.N := by rw [hN]; omega
  obtain ⟨a5, b5⟩ := idx4_5 ⟨(i 0).val / 5000, ht⟩
  refine ⟨⟨(i 0).val / 5000, ht⟩, flush4_5 _, ?_⟩
  rw [mem_blk4]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [a5]
    show (i 0).val / 5000 * 5000 ≤ (i 0).val ∧ (i 0).val < (i 0).val / 5000 * 5000 + 5000
    omega
  | ⟨1, _⟩ =>
    show win4_5.index ⟨(i 0).val / 5000, ht⟩ (1 : Fin 2) * 64 ≤ (i 1).val
      ∧ (i 1).val < win4_5.index ⟨(i 0).val / 5000, ht⟩ (1 : Fin 2) * 64 + 64
    rw [b5]
    omega

/-- THE VALUE of the region: after its 20 points the result array is the finalize formula of the five input arrays as
    the region found them. -/
theorem value4 (c : Dev nD) :
    (dat4 (F := Ideal) V c).arrAt 5 cfg4.N
      = Spec.finalize (N := 100000) (V c (Pipeline.arrRef spec4 0)) (V c (Pipeline.arrRef spec4 1)) (V c (Pipeline.arrRef spec4 2))
          (fun j => V c (Pipeline.arrRef spec4 3) (ix2 (0 : Fin 1) (Spec.d0 j)))
          (fun j => V c (Pipeline.arrRef spec4 4) (ix2 (0 : Fin 1) (Spec.d0 j))) :=
  (dat4 V c).arrAt_eq_of_cover 5 _ (fun t _ => flushed4_eq V c t) cover4

end Cert.KernelIdeal.HandV
-- ==== Proof.KI.GlueL0b.lean ====
import proofs.«417395_j71579924955534_2_alg».proof.Proof.KI.GlueCarry
import proofs.«417395_j71579924955534_2_alg».proof.Proof.KI.V3
import proofs.«417395_j71579924955534_2_alg».proof.Proof.KI.V4
import proofs.«417395_j71579924955534_2_alg».proof.Proof.Spec
import proofs.«417395_j71579924955534_2_alg».proof.Proof.EdgeIdx
import proofs.«417395_j71579924955534_2_alg».proof.Proof.Math.Gather
import Idealize.ShloMosaic.Lib.ValueLayout
import Idealize.ShloMosaic.Lib.ValueIdx
import Idealize.ShloMosaic.Lib.StableHlo.Run

/-! # Layer 0, from the attention call's results to the layer's result

The message call turns the scores, the gathered source rows, the edge weights, the global maximum and the global sum into
the messages; the host sums the messages into their target nodes; the finalize call adds, to the layer's input, the
layernorm of the relu of the dense result plus the aggregate, with row 0 of the scale and of the shift arrays. -/

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The host stretch between the two calls, over any previous contents -/

/-- The aggregate array: the messages added, row by row, into a table of zeros at the target vector kept as a column. -/
theorem bk_agg_read_L0 (X : Valuation τ sig (Elt Ideal)) :
    (StableHlo.after hostOps4 X (Proc.devRef .tc main_v24) : S100000x64.Idx → EReal)
      = Host.scatterAdd (F := Ideal) scatter_S100000x64_S1250000x1_S1250000x64_1_0_0_1
          (broadcastInDim S100000x64 ![] bcast_S_S100000x64 (constant (F := Ideal) S_ .f32 0x00000000#32))
          (broadcastInDim S1250000x1 ![0] bcast_S1250000_S1250000x1_0 (X (Proc.devRef .tc main_v1) : S1250000.Idx → BitVec 32))
          (X (Proc.devRef .tc main_v21) : S1250000x64.Idx → EReal) := by
  after_results

/-- The scale row: a row of the scale argument, flattened, kept as a one-row array. -/
theorem bk_g_read_L0 (X : Valuation τ sig (Elt Ideal)) :
    (StableHlo.after hostOps4 X (Proc.devRef .tc main_v29) : S1x64.Idx → EReal)
      = shapeCast S1x64 (shapeCast S64 (extractStridedSlice S1x64 ![0, 0] (X (Proc.devRef .tc main_arg9) : S3x64.Idx → EReal)
          slices_S3x64_S1x64_0_0) shapeCasts_S1x64_S64) shapeCasts_S64_S1x64 := by
  after_results
  rfl

/-- The shift row, likewise. -/
theorem bk_b_read_L0 (X : Valuation τ sig (Elt Ideal)) :
    (StableHlo.after hostOps4 X (Proc.devRef .tc main_v30) : S1x64.Idx → EReal)
      = shapeCast S1x64 (shapeCast S64 (extractStridedSlice S1x64 ![0, 0] (X (Proc.devRef .tc main_arg10) : S3x64.Idx → EReal)
          slices_S3x64_S1x64_0_0) shapeCasts_S1x64_S64) shapeCasts_S64_S1x64 := by
  after_results
  rfl

/-- A row of a three-row array, flattened and kept as a one-row array, read along that row, is the row. -/
theorem bk_sel_row_L0 (B : S3x64.Idx → EReal) :
    (fun j : S64.Idx => shapeCast S1x64 (shapeCast S64 (extractStridedSlice S1x64 ![0, 0] B slices_S3x64_S1x64_0_0)
        shapeCasts_S1x64_S64) shapeCasts_S64_S1x64 (ix2 (0 : Fin 1) (Spec.d0 j))) = Spec.sel2 0 B := by
  funext j
  obtain ⟨q, rfl⟩ : ∃ q : Fin 64, j = ix1 q := ⟨j 0, eq_ix1 j⟩
  show shapeCast S1x64 _ shapeCasts_S64_S1x64 (ix2 (0 : Fin 1) q) = B (ix2 (0 : Fin 3) q)
  rw [shapeCast_a_1a_apply, shapeCast_1a_a_apply, slice2_axis0_apply 0 B _ (0 : Fin 1) q (0 : Fin 3) rfl]

/-! ## The layer's back half -/

/-- The messages: the message formula of the attention call's three results, the gathered source rows and the weight column. -/
theorem bk_msg_value_L0 (c : Dev nD) :
    W9 m c main_v21 = Spec.messageK (W8 m c main_v20_0) (W7 m c main_v14) (Spec.colOf (m ((c.tc : Thread nD τ).loc main_arg2)))
      (W8 m c main_v20_1) (W8 m c main_v20_2) := by
  have y1 : Wr8 m c (Pipeline.arrRef spec3 1) = W7 m c main_v14 := bk_hj_L0 m c
  have y2 : Wr8 m c (Pipeline.arrRef spec3 2) = Spec.colOf (m ((c.tc : Thread nD τ).loc main_arg2)) := bk_v4_L0 m c
  rw [W9_out, value3 (Wr8 m) c, y1, y2]

/-- The aggregate: the messages summed into their target nodes. -/
theorem bk_agg_value_L0 (c : Dev nD) (hin : Spec.InRange 100000 (m ((c.tc : Thread nD τ).loc main_arg1))) :
    W10 m c main_v24 = Spec.aggregate (Spec.messageK (W8 m c main_v20_0) (W7 m c main_v14)
      (Spec.colOf (m ((c.tc : Thread nD τ).loc main_arg2))) (W8 m c main_v20_1) (W8 m c main_v20_2))
      (Spec.endF (m ((c.tc : Thread nD τ).loc main_arg1)) hin 0) := by
  rw [show W10 m c main_v24 = _ from bk_agg_read_L0 (W9 m c), bk_msg_value_L0 m c]
  exact Spec.scatterAdd_eq_aggregate scatter_S100000x64_S1250000x1_S1250000x64_1_0_0_1 rfl rfl rfl rfl
    bcast_S_S100000x64 bcast_S1250000_S1250000x1_0 _ _ (Spec.endF _ hin 0) (bk_v1_L0 m c hin)

set_option maxHeartbeats 4000000 in
/-- THE BACK HALF OF LAYER 0. -/
theorem layer0_back (c : Dev nD) (hin : Spec.InRange 100000 (m ((c.tc : Thread nD τ).loc main_arg1))) :
    W11 m c main_v31 = Spec.finalize (W4 m c main_v12)
      (Spec.aggregate (Spec.messageK (W8 m c main_v20_0) (W7 m c main_v14) (Spec.colOf (m ((c.tc : Thread nD τ).loc main_arg2)))
        (W8 m c main_v20_1) (W8 m c main_v20_2)) (Spec.endF _ hin 0))
      (W2 m c main_v6) (Spec.sel2 0 (m ((c.tc : Thread nD τ).loc main_arg9))) (Spec.sel2 0 (m ((c.tc : Thread nD τ).loc main_arg10))) := by
  have x0 : Wr10 m c (Pipeline.arrRef spec4 0) = W4 m c main_v12 := bk_hl_L0 m c
  have x1 : Wr10 m c (Pipeline.arrRef spec4 1) = _ := bk_agg_value_L0 m c hin
  have x2 : Wr10 m c (Pipeline.arrRef spec4 2) = W2 m c main_v6 := bk_h_L0 m c
  have x3 : (fun j : S64.Idx => Wr10 m c (Pipeline.arrRef spec4 3) (ix2 (0 : Fin 1) (Spec.d0 j)))
      = Spec.sel2 0 (m ((c.tc : Thread nD τ).loc main_arg9)) := by
    rw [show Wr10 m c (Pipeline.arrRef spec4 3) = _ from bk_g_read_L0 (W9 m c), bk_arg9_L0 m c]
    exact bk_sel_row_L0 _
  have x4 : (fun j : S64.Idx => Wr10 m c (Pipeline.arrRef spec4 4) (ix2 (0 : Fin 1) (Spec.d0 j)))
      = Spec.sel2 0 (m ((c.tc : Thread nD τ).loc main_arg10)) := by
    rw [show Wr10 m c (Pipeline.arrRef spec4 4) = _ from bk_b_read_L0 (W9 m c), bk_arg10_L0 m c]
    exact bk_sel_row_L0 _
  rw [W11_out, value4 (Wr10 m) c, x0, x1, x2, x3, x4]

end Cert.KernelIdeal.HandV
-- ==== Proof.KI.V1.lean ====
/- The value of the dense call cc1__dense_kernel at the extended reals: the array its pipeline leaves is, index by
   index, the rows array times the weight plus the bias row. The payload at an index (the product's operand indices
   axis by axis, the contraction re-indexed by its one coordinate, the bias row broadcast along the rows), each
   window's block as a part of its array, what a point writes back, the cover (row r lies in block r / 5000). -/
import proofs.«417395_j71579924955534_2_alg».proof.Proof.KI.R1
import proofs.«417395_j71579924955534_2_alg».proof.Proof.Spec
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The product's operand indices, axis by axis -/

theorem lhs1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## The payload at an index -/

/-- The body's payload at row p, column q of the block: the row of the first block against the column of the
    weight, plus the bias at the column. -/
theorem pay1_apply (x0 : Vec Ideal S5000x64 .f32) (x1 : Vec Ideal S64x64 .f32) (x2 : Vec Ideal S1x64 .f32) (p : Fin 5000) (q : Fin 64) :
    k1_pay1 x0 x1 x2 (ix2 p q) = (∑ k : Fin 64, x0 (ix2 p k) * x1 (ix2 k q)) + x2 (ix2 (0 : Fin 1) q) := by
  unfold k1_pay1
  simp only [shapeCast_self]
  rw [addf_apply]
  refine congrArg₂ (· + ·) ((Ideal.matmul_constant_zero_apply _ none _ _ _).trans ?_) ?_
  · rw [← Equiv.sum_comp (contrEquiv1 dot_S5000x64_S64x64_S5000x64_1_0_0_1_n_n 64 rfl rfl).symm]
    refine Finset.sum_congr rfl fun k _ => ?_
    have hk := contrEquiv1_symm_val dot_S5000x64_S64x64_S5000x64_1_0_0_1_n_n 64 rfl rfl k
    have el : dot_S5000x64_S64x64_S5000x64_1_0_0_1_n_n.lhsIdx (ix2 p q) ((contrEquiv1 dot_S5000x64_S64x64_S5000x64_1_0_0_1_n_n 64 rfl rfl).symm k) = ix2 p k :=
      funext fun a => Fin.ext (by
        match a with
        | ⟨0, _⟩ => exact lhs1_0 _ _
        | ⟨1, _⟩ => exact (lhs1_1 _ _).trans hk)
    have er : dot_S5000x64_S64x64_S5000x64_1_0_0_1_n_n.rhsIdx (ix2 p q) ((contrEquiv1 dot_S5000x64_S64x64_S5000x64_1_0_0_1_n_n 64 rfl rfl).symm k) = ix2 k q :=
      funext fun a => Fin.ext (by
        match a with
        | ⟨0, _⟩ => exact (rhs1_0 _ _).trans hk
        | ⟨1, _⟩ => exact rhs1_1 _ _)
    rw [el, er]
    rfl
  · exact broadcastTo_apply x2 _ (ix2 p q) (ix2 (0 : Fin 1) q) (fun a => by
      match a with
      | ⟨0, _⟩ => rfl
      | ⟨1, _⟩ => rfl)

/-! ## From the blocks to the array -/

theorem hz1 : (![0, 0] : Fin 2 → Nat) = fun _ => 0 := funext fun a => by fin_cases a <;> rfl

theorem N1 : cfg1.N = 20 := N_1

/-- The printed index maps over the grid: the rows window and the output window sit at block (t, 0); the weight and
    the bias stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three arrays the region reads, at their literal shapes. -/
abbrev arr1_0 (c : Dev nD) : S100000x64.Idx → EReal := V c (Pipeline.arrRef spec1 0)
abbrev arr1_1 (c : Dev nD) : S64x64.Idx → EReal := V c (Pipeline.arrRef spec1 1)
abbrev arr1_2 (c : Dev nD) : S1x64.Idx → EReal := V c (Pipeline.arrRef spec1 2)

/-- Row p of block t, as a row of the whole array. -/
def rowAt1 (t : Fin cfg1.N) (p : Fin 5000) : Fin 100000 :=
  ⟨t.val * 5000 + p.val, by have h : t.val < 20 := lt_of_lt_of_eq t.isLt N1; have := p.isLt; omega⟩

/-- The rows block at point t is rows 5000 t … 5000 t + 4999 of the rows array. -/
theorem iblk1_0_apply (c : Dev nD) (t : Fin cfg1.N) (p : Fin 5000) (k : Fin 64) :
    (iblk1 V c 0 t : Vec Ideal S5000x64 .f32) (ix2 p k) = arr1_0 V c (ix2 (rowAt1 t p) k) := by
  obtain ⟨e00, e01, -⟩ := idx_facts1 t
  unfold iblk1
  rw [View.read_apply]
  have h : ((cfg1.win 0).blk t).view.emb (ix2 p k) = (ix2 (rowAt1 t p) k : S100000x64.Idx) := by
    funext a; apply Fin.ext
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  rw [h]
  rfl

/-- The weight block is the weight array. -/
theorem iblk1_1_apply (c : Dev nD) (t : Fin cfg1.N) (k : Fin 64) (q : Fin 64) :
    (iblk1 V c 1 t : Vec Ideal S64x64 .f32) (ix2 k q) = arr1_1 V c (ix2 k q) := by
  obtain ⟨-, -, e10, e11, -⟩ := idx_facts1 t
  unfold iblk1
  rw [View.read_apply]
  have h : ((cfg1.win 1).blk t).view.emb (ix2 k q) = (ix2 k q : S64x64.Idx) := by
    funext a; apply Fin.ext
    match a with
    | ⟨0, _⟩ => show win1_1.index t (0 : Fin 2) * 64 + 1 * k.val = k.val; rw [e10]; omega
    | ⟨1, _⟩ => show win1_1.index t (1 : Fin 2) * 64 + 1 * q.val = q.val; rw [e11]; omega
  rw [h]
  rfl

/-- The bias block is the bias row. -/
theorem iblk1_2_apply (c : Dev nD) (t : Fin cfg1.N) (q : Fin 64) :
    (iblk1 V c 2 t : Vec Ideal S1x64 .f32) (ix2 (0 : Fin 1) q) = arr1_2 V c (ix2 (0 : Fin 1) q) := by
  obtain ⟨-, -, -, -, e20, e21, -⟩ := idx_facts1 t
  unfold iblk1
  rw [View.read_apply]
  have h : ((cfg1.win 2).blk t).view.emb (ix2 (0 : Fin 1) q) = (ix2 (0 : Fin 1) q : S1x64.Idx) := by
    funext a; apply Fin.ext
    match a with
    | ⟨0, _⟩ => show win1_2.index t (0 : Fin 2) * 1 + 1 * (0 : Fin 1).val = (0 : Fin 1).val; rw [e20]; rfl
    | ⟨1, _⟩ => show win1_2.index t (1 : Fin 2) * 64 + 1 * q.val = q.val; rw [e21]; omega
  rw [h]
  rfl

/-- Where the output window's block at point t puts its row p, column q. -/
theorem emb1_3 (t : Fin cfg1.N) (p : Fin 5000) (q : Fin 64) :
    ((cfg1.win 3).blk t).view.emb (ix2 p q) = (ix2 (rowAt1 t p) q : S100000x64.Idx) := by
  obtain ⟨-, -, -, -, -, -, e30, e31⟩ := idx_facts1 t
  funext a; apply Fin.ext
  match a with
  | ⟨0, _⟩ => show win1_3.index t (0 : Fin 2) * 5000 + 1 * p.val = t.val * 5000 + p.val; rw [e30]; omega
  | ⟨1, _⟩ => show win1_3.index t (1 : Fin 2) * 64 + 1 * q.val = q.val; rw [e31]; omega

/-- The array the region leaves, as one function of the three arrays it reads. -/
abbrev G1 (c : Dev nD) : S100000x64.Idx → EReal :=
  Spec.dense (arr1_0 V c) (arr1_1 V c) (fun j => arr1_2 V c (ix2 (0 : Fin 1) (Spec.d0 j)))

/-- What point t writes back is block t of G1. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S64x64) hz1, View.ld_unit_zero (S := S1x64) hz1]
  funext y
  obtain ⟨p, q, rfl⟩ : ∃ (p : Fin 5000) (q : Fin 64), y = ix2 p q := ⟨y 0, y 1, eq_ix2 y⟩
  refine (pay1_apply _ _ _ p q).trans ?_
  rw [View.read_apply, emb1_3]
  show _ = (∑ k : Fin 64, arr1_0 V c (ix2 (rowAt1 t p) k) * arr1_1 V c (ix2 k q)) + arr1_2 V c (ix2 (0 : Fin 1) q)
  exact congrArg₂ (· + ·) (Finset.sum_congr rfl fun k _ => congrArg₂ (· * ·) (iblk1_0_apply V c t p k) (iblk1_1_apply V c t k q)) (iblk1_2_apply V c t q)

/-- An index of the array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v12).slice (win1_3.rect t)).set ↔ _
  rw [View.set_slice_whole, Rect.mem_set_unit]
  exact Iff.rfl

/-- Row r of the array lies in the block of point r / 5000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 5000 < cfg1.N := by rw [N1]; omega
  obtain ⟨-, -, -, -, -, -, e30, e31⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [e31]; omega

/-- The array the pipeline leaves is the dense map of the three arrays it reads. -/
theorem value1 (c : Dev nD) : (dat1 (F := Ideal) V c).arrAt 3 cfg1.N
    = Spec.dense (V c (Pipeline.arrRef spec1 0)) (V c (Pipeline.arrRef spec1 1)) (fun j => V c (Pipeline.arrRef spec1 2) (ix2 (0 : Fin 1) (Spec.d0 j))) :=
  (dat1 V c).arrAt_eq_of_cover 3 (G1 V c) (fun t _ => flushed1_eq V c t) (cover1)

end Cert.KernelIdeal.HandV

end
-- ==== Proof.KI.GlueL0.lean ====
/-
  Layer 0 of the kernel program at the extended reals. The dense call's result is the layer's linear map of the
  layer's input; the two gathers hand the attention call the rows of that result at the edges' two endpoints; the
  attention call's scores are then the specification's scores; and the finalize call's result is the layer in the
  kernel's arrangement.
-/
import proofs.«417395_j71579924955534_2_alg».proof.Proof.KI.Chain
import proofs.«417395_j71579924955534_2_alg».proof.Proof.KI.GlueCarry
import proofs.«417395_j71579924955534_2_alg».proof.Proof.KI.GlueArgs
import proofs.«417395_j71579924955534_2_alg».proof.Proof.KI.GlueEdge
import proofs.«417395_j71579924955534_2_alg».proof.Proof.KI.GlueL0Host
import proofs.«417395_j71579924955534_2_alg».proof.Proof.KI.GlueTake
import proofs.«417395_j71579924955534_2_alg».proof.Proof.KI.GlueAttn
import proofs.«417395_j71579924955534_2_alg».proof.Proof.KI.GlueL0b
import proofs.«417395_j71579924955534_2_alg».proof.Proof.KI.V1
import proofs.«417395_j71579924955534_2_alg».proof.Proof.EdgeIdx
import proofs.«417395_j71579924955534_2_alg».proof.Proof.Spec
import Mathlib.Tactic.NormNum

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## Across the dense call and the two gathers -/

/-- After the two gathers a buffer that the dense call's items and the gathers do not write is as the layer found it. -/
theorem fr_mid_L0 (c : Dev nD) (r : Ref sig .tc) (h2 : r ∉ hostOps1_W) (h3 : r ∉ ([main_v12] : List (Ref sig .tc)))
    (h4 : r ∉ hostOps2_W) (h5 : r ∉ hostOps2_1_W) : W6 m c r = W2 m c r :=
  (StableHlo.after_of_writes_sub hostOps2_1 _ hostOps2_1_writes h5 : W6 m c r = W5 m c r).trans
    ((StableHlo.after_of_writes_sub hostOps2 _ hostOps2_writes h4 : W5 m c r = W4 m c r).trans (bk_lo_L0 m c r h2 h3))

/-! ## The dense call -/

/-- The dense call's result is the layer's linear map of the layer's input. -/
theorem front_hl_L0 (c : Dev nD) :
    W4 m c main_v12 = Spec.dense (W2 m c main_v6) (Spec.sel3 0 (m ((c.tc : Thread nD τ).loc main_arg5)))
      (Spec.sel2 0 (m ((c.tc : Thread nD τ).loc main_arg6))) := by
  have e0 : Wr3 m c (Pipeline.arrRef spec1 0) = W2 m c main_v6 :=
    StableHlo.after_of_writes_sub hostOps1 _ hostOps1_writes (by decide)
  have e1 : Wr3 m c (Pipeline.arrRef spec1 1) = Spec.sel3 0 (m ((c.tc : Thread nD τ).loc main_arg5)) :=
    (ops1_v8 (W2 m c)).trans (by rw [fr_arg5_in_L0 m c])
  have e2 : (fun j => Wr3 m c (Pipeline.arrRef spec1 2) (ix2 (0 : Fin 1) (Spec.d0 j)))
      = Spec.sel2 0 (m ((c.tc : Thread nD τ).loc main_arg6)) :=
    (ops1_v11 (W2 m c)).trans (by rw [fr_arg6_in_L0 m c])
  rw [W4_out, value1, e0, e1, e2]

/-! ## The two gathers -/

/-- Before the first gather the target vector has at edge `e` the signed value of the edge's first endpoint. -/
theorem fr_v1_L0 (c : Dev nD) (hin : Spec.InRange 100000 (m ((c.tc : Thread nD τ).loc main_arg1))) (e : Fin 1250000) :
    ((W4 m c main_v1 : S1250000.Idx → BitVec 32) (ix1 e)).toInt
      = ((Spec.endF (m ((c.tc : Thread nD τ).loc main_arg1)) hin 0 e).val : ℤ) := by
  rw [show W4 m c main_v1 = W1 m c main_v1 from (bk_lo_L0 m c main_v1 (by decide) (by decide)).trans (bk_v1_in_L0 m c)]
  exact bk_v1_W1 m c hin e

/-- Before the second gather the source vector has at edge `e` the signed value of the edge's second endpoint. -/
theorem fr_v3_L0 (c : Dev nD) (hin : Spec.InRange 100000 (m ((c.tc : Thread nD τ).loc main_arg1))) (e : Fin 1250000) :
    ((W5 m c main_v3 : S1250000.Idx → BitVec 32) (ix1 e)).toInt
      = ((Spec.endF (m ((c.tc : Thread nD τ).loc main_arg1)) hin 1 e).val : ℤ) := by
  have s : W5 m c main_v3 = W1 m c main_v3 :=
    (StableHlo.after_of_writes_sub hostOps2 _ hostOps2_writes (by decide) : W5 m c main_v3 = W4 m c main_v3).trans
      ((bk_lo_L0 m c main_v3 (by decide) (by decide)).trans (fr_v3_in_L0 m c))
  rw [s, show (W1 m c main_v3 : S1250000.Idx → BitVec 32) (ix1 e) = _ from ops0_v3 (W0 m c) e]
  exact Spec.endF_spec _ hin 1 e

/-- The attention call's first window: the dense result's rows at the edges' first endpoints. -/
theorem front_hi_L0 (c : Dev nD) (hin : Spec.InRange 100000 (m ((c.tc : Thread nD τ).loc main_arg1))) :
    W7 m c main_v13 = Spec.rowsOf (W4 m c main_v12) (Spec.endF (m ((c.tc : Thread nD τ).loc main_arg1)) hin 0) :=
  ((StableHlo.after_of_writes_sub hostOps2_2 _ hostOps2_2_writes (by decide) : W7 m c main_v13 = W6 m c main_v13).trans
    (StableHlo.after_of_writes_sub hostOps2_1 _ hostOps2_1_writes (by decide) : W6 m c main_v13 = W5 m c main_v13)).trans
    (take_rows (W4 m c) _ (fr_v1_L0 m c hin))

/-- The attention call's second window: the dense result's rows at the edges' second endpoints. -/
theorem front_hj_L0 (c : Dev nD) (hin : Spec.InRange 100000 (m ((c.tc : Thread nD τ).loc main_arg1))) :
    W7 m c main_v14 = Spec.rowsOf (W4 m c main_v12) (Spec.endF (m ((c.tc : Thread nD τ).loc main_arg1)) hin 1) := by
  have s : W7 m c main_v14 = W6 m c main_v14 := StableHlo.after_of_writes_sub hostOps2_2 _ hostOps2_2_writes (by decide)
  have t : W5 m c main_v12 = W4 m c main_v12 := StableHlo.after_of_writes_sub hostOps2 _ hostOps2_writes (by decide)
  rw [s, ← t]
  exact take_cols (W5 m c) _ (fr_v3_L0 m c hin)

/-! ## The attention vector and bias -/

theorem front_aw_L0 (c : Dev nD) : W7 m c main_v16 = Spec.sel3 0 (m ((c.tc : Thread nD τ).loc main_arg7)) :=
  (ops2_2_v16 (W6 m c)).trans
    (by rw [(fr_mid_L0 m c main_arg7 (by decide) (by decide) (by decide) (by decide)).trans (fr_arg7_in_L0 m c)])

theorem front_ab_L0 (c : Dev nD) : Spec.rowOf (W7 m c main_v19) = Spec.sel2 0 (m ((c.tc : Thread nD τ).loc main_arg8)) :=
  (ops2_2_v19 (W6 m c)).trans
    (by rw [(fr_mid_L0 m c main_arg8 (by decide) (by decide) (by decide) (by decide)).trans (fr_arg8_in_L0 m c)])

/-! ## The scores, and the layer -/

/-- The edges' scores the attention call computes are the specification's, of the dense result. -/
theorem front_s_L0 (c : Dev nD) (hin : Spec.InRange 100000 (m ((c.tc : Thread nD τ).loc main_arg1))) :
    scores2 (Wr7 m) c
      = Spec.score (Spec.rowsOf (W4 m c main_v12) (Spec.endF (m ((c.tc : Thread nD τ).loc main_arg1)) hin 0))
          (Spec.rowsOf (W4 m c main_v12) (Spec.endF (m ((c.tc : Thread nD τ).loc main_arg1)) hin 1))
          (Spec.sel3 0 (m ((c.tc : Thread nD τ).loc main_arg7))) (Spec.sel2 0 (m ((c.tc : Thread nD τ).loc main_arg8))) := by
  rw [scores2_W7, front_hi_L0 m c hin, front_hj_L0 m c hin, front_aw_L0, front_ab_L0]

/-- LAYER 0: the finalize call's result is the layer, in the kernel's arrangement, of the layer's input and of the
    launch contents of the argument arrays. -/
theorem layer0_value (c : Dev nD) (hin : Spec.InRange 100000 (m ((c.tc : Thread nD τ).loc main_arg1))) :
    W11 m c main_v31 = Spec.layerK (by norm_num : 250 * 5000 = 1250000)
      (Spec.endF (m ((c.tc : Thread nD τ).loc main_arg1)) hin 0) (Spec.endF (m ((c.tc : Thread nD τ).loc main_arg1)) hin 1)
      (m ((c.tc : Thread nD τ).loc main_arg2)) (W2 m c main_v6)
      (Spec.sel3 0 (m ((c.tc : Thread nD τ).loc main_arg5))) (Spec.sel2 0 (m ((c.tc : Thread nD τ).loc main_arg6)))
      (Spec.sel3 0 (m ((c.tc : Thread nD τ).loc main_arg7))) (Spec.sel2 0 (m ((c.tc : Thread nD τ).loc main_arg8)))
      (Spec.sel2 0 (m ((c.tc : Thread nD τ).loc main_arg9))) (Spec.sel2 0 (m ((c.tc : Thread nD τ).loc main_arg10))) := by
  rw [layer0_back m c hin, attn2_out0, attn2_out1, attn2_out2, front_s_L0 m c hin, front_hj_L0 m c hin, front_hl_L0 m c]
  rfl

end Cert.KernelIdeal.HandV

end
-- ==== Proof.KI.GlueL1Host.lean ====
/-
  The host stretches of layer 1 read at the buffers the kernel regions take, over ANY contents on entry: slices of the
  stacked weight arrays as the specification's layer selections, one per window of the dense call and of the attention call.
-/
import proofs.«417395_j71579924955534_2_alg».proof.Proof.Gen.KernelIdeal.Launch
import proofs.«417395_j71579924955534_2_alg».proof.Proof.Spec
import proofs.«417395_j71579924955534_2_alg».proof.Proof.KI.GlueLayout
import Idealize.ShloMosaic.Lib.ValueLayout

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.ShloMosaic.StableHlo

variable (X : Valuation τ sig (Elt Ideal))

/-- The layer's weight matrix. -/
theorem ops5_v33 :
    (StableHlo.after hostOps5 X (Proc.devRef .tc main_v33) : S64x64.Idx → EReal)
      = Spec.sel3 1 (X (Proc.devRef .tc main_arg5) : S3x64x64.Idx → EReal) := by
  after_results
  funext j
  obtain ⟨p, q, rfl⟩ : ∃ (p : Fin 64) (q : Fin 64), j = ix2 p q := ⟨j 0, j 1, eq_ix2 j⟩
  show shapeCast S64x64 (extractStridedSlice S1x64x64 ![1, 0, 0] (X (Proc.devRef .tc main_arg5)) slices_S3x64x64_S1x64x64_1_0_0)
      shapeCasts_S1x64x64_S64x64 (ix2 p q) = _
  rw [shapeCast_1ab_ab_apply, glue_slice3_layer_apply 1 (1 : Fin 3) rfl]
  rfl

/-- The layer's bias, kept as a one-row matrix. -/
theorem ops5_v36 :
    (fun j : S64.Idx => (StableHlo.after hostOps5 X (Proc.devRef .tc main_v36) : S1x64.Idx → EReal) (ix2 (0 : Fin 1) (Spec.d0 j)))
      = Spec.sel2 1 (X (Proc.devRef .tc main_arg6) : S3x64.Idx → EReal) := by
  after_results
  funext j
  show shapeCast S1x64 (shapeCast S64 (extractStridedSlice S1x64 ![1, 0] (X (Proc.devRef .tc main_arg6)) slices_S3x64_S1x64_1_0)
      shapeCasts_S1x64_S64) shapeCasts_S64_S1x64 (ix2 (0 : Fin 1) (Spec.d0 j)) = _
  rw [shapeCast_a_1a_apply, shapeCast_1a_a_apply]
  exact slice2_axis0_apply 1 _ _ (0 : Fin 1) _ (1 : Fin 3) rfl

/-- Layer 1's attention vector. -/
theorem ops6_2_v41 :
    (StableHlo.after hostOps6_2 X (Proc.devRef .tc main_v41) : S128x1.Idx → EReal)
      = Spec.sel3 1 (X (Proc.devRef .tc main_arg7) : S3x128x1.Idx → EReal) := by
  after_results
  funext j
  obtain ⟨p, q, rfl⟩ : ∃ (p : Fin 128) (q : Fin 1), j = ix2 p q := ⟨j 0, j 1, eq_ix2 j⟩
  show shapeCast S128x1 (extractStridedSlice S1x128x1 ![1, 0, 0] (X (Proc.devRef .tc main_arg7)) slices_S3x128x1_S1x128x1_1_0_0)
      shapeCasts_S1x128x1_S128x1 (ix2 p q) = _
  rw [shapeCast_1ab_ab_apply, glue_slice3_layer_apply 1 (1 : Fin 3) rfl]
  rfl

/-- Layer 1's attention bias, kept as a one-entry matrix. -/
theorem ops6_2_v44 :
    Spec.rowOf (StableHlo.after hostOps6_2 X (Proc.devRef .tc main_v44) : S1x1.Idx → EReal)
      = Spec.sel2 1 (X (Proc.devRef .tc main_arg8) : S3x1.Idx → EReal) := by
  after_results
  funext j
  show shapeCast S1x1 (shapeCast S1 (extractStridedSlice S1x1 ![1, 0] (X (Proc.devRef .tc main_arg8)) slices_S3x1_S1x1_1_0)
      shapeCasts_S1x1_S1) shapeCasts_S1_S1x1 (ix2 (0 : Fin 1) (Spec.d0 j)) = _
  rw [shapeCast_a_1a_apply, shapeCast_1a_a_apply]
  exact slice2_axis0_apply 1 _ _ (0 : Fin 1) _ (1 : Fin 3) rfl

end Cert.KernelIdeal.HandV

end
-- ==== Proof.KI.P6.lean ====
/- The attention-score call's pieces named: what each control case leaves in the score window's buffer, in the two
   scratch buffers and (at the last point) in the two one-word output windows, as the body's payloads of the loaded
   blocks and of what the scratch held. Generic in the float family. -/
import proofs.«417395_j71579924955534_2_alg».proof.Proof.KI.R6
import Idealize.ShloMosaic.Lib.Pipeline.Value

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz6 : (![0, 0] : Fin 2 → Nat) = fun _ => 0 := funext fun a => by fin_cases a <;> rfl

/-- At the first point the score window's buffer is left at the block's scores. -/
theorem out6_A_4_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) :
    out6_A_4 c i arg1 harg1 arg2 harg2 arg3 harg3 arg4 harg4 arg5 harg5 arg6 harg6 arg7 harg7 arg8 harg8 arg9 harg9 hc0 hc1 x0 x1 x2 x3 = k6_pay5 x0 x1 x2 x3 := by
  unfold out6_A_4
  rw [View.read_writes_eq_canon _ _ _ (cover6_A_4 c i arg1 harg1 arg2 harg2 arg3 harg3 arg4 harg4 arg5 harg5 arg6 harg6 arg7 harg7 arg8 harg8 arg9 harg9 hc0 hc1 x0 x1 x2 x3)]
  unfold kernelRun6_A
  dsimp only
  sl_unfold_words
  rw [View.canon_cons_unit_zero (S := S5000x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At the first point the running maximum's scratch is left at the new maximum (over the reset value). -/
theorem sout6_A_0_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) :
    sout6_A_0 c i arg1 harg1 arg2 harg2 arg3 harg3 arg4 harg4 arg5 harg5 arg6 harg6 arg7 harg7 arg8 harg8 arg9 harg9 hc0 hc1 x0 x1 x2 x3 = k6_pay2 (k6_pay6 x0 x1 x2 x3 (k6_pay3 (F := F))) := by
  unfold sout6_A_0
  rw [View.read_writes_eq_canon _ _ _ (scover6_A_0 c i arg1 harg1 arg2 harg2 arg3 harg3 arg4 harg4 arg5 harg5 arg6 harg6 arg7 harg7 arg8 harg8 arg9 harg9 hc0 hc1 x0 x1 x2 x3)]
  unfold kernelRun6_A
  dsimp only
  sl_unfold_words
  rw [View.canon_cons_unit_zero (S := S1x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At the first point the running sum's scratch is left at the new rescaled sum (over the reset values). -/
theorem sout6_A_1_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond6_0 i) (hc1 : ¬cond6_1 i)
    (x0 : Vec F S5000x64 .f32) (x1 : Vec F S5000x64 .f32) (x2 : Vec F S128x1 .f32) (x3 : Vec F S1x1 .f32) :
    sout6_A_1 c i arg1 harg1 arg2 harg2 arg3 harg3 arg4 harg4 arg5 harg5 arg6 harg6 arg7 harg7 arg8 harg8 arg9 harg9 hc0 hc1 x0 x1 x2 x3 = k6_pay1 (k6_pay5 x0 x1 x2 x3) (k6_pay7 x0 x1 x2 x3 (k6_pay3 (F := F)) (k6_pay3 (F := F))) (k6_pay8 x0 x1 x2 x3 (k6_pay3 (F := F))) (k6_pay4 (F := F)) := by
  unfold sout6_A_1
  rw [View.read_writes_eq_canon _ _ _ (scover6_A_1 c i arg1 harg1 arg2 harg2 arg3 harg3 arg4 harg4 arg5 harg5 arg6 harg6 arg7 harg7 arg8 harg8 arg9 harg9 hc0 hc1 x0 x1 x2 x3)]
  unfold kernelRun6_A
  dsimp only
  sl_unfold_words
  rw [View.canon_cons_unit_zero (S := S1x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At a middle point the score window's buffer is left at the block's scores. -/
theorem out6_B_4_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    out6_B_4 c i arg1 harg1 arg2 harg2 arg3 harg3 arg4 harg4 arg5 harg5 arg6 harg6 arg7 harg7 arg8 harg8 arg9 harg9 hc0 hc1 x0 x1 x2 x3 xs0 xs1 = k6_pay5 x0 x1 x2 x3 := by
  unfold out6_B_4
  rw [View.read_writes_eq_canon _ _ _ (cover6_B_4 c i arg1 harg1 arg2 harg2 arg3 harg3 arg4 harg4 arg5 harg5 arg6 harg6 arg7 harg7 arg8 harg8 arg9 harg9 hc0 hc1 x0 x1 x2 x3 xs0 xs1)]
  unfold kernelRun6_B
  dsimp only
  sl_unfold_words
  rw [View.canon_cons_unit_zero (S := S5000x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At a middle point the running maximum's scratch is left at the new maximum (over what the point before left). -/
theorem sout6_B_0_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    sout6_B_0 c i arg1 harg1 arg2 harg2 arg3 harg3 arg4 harg4 arg5 harg5 arg6 harg6 arg7 harg7 arg8 harg8 arg9 harg9 hc0 hc1 x0 x1 x2 x3 xs0 xs1 = k6_pay2 (k6_pay6 x0 x1 x2 x3 xs0) := by
  unfold sout6_B_0
  rw [View.read_writes_eq_canon _ _ _ (scover6_B_0 c i arg1 harg1 arg2 harg2 arg3 harg3 arg4 harg4 arg5 harg5 arg6 harg6 arg7 harg7 arg8 harg8 arg9 harg9 hc0 hc1 x0 x1 x2 x3 xs0 xs1)]
  unfold kernelRun6_B
  dsimp only
  sl_unfold_words
  rw [View.canon_cons_unit_zero (S := S1x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At a middle point the running sum's scratch is left at the new rescaled sum (over what the point before left). -/
theorem sout6_B_1_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : ¬cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    sout6_B_1 c i arg1 harg1 arg2 harg2 arg3 harg3 arg4 harg4 arg5 harg5 arg6 harg6 arg7 harg7 arg8 harg8 arg9 harg9 hc0 hc1 x0 x1 x2 x3 xs0 xs1 = k6_pay1 (k6_pay5 x0 x1 x2 x3) (k6_pay7 x0 x1 x2 x3 xs0 xs0) (k6_pay8 x0 x1 x2 x3 xs0) xs1 := by
  unfold sout6_B_1
  rw [View.read_writes_eq_canon _ _ _ (scover6_B_1 c i arg1 harg1 arg2 harg2 arg3 harg3 arg4 harg4 arg5 harg5 arg6 harg6 arg7 harg7 arg8 harg8 arg9 harg9 hc0 hc1 x0 x1 x2 x3 xs0 xs1)]
  unfold kernelRun6_B
  dsimp only
  sl_unfold_words
  rw [View.canon_cons_unit_zero (S := S1x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At the last point the score window's buffer is left at the block's scores. -/
theorem out6_C_4_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    out6_C_4 c i arg1 harg1 arg2 harg2 arg3 harg3 arg4 harg4 arg5 harg5 arg6 harg6 arg7 harg7 arg8 harg8 arg9 harg9 hc0 hc1 x0 x1 x2 x3 xs0 xs1 = k6_pay5 x0 x1 x2 x3 := by
  unfold out6_C_4
  rw [View.read_writes_eq_canon _ _ _ (cover6_C_4 c i arg1 harg1 arg2 harg2 arg3 harg3 arg4 harg4 arg5 harg5 arg6 harg6 arg7 harg7 arg8 harg8 arg9 harg9 hc0 hc1 x0 x1 x2 x3 xs0 xs1)]
  unfold kernelRun6_C
  dsimp only
  sl_unfold_words
  rw [View.canon_cons_unit_zero (S := S5000x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At the last point the running maximum's scratch is left at the new maximum (over what the point before left). -/
theorem sout6_C_0_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    sout6_C_0 c i arg1 harg1 arg2 harg2 arg3 harg3 arg4 harg4 arg5 harg5 arg6 harg6 arg7 harg7 arg8 harg8 arg9 harg9 hc0 hc1 x0 x1 x2 x3 xs0 xs1 = k6_pay2 (k6_pay6 x0 x1 x2 x3 xs0) := by
  unfold sout6_C_0
  rw [View.read_writes_eq_canon _ _ _ (scover6_C_0 c i arg1 harg1 arg2 harg2 arg3 harg3 arg4 harg4 arg5 harg5 arg6 harg6 arg7 harg7 arg8 harg8 arg9 harg9 hc0 hc1 x0 x1 x2 x3 xs0 xs1)]
  unfold kernelRun6_C
  dsimp only
  sl_unfold_words
  rw [View.canon_cons_unit_zero (S := S1x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At the last point the running sum's scratch is left at the new rescaled sum (over what the point before left). -/
theorem sout6_C_1_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    sout6_C_1 c i arg1 harg1 arg2 harg2 arg3 harg3 arg4 harg4 arg5 harg5 arg6 harg6 arg7 harg7 arg8 harg8 arg9 harg9 hc0 hc1 x0 x1 x2 x3 xs0 xs1 = k6_pay1 (k6_pay5 x0 x1 x2 x3) (k6_pay7 x0 x1 x2 x3 xs0 xs0) (k6_pay8 x0 x1 x2 x3 xs0) xs1 := by
  unfold sout6_C_1
  rw [View.read_writes_eq_canon _ _ _ (scover6_C_1 c i arg1 harg1 arg2 harg2 arg3 harg3 arg4 harg4 arg5 harg5 arg6 harg6 arg7 harg7 arg8 harg8 arg9 harg9 hc0 hc1 x0 x1 x2 x3 xs0 xs1)]
  unfold kernelRun6_C
  dsimp only
  sl_unfold_words
  rw [View.canon_cons_unit_zero (S := S1x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At the last point the maximum's output window is left at the new running maximum. -/
theorem out6_C_5_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    out6_C_5 c i arg1 harg1 arg2 harg2 arg3 harg3 arg4 harg4 arg5 harg5 arg6 harg6 arg7 harg7 arg8 harg8 arg9 harg9 hc0 hc1 x0 x1 x2 x3 xs0 xs1 = k6_pay2 (k6_pay6 x0 x1 x2 x3 xs0) := by
  unfold out6_C_5
  rw [View.read_writes_eq_canon _ _ _ (cover6_C_5 c i arg1 harg1 arg2 harg2 arg3 harg3 arg4 harg4 arg5 harg5 arg6 harg6 arg7 harg7 arg8 harg8 arg9 harg9 hc0 hc1 x0 x1 x2 x3 xs0 xs1)]
  unfold kernelRun6_C
  dsimp only
  sl_unfold_words
  rw [View.canon_cons_unit_zero (S := S1x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

/-- At the last point the sum's output window is left at the new running sum. -/
theorem out6_C_6_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond6_0 i) (hc1 : cond6_1 i)
    (x0 : Vec F S5000x64 .f32) (x1 : Vec F S5000x64 .f32) (x2 : Vec F S128x1 .f32) (x3 : Vec F S1x1 .f32) (xs0 : Vec F S1x1 .f32) (xs1 : Vec F S1x1 .f32) :
    out6_C_6 c i arg1 harg1 arg2 harg2 arg3 harg3 arg4 harg4 arg5 harg5 arg6 harg6 arg7 harg7 arg8 harg8 arg9 harg9 hc0 hc1 x0 x1 x2 x3 xs0 xs1 = k6_pay1 (k6_pay5 x0 x1 x2 x3) (k6_pay7 x0 x1 x2 x3 xs0 xs0) (k6_pay8 x0 x1 x2 x3 xs0) xs1 := by
  unfold out6_C_6
  rw [View.read_writes_eq_canon _ _ _ (cover6_C_6 c i arg1 harg1 arg2 harg2 arg3 harg3 arg4 harg4 arg5 harg5 arg6 harg6 arg7 harg7 arg8 harg8 arg9 harg9 hc0 hc1 x0 x1 x2 x3 xs0 xs1)]
  unfold kernelRun6_C
  dsimp only
  sl_unfold_words
  rw [View.canon_cons_unit_zero (S := S1x1) hz6]
  simp only [View.readAt_eq_ld, harg1.read_unread, harg2.read_unread, harg3.read_unread, harg4.read_unread, harg8.read_unread, harg9.read_unread, View.ld_unit_zero (S := S5000x64) hz6, View.ld_unit_zero (S := S128x1) hz6, View.ld_unit_zero (S := S1x1) hz6, View.readCov_unit_zero (S := S1x1) _ hz6]

end Cert.KernelIdeal.Hand

end
-- ==== Proof.KI.V6Pay.lean ====
/- The attention-score body's payloads at the extended reals, at an index: the block's 5000 leaky-relu scores, the new
   running maximum, the rescaling factor, and the new running sum; the reset values. Pure functions of the loaded
   blocks, no memory in sight. -/
import proofs.«417395_j71579924955534_2_alg».proof.Proof.Gen.KernelIdeal.Skeleton
import proofs.«417395_j71579924955534_2_alg».proof.Proof.Spec
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## Maxima -/

/-- The fold of max from b over a finite set is the maximum of b and the set's supremum. -/
theorem fold_max_eq6 {ι : Type} (S : Finset ι) (b : EReal) (f : ι → EReal) :
    S.fold max b f = max b (S.sup f) := by
  classical
  induction S using Finset.induction_on with
  | empty => simp
  | insert a S ha ih =>
    rw [Finset.fold_insert ha, ih, Finset.sup_insert]
    show max (f a) (max b (S.sup f)) = max b (max (f a) (S.sup f))
    exact max_left_comm _ _ _

/-- The pattern of minus infinity reads as the bottom, the slope's pattern is the spec's slope. -/
theorem ofBits_ninf6 : Ideal.ofBits .f32 0xFF800000#32 = ⊥ := by simp [Ideal.ofBits, Ideal.ieee]

/-! ## The product's operand indices, axis by axis -/

theorem lhs6_0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl
theorem lhs6_1 (i : S5000x1.Idx) (q : dot_S5000x64_S64x1_S5000x1_1_0_0_1_n_n.contr.Idx) : (dot_S5000x64_S64x1_S5000x1_1_0_0_1_n_n.lhsIdx i q 1).val = (q ⟨0, by decide⟩).val :=
  dot_S5000x64_S64x1_S5000x1_1_0_0_1_n_n.lhsIdx_val_of_single rfl i q
theorem rhs6_0 (i : S5000x1.Idx) (q : dot_S5000x64_S64x1_S5000x1_1_0_0_1_n_n.contr.Idx) : (dot_S5000x64_S64x1_S5000x1_1_0_0_1_n_n.rhsIdx i q 0).val = (q ⟨0, by decide⟩).val :=
  dot_S5000x64_S64x1_S5000x1_1_0_0_1_n_n.rhsIdx_val_of_single rfl i q
theorem rhs6_1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- One of the body's two products at row p: the row of the feature block against a 64-row slice of the weight. -/
theorem half6 (x : Vec Ideal S5000x64 .f32) (w : FVec Ideal S64x1 .bf16) (p : Fin 5000) :
    matmul dot_S5000x64_S64x1_S5000x1_1_0_0_1_n_n none (truncf .bf16 x bitsLt_bf16_f32) w (constant S5000x1 .f32 0x00000000#32) (ix2 p (0 : Fin 1))
      = ∑ k : Fin 64, x (ix2 p k) * w (ix2 k (0 : Fin 1)) := by
  refine (Ideal.matmul_constant_zero_apply _ none _ _ _).trans ?_
  rw [← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p (0 : Fin 1)) ((contrEquiv1 dot_S5000x64_S64x1_S5000x1_1_0_0_1_n_n 64 rfl rfl).symm k) = ix2 p k :=
    funext fun a => Fin.ext (by
      match a with
      | ⟨0, _⟩ => exact lhs6_0 _ _
      | ⟨1, _⟩ => exact (lhs6_1 _ _).trans hk)
  have er : dot_S5000x64_S64x1_S5000x1_1_0_0_1_n_n.rhsIdx (ix2 p (0 : Fin 1)) ((contrEquiv1 dot_S5000x64_S64x1_S5000x1_1_0_0_1_n_n 64 rfl rfl).symm k) = ix2 k (0 : Fin 1) :=
    funext fun a => Fin.ext (by
      match a with
      | ⟨0, _⟩ => exact (rhs6_0 _ _).trans hk
      | ⟨1, _⟩ => exact rhs6_1 _ _)
  rw [el, er]
  rfl

/-! ## The payloads at an index -/

/-- The leaky relu as the body computes it (a comparison against the zero word, a select). -/
theorem leaky6 (x : EReal) :
    Scalar.select (FloatOps.cmpf (F := Ideal) (φ := .f32) .oge x (Ideal.ofBits .f32 0x00000000#32)) x (Ideal.ofBits .f32 0x3C23D70A#32 * x) = Spec.leaky x := by
  rw [Ideal.cmpf_def, Ideal.ofBits_zero_f32]
  unfold Ideal.cmp Scalar.select Spec.leaky Spec.slope
  by_cases h : (0 : EReal) ≤ x
  · simp [h]
  · simp [h]

/-- The block's score at row p: the two halves of the weight against the two feature rows, plus the bias, through the
    leaky relu. -/
theorem pay5_apply6 (x0 x1 : Vec Ideal S5000x64 .f32) (x2 : Vec Ideal S128x1 .f32) (x3 : Vec Ideal S1x1 .f32) (p : Fin 5000) :
    k6_pay5 x0 x1 x2 x3 (ix2 p (0 : Fin 1))
      = Spec.leaky (((∑ k : Fin 64, x0 (ix2 p k) * x2 (ix2 (Fin.castLE (by omega) k : Fin 128) (0 : Fin 1)))
          + (∑ k : Fin 64, x1 (ix2 p k) * x2 (ix2 (⟨64 + k.val, by omega⟩ : Fin 128) (0 : Fin 1))))
        + x3 (ix2 (0 : Fin 1) (0 : Fin 1))) := by
  unfold k6_pay5
  simp only [shapeCast_self]
  rw [select_apply, cmpf_apply, mulf_apply, broadcast_apply, broadcast_apply]
  refine (leaky6 _).trans (congrArg Spec.leaky ?_)
  rw [addf_apply, addf_apply]
  refine congrArg₂ (· + ·) (congrArg₂ (· + ·) ((half6 _ _ p).trans ?_) ((half6 _ _ p).trans ?_)) ?_
  · refine Finset.sum_congr rfl fun k _ => congrArg (x0 (ix2 p k) * ·) ?_
    rw [truncf_apply]
    exact extractStridedSlice_apply _ x2 _ (ix2 k (0 : Fin 1)) (ix2 (Fin.castLE (by omega) k : Fin 128) (0 : Fin 1)) (fun a => by
      match a with
      | ⟨0, _⟩ => show k.val = 0 + k.val; omega
      | ⟨1, _⟩ => rfl)
  · refine Finset.sum_congr rfl fun k _ => congrArg (x1 (ix2 p k) * ·) ?_
    rw [truncf_apply]
    exact extractStridedSlice_apply _ x2 _ (ix2 k (0 : Fin 1)) (ix2 (⟨64 + k.val, by omega⟩ : Fin 128) (0 : Fin 1)) (fun a => by
      match a with
      | ⟨0, _⟩ => rfl
      | ⟨1, _⟩ => rfl)
  · exact broadcastTo_apply x3 _ (ix2 p (0 : Fin 1)) (ix2 (0 : Fin 1) (0 : Fin 1)) (fun a => by
      match a with
      | ⟨0, _⟩ => rfl
      | ⟨1, _⟩ => rfl)

/-- Every index of a one-word array is its one index. -/
theorem oneIdx6 (j : S1x1.Idx) : j = ix2 (0 : Fin 1) (0 : Fin 1) :=
  funext fun a => Fin.ext (by
    match a with
    | ⟨0, _⟩ => have h : (j 0).val < 1 := (j 0).isLt; show (j 0).val = 0; omega
    | ⟨1, _⟩ => have h : (j 1).val < 1 := (j 1).isLt; show (j 1).val = 0; omega)

/-- The reduced index with the block's row put back. -/
theorem lift6 (r : Fin 5000) : (reduces_S5000x1_S1.lift (ix1 (0 : Fin 1)) r : S5000x1.Idx) = ix2 r (0 : Fin 1) :=
  funext fun a => Fin.ext (by
    match a with
    | ⟨0, _⟩ => rfl
    | ⟨1, _⟩ => rfl)

/-- The one word of a rank-1 array of one word, as a [1, 1] array. -/
theorem castWord6 (x : FVec Ideal S1 .f32) (j : S1x1.Idx) : shapeCast S1x1 x shapeCasts_S1_S1x1 j = x (ix1 (0 : Fin 1)) :=
  shapeCast_apply x _ j (ix1 (0 : Fin 1)) (by
    have h1 : (S1.rowMajor (ix1 (0 : Fin 1))).val < 1 := (S1.rowMajor (ix1 (0 : Fin 1))).isLt
    have h2 : (S1x1.rowMajor j).val < 1 := (S1x1.rowMajor j).isLt
    omega)

/-- The new running maximum: the old one against the block's largest score. -/
theorem pay6_apply6 (x0 x1 : Vec Ideal S5000x64 .f32) (x2 : Vec Ideal S128x1 .f32) (x3 : Vec Ideal S1x1 .f32) (m : Vec Ideal S1x1 .f32) (j : S1x1.Idx) :
    k6_pay6 x0 x1 x2 x3 m j = max (m j) (Finset.univ.sup fun r : Fin 5000 => k6_pay5 x0 x1 x2 x3 (ix2 r (0 : Fin 1))) := by
  unfold k6_pay6
  rw [maximumf_apply]
  refine congrArg (max (m j)) ?_
  rw [castWord6]
  refine (Ideal.multiReduction_maximumf_single _ _ reduces_S5000x1_S1 _ _ (ix1 (0 : Fin 1))).trans ?_
  refine (fold_max_eq6 _ _ _).trans ?_
  rw [show (FloatOps.ofBits (F := Ideal) .f32 0xFF800000#32 : EReal) = ⊥ from ofBits_ninf6, bot_sup_eq]
  exact Finset.sup_congr rfl fun r _ => congrArg (k6_pay5 x0 x1 x2 x3) (lift6 r)

/-- The rescaling factor: the exponential of the old maximum less the new. -/
theorem pay7_apply6 (x0 x1 : Vec Ideal S5000x64 .f32) (x2 : Vec Ideal S128x1 .f32) (x3 : Vec Ideal S1x1 .f32) (m m' : Vec Ideal S1x1 .f32) (j : S1x1.Idx) :
    k6_pay7 x0 x1 x2 x3 m m' j = Ideal.exp (m' j - k6_pay6 x0 x1 x2 x3 m j) := rfl

/-- The new maximum along the block's rows. -/
theorem pay8_apply6 (x0 x1 : Vec Ideal S5000x64 .f32) (x2 : Vec Ideal S128x1 .f32) (x3 : Vec Ideal S1x1 .f32) (m : Vec Ideal S1x1 .f32) (r : Fin 5000) :
    k6_pay8 x0 x1 x2 x3 m (ix2 r (0 : Fin 1)) = k6_pay6 x0 x1 x2 x3 m (ix2 (0 : Fin 1) (0 : Fin 1)) := by
  unfold k6_pay8
  exact broadcastTo_apply _ _ (ix2 r (0 : Fin 1)) (ix2 (0 : Fin 1) (0 : Fin 1)) (fun a => by
    match a with
    | ⟨0, _⟩ => rfl
    | ⟨1, _⟩ => rfl)

/-- The new running sum: the old one rescaled plus the block's exponentials against the new maximum. -/
theorem pay1_apply6 (v26 : FVec Ideal S5000x1 .f32) (v34 : FVec Ideal S1x1 .f32) (v35 : FVec Ideal S5000x1 .f32) (v40 : Vec Ideal S1x1 .f32) (j : S1x1.Idx) :
    k6_pay1 v26 v34 v35 v40 j = v34 j * v40 j + ∑ r : Fin 5000, Ideal.exp (v26 (ix2 r (0 : Fin 1)) - v35 (ix2 r (0 : Fin 1))) := by
  unfold k6_pay1
  simp only [shapeCast_self]
  rw [addf_apply, mulf_apply]
  refine congrArg (v34 j * v40 j + ·) ?_
  rw [castWord6]
  refine (Ideal.multiReduction_add_single _ _ reduces_S5000x1_S1 _ _ (ix1 (0 : Fin 1))).trans ?_
  refine Finset.sum_congr rfl fun r _ => ?_
  exact (congrArg (exp (subf v26 v35)) (lift6 r)).trans rfl

/-- The reset values: minus infinity and zero. -/
theorem pay3_apply6 (j : S1x1.Idx) : k6_pay3 (F := Ideal) j = ⊥ := by
  unfold k6_pay3
  simp only [shapeCast_self]
  exact ofBits_ninf6
theorem pay4_apply6 (j : S1x1.Idx) : k6_pay4 (F := Ideal) j = 0 := by
  unfold k6_pay4
  simp only [shapeCast_self]
  exact Ideal.ofBits_zero_f32
theorem pay2_eq6 (v : FVec Ideal S1x1 .f32) : k6_pay2 v = v := by
  unfold k6_pay2
  exact shapeCast_self _ _

/-! ## One step of the running pair -/

/-- The step on the running maximum. -/
theorem stepM6 (x0 x1 : Vec Ideal S5000x64 .f32) (x2 : Vec Ideal S128x1 .f32) (x3 : Vec Ideal S1x1 .f32) (m : Vec Ideal S1x1 .f32) (j : S1x1.Idx) :
    k6_pay2 (k6_pay6 x0 x1 x2 x3 m) j = max (m j) (Finset.univ.sup fun r : Fin 5000 => k6_pay5 x0 x1 x2 x3 (ix2 r (0 : Fin 1))) := by
  rw [pay2_eq6]; exact pay6_apply6 x0 x1 x2 x3 m j

/-- The step on the running sum, the new maximum named M. -/
theorem stepL6 (x0 x1 : Vec Ideal S5000x64 .f32) (x2 : Vec Ideal S128x1 .f32) (x3 : Vec Ideal S1x1 .f32) (m l : Vec Ideal S1x1 .f32) (j : S1x1.Idx)
    (M : EReal) (hM : M = max (m j) (Finset.univ.sup fun r : Fin 5000 => k6_pay5 x0 x1 x2 x3 (ix2 r (0 : Fin 1)))) :
    k6_pay1 (k6_pay5 x0 x1 x2 x3) (k6_pay7 x0 x1 x2 x3 m m) (k6_pay8 x0 x1 x2 x3 m) l j
      = Ideal.exp (m j - M) * l j + ∑ r : Fin 5000, Ideal.exp (k6_pay5 x0 x1 x2 x3 (ix2 r (0 : Fin 1)) - M) := by
  have e6 : k6_pay6 x0 x1 x2 x3 m j = M := (pay6_apply6 x0 x1 x2 x3 m j).trans hM.symm
  have e6' : k6_pay6 x0 x1 x2 x3 m (ix2 (0 : Fin 1) (0 : Fin 1)) = M := by rw [← oneIdx6 j]; exact e6
  rw [pay1_apply6, pay7_apply6, e6]
  refine congrArg (Ideal.exp (m j - M) * l j + ·) (Finset.sum_congr rfl fun r _ => ?_)
  rw [pay8_apply6, e6']

end Cert.KernelIdeal.HandV

end
-- ==== Proof.KI.V6.lean ====
/- The value of the attention-score call cc6__attn_score_kernel at the extended reals: the score array its pipeline
   leaves is the column of the edges' leaky-relu scores, and the two one-word arrays are the running maximum and the
   running rescaled sum of exponentials after all 250 blocks. Each window's block as a part of its array; the block's
   scores; the scratch pair after each point by induction on the point; what the points write back; the covers. -/
import proofs.«417395_j71579924955534_2_alg».proof.Proof.KI.P6
import proofs.«417395_j71579924955534_2_alg».proof.Proof.KI.V6Pay

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hE6 : 250 * 5000 = 1250000 := rfl

theorem nPts6 : cfg6.N = 250 := N_6

/-- The edges' scores, from the arrays the region reads. -/
abbrev scores6 (c : Dev nD) : Fin 1250000 → EReal :=
  Spec.score (V c (Pipeline.arrRef spec6 0)) (V c (Pipeline.arrRef spec6 1)) (V c (Pipeline.arrRef spec6 2)) (Spec.rowOf (V c (Pipeline.arrRef spec6 3)))

/-! ## The windows' blocks as parts of their arrays -/

/-- The printed index maps over the grid: the two feature windows and the score window sit at block (t, 0); the
    weight, the bias and the two one-word outputs stay at block (0, 0). -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- The four arrays the region reads, at their literal shapes. -/
abbrev arr6_0 (c : Dev nD) : S1250000x64.Idx → EReal := V c (Pipeline.arrRef spec6 0)
abbrev arr6_1 (c : Dev nD) : S1250000x64.Idx → EReal := V c (Pipeline.arrRef spec6 1)
abbrev arr6_2 (c : Dev nD) : S128x1.Idx → EReal := V c (Pipeline.arrRef spec6 2)
abbrev arr6_3 (c : Dev nD) : S1x1.Idx → EReal := V c (Pipeline.arrRef spec6 3)

/-- The four input blocks at point t, at their literal shapes. -/
abbrev b6_0 (c : Dev nD) (t : Fin cfg6.N) : Vec Ideal S5000x64 .f32 := iblk6 V c 0 t
abbrev b6_1 (c : Dev nD) (t : Fin cfg6.N) : Vec Ideal S5000x64 .f32 := iblk6 V c 1 t
abbrev b6_2 (c : Dev nD) (t : Fin cfg6.N) : Vec Ideal S128x1 .f32 := iblk6 V c 2 t
abbrev b6_3 (c : Dev nD) (t : Fin cfg6.N) : Vec Ideal S1x1 .f32 := iblk6 V c 3 t

/-- Row p of block t, as an edge. -/
def rowAt6 (t : Fin cfg6.N) (p : Fin 5000) : Fin 1250000 :=
  ⟨t.val * 5000 + p.val, by have h : t.val < 250 := lt_of_lt_of_eq t.isLt nPts6; have := p.isLt; omega⟩

theorem rowAt6_eq (t : Fin cfg6.N) (p : Fin 5000) :
    rowAt6 t p = Spec.edgeAt hE6 ⟨t.val, lt_of_lt_of_eq t.isLt nPts6⟩ p := Fin.ext rfl

/-- The first feature block at point t is rows 5000 t … 5000 t + 4999 of its array. -/
theorem b6_0_apply (c : Dev nD) (t : Fin cfg6.N) (p : Fin 5000) (k : Fin 64) :
    b6_0 V c t (ix2 p k) = arr6_0 V c (ix2 (rowAt6 t p) k) := by
  obtain ⟨e0, e1, -⟩ := idx_facts6 t
  unfold b6_0 iblk6
  rw [View.read_apply]
  have h : ((cfg6.win 0).blk t).view.emb (ix2 p k) = (ix2 (rowAt6 t p) k : S1250000x64.Idx) := by
    funext a; apply Fin.ext
    match a with
    | ⟨0, _⟩ => show win6_0.index t (0 : Fin 2) * 5000 + 1 * p.val = t.val * 5000 + p.val; rw [e0]; omega
    | ⟨1, _⟩ => show win6_0.index t (1 : Fin 2) * 64 + 1 * k.val = k.val; rw [e1]; omega
  rw [h]
  rfl

/-- The second feature block likewise. -/
theorem b6_1_apply (c : Dev nD) (t : Fin cfg6.N) (p : Fin 5000) (k : Fin 64) :
    b6_1 V c t (ix2 p k) = arr6_1 V c (ix2 (rowAt6 t p) k) := by
  obtain ⟨-, -, e0, e1, -⟩ := idx_facts6 t
  unfold b6_1 iblk6
  rw [View.read_apply]
  have h : ((cfg6.win 1).blk t).view.emb (ix2 p k) = (ix2 (rowAt6 t p) k : S1250000x64.Idx) := by
    funext a; apply Fin.ext
    match a with
    | ⟨0, _⟩ => show win6_1.index t (0 : Fin 2) * 5000 + 1 * p.val = t.val * 5000 + p.val; rw [e0]; omega
    | ⟨1, _⟩ => show win6_1.index t (1 : Fin 2) * 64 + 1 * k.val = k.val; rw [e1]; omega
  rw [h]
  rfl

/-- The weight block is the weight array. -/
theorem b6_2_apply (c : Dev nD) (t : Fin cfg6.N) (k : Fin 128) :
    b6_2 V c t (ix2 k (0 : Fin 1)) = arr6_2 V c (ix2 k (0 : Fin 1)) := by
  obtain ⟨-, -, -, -, e0, e1, -⟩ := idx_facts6 t
  unfold b6_2 iblk6
  rw [View.read_apply]
  have h : ((cfg6.win 2).blk t).view.emb (ix2 k (0 : Fin 1)) = (ix2 k (0 : Fin 1) : S128x1.Idx) := by
    funext a; apply Fin.ext
    match a with
    | ⟨0, _⟩ => show win6_2.index t (0 : Fin 2) * 128 + 1 * k.val = k.val; rw [e0]; omega
    | ⟨1, _⟩ => show win6_2.index t (1 : Fin 2) * 1 + 1 * (0 : Fin 1).val = (0 : Fin 1).val; rw [e1]; rfl
  rw [h]
  rfl

/-- The bias block is the bias word. -/
theorem b6_3_apply (c : Dev nD) (t : Fin cfg6.N) :
    b6_3 V c t (ix2 (0 : Fin 1) (0 : Fin 1)) = arr6_3 V c (ix2 (0 : Fin 1) (0 : Fin 1)) := by
  obtain ⟨-, -, -, -, -, -, e0, e1, -⟩ := idx_facts6 t
  unfold b6_3 iblk6
  rw [View.read_apply]
  have h : ((cfg6.win 3).blk t).view.emb (ix2 (0 : Fin 1) (0 : Fin 1)) = (ix2 (0 : Fin 1) (0 : Fin 1) : S1x1.Idx) := by
    funext a; apply Fin.ext
    match a with
    | ⟨0, _⟩ => show win6_3.index t (0 : Fin 2) * 1 + 1 * (0 : Fin 1).val = (0 : Fin 1).val; rw [e0]; rfl
    | ⟨1, _⟩ => show win6_3.index t (1 : Fin 2) * 1 + 1 * (0 : Fin 1).val = (0 : Fin 1).val; rw [e1]; rfl
  rw [h]
  rfl

/-! ## The block's scores -/

/-- Row p of block t scores as edge 5000 t + p. -/
theorem score_blk6 (c : Dev nD) (t : Fin cfg6.N) (p : Fin 5000) :
    k6_pay5 (b6_0 V c t) (b6_1 V c t) (b6_2 V c t) (b6_3 V c t) (ix2 p (0 : Fin 1)) = scores6 V c (rowAt6 t p) := by
  refine (pay5_apply6 _ _ _ _ p).trans ?_
  show _ = Spec.leaky (((∑ k : Fin 64, arr6_0 V c (ix2 (rowAt6 t p) k) * arr6_2 V c (ix2 (Fin.castLE (by omega) k : Fin 128) (0 : Fin 1)))
      + (∑ k : Fin 64, arr6_1 V c (ix2 (rowAt6 t p) k) * arr6_2 V c (ix2 (⟨64 + k.val, by omega⟩ : Fin 128) (0 : Fin 1))))
    + arr6_3 V c (ix2 (0 : Fin 1) (0 : Fin 1)))
  exact congrArg Spec.leaky (congrArg₂ (· + ·) (congrArg₂ (· + ·)
    (Finset.sum_congr rfl fun k _ => congrArg₂ (· * ·) (b6_0_apply V c t p k) (b6_2_apply V c t _))
    (Finset.sum_congr rfl fun k _ => congrArg₂ (· * ·) (b6_1_apply V c t p k) (b6_2_apply V c t _)))
    (b6_3_apply V c t))

/-- The block's largest score is the largest over the block's edges. -/
theorem sup_blk6 (c : Dev nD) (t : Fin cfg6.N) :
    (Finset.univ.sup fun r : Fin 5000 => k6_pay5 (b6_0 V c t) (b6_1 V c t) (b6_2 V c t) (b6_3 V c t) (ix2 r (0 : Fin 1)))
      = Finset.univ.sup fun r : Fin 5000 => scores6 V c (Spec.edgeAt hE6 ⟨t.val, lt_of_lt_of_eq t.isLt nPts6⟩ r) :=
  Finset.sup_congr rfl fun r _ => (score_blk6 V c t r).trans (congrArg (scores6 V c) (rowAt6_eq t r))

/-! ## The running pair, one step -/

theorem online_succ6 (s : Fin 1250000 → EReal) (k : ℕ) (hk : k < 250) :
    Spec.online hE6 s (k + 1)
      = (max (Spec.online hE6 s k).1 (Finset.univ.sup fun r : Fin 5000 => s (Spec.edgeAt hE6 ⟨k, hk⟩ r)),
        Ideal.exp ((Spec.online hE6 s k).1 - max (Spec.online hE6 s k).1 (Finset.univ.sup fun r : Fin 5000 => s (Spec.edgeAt hE6 ⟨k, hk⟩ r))) * (Spec.online hE6 s k).2
          + ∑ r : Fin 5000, Ideal.exp (s (Spec.edgeAt hE6 ⟨k, hk⟩ r) - max (Spec.online hE6 s k).1 (Finset.univ.sup fun r : Fin 5000 => s (Spec.edgeAt hE6 ⟨k, hk⟩ r)))) := by
  rw [Spec.online, dif_pos hk]

/-- From the running pair before point t to the pair after it, as the body's payloads compute it. -/
theorem online_step6 (c : Dev nD) (t : Fin cfg6.N) (m l : Vec Ideal S1x1 .f32)
    (hm : ∀ j, m j = (Spec.online hE6 (scores6 V c) t.val).1) (hl : ∀ j, l j = (Spec.online hE6 (scores6 V c) t.val).2) :
    k6_pay2 (k6_pay6 (b6_0 V c t) (b6_1 V c t) (b6_2 V c t) (b6_3 V c t) m) = Spec.cell (Spec.online hE6 (scores6 V c) (t.val + 1)).1
    ∧ k6_pay1 (k6_pay5 (b6_0 V c t) (b6_1 V c t) (b6_2 V c t) (b6_3 V c t)) (k6_pay7 (b6_0 V c t) (b6_1 V c t) (b6_2 V c t) (b6_3 V c t) m m) (k6_pay8 (b6_0 V c t) (b6_1 V c t) (b6_2 V c t) (b6_3 V c t) m) l
        = Spec.cell (Spec.online hE6 (scores6 V c) (t.val + 1)).2 := by
  have ht : t.val < 250 := lt_of_lt_of_eq t.isLt nPts6
  rw [online_succ6 (scores6 V c) t.val ht]
  constructor
  · funext j
    rw [stepM6, hm, sup_blk6]
    rfl
  · funext j
    have hM : max (Spec.online hE6 (scores6 V c) t.val).1 (Finset.univ.sup fun r : Fin 5000 => scores6 V c (Spec.edgeAt hE6 ⟨t.val, ht⟩ r))
        = max (m j) (Finset.univ.sup fun r : Fin 5000 => k6_pay5 (b6_0 V c t) (b6_1 V c t) (b6_2 V c t) (b6_3 V c t) (ix2 r (0 : Fin 1))) := by
      rw [hm, sup_blk6]
    rw [stepL6 _ _ _ _ m l j _ hM, hm, hl]
    exact congrArg₂ (· + ·) rfl (Finset.sum_congr rfl fun r _ => by rw [score_blk6, rowAt6_eq])

/-! ## The trajectory named -/

/-- After the first point the scratch pair is one step from the reset values. -/
theorem scratchA6 (c : Dev nD) (t : Fin cfg6.N) (h0 : t.val = 0) (h1 : ¬t.val = 249) :
    (outsAt6 V c t.val t.isLt).2.2.2.1 = k6_pay2 (k6_pay6 (b6_0 V c t) (b6_1 V c t) (b6_2 V c t) (b6_3 V c t) (k6_pay3 (F := Ideal)))
    ∧ (outsAt6 V c t.val t.isLt).2.2.2.2 = k6_pay1 (k6_pay5 (b6_0 V c t) (b6_1 V c t) (b6_2 V c t) (b6_3 V c t)) (k6_pay7 (b6_0 V c t) (b6_1 V c t) (b6_2 V c t) (b6_3 V c t) (k6_pay3 (F := Ideal)) (k6_pay3 (F := Ideal))) (k6_pay8 (b6_0 V c t) (b6_1 V c t) (b6_2 V c t) (b6_3 V c t) (k6_pay3 (F := Ideal))) (k6_pay4 (F := Ideal)) := by
  rw [outsAt6_A V c t h0 h1]; dsimp only
  exact ⟨sout6_A_0_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t), sout6_A_1_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t)⟩

/-- After any later point the scratch pair is one step from what the point before left. -/
theorem scratchBC6 (c : Dev nD) (t : Fin cfg6.N) (h0 : ¬t.val = 0) :
    (outsAt6 V c t.val t.isLt).2.2.2.1 = k6_pay2 (k6_pay6 (b6_0 V c t) (b6_1 V c t) (b6_2 V c t) (b6_3 V c t) (outsAt6 V c (t.val - 1) (Nat.lt_of_le_of_lt (Nat.sub_le _ _) t.isLt)).2.2.2.1)
    ∧ (outsAt6 V c t.val t.isLt).2.2.2.2 = k6_pay1 (k6_pay5 (b6_0 V c t) (b6_1 V c t) (b6_2 V c t) (b6_3 V c t)) (k6_pay7 (b6_0 V c t) (b6_1 V c t) (b6_2 V c t) (b6_3 V c t) (outsAt6 V c (t.val - 1) (Nat.lt_of_le_of_lt (Nat.sub_le _ _) t.isLt)).2.2.2.1 (outsAt6 V c (t.val - 1) (Nat.lt_of_le_of_lt (Nat.sub_le _ _) t.isLt)).2.2.2.1) (k6_pay8 (b6_0 V c t) (b6_1 V c t) (b6_2 V c t) (b6_3 V c t) (outsAt6 V c (t.val - 1) (Nat.lt_of_le_of_lt (Nat.sub_le _ _) t.isLt)).2.2.2.1) (outsAt6 V c (t.val - 1) (Nat.lt_of_le_of_lt (Nat.sub_le _ _) t.isLt)).2.2.2.2 := by
  by_cases h1 : t.val = 249
  · rw [outsAt6_C V c t h0 h1]; dsimp only
    exact ⟨sout6_C_0_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_C_1_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2⟩
  · rw [outsAt6_B V c t h0 h1]; dsimp only
    exact ⟨sout6_B_0_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_B_1_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2⟩

/-- At every point the score window's buffer is left at the block's scores. -/
theorem scoreOut6 (c : Dev nD) (t : Fin cfg6.N) : (outsAt6 V c t.val t.isLt).1 = k6_pay5 (b6_0 V c t) (b6_1 V c t) (b6_2 V c t) (b6_3 V c t) := by
  by_cases h0 : t.val = 0
  · have h1 : ¬t.val = 249 := by omega
    rw [outsAt6_A V c t h0 h1]; dsimp only
    exact out6_A_4_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t)
  · by_cases h1 : t.val = 249
    · rw [outsAt6_C V c t h0 h1]; dsimp only
      exact out6_C_4_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2
    · rw [outsAt6_B V c t h0 h1]; dsimp only
      exact out6_B_4_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2

/-- At the last point the two one-word output windows are left at the scratch pair. -/
theorem lastOut6 (c : Dev nD) (t : Fin cfg6.N) (h1 : t.val = 249) :
    (outsAt6 V c t.val t.isLt).2.1 = (outsAt6 V c t.val t.isLt).2.2.2.1
    ∧ (outsAt6 V c t.val t.isLt).2.2.1 = (outsAt6 V c t.val t.isLt).2.2.2.2 := by
  have h0 : ¬t.val = 0 := by omega
  rw [outsAt6_C V c t h0 h1]; dsimp only
  exact ⟨(out6_C_5_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2).trans (sout6_C_0_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2).symm,
    (out6_C_6_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2).trans (sout6_C_1_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2.2.1 (outsAt6 V c (t.val - 1) (Nat.lt_of_le_of_lt (Nat.sub_le _ _) t.isLt)).2.2.2.2).symm⟩

/-! ## The scratch pair after each point -/

/-- After point n the two scratch buffers hold the running maximum and the running rescaled sum over the first
    n + 1 blocks. -/
theorem traj6 (c : Dev nD) : ∀ (n : ℕ) (hn : n < cfg6.N),
    (outsAt6 (F := Ideal) V c n hn).2.2.2.1 = Spec.cell (Spec.online hE6 (scores6 V c) (n + 1)).1
    ∧ (outsAt6 (F := Ideal) V c n hn).2.2.2.2 = Spec.cell (Spec.online hE6 (scores6 V c) (n + 1)).2
  | 0, hn => by
    obtain ⟨em, el⟩ := scratchA6 V c ⟨0, hn⟩ rfl (show ¬(0 : ℕ) = 249 by decide)
    obtain ⟨sm, sl⟩ := online_step6 V c ⟨0, hn⟩ (k6_pay3 (F := Ideal)) (k6_pay4 (F := Ideal)) (fun j => pay3_apply6 j) (fun j => pay4_apply6 j)
    exact ⟨em.trans sm, el.trans sl⟩
  | n + 1, hn => by
    obtain ⟨im, il⟩ := traj6 c n (Nat.lt_of_succ_lt hn)
    obtain ⟨em, el⟩ := scratchBC6 V c ⟨n + 1, hn⟩ (Nat.succ_ne_zero n)
    obtain ⟨sm, sl⟩ := online_step6 V c ⟨n + 1, hn⟩ (outsAt6 V c n (Nat.lt_of_succ_lt hn)).2.2.2.1 (outsAt6 V c n (Nat.lt_of_succ_lt hn)).2.2.2.2
      (fun j => congrFun im j) (fun j => congrFun il j)
    exact ⟨em.trans sm, el.trans sl⟩

/-! ## From the blocks to the arrays -/

/-- Where the score window's block at point t puts its row p. -/
theorem emb6_4 (t : Fin cfg6.N) (p : Fin 5000) :
    ((cfg6.win 4).blk t).view.emb (ix2 p (0 : Fin 1)) = (ix2 (rowAt6 t p) (0 : Fin 1) : S1250000x1.Idx) := by
  obtain ⟨-, -, -, -, -, -, -, -, e0, e1, -⟩ := idx_facts6 t
  funext a; apply Fin.ext
  match a with
  | ⟨0, _⟩ => show win6_4.index t (0 : Fin 2) * 5000 + 1 * p.val = t.val * 5000 + p.val; rw [e0]; omega
  | ⟨1, _⟩ => show win6_4.index t (1 : Fin 2) * 1 + 1 * (0 : Fin 1).val = (0 : Fin 1).val; rw [e1]; rfl

/-- An index of a block of one column is its row and column zero. -/
theorem eq_ixP6 (y : S5000x1.Idx) : y = ix2 (y 0) (0 : Fin 1) :=
  funext fun a => Fin.ext (by
    match a with
    | ⟨0, _⟩ => rfl
    | ⟨1, _⟩ => have h : (y 1).val < 1 := (y 1).isLt; show (y 1).val = 0; omega)

/-- The score array the region leaves, as one function of the arrays it reads. -/
abbrev G6_4 (c : Dev nD) : S1250000x1.Idx → EReal := Spec.col1 (scores6 V c)

/-- What point t writes back to the score array is block t of the edges' scores. -/
theorem flushed6_4_eq (c : Dev nD) (t : Fin cfg6.N) :
    (dat6 (F := Ideal) V c).flushed 4 t = ((cfg6.win 4).blk t).view.read (Elt Ideal) (G6_4 V c) := by
  show (cfg6.win 4).cut (grid6.coords t) ((dat6 V c).after 4 t) = _
  rw [after6_4, scoreOut6]
  funext y
  obtain ⟨p, rfl⟩ : ∃ p : Fin 5000, y = ix2 p (0 : Fin 1) := ⟨y 0, eq_ixP6 y⟩
  refine (score_blk6 V c t p).trans ?_
  rw [View.read_apply, emb6_4]
  rfl

/-- An index of the score array is in point t's block iff each coordinate is in the block's range on its axis. -/
theorem mem_blk6_4 (t : Fin cfg6.N) (i : S1250000x1.Idx) :
    i ∈ ((cfg6.win 4).blk t).view.set ↔ ∀ a : Fin 2, win6_4.index t a * S5000x1.size a ≤ (i a).val ∧ (i a).val < win6_4.index t a * S5000x1.size a + S5000x1.size a := by
  show i ∈ ((View.whole main_v45_0).slice (win6_4.rect t)).set ↔ _
  rw [View.set_slice_whole, Rect.mem_set_unit]
  exact Iff.rfl

/-- Edge e lies in the block of point e / 5000. -/
theorem cover6_4 (i : S1250000x1.Idx) : ∃ t : Fin cfg6.N, (cfg6.win 4).flush t = true ∧ i ∈ ((cfg6.win 4).blk t).view.set := by
  have hi0 : (i 0).val < 1250000 := (i 0).isLt
  have hi1 : (i 1).val < 1 := (i 1).isLt
  have ht : (i 0).val / 5000 < cfg6.N := by rw [nPts6]; omega
  obtain ⟨-, -, -, -, -, -, -, -, e0, e1, -⟩ := idx_facts6 ⟨(i 0).val / 5000, ht⟩
  refine ⟨⟨(i 0).val / 5000, ht⟩, flush6_4 _, ?_⟩
  rw [mem_blk6_4]
  intro a
  match a with
  | ⟨0, _⟩ =>
    show win6_4.index ⟨(i 0).val / 5000, ht⟩ (0 : Fin 2) * 5000 ≤ (i 0).val ∧ (i 0).val < win6_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_4.index ⟨(i 0).val / 5000, ht⟩ (1 : Fin 2) * 1 ≤ (i 1).val ∧ (i 1).val < win6_4.index ⟨(i 0).val / 5000, ht⟩ (1 : Fin 2) * 1 + 1
    rw [e1]; omega

/-- The score array the pipeline leaves is the column of the edges' scores. -/
theorem value6_4 (c : Dev nD) : (dat6 (F := Ideal) V c).arrAt 4 cfg6.N = Spec.col1 (scores6 V c) :=
  (dat6 V c).arrAt_eq_of_cover 4 (G6_4 V c) (fun t _ => flushed6_4_eq V c t) cover6_4

/-- The last point. -/
theorem last6 : (249 : ℕ) < cfg6.N := by rw [nPts6]; decide

/-- The scratch pair after the last point is the running pair over all 250 blocks. -/
theorem trajLast6 (c : Dev nD) (t : Fin cfg6.N) (h1 : t.val = 249) :
    (outsAt6 (F := Ideal) V c t.val t.isLt).2.2.2.1 = Spec.cell (Spec.online hE6 (scores6 V c) 250).1
    ∧ (outsAt6 (F := Ideal) V c t.val t.isLt).2.2.2.2 = Spec.cell (Spec.online hE6 (scores6 V c) 250).2 := by
  have e : t.val + 1 = 250 := by omega
  have h := traj6 V c t.val t.isLt
  rw [e] at h
  exact h

/-- An index of a one-word array is in the (one) block of the maximum's window at any point. -/
theorem mem_blk6_5 (t : Fin cfg6.N) (i : S1x1.Idx) : i ∈ ((cfg6.win 5).blk t).view.set := by
  obtain ⟨-, -, -, -, -, -, -, -, -, -, e0, e1, -⟩ := idx_facts6 t
  show i ∈ ((View.whole main_v45_1).slice (win6_5.rect t)).set
  rw [View.set_slice_whole, Rect.mem_set_unit]
  intro a
  match a with
  | ⟨0, _⟩ =>
    have h : (i 0).val < 1 := (i 0).isLt
    show win6_5.index t (0 : Fin 2) * 1 ≤ (i 0).val ∧ (i 0).val < win6_5.index t (0 : Fin 2) * 1 + 1
    rw [e0]; omega
  | ⟨1, _⟩ =>
    have h : (i 1).val < 1 := (i 1).isLt
    show win6_5.index t (1 : Fin 2) * 1 ≤ (i 1).val ∧ (i 1).val < win6_5.index t (1 : Fin 2) * 1 + 1
    rw [e1]; omega

/-- And of the sum's window. -/
theorem mem_blk6_6 (t : Fin cfg6.N) (i : S1x1.Idx) : i ∈ ((cfg6.win 6).blk t).view.set := by
  obtain ⟨-, -, -, -, -, -, -, -, -, -, -, -, e0, e1⟩ := idx_facts6 t
  show i ∈ ((View.whole main_v45_2).slice (win6_6.rect t)).set
  rw [View.set_slice_whole, Rect.mem_set_unit]
  intro a
  match a with
  | ⟨0, _⟩ =>
    have h : (i 0).val < 1 := (i 0).isLt
    show win6_6.index t (0 : Fin 2) * 1 ≤ (i 0).val ∧ (i 0).val < win6_6.index t (0 : Fin 2) * 1 + 1
    rw [e0]; omega
  | ⟨1, _⟩ =>
    have h : (i 1).val < 1 := (i 1).isLt
    show win6_6.index t (1 : Fin 2) * 1 ≤ (i 1).val ∧ (i 1).val < win6_6.index t (1 : Fin 2) * 1 + 1
    rw [e1]; omega

/-- The maximum's array is written back at the last point only, with the running maximum over all blocks. -/
theorem value6_5 (c : Dev nD) : (dat6 (F := Ideal) V c).arrAt 5 cfg6.N = Spec.cell (Spec.online hE6 (scores6 V c) 250).1 :=
  (dat6 V c).arrAt_eq_of_cover 5 (Spec.cell (Spec.online hE6 (scores6 V c) 250).1 : S1x1.Idx → EReal)
    (fun t hf => by
      have hN : t.val < 250 := lt_of_lt_of_eq t.isLt nPts6
      have h1 : t.val = 249 := by have := (flush6_5 t).mp hf; omega
      show (cfg6.win 5).cut (grid6.coords t) ((dat6 V c).after 5 t) = _
      rw [after6_5, (lastOut6 V c t h1).1, (trajLast6 V c t h1).1]
      rfl)
    (fun i => ⟨⟨249, last6⟩, (flush6_5 _).mpr rfl, mem_blk6_5 _ i⟩)

/-- The sum's array likewise, with the running rescaled sum over all blocks. -/
theorem value6_6 (c : Dev nD) : (dat6 (F := Ideal) V c).arrAt 6 cfg6.N = Spec.cell (Spec.online hE6 (scores6 V c) 250).2 :=
  (dat6 V c).arrAt_eq_of_cover 6 (Spec.cell (Spec.online hE6 (scores6 V c) 250).2 : S1x1.Idx → EReal)
    (fun t hf => by
      have hN : t.val < 250 := lt_of_lt_of_eq t.isLt nPts6
      have h1 : t.val = 249 := by have := (flush6_6 t).mp hf; omega
      show (cfg6.win 6).cut (grid6.coords t) ((dat6 V c).after 6 t) = _
      rw [after6_6, (lastOut6 V c t h1).2, (trajLast6 V c t h1).2]
      rfl)
    (fun i => ⟨⟨249, last6⟩, (flush6_6 _).mpr rfl, mem_blk6_6 _ i⟩)

end Cert.KernelIdeal.HandV

end
-- ==== Proof.KI.GlueAttn6.lean ====
/- The attention-score region in the chain of contents between @main's items: at the region's exit its three output
   arrays hold the column of the edges' scores and the running pair over all 250 blocks, the scores those of the four
   arrays the region reads as the chain has them at its entry. -/
import proofs.«417395_j71579924955534_2_alg».proof.Proof.KI.Chain
import proofs.«417395_j71579924955534_2_alg».proof.Proof.KI.V6
import proofs.«417395_j71579924955534_2_alg».proof.Proof.Spec

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The score array at the region's exit. -/
theorem attn6_out0 (c : Dev nD) : W17 m c main_v45_0 = Spec.col1 (scores6 (Wr16 m) c) :=
  (W17_out0 m c).trans (value6_4 (Wr16 m) c)

/-- The maximum's array at the region's exit. -/
theorem attn6_out1 (c : Dev nD) : W17 m c main_v45_1 = Spec.cell (Spec.online hE6 (scores6 (Wr16 m) c) 250).1 :=
  (W17_out1 m c).trans (value6_5 (Wr16 m) c)

/-- The sum's array at the region's exit. -/
theorem attn6_out2 (c : Dev nD) : W17 m c main_v45_2 = Spec.cell (Spec.online hE6 (scores6 (Wr16 m) c) 250).2 :=
  (W17_out2 m c).trans (value6_6 (Wr16 m) c)

/-- The scores are those of the four arrays the region reads, as the chain has them at its entry. -/
theorem scores6_W16 (c : Dev nD) :
    scores6 (Wr16 m) c = Spec.score (W16 m c main_v38) (W16 m c main_v39) (W16 m c main_v41) (Spec.rowOf (W16 m c main_v44)) := rfl

end Cert.KernelIdeal.HandV

end
-- ==== Proof.KI.V7.lean ====
import proofs.«417395_j71579924955534_2_alg».proof.Proof.KI.R7
import proofs.«417395_j71579924955534_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # Region 7 (the message call) on the extended reals: the message array as one function of the five input arrays

Row `e` of the result, feature `q`, is `exp (score e − m) · (1 / l) · weight e · feature (e, q)`: the body's arithmetic
on a block is that formula on the block; a block's rows are the array's rows `5000 · t + p`; the 250 blocks fill the
array. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz7 : (![0, 0] : Fin 2 → Nat) = fun _ => 0 := funext fun a => by fin_cases a <;> rfl

/-- The exponential of a vector, read at an index. -/
theorem exp_at7 {s : Shape} {φ : FTy} (a : FVec Ideal s φ) (i : s.Idx) : exp a i = Ideal.exp (a i) := rfl

/-- One cell spread down a column reads the cell everywhere. -/
theorem spread_cell7 (v : FVec Ideal S1x1 .f32) (p : Fin 5000) (u : Fin 1) :
    broadcastTo S5000x1 v broadcasts_S1x1_S5000x1 (ix2 p u) = v (ix2 (0 : Fin 1) (0 : Fin 1)) :=
  broadcastTo_apply v broadcasts_S1x1_S5000x1 (ix2 p u) (ix2 (0 : Fin 1) (0 : Fin 1))
    (fun a => by match a with | ⟨0, _⟩ => rfl | ⟨1, _⟩ => rfl)

/-- A column spread over 64 lanes reads, at `(p, k)`, the column at `p`. -/
theorem spread_col7 (v : FVec Ideal S5000x1 .f32) (p : Fin 5000) (k : Fin 64) :
    broadcastTo S5000x64 v broadcasts_S5000x1_S5000x64 (ix2 p k) = v (ix2 p (0 : Fin 1)) :=
  broadcastTo_apply v broadcasts_S5000x1_S5000x64 (ix2 p k) (ix2 p (0 : Fin 1))
    (fun a => by match a with | ⟨0, _⟩ => rfl | ⟨1, _⟩ => rfl)

/-- The body's arithmetic on whole blocks is the message formula on the blocks. -/
theorem pay7_eq (x3 x4 : Vec Ideal S1x1 .f32) (x0 x2 : Vec Ideal S5000x1 .f32) (x1 : Vec Ideal S5000x64 .f32) :
    k7_pay1 (F := Ideal) x3 x4 x0 x2 x1 = Spec.messageK (E := 5000) x0 x1 x2 x3 x4 := by
  funext j
  obtain ⟨p, q, rfl⟩ : ∃ (p : Fin 5000) (q : Fin 64), j = ix2 p q := ⟨j 0, j 1, eq_ix2 j⟩
  unfold k7_pay1 Spec.messageK
  simp only [shapeCast_self, mulf_apply, subf_apply, divf_apply, broadcast_apply, exp_at7, spread_col7, spread_cell7,
    Ideal.ofBits_def, Ideal.ofBits_one_f32]

/-- The block indices at point `t`: the three moving inputs and the output sit at block row `t`, the two cells at `0`. -/
theorem idx7_0 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)
theorem idx7_1 : ∀ t : Fin cfg7.N, win7_1.index t (0 : Fin 2) = t.val ∧ win7_1.index t (1 : Fin 2) = 0 :=
  (by decide +kernel : ∀ t : Fin grid7.N, win7_1.index t (0 : Fin 2) = t.val ∧ win7_1.index t (1 : Fin 2) = 0)
theorem idx7_2 : ∀ t : Fin cfg7.N, win7_2.index t (0 : Fin 2) = t.val ∧ win7_2.index t (1 : Fin 2) = 0 :=
  (by decide +kernel : ∀ t : Fin grid7.N, win7_2.index t (0 : Fin 2) = t.val ∧ win7_2.index t (1 : Fin 2) = 0)
theorem idx7_3 : ∀ t : Fin cfg7.N, win7_3.index t (0 : Fin 2) = 0 ∧ win7_3.index t (1 : Fin 2) = 0 :=
  (by decide +kernel : ∀ t : Fin grid7.N, win7_3.index t (0 : Fin 2) = 0 ∧ win7_3.index t (1 : Fin 2) = 0)
theorem idx7_4 : ∀ t : Fin cfg7.N, win7_4.index t (0 : Fin 2) = 0 ∧ win7_4.index t (1 : Fin 2) = 0 :=
  (by decide +kernel : ∀ t : Fin grid7.N, win7_4.index t (0 : Fin 2) = 0 ∧ win7_4.index t (1 : Fin 2) = 0)
theorem idx7_5 : ∀ t : Fin cfg7.N, win7_5.index t (0 : Fin 2) = t.val ∧ win7_5.index t (1 : Fin 2) = 0 :=
  (by decide +kernel : ∀ t : Fin grid7.N, win7_5.index t (0 : Fin 2) = t.val ∧ win7_5.index t (1 : Fin 2) = 0)

set_option maxHeartbeats 4000000 in
/-- What point `t` writes back is block `t` of the message formula on the whole arrays. -/
theorem flushed7_eq (c : Dev nD) (t : Fin cfg7.N) :
    (dat7 V c).flushed 5 t = ((cfg7.win 5).blk t).view.read (Elt Ideal)
      (Spec.messageK (E := 1250000) (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  unfold out7_5
  rw [View.canon_unit_zero hz7]
  simp only [View.ld_unit_zero (S := S5000x64) hz7, View.ld_unit_zero (S := S5000x1) hz7, View.ld_unit_zero (S := S1x1) hz7]
  rw [pay7_eq]
  obtain ⟨a0, b0⟩ := idx7_0 t
  obtain ⟨a1, b1⟩ := idx7_1 t
  obtain ⟨a2, b2⟩ := idx7_2 t
  obtain ⟨a3, b3⟩ := idx7_3 t
  obtain ⟨a4, b4⟩ := idx7_4 t
  obtain ⟨a5, b5⟩ := idx7_5 t
  funext j
  obtain ⟨p, q, rfl⟩ : ∃ (p : Fin 5000) (q : Fin 64), j = ix2 p q := ⟨j 0, j 1, eq_ix2 j⟩
  have e0 : ((cfg7.win 0).blk t).view.emb (ix2 p (0 : Fin 1))
      = ix2 (Spec.c0 (((cfg7.win 5).blk t).view.emb (ix2 p q))) (0 : Fin 1) := by
    funext a; apply Fin.ext
    match a with
    | ⟨0, _⟩ => show win7_0.index t (0 : Fin 2) * 5000 + 1 * p.val = win7_5.index t (0 : Fin 2) * 5000 + 1 * p.val; omega
    | ⟨1, _⟩ => show win7_0.index t (1 : Fin 2) * 1 + 1 * 0 = 0; omega
  have e1 : ((cfg7.win 1).blk t).view.emb (ix2 p q) = ((cfg7.win 5).blk t).view.emb (ix2 p q) := by
    funext a; apply Fin.ext
    match a with
    | ⟨0, _⟩ => show win7_1.index t (0 : Fin 2) * 5000 + 1 * p.val = win7_5.index t (0 : Fin 2) * 5000 + 1 * p.val; omega
    | ⟨1, _⟩ => show win7_1.index t (1 : Fin 2) * 64 + 1 * q.val = win7_5.index t (1 : Fin 2) * 64 + 1 * q.val; omega
  have e2 : ((cfg7.win 2).blk t).view.emb (ix2 p (0 : Fin 1))
      = ix2 (Spec.c0 (((cfg7.win 5).blk t).view.emb (ix2 p q))) (0 : Fin 1) := by
    funext a; apply Fin.ext
    match a with
    | ⟨0, _⟩ => show win7_2.index t (0 : Fin 2) * 5000 + 1 * p.val = win7_5.index t (0 : Fin 2) * 5000 + 1 * p.val; omega
    | ⟨1, _⟩ => show win7_2.index t (1 : Fin 2) * 1 + 1 * 0 = 0; omega
  have e3 : ((cfg7.win 3).blk t).view.emb (ix2 (0 : Fin 1) (0 : Fin 1)) = ix2 (0 : Fin 1) (0 : Fin 1) := by
    funext a; apply Fin.ext
    match a with
    | ⟨0, _⟩ => show win7_3.index t (0 : Fin 2) * 1 + 1 * 0 = 0; omega
    | ⟨1, _⟩ => show win7_3.index t (1 : Fin 2) * 1 + 1 * 0 = 0; omega
  have e4 : ((cfg7.win 4).blk t).view.emb (ix2 (0 : Fin 1) (0 : Fin 1)) = ix2 (0 : Fin 1) (0 : Fin 1) := by
    funext a; apply Fin.ext
    match a with
    | ⟨0, _⟩ => show win7_4.index t (0 : Fin 2) * 1 + 1 * 0 = 0; omega
    | ⟨1, _⟩ => show win7_4.index t (1 : Fin 2) * 1 + 1 * 0 = 0; omega
  show Spec.messageK (E := 5000) (iblk7 V c 0 t) (iblk7 V c 1 t) (iblk7 V c 2 t) (iblk7 V c 3 t) (iblk7 V c 4 t) (ix2 p q)
    = Spec.messageK (E := 1250000) (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb (ix2 p q))
  unfold Spec.messageK
  have r0 : iblk7 V c 0 t (ix2 (Spec.c0 (ix2 p q)) (0 : Fin 1))
      = V c (Pipeline.arrRef spec7 0) (((cfg7.win 0).blk t).view.emb (ix2 p (0 : Fin 1))) := rfl
  have r1 : iblk7 V c 1 t (ix2 p q) = V c (Pipeline.arrRef spec7 1) (((cfg7.win 1).blk t).view.emb (ix2 p q)) := rfl
  have r2 : iblk7 V c 2 t (ix2 (Spec.c0 (ix2 p q)) (0 : Fin 1))
      = V c (Pipeline.arrRef spec7 2) (((cfg7.win 2).blk t).view.emb (ix2 p (0 : Fin 1))) := rfl
  have r3 : iblk7 V c 3 t (ix2 (0 : Fin 1) (0 : Fin 1))
      = V c (Pipeline.arrRef spec7 3) (((cfg7.win 3).blk t).view.emb (ix2 (0 : Fin 1) (0 : Fin 1))) := rfl
  have r4 : iblk7 V c 4 t (ix2 (0 : Fin 1) (0 : Fin 1))
      = V c (Pipeline.arrRef spec7 4) (((cfg7.win 4).blk t).view.emb (ix2 (0 : Fin 1) (0 : Fin 1))) := rfl
  rw [r0, r1, r2, r3, r4, e0, e1, e2, e3, e4]

/-- An index of the array is in point `t`'s block iff each coordinate is in the block's range on its axis. -/
theorem mem_blk7 (t : Fin cfg7.N) (i : S1250000x64.Idx) :
    i ∈ ((cfg7.win 5).blk t).view.set ↔ ∀ a : Fin 2, win7_5.index t a * S5000x64.size a ≤ (i a).val
      ∧ (i a).val < win7_5.index t a * S5000x64.size a + S5000x64.size a := by
  show i ∈ ((View.whole main_v46).slice (win7_5.rect t)).set ↔ _
  rw [View.set_slice_whole, Rect.mem_set_unit]
  exact Iff.rfl

/-- Row `r` of the array lies in the block of point `r / 5000`. -/
theorem cover7 (i : S1250000x64.Idx) :
    ∃ t : Fin cfg7.N, (cfg7.win 5).flush t = true ∧ i ∈ ((cfg7.win 5).blk t).view.set := by
  have hi0 : (i 0).val < 1250000 := (i 0).isLt
  have hi1 : (i 1).val < 64 := (i 1).isLt
  have hN : cfg7.N = 250 := N_7
  have ht : (i 0).val / 5000 < cfg7.N := by rw [hN]; omega
  obtain ⟨a5, b5⟩ := idx7_5 ⟨(i 0).val / 5000, ht⟩
  refine ⟨⟨(i 0).val / 5000, ht⟩, flush7_5 _, ?_⟩
  rw [mem_blk7]
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    rw [a5]
    show (i 0).val / 5000 * 5000 ≤ (i 0).val ∧ (i 0).val < (i 0).val / 5000 * 5000 + 5000
    omega
  | ⟨1, _⟩ =>
    show win7_5.index ⟨(i 0).val / 5000, ht⟩ (1 : Fin 2) * 64 ≤ (i 1).val
      ∧ (i 1).val < win7_5.index ⟨(i 0).val / 5000, ht⟩ (1 : Fin 2) * 64 + 64
    rw [b5]
    omega

/-- THE VALUE of the region: after its 250 points the message array is the message formula of the five input arrays as
    the region found them. -/
theorem value7 (c : Dev nD) :
    (dat7 (F := Ideal) V c).arrAt 5 cfg7.N
      = Spec.messageK (E := 1250000) (V c (Pipeline.arrRef spec7 0)) (V c (Pipeline.arrRef spec7 1)) (V c (Pipeline.arrRef spec7 2))
          (V c (Pipeline.arrRef spec7 3)) (V c (Pipeline.arrRef spec7 4)) :=
  (dat7 V c).arrAt_eq_of_cover 5 _ (fun t _ => flushed7_eq V c t) cover7

end Cert.KernelIdeal.HandV
-- ==== Proof.KI.V8.lean ====
import proofs.«417395_j71579924955534_2_alg».proof.Proof.KI.R8
import proofs.«417395_j71579924955534_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # Region 8 (the finalize call) on the extended reals: the result array as one function of the five input arrays

Row `r` of the result is `h r + layernorm (relu (hl r + agg r))`, the norm over the 64 features of the row with the
scale row and the shift row: the body's arithmetic on a block is that formula on the block; the formula reads one row
of each array, a block's rows are the array's rows `5000 · t + p`, and the 20 blocks fill the array. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz8 : (![0, 0] : Fin 2 → Nat) = fun _ => 0 := funext fun a => by fin_cases a <;> rfl

/-- The reciprocal square root of a vector, read at an index. -/
theorem rsqrt_at8 {s : Shape} {φ : FTy} (a : FVec Ideal s φ) (i : s.Idx) : rsqrt a i = Ideal.rsqrt (a i) := rfl

/-- A column spread over 64 lanes reads, at `(p, k)`, the column at `p`. -/
theorem spread_col8 (v : FVec Ideal S5000x1 .f32) (p : Fin 5000) (k : Fin 64) :
    broadcastTo S5000x64 v broadcasts_S5000x1_S5000x64 (ix2 p k) = v (ix2 p (0 : Fin 1)) :=
  broadcastTo_apply v broadcasts_S5000x1_S5000x64 (ix2 p k) (ix2 p (0 : Fin 1))
    (fun a => by match a with | ⟨0, _⟩ => rfl | ⟨1, _⟩ => rfl)

/-- A row spread over 5000 rows reads, at `(p, k)`, the row at `k`. -/
theorem spread_row8 (v : FVec Ideal S1x64 .f32) (p : Fin 5000) (k : Fin 64) :
    broadcastTo S5000x64 v broadcasts_S1x64_S5000x64 (ix2 p k) = v (ix2 (0 : Fin 1) k) :=
  broadcastTo_apply v broadcasts_S1x64_S5000x64 (ix2 p k) (ix2 (0 : Fin 1) k)
    (fun a => by match a with | ⟨0, _⟩ => rfl | ⟨1, _⟩ => rfl)

/-- The sum over the 64 lanes, kept as a column, reads at `(p, u)` the sum of row `p`. -/
theorem lane_sum8 (src : FVec Ideal S5000x64 .f32) (hφ : FTy.f32 = FTy.f32 ∨ FTy.f32 = FTy.bf16)
    (hacc : (0x00000000#32 : BitVec 32) = 0x00000000#32) (p : Fin 5000) (u : Fin 1) :
    shapeCast S5000x1 (multiReduction (F := Ideal) .add [1] S5000 src 0x00000000#32 reduces_S5000x64_S5000 hφ hacc)
      shapeCasts_S5000_S5000x1 (ix2 p u) = ∑ k : Fin 64, src (ix2 p k) := by
  refine (shapeCast_apply _ shapeCasts_S5000_S5000x1 (ix2 p u) (ix1 p) ?_).trans ?_
  · rw [Shape.rowMajor_val_one, Shape.rowMajor_val_two]
    show p.val = p.val * 1 + u.val
    omega
  · refine (Ideal.multiReduction_add_single src 0x00000000#32 reduces_S5000x64_S5000 hφ hacc (ix1 p)).trans ?_
    exact Finset.sum_congr rfl fun k _ => congrArg src (funext fun a => by match a with | ⟨0, _⟩ => rfl | ⟨1, _⟩ => rfl)

/-- The body's arithmetic on whole blocks is the finalize formula on the blocks. -/
theorem pay8_eq (x0 x1 x2 : Vec Ideal S5000x64 .f32) (x3 x4 : Vec Ideal S1x64 .f32) :
    k8_pay1 (F := Ideal) x0 x1 x3 x4 x2 = Spec.finalize (N := 5000) x0 x1 x2 (Spec.rowOf x3) (Spec.rowOf x4) := by
  funext j
  obtain ⟨p, q, rfl⟩ : ∃ (p : Fin 5000) (q : Fin 64), j = ix2 p q := ⟨j 0, j 1, eq_ix2 j⟩
  unfold k8_pay1 Spec.finalize Spec.rowOf
  simp only [shapeCast_self, addf_apply, mulf_apply, subf_apply, divf_apply, maximumf_apply, broadcast_apply, rsqrt_at8,
    spread_col8, spread_row8]
  rw [lane_sum8, lane_sum8]
  simp only [addf_apply, mulf_apply, subf_apply, divf_apply, maximumf_apply, broadcast_apply, spread_col8]
  rw [lane_sum8]
  simp only [maximumf_apply, addf_apply, broadcast_apply, Ideal.ofBits_def, Ideal.ofBits_zero_f32]
  rfl

/-- The finalize formula at row `r` reads row `r` of its three arrays and the two rows `g`, `b`: two sets of arrays
    that agree there give the same value. -/
theorem finalize_rows8 {N M : ℕ} (hl agg h : Spec.A2 N 64) (hl' agg' h' : Spec.A2 M 64) (g b g' b' : Spec.A1 64)
    (r : Fin N) (r' : Fin M)
    (h0 : ∀ k : Fin 64, hl (ix2 r k) = hl' (ix2 r' k)) (h1 : ∀ k : Fin 64, agg (ix2 r k) = agg' (ix2 r' k))
    (h2 : ∀ k : Fin 64, h (ix2 r k) = h' (ix2 r' k))
    (hg : ∀ k : Fin 64, g (ix1 k) = g' (ix1 k)) (hb : ∀ k : Fin 64, b (ix1 k) = b' (ix1 k)) (q : Fin 64) :
    Spec.finalize hl agg h g b (ix2 r q) = Spec.finalize hl' agg' h' g' b' (ix2 r' q) := by
  unfold Spec.finalize
  show h (ix2 r q) + ((((max (hl (ix2 r q) + agg (ix2 r q)) 0
        - Ideal.div (∑ k : Fin 64, max (hl (ix2 r k) + agg (ix2 r k)) 0) Spec.c64)
        * Ideal.rsqrt (Ideal.div (∑ k : Fin 64, (max (hl (ix2 r k) + agg (ix2 r k)) 0
            - Ideal.div (∑ k : Fin 64, max (hl (ix2 r k) + agg (ix2 r k)) 0) Spec.c64)
          * (max (hl (ix2 r k) + agg (ix2 r k)) 0
            - Ideal.div (∑ k : Fin 64, max (hl (ix2 r k) + agg (ix2 r k)) 0) Spec.c64)) Spec.c64 + Spec.eps))
        * g (ix1 q)) + b (ix1 q))
    = h' (ix2 r' q) + ((((max (hl' (ix2 r' q) + agg' (ix2 r' q)) 0
        - Ideal.div (∑ k : Fin 64, max (hl' (ix2 r' k) + agg' (ix2 r' k)) 0) Spec.c64)
        * Ideal.rsqrt (Ideal.div (∑ k : Fin 64, (max (hl' (ix2 r' k) + agg' (ix2 r' k)) 0
            - Ideal.div (∑ k : Fin 64, max (hl' (ix2 r' k) + agg' (ix2 r' k)) 0) Spec.c64)
          * (max (hl' (ix2 r' k) + agg' (ix2 r' k)) 0
            - Ideal.div (∑ k : Fin 64, max (hl' (ix2 r' k) + agg' (ix2 r' k)) 0) Spec.c64)) Spec.c64 + Spec.eps))
        * g' (ix1 q)) + b' (ix1 q))
  simp only [h0, h1, h2, hg, hb]

/-- The block indices at point `t`: the three moving inputs and the output sit at block row `t`, the two rows at `0`. -/
theorem idx8_0 : ∀ t : Fin cfg8.N, win8_0.index t (0 : Fin 2) = t.val ∧ win8_0.index t (1 : Fin 2) = 0 :=
  (by decide +kernel : ∀ t : Fin grid8.N, win8_0.index t (0 : Fin 2) = t.val ∧ win8_0.index t (1 : Fin 2) = 0)
theorem idx8_1 : ∀ t : Fin cfg8.N, win8_1.index t (0 : Fin 2) = t.val ∧ win8_1.index t (1 : Fin 2) = 0 :=
  (by decide +kernel : ∀ t : Fin grid8.N, win8_1.index t (0 : Fin 2) = t.val ∧ win8_1.index t (1 : Fin 2) = 0)
theorem idx8_2 : ∀ t : Fin cfg8.N, win8_2.index t (0 : Fin 2) = t.val ∧ win8_2.index t (1 : Fin 2) = 0 :=
  (by decide +kernel : ∀ t : Fin grid8.N, win8_2.index t (0 : Fin 2) = t.val ∧ win8_2.index t (1 : Fin 2) = 0)
theorem idx8_3 : ∀ t : Fin cfg8.N, win8_3.index t (0 : Fin 2) = 0 ∧ win8_3.index t (1 : Fin 2) = 0 :=
  (by decide +kernel : ∀ t : Fin grid8.N, win8_3.index t (0 : Fin 2) = 0 ∧ win8_3.index t (1 : Fin 2) = 0)
theorem idx8_4 : ∀ t : Fin cfg8.N, win8_4.index t (0 : Fin 2) = 0 ∧ win8_4.index t (1 : Fin 2) = 0 :=
  (by decide +kernel : ∀ t : Fin grid8.N, win8_4.index t (0 : Fin 2) = 0 ∧ win8_4.index t (1 : Fin 2) = 0)
theorem idx8_5 : ∀ t : Fin cfg8.N, win8_5.index t (0 : Fin 2) = t.val ∧ win8_5.index t (1 : Fin 2) = 0 :=
  (by decide +kernel : ∀ t : Fin grid8.N, win8_5.index t (0 : Fin 2) = t.val ∧ win8_5.index t (1 : Fin 2) = 0)

set_option maxHeartbeats 4000000 in
/-- What point `t` writes back is block `t` of the finalize formula on the whole arrays. -/
theorem flushed8_eq (c : Dev nD) (t : Fin cfg8.N) :
    (dat8 V c).flushed 5 t = ((cfg8.win 5).blk t).view.read (Elt Ideal)
      (Spec.finalize (N := 100000) (V c (Pipeline.arrRef spec8 0)) (V c (Pipeline.arrRef spec8 1)) (V c (Pipeline.arrRef spec8 2))
        (fun j => V c (Pipeline.arrRef spec8 3) (ix2 (0 : Fin 1) (Spec.d0 j)))
        (fun j => V c (Pipeline.arrRef spec8 4) (ix2 (0 : Fin 1) (Spec.d0 j)))) := by
  show (cfg8.win 5).cut (grid8.coords t) ((dat8 V c).after 5 t) = _
  rw [after8_5]
  unfold out8_5
  rw [View.canon_unit_zero hz8]
  simp only [View.ld_unit_zero (S := S5000x64) hz8, View.ld_unit_zero (S := S1x64) hz8]
  rw [pay8_eq]
  obtain ⟨a0, b0⟩ := idx8_0 t
  obtain ⟨a1, b1⟩ := idx8_1 t
  obtain ⟨a2, b2⟩ := idx8_2 t
  obtain ⟨a3, b3⟩ := idx8_3 t
  obtain ⟨a4, b4⟩ := idx8_4 t
  obtain ⟨a5, b5⟩ := idx8_5 t
  funext j
  obtain ⟨p, q, rfl⟩ : ∃ (p : Fin 5000) (q : Fin 64), j = ix2 p q := ⟨j 0, j 1, eq_ix2 j⟩
  have hi : ((cfg8.win 5).blk t).view.emb (ix2 p q)
      = ix2 ((((cfg8.win 5).blk t).view.emb (ix2 p q)) 0 : Fin 100000) q := by
    funext a
    match a with
    | ⟨0, _⟩ => rfl
    | ⟨1, _⟩ => exact Fin.ext (show win8_5.index t (1 : Fin 2) * 64 + 1 * q.val = q.val by omega)
  show Spec.finalize (N := 5000) (iblk8 V c 0 t) (iblk8 V c 1 t) (iblk8 V c 2 t) (Spec.rowOf (iblk8 V c 3 t))
      (Spec.rowOf (iblk8 V c 4 t)) (ix2 p q)
    = Spec.finalize (N := 100000) (V c (Pipeline.arrRef spec8 0)) (V c (Pipeline.arrRef spec8 1)) (V c (Pipeline.arrRef spec8 2))
        (fun j => V c (Pipeline.arrRef spec8 3) (ix2 (0 : Fin 1) (Spec.d0 j)))
        (fun j => V c (Pipeline.arrRef spec8 4) (ix2 (0 : Fin 1) (Spec.d0 j))) (((cfg8.win 5).blk t).view.emb (ix2 p q))
  rw [hi]
  refine finalize_rows8 _ _ _ _ _ _ _ _ _ _ p _ ?_ ?_ ?_ ?_ ?_ q
  · intro k
    show V c (Pipeline.arrRef spec8 0) (((cfg8.win 0).blk t).view.emb (ix2 p k)) = V c (Pipeline.arrRef spec8 0) _
    refine congrArg _ (funext fun a => Fin.ext ?_)
    match a with
    | ⟨0, _⟩ => show win8_0.index t (0 : Fin 2) * 5000 + 1 * p.val = win8_5.index t (0 : Fin 2) * 5000 + 1 * p.val; omega
    | ⟨1, _⟩ => show win8_0.index t (1 : Fin 2) * 64 + 1 * k.val = k.val; omega
  · intro k
    show V c (Pipeline.arrRef spec8 1) (((cfg8.win 1).blk t).view.emb (ix2 p k)) = V c (Pipeline.arrRef spec8 1) _
    refine congrArg _ (funext fun a => Fin.ext ?_)
    match a with
    | ⟨0, _⟩ => show win8_1.index t (0 : Fin 2) * 5000 + 1 * p.val = win8_5.index t (0 : Fin 2) * 5000 + 1 * p.val; omega
    | ⟨1, _⟩ => show win8_1.index t (1 : Fin 2) * 64 + 1 * k.val = k.val; omega
  · intro k
    show V c (Pipeline.arrRef spec8 2) (((cfg8.win 2).blk t).view.emb (ix2 p k)) = V c (Pipeline.arrRef spec8 2) _
    refine congrArg _ (funext fun a => Fin.ext ?_)
    match a with
    | ⟨0, _⟩ => show win8_2.index t (0 : Fin 2) * 5000 + 1 * p.val = win8_5.index t (0 : Fin 2) * 5000 + 1 * p.val; omega
    | ⟨1, _⟩ => show win8_2.index t (1 : Fin 2) * 64 + 1 * k.val = k.val; omega
  · intro k
    show V c (Pipeline.arrRef spec8 3) (((cfg8.win 3).blk t).view.emb (ix2 (0 : Fin 1) k)) = V c (Pipeline.arrRef spec8 3) _
    refine congrArg _ (funext fun a => Fin.ext ?_)
    match a with
    | ⟨0, _⟩ => show win8_3.index t (0 : Fin 2) * 1 + 1 * 0 = 0; omega
    | ⟨1, _⟩ => show win8_3.index t (1 : Fin 2) * 64 + 1 * k.val = k.val; omega
  · intro k
    show V c (Pipeline.arrRef spec8 4) (((cfg8.win 4).blk t).view.emb (ix2 (0 : Fin 1) k)) = V c (Pipeline.arrRef spec8 4) _
    refine congrArg _ (funext fun a => Fin.ext ?_)
    match a with
    | ⟨0, _⟩ => show win8_4.index t (0 : Fin 2) * 1 + 1 * 0 = 0; omega
    | ⟨1, _⟩ => show win8_4.index t (1 : Fin 2) * 64 + 1 * k.val = k.val; omega

/-- An index of the array is in point `t`'s block iff each coordinate is in the block's range on its axis. -/
theorem mem_blk8 (t : Fin cfg8.N) (i : S100000x64.Idx) :
    i ∈ ((cfg8.win 5).blk t).view.set ↔ ∀ a : Fin 2, win8_5.index t a * S5000x64.size a ≤ (i a).val
      ∧ (i a).val < win8_5.index t a * S5000x64.size a + S5000x64.size a := by
  show i ∈ ((View.whole main_v56).slice (win8_5.rect t)).set ↔ _
  rw [View.set_slice_whole, Rect.mem_set_unit]
  exact Iff.rfl

/-- Row `r` of the array lies in the block of point `r / 5000`. -/
theorem cover8 (i : S100000x64.Idx) :
    ∃ t : Fin cfg8.N, (cfg8.win 5).flush t = true ∧ i ∈ ((cfg8.win 5).blk t).view.set := by
  have hi0 : (i 0).val < 100000 := (i 0).isLt
  have hi1 : (i 1).val < 64 := (i 1).isLt
  have hN : cfg8.N = 20 := N_8
  have ht : (i 0).val / 5000 < cfg8.N := by rw [hN]; omega
  obtain ⟨a5, b5⟩ := idx8_5 ⟨(i 0).val / 5000, ht⟩
  refine ⟨⟨(i 0).val / 5000, ht⟩, flush8_5 _, ?_⟩
  rw [mem_blk8]
  intro a
  match a with
  | ⟨0, _⟩ =>
    show win8_5.index ⟨(i 0).val / 5000, ht⟩ (0 : Fin 2) * 5000 ≤ (i 0).val
      ∧ (i 0).val < win8_5.index ⟨(i 0).val / 5000, ht⟩ (0 : Fin 2) * 5000 + 5000
    rw [a5]
    show (i 0).val / 5000 * 5000 ≤ (i 0).val ∧ (i 0).val < (i 0).val / 5000 * 5000 + 5000
    omega
  | ⟨1, _⟩ =>
    show win8_5.index ⟨(i 0).val / 5000, ht⟩ (1 : Fin 2) * 64 ≤ (i 1).val
      ∧ (i 1).val < win8_5.index ⟨(i 0).val / 5000, ht⟩ (1 : Fin 2) * 64 + 64
    rw [b5]
    omega

/-- THE VALUE of the region: after its 20 points the result array is the finalize formula of the five input arrays as
    the region found them. -/
theorem value8 (c : Dev nD) :
    (dat8 (F := Ideal) V c).arrAt 5 cfg8.N
      = Spec.finalize (N := 100000) (V c (Pipeline.arrRef spec8 0)) (V c (Pipeline.arrRef spec8 1)) (V c (Pipeline.arrRef spec8 2))
          (fun j => V c (Pipeline.arrRef spec8 3) (ix2 (0 : Fin 1) (Spec.d0 j)))
          (fun j => V c (Pipeline.arrRef spec8 4) (ix2 (0 : Fin 1) (Spec.d0 j))) :=
  (dat8 V c).arrAt_eq_of_cover 5 _ (fun t _ => flushed8_eq V c t) cover8

end Cert.KernelIdeal.HandV
-- ==== Proof.KI.GlueL1b.lean ====
import proofs.«417395_j71579924955534_2_alg».proof.Proof.KI.GlueCarry
import proofs.«417395_j71579924955534_2_alg».proof.Proof.KI.V7
import proofs.«417395_j71579924955534_2_alg».proof.Proof.KI.V8
import proofs.«417395_j71579924955534_2_alg».proof.Proof.Spec
import proofs.«417395_j71579924955534_2_alg».proof.Proof.EdgeIdx
import proofs.«417395_j71579924955534_2_alg».proof.Proof.Math.Gather
import Idealize.ShloMosaic.Lib.ValueLayout
import Idealize.ShloMosaic.Lib.ValueIdx
import Idealize.ShloMosaic.Lib.StableHlo.Run

/-! # Layer 1, from the attention call's results to the layer's result

The message call turns the scores, the gathered source rows, the edge weights, the global maximum and the global sum into
the messages; the host sums the messages into their target nodes; the finalize call adds, to the layer's input, the
layernorm of the relu of the dense result plus the aggregate, with row 1 of the scale and of the shift arrays. -/

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The host stretch between the two calls, over any previous contents -/

/-- The aggregate array: the messages added, row by row, into a table of zeros at the target vector kept as a column. -/
theorem bk_agg_read_L1 (X : Valuation τ sig (Elt Ideal)) :
    (StableHlo.after hostOps8 X (Proc.devRef .tc main_v49) : S100000x64.Idx → EReal)
      = Host.scatterAdd (F := Ideal) scatter_S100000x64_S1250000x1_S1250000x64_1_0_0_1
          (broadcastInDim S100000x64 ![] bcast_S_S100000x64 (constant (F := Ideal) S_ .f32 0x00000000#32))
          (broadcastInDim S1250000x1 ![0] bcast_S1250000_S1250000x1_0 (X (Proc.devRef .tc main_v1) : S1250000.Idx → BitVec 32))
          (X (Proc.devRef .tc main_v46) : S1250000x64.Idx → EReal) := by
  after_results

/-- The scale row: a row of the scale argument, flattened, kept as a one-row array. -/
theorem bk_g_read_L1 (X : Valuation τ sig (Elt Ideal)) :
    (StableHlo.after hostOps8 X (Proc.devRef .tc main_v54) : S1x64.Idx → EReal)
      = shapeCast S1x64 (shapeCast S64 (extractStridedSlice S1x64 ![1, 0] (X (Proc.devRef .tc main_arg9) : S3x64.Idx → EReal)
          slices_S3x64_S1x64_1_0) shapeCasts_S1x64_S64) shapeCasts_S64_S1x64 := by
  after_results
  rfl

/-- The shift row, likewise. -/
theorem bk_b_read_L1 (X : Valuation τ sig (Elt Ideal)) :
    (StableHlo.after hostOps8 X (Proc.devRef .tc main_v55) : S1x64.Idx → EReal)
      = shapeCast S1x64 (shapeCast S64 (extractStridedSlice S1x64 ![1, 0] (X (Proc.devRef .tc main_arg10) : S3x64.Idx → EReal)
          slices_S3x64_S1x64_1_0) shapeCasts_S1x64_S64) shapeCasts_S64_S1x64 := by
  after_results
  rfl

/-- A row of a three-row array, flattened and kept as a one-row array, read along that row, is the row. -/
theorem bk_sel_row_L1 (B : S3x64.Idx → EReal) :
    (fun j : S64.Idx => shapeCast S1x64 (shapeCast S64 (extractStridedSlice S1x64 ![1, 0] B slices_S3x64_S1x64_1_0)
        shapeCasts_S1x64_S64) shapeCasts_S64_S1x64 (ix2 (0 : Fin 1) (Spec.d0 j))) = Spec.sel2 1 B := by
  funext j
  obtain ⟨q, rfl⟩ : ∃ q : Fin 64, j = ix1 q := ⟨j 0, eq_ix1 j⟩
  show shapeCast S1x64 _ shapeCasts_S64_S1x64 (ix2 (0 : Fin 1) q) = B (ix2 (1 : Fin 3) q)
  rw [shapeCast_a_1a_apply, shapeCast_1a_a_apply, slice2_axis0_apply 1 B _ (0 : Fin 1) q (1 : Fin 3) rfl]

/-! ## The layer's back half -/

/-- The messages: the message formula of the attention call's three results, the gathered source rows and the weight column. -/
theorem bk_msg_value_L1 (c : Dev nD) :
    W18 m c main_v46 = Spec.messageK (W17 m c main_v45_0) (W16 m c main_v39) (Spec.colOf (m ((c.tc : Thread nD τ).loc main_arg2)))
      (W17 m c main_v45_1) (W17 m c main_v45_2) := by
  have y1 : Wr17 m c (Pipeline.arrRef spec7 1) = W16 m c main_v39 := bk_hj_L1 m c
  have y2 : Wr17 m c (Pipeline.arrRef spec7 2) = Spec.colOf (m ((c.tc : Thread nD τ).loc main_arg2)) := bk_v4_L1 m c
  rw [W18_out, value7 (Wr17 m) c, y1, y2]

/-- The aggregate: the messages summed into their target nodes. -/
theorem bk_agg_value_L1 (c : Dev nD) (hin : Spec.InRange 100000 (m ((c.tc : Thread nD τ).loc main_arg1))) :
    W19 m c main_v49 = Spec.aggregate (Spec.messageK (W17 m c main_v45_0) (W16 m c main_v39)
      (Spec.colOf (m ((c.tc : Thread nD τ).loc main_arg2))) (W17 m c main_v45_1) (W17 m c main_v45_2))
      (Spec.endF (m ((c.tc : Thread nD τ).loc main_arg1)) hin 0) := by
  rw [show W19 m c main_v49 = _ from bk_agg_read_L1 (W18 m c), bk_msg_value_L1 m c]
  exact Spec.scatterAdd_eq_aggregate scatter_S100000x64_S1250000x1_S1250000x64_1_0_0_1 rfl rfl rfl rfl
    bcast_S_S100000x64 bcast_S1250000_S1250000x1_0 _ _ (Spec.endF _ hin 0) (bk_v1_L1 m c hin)

set_option maxHeartbeats 4000000 in
/-- THE BACK HALF OF LAYER 1. -/
theorem layer1_back (c : Dev nD) (hin : Spec.InRange 100000 (m ((c.tc : Thread nD τ).loc main_arg1))) :
    W20 m c main_v56 = Spec.finalize (W13 m c main_v37)
      (Spec.aggregate (Spec.messageK (W17 m c main_v45_0) (W16 m c main_v39) (Spec.colOf (m ((c.tc : Thread nD τ).loc main_arg2)))
        (W17 m c main_v45_1) (W17 m c main_v45_2)) (Spec.endF _ hin 0))
      (W11 m c main_v31) (Spec.sel2 1 (m ((c.tc : Thread nD τ).loc main_arg9))) (Spec.sel2 1 (m ((c.tc : Thread nD τ).loc main_arg10))) := by
  have x0 : Wr19 m c (Pipeline.arrRef spec8 0) = W13 m c main_v37 := bk_hl_L1 m c
  have x1 : Wr19 m c (Pipeline.arrRef spec8 1) = _ := bk_agg_value_L1 m c hin
  have x2 : Wr19 m c (Pipeline.arrRef spec8 2) = W11 m c main_v31 := bk_h_L1 m c
  have x3 : (fun j : S64.Idx => Wr19 m c (Pipeline.arrRef spec8 3) (ix2 (0 : Fin 1) (Spec.d0 j)))
      = Spec.sel2 1 (m ((c.tc : Thread nD τ).loc main_arg9)) := by
    rw [show Wr19 m c (Pipeline.arrRef spec8 3) = _ from bk_g_read_L1 (W18 m c), bk_arg9_L1 m c]
    exact bk_sel_row_L1 _
  have x4 : (fun j : S64.Idx => Wr19 m c (Pipeline.arrRef spec8 4) (ix2 (0 : Fin 1) (Spec.d0 j)))
      = Spec.sel2 1 (m ((c.tc : Thread nD τ).loc main_arg10)) := by
    rw [show Wr19 m c (Pipeline.arrRef spec8 4) = _ from bk_b_read_L1 (W18 m c), bk_arg10_L1 m c]
    exact bk_sel_row_L1 _
  rw [W20_out, value8 (Wr19 m) c, x0, x1, x2, x3, x4]

end Cert.KernelIdeal.HandV
-- ==== Proof.KI.V5.lean ====
/- The value of the dense call cc5__dense_kernel at the extended reals: the array its pipeline leaves is, index by
   index, the rows array times the weight plus the bias row. The payload at an index (the product's operand indices
   axis by axis, the contraction re-indexed by its one coordinate, the bias row broadcast along the rows), each
   window's block as a part of its array, what a point writes back, the cover (row r lies in block r / 5000). -/
import proofs.«417395_j71579924955534_2_alg».proof.Proof.KI.R5
import proofs.«417395_j71579924955534_2_alg».proof.Proof.Spec
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The product's operand indices, axis by axis -/

theorem lhs5_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs5_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs5_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs5_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## The payload at an index -/

/-- The body's payload at row p, column q of the block: the row of the first block against the column of the
    weight, plus the bias at the column. -/
theorem pay5_apply (x0 : Vec Ideal S5000x64 .f32) (x1 : Vec Ideal S64x64 .f32) (x2 : Vec Ideal S1x64 .f32) (p : Fin 5000) (q : Fin 64) :
    k5_pay1 x0 x1 x2 (ix2 p q) = (∑ k : Fin 64, x0 (ix2 p k) * x1 (ix2 k q)) + x2 (ix2 (0 : Fin 1) q) := by
  unfold k5_pay1
  simp only [shapeCast_self]
  rw [addf_apply]
  refine congrArg₂ (· + ·) ((Ideal.matmul_constant_zero_apply _ none _ _ _).trans ?_) ?_
  · rw [← Equiv.sum_comp (contrEquiv1 dot_S5000x64_S64x64_S5000x64_1_0_0_1_n_n 64 rfl rfl).symm]
    refine Finset.sum_congr rfl fun k _ => ?_
    have hk := contrEquiv1_symm_val dot_S5000x64_S64x64_S5000x64_1_0_0_1_n_n 64 rfl rfl k
    have el : dot_S5000x64_S64x64_S5000x64_1_0_0_1_n_n.lhsIdx (ix2 p q) ((contrEquiv1 dot_S5000x64_S64x64_S5000x64_1_0_0_1_n_n 64 rfl rfl).symm k) = ix2 p k :=
      funext fun a => Fin.ext (by
        match a with
        | ⟨0, _⟩ => exact lhs5_0 _ _
        | ⟨1, _⟩ => exact (lhs5_1 _ _).trans hk)
    have er : dot_S5000x64_S64x64_S5000x64_1_0_0_1_n_n.rhsIdx (ix2 p q) ((contrEquiv1 dot_S5000x64_S64x64_S5000x64_1_0_0_1_n_n 64 rfl rfl).symm k) = ix2 k q :=
      funext fun a => Fin.ext (by
        match a with
        | ⟨0, _⟩ => exact (rhs5_0 _ _).trans hk
        | ⟨1, _⟩ => exact rhs5_1 _ _)
    rw [el, er]
    rfl
  · exact broadcastTo_apply x2 _ (ix2 p q) (ix2 (0 : Fin 1) q) (fun a => by
      match a with
      | ⟨0, _⟩ => rfl
      | ⟨1, _⟩ => rfl)

/-! ## From the blocks to the array -/

theorem hz5 : (![0, 0] : Fin 2 → Nat) = fun _ => 0 := funext fun a => by fin_cases a <;> rfl

theorem N5 : cfg5.N = 20 := N_5

/-- The printed index maps over the grid: the rows window and the output window sit at block (t, 0); the weight and
    the bias stay at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The three arrays the region reads, at their literal shapes. -/
abbrev arr5_0 (c : Dev nD) : S100000x64.Idx → EReal := V c (Pipeline.arrRef spec5 0)
abbrev arr5_1 (c : Dev nD) : S64x64.Idx → EReal := V c (Pipeline.arrRef spec5 1)
abbrev arr5_2 (c : Dev nD) : S1x64.Idx → EReal := V c (Pipeline.arrRef spec5 2)

/-- Row p of block t, as a row of the whole array. -/
def rowAt5 (t : Fin cfg5.N) (p : Fin 5000) : Fin 100000 :=
  ⟨t.val * 5000 + p.val, by have h : t.val < 20 := lt_of_lt_of_eq t.isLt N5; have := p.isLt; omega⟩

/-- The rows block at point t is rows 5000 t … 5000 t + 4999 of the rows array. -/
theorem iblk5_0_apply (c : Dev nD) (t : Fin cfg5.N) (p : Fin 5000) (k : Fin 64) :
    (iblk5 V c 0 t : Vec Ideal S5000x64 .f32) (ix2 p k) = arr5_0 V c (ix2 (rowAt5 t p) k) := by
  obtain ⟨e00, e01, -⟩ := idx_facts5 t
  unfold iblk5
  rw [View.read_apply]
  have h : ((cfg5.win 0).blk t).view.emb (ix2 p k) = (ix2 (rowAt5 t p) k : S100000x64.Idx) := by
    funext a; apply Fin.ext
    match a with
    | ⟨0, _⟩ => show win5_0.index t (0 : Fin 2) * 5000 + 1 * p.val = t.val * 5000 + p.val; rw [e00]; omega
    | ⟨1, _⟩ => show win5_0.index t (1 : Fin 2) * 64 + 1 * k.val = k.val; rw [e01]; omega
  rw [h]
  rfl

/-- The weight block is the weight array. -/
theorem iblk5_1_apply (c : Dev nD) (t : Fin cfg5.N) (k : Fin 64) (q : Fin 64) :
    (iblk5 V c 1 t : Vec Ideal S64x64 .f32) (ix2 k q) = arr5_1 V c (ix2 k q) := by
  obtain ⟨-, -, e10, e11, -⟩ := idx_facts5 t
  unfold iblk5
  rw [View.read_apply]
  have h : ((cfg5.win 1).blk t).view.emb (ix2 k q) = (ix2 k q : S64x64.Idx) := by
    funext a; apply Fin.ext
    match a with
    | ⟨0, _⟩ => show win5_1.index t (0 : Fin 2) * 64 + 1 * k.val = k.val; rw [e10]; omega
    | ⟨1, _⟩ => show win5_1.index t (1 : Fin 2) * 64 + 1 * q.val = q.val; rw [e11]; omega
  rw [h]
  rfl

/-- The bias block is the bias row. -/
theorem iblk5_2_apply (c : Dev nD) (t : Fin cfg5.N) (q : Fin 64) :
    (iblk5 V c 2 t : Vec Ideal S1x64 .f32) (ix2 (0 : Fin 1) q) = arr5_2 V c (ix2 (0 : Fin 1) q) := by
  obtain ⟨-, -, -, -, e20, e21, -⟩ := idx_facts5 t
  unfold iblk5
  rw [View.read_apply]
  have h : ((cfg5.win 2).blk t).view.emb (ix2 (0 : Fin 1) q) = (ix2 (0 : Fin 1) q : S1x64.Idx) := by
    funext a; apply Fin.ext
    match a with
    | ⟨0, _⟩ => show win5_2.index t (0 : Fin 2) * 1 + 1 * (0 : Fin 1).val = (0 : Fin 1).val; rw [e20]; rfl
    | ⟨1, _⟩ => show win5_2.index t (1 : Fin 2) * 64 + 1 * q.val = q.val; rw [e21]; omega
  rw [h]
  rfl

/-- Where the output window's block at point t puts its row p, column q. -/
theorem emb5_3 (t : Fin cfg5.N) (p : Fin 5000) (q : Fin 64) :
    ((cfg5.win 3).blk t).view.emb (ix2 p q) = (ix2 (rowAt5 t p) q : S100000x64.Idx) := by
  obtain ⟨-, -, -, -, -, -, e30, e31⟩ := idx_facts5 t
  funext a; apply Fin.ext
  match a with
  | ⟨0, _⟩ => show win5_3.index t (0 : Fin 2) * 5000 + 1 * p.val = t.val * 5000 + p.val; rw [e30]; omega
  | ⟨1, _⟩ => show win5_3.index t (1 : Fin 2) * 64 + 1 * q.val = q.val; rw [e31]; omega

/-- The array the region leaves, as one function of the three arrays it reads. -/
abbrev G5 (c : Dev nD) : S100000x64.Idx → EReal :=
  Spec.dense (arr5_0 V c) (arr5_1 V c) (fun j => arr5_2 V c (ix2 (0 : Fin 1) (Spec.d0 j)))

/-- What point t writes back is block t of G5. -/
theorem flushed5_eq (c : Dev nD) (t : Fin cfg5.N) :
    (dat5 (F := Ideal) V c).flushed 3 t = ((cfg5.win 3).blk t).view.read (Elt Ideal) (G5 V c) := by
  show (cfg5.win 3).cut (grid5.coords t) ((dat5 V c).after 3 t) = _
  rw [after5_3]
  unfold out5_3
  rw [View.canon_unit_zero hz5]
  simp only [View.ld_unit_zero (S := S5000x64) hz5, View.ld_unit_zero (S := S64x64) hz5, View.ld_unit_zero (S := S1x64) hz5]
  funext y
  obtain ⟨p, q, rfl⟩ : ∃ (p : Fin 5000) (q : Fin 64), y = ix2 p q := ⟨y 0, y 1, eq_ix2 y⟩
  refine (pay5_apply _ _ _ p q).trans ?_
  rw [View.read_apply, emb5_3]
  show _ = (∑ k : Fin 64, arr5_0 V c (ix2 (rowAt5 t p) k) * arr5_1 V c (ix2 k q)) + arr5_2 V c (ix2 (0 : Fin 1) q)
  exact congrArg₂ (· + ·) (Finset.sum_congr rfl fun k _ => congrArg₂ (· * ·) (iblk5_0_apply V c t p k) (iblk5_1_apply V c t k q)) (iblk5_2_apply V c t q)

/-- An index of the array is in point t's block iff each coordinate is in the block's range on its axis. -/
theorem mem_blk5 (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v37).slice (win5_3.rect t)).set ↔ _
  rw [View.set_slice_whole, Rect.mem_set_unit]
  exact Iff.rfl

/-- Row r of the array lies in the block of point r / 5000. -/
theorem cover5 (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have ht : (i 0).val / 5000 < cfg5.N := by rw [N5]; omega
  obtain ⟨-, -, -, -, -, -, e30, e31⟩ := idx_facts5 ⟨(i 0).val / 5000, ht⟩
  refine ⟨⟨(i 0).val / 5000, ht⟩, flush5_3 _, ?_⟩
  rw [mem_blk5]
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win5_3.index ⟨(i 0).val / 5000, ht⟩ (1 : Fin 2) * 64 ≤ (i 1).val ∧ (i 1).val < win5_3.index ⟨(i 0).val / 5000, ht⟩ (1 : Fin 2) * 64 + 64
    rw [e31]; omega

/-- The array the pipeline leaves is the dense map of the three arrays it reads. -/
theorem value5 (c : Dev nD) : (dat5 (F := Ideal) V c).arrAt 3 cfg5.N
    = Spec.dense (V c (Pipeline.arrRef spec5 0)) (V c (Pipeline.arrRef spec5 1)) (fun j => V c (Pipeline.arrRef spec5 2) (ix2 (0 : Fin 1) (Spec.d0 j))) :=
  (dat5 V c).arrAt_eq_of_cover 3 (G5 V c) (fun t _ => flushed5_eq V c t) (cover5)

end Cert.KernelIdeal.HandV

end
-- ==== Proof.KI.GlueL1.lean ====
/-
  Layer 1 of the kernel program at the extended reals. The dense call's result is the layer's linear map of the
  layer's input; the two gathers hand the attention call the rows of that result at the edges' two endpoints; the
  attention call's scores are then the specification's scores; and the finalize call's result is the layer in the
  kernel's arrangement.
-/
import proofs.«417395_j71579924955534_2_alg».proof.Proof.KI.Chain
import proofs.«417395_j71579924955534_2_alg».proof.Proof.KI.GlueCarry
import proofs.«417395_j71579924955534_2_alg».proof.Proof.KI.GlueArgs
import proofs.«417395_j71579924955534_2_alg».proof.Proof.KI.GlueEdge
import proofs.«417395_j71579924955534_2_alg».proof.Proof.KI.GlueL1Host
import proofs.«417395_j71579924955534_2_alg».proof.Proof.KI.GlueTake
import proofs.«417395_j71579924955534_2_alg».proof.Proof.KI.GlueAttn6
import proofs.«417395_j71579924955534_2_alg».proof.Proof.KI.GlueL1b
import proofs.«417395_j71579924955534_2_alg».proof.Proof.KI.V5
import proofs.«417395_j71579924955534_2_alg».proof.Proof.EdgeIdx
import proofs.«417395_j71579924955534_2_alg».proof.Proof.Spec
import Mathlib.Tactic.NormNum

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## Across the dense call and the two gathers -/

/-- After the two gathers a buffer that the dense call's items and the gathers do not write is as the layer found it. -/
theorem fr_mid_L1 (c : Dev nD) (r : Ref sig .tc) (h2 : r ∉ hostOps5_W) (h3 : r ∉ ([main_v37] : List (Ref sig .tc)))
    (h4 : r ∉ hostOps6_W) (h5 : r ∉ hostOps6_1_W) : W15 m c r = W11 m c r :=
  (StableHlo.after_of_writes_sub hostOps6_1 _ hostOps6_1_writes h5 : W15 m c r = W14 m c r).trans
    ((StableHlo.after_of_writes_sub hostOps6 _ hostOps6_writes h4 : W14 m c r = W13 m c r).trans (bk_lo_L1 m c r h2 h3))

/-! ## The dense call -/

/-- The dense call's result is the layer's linear map of the layer's input. -/
theorem front_hl_L1 (c : Dev nD) :
    W13 m c main_v37 = Spec.dense (W11 m c main_v31) (Spec.sel3 1 (m ((c.tc : Thread nD τ).loc main_arg5)))
      (Spec.sel2 1 (m ((c.tc : Thread nD τ).loc main_arg6))) := by
  have e0 : Wr12 m c (Pipeline.arrRef spec5 0) = W11 m c main_v31 :=
    StableHlo.after_of_writes_sub hostOps5 _ hostOps5_writes (by decide)
  have e1 : Wr12 m c (Pipeline.arrRef spec5 1) = Spec.sel3 1 (m ((c.tc : Thread nD τ).loc main_arg5)) :=
    (ops5_v33 (W11 m c)).trans (by rw [fr_arg5_in_L1 m c])
  have e2 : (fun j => Wr12 m c (Pipeline.arrRef spec5 2) (ix2 (0 : Fin 1) (Spec.d0 j)))
      = Spec.sel2 1 (m ((c.tc : Thread nD τ).loc main_arg6)) :=
    (ops5_v36 (W11 m c)).trans (by rw [fr_arg6_in_L1 m c])
  rw [W13_out, value5, e0, e1, e2]

/-! ## The two gathers -/

/-- Before the first gather the target vector has at edge `e` the signed value of the edge's first endpoint. -/
theorem fr_v1_L1 (c : Dev nD) (hin : Spec.InRange 100000 (m ((c.tc : Thread nD τ).loc main_arg1))) (e : Fin 1250000) :
    ((W13 m c main_v1 : S1250000.Idx → BitVec 32) (ix1 e)).toInt
      = ((Spec.endF (m ((c.tc : Thread nD τ).loc main_arg1)) hin 0 e).val : ℤ) := by
  rw [show W13 m c main_v1 = W1 m c main_v1 from (bk_lo_L1 m c main_v1 (by decide) (by decide)).trans (bk_v1_in_L1 m c)]
  exact bk_v1_W1 m c hin e

/-- Before the second gather the source vector has at edge `e` the signed value of the edge's second endpoint. -/
theorem fr_v3_L1 (c : Dev nD) (hin : Spec.InRange 100000 (m ((c.tc : Thread nD τ).loc main_arg1))) (e : Fin 1250000) :
    ((W14 m c main_v3 : S1250000.Idx → BitVec 32) (ix1 e)).toInt
      = ((Spec.endF (m ((c.tc : Thread nD τ).loc main_arg1)) hin 1 e).val : ℤ) := by
  have s : W14 m c main_v3 = W1 m c main_v3 :=
    (StableHlo.after_of_writes_sub hostOps6 _ hostOps6_writes (by decide) : W14 m c main_v3 = W13 m c main_v3).trans
      ((bk_lo_L1 m c main_v3 (by decide) (by decide)).trans (fr_v3_in_L1 m c))
  rw [s, show (W1 m c main_v3 : S1250000.Idx → BitVec 32) (ix1 e) = _ from ops0_v3 (W0 m c) e]
  exact Spec.endF_spec _ hin 1 e

/-- The attention call's first window: the dense result's rows at the edges' first endpoints. -/
theorem front_hi_L1 (c : Dev nD) (hin : Spec.InRange 100000 (m ((c.tc : Thread nD τ).loc main_arg1))) :
    W16 m c main_v38 = Spec.rowsOf (W13 m c main_v37) (Spec.endF (m ((c.tc : Thread nD τ).loc main_arg1)) hin 0) :=
  ((StableHlo.after_of_writes_sub hostOps6_2 _ hostOps6_2_writes (by decide) : W16 m c main_v38 = W15 m c main_v38).trans
    (StableHlo.after_of_writes_sub hostOps6_1 _ hostOps6_1_writes (by decide) : W15 m c main_v38 = W14 m c main_v38)).trans
    (take_rows1 (W13 m c) _ (fr_v1_L1 m c hin))

/-- The attention call's second window: the dense result's rows at the edges' second endpoints. -/
theorem front_hj_L1 (c : Dev nD) (hin : Spec.InRange 100000 (m ((c.tc : Thread nD τ).loc main_arg1))) :
    W16 m c main_v39 = Spec.rowsOf (W13 m c main_v37) (Spec.endF (m ((c.tc : Thread nD τ).loc main_arg1)) hin 1) := by
  have s : W16 m c main_v39 = W15 m c main_v39 := StableHlo.after_of_writes_sub hostOps6_2 _ hostOps6_2_writes (by decide)
  have t : W14 m c main_v37 = W13 m c main_v37 := StableHlo.after_of_writes_sub hostOps6 _ hostOps6_writes (by decide)
  rw [s, ← t]
  exact take_cols1 (W14 m c) _ (fr_v3_L1 m c hin)

/-! ## The attention vector and bias -/

theorem front_aw_L1 (c : Dev nD) : W16 m c main_v41 = Spec.sel3 1 (m ((c.tc : Thread nD τ).loc main_arg7)) :=
  (ops6_2_v41 (W15 m c)).trans
    (by rw [(fr_mid_L1 m c main_arg7 (by decide) (by decide) (by decide) (by decide)).trans (fr_arg7_in_L1 m c)])

theorem front_ab_L1 (c : Dev nD) : Spec.rowOf (W16 m c main_v44) = Spec.sel2 1 (m ((c.tc : Thread nD τ).loc main_arg8)) :=
  (ops6_2_v44 (W15 m c)).trans
    (by rw [(fr_mid_L1 m c main_arg8 (by decide) (by decide) (by decide) (by decide)).trans (fr_arg8_in_L1 m c)])

/-! ## The scores, and the layer -/

/-- The edges' scores the attention call computes are the specification's, of the dense result. -/
theorem front_s_L1 (c : Dev nD) (hin : Spec.InRange 100000 (m ((c.tc : Thread nD τ).loc main_arg1))) :
    scores6 (Wr16 m) c
      = Spec.score (Spec.rowsOf (W13 m c main_v37) (Spec.endF (m ((c.tc : Thread nD τ).loc main_arg1)) hin 0))
          (Spec.rowsOf (W13 m c main_v37) (Spec.endF (m ((c.tc : Thread nD τ).loc main_arg1)) hin 1))
          (Spec.sel3 1 (m ((c.tc : Thread nD τ).loc main_arg7))) (Spec.sel2 1 (m ((c.tc : Thread nD τ).loc main_arg8))) := by
  rw [scores6_W16, front_hi_L1 m c hin, front_hj_L1 m c hin, front_aw_L1, front_ab_L1]

/-- LAYER 1: the finalize call's result is the layer, in the kernel's arrangement, of the layer's input and of the
    launch contents of the argument arrays. -/
theorem layer1_value (c : Dev nD) (hin : Spec.InRange 100000 (m ((c.tc : Thread nD τ).loc main_arg1))) :
    W20 m c main_v56 = Spec.layerK (by norm_num : 250 * 5000 = 1250000)
      (Spec.endF (m ((c.tc : Thread nD τ).loc main_arg1)) hin 0) (Spec.endF (m ((c.tc : Thread nD τ).loc main_arg1)) hin 1)
      (m ((c.tc : Thread nD τ).loc main_arg2)) (W11 m c main_v31)
      (Spec.sel3 1 (m ((c.tc : Thread nD τ).loc main_arg5))) (Spec.sel2 1 (m ((c.tc : Thread nD τ).loc main_arg6)))
      (Spec.sel3 1 (m ((c.tc : Thread nD τ).loc main_arg7))) (Spec.sel2 1 (m ((c.tc : Thread nD τ).loc main_arg8)))
      (Spec.sel2 1 (m ((c.tc : Thread nD τ).loc main_arg9))) (Spec.sel2 1 (m ((c.tc : Thread nD τ).loc main_arg10))) := by
  rw [layer1_back m c hin, attn6_out0, attn6_out1, attn6_out2, front_s_L1 m c hin, front_hj_L1 m c hin, front_hl_L1 m c]
  rfl

end Cert.KernelIdeal.HandV

end
-- ==== Proof.KI.GlueL2Host.lean ====
/-
  The host stretches of layer 2 read at the buffers the kernel regions take, over ANY contents on entry: slices of the
  stacked weight arrays as the specification's layer selections, one per window of the dense call and of the attention call.
-/
import proofs.«417395_j71579924955534_2_alg».proof.Proof.Gen.KernelIdeal.Launch
import proofs.«417395_j71579924955534_2_alg».proof.Proof.Spec
import proofs.«417395_j71579924955534_2_alg».proof.Proof.KI.GlueLayout
import Idealize.ShloMosaic.Lib.ValueLayout

set_option maxRecDepth 16384

noncomputable section

namespace Cert.KernelIdeal.HandV

open Cert.KernelIdeal Cert.KernelIdeal.Gen
open Idealize.ShloMosaic Idealize.ShloMosaic.TcCoe Idealize.ShloMosaic.ValueIdx
open Idealize.ShloMosaic.StableHlo

variable (X : Valuation τ sig (Elt Ideal))

/-- The layer's weight matrix. -/
theorem ops9_v58 :
    (StableHlo.after hostOps9 X (Proc.devRef .tc main_v58) : S64x64.Idx → EReal)
      = Spec.sel3 2 (X (Proc.devRef .tc main_arg5) : S3x64x64.Idx → EReal) := by
  after_results
  funext j
  obtain ⟨p, q, rfl⟩ : ∃ (p : Fin 64) (q : Fin 64), j = ix2 p q := ⟨j 0, j 1, eq_ix2 j⟩
  show shapeCast S64x64 (extractStridedSlice S1x64x64 ![2, 0, 0] (X (Proc.devRef .tc main_arg5)) slices_S3x64x64_S1x64x64_2_0_0)
      shapeCasts_S1x64x64_S64x64 (ix2 p q) = _
  rw [shapeCast_1ab_ab_apply, glue_slice3_layer_apply 2 (2 : Fin 3) rfl]
  rfl

/-- The layer's bias, kept as a one-row matrix. -/
theorem ops9_v61 :
    (fun j : S64.Idx => (StableHlo.after hostOps9 X (Proc.devRef .tc main_v61) : S1x64.Idx → EReal) (ix2 (0 : Fin 1) (Spec.d0 j)))
      = Spec.sel2 2 (X (Proc.devRef .tc main_arg6) : S3x64.Idx → EReal) := by
  after_results
  funext j
  show shapeCast S1x64 (shapeCast S64 (extractStridedSlice S1x64 ![2, 0] (X (Proc.devRef .tc main_arg6)) slices_S3x64_S1x64_2_0)
      shapeCasts_S1x64_S64) shapeCasts_S64_S1x64 (ix2 (0 : Fin 1) (Spec.d0 j)) = _
  rw [shapeCast_a_1a_apply, shapeCast_1a_a_apply]
  exact slice2_axis0_apply 2 _ _ (0 : Fin 1) _ (2 : Fin 3) rfl

/-- Layer 2's attention vector. -/
theorem ops10_2_v66 :
    (StableHlo.after hostOps10_2 X (Proc.devRef .tc main_v66) : S128x1.Idx → EReal)
      = Spec.sel3 2 (X (Proc.devRef .tc main_arg7) : S3x128x1.Idx → EReal) := by
  after_results
  funext j
  obtain ⟨p, q, rfl⟩ : ∃ (p : Fin 128) (q : Fin 1), j = ix2 p q := ⟨j 0, j 1, eq_ix2 j⟩
  show shapeCast S128x1 (extractStridedSlice S1x128x1 ![2, 0, 0] (X (Proc.devRef .tc main_arg7)) slices_S3x128x1_S1x128x1_2_0_0)
      shapeCasts_S1x128x1_S128x1 (ix2 p q) = _
  rw [shapeCast_1ab_ab_apply, glue_slice3_layer_apply 2 (2 : Fin 3) rfl]
  rfl

/-- Layer 2's attention bias, kept as a one-entry matrix. -/
theorem ops10_2_v69 :
    Spec.rowOf (StableHlo.after hostOps10_2 X (Proc.devRef .tc main_v69) : S1x1.Idx → EReal)
      = Spec.sel2 2 (X (Proc.devRef .tc main_arg8) : S3x1.Idx → EReal) := by
  after_results
  funext j
  show shapeCast S1x1 (shapeCast S1 (extractStridedSlice S1x1 ![2, 0] (X (Proc.devRef .tc main_arg8)) slices_S3x1_S1x1_2_0)
      shapeCasts_S1x1_S1) shapeCasts_S1_S1x1 (ix2 (0 : Fin 1) (Spec.d0 j)) = _
  rw [shapeCast_a_1a_apply, shapeCast_1a_a_apply]
  exact slice2_axis0_apply 2 _ _ (0 : Fin 1) _ (2 : Fin 3) rfl

end Cert.KernelIdeal.HandV

end
-- ==== Proof.KI.P10.lean ====
/- The attention-score call's pieces named: what each control case leaves in the score window's buffer, in the two
   scratch buffers and (at the last point) in the two one-word output windows, as the body's payloads of the loaded
   blocks and of what the scratch held. Generic in the float family. -/
import proofs.«417395_j71579924955534_2_alg».proof.Proof.KI.R10
import Idealize.ShloMosaic.Lib.Pipeline.Value

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz10 : (![0, 0] : Fin 2 → Nat) = fun _ => 0 := funext fun a => by fin_cases a <;> rfl

/-- At the first point the score window's buffer is left at the block's scores. -/
theorem out10_A_4_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) :
    out10_A_4 c i arg1 harg1 arg2 harg2 arg3 harg3 arg4 harg4 arg5 harg5 arg6 harg6 arg7 harg7 arg8 harg8 arg9 harg9 hc0 hc1 x0 x1 x2 x3 = k10_pay5 x0 x1 x2 x3 := by
  unfold out10_A_4
  rw [View.read_writes_eq_canon _ _ _ (cover10_A_4 c i arg1 harg1 arg2 harg2 arg3 harg3 arg4 harg4 arg5 harg5 arg6 harg6 arg7 harg7 arg8 harg8 arg9 harg9 hc0 hc1 x0 x1 x2 x3)]
  unfold kernelRun10_A
  dsimp only
  sl_unfold_words
  rw [View.canon_cons_unit_zero (S := S5000x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At the first point the running maximum's scratch is left at the new maximum (over the reset value). -/
theorem sout10_A_0_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) :
    sout10_A_0 c i arg1 harg1 arg2 harg2 arg3 harg3 arg4 harg4 arg5 harg5 arg6 harg6 arg7 harg7 arg8 harg8 arg9 harg9 hc0 hc1 x0 x1 x2 x3 = k10_pay2 (k10_pay6 x0 x1 x2 x3 (k10_pay3 (F := F))) := by
  unfold sout10_A_0
  rw [View.read_writes_eq_canon _ _ _ (scover10_A_0 c i arg1 harg1 arg2 harg2 arg3 harg3 arg4 harg4 arg5 harg5 arg6 harg6 arg7 harg7 arg8 harg8 arg9 harg9 hc0 hc1 x0 x1 x2 x3)]
  unfold kernelRun10_A
  dsimp only
  sl_unfold_words
  rw [View.canon_cons_unit_zero (S := S1x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At the first point the running sum's scratch is left at the new rescaled sum (over the reset values). -/
theorem sout10_A_1_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond10_0 i) (hc1 : ¬cond10_1 i)
    (x0 : Vec F S5000x64 .f32) (x1 : Vec F S5000x64 .f32) (x2 : Vec F S128x1 .f32) (x3 : Vec F S1x1 .f32) :
    sout10_A_1 c i arg1 harg1 arg2 harg2 arg3 harg3 arg4 harg4 arg5 harg5 arg6 harg6 arg7 harg7 arg8 harg8 arg9 harg9 hc0 hc1 x0 x1 x2 x3 = k10_pay1 (k10_pay5 x0 x1 x2 x3) (k10_pay7 x0 x1 x2 x3 (k10_pay3 (F := F)) (k10_pay3 (F := F))) (k10_pay8 x0 x1 x2 x3 (k10_pay3 (F := F))) (k10_pay4 (F := F)) := by
  unfold sout10_A_1
  rw [View.read_writes_eq_canon _ _ _ (scover10_A_1 c i arg1 harg1 arg2 harg2 arg3 harg3 arg4 harg4 arg5 harg5 arg6 harg6 arg7 harg7 arg8 harg8 arg9 harg9 hc0 hc1 x0 x1 x2 x3)]
  unfold kernelRun10_A
  dsimp only
  sl_unfold_words
  rw [View.canon_cons_unit_zero (S := S1x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At a middle point the score window's buffer is left at the block's scores. -/
theorem out10_B_4_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    out10_B_4 c i arg1 harg1 arg2 harg2 arg3 harg3 arg4 harg4 arg5 harg5 arg6 harg6 arg7 harg7 arg8 harg8 arg9 harg9 hc0 hc1 x0 x1 x2 x3 xs0 xs1 = k10_pay5 x0 x1 x2 x3 := by
  unfold out10_B_4
  rw [View.read_writes_eq_canon _ _ _ (cover10_B_4 c i arg1 harg1 arg2 harg2 arg3 harg3 arg4 harg4 arg5 harg5 arg6 harg6 arg7 harg7 arg8 harg8 arg9 harg9 hc0 hc1 x0 x1 x2 x3 xs0 xs1)]
  unfold kernelRun10_B
  dsimp only
  sl_unfold_words
  rw [View.canon_cons_unit_zero (S := S5000x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At a middle point the running maximum's scratch is left at the new maximum (over what the point before left). -/
theorem sout10_B_0_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    sout10_B_0 c i arg1 harg1 arg2 harg2 arg3 harg3 arg4 harg4 arg5 harg5 arg6 harg6 arg7 harg7 arg8 harg8 arg9 harg9 hc0 hc1 x0 x1 x2 x3 xs0 xs1 = k10_pay2 (k10_pay6 x0 x1 x2 x3 xs0) := by
  unfold sout10_B_0
  rw [View.read_writes_eq_canon _ _ _ (scover10_B_0 c i arg1 harg1 arg2 harg2 arg3 harg3 arg4 harg4 arg5 harg5 arg6 harg6 arg7 harg7 arg8 harg8 arg9 harg9 hc0 hc1 x0 x1 x2 x3 xs0 xs1)]
  unfold kernelRun10_B
  dsimp only
  sl_unfold_words
  rw [View.canon_cons_unit_zero (S := S1x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At a middle point the running sum's scratch is left at the new rescaled sum (over what the point before left). -/
theorem sout10_B_1_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : ¬cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    sout10_B_1 c i arg1 harg1 arg2 harg2 arg3 harg3 arg4 harg4 arg5 harg5 arg6 harg6 arg7 harg7 arg8 harg8 arg9 harg9 hc0 hc1 x0 x1 x2 x3 xs0 xs1 = k10_pay1 (k10_pay5 x0 x1 x2 x3) (k10_pay7 x0 x1 x2 x3 xs0 xs0) (k10_pay8 x0 x1 x2 x3 xs0) xs1 := by
  unfold sout10_B_1
  rw [View.read_writes_eq_canon _ _ _ (scover10_B_1 c i arg1 harg1 arg2 harg2 arg3 harg3 arg4 harg4 arg5 harg5 arg6 harg6 arg7 harg7 arg8 harg8 arg9 harg9 hc0 hc1 x0 x1 x2 x3 xs0 xs1)]
  unfold kernelRun10_B
  dsimp only
  sl_unfold_words
  rw [View.canon_cons_unit_zero (S := S1x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At the last point the score window's buffer is left at the block's scores. -/
theorem out10_C_4_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    out10_C_4 c i arg1 harg1 arg2 harg2 arg3 harg3 arg4 harg4 arg5 harg5 arg6 harg6 arg7 harg7 arg8 harg8 arg9 harg9 hc0 hc1 x0 x1 x2 x3 xs0 xs1 = k10_pay5 x0 x1 x2 x3 := by
  unfold out10_C_4
  rw [View.read_writes_eq_canon _ _ _ (cover10_C_4 c i arg1 harg1 arg2 harg2 arg3 harg3 arg4 harg4 arg5 harg5 arg6 harg6 arg7 harg7 arg8 harg8 arg9 harg9 hc0 hc1 x0 x1 x2 x3 xs0 xs1)]
  unfold kernelRun10_C
  dsimp only
  sl_unfold_words
  rw [View.canon_cons_unit_zero (S := S5000x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At the last point the running maximum's scratch is left at the new maximum (over what the point before left). -/
theorem sout10_C_0_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    sout10_C_0 c i arg1 harg1 arg2 harg2 arg3 harg3 arg4 harg4 arg5 harg5 arg6 harg6 arg7 harg7 arg8 harg8 arg9 harg9 hc0 hc1 x0 x1 x2 x3 xs0 xs1 = k10_pay2 (k10_pay6 x0 x1 x2 x3 xs0) := by
  unfold sout10_C_0
  rw [View.read_writes_eq_canon _ _ _ (scover10_C_0 c i arg1 harg1 arg2 harg2 arg3 harg3 arg4 harg4 arg5 harg5 arg6 harg6 arg7 harg7 arg8 harg8 arg9 harg9 hc0 hc1 x0 x1 x2 x3 xs0 xs1)]
  unfold kernelRun10_C
  dsimp only
  sl_unfold_words
  rw [View.canon_cons_unit_zero (S := S1x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At the last point the running sum's scratch is left at the new rescaled sum (over what the point before left). -/
theorem sout10_C_1_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    sout10_C_1 c i arg1 harg1 arg2 harg2 arg3 harg3 arg4 harg4 arg5 harg5 arg6 harg6 arg7 harg7 arg8 harg8 arg9 harg9 hc0 hc1 x0 x1 x2 x3 xs0 xs1 = k10_pay1 (k10_pay5 x0 x1 x2 x3) (k10_pay7 x0 x1 x2 x3 xs0 xs0) (k10_pay8 x0 x1 x2 x3 xs0) xs1 := by
  unfold sout10_C_1
  rw [View.read_writes_eq_canon _ _ _ (scover10_C_1 c i arg1 harg1 arg2 harg2 arg3 harg3 arg4 harg4 arg5 harg5 arg6 harg6 arg7 harg7 arg8 harg8 arg9 harg9 hc0 hc1 x0 x1 x2 x3 xs0 xs1)]
  unfold kernelRun10_C
  dsimp only
  sl_unfold_words
  rw [View.canon_cons_unit_zero (S := S1x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At the last point the maximum's output window is left at the new running maximum. -/
theorem out10_C_5_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    out10_C_5 c i arg1 harg1 arg2 harg2 arg3 harg3 arg4 harg4 arg5 harg5 arg6 harg6 arg7 harg7 arg8 harg8 arg9 harg9 hc0 hc1 x0 x1 x2 x3 xs0 xs1 = k10_pay2 (k10_pay6 x0 x1 x2 x3 xs0) := by
  unfold out10_C_5
  rw [View.read_writes_eq_canon _ _ _ (cover10_C_5 c i arg1 harg1 arg2 harg2 arg3 harg3 arg4 harg4 arg5 harg5 arg6 harg6 arg7 harg7 arg8 harg8 arg9 harg9 hc0 hc1 x0 x1 x2 x3 xs0 xs1)]
  unfold kernelRun10_C
  dsimp only
  sl_unfold_words
  rw [View.canon_cons_unit_zero (S := S1x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

/-- At the last point the sum's output window is left at the new running sum. -/
theorem out10_C_6_eq (c : Dev nD) (i : grid10.Coords) (arg1 : Memref sig .tc .vmem S5000x64 .f32) (harg1 : arg1.IsWhole) (arg2 : Memref sig .tc .vmem S5000x64 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S5000x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond10_0 i) (hc1 : cond10_1 i)
    (x0 : Vec F S5000x64 .f32) (x1 : Vec F S5000x64 .f32) (x2 : Vec F S128x1 .f32) (x3 : Vec F S1x1 .f32) (xs0 : Vec F S1x1 .f32) (xs1 : Vec F S1x1 .f32) :
    out10_C_6 c i arg1 harg1 arg2 harg2 arg3 harg3 arg4 harg4 arg5 harg5 arg6 harg6 arg7 harg7 arg8 harg8 arg9 harg9 hc0 hc1 x0 x1 x2 x3 xs0 xs1 = k10_pay1 (k10_pay5 x0 x1 x2 x3) (k10_pay7 x0 x1 x2 x3 xs0 xs0) (k10_pay8 x0 x1 x2 x3 xs0) xs1 := by
  unfold out10_C_6
  rw [View.read_writes_eq_canon _ _ _ (cover10_C_6 c i arg1 harg1 arg2 harg2 arg3 harg3 arg4 harg4 arg5 harg5 arg6 harg6 arg7 harg7 arg8 harg8 arg9 harg9 hc0 hc1 x0 x1 x2 x3 xs0 xs1)]
  unfold kernelRun10_C
  dsimp only
  sl_unfold_words
  rw [View.canon_cons_unit_zero (S := S1x1) hz10]
  simp only [View.readAt_eq_ld, harg1.read_unread, harg2.read_unread, harg3.read_unread, harg4.read_unread, harg8.read_unread, harg9.read_unread, View.ld_unit_zero (S := S5000x64) hz10, View.ld_unit_zero (S := S128x1) hz10, View.ld_unit_zero (S := S1x1) hz10, View.readCov_unit_zero (S := S1x1) _ hz10]

end Cert.KernelIdeal.Hand

end
-- ==== Proof.KI.V10Pay.lean ====
/- The attention-score body's payloads at the extended reals, at an index: the block's 5000 leaky-relu scores, the new
   running maximum, the rescaling factor, and the new running sum; the reset values. Pure functions of the loaded
   blocks, no memory in sight. -/
import proofs.«417395_j71579924955534_2_alg».proof.Proof.Gen.KernelIdeal.Skeleton
import proofs.«417395_j71579924955534_2_alg».proof.Proof.Spec
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## Maxima -/

/-- The fold of max from b over a finite set is the maximum of b and the set's supremum. -/
theorem fold_max_eq10 {ι : Type} (S : Finset ι) (b : EReal) (f : ι → EReal) :
    S.fold max b f = max b (S.sup f) := by
  classical
  induction S using Finset.induction_on with
  | empty => simp
  | insert a S ha ih =>
    rw [Finset.fold_insert ha, ih, Finset.sup_insert]
    show max (f a) (max b (S.sup f)) = max b (max (f a) (S.sup f))
    exact max_left_comm _ _ _

/-- The pattern of minus infinity reads as the bottom, the slope's pattern is the spec's slope. -/
theorem ofBits_ninf10 : Ideal.ofBits .f32 0xFF800000#32 = ⊥ := by simp [Ideal.ofBits, Ideal.ieee]

/-! ## The product's operand indices, axis by axis -/

theorem lhs10_0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl
theorem lhs10_1 (i : S5000x1.Idx) (q : dot_S5000x64_S64x1_S5000x1_1_0_0_1_n_n.contr.Idx) : (dot_S5000x64_S64x1_S5000x1_1_0_0_1_n_n.lhsIdx i q 1).val = (q ⟨0, by decide⟩).val :=
  dot_S5000x64_S64x1_S5000x1_1_0_0_1_n_n.lhsIdx_val_of_single rfl i q
theorem rhs10_0 (i : S5000x1.Idx) (q : dot_S5000x64_S64x1_S5000x1_1_0_0_1_n_n.contr.Idx) : (dot_S5000x64_S64x1_S5000x1_1_0_0_1_n_n.rhsIdx i q 0).val = (q ⟨0, by decide⟩).val :=
  dot_S5000x64_S64x1_S5000x1_1_0_0_1_n_n.rhsIdx_val_of_single rfl i q
theorem rhs10_1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- One of the body's two products at row p: the row of the feature block against a 64-row slice of the weight. -/
theorem half10 (x : Vec Ideal S5000x64 .f32) (w : FVec Ideal S64x1 .bf16) (p : Fin 5000) :
    matmul dot_S5000x64_S64x1_S5000x1_1_0_0_1_n_n none (truncf .bf16 x bitsLt_bf16_f32) w (constant S5000x1 .f32 0x00000000#32) (ix2 p (0 : Fin 1))
      = ∑ k : Fin 64, x (ix2 p k) * w (ix2 k (0 : Fin 1)) := by
  refine (Ideal.matmul_constant_zero_apply _ none _ _ _).trans ?_
  rw [← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p (0 : Fin 1)) ((contrEquiv1 dot_S5000x64_S64x1_S5000x1_1_0_0_1_n_n 64 rfl rfl).symm k) = ix2 p k :=
    funext fun a => Fin.ext (by
      match a with
      | ⟨0, _⟩ => exact lhs10_0 _ _
      | ⟨1, _⟩ => exact (lhs10_1 _ _).trans hk)
  have er : dot_S5000x64_S64x1_S5000x1_1_0_0_1_n_n.rhsIdx (ix2 p (0 : Fin 1)) ((contrEquiv1 dot_S5000x64_S64x1_S5000x1_1_0_0_1_n_n 64 rfl rfl).symm k) = ix2 k (0 : Fin 1) :=
    funext fun a => Fin.ext (by
      match a with
      | ⟨0, _⟩ => exact (rhs10_0 _ _).trans hk
      | ⟨1, _⟩ => exact rhs10_1 _ _)
  rw [el, er]
  rfl

/-! ## The payloads at an index -/

/-- The leaky relu as the body computes it (a comparison against the zero word, a select). -/
theorem leaky10 (x : EReal) :
    Scalar.select (FloatOps.cmpf (F := Ideal) (φ := .f32) .oge x (Ideal.ofBits .f32 0x00000000#32)) x (Ideal.ofBits .f32 0x3C23D70A#32 * x) = Spec.leaky x := by
  rw [Ideal.cmpf_def, Ideal.ofBits_zero_f32]
  unfold Ideal.cmp Scalar.select Spec.leaky Spec.slope
  by_cases h : (0 : EReal) ≤ x
  · simp [h]
  · simp [h]

/-- The block's score at row p: the two halves of the weight against the two feature rows, plus the bias, through the
    leaky relu. -/
theorem pay5_apply10 (x0 x1 : Vec Ideal S5000x64 .f32) (x2 : Vec Ideal S128x1 .f32) (x3 : Vec Ideal S1x1 .f32) (p : Fin 5000) :
    k10_pay5 x0 x1 x2 x3 (ix2 p (0 : Fin 1))
      = Spec.leaky (((∑ k : Fin 64, x0 (ix2 p k) * x2 (ix2 (Fin.castLE (by omega) k : Fin 128) (0 : Fin 1)))
          + (∑ k : Fin 64, x1 (ix2 p k) * x2 (ix2 (⟨64 + k.val, by omega⟩ : Fin 128) (0 : Fin 1))))
        + x3 (ix2 (0 : Fin 1) (0 : Fin 1))) := by
  unfold k10_pay5
  simp only [shapeCast_self]
  rw [select_apply, cmpf_apply, mulf_apply, broadcast_apply, broadcast_apply]
  refine (leaky10 _).trans (congrArg Spec.leaky ?_)
  rw [addf_apply, addf_apply]
  refine congrArg₂ (· + ·) (congrArg₂ (· + ·) ((half10 _ _ p).trans ?_) ((half10 _ _ p).trans ?_)) ?_
  · refine Finset.sum_congr rfl fun k _ => congrArg (x0 (ix2 p k) * ·) ?_
    rw [truncf_apply]
    exact extractStridedSlice_apply _ x2 _ (ix2 k (0 : Fin 1)) (ix2 (Fin.castLE (by omega) k : Fin 128) (0 : Fin 1)) (fun a => by
      match a with
      | ⟨0, _⟩ => show k.val = 0 + k.val; omega
      | ⟨1, _⟩ => rfl)
  · refine Finset.sum_congr rfl fun k _ => congrArg (x1 (ix2 p k) * ·) ?_
    rw [truncf_apply]
    exact extractStridedSlice_apply _ x2 _ (ix2 k (0 : Fin 1)) (ix2 (⟨64 + k.val, by omega⟩ : Fin 128) (0 : Fin 1)) (fun a => by
      match a with
      | ⟨0, _⟩ => rfl
      | ⟨1, _⟩ => rfl)
  · exact broadcastTo_apply x3 _ (ix2 p (0 : Fin 1)) (ix2 (0 : Fin 1) (0 : Fin 1)) (fun a => by
      match a with
      | ⟨0, _⟩ => rfl
      | ⟨1, _⟩ => rfl)

/-- Every index of a one-word array is its one index. -/
theorem oneIdx10 (j : S1x1.Idx) : j = ix2 (0 : Fin 1) (0 : Fin 1) :=
  funext fun a => Fin.ext (by
    match a with
    | ⟨0, _⟩ => have h : (j 0).val < 1 := (j 0).isLt; show (j 0).val = 0; omega
    | ⟨1, _⟩ => have h : (j 1).val < 1 := (j 1).isLt; show (j 1).val = 0; omega)

/-- The reduced index with the block's row put back. -/
theorem lift10 (r : Fin 5000) : (reduces_S5000x1_S1.lift (ix1 (0 : Fin 1)) r : S5000x1.Idx) = ix2 r (0 : Fin 1) :=
  funext fun a => Fin.ext (by
    match a with
    | ⟨0, _⟩ => rfl
    | ⟨1, _⟩ => rfl)

/-- The one word of a rank-1 array of one word, as a [1, 1] array. -/
theorem castWord10 (x : FVec Ideal S1 .f32) (j : S1x1.Idx) : shapeCast S1x1 x shapeCasts_S1_S1x1 j = x (ix1 (0 : Fin 1)) :=
  shapeCast_apply x _ j (ix1 (0 : Fin 1)) (by
    have h1 : (S1.rowMajor (ix1 (0 : Fin 1))).val < 1 := (S1.rowMajor (ix1 (0 : Fin 1))).isLt
    have h2 : (S1x1.rowMajor j).val < 1 := (S1x1.rowMajor j).isLt
    omega)

/-- The new running maximum: the old one against the block's largest score. -/
theorem pay6_apply10 (x0 x1 : Vec Ideal S5000x64 .f32) (x2 : Vec Ideal S128x1 .f32) (x3 : Vec Ideal S1x1 .f32) (m : Vec Ideal S1x1 .f32) (j : S1x1.Idx) :
    k10_pay6 x0 x1 x2 x3 m j = max (m j) (Finset.univ.sup fun r : Fin 5000 => k10_pay5 x0 x1 x2 x3 (ix2 r (0 : Fin 1))) := by
  unfold k10_pay6
  rw [maximumf_apply]
  refine congrArg (max (m j)) ?_
  rw [castWord10]
  refine (Ideal.multiReduction_maximumf_single _ _ reduces_S5000x1_S1 _ _ (ix1 (0 : Fin 1))).trans ?_
  refine (fold_max_eq10 _ _ _).trans ?_
  rw [show (FloatOps.ofBits (F := Ideal) .f32 0xFF800000#32 : EReal) = ⊥ from ofBits_ninf10, bot_sup_eq]
  exact Finset.sup_congr rfl fun r _ => congrArg (k10_pay5 x0 x1 x2 x3) (lift10 r)

/-- The rescaling factor: the exponential of the old maximum less the new. -/
theorem pay7_apply10 (x0 x1 : Vec Ideal S5000x64 .f32) (x2 : Vec Ideal S128x1 .f32) (x3 : Vec Ideal S1x1 .f32) (m m' : Vec Ideal S1x1 .f32) (j : S1x1.Idx) :
    k10_pay7 x0 x1 x2 x3 m m' j = Ideal.exp (m' j - k10_pay6 x0 x1 x2 x3 m j) := rfl

/-- The new maximum along the block's rows. -/
theorem pay8_apply10 (x0 x1 : Vec Ideal S5000x64 .f32) (x2 : Vec Ideal S128x1 .f32) (x3 : Vec Ideal S1x1 .f32) (m : Vec Ideal S1x1 .f32) (r : Fin 5000) :
    k10_pay8 x0 x1 x2 x3 m (ix2 r (0 : Fin 1)) = k10_pay6 x0 x1 x2 x3 m (ix2 (0 : Fin 1) (0 : Fin 1)) := by
  unfold k10_pay8
  exact broadcastTo_apply _ _ (ix2 r (0 : Fin 1)) (ix2 (0 : Fin 1) (0 : Fin 1)) (fun a => by
    match a with
    | ⟨0, _⟩ => rfl
    | ⟨1, _⟩ => rfl)

/-- The new running sum: the old one rescaled plus the block's exponentials against the new maximum. -/
theorem pay1_apply10 (v26 : FVec Ideal S5000x1 .f32) (v34 : FVec Ideal S1x1 .f32) (v35 : FVec Ideal S5000x1 .f32) (v40 : Vec Ideal S1x1 .f32) (j : S1x1.Idx) :
    k10_pay1 v26 v34 v35 v40 j = v34 j * v40 j + ∑ r : Fin 5000, Ideal.exp (v26 (ix2 r (0 : Fin 1)) - v35 (ix2 r (0 : Fin 1))) := by
  unfold k10_pay1
  simp only [shapeCast_self]
  rw [addf_apply, mulf_apply]
  refine congrArg (v34 j * v40 j + ·) ?_
  rw [castWord10]
  refine (Ideal.multiReduction_add_single _ _ reduces_S5000x1_S1 _ _ (ix1 (0 : Fin 1))).trans ?_
  refine Finset.sum_congr rfl fun r _ => ?_
  exact (congrArg (exp (subf v26 v35)) (lift10 r)).trans rfl

/-- The reset values: minus infinity and zero. -/
theorem pay3_apply10 (j : S1x1.Idx) : k10_pay3 (F := Ideal) j = ⊥ := by
  unfold k10_pay3
  simp only [shapeCast_self]
  exact ofBits_ninf10
theorem pay4_apply10 (j : S1x1.Idx) : k10_pay4 (F := Ideal) j = 0 := by
  unfold k10_pay4
  simp only [shapeCast_self]
  exact Ideal.ofBits_zero_f32
theorem pay2_eq10 (v : FVec Ideal S1x1 .f32) : k10_pay2 v = v := by
  unfold k10_pay2
  exact shapeCast_self _ _

/-! ## One step of the running pair -/

/-- The step on the running maximum. -/
theorem stepM10 (x0 x1 : Vec Ideal S5000x64 .f32) (x2 : Vec Ideal S128x1 .f32) (x3 : Vec Ideal S1x1 .f32) (m : Vec Ideal S1x1 .f32) (j : S1x1.Idx) :
    k10_pay2 (k10_pay6 x0 x1 x2 x3 m) j = max (m j) (Finset.univ.sup fun r : Fin 5000 => k10_pay5 x0 x1 x2 x3 (ix2 r (0 : Fin 1))) := by
  rw [pay2_eq10]; exact pay6_apply10 x0 x1 x2 x3 m j

/-- The step on the running sum, the new maximum named M. -/
theorem stepL10 (x0 x1 : Vec Ideal S5000x64 .f32) (x2 : Vec Ideal S128x1 .f32) (x3 : Vec Ideal S1x1 .f32) (m l : Vec Ideal S1x1 .f32) (j : S1x1.Idx)
    (M : EReal) (hM : M = max (m j) (Finset.univ.sup fun r : Fin 5000 => k10_pay5 x0 x1 x2 x3 (ix2 r (0 : Fin 1)))) :
    k10_pay1 (k10_pay5 x0 x1 x2 x3) (k10_pay7 x0 x1 x2 x3 m m) (k10_pay8 x0 x1 x2 x3 m) l j
      = Ideal.exp (m j - M) * l j + ∑ r : Fin 5000, Ideal.exp (k10_pay5 x0 x1 x2 x3 (ix2 r (0 : Fin 1)) - M) := by
  have e6 : k10_pay6 x0 x1 x2 x3 m j = M := (pay6_apply10 x0 x1 x2 x3 m j).trans hM.symm
  have e6' : k10_pay6 x0 x1 x2 x3 m (ix2 (0 : Fin 1) (0 : Fin 1)) = M := by rw [← oneIdx10 j]; exact e6
  rw [pay1_apply10, pay7_apply10, e6]
  refine congrArg (Ideal.exp (m j - M) * l j + ·) (Finset.sum_congr rfl fun r _ => ?_)
  rw [pay8_apply10, e6']

end Cert.KernelIdeal.HandV

end
-- ==== Proof.KI.V10.lean ====
/- The value of the attention-score call cc10__attn_score_kernel at the extended reals: the score array its pipeline
   leaves is the column of the edges' leaky-relu scores, and the two one-word arrays are the running maximum and the
   running rescaled sum of exponentials after all 250 blocks. Each window's block as a part of its array; the block's
   scores; the scratch pair after each point by induction on the point; what the points write back; the covers. -/
import proofs.«417395_j71579924955534_2_alg».proof.Proof.KI.P10
import proofs.«417395_j71579924955534_2_alg».proof.Proof.KI.V10Pay

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hE10 : 250 * 5000 = 1250000 := rfl

theorem nPts10 : cfg10.N = 250 := N_10

/-- The edges' scores, from the arrays the region reads. -/
abbrev scores10 (c : Dev nD) : Fin 1250000 → EReal :=
  Spec.score (V c (Pipeline.arrRef spec10 0)) (V c (Pipeline.arrRef spec10 1)) (V c (Pipeline.arrRef spec10 2)) (Spec.rowOf (V c (Pipeline.arrRef spec10 3)))

/-! ## The windows' blocks as parts of their arrays -/

/-- The printed index maps over the grid: the two feature windows and the score window sit at block (t, 0); the
    weight, the bias and the two one-word outputs stay at block (0, 0). -/
theorem idx_facts10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0 :=
  (by decide +kernel : ∀ t : Fin grid10.N, _)

/-- The four arrays the region reads, at their literal shapes. -/
abbrev arr10_0 (c : Dev nD) : S1250000x64.Idx → EReal := V c (Pipeline.arrRef spec10 0)
abbrev arr10_1 (c : Dev nD) : S1250000x64.Idx → EReal := V c (Pipeline.arrRef spec10 1)
abbrev arr10_2 (c : Dev nD) : S128x1.Idx → EReal := V c (Pipeline.arrRef spec10 2)
abbrev arr10_3 (c : Dev nD) : S1x1.Idx → EReal := V c (Pipeline.arrRef spec10 3)

/-- The four input blocks at point t, at their literal shapes. -/
abbrev b10_0 (c : Dev nD) (t : Fin cfg10.N) : Vec Ideal S5000x64 .f32 := iblk10 V c 0 t
abbrev b10_1 (c : Dev nD) (t : Fin cfg10.N) : Vec Ideal S5000x64 .f32 := iblk10 V c 1 t
abbrev b10_2 (c : Dev nD) (t : Fin cfg10.N) : Vec Ideal S128x1 .f32 := iblk10 V c 2 t
abbrev b10_3 (c : Dev nD) (t : Fin cfg10.N) : Vec Ideal S1x1 .f32 := iblk10 V c 3 t

/-- Row p of block t, as an edge. -/
def rowAt10 (t : Fin cfg10.N) (p : Fin 5000) : Fin 1250000 :=
  ⟨t.val * 5000 + p.val, by have h : t.val < 250 := lt_of_lt_of_eq t.isLt nPts10; have := p.isLt; omega⟩

theorem rowAt10_eq (t : Fin cfg10.N) (p : Fin 5000) :
    rowAt10 t p = Spec.edgeAt hE10 ⟨t.val, lt_of_lt_of_eq t.isLt nPts10⟩ p := Fin.ext rfl

/-- The first feature block at point t is rows 5000 t … 5000 t + 4999 of its array. -/
theorem b10_0_apply (c : Dev nD) (t : Fin cfg10.N) (p : Fin 5000) (k : Fin 64) :
    b10_0 V c t (ix2 p k) = arr10_0 V c (ix2 (rowAt10 t p) k) := by
  obtain ⟨e0, e1, -⟩ := idx_facts10 t
  unfold b10_0 iblk10
  rw [View.read_apply]
  have h : ((cfg10.win 0).blk t).view.emb (ix2 p k) = (ix2 (rowAt10 t p) k : S1250000x64.Idx) := by
    funext a; apply Fin.ext
    match a with
    | ⟨0, _⟩ => show win10_0.index t (0 : Fin 2) * 5000 + 1 * p.val = t.val * 5000 + p.val; rw [e0]; omega
    | ⟨1, _⟩ => show win10_0.index t (1 : Fin 2) * 64 + 1 * k.val = k.val; rw [e1]; omega
  rw [h]
  rfl

/-- The second feature block likewise. -/
theorem b10_1_apply (c : Dev nD) (t : Fin cfg10.N) (p : Fin 5000) (k : Fin 64) :
    b10_1 V c t (ix2 p k) = arr10_1 V c (ix2 (rowAt10 t p) k) := by
  obtain ⟨-, -, e0, e1, -⟩ := idx_facts10 t
  unfold b10_1 iblk10
  rw [View.read_apply]
  have h : ((cfg10.win 1).blk t).view.emb (ix2 p k) = (ix2 (rowAt10 t p) k : S1250000x64.Idx) := by
    funext a; apply Fin.ext
    match a with
    | ⟨0, _⟩ => show win10_1.index t (0 : Fin 2) * 5000 + 1 * p.val = t.val * 5000 + p.val; rw [e0]; omega
    | ⟨1, _⟩ => show win10_1.index t (1 : Fin 2) * 64 + 1 * k.val = k.val; rw [e1]; omega
  rw [h]
  rfl

/-- The weight block is the weight array. -/
theorem b10_2_apply (c : Dev nD) (t : Fin cfg10.N) (k : Fin 128) :
    b10_2 V c t (ix2 k (0 : Fin 1)) = arr10_2 V c (ix2 k (0 : Fin 1)) := by
  obtain ⟨-, -, -, -, e0, e1, -⟩ := idx_facts10 t
  unfold b10_2 iblk10
  rw [View.read_apply]
  have h : ((cfg10.win 2).blk t).view.emb (ix2 k (0 : Fin 1)) = (ix2 k (0 : Fin 1) : S128x1.Idx) := by
    funext a; apply Fin.ext
    match a with
    | ⟨0, _⟩ => show win10_2.index t (0 : Fin 2) * 128 + 1 * k.val = k.val; rw [e0]; omega
    | ⟨1, _⟩ => show win10_2.index t (1 : Fin 2) * 1 + 1 * (0 : Fin 1).val = (0 : Fin 1).val; rw [e1]; rfl
  rw [h]
  rfl

/-- The bias block is the bias word. -/
theorem b10_3_apply (c : Dev nD) (t : Fin cfg10.N) :
    b10_3 V c t (ix2 (0 : Fin 1) (0 : Fin 1)) = arr10_3 V c (ix2 (0 : Fin 1) (0 : Fin 1)) := by
  obtain ⟨-, -, -, -, -, -, e0, e1, -⟩ := idx_facts10 t
  unfold b10_3 iblk10
  rw [View.read_apply]
  have h : ((cfg10.win 3).blk t).view.emb (ix2 (0 : Fin 1) (0 : Fin 1)) = (ix2 (0 : Fin 1) (0 : Fin 1) : S1x1.Idx) := by
    funext a; apply Fin.ext
    match a with
    | ⟨0, _⟩ => show win10_3.index t (0 : Fin 2) * 1 + 1 * (0 : Fin 1).val = (0 : Fin 1).val; rw [e0]; rfl
    | ⟨1, _⟩ => show win10_3.index t (1 : Fin 2) * 1 + 1 * (0 : Fin 1).val = (0 : Fin 1).val; rw [e1]; rfl
  rw [h]
  rfl

/-! ## The block's scores -/

/-- Row p of block t scores as edge 5000 t + p. -/
theorem score_blk10 (c : Dev nD) (t : Fin cfg10.N) (p : Fin 5000) :
    k10_pay5 (b10_0 V c t) (b10_1 V c t) (b10_2 V c t) (b10_3 V c t) (ix2 p (0 : Fin 1)) = scores10 V c (rowAt10 t p) := by
  refine (pay5_apply10 _ _ _ _ p).trans ?_
  show _ = Spec.leaky (((∑ k : Fin 64, arr10_0 V c (ix2 (rowAt10 t p) k) * arr10_2 V c (ix2 (Fin.castLE (by omega) k : Fin 128) (0 : Fin 1)))
      + (∑ k : Fin 64, arr10_1 V c (ix2 (rowAt10 t p) k) * arr10_2 V c (ix2 (⟨64 + k.val, by omega⟩ : Fin 128) (0 : Fin 1))))
    + arr10_3 V c (ix2 (0 : Fin 1) (0 : Fin 1)))
  exact congrArg Spec.leaky (congrArg₂ (· + ·) (congrArg₂ (· + ·)
    (Finset.sum_congr rfl fun k _ => congrArg₂ (· * ·) (b10_0_apply V c t p k) (b10_2_apply V c t _))
    (Finset.sum_congr rfl fun k _ => congrArg₂ (· * ·) (b10_1_apply V c t p k) (b10_2_apply V c t _)))
    (b10_3_apply V c t))

/-- The block's largest score is the largest over the block's edges. -/
theorem sup_blk10 (c : Dev nD) (t : Fin cfg10.N) :
    (Finset.univ.sup fun r : Fin 5000 => k10_pay5 (b10_0 V c t) (b10_1 V c t) (b10_2 V c t) (b10_3 V c t) (ix2 r (0 : Fin 1)))
      = Finset.univ.sup fun r : Fin 5000 => scores10 V c (Spec.edgeAt hE10 ⟨t.val, lt_of_lt_of_eq t.isLt nPts10⟩ r) :=
  Finset.sup_congr rfl fun r _ => (score_blk10 V c t r).trans (congrArg (scores10 V c) (rowAt10_eq t r))

/-! ## The running pair, one step -/

theorem online_succ10 (s : Fin 1250000 → EReal) (k : ℕ) (hk : k < 250) :
    Spec.online hE10 s (k + 1)
      = (max (Spec.online hE10 s k).1 (Finset.univ.sup fun r : Fin 5000 => s (Spec.edgeAt hE10 ⟨k, hk⟩ r)),
        Ideal.exp ((Spec.online hE10 s k).1 - max (Spec.online hE10 s k).1 (Finset.univ.sup fun r : Fin 5000 => s (Spec.edgeAt hE10 ⟨k, hk⟩ r))) * (Spec.online hE10 s k).2
          + ∑ r : Fin 5000, Ideal.exp (s (Spec.edgeAt hE10 ⟨k, hk⟩ r) - max (Spec.online hE10 s k).1 (Finset.univ.sup fun r : Fin 5000 => s (Spec.edgeAt hE10 ⟨k, hk⟩ r)))) := by
  rw [Spec.online, dif_pos hk]

/-- From the running pair before point t to the pair after it, as the body's payloads compute it. -/
theorem online_step10 (c : Dev nD) (t : Fin cfg10.N) (m l : Vec Ideal S1x1 .f32)
    (hm : ∀ j, m j = (Spec.online hE10 (scores10 V c) t.val).1) (hl : ∀ j, l j = (Spec.online hE10 (scores10 V c) t.val).2) :
    k10_pay2 (k10_pay6 (b10_0 V c t) (b10_1 V c t) (b10_2 V c t) (b10_3 V c t) m) = Spec.cell (Spec.online hE10 (scores10 V c) (t.val + 1)).1
    ∧ k10_pay1 (k10_pay5 (b10_0 V c t) (b10_1 V c t) (b10_2 V c t) (b10_3 V c t)) (k10_pay7 (b10_0 V c t) (b10_1 V c t) (b10_2 V c t) (b10_3 V c t) m m) (k10_pay8 (b10_0 V c t) (b10_1 V c t) (b10_2 V c t) (b10_3 V c t) m) l
        = Spec.cell (Spec.online hE10 (scores10 V c) (t.val + 1)).2 := by
  have ht : t.val < 250 := lt_of_lt_of_eq t.isLt nPts10
  rw [online_succ10 (scores10 V c) t.val ht]
  constructor
  · funext j
    rw [stepM10, hm, sup_blk10]
    rfl
  · funext j
    have hM : max (Spec.online hE10 (scores10 V c) t.val).1 (Finset.univ.sup fun r : Fin 5000 => scores10 V c (Spec.edgeAt hE10 ⟨t.val, ht⟩ r))
        = max (m j) (Finset.univ.sup fun r : Fin 5000 => k10_pay5 (b10_0 V c t) (b10_1 V c t) (b10_2 V c t) (b10_3 V c t) (ix2 r (0 : Fin 1))) := by
      rw [hm, sup_blk10]
    rw [stepL10 _ _ _ _ m l j _ hM, hm, hl]
    exact congrArg₂ (· + ·) rfl (Finset.sum_congr rfl fun r _ => by rw [score_blk10, rowAt10_eq])

/-! ## The trajectory named -/

/-- After the first point the scratch pair is one step from the reset values. -/
theorem scratchA10 (c : Dev nD) (t : Fin cfg10.N) (h0 : t.val = 0) (h1 : ¬t.val = 249) :
    (outsAt10 V c t.val t.isLt).2.2.2.1 = k10_pay2 (k10_pay6 (b10_0 V c t) (b10_1 V c t) (b10_2 V c t) (b10_3 V c t) (k10_pay3 (F := Ideal)))
    ∧ (outsAt10 V c t.val t.isLt).2.2.2.2 = k10_pay1 (k10_pay5 (b10_0 V c t) (b10_1 V c t) (b10_2 V c t) (b10_3 V c t)) (k10_pay7 (b10_0 V c t) (b10_1 V c t) (b10_2 V c t) (b10_3 V c t) (k10_pay3 (F := Ideal)) (k10_pay3 (F := Ideal))) (k10_pay8 (b10_0 V c t) (b10_1 V c t) (b10_2 V c t) (b10_3 V c t) (k10_pay3 (F := Ideal))) (k10_pay4 (F := Ideal)) := by
  rw [outsAt10_A V c t h0 h1]; dsimp only
  exact ⟨sout10_A_0_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) ((hcond10_0 t).mpr h0) (fun h => h1 ((hcond10_1 t).mp h)) (iblk10 V c 0 t) (iblk10 V c 1 t) (iblk10 V c 2 t) (iblk10 V c 3 t), sout10_A_1_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) ((hcond10_0 t).mpr h0) (fun h => h1 ((hcond10_1 t).mp h)) (iblk10 V c 0 t) (iblk10 V c 1 t) (iblk10 V c 2 t) (iblk10 V c 3 t)⟩

/-- After any later point the scratch pair is one step from what the point before left. -/
theorem scratchBC10 (c : Dev nD) (t : Fin cfg10.N) (h0 : ¬t.val = 0) :
    (outsAt10 V c t.val t.isLt).2.2.2.1 = k10_pay2 (k10_pay6 (b10_0 V c t) (b10_1 V c t) (b10_2 V c t) (b10_3 V c t) (outsAt10 V c (t.val - 1) (Nat.lt_of_le_of_lt (Nat.sub_le _ _) t.isLt)).2.2.2.1)
    ∧ (outsAt10 V c t.val t.isLt).2.2.2.2 = k10_pay1 (k10_pay5 (b10_0 V c t) (b10_1 V c t) (b10_2 V c t) (b10_3 V c t)) (k10_pay7 (b10_0 V c t) (b10_1 V c t) (b10_2 V c t) (b10_3 V c t) (outsAt10 V c (t.val - 1) (Nat.lt_of_le_of_lt (Nat.sub_le _ _) t.isLt)).2.2.2.1 (outsAt10 V c (t.val - 1) (Nat.lt_of_le_of_lt (Nat.sub_le _ _) t.isLt)).2.2.2.1) (k10_pay8 (b10_0 V c t) (b10_1 V c t) (b10_2 V c t) (b10_3 V c t) (outsAt10 V c (t.val - 1) (Nat.lt_of_le_of_lt (Nat.sub_le _ _) t.isLt)).2.2.2.1) (outsAt10 V c (t.val - 1) (Nat.lt_of_le_of_lt (Nat.sub_le _ _) t.isLt)).2.2.2.2 := by
  by_cases h1 : t.val = 249
  · rw [outsAt10_C V c t h0 h1]; dsimp only
    exact ⟨sout10_C_0_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_C_1_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2⟩
  · rw [outsAt10_B V c t h0 h1]; dsimp only
    exact ⟨sout10_B_0_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) (fun h => h1 ((hcond10_1 t).mp h)) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2, sout10_B_1_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) (fun h => h1 ((hcond10_1 t).mp h)) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2⟩

/-- At every point the score window's buffer is left at the block's scores. -/
theorem scoreOut10 (c : Dev nD) (t : Fin cfg10.N) : (outsAt10 V c t.val t.isLt).1 = k10_pay5 (b10_0 V c t) (b10_1 V c t) (b10_2 V c t) (b10_3 V c t) := by
  by_cases h0 : t.val = 0
  · have h1 : ¬t.val = 249 := by omega
    rw [outsAt10_A V c t h0 h1]; dsimp only
    exact out10_A_4_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) ((hcond10_0 t).mpr h0) (fun h => h1 ((hcond10_1 t).mp h)) (iblk10 V c 0 t) (iblk10 V c 1 t) (iblk10 V c 2 t) (iblk10 V c 3 t)
  · by_cases h1 : t.val = 249
    · rw [outsAt10_C V c t h0 h1]; dsimp only
      exact out10_C_4_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2
    · rw [outsAt10_B V c t h0 h1]; dsimp only
      exact out10_B_4_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) (fun h => h1 ((hcond10_1 t).mp h)) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2

/-- At the last point the two one-word output windows are left at the scratch pair. -/
theorem lastOut10 (c : Dev nD) (t : Fin cfg10.N) (h1 : t.val = 249) :
    (outsAt10 V c t.val t.isLt).2.1 = (outsAt10 V c t.val t.isLt).2.2.2.1
    ∧ (outsAt10 V c t.val t.isLt).2.2.1 = (outsAt10 V c t.val t.isLt).2.2.2.2 := by
  have h0 : ¬t.val = 0 := by omega
  rw [outsAt10_C V c t h0 h1]; dsimp only
  exact ⟨(out10_C_5_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2).trans (sout10_C_0_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2).symm,
    (out10_C_6_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2).trans (sout10_C_1_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) scM10_0 (Memref.isWhole_whole _) scM10_1 (Memref.isWhole_whole _) (fun h => h0 ((hcond10_0 t).mp h)) ((hcond10_1 t).mpr h1) (iblk10 V c 0 t) (iblk10 V c 1 t) (iblk10 V c 2 t) (iblk10 V c 3 t) (outsAt10 V c (t.val - 1) (Nat.lt_of_le_of_lt (Nat.sub_le _ _) t.isLt)).2.2.2.1 (outsAt10 V c (t.val - 1) (Nat.lt_of_le_of_lt (Nat.sub_le _ _) t.isLt)).2.2.2.2).symm⟩

/-! ## The scratch pair after each point -/

/-- After point n the two scratch buffers hold the running maximum and the running rescaled sum over the first
    n + 1 blocks. -/
theorem traj10 (c : Dev nD) : ∀ (n : ℕ) (hn : n < cfg10.N),
    (outsAt10 (F := Ideal) V c n hn).2.2.2.1 = Spec.cell (Spec.online hE10 (scores10 V c) (n + 1)).1
    ∧ (outsAt10 (F := Ideal) V c n hn).2.2.2.2 = Spec.cell (Spec.online hE10 (scores10 V c) (n + 1)).2
  | 0, hn => by
    obtain ⟨em, el⟩ := scratchA10 V c ⟨0, hn⟩ rfl (show ¬(0 : ℕ) = 249 by decide)
    obtain ⟨sm, sl⟩ := online_step10 V c ⟨0, hn⟩ (k10_pay3 (F := Ideal)) (k10_pay4 (F := Ideal)) (fun j => pay3_apply10 j) (fun j => pay4_apply10 j)
    exact ⟨em.trans sm, el.trans sl⟩
  | n + 1, hn => by
    obtain ⟨im, il⟩ := traj10 c n (Nat.lt_of_succ_lt hn)
    obtain ⟨em, el⟩ := scratchBC10 V c ⟨n + 1, hn⟩ (Nat.succ_ne_zero n)
    obtain ⟨sm, sl⟩ := online_step10 V c ⟨n + 1, hn⟩ (outsAt10 V c n (Nat.lt_of_succ_lt hn)).2.2.2.1 (outsAt10 V c n (Nat.lt_of_succ_lt hn)).2.2.2.2
      (fun j => congrFun im j) (fun j => congrFun il j)
    exact ⟨em.trans sm, el.trans sl⟩

/-! ## From the blocks to the arrays -/

/-- Where the score window's block at point t puts its row p. -/
theorem emb10_4 (t : Fin cfg10.N) (p : Fin 5000) :
    ((cfg10.win 4).blk t).view.emb (ix2 p (0 : Fin 1)) = (ix2 (rowAt10 t p) (0 : Fin 1) : S1250000x1.Idx) := by
  obtain ⟨-, -, -, -, -, -, -, -, e0, e1, -⟩ := idx_facts10 t
  funext a; apply Fin.ext
  match a with
  | ⟨0, _⟩ => show win10_4.index t (0 : Fin 2) * 5000 + 1 * p.val = t.val * 5000 + p.val; rw [e0]; omega
  | ⟨1, _⟩ => show win10_4.index t (1 : Fin 2) * 1 + 1 * (0 : Fin 1).val = (0 : Fin 1).val; rw [e1]; rfl

/-- An index of a block of one column is its row and column zero. -/
theorem eq_ixP10 (y : S5000x1.Idx) : y = ix2 (y 0) (0 : Fin 1) :=
  funext fun a => Fin.ext (by
    match a with
    | ⟨0, _⟩ => rfl
    | ⟨1, _⟩ => have h : (y 1).val < 1 := (y 1).isLt; show (y 1).val = 0; omega)

/-- The score array the region leaves, as one function of the arrays it reads. -/
abbrev G10_4 (c : Dev nD) : S1250000x1.Idx → EReal := Spec.col1 (scores10 V c)

/-- What point t writes back to the score array is block t of the edges' scores. -/
theorem flushed10_4_eq (c : Dev nD) (t : Fin cfg10.N) :
    (dat10 (F := Ideal) V c).flushed 4 t = ((cfg10.win 4).blk t).view.read (Elt Ideal) (G10_4 V c) := by
  show (cfg10.win 4).cut (grid10.coords t) ((dat10 V c).after 4 t) = _
  rw [after10_4, scoreOut10]
  funext y
  obtain ⟨p, rfl⟩ : ∃ p : Fin 5000, y = ix2 p (0 : Fin 1) := ⟨y 0, eq_ixP10 y⟩
  refine (score_blk10 V c t p).trans ?_
  rw [View.read_apply, emb10_4]
  rfl

/-- An index of the score array is in point t's block iff each coordinate is in the block's range on its axis. -/
theorem mem_blk10_4 (t : Fin cfg10.N) (i : S1250000x1.Idx) :
    i ∈ ((cfg10.win 4).blk t).view.set ↔ ∀ a : Fin 2, win10_4.index t a * S5000x1.size a ≤ (i a).val ∧ (i a).val < win10_4.index t a * S5000x1.size a + S5000x1.size a := by
  show i ∈ ((View.whole main_v70_0).slice (win10_4.rect t)).set ↔ _
  rw [View.set_slice_whole, Rect.mem_set_unit]
  exact Iff.rfl

/-- Edge e lies in the block of point e / 5000. -/
theorem cover10_4 (i : S1250000x1.Idx) : ∃ t : Fin cfg10.N, (cfg10.win 4).flush t = true ∧ i ∈ ((cfg10.win 4).blk t).view.set := by
  have hi0 : (i 0).val < 1250000 := (i 0).isLt
  have hi1 : (i 1).val < 1 := (i 1).isLt
  have ht : (i 0).val / 5000 < cfg10.N := by rw [nPts10]; omega
  obtain ⟨-, -, -, -, -, -, -, -, e0, e1, -⟩ := idx_facts10 ⟨(i 0).val / 5000, ht⟩
  refine ⟨⟨(i 0).val / 5000, ht⟩, flush10_4 _, ?_⟩
  rw [mem_blk10_4]
  intro a
  match a with
  | ⟨0, _⟩ =>
    show win10_4.index ⟨(i 0).val / 5000, ht⟩ (0 : Fin 2) * 5000 ≤ (i 0).val ∧ (i 0).val < win10_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win10_4.index ⟨(i 0).val / 5000, ht⟩ (1 : Fin 2) * 1 ≤ (i 1).val ∧ (i 1).val < win10_4.index ⟨(i 0).val / 5000, ht⟩ (1 : Fin 2) * 1 + 1
    rw [e1]; omega

/-- The score array the pipeline leaves is the column of the edges' scores. -/
theorem value10_4 (c : Dev nD) : (dat10 (F := Ideal) V c).arrAt 4 cfg10.N = Spec.col1 (scores10 V c) :=
  (dat10 V c).arrAt_eq_of_cover 4 (G10_4 V c) (fun t _ => flushed10_4_eq V c t) cover10_4

/-- The last point. -/
theorem last10 : (249 : ℕ) < cfg10.N := by rw [nPts10]; decide

/-- The scratch pair after the last point is the running pair over all 250 blocks. -/
theorem trajLast10 (c : Dev nD) (t : Fin cfg10.N) (h1 : t.val = 249) :
    (outsAt10 (F := Ideal) V c t.val t.isLt).2.2.2.1 = Spec.cell (Spec.online hE10 (scores10 V c) 250).1
    ∧ (outsAt10 (F := Ideal) V c t.val t.isLt).2.2.2.2 = Spec.cell (Spec.online hE10 (scores10 V c) 250).2 := by
  have e : t.val + 1 = 250 := by omega
  have h := traj10 V c t.val t.isLt
  rw [e] at h
  exact h

/-- An index of a one-word array is in the (one) block of the maximum's window at any point. -/
theorem mem_blk10_5 (t : Fin cfg10.N) (i : S1x1.Idx) : i ∈ ((cfg10.win 5).blk t).view.set := by
  obtain ⟨-, -, -, -, -, -, -, -, -, -, e0, e1, -⟩ := idx_facts10 t
  show i ∈ ((View.whole main_v70_1).slice (win10_5.rect t)).set
  rw [View.set_slice_whole, Rect.mem_set_unit]
  intro a
  match a with
  | ⟨0, _⟩ =>
    have h : (i 0).val < 1 := (i 0).isLt
    show win10_5.index t (0 : Fin 2) * 1 ≤ (i 0).val ∧ (i 0).val < win10_5.index t (0 : Fin 2) * 1 + 1
    rw [e0]; omega
  | ⟨1, _⟩ =>
    have h : (i 1).val < 1 := (i 1).isLt
    show win10_5.index t (1 : Fin 2) * 1 ≤ (i 1).val ∧ (i 1).val < win10_5.index t (1 : Fin 2) * 1 + 1
    rw [e1]; omega

/-- And of the sum's window. -/
theorem mem_blk10_6 (t : Fin cfg10.N) (i : S1x1.Idx) : i ∈ ((cfg10.win 6).blk t).view.set := by
  obtain ⟨-, -, -, -, -, -, -, -, -, -, -, -, e0, e1⟩ := idx_facts10 t
  show i ∈ ((View.whole main_v70_2).slice (win10_6.rect t)).set
  rw [View.set_slice_whole, Rect.mem_set_unit]
  intro a
  match a with
  | ⟨0, _⟩ =>
    have h : (i 0).val < 1 := (i 0).isLt
    show win10_6.index t (0 : Fin 2) * 1 ≤ (i 0).val ∧ (i 0).val < win10_6.index t (0 : Fin 2) * 1 + 1
    rw [e0]; omega
  | ⟨1, _⟩ =>
    have h : (i 1).val < 1 := (i 1).isLt
    show win10_6.index t (1 : Fin 2) * 1 ≤ (i 1).val ∧ (i 1).val < win10_6.index t (1 : Fin 2) * 1 + 1
    rw [e1]; omega

/-- The maximum's array is written back at the last point only, with the running maximum over all blocks. -/
theorem value10_5 (c : Dev nD) : (dat10 (F := Ideal) V c).arrAt 5 cfg10.N = Spec.cell (Spec.online hE10 (scores10 V c) 250).1 :=
  (dat10 V c).arrAt_eq_of_cover 5 (Spec.cell (Spec.online hE10 (scores10 V c) 250).1 : S1x1.Idx → EReal)
    (fun t hf => by
      have hN : t.val < 250 := lt_of_lt_of_eq t.isLt nPts10
      have h1 : t.val = 249 := by have := (flush10_5 t).mp hf; omega
      show (cfg10.win 5).cut (grid10.coords t) ((dat10 V c).after 5 t) = _
      rw [after10_5, (lastOut10 V c t h1).1, (trajLast10 V c t h1).1]
      rfl)
    (fun i => ⟨⟨249, last10⟩, (flush10_5 _).mpr rfl, mem_blk10_5 _ i⟩)

/-- The sum's array likewise, with the running rescaled sum over all blocks. -/
theorem value10_6 (c : Dev nD) : (dat10 (F := Ideal) V c).arrAt 6 cfg10.N = Spec.cell (Spec.online hE10 (scores10 V c) 250).2 :=
  (dat10 V c).arrAt_eq_of_cover 6 (Spec.cell (Spec.online hE10 (scores10 V c) 250).2 : S1x1.Idx → EReal)
    (fun t hf => by
      have hN : t.val < 250 := lt_of_lt_of_eq t.isLt nPts10
      have h1 : t.val = 249 := by have := (flush10_6 t).mp hf; omega
      show (cfg10.win 6).cut (grid10.coords t) ((dat10 V c).after 6 t) = _
      rw [after10_6, (lastOut10 V c t h1).2, (trajLast10 V c t h1).2]
      rfl)
    (fun i => ⟨⟨249, last10⟩, (flush10_6 _).mpr rfl, mem_blk10_6 _ i⟩)

end Cert.KernelIdeal.HandV

end
-- ==== Proof.KI.GlueAttn10.lean ====
/- The attention-score region in the chain of contents between @main's items: at the region's exit its three output
   arrays hold the column of the edges' scores and the running pair over all 250 blocks, the scores those of the four
   arrays the region reads as the chain has them at its entry. -/
import proofs.«417395_j71579924955534_2_alg».proof.Proof.KI.Chain
import proofs.«417395_j71579924955534_2_alg».proof.Proof.KI.V10
import proofs.«417395_j71579924955534_2_alg».proof.Proof.Spec

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The score array at the region's exit. -/
theorem attn10_out0 (c : Dev nD) : W26 m c main_v70_0 = Spec.col1 (scores10 (Wr25 m) c) :=
  (W26_out0 m c).trans (value10_4 (Wr25 m) c)

/-- The maximum's array at the region's exit. -/
theorem attn10_out1 (c : Dev nD) : W26 m c main_v70_1 = Spec.cell (Spec.online hE10 (scores10 (Wr25 m) c) 250).1 :=
  (W26_out1 m c).trans (value10_5 (Wr25 m) c)

/-- The sum's array at the region's exit. -/
theorem attn10_out2 (c : Dev nD) : W26 m c main_v70_2 = Spec.cell (Spec.online hE10 (scores10 (Wr25 m) c) 250).2 :=
  (W26_out2 m c).trans (value10_6 (Wr25 m) c)

/-- The scores are those of the four arrays the region reads, as the chain has them at its entry. -/
theorem scores10_W25 (c : Dev nD) :
    scores10 (Wr25 m) c = Spec.score (W25 m c main_v63) (W25 m c main_v64) (W25 m c main_v66) (Spec.rowOf (W25 m c main_v69)) := rfl

end Cert.KernelIdeal.HandV

end
-- ==== Proof.KI.V11.lean ====
import proofs.«417395_j71579924955534_2_alg».proof.Proof.KI.R11
import proofs.«417395_j71579924955534_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # Region 11 (the message call) on the extended reals: the message array as one function of the five input arrays

Row `e` of the result, feature `q`, is `exp (score e − m) · (1 / l) · weight e · feature (e, q)`: the body's arithmetic
on a block is that formula on the block; a block's rows are the array's rows `5000 · t + p`; the 250 blocks fill the
array. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz11 : (![0, 0] : Fin 2 → Nat) = fun _ => 0 := funext fun a => by fin_cases a <;> rfl

/-- The exponential of a vector, read at an index. -/
theorem exp_at11 {s : Shape} {φ : FTy} (a : FVec Ideal s φ) (i : s.Idx) : exp a i = Ideal.exp (a i) := rfl

/-- One cell spread down a column reads the cell everywhere. -/
theorem spread_cell11 (v : FVec Ideal S1x1 .f32) (p : Fin 5000) (u : Fin 1) :
    broadcastTo S5000x1 v broadcasts_S1x1_S5000x1 (ix2 p u) = v (ix2 (0 : Fin 1) (0 : Fin 1)) :=
  broadcastTo_apply v broadcasts_S1x1_S5000x1 (ix2 p u) (ix2 (0 : Fin 1) (0 : Fin 1))
    (fun a => by match a with | ⟨0, _⟩ => rfl | ⟨1, _⟩ => rfl)

/-- A column spread over 64 lanes reads, at `(p, k)`, the column at `p`. -/
theorem spread_col11 (v : FVec Ideal S5000x1 .f32) (p : Fin 5000) (k : Fin 64) :
    broadcastTo S5000x64 v broadcasts_S5000x1_S5000x64 (ix2 p k) = v (ix2 p (0 : Fin 1)) :=
  broadcastTo_apply v broadcasts_S5000x1_S5000x64 (ix2 p k) (ix2 p (0 : Fin 1))
    (fun a => by match a with | ⟨0, _⟩ => rfl | ⟨1, _⟩ => rfl)

/-- The body's arithmetic on whole blocks is the message formula on the blocks. -/
theorem pay11_eq (x3 x4 : Vec Ideal S1x1 .f32) (x0 x2 : Vec Ideal S5000x1 .f32) (x1 : Vec Ideal S5000x64 .f32) :
    k11_pay1 (F := Ideal) x3 x4 x0 x2 x1 = Spec.messageK (E := 5000) x0 x1 x2 x3 x4 := by
  funext j
  obtain ⟨p, q, rfl⟩ : ∃ (p : Fin 5000) (q : Fin 64), j = ix2 p q := ⟨j 0, j 1, eq_ix2 j⟩
  unfold k11_pay1 Spec.messageK
  simp only [shapeCast_self, mulf_apply, subf_apply, divf_apply, broadcast_apply, exp_at11, spread_col11, spread_cell11,
    Ideal.ofBits_def, Ideal.ofBits_one_f32]

/-- The block indices at point `t`: the three moving inputs and the output sit at block row `t`, the two cells at `0`. -/
theorem idx11_0 : ∀ t : Fin cfg11.N, win11_0.index t (0 : Fin 2) = t.val ∧ win11_0.index t (1 : Fin 2) = 0 :=
  (by decide +kernel : ∀ t : Fin grid11.N, win11_0.index t (0 : Fin 2) = t.val ∧ win11_0.index t (1 : Fin 2) = 0)
theorem idx11_1 : ∀ t : Fin cfg11.N, win11_1.index t (0 : Fin 2) = t.val ∧ win11_1.index t (1 : Fin 2) = 0 :=
  (by decide +kernel : ∀ t : Fin grid11.N, win11_1.index t (0 : Fin 2) = t.val ∧ win11_1.index t (1 : Fin 2) = 0)
theorem idx11_2 : ∀ t : Fin cfg11.N, win11_2.index t (0 : Fin 2) = t.val ∧ win11_2.index t (1 : Fin 2) = 0 :=
  (by decide +kernel : ∀ t : Fin grid11.N, win11_2.index t (0 : Fin 2) = t.val ∧ win11_2.index t (1 : Fin 2) = 0)
theorem idx11_3 : ∀ t : Fin cfg11.N, win11_3.index t (0 : Fin 2) = 0 ∧ win11_3.index t (1 : Fin 2) = 0 :=
  (by decide +kernel : ∀ t : Fin grid11.N, win11_3.index t (0 : Fin 2) = 0 ∧ win11_3.index t (1 : Fin 2) = 0)
theorem idx11_4 : ∀ t : Fin cfg11.N, win11_4.index t (0 : Fin 2) = 0 ∧ win11_4.index t (1 : Fin 2) = 0 :=
  (by decide +kernel : ∀ t : Fin grid11.N, win11_4.index t (0 : Fin 2) = 0 ∧ win11_4.index t (1 : Fin 2) = 0)
theorem idx11_5 : ∀ t : Fin cfg11.N, win11_5.index t (0 : Fin 2) = t.val ∧ win11_5.index t (1 : Fin 2) = 0 :=
  (by decide +kernel : ∀ t : Fin grid11.N, win11_5.index t (0 : Fin 2) = t.val ∧ win11_5.index t (1 : Fin 2) = 0)

set_option maxHeartbeats 4000000 in
/-- What point `t` writes back is block `t` of the message formula on the whole arrays. -/
theorem flushed11_eq (c : Dev nD) (t : Fin cfg11.N) :
    (dat11 V c).flushed 5 t = ((cfg11.win 5).blk t).view.read (Elt Ideal)
      (Spec.messageK (E := 1250000) (V c (Pipeline.arrRef spec11 0)) (V c (Pipeline.arrRef spec11 1)) (V c (Pipeline.arrRef spec11 2))
        (V c (Pipeline.arrRef spec11 3)) (V c (Pipeline.arrRef spec11 4))) := by
  show (cfg11.win 5).cut (grid11.coords t) ((dat11 V c).after 5 t) = _
  rw [after11_5]
  unfold out11_5
  rw [View.canon_unit_zero hz11]
  simp only [View.ld_unit_zero (S := S5000x64) hz11, View.ld_unit_zero (S := S5000x1) hz11, View.ld_unit_zero (S := S1x1) hz11]
  rw [pay11_eq]
  obtain ⟨a0, b0⟩ := idx11_0 t
  obtain ⟨a1, b1⟩ := idx11_1 t
  obtain ⟨a2, b2⟩ := idx11_2 t
  obtain ⟨a3, b3⟩ := idx11_3 t
  obtain ⟨a4, b4⟩ := idx11_4 t
  obtain ⟨a5, b5⟩ := idx11_5 t
  funext j
  obtain ⟨p, q, rfl⟩ : ∃ (p : Fin 5000) (q : Fin 64), j = ix2 p q := ⟨j 0, j 1, eq_ix2 j⟩
  have e0 : ((cfg11.win 0).blk t).view.emb (ix2 p (0 : Fin 1))
      = ix2 (Spec.c0 (((cfg11.win 5).blk t).view.emb (ix2 p q))) (0 : Fin 1) := by
    funext a; apply Fin.ext
    match a with
    | ⟨0, _⟩ => show win11_0.index t (0 : Fin 2) * 5000 + 1 * p.val = win11_5.index t (0 : Fin 2) * 5000 + 1 * p.val; omega
    | ⟨1, _⟩ => show win11_0.index t (1 : Fin 2) * 1 + 1 * 0 = 0; omega
  have e1 : ((cfg11.win 1).blk t).view.emb (ix2 p q) = ((cfg11.win 5).blk t).view.emb (ix2 p q) := by
    funext a; apply Fin.ext
    match a with
    | ⟨0, _⟩ => show win11_1.index t (0 : Fin 2) * 5000 + 1 * p.val = win11_5.index t (0 : Fin 2) * 5000 + 1 * p.val; omega
    | ⟨1, _⟩ => show win11_1.index t (1 : Fin 2) * 64 + 1 * q.val = win11_5.index t (1 : Fin 2) * 64 + 1 * q.val; omega
  have e2 : ((cfg11.win 2).blk t).view.emb (ix2 p (0 : Fin 1))
      = ix2 (Spec.c0 (((cfg11.win 5).blk t).view.emb (ix2 p q))) (0 : Fin 1) := by
    funext a; apply Fin.ext
    match a with
    | ⟨0, _⟩ => show win11_2.index t (0 : Fin 2) * 5000 + 1 * p.val = win11_5.index t (0 : Fin 2) * 5000 + 1 * p.val; omega
    | ⟨1, _⟩ => show win11_2.index t (1 : Fin 2) * 1 + 1 * 0 = 0; omega
  have e3 : ((cfg11.win 3).blk t).view.emb (ix2 (0 : Fin 1) (0 : Fin 1)) = ix2 (0 : Fin 1) (0 : Fin 1) := by
    funext a; apply Fin.ext
    match a with
    | ⟨0, _⟩ => show win11_3.index t (0 : Fin 2) * 1 + 1 * 0 = 0; omega
    | ⟨1, _⟩ => show win11_3.index t (1 : Fin 2) * 1 + 1 * 0 = 0; omega
  have e4 : ((cfg11.win 4).blk t).view.emb (ix2 (0 : Fin 1) (0 : Fin 1)) = ix2 (0 : Fin 1) (0 : Fin 1) := by
    funext a; apply Fin.ext
    match a with
    | ⟨0, _⟩ => show win11_4.index t (0 : Fin 2) * 1 + 1 * 0 = 0; omega
    | ⟨1, _⟩ => show win11_4.index t (1 : Fin 2) * 1 + 1 * 0 = 0; omega
  show Spec.messageK (E := 5000) (iblk11 V c 0 t) (iblk11 V c 1 t) (iblk11 V c 2 t) (iblk11 V c 3 t) (iblk11 V c 4 t) (ix2 p q)
    = Spec.messageK (E := 1250000) (V c (Pipeline.arrRef spec11 0)) (V c (Pipeline.arrRef spec11 1)) (V c (Pipeline.arrRef spec11 2))
        (V c (Pipeline.arrRef spec11 3)) (V c (Pipeline.arrRef spec11 4)) (((cfg11.win 5).blk t).view.emb (ix2 p q))
  unfold Spec.messageK
  have r0 : iblk11 V c 0 t (ix2 (Spec.c0 (ix2 p q)) (0 : Fin 1))
      = V c (Pipeline.arrRef spec11 0) (((cfg11.win 0).blk t).view.emb (ix2 p (0 : Fin 1))) := rfl
  have r1 : iblk11 V c 1 t (ix2 p q) = V c (Pipeline.arrRef spec11 1) (((cfg11.win 1).blk t).view.emb (ix2 p q)) := rfl
  have r2 : iblk11 V c 2 t (ix2 (Spec.c0 (ix2 p q)) (0 : Fin 1))
      = V c (Pipeline.arrRef spec11 2) (((cfg11.win 2).blk t).view.emb (ix2 p (0 : Fin 1))) := rfl
  have r3 : iblk11 V c 3 t (ix2 (0 : Fin 1) (0 : Fin 1))
      = V c (Pipeline.arrRef spec11 3) (((cfg11.win 3).blk t).view.emb (ix2 (0 : Fin 1) (0 : Fin 1))) := rfl
  have r4 : iblk11 V c 4 t (ix2 (0 : Fin 1) (0 : Fin 1))
      = V c (Pipeline.arrRef spec11 4) (((cfg11.win 4).blk t).view.emb (ix2 (0 : Fin 1) (0 : Fin 1))) := rfl
  rw [r0, r1, r2, r3, r4, e0, e1, e2, e3, e4]

/-- An index of the array is in point `t`'s block iff each coordinate is in the block's range on its axis. -/
theorem mem_blk11 (t : Fin cfg11.N) (i : S1250000x64.Idx) :
    i ∈ ((cfg11.win 5).blk t).view.set ↔ ∀ a : Fin 2, win11_5.index t a * S5000x64.size a ≤ (i a).val
      ∧ (i a).val < win11_5.index t a * S5000x64.size a + S5000x64.size a := by
  show i ∈ ((View.whole main_v71).slice (win11_5.rect t)).set ↔ _
  rw [View.set_slice_whole, Rect.mem_set_unit]
  exact Iff.rfl

/-- Row `r` of the array lies in the block of point `r / 5000`. -/
theorem cover11 (i : S1250000x64.Idx) :
    ∃ t : Fin cfg11.N, (cfg11.win 5).flush t = true ∧ i ∈ ((cfg11.win 5).blk t).view.set := by
  have hi0 : (i 0).val < 1250000 := (i 0).isLt
  have hi1 : (i 1).val < 64 := (i 1).isLt
  have hN : cfg11.N = 250 := N_11
  have ht : (i 0).val / 5000 < cfg11.N := by rw [hN]; omega
  obtain ⟨a5, b5⟩ := idx11_5 ⟨(i 0).val / 5000, ht⟩
  refine ⟨⟨(i 0).val / 5000, ht⟩, flush11_5 _, ?_⟩
  rw [mem_blk11]
  intro a
  match a with
  | ⟨0, _⟩ =>
    show win11_5.index ⟨(i 0).val / 5000, ht⟩ (0 : Fin 2) * 5000 ≤ (i 0).val
      ∧ (i 0).val < win11_5.index ⟨(i 0).val / 5000, ht⟩ (0 : Fin 2) * 5000 + 5000
    rw [a5]
    show (i 0).val / 5000 * 5000 ≤ (i 0).val ∧ (i 0).val < (i 0).val / 5000 * 5000 + 5000
    omega
  | ⟨1, _⟩ =>
    show win11_5.index ⟨(i 0).val / 5000, ht⟩ (1 : Fin 2) * 64 ≤ (i 1).val
      ∧ (i 1).val < win11_5.index ⟨(i 0).val / 5000, ht⟩ (1 : Fin 2) * 64 + 64
    rw [b5]
    omega

/-- THE VALUE of the region: after its 250 points the message array is the message formula of the five input arrays as
    the region found them. -/
theorem value11 (c : Dev nD) :
    (dat11 (F := Ideal) V c).arrAt 5 cfg11.N
      = Spec.messageK (E := 1250000) (V c (Pipeline.arrRef spec11 0)) (V c (Pipeline.arrRef spec11 1)) (V c (Pipeline.arrRef spec11 2))
          (V c (Pipeline.arrRef spec11 3)) (V c (Pipeline.arrRef spec11 4)) :=
  (dat11 V c).arrAt_eq_of_cover 5 _ (fun t _ => flushed11_eq V c t) cover11

end Cert.KernelIdeal.HandV
-- ==== Proof.KI.V12.lean ====
import proofs.«417395_j71579924955534_2_alg».proof.Proof.KI.R12
import proofs.«417395_j71579924955534_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # Region 12 (the finalize call) on the extended reals: the result array as one function of the five input arrays

Row `r` of the result is `h r + layernorm (relu (hl r + agg r))`, the norm over the 64 features of the row with the
scale row and the shift row: the body's arithmetic on a block is that formula on the block; the formula reads one row
of each array, a block's rows are the array's rows `5000 · t + p`, and the 20 blocks fill the array. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem hz12 : (![0, 0] : Fin 2 → Nat) = fun _ => 0 := funext fun a => by fin_cases a <;> rfl

/-- The reciprocal square root of a vector, read at an index. -/
theorem rsqrt_at12 {s : Shape} {φ : FTy} (a : FVec Ideal s φ) (i : s.Idx) : rsqrt a i = Ideal.rsqrt (a i) := rfl

/-- A column spread over 64 lanes reads, at `(p, k)`, the column at `p`. -/
theorem spread_col12 (v : FVec Ideal S5000x1 .f32) (p : Fin 5000) (k : Fin 64) :
    broadcastTo S5000x64 v broadcasts_S5000x1_S5000x64 (ix2 p k) = v (ix2 p (0 : Fin 1)) :=
  broadcastTo_apply v broadcasts_S5000x1_S5000x64 (ix2 p k) (ix2 p (0 : Fin 1))
    (fun a => by match a with | ⟨0, _⟩ => rfl | ⟨1, _⟩ => rfl)

/-- A row spread over 5000 rows reads, at `(p, k)`, the row at `k`. -/
theorem spread_row12 (v : FVec Ideal S1x64 .f32) (p : Fin 5000) (k : Fin 64) :
    broadcastTo S5000x64 v broadcasts_S1x64_S5000x64 (ix2 p k) = v (ix2 (0 : Fin 1) k) :=
  broadcastTo_apply v broadcasts_S1x64_S5000x64 (ix2 p k) (ix2 (0 : Fin 1) k)
    (fun a => by match a with | ⟨0, _⟩ => rfl | ⟨1, _⟩ => rfl)

/-- The sum over the 64 lanes, kept as a column, reads at `(p, u)` the sum of row `p`. -/
theorem lane_sum12 (src : FVec Ideal S5000x64 .f32) (hφ : FTy.f32 = FTy.f32 ∨ FTy.f32 = FTy.bf16)
    (hacc : (0x00000000#32 : BitVec 32) = 0x00000000#32) (p : Fin 5000) (u : Fin 1) :
    shapeCast S5000x1 (multiReduction (F := Ideal) .add [1] S5000 src 0x00000000#32 reduces_S5000x64_S5000 hφ hacc)
      shapeCasts_S5000_S5000x1 (ix2 p u) = ∑ k : Fin 64, src (ix2 p k) := by
  refine (shapeCast_apply _ shapeCasts_S5000_S5000x1 (ix2 p u) (ix1 p) ?_).trans ?_
  · rw [Shape.rowMajor_val_one, Shape.rowMajor_val_two]
    show p.val = p.val * 1 + u.val
    omega
  · refine (Ideal.multiReduction_add_single src 0x00000000#32 reduces_S5000x64_S5000 hφ hacc (ix1 p)).trans ?_
    exact Finset.sum_congr rfl fun k _ => congrArg src (funext fun a => by match a with | ⟨0, _⟩ => rfl | ⟨1, _⟩ => rfl)

/-- The body's arithmetic on whole blocks is the finalize formula on the blocks. -/
theorem pay12_eq (x0 x1 x2 : Vec Ideal S5000x64 .f32) (x3 x4 : Vec Ideal S1x64 .f32) :
    k12_pay1 (F := Ideal) x0 x1 x3 x4 x2 = Spec.finalize (N := 5000) x0 x1 x2 (Spec.rowOf x3) (Spec.rowOf x4) := by
  funext j
  obtain ⟨p, q, rfl⟩ : ∃ (p : Fin 5000) (q : Fin 64), j = ix2 p q := ⟨j 0, j 1, eq_ix2 j⟩
  unfold k12_pay1 Spec.finalize Spec.rowOf
  simp only [shapeCast_self, addf_apply, mulf_apply, subf_apply, divf_apply, maximumf_apply, broadcast_apply, rsqrt_at12,
    spread_col12, spread_row12]
  rw [lane_sum12, lane_sum12]
  simp only [addf_apply, mulf_apply, subf_apply, divf_apply, maximumf_apply, broadcast_apply, spread_col12]
  rw [lane_sum12]
  simp only [maximumf_apply, addf_apply, broadcast_apply, Ideal.ofBits_def, Ideal.ofBits_zero_f32]
  rfl

/-- The finalize formula at row `r` reads row `r` of its three arrays and the two rows `g`, `b`: two sets of arrays
    that agree there give the same value. -/
theorem finalize_rows12 {N M : ℕ} (hl agg h : Spec.A2 N 64) (hl' agg' h' : Spec.A2 M 64) (g b g' b' : Spec.A1 64)
    (r : Fin N) (r' : Fin M)
    (h0 : ∀ k : Fin 64, hl (ix2 r k) = hl' (ix2 r' k)) (h1 : ∀ k : Fin 64, agg (ix2 r k) = agg' (ix2 r' k))
    (h2 : ∀ k : Fin 64, h (ix2 r k) = h' (ix2 r' k))
    (hg : ∀ k : Fin 64, g (ix1 k) = g' (ix1 k)) (hb : ∀ k : Fin 64, b (ix1 k) = b' (ix1 k)) (q : Fin 64) :
    Spec.finalize hl agg h g b (ix2 r q) = Spec.finalize hl' agg' h' g' b' (ix2 r' q) := by
  unfold Spec.finalize
  show h (ix2 r q) + ((((max (hl (ix2 r q) + agg (ix2 r q)) 0
        - Ideal.div (∑ k : Fin 64, max (hl (ix2 r k) + agg (ix2 r k)) 0) Spec.c64)
        * Ideal.rsqrt (Ideal.div (∑ k : Fin 64, (max (hl (ix2 r k) + agg (ix2 r k)) 0
            - Ideal.div (∑ k : Fin 64, max (hl (ix2 r k) + agg (ix2 r k)) 0) Spec.c64)
          * (max (hl (ix2 r k) + agg (ix2 r k)) 0
            - Ideal.div (∑ k : Fin 64, max (hl (ix2 r k) + agg (ix2 r k)) 0) Spec.c64)) Spec.c64 + Spec.eps))
        * g (ix1 q)) + b (ix1 q))
    = h' (ix2 r' q) + ((((max (hl' (ix2 r' q) + agg' (ix2 r' q)) 0
        - Ideal.div (∑ k : Fin 64, max (hl' (ix2 r' k) + agg' (ix2 r' k)) 0) Spec.c64)
        * Ideal.rsqrt (Ideal.div (∑ k : Fin 64, (max (hl' (ix2 r' k) + agg' (ix2 r' k)) 0
            - Ideal.div (∑ k : Fin 64, max (hl' (ix2 r' k) + agg' (ix2 r' k)) 0) Spec.c64)
          * (max (hl' (ix2 r' k) + agg' (ix2 r' k)) 0
            - Ideal.div (∑ k : Fin 64, max (hl' (ix2 r' k) + agg' (ix2 r' k)) 0) Spec.c64)) Spec.c64 + Spec.eps))
        * g' (ix1 q)) + b' (ix1 q))
  simp only [h0, h1, h2, hg, hb]

/-- The block indices at point `t`: the three moving inputs and the output sit at block row `t`, the two rows at `0`. -/
theorem idx12_0 : ∀ t : Fin cfg12.N, win12_0.index t (0 : Fin 2) = t.val ∧ win12_0.index t (1 : Fin 2) = 0 :=
  (by decide +kernel : ∀ t : Fin grid12.N, win12_0.index t (0 : Fin 2) = t.val ∧ win12_0.index t (1 : Fin 2) = 0)
theorem idx12_1 : ∀ t : Fin cfg12.N, win12_1.index t (0 : Fin 2) = t.val ∧ win12_1.index t (1 : Fin 2) = 0 :=
  (by decide +kernel : ∀ t : Fin grid12.N, win12_1.index t (0 : Fin 2) = t.val ∧ win12_1.index t (1 : Fin 2) = 0)
theorem idx12_2 : ∀ t : Fin cfg12.N, win12_2.index t (0 : Fin 2) = t.val ∧ win12_2.index t (1 : Fin 2) = 0 :=
  (by decide +kernel : ∀ t : Fin grid12.N, win12_2.index t (0 : Fin 2) = t.val ∧ win12_2.index t (1 : Fin 2) = 0)
theorem idx12_3 : ∀ t : Fin cfg12.N, win12_3.index t (0 : Fin 2) = 0 ∧ win12_3.index t (1 : Fin 2) = 0 :=
  (by decide +kernel : ∀ t : Fin grid12.N, win12_3.index t (0 : Fin 2) = 0 ∧ win12_3.index t (1 : Fin 2) = 0)
theorem idx12_4 : ∀ t : Fin cfg12.N, win12_4.index t (0 : Fin 2) = 0 ∧ win12_4.index t (1 : Fin 2) = 0 :=
  (by decide +kernel : ∀ t : Fin grid12.N, win12_4.index t (0 : Fin 2) = 0 ∧ win12_4.index t (1 : Fin 2) = 0)
theorem idx12_5 : ∀ t : Fin cfg12.N, win12_5.index t (0 : Fin 2) = t.val ∧ win12_5.index t (1 : Fin 2) = 0 :=
  (by decide +kernel : ∀ t : Fin grid12.N, win12_5.index t (0 : Fin 2) = t.val ∧ win12_5.index t (1 : Fin 2) = 0)

set_option maxHeartbeats 4000000 in
/-- What point `t` writes back is block `t` of the finalize formula on the whole arrays. -/
theorem flushed12_eq (c : Dev nD) (t : Fin cfg12.N) :
    (dat12 V c).flushed 5 t = ((cfg12.win 5).blk t).view.read (Elt Ideal)
      (Spec.finalize (N := 100000) (V c (Pipeline.arrRef spec12 0)) (V c (Pipeline.arrRef spec12 1)) (V c (Pipeline.arrRef spec12 2))
        (fun j => V c (Pipeline.arrRef spec12 3) (ix2 (0 : Fin 1) (Spec.d0 j)))
        (fun j => V c (Pipeline.arrRef spec12 4) (ix2 (0 : Fin 1) (Spec.d0 j)))) := by
  show (cfg12.win 5).cut (grid12.coords t) ((dat12 V c).after 5 t) = _
  rw [after12_5]
  unfold out12_5
  rw [View.canon_unit_zero hz12]
  simp only [View.ld_unit_zero (S := S5000x64) hz12, View.ld_unit_zero (S := S1x64) hz12]
  rw [pay12_eq]
  obtain ⟨a0, b0⟩ := idx12_0 t
  obtain ⟨a1, b1⟩ := idx12_1 t
  obtain ⟨a2, b2⟩ := idx12_2 t
  obtain ⟨a3, b3⟩ := idx12_3 t
  obtain ⟨a4, b4⟩ := idx12_4 t
  obtain ⟨a5, b5⟩ := idx12_5 t
  funext j
  obtain ⟨p, q, rfl⟩ : ∃ (p : Fin 5000) (q : Fin 64), j = ix2 p q := ⟨j 0, j 1, eq_ix2 j⟩
  have hi : ((cfg12.win 5).blk t).view.emb (ix2 p q)
      = ix2 ((((cfg12.win 5).blk t).view.emb (ix2 p q)) 0 : Fin 100000) q := by
    funext a
    match a with
    | ⟨0, _⟩ => rfl
    | ⟨1, _⟩ => exact Fin.ext (show win12_5.index t (1 : Fin 2) * 64 + 1 * q.val = q.val by omega)
  show Spec.finalize (N := 5000) (iblk12 V c 0 t) (iblk12 V c 1 t) (iblk12 V c 2 t) (Spec.rowOf (iblk12 V c 3 t))
      (Spec.rowOf (iblk12 V c 4 t)) (ix2 p q)
    = Spec.finalize (N := 100000) (V c (Pipeline.arrRef spec12 0)) (V c (Pipeline.arrRef spec12 1)) (V c (Pipeline.arrRef spec12 2))
        (fun j => V c (Pipeline.arrRef spec12 3) (ix2 (0 : Fin 1) (Spec.d0 j)))
        (fun j => V c (Pipeline.arrRef spec12 4) (ix2 (0 : Fin 1) (Spec.d0 j))) (((cfg12.win 5).blk t).view.emb (ix2 p q))
  rw [hi]
  refine finalize_rows12 _ _ _ _ _ _ _ _ _ _ p _ ?_ ?_ ?_ ?_ ?_ q
  · intro k
    show V c (Pipeline.arrRef spec12 0) (((cfg12.win 0).blk t).view.emb (ix2 p k)) = V c (Pipeline.arrRef spec12 0) _
    refine congrArg _ (funext fun a => Fin.ext ?_)
    match a with
    | ⟨0, _⟩ => show win12_0.index t (0 : Fin 2) * 5000 + 1 * p.val = win12_5.index t (0 : Fin 2) * 5000 + 1 * p.val; omega
    | ⟨1, _⟩ => show win12_0.index t (1 : Fin 2) * 64 + 1 * k.val = k.val; omega
  · intro k
    show V c (Pipeline.arrRef spec12 1) (((cfg12.win 1).blk t).view.emb (ix2 p k)) = V c (Pipeline.arrRef spec12 1) _
    refine congrArg _ (funext fun a => Fin.ext ?_)
    match a with
    | ⟨0, _⟩ => show win12_1.index t (0 : Fin 2) * 5000 + 1 * p.val = win12_5.index t (0 : Fin 2) * 5000 + 1 * p.val; omega
    | ⟨1, _⟩ => show win12_1.index t (1 : Fin 2) * 64 + 1 * k.val = k.val; omega
  · intro k
    show V c (Pipeline.arrRef spec12 2) (((cfg12.win 2).blk t).view.emb (ix2 p k)) = V c (Pipeline.arrRef spec12 2) _
    refine congrArg _ (funext fun a => Fin.ext ?_)
    match a with
    | ⟨0, _⟩ => show win12_2.index t (0 : Fin 2) * 5000 + 1 * p.val = win12_5.index t (0 : Fin 2) * 5000 + 1 * p.val; omega
    | ⟨1, _⟩ => show win12_2.index t (1 : Fin 2) * 64 + 1 * k.val = k.val; omega
  · intro k
    show V c (Pipeline.arrRef spec12 3) (((cfg12.win 3).blk t).view.emb (ix2 (0 : Fin 1) k)) = V c (Pipeline.arrRef spec12 3) _
    refine congrArg _ (funext fun a => Fin.ext ?_)
    match a with
    | ⟨0, _⟩ => show win12_3.index t (0 : Fin 2) * 1 + 1 * 0 = 0; omega
    | ⟨1, _⟩ => show win12_3.index t (1 : Fin 2) * 64 + 1 * k.val = k.val; omega
  · intro k
    show V c (Pipeline.arrRef spec12 4) (((cfg12.win 4).blk t).view.emb (ix2 (0 : Fin 1) k)) = V c (Pipeline.arrRef spec12 4) _
    refine congrArg _ (funext fun a => Fin.ext ?_)
    match a with
    | ⟨0, _⟩ => show win12_4.index t (0 : Fin 2) * 1 + 1 * 0 = 0; omega
    | ⟨1, _⟩ => show win12_4.index t (1 : Fin 2) * 64 + 1 * k.val = k.val; omega

/-- An index of the array is in point `t`'s block iff each coordinate is in the block's range on its axis. -/
theorem mem_blk12 (t : Fin cfg12.N) (i : S100000x64.Idx) :
    i ∈ ((cfg12.win 5).blk t).view.set ↔ ∀ a : Fin 2, win12_5.index t a * S5000x64.size a ≤ (i a).val
      ∧ (i a).val < win12_5.index t a * S5000x64.size a + S5000x64.size a := by
  show i ∈ ((View.whole main_v81).slice (win12_5.rect t)).set ↔ _
  rw [View.set_slice_whole, Rect.mem_set_unit]
  exact Iff.rfl

/-- Row `r` of the array lies in the block of point `r / 5000`. -/
theorem cover12 (i : S100000x64.Idx) :
    ∃ t : Fin cfg12.N, (cfg12.win 5).flush t = true ∧ i ∈ ((cfg12.win 5).blk t).view.set := by
  have hi0 : (i 0).val < 100000 := (i 0).isLt
  have hi1 : (i 1).val < 64 := (i 1).isLt
  have hN : cfg12.N = 20 := N_12
  have ht : (i 0).val / 5000 < cfg12.N := by rw [hN]; omega
  obtain ⟨a5, b5⟩ := idx12_5 ⟨(i 0).val / 5000, ht⟩
  refine ⟨⟨(i 0).val / 5000, ht⟩, flush12_5 _, ?_⟩
  rw [mem_blk12]
  intro a
  match a with
  | ⟨0, _⟩ =>
    show win12_5.index ⟨(i 0).val / 5000, ht⟩ (0 : Fin 2) * 5000 ≤ (i 0).val
      ∧ (i 0).val < win12_5.index ⟨(i 0).val / 5000, ht⟩ (0 : Fin 2) * 5000 + 5000
    rw [a5]
    show (i 0).val / 5000 * 5000 ≤ (i 0).val ∧ (i 0).val < (i 0).val / 5000 * 5000 + 5000
    omega
  | ⟨1, _⟩ =>
    show win12_5.index ⟨(i 0).val / 5000, ht⟩ (1 : Fin 2) * 64 ≤ (i 1).val
      ∧ (i 1).val < win12_5.index ⟨(i 0).val / 5000, ht⟩ (1 : Fin 2) * 64 + 64
    rw [b5]
    omega

/-- THE VALUE of the region: after its 20 points the result array is the finalize formula of the five input arrays as
    the region found them. -/
theorem value12 (c : Dev nD) :
    (dat12 (F := Ideal) V c).arrAt 5 cfg12.N
      = Spec.finalize (N := 100000) (V c (Pipeline.arrRef spec12 0)) (V c (Pipeline.arrRef spec12 1)) (V c (Pipeline.arrRef spec12 2))
          (fun j => V c (Pipeline.arrRef spec12 3) (ix2 (0 : Fin 1) (Spec.d0 j)))
          (fun j => V c (Pipeline.arrRef spec12 4) (ix2 (0 : Fin 1) (Spec.d0 j))) :=
  (dat12 V c).arrAt_eq_of_cover 5 _ (fun t _ => flushed12_eq V c t) cover12

end Cert.KernelIdeal.HandV
-- ==== Proof.KI.GlueL2b.lean ====
import proofs.«417395_j71579924955534_2_alg».proof.Proof.KI.GlueCarry
import proofs.«417395_j71579924955534_2_alg».proof.Proof.KI.V11
import proofs.«417395_j71579924955534_2_alg».proof.Proof.KI.V12
import proofs.«417395_j71579924955534_2_alg».proof.Proof.Spec
import proofs.«417395_j71579924955534_2_alg».proof.Proof.EdgeIdx
import proofs.«417395_j71579924955534_2_alg».proof.Proof.Math.Gather
import Idealize.ShloMosaic.Lib.ValueLayout
import Idealize.ShloMosaic.Lib.ValueIdx
import Idealize.ShloMosaic.Lib.StableHlo.Run

/-! # Layer 2, from the attention call's results to the layer's result

The message call turns the scores, the gathered source rows, the edge weights, the global maximum and the global sum into
the messages; the host sums the messages into their target nodes; the finalize call adds, to the layer's input, the
layernorm of the relu of the dense result plus the aggregate, with row 2 of the scale and of the shift arrays. -/

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The host stretch between the two calls, over any previous contents -/

/-- The aggregate array: the messages added, row by row, into a table of zeros at the target vector kept as a column. -/
theorem bk_agg_read_L2 (X : Valuation τ sig (Elt Ideal)) :
    (StableHlo.after hostOps12 X (Proc.devRef .tc main_v74) : S100000x64.Idx → EReal)
      = Host.scatterAdd (F := Ideal) scatter_S100000x64_S1250000x1_S1250000x64_1_0_0_1
          (broadcastInDim S100000x64 ![] bcast_S_S100000x64 (constant (F := Ideal) S_ .f32 0x00000000#32))
          (broadcastInDim S1250000x1 ![0] bcast_S1250000_S1250000x1_0 (X (Proc.devRef .tc main_v1) : S1250000.Idx → BitVec 32))
          (X (Proc.devRef .tc main_v71) : S1250000x64.Idx → EReal) := by
  after_results

/-- The scale row: a row of the scale argument, flattened, kept as a one-row array. -/
theorem bk_g_read_L2 (X : Valuation τ sig (Elt Ideal)) :
    (StableHlo.after hostOps12 X (Proc.devRef .tc main_v79) : S1x64.Idx → EReal)
      = shapeCast S1x64 (shapeCast S64 (extractStridedSlice S1x64 ![2, 0] (X (Proc.devRef .tc main_arg9) : S3x64.Idx → EReal)
          slices_S3x64_S1x64_2_0) shapeCasts_S1x64_S64) shapeCasts_S64_S1x64 := by
  after_results
  rfl

/-- The shift row, likewise. -/
theorem bk_b_read_L2 (X : Valuation τ sig (Elt Ideal)) :
    (StableHlo.after hostOps12 X (Proc.devRef .tc main_v80) : S1x64.Idx → EReal)
      = shapeCast S1x64 (shapeCast S64 (extractStridedSlice S1x64 ![2, 0] (X (Proc.devRef .tc main_arg10) : S3x64.Idx → EReal)
          slices_S3x64_S1x64_2_0) shapeCasts_S1x64_S64) shapeCasts_S64_S1x64 := by
  after_results
  rfl

/-- A row of a three-row array, flattened and kept as a one-row array, read along that row, is the row. -/
theorem bk_sel_row_L2 (B : S3x64.Idx → EReal) :
    (fun j : S64.Idx => shapeCast S1x64 (shapeCast S64 (extractStridedSlice S1x64 ![2, 0] B slices_S3x64_S1x64_2_0)
        shapeCasts_S1x64_S64) shapeCasts_S64_S1x64 (ix2 (0 : Fin 1) (Spec.d0 j))) = Spec.sel2 2 B := by
  funext j
  obtain ⟨q, rfl⟩ : ∃ q : Fin 64, j = ix1 q := ⟨j 0, eq_ix1 j⟩
  show shapeCast S1x64 _ shapeCasts_S64_S1x64 (ix2 (0 : Fin 1) q) = B (ix2 (2 : Fin 3) q)
  rw [shapeCast_a_1a_apply, shapeCast_1a_a_apply, slice2_axis0_apply 2 B _ (0 : Fin 1) q (2 : Fin 3) rfl]

/-! ## The layer's back half -/

/-- The messages: the message formula of the attention call's three results, the gathered source rows and the weight column. -/
theorem bk_msg_value_L2 (c : Dev nD) :
    W27 m c main_v71 = Spec.messageK (W26 m c main_v70_0) (W25 m c main_v64) (Spec.colOf (m ((c.tc : Thread nD τ).loc main_arg2)))
      (W26 m c main_v70_1) (W26 m c main_v70_2) := by
  have y1 : Wr26 m c (Pipeline.arrRef spec11 1) = W25 m c main_v64 := bk_hj_L2 m c
  have y2 : Wr26 m c (Pipeline.arrRef spec11 2) = Spec.colOf (m ((c.tc : Thread nD τ).loc main_arg2)) := bk_v4_L2 m c
  rw [W27_out, value11 (Wr26 m) c, y1, y2]

/-- The aggregate: the messages summed into their target nodes. -/
theorem bk_agg_value_L2 (c : Dev nD) (hin : Spec.InRange 100000 (m ((c.tc : Thread nD τ).loc main_arg1))) :
    W28 m c main_v74 = Spec.aggregate (Spec.messageK (W26 m c main_v70_0) (W25 m c main_v64)
      (Spec.colOf (m ((c.tc : Thread nD τ).loc main_arg2))) (W26 m c main_v70_1) (W26 m c main_v70_2))
      (Spec.endF (m ((c.tc : Thread nD τ).loc main_arg1)) hin 0) := by
  rw [show W28 m c main_v74 = _ from bk_agg_read_L2 (W27 m c), bk_msg_value_L2 m c]
  exact Spec.scatterAdd_eq_aggregate scatter_S100000x64_S1250000x1_S1250000x64_1_0_0_1 rfl rfl rfl rfl
    bcast_S_S100000x64 bcast_S1250000_S1250000x1_0 _ _ (Spec.endF _ hin 0) (bk_v1_L2 m c hin)

set_option maxHeartbeats 4000000 in
/-- THE BACK HALF OF LAYER 2. -/
theorem layer2_back (c : Dev nD) (hin : Spec.InRange 100000 (m ((c.tc : Thread nD τ).loc main_arg1))) :
    W29 m c main_v81 = Spec.finalize (W22 m c main_v62)
      (Spec.aggregate (Spec.messageK (W26 m c main_v70_0) (W25 m c main_v64) (Spec.colOf (m ((c.tc : Thread nD τ).loc main_arg2)))
        (W26 m c main_v70_1) (W26 m c main_v70_2)) (Spec.endF _ hin 0))
      (W20 m c main_v56) (Spec.sel2 2 (m ((c.tc : Thread nD τ).loc main_arg9))) (Spec.sel2 2 (m ((c.tc : Thread nD τ).loc main_arg10))) := by
  have x0 : Wr28 m c (Pipeline.arrRef spec12 0) = W22 m c main_v62 := bk_hl_L2 m c
  have x1 : Wr28 m c (Pipeline.arrRef spec12 1) = _ := bk_agg_value_L2 m c hin
  have x2 : Wr28 m c (Pipeline.arrRef spec12 2) = W20 m c main_v56 := bk_h_L2 m c
  have x3 : (fun j : S64.Idx => Wr28 m c (Pipeline.arrRef spec12 3) (ix2 (0 : Fin 1) (Spec.d0 j)))
      = Spec.sel2 2 (m ((c.tc : Thread nD τ).loc main_arg9)) := by
    rw [show Wr28 m c (Pipeline.arrRef spec12 3) = _ from bk_g_read_L2 (W27 m c), bk_arg9_L2 m c]
    exact bk_sel_row_L2 _
  have x4 : (fun j : S64.Idx => Wr28 m c (Pipeline.arrRef spec12 4) (ix2 (0 : Fin 1) (Spec.d0 j)))
      = Spec.sel2 2 (m ((c.tc : Thread nD τ).loc main_arg10)) := by
    rw [show Wr28 m c (Pipeline.arrRef spec12 4) = _ from bk_b_read_L2 (W27 m c), bk_arg10_L2 m c]
    exact bk_sel_row_L2 _
  rw [W29_out, value12 (Wr28 m) c, x0, x1, x2, x3, x4]

end Cert.KernelIdeal.HandV
-- ==== Proof.KI.V9.lean ====
/- The value of the dense call cc9__dense_kernel at the extended reals: the array its pipeline leaves is, index by
   index, the rows array times the weight plus the bias row. The payload at an index (the product's operand indices
   axis by axis, the contraction re-indexed by its one coordinate, the bias row broadcast along the rows), each
   window's block as a part of its array, what a point writes back, the cover (row r lies in block r / 5000). -/
import proofs.«417395_j71579924955534_2_alg».proof.Proof.KI.R9
import proofs.«417395_j71579924955534_2_alg».proof.Proof.Spec
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The product's operand indices, axis by axis -/

theorem lhs9_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs9_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs9_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs9_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## The payload at an index -/

/-- The body's payload at row p, column q of the block: the row of the first block against the column of the
    weight, plus the bias at the column. -/
theorem pay9_apply (x0 : Vec Ideal S5000x64 .f32) (x1 : Vec Ideal S64x64 .f32) (x2 : Vec Ideal S1x64 .f32) (p : Fin 5000) (q : Fin 64) :
    k9_pay1 x0 x1 x2 (ix2 p q) = (∑ k : Fin 64, x0 (ix2 p k) * x1 (ix2 k q)) + x2 (ix2 (0 : Fin 1) q) := by
  unfold k9_pay1
  simp only [shapeCast_self]
  rw [addf_apply]
  refine congrArg₂ (· + ·) ((Ideal.matmul_constant_zero_apply _ none _ _ _).trans ?_) ?_
  · rw [← Equiv.sum_comp (contrEquiv1 dot_S5000x64_S64x64_S5000x64_1_0_0_1_n_n 64 rfl rfl).symm]
    refine Finset.sum_congr rfl fun k _ => ?_
    have hk := contrEquiv1_symm_val dot_S5000x64_S64x64_S5000x64_1_0_0_1_n_n 64 rfl rfl k
    have el : dot_S5000x64_S64x64_S5000x64_1_0_0_1_n_n.lhsIdx (ix2 p q) ((contrEquiv1 dot_S5000x64_S64x64_S5000x64_1_0_0_1_n_n 64 rfl rfl).symm k) = ix2 p k :=
      funext fun a => Fin.ext (by
        match a with
        | ⟨0, _⟩ => exact lhs9_0 _ _
        | ⟨1, _⟩ => exact (lhs9_1 _ _).trans hk)
    have er : dot_S5000x64_S64x64_S5000x64_1_0_0_1_n_n.rhsIdx (ix2 p q) ((contrEquiv1 dot_S5000x64_S64x64_S5000x64_1_0_0_1_n_n 64 rfl rfl).symm k) = ix2 k q :=
      funext fun a => Fin.ext (by
        match a with
        | ⟨0, _⟩ => exact (rhs9_0 _ _).trans hk
        | ⟨1, _⟩ => exact rhs9_1 _ _)
    rw [el, er]
    rfl
  · exact broadcastTo_apply x2 _ (ix2 p q) (ix2 (0 : Fin 1) q) (fun a => by
      match a with
      | ⟨0, _⟩ => rfl
      | ⟨1, _⟩ => rfl)

/-! ## From the blocks to the array -/

theorem hz9 : (![0, 0] : Fin 2 → Nat) = fun _ => 0 := funext fun a => by fin_cases a <;> rfl

theorem N9 : cfg9.N = 20 := N_9

/-- The printed index maps over the grid: the rows window and the output window sit at block (t, 0); the weight and
    the bias stay at block (0, 0). -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The three arrays the region reads, at their literal shapes. -/
abbrev arr9_0 (c : Dev nD) : S100000x64.Idx → EReal := V c (Pipeline.arrRef spec9 0)
abbrev arr9_1 (c : Dev nD) : S64x64.Idx → EReal := V c (Pipeline.arrRef spec9 1)
abbrev arr9_2 (c : Dev nD) : S1x64.Idx → EReal := V c (Pipeline.arrRef spec9 2)

/-- Row p of block t, as a row of the whole array. -/
def rowAt9 (t : Fin cfg9.N) (p : Fin 5000) : Fin 100000 :=
  ⟨t.val * 5000 + p.val, by have h : t.val < 20 := lt_of_lt_of_eq t.isLt N9; have := p.isLt; omega⟩

/-- The rows block at point t is rows 5000 t … 5000 t + 4999 of the rows array. -/
theorem iblk9_0_apply (c : Dev nD) (t : Fin cfg9.N) (p : Fin 5000) (k : Fin 64) :
    (iblk9 V c 0 t : Vec Ideal S5000x64 .f32) (ix2 p k) = arr9_0 V c (ix2 (rowAt9 t p) k) := by
  obtain ⟨e00, e01, -⟩ := idx_facts9 t
  unfold iblk9
  rw [View.read_apply]
  have h : ((cfg9.win 0).blk t).view.emb (ix2 p k) = (ix2 (rowAt9 t p) k : S100000x64.Idx) := by
    funext a; apply Fin.ext
    match a with
    | ⟨0, _⟩ => show win9_0.index t (0 : Fin 2) * 5000 + 1 * p.val = t.val * 5000 + p.val; rw [e00]; omega
    | ⟨1, _⟩ => show win9_0.index t (1 : Fin 2) * 64 + 1 * k.val = k.val; rw [e01]; omega
  rw [h]
  rfl

/-- The weight block is the weight array. -/
theorem iblk9_1_apply (c : Dev nD) (t : Fin cfg9.N) (k : Fin 64) (q : Fin 64) :
    (iblk9 V c 1 t : Vec Ideal S64x64 .f32) (ix2 k q) = arr9_1 V c (ix2 k q) := by
  obtain ⟨-, -, e10, e11, -⟩ := idx_facts9 t
  unfold iblk9
  rw [View.read_apply]
  have h : ((cfg9.win 1).blk t).view.emb (ix2 k q) = (ix2 k q : S64x64.Idx) := by
    funext a; apply Fin.ext
    match a with
    | ⟨0, _⟩ => show win9_1.index t (0 : Fin 2) * 64 + 1 * k.val = k.val; rw [e10]; omega
    | ⟨1, _⟩ => show win9_1.index t (1 : Fin 2) * 64 + 1 * q.val = q.val; rw [e11]; omega
  rw [h]
  rfl

/-- The bias block is the bias row. -/
theorem iblk9_2_apply (c : Dev nD) (t : Fin cfg9.N) (q : Fin 64) :
    (iblk9 V c 2 t : Vec Ideal S1x64 .f32) (ix2 (0 : Fin 1) q) = arr9_2 V c (ix2 (0 : Fin 1) q) := by
  obtain ⟨-, -, -, -, e20, e21, -⟩ := idx_facts9 t
  unfold iblk9
  rw [View.read_apply]
  have h : ((cfg9.win 2).blk t).view.emb (ix2 (0 : Fin 1) q) = (ix2 (0 : Fin 1) q : S1x64.Idx) := by
    funext a; apply Fin.ext
    match a with
    | ⟨0, _⟩ => show win9_2.index t (0 : Fin 2) * 1 + 1 * (0 : Fin 1).val = (0 : Fin 1).val; rw [e20]; rfl
    | ⟨1, _⟩ => show win9_2.index t (1 : Fin 2) * 64 + 1 * q.val = q.val; rw [e21]; omega
  rw [h]
  rfl

/-- Where the output window's block at point t puts its row p, column q. -/
theorem emb9_3 (t : Fin cfg9.N) (p : Fin 5000) (q : Fin 64) :
    ((cfg9.win 3).blk t).view.emb (ix2 p q) = (ix2 (rowAt9 t p) q : S100000x64.Idx) := by
  obtain ⟨-, -, -, -, -, -, e30, e31⟩ := idx_facts9 t
  funext a; apply Fin.ext
  match a with
  | ⟨0, _⟩ => show win9_3.index t (0 : Fin 2) * 5000 + 1 * p.val = t.val * 5000 + p.val; rw [e30]; omega
  | ⟨1, _⟩ => show win9_3.index t (1 : Fin 2) * 64 + 1 * q.val = q.val; rw [e31]; omega

/-- The array the region leaves, as one function of the three arrays it reads. -/
abbrev G9 (c : Dev nD) : S100000x64.Idx → EReal :=
  Spec.dense (arr9_0 V c) (arr9_1 V c) (fun j => arr9_2 V c (ix2 (0 : Fin 1) (Spec.d0 j)))

/-- What point t writes back is block t of G9. -/
theorem flushed9_eq (c : Dev nD) (t : Fin cfg9.N) :
    (dat9 (F := Ideal) V c).flushed 3 t = ((cfg9.win 3).blk t).view.read (Elt Ideal) (G9 V c) := by
  show (cfg9.win 3).cut (grid9.coords t) ((dat9 V c).after 3 t) = _
  rw [after9_3]
  unfold out9_3
  rw [View.canon_unit_zero hz9]
  simp only [View.ld_unit_zero (S := S5000x64) hz9, View.ld_unit_zero (S := S64x64) hz9, View.ld_unit_zero (S := S1x64) hz9]
  funext y
  obtain ⟨p, q, rfl⟩ : ∃ (p : Fin 5000) (q : Fin 64), y = ix2 p q := ⟨y 0, y 1, eq_ix2 y⟩
  refine (pay9_apply _ _ _ p q).trans ?_
  rw [View.read_apply, emb9_3]
  show _ = (∑ k : Fin 64, arr9_0 V c (ix2 (rowAt9 t p) k) * arr9_1 V c (ix2 k q)) + arr9_2 V c (ix2 (0 : Fin 1) q)
  exact congrArg₂ (· + ·) (Finset.sum_congr rfl fun k _ => congrArg₂ (· * ·) (iblk9_0_apply V c t p k) (iblk9_1_apply V c t k q)) (iblk9_2_apply V c t q)

/-- An index of the array is in point t's block iff each coordinate is in the block's range on its axis. -/
theorem mem_blk9 (t : Fin cfg9.N) (i : S100000x64.Idx) :
    i ∈ ((cfg9.win 3).blk t).view.set ↔ ∀ a : Fin 2, win9_3.index t a * S5000x64.size a ≤ (i a).val ∧ (i a).val < win9_3.index t a * S5000x64.size a + S5000x64.size a := by
  show i ∈ ((View.whole main_v62).slice (win9_3.rect t)).set ↔ _
  rw [View.set_slice_whole, Rect.mem_set_unit]
  exact Iff.rfl

/-- Row r of the array lies in the block of point r / 5000. -/
theorem cover9 (i : S100000x64.Idx) : ∃ t : Fin cfg9.N, (cfg9.win 3).flush t = true ∧ i ∈ ((cfg9.win 3).blk t).view.set := by
  have hi0 : (i 0).val < 100000 := (i 0).isLt
  have hi1 : (i 1).val < 64 := (i 1).isLt
  have ht : (i 0).val / 5000 < cfg9.N := by rw [N9]; omega
  obtain ⟨-, -, -, -, -, -, e30, e31⟩ := idx_facts9 ⟨(i 0).val / 5000, ht⟩
  refine ⟨⟨(i 0).val / 5000, ht⟩, flush9_3 _, ?_⟩
  rw [mem_blk9]
  intro a
  match a with
  | ⟨0, _⟩ =>
    show win9_3.index ⟨(i 0).val / 5000, ht⟩ (0 : Fin 2) * 5000 ≤ (i 0).val ∧ (i 0).val < win9_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win9_3.index ⟨(i 0).val / 5000, ht⟩ (1 : Fin 2) * 64 ≤ (i 1).val ∧ (i 1).val < win9_3.index ⟨(i 0).val / 5000, ht⟩ (1 : Fin 2) * 64 + 64
    rw [e31]; omega

/-- The array the pipeline leaves is the dense map of the three arrays it reads. -/
theorem value9 (c : Dev nD) : (dat9 (F := Ideal) V c).arrAt 3 cfg9.N
    = Spec.dense (V c (Pipeline.arrRef spec9 0)) (V c (Pipeline.arrRef spec9 1)) (fun j => V c (Pipeline.arrRef spec9 2) (ix2 (0 : Fin 1) (Spec.d0 j))) :=
  (dat9 V c).arrAt_eq_of_cover 3 (G9 V c) (fun t _ => flushed9_eq V c t) (cover9)

end Cert.KernelIdeal.HandV

end
-- ==== Proof.KI.GlueL2.lean ====
/-
  Layer 2 of the kernel program at the extended reals. The dense call's result is the layer's linear map of the
  layer's input; the two gathers hand the attention call the rows of that result at the edges' two endpoints; the
  attention call's scores are then the specification's scores; and the finalize call's result is the layer in the
  kernel's arrangement.
-/
import proofs.«417395_j71579924955534_2_alg».proof.Proof.KI.Chain
import proofs.«417395_j71579924955534_2_alg».proof.Proof.KI.GlueCarry
import proofs.«417395_j71579924955534_2_alg».proof.Proof.KI.GlueArgs
import proofs.«417395_j71579924955534_2_alg».proof.Proof.KI.GlueEdge
import proofs.«417395_j71579924955534_2_alg».proof.Proof.KI.GlueL2Host
import proofs.«417395_j71579924955534_2_alg».proof.Proof.KI.GlueTake
import proofs.«417395_j71579924955534_2_alg».proof.Proof.KI.GlueAttn10
import proofs.«417395_j71579924955534_2_alg».proof.Proof.KI.GlueL2b
import proofs.«417395_j71579924955534_2_alg».proof.Proof.KI.V9
import proofs.«417395_j71579924955534_2_alg».proof.Proof.EdgeIdx
import proofs.«417395_j71579924955534_2_alg».proof.Proof.Spec
import Mathlib.Tactic.NormNum

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## Across the dense call and the two gathers -/

/-- After the two gathers a buffer that the dense call's items and the gathers do not write is as the layer found it. -/
theorem fr_mid_L2 (c : Dev nD) (r : Ref sig .tc) (h2 : r ∉ hostOps9_W) (h3 : r ∉ ([main_v62] : List (Ref sig .tc)))
    (h4 : r ∉ hostOps10_W) (h5 : r ∉ hostOps10_1_W) : W24 m c r = W20 m c r :=
  (StableHlo.after_of_writes_sub hostOps10_1 _ hostOps10_1_writes h5 : W24 m c r = W23 m c r).trans
    ((StableHlo.after_of_writes_sub hostOps10 _ hostOps10_writes h4 : W23 m c r = W22 m c r).trans (bk_lo_L2 m c r h2 h3))

/-! ## The dense call -/

/-- The dense call's result is the layer's linear map of the layer's input. -/
theorem front_hl_L2 (c : Dev nD) :
    W22 m c main_v62 = Spec.dense (W20 m c main_v56) (Spec.sel3 2 (m ((c.tc : Thread nD τ).loc main_arg5)))
      (Spec.sel2 2 (m ((c.tc : Thread nD τ).loc main_arg6))) := by
  have e0 : Wr21 m c (Pipeline.arrRef spec9 0) = W20 m c main_v56 :=
    StableHlo.after_of_writes_sub hostOps9 _ hostOps9_writes (by decide)
  have e1 : Wr21 m c (Pipeline.arrRef spec9 1) = Spec.sel3 2 (m ((c.tc : Thread nD τ).loc main_arg5)) :=
    (ops9_v58 (W20 m c)).trans (by rw [fr_arg5_in_L2 m c])
  have e2 : (fun j => Wr21 m c (Pipeline.arrRef spec9 2) (ix2 (0 : Fin 1) (Spec.d0 j)))
      = Spec.sel2 2 (m ((c.tc : Thread nD τ).loc main_arg6)) :=
    (ops9_v61 (W20 m c)).trans (by rw [fr_arg6_in_L2 m c])
  rw [W22_out, value9, e0, e1, e2]

/-! ## The two gathers -/

/-- Before the first gather the target vector has at edge `e` the signed value of the edge's first endpoint. -/
theorem fr_v1_L2 (c : Dev nD) (hin : Spec.InRange 100000 (m ((c.tc : Thread nD τ).loc main_arg1))) (e : Fin 1250000) :
    ((W22 m c main_v1 : S1250000.Idx → BitVec 32) (ix1 e)).toInt
      = ((Spec.endF (m ((c.tc : Thread nD τ).loc main_arg1)) hin 0 e).val : ℤ) := by
  rw [show W22 m c main_v1 = W1 m c main_v1 from (bk_lo_L2 m c main_v1 (by decide) (by decide)).trans (bk_v1_in_L2 m c)]
  exact bk_v1_W1 m c hin e

/-- Before the second gather the source vector has at edge `e` the signed value of the edge's second endpoint. -/
theorem fr_v3_L2 (c : Dev nD) (hin : Spec.InRange 100000 (m ((c.tc : Thread nD τ).loc main_arg1))) (e : Fin 1250000) :
    ((W23 m c main_v3 : S1250000.Idx → BitVec 32) (ix1 e)).toInt
      = ((Spec.endF (m ((c.tc : Thread nD τ).loc main_arg1)) hin 1 e).val : ℤ) := by
  have s : W23 m c main_v3 = W1 m c main_v3 :=
    (StableHlo.after_of_writes_sub hostOps10 _ hostOps10_writes (by decide) : W23 m c main_v3 = W22 m c main_v3).trans
      ((bk_lo_L2 m c main_v3 (by decide) (by decide)).trans (fr_v3_in_L2 m c))
  rw [s, show (W1 m c main_v3 : S1250000.Idx → BitVec 32) (ix1 e) = _ from ops0_v3 (W0 m c) e]
  exact Spec.endF_spec _ hin 1 e

/-- The attention call's first window: the dense result's rows at the edges' first endpoints. -/
theorem front_hi_L2 (c : Dev nD) (hin : Spec.InRange 100000 (m ((c.tc : Thread nD τ).loc main_arg1))) :
    W25 m c main_v63 = Spec.rowsOf (W22 m c main_v62) (Spec.endF (m ((c.tc : Thread nD τ).loc main_arg1)) hin 0) :=
  ((StableHlo.after_of_writes_sub hostOps10_2 _ hostOps10_2_writes (by decide) : W25 m c main_v63 = W24 m c main_v63).trans
    (StableHlo.after_of_writes_sub hostOps10_1 _ hostOps10_1_writes (by decide) : W24 m c main_v63 = W23 m c main_v63)).trans
    (take_rows2 (W22 m c) _ (fr_v1_L2 m c hin))

/-- The attention call's second window: the dense result's rows at the edges' second endpoints. -/
theorem front_hj_L2 (c : Dev nD) (hin : Spec.InRange 100000 (m ((c.tc : Thread nD τ).loc main_arg1))) :
    W25 m c main_v64 = Spec.rowsOf (W22 m c main_v62) (Spec.endF (m ((c.tc : Thread nD τ).loc main_arg1)) hin 1) := by
  have s : W25 m c main_v64 = W24 m c main_v64 := StableHlo.after_of_writes_sub hostOps10_2 _ hostOps10_2_writes (by decide)
  have t : W23 m c main_v62 = W22 m c main_v62 := StableHlo.after_of_writes_sub hostOps10 _ hostOps10_writes (by decide)
  rw [s, ← t]
  exact take_cols2 (W23 m c) _ (fr_v3_L2 m c hin)

/-! ## The attention vector and bias -/

theorem front_aw_L2 (c : Dev nD) : W25 m c main_v66 = Spec.sel3 2 (m ((c.tc : Thread nD τ).loc main_arg7)) :=
  (ops10_2_v66 (W24 m c)).trans
    (by rw [(fr_mid_L2 m c main_arg7 (by decide) (by decide) (by decide) (by decide)).trans (fr_arg7_in_L2 m c)])

theorem front_ab_L2 (c : Dev nD) : Spec.rowOf (W25 m c main_v69) = Spec.sel2 2 (m ((c.tc : Thread nD τ).loc main_arg8)) :=
  (ops10_2_v69 (W24 m c)).trans
    (by rw [(fr_mid_L2 m c main_arg8 (by decide) (by decide) (by decide) (by decide)).trans (fr_arg8_in_L2 m c)])

/-! ## The scores, and the layer -/

/-- The edges' scores the attention call computes are the specification's, of the dense result. -/
theorem front_s_L2 (c : Dev nD) (hin : Spec.InRange 100000 (m ((c.tc : Thread nD τ).loc main_arg1))) :
    scores10 (Wr25 m) c
      = Spec.score (Spec.rowsOf (W22 m c main_v62) (Spec.endF (m ((c.tc : Thread nD τ).loc main_arg1)) hin 0))
          (Spec.rowsOf (W22 m c main_v62) (Spec.endF (m ((c.tc : Thread nD τ).loc main_arg1)) hin 1))
          (Spec.sel3 2 (m ((c.tc : Thread nD τ).loc main_arg7))) (Spec.sel2 2 (m ((c.tc : Thread nD τ).loc main_arg8))) := by
  rw [scores10_W25, front_hi_L2 m c hin, front_hj_L2 m c hin, front_aw_L2, front_ab_L2]

/-- LAYER 2: the finalize call's result is the layer, in the kernel's arrangement, of the layer's input and of the
    launch contents of the argument arrays. -/
theorem layer2_value (c : Dev nD) (hin : Spec.InRange 100000 (m ((c.tc : Thread nD τ).loc main_arg1))) :
    W29 m c main_v81 = Spec.layerK (by norm_num : 250 * 5000 = 1250000)
      (Spec.endF (m ((c.tc : Thread nD τ).loc main_arg1)) hin 0) (Spec.endF (m ((c.tc : Thread nD τ).loc main_arg1)) hin 1)
      (m ((c.tc : Thread nD τ).loc main_arg2)) (W20 m c main_v56)
      (Spec.sel3 2 (m ((c.tc : Thread nD τ).loc main_arg5))) (Spec.sel2 2 (m ((c.tc : Thread nD τ).loc main_arg6)))
      (Spec.sel3 2 (m ((c.tc : Thread nD τ).loc main_arg7))) (Spec.sel2 2 (m ((c.tc : Thread nD τ).loc main_arg8)))
      (Spec.sel2 2 (m ((c.tc : Thread nD τ).loc main_arg9))) (Spec.sel2 2 (m ((c.tc : Thread nD τ).loc main_arg10))) := by
  rw [layer2_back m c hin, attn10_out0, attn10_out1, attn10_out2, front_s_L2 m c hin, front_hj_L2 m c hin, front_hl_L2 m c]
  rfl

end Cert.KernelIdeal.HandV

end
-- ==== Proof.KI.Glue.lean ====
/-
  The kernel program's value at the extended reals: the input layer, the three graph layers and the output head
  composed. Each stage's array is the stage's map of the previous stage's array and of the launch contents of the
  argument arrays; the composition is the network in the kernel's arrangement.
-/
import proofs.«417395_j71579924955534_2_alg».proof.Proof.KI.GlueEnds
import proofs.«417395_j71579924955534_2_alg».proof.Proof.KI.GlueL0
import proofs.«417395_j71579924955534_2_alg».proof.Proof.KI.GlueL1
import proofs.«417395_j71579924955534_2_alg».proof.Proof.KI.GlueL2
import proofs.«417395_j71579924955534_2_alg».proof.Proof.EdgeIdx
import proofs.«417395_j71579924955534_2_alg».proof.Proof.Spec
import Mathlib.Tactic.NormNum

set_option maxRecDepth 16384

noncomputable section

namespace Cert.KernelIdeal.HandV

open Cert.KernelIdeal Cert.KernelIdeal.Gen Cert.KernelIdeal.GenP Cert.KernelIdeal.Hand
open Idealize.ShloMosaic Idealize.ShloMosaic.TcCoe Idealize.SL.Sem Idealize.ShloMosaic.ValueIdx

variable (m : (ℓ : Loc nD τ sig) → Buf (Elt Ideal) ℓ)

/-- THE KERNEL PROGRAM'S VALUE: the output array is the network, in the kernel's arrangement, of the launch contents of
    the argument arrays, the edge list read as its two maps from edges to nodes. -/
theorem kernel_value (c : Dev nD) (hin : Spec.InRange 100000 (m ((c.tc : Thread nD τ).loc main_arg1))) :
    W33 m c main_v85 = Spec.networkK (by norm_num : 250 * 5000 = 1250000) (Spec.endF _ hin 0) (Spec.endF _ hin 1)
      (m ((c.tc : Thread nD τ).loc main_arg0)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) (m ((c.tc : Thread nD τ).loc main_arg12))
      (m ((c.tc : Thread nD τ).loc main_arg13)) (m ((c.tc : Thread nD τ).loc main_arg14)) := by
  rw [head_value, layer2_value m c hin, layer1_value m c hin, layer0_value m c hin, dense0_value]
  rfl

end Cert.KernelIdeal.HandV

end
-- ==== Proof.Assemble.lean ====
/-
  The algebraic claim assembled: the kernel's run ends with the kernel's arrangement of the network, the
  reference's run with the reference's value, which is the specified network; on real inputs, with every edge
  endpoint a node number, the two arrangements are the same array. The precondition gives both facts.
-/
import proofs.«417395_j71579924955534_2_alg».proof.Defs
import proofs.«417395_j71579924955534_2_alg».proof.Proof.Gen.KernelIdeal
import proofs.«417395_j71579924955534_2_alg».proof.Proof.Gen.ReferenceIdeal
import proofs.«417395_j71579924955534_2_alg».proof.Proof.Gen.Pre_finite_inputs
import proofs.«417395_j71579924955534_2_alg».proof.Proof.PreDecode
import proofs.«417395_j71579924955534_2_alg».proof.Proof.Math.Network
import proofs.«417395_j71579924955534_2_alg».proof.Proof.Ref.Run
import proofs.«417395_j71579924955534_2_alg».proof.Proof.Ref.ReadNet
import proofs.«417395_j71579924955534_2_alg».proof.Proof.KI.Run
import proofs.«417395_j71579924955534_2_alg».proof.Proof.KI.Glue

noncomputable section

namespace Cert.Proof.Parts

open Idealize.ShloMosaic Idealize.SL.Sem

/-- The reference runs and leaves its arguments unchanged. -/
theorem frame_ri : Cert.frame_ReferenceIdeal := by
  intro m ρ _
  exact (θ_run (Cert.ReferenceIdeal.defs (F := Ideal)) _ _).mono (fun _ h c => (h c).2) (Cert.ReferenceIdeal.Hand.run m ρ)

/-- THE ALGEBRAIC CLAIM: from memories agreeing on the arguments, with real inputs and edge endpoints that are node
    numbers, both programs end with the specified network's array, the kernel's arrangement of it being equal to the
    plain one on real inputs. -/
theorem algebraic : Cert.algebraic_KernelIdeal_ReferenceIdeal := by
  intro m ρ m' ρ' hpre hagree
  have hdec := fun c : Dev Cert.KernelIdeal.nD => Cert.PreDecode.decode _ _ _ _ _ _ _ _ _ _ _ _ _ _ _ (hpre c)
  have hin : ∀ c : Dev Cert.KernelIdeal.nD, Cert.Spec.InRange 100000 (m ((c.tc : Thread Cert.KernelIdeal.nD Cert.KernelIdeal.τ).loc Cert.KernelIdeal.main_arg1)) :=
    fun c j => (hdec c).2.1 j
  refine ⟨fun c => Cert.Spec.network (Cert.Spec.endF _ (hin c) 0) (Cert.Spec.endF _ (hin c) 1)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · refine (θ_run (Cert.KernelIdeal.defs (F := Ideal)) _ _).mono (fun r h c => ?_) (Cert.KernelIdeal.Hand.run_value m ρ)
    obtain ⟨h0, -, h2, h3, h4, h5, h6, h7, h8, h9, h10, -, -, -, -⟩ := hdec c
    exact ⟨(h c).1.trans ((Cert.KernelIdeal.HandV.kernel_value m c (hin c)).trans
      (Cert.Spec.networkK_eq_network _ (by norm_num) _ _ _ _ _ _ h0 h2 h3 h4 h5 h6 h7 h8 h9 h10)), (h c).2⟩
  · refine (θ_run (Cert.ReferenceIdeal.defs (F := Ideal)) _ _).mono (fun r h c => ?_) (Cert.ReferenceIdeal.Hand.run m' ρ')
    obtain ⟨e0, e1, e2, e3, e4, e5, e6, e7, e8, e9, e10, e11, e12, e13, e14⟩ := hagree c
    refine ⟨(h c).1.trans ?_, (h c).2⟩
    rw [e0, e1, e2, e3, e4, e5, e6, e7, e8, e9, e10, e11, e12, e13, e14]
    exact Cert.ReferenceIdeal.HandV.refVal_eq _ _ _ _ _ _ _ _ _ _ _ _ _ _ _ (hin c)

end Cert.Proof.Parts

end
-- ==== Proof.lean ====
/-
  The certificate of a three-layer graph attention network on 100000 nodes and 1250000 edges, hidden width 64:
  the kernel program (fifteen tiled calls — dense maps, the per-edge attention score with a running global maximum
  and rescaled sum kept across the 250 edge blocks, the message, and the relu / layernorm / residual step — with the
  row gathers and the scatter-add between them on the host) against the plain reference network.

  Precondition: every float input is finite and every entry of the edge array is a node number in [0, 100000).
  Outside that range the reference's own gather indexes out of range (it clamps) while the kernel's take fills in a
  not-a-number, and the global softmax spreads the difference to every output; inside it both gathers read the same
  rows.

  The frames: each program runs to the end from any memory satisfying the precondition, faults nowhere and leaves
  its arguments as launched. For the two kernel programs (one text, read at the word-level and at the ideal instance)
  this is the chain of the fifteen regions' segments and the host stretches between them, each region from its own
  body's run at every grid point; for the reference, its operations run one after the other.

  The value, at the ideal instance (floats are extended reals, operations exact): every region's output array is an
  index-level function of its input arrays — a dense map `x·W + b`, the leaky-relu score of the two gathered rows,
  the running pair `(max, ∑ exp (s − max))` after the last block, the message `exp (s − m) · (1 / l) · w · h_j`, and
  `h + layernorm (relu (hl + agg))` —, the host gathers and scatter-add read rows and sum rows of in-range indices,
  and the composition is the network in the kernel's arrangement. The reference's stages compose to the network in
  its own arrangement (one global `max`, one global sum, a quotient). The two arrangements agree on real-valued
  inputs: the running recurrence over the blocks telescopes to the global maximum and sum (`exp (a − b) · exp (c − a)
  = exp (c − b)`), and `x · (1 / l) = x / l` for the positive real `l`; finiteness of every intermediate — needed
  exactly there — follows layer by layer from the finiteness of the inputs (the layernorm's variance plus epsilon is
  a positive real). The idealization rewrote nothing, so its conjunct is trivial.
-/
import proofs.«417395_j71579924955534_2_alg».proof.Defs
import proofs.«417395_j71579924955534_2_alg».proof.Proof.Gen.Kernel
import proofs.«417395_j71579924955534_2_alg».proof.Proof.Gen.KernelIdeal
import proofs.«417395_j71579924955534_2_alg».proof.Proof.Gen.ReferenceIdeal
import proofs.«417395_j71579924955534_2_alg».proof.Proof.Gen.Pre_finite_inputs
import proofs.«417395_j71579924955534_2_alg».proof.Proof.K.Run
import proofs.«417395_j71579924955534_2_alg».proof.Proof.KI.Run
import proofs.«417395_j71579924955534_2_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.Parts.frame_ri,
    trivial,
    Cert.Proof.Parts.algebraic⟩

end Cert.Proof

end
